-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_v118 : IVec S_ 1) (main_v119 : FVec F S10 .f32) : IVec S_ 1 :=
  let main_cst_46 : FVec F S_ .f32 := constant S_ .f32 0x7F800000#32
  let main_v120 : FVec F S10 .f32 := broadcastInDim S10 ![] bcast_S_S10 main_cst_46
  let main_v121 : IVec S10 1 := cmpf .olt main_v119 main_v120
  let main_c_47 : IVec S_ 1 := constantI S_ 1 1#1
  let main_v122 : IVec S_ 1 := (fun x v => Host.reduce IntOp.andi x v reducesTo_S10_S_d0 h_S_) main_v121 main_c_47
  let main_v123 : IVec S_ 1 := andi main_v118 main_v122
  main_v123

def fn_part6 {F : FTy → Type} [FloatOps F] (main_arg23 : FVec F S64x64 .f32) (main_arg24 : FVec F S64 .f32) (main_arg25 : FVec F S64x10 .f32) (main_arg26 : FVec F S10 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x64 .f32 := Host.absf main_arg23
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x10 .f32 := Host.absf main_arg25
  let main_cst_44 : FVec F S_ .f32 := constant S_ .f32 0x7F800000#32
  let main_v115 : FVec F S64x10 .f32 := broadcastInDim S64x10 ![] bcast_S_S64x10 main_cst_44
  let main_v116 : IVec S64x10 1 := cmpf .olt main_v114 main_v115
  let main_c_45 : IVec S_ 1 := constantI S_ 1 1#1
  let main_v117 : IVec S_ 1 := (fun x v => Host.reduce IntOp.andi x v reducesTo_S64x10_S_d0_1 h_S_) main_v116 main_c_45
  let main_v118 : IVec S_ 1 := andi main_v113 main_v117
  let main_v119 : FVec F S10 .f32 := Host.absf main_arg26
  fn_part7 (F := F) main_v118 main_v119

def fn_part5 {F : FTy → Type} [FloatOps F] (main_arg20 : FVec F S64 .f32) (main_arg21 : FVec F S64 .f32) (main_arg22 : FVec F S64 .f32) (main_arg23 : FVec F S64x64 .f32) (main_arg24 : FVec F S64 .f32) (main_arg25 : FVec F S64x10 .f32) (main_arg26 : FVec F S10 .f32) (main_v83 : IVec S_ 1) (main_v84 : FVec F S32x64 .f32) (main_cst_32 : FVec F S_ .f32) : IVec S_ 1 :=
  let main_v85 : FVec F S32x64 .f32 := broadcastInDim S32x64 ![] bcast_S_S32x64 main_cst_32
  let main_v86 : IVec S32x64 1 := cmpf .olt main_v84 main_v85
  let main_c_33 : IVec S_ 1 := constantI S_ 1 1#1
  let main_v87 : IVec S_ 1 := (fun x v => Host.reduce IntOp.andi x v reducesTo_S32x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S32 .f32) (main_arg17 : FVec F S32 .f32) (main_arg18 : FVec F S32x64 .f32) (main_arg19 : FVec F S32x64 .f32) (main_arg20 : FVec F S64 .f32) (main_arg21 : FVec F S64 .f32) (main_arg22 : FVec F S64 .f32) (main_arg23 : FVec F S64x64 .f32) (main_arg24 : FVec F S64 .f32) (main_arg25 : FVec F S64x10 .f32) (main_arg26 : FVec F S10 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x64 .f32 := Host.absf main_arg18
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S32x64 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S32x32 .f32) (main_arg14 : FVec F S32x32 .f32) (main_arg15 : FVec F S32 .f32) (main_arg16 : FVec F S32 .f32) (main_arg17 : FVec F S32 .f32) (main_arg18 : FVec F S32x64 .f32) (main_arg19 : FVec F S32x64 .f32) (main_arg20 : FVec F S64 .f32) (main_arg21 : FVec F S64 .f32) (main_arg22 : FVec F S64 .f32) (main_arg23 : FVec F S64x64 .f32) (main_arg24 : FVec F S64 .f32) (main_arg25 : FVec F S64x10 .f32) (main_arg26 : FVec F S10 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x32 .f32 := Host.absf main_arg14
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S16x32 .f32) (main_arg10 : FVec F S32 .f32) (main_arg11 : FVec F S32 .f32) (main_arg12 : FVec F S32 .f32) (main_arg13 : FVec F S32x32 .f32) (main_arg14 : FVec F S32x32 .f32) (main_arg15 : FVec F S32 .f32) (main_arg16 : FVec F S32 .f32) (main_arg17 : FVec F S32 .f32) (main_arg18 : FVec F S32x64 .f32) (main_arg19 : FVec F S32x64 .f32) (main_arg20 : FVec F S64 .f32) (main_arg21 : FVec F S64 .f32) (main_arg22 : FVec F S64 .f32) (main_arg23 : FVec F S64x64 .f32) (main_arg24 : FVec F S64 .f32) (main_arg25 : FVec F S64x10 .f32) (main_arg26 : FVec F S10 .f32) (main_v33 : IVec S_ 1) : IVec S_ 1 :=
  let main_v34 : FVec F S16x32 .f32 := Host.absf main_arg9
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S16 .f32) (main_arg7 : FVec F S16 .f32) (main_arg8 : FVec F S16x32 .f32) (main_arg9 : FVec F S16x32 .f32) (main_arg10 : FVec F S32 .f32) (main_arg11 : FVec F S32 .f32) (main_arg12 : FVec F S32 .f32) (main_arg13 : FVec F S32x32 .f32) (main_arg14 : FVec F S32x32 .f32) (main_arg15 : FVec F S32 .f32) (main_arg16 : FVec F S32 .f32) (main_arg17 : FVec F S32 .f32) (main_arg18 : FVec F S32x64 .f32) (main_arg19 : FVec F S32x64 .f32) (main_arg20 : FVec F S64 .f32) (main_arg21 : FVec F S64 .f32) (main_arg22 : FVec F S64 .f32) (main_arg23 : FVec F S64x64 .f32) (main_arg24 : FVec F S64 .f32) (main_arg25 : FVec F S64x10 .f32) (main_arg26 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x32 .f32 := Host.absf main_arg8
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x64 .f32) (main_arg1 : IVec S2x3200000 32) (main_arg2 : IVec S100000 32) (main_arg3 : FVec F S64x16 .f32) (main_arg4 : FVec F S64x16 .f32) (main_arg5 : FVec F S16 .f32) (main_arg6 : FVec F S16 .f32) (main_arg7 : FVec F S16 .f32) (main_arg8 : FVec F S16x32 .f32) (main_arg9 : FVec F S16x32 .f32) (main_arg10 : FVec F S32 .f32) (main_arg11 : FVec F S32 .f32) (main_arg12 : FVec F S32 .f32) (main_arg13 : FVec F S32x32 .f32) (main_arg14 : FVec F S32x32 .f32) (main_arg15 : FVec F S32 .f32) (main_arg16 : FVec F S32 .f32) (main_arg17 : FVec F S32 .f32) (main_arg18 : FVec F S32x64 .f32) (main_arg19 : FVec F S32x64 .f32) (main_arg20 : FVec F S64 .f32) (main_arg21 : FVec F S64 .f32) (main_arg22 : FVec F S64 .f32) (main_arg23 : FVec F S64x64 .f32) (main_arg24 : FVec F S64 .f32) (main_arg25 : FVec F S64x10 .f32) (main_arg26 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg3
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x16 .f32 := Host.absf main_arg4
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x16 : Shape := ⟨2, ![100000, 16]⟩
abbrev S5000x64 : Shape := ⟨2, ![5000, 64]⟩
abbrev S5000x16 : Shape := ⟨2, ![5000, 16]⟩
abbrev S3200000x16 : Shape := ⟨2, ![3200000, 16]⟩
abbrev S1x16 : Shape := ⟨2, ![1, 16]⟩
abbrev S1x32 : Shape := ⟨2, ![1, 32]⟩
abbrev S100000x32 : Shape := ⟨2, ![100000, 32]⟩
abbrev S5000x32 : Shape := ⟨2, ![5000, 32]⟩
abbrev S25000x128 : Shape := ⟨2, ![25000, 128]⟩
abbrev S1x1x1x32 : Shape := ⟨4, ![1, 1, 1, 32]⟩
abbrev S1x1x4x32 : Shape := ⟨4, ![1, 1, 4, 32]⟩
abbrev S1x128 : Shape := ⟨2, ![1, 128]⟩
abbrev S5000x128 : Shape := ⟨2, ![5000, 128]⟩
abbrev S3200000x32 : Shape := ⟨2, ![3200000, 32]⟩
abbrev S1x64 : Shape := ⟨2, ![1, 64]⟩
abbrev S50000x128 : Shape := ⟨2, ![50000, 128]⟩
abbrev S1x1x1x64 : Shape := ⟨4, ![1, 1, 1, 64]⟩
abbrev S1x1x2x64 : Shape := ⟨4, ![1, 1, 2, 64]⟩
abbrev S256x64 : Shape := ⟨2, ![256, 64]⟩
abbrev S256x1 : Shape := ⟨2, ![256, 1]⟩
abbrev S1x10 : Shape := ⟨2, ![1, 10]⟩
abbrev S256x10 : Shape := ⟨2, ![256, 10]⟩
abbrev S256 : Shape := ⟨1, ![256]⟩

abbrev nBuf : Space → Nat
  | .hbm => 258
  | .vmem => 94
  | .smem => 0
  | _ => 0

abbrev hbmTy0_0 (i : Nat) : BufTy := match i % 128 with
  | 0 => ⟨S100000x64, .f32⟩
  | 1 => ⟨S2x3200000, .i32⟩
  | 2 => ⟨S100000, .i32⟩
  | 3 => ⟨S64x16, .f32⟩
  | 4 => ⟨S64x16, .f32⟩
  | 5 => ⟨S16, .f32⟩
  | 6 => ⟨S16, .f32⟩
  | 7 => ⟨S16, .f32⟩
  | 8 => ⟨S16x32, .f32⟩
  | 9 => ⟨S16x32, .f32⟩
  | 10 => ⟨S32, .f32⟩
  | 11 => ⟨S32, .f32⟩
  | 12 => ⟨S32, .f32⟩
  | 13 => ⟨S32x32, .f32⟩
  | 14 => ⟨S32x32, .f32⟩
  | 15 => ⟨S32, .f32⟩
  | 16 => ⟨S32, .f32⟩
  | 17 => ⟨S32, .f32⟩
  | 18 => ⟨S32x64, .f32⟩
  | 19 => ⟨S32x64, .f32⟩
  | 20 => ⟨S64, .f32⟩
  | 21 => ⟨S64, .f32⟩
  | 22 => ⟨S64, .f32⟩
  | 23 => ⟨S64x64, .f32⟩
  | 24 => ⟨S64, .f32⟩
  | 25 => ⟨S64x10, .f32⟩
  | 26 => ⟨S10, .f32⟩
  | 27 => ⟨S1x3200000, .i32⟩
  | 28 => ⟨S3200000, .i32⟩
  | 29 => ⟨S1x3200000, .i32⟩
  | 30 => ⟨S3200000, .i32⟩
  | 31 => ⟨S_, .f32⟩
  | 32 => ⟨S3200000x1, .f32⟩
  | 33 => ⟨S_, .f32⟩
  | 34 => ⟨S100000x1, .f32⟩
  | 35 => ⟨S3200000x1, .i32⟩
  | 36 => ⟨S100000x1, .f32⟩
  | 37 => ⟨S100000x16, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x16, .f32⟩
  | 47 => ⟨S_, .f32⟩
  | 48 => ⟨S100000x16, .f32⟩
  | 49 => ⟨S3200000x1, .i32⟩
  | 50 => ⟨S100000x16, .f32⟩
  | 51 => ⟨S_, .f32⟩
  | 52 => ⟨S100000x1, .f32⟩
  | 53 => ⟨S100000x1, .f32⟩
  | 54 => ⟨S100000x16, .f32⟩
  | 55 => ⟨S100000x16, .f32⟩
  | 56 => ⟨S1x16, .f32⟩
  | 57 => ⟨S100000x16, .f32⟩
  | 58 => ⟨S1x16, .f32⟩
  | 59 => ⟨S1x16, .f32⟩
  | 60 => ⟨S_, .f32⟩
  | 61 => ⟨S1x16, .f32⟩
  | 62 => ⟨S1x16, .f32⟩
  | 63 => ⟨S16, .f32⟩
  | 64 => ⟨S_, .f32⟩
  | 65 => ⟨S1x16, .f32⟩
  | 66 => ⟨S1x16, .f32⟩
  | 67 => ⟨S16, .f32⟩
  | 68 => ⟨S16, .f32⟩
  | 69 => ⟨S16, .f32⟩
  | 70 => ⟨S_, .f32⟩
  | 71 => ⟨S16, .f32⟩
  | 72 => ⟨S16, .f32⟩
  | 73 => ⟨S1x16, .f32⟩
  | 74 => ⟨S1x16, .f32⟩
  | 75 => ⟨S1x16, .f32⟩
  | 76 => ⟨S1x16, .f32⟩
  | 77 => ⟨S100000x16, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x16, .f32⟩
  | 87 => ⟨S_, .f32⟩
  | 88 => ⟨S100000x16, .f32⟩
  | 89 => ⟨S3200000x1, .i32⟩
  | 90 => ⟨S100000x16, .f32⟩
  | 91 => ⟨S_, .f32⟩
  | 92 => ⟨S100000x1, .f32⟩
  | 93 => ⟨S100000x1, .f32⟩
  | 94 => ⟨S100000x16, .f32⟩
  | 95 => ⟨S100000x16, .f32⟩
  | 96 => ⟨S1x32, .f32⟩
  | 97 => ⟨S100000x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S32, .f32⟩
  | 104 => ⟨S_, .f32⟩
  | 105 => ⟨S1x32, .f32⟩
  | 106 => ⟨S1x32, .f32⟩
  | 107 => ⟨S32, .f32⟩
  | 108 => ⟨S32, .f32⟩
  | 109 => ⟨S32, .f32⟩
  | 110 => ⟨S_, .f32⟩
  | 111 => ⟨S32, .f32⟩
  | 112 => ⟨S32, .f32⟩
  | 113 => ⟨S25000x128, .f32⟩
  | 114 => ⟨S1x32, .f32⟩
  | 115 => ⟨S1x1x1x32, .f32⟩
  | 116 => ⟨S1x1x4x32, .f32⟩
  | 117 => ⟨S1x128, .f32⟩
  | 118 => ⟨S1x32, .f32⟩
  | 119 => ⟨S1x1x1x32, .f32⟩
  | 120 => ⟨S1x1x4x32, .f32⟩
  | 121 => ⟨S1x128, .f32⟩
  | 122 => ⟨S1x32, .f32⟩
  | 123 => ⟨S1x1x1x32, .f32⟩
  | 124 => ⟨S1x1x4x32, .f32⟩
  | 125 => ⟨S1x128, .f32⟩
  | 126 => ⟨S1x32, .f32⟩
  | 127 => ⟨S1x1x1x32, .f32⟩
  | _ => ⟨S100000x64, .f32⟩

abbrev hbmTy0_1 (i : Nat) : BufTy := match i % 128 with
  | 0 => ⟨S1x1x4x32, .f32⟩
  | 1 => ⟨S1x128, .f32⟩
  | 2 => ⟨S25000x128, .f32⟩
  | 3 => ⟨S100000x32, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x32, .f32⟩
  | 13 => ⟨S_, .f32⟩
  | 14 => ⟨S100000x32, .f32⟩
  | 15 => ⟨S3200000x1, .i32⟩
  | 16 => ⟨S100000x32, .f32⟩
  | 17 => ⟨S_, .f32⟩
  | 18 => ⟨S100000x1, .f32⟩
  | 19 => ⟨S100000x1, .f32⟩
  | 20 => ⟨S100000x32, .f32⟩
  | 21 => ⟨S100000x32, .f32⟩
  | 22 => ⟨S1x32, .f32⟩
  | 23 => ⟨S100000x32, .f32⟩
  | 24 => ⟨S1x32, .f32⟩
  | 25 => ⟨S1x32, .f32⟩
  | 26 => ⟨S_, .f32⟩
  | 27 => ⟨S1x32, .f32⟩
  | 28 => ⟨S1x32, .f32⟩
  | 29 => ⟨S32, .f32⟩
  | 30 => ⟨S_, .f32⟩
  | 31 => ⟨S1x32, .f32⟩
  | 32 => ⟨S1x32, .f32⟩
  | 33 => ⟨S32, .f32⟩
  | 34 => ⟨S32, .f32⟩
  | 35 => ⟨S32, .f32⟩
  | 36 => ⟨S_, .f32⟩
  | 37 => ⟨S32, .f32⟩
  | 38 => ⟨S32, .f32⟩
  | 39 => ⟨S25000x128, .f32⟩
  | 40 => ⟨S1x32, .f32⟩
  | 41 => ⟨S1x1x1x32, .f32⟩
  | 42 => ⟨S1x1x4x32, .f32⟩
  | 43 => ⟨S1x128, .f32⟩
  | 44 => ⟨S1x32, .f32⟩
  | 45 => ⟨S1x1x1x32, .f32⟩
  | 46 => ⟨S1x1x4x32, .f32⟩
  | 47 => ⟨S1x128, .f32⟩
  | 48 => ⟨S1x32, .f32⟩
  | 49 => ⟨S1x1x1x32, .f32⟩
  | 50 => ⟨S1x1x4x32, .f32⟩
  | 51 => ⟨S1x128, .f32⟩
  | 52 => ⟨S1x32, .f32⟩
  | 53 => ⟨S1x1x1x32, .f32⟩
  | 54 => ⟨S1x1x4x32, .f32⟩
  | 55 => ⟨S1x128, .f32⟩
  | 56 => ⟨S25000x128, .f32⟩
  | 57 => ⟨S100000x32, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x32, .f32⟩
  | 67 => ⟨S_, .f32⟩
  | 68 => ⟨S100000x32, .f32⟩
  | 69 => ⟨S3200000x1, .i32⟩
  | 70 => ⟨S100000x32, .f32⟩
  | 71 => ⟨S_, .f32⟩
  | 72 => ⟨S100000x1, .f32⟩
  | 73 => ⟨S100000x1, .f32⟩
  | 74 => ⟨S100000x32, .f32⟩
  | 75 => ⟨S100000x32, .f32⟩
  | 76 => ⟨S1x64, .f32⟩
  | 77 => ⟨S100000x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S64, .f32⟩
  | 84 => ⟨S_, .f32⟩
  | 85 => ⟨S1x64, .f32⟩
  | 86 => ⟨S1x64, .f32⟩
  | 87 => ⟨S64, .f32⟩
  | 88 => ⟨S64, .f32⟩
  | 89 => ⟨S64, .f32⟩
  | 90 => ⟨S_, .f32⟩
  | 91 => ⟨S64, .f32⟩
  | 92 => ⟨S64, .f32⟩
  | 93 => ⟨S50000x128, .f32⟩
  | 94 => ⟨S1x64, .f32⟩
  | 95 => ⟨S1x1x1x64, .f32⟩
  | 96 => ⟨S1x1x2x64, .f32⟩
  | 97 => ⟨S1x128, .f32⟩
  | 98 => ⟨S1x64, .f32⟩
  | 99 => ⟨S1x1x1x64, .f32⟩
  | 100 => ⟨S1x1x2x64, .f32⟩
  | 101 => ⟨S1x128, .f32⟩
  | 102 => ⟨S1x64, .f32⟩
  | 103 => ⟨S1x1x1x64, .f32⟩
  | 104 => ⟨S1x1x2x64, .f32⟩
  | 105 => ⟨S1x128, .f32⟩
  | 106 => ⟨S1x64, .f32⟩
  | 107 => ⟨S1x1x1x64, .f32⟩
  | 108 => ⟨S1x1x2x64, .f32⟩
  | 109 => ⟨S1x128, .f32⟩
  | 110 => ⟨S50000x128, .f32⟩
  | 111 => ⟨S100000x64, .f32⟩
  | 112 => ⟨S_, .f32⟩
  | 113 => ⟨S256x64, .f32⟩
  | 114 => ⟨S100000x1, .i32⟩
  | 115 => ⟨S256x64, .f32⟩
  | 116 => ⟨S_, .f32⟩
  | 117 => ⟨S100000x1, .f32⟩
  | 118 => ⟨S_, .f32⟩
  | 119 => ⟨S256x1, .f32⟩
  | 120 => ⟨S100000x1, .i32⟩
  | 121 => ⟨S256x1, .f32⟩
  | 122 => ⟨S_, .f32⟩
  | 123 => ⟨S256x1, .f32⟩
  | 124 => ⟨S256x1, .f32⟩
  | 125 => ⟨S256x64, .f32⟩
  | 126 => ⟨S256x64, .f32⟩
  | 127 => ⟨S1x64, .f32⟩
  | _ => ⟨S100000x64, .f32⟩

abbrev hbmTy0_2 (i : Nat) : BufTy := match i % 128 with
  | 0 => ⟨S1x10, .f32⟩
  | 1 => ⟨S256x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x64, .f32⟩
  | .local _ .vmem, ⟨8, _⟩ => ⟨S5000x64, .f32⟩
  | .local _ .vmem, ⟨9, _⟩ => ⟨S64x16, .f32⟩
  | .local _ .vmem, ⟨10, _⟩ => ⟨S1x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S1x16, .f32⟩
  | .local _ .vmem, ⟨17, _⟩ => ⟨S5000x16, .f32⟩
  | .local _ .vmem, ⟨18, _⟩ => ⟨S5000x16, .f32⟩
  | .local _ .vmem, ⟨19, _⟩ => ⟨S1x16, .f32⟩
  | .local _ .vmem, ⟨20, _⟩ => ⟨S1x16, .f32⟩
  | .local _ .vmem, ⟨21, _⟩ => ⟨S1x16, .f32⟩
  | .local _ .vmem, ⟨22, _⟩ => ⟨S1x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S16x32, .f32⟩
  | .local _ .vmem, ⟨30, _⟩ => ⟨S16x32, .f32⟩
  | .local _ .vmem, ⟨31, _⟩ => ⟨S1x32, .f32⟩
  | .local _ .vmem, ⟨32, _⟩ => ⟨S5000x32, .f32⟩
  | .local _ .vmem, ⟨33, _⟩ => ⟨S5000x32, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x32, .f32⟩
  | .local _ .vmem, ⟨47, _⟩ => ⟨S5000x32, .f32⟩
  | .local _ .vmem, ⟨48, _⟩ => ⟨S5000x32, .f32⟩
  | .local _ .vmem, ⟨49, _⟩ => ⟨S5000x32, .f32⟩
  | .local _ .vmem, ⟨50, _⟩ => ⟨S32x32, .f32⟩
  | .local _ .vmem, ⟨51, _⟩ => ⟨S32x32, .f32⟩
  | .local _ .vmem, ⟨52, _⟩ => ⟨S1x32, .f32⟩
  | .local _ .vmem, ⟨53, _⟩ => ⟨S5000x32, .f32⟩
  | .local _ .vmem, ⟨54, _⟩ => ⟨S5000x32, .f32⟩
  | .local _ .vmem, ⟨55, _⟩ => ⟨S1x32, .f32⟩
  | .local _ .vmem, ⟨56, _⟩ => ⟨S1x32, .f32⟩
  | .local _ .vmem, ⟨57, _⟩ => ⟨S1x32, .f32⟩
  | .local _ .vmem, ⟨58, _⟩ => ⟨S1x32, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S5000x128, .f32⟩
  | .local _ .vmem, ⟨66, _⟩ => ⟨S5000x128, .f32⟩
  | .local _ .vmem, ⟨67, _⟩ => ⟨S5000x32, .f32⟩
  | .local _ .vmem, ⟨68, _⟩ => ⟨S5000x32, .f32⟩
  | .local _ .vmem, ⟨69, _⟩ => ⟨S5000x32, .f32⟩
  | .local _ .vmem, ⟨70, _⟩ => ⟨S5000x32, .f32⟩
  | .local _ .vmem, ⟨71, _⟩ => ⟨S32x64, .f32⟩
  | .local _ .vmem, ⟨72, _⟩ => ⟨S32x64, .f32⟩
  | .local _ .vmem, ⟨73, _⟩ => ⟨S1x64, .f32⟩
  | .local _ .vmem, ⟨74, _⟩ => ⟨S5000x64, .f32⟩
  | .local _ .vmem, ⟨75, _⟩ => ⟨S5000x64, .f32⟩
  | .local _ .vmem, ⟨76, _⟩ => ⟨S1x64, .f32⟩
  | .local _ .vmem, ⟨77, _⟩ => ⟨S1x64, .f32⟩
  | .local _ .vmem, ⟨78, _⟩ => ⟨S1x64, .f32⟩
  | .local _ .vmem, ⟨79, _⟩ => ⟨S1x64, .f32⟩
  | .local _ .vmem, ⟨80, _⟩ => ⟨S5000x128, .f32⟩
  | .local _ .vmem, ⟨81, _⟩ => ⟨S5000x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S256x64, .f32⟩
  | .local _ .vmem, ⟨89, _⟩ => ⟨S64x64, .f32⟩
  | .local _ .vmem, ⟨90, _⟩ => ⟨S1x64, .f32⟩
  | .local _ .vmem, ⟨91, _⟩ => ⟨S64x10, .f32⟩
  | .local _ .vmem, ⟨92, _⟩ => ⟨S1x10, .f32⟩
  | .local _ .vmem, ⟨93, _⟩ => ⟨S256x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_c : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24_0 : Ref sig .tc := ⟨.hbm, 57, rfl⟩
abbrev main_v24_1 : Ref sig .tc := ⟨.hbm, 58, rfl⟩
abbrev main_v24_2 : Ref sig .tc := ⟨.hbm, 59, rfl⟩
abbrev main_cst_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_7 : Ref sig .tc := ⟨.hbm, 78, rfl⟩
abbrev main_v40 : Ref sig .tc := ⟨.hbm, 79, rfl⟩
abbrev main_v41 : Ref sig .tc := ⟨.hbm, 80, rfl⟩
abbrev main_c_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_9 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_10 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55_0 : Ref sig .tc := ⟨.hbm, 97, rfl⟩
abbrev main_v55_1 : Ref sig .tc := ⟨.hbm, 98, rfl⟩
abbrev main_v55_2 : Ref sig .tc := ⟨.hbm, 99, rfl⟩
abbrev main_cst_11 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_12 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_13 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_14 : Ref sig .tc := ⟨.hbm, 132, rfl⟩
abbrev main_v85 : Ref sig .tc := ⟨.hbm, 133, rfl⟩
abbrev main_v86 : Ref sig .tc := ⟨.hbm, 134, rfl⟩
abbrev main_c_15 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_16 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_17 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100_0 : Ref sig .tc := ⟨.hbm, 151, rfl⟩
abbrev main_v100_1 : Ref sig .tc := ⟨.hbm, 152, rfl⟩
abbrev main_v100_2 : Ref sig .tc := ⟨.hbm, 153, rfl⟩
abbrev main_cst_18 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_19 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_20 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_c_21 : Ref sig .tc := ⟨.hbm, 186, rfl⟩
abbrev main_v130 : Ref sig .tc := ⟨.hbm, 187, rfl⟩
abbrev main_v131 : Ref sig .tc := ⟨.hbm, 188, rfl⟩
abbrev main_c_22 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_23 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_24 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145_0 : Ref sig .tc := ⟨.hbm, 205, rfl⟩
abbrev main_v145_1 : Ref sig .tc := ⟨.hbm, 206, rfl⟩
abbrev main_v145_2 : Ref sig .tc := ⟨.hbm, 207, rfl⟩
abbrev main_cst_25 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_26 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_cst_27 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_cst_28 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_29 : Ref sig .tc := ⟨.hbm, 244, rfl⟩
abbrev main_v178 : Ref sig .tc := ⟨.hbm, 245, rfl⟩
abbrev main_cst_30 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_cst_31 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg7_0 : Ref sig .tc := ⟨.vmem, 35, rfl⟩
abbrev cc3_scratch0 : Ref sig .tc := ⟨.vmem, 36, rfl⟩
abbrev cc3_scratch1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg5_1 : Ref sig .tc := ⟨.vmem, 54, rfl⟩
abbrev cc5_stg6_0 : Ref sig .tc := ⟨.vmem, 55, rfl⟩
abbrev cc5_stg7_0 : Ref sig .tc := ⟨.vmem, 56, rfl⟩
abbrev cc5_scratch0 : Ref sig .tc := ⟨.vmem, 57, rfl⟩
abbrev cc5_scratch1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg5_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg5_1 : Ref sig .tc := ⟨.vmem, 75, rfl⟩
abbrev cc7_stg6_0 : Ref sig .tc := ⟨.vmem, 76, rfl⟩
abbrev cc7_stg7_0 : Ref sig .tc := ⟨.vmem, 77, rfl⟩
abbrev cc7_scratch0 : Ref sig .tc := ⟨.vmem, 78, rfl⟩
abbrev cc7_scratch1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg5_1 : Ref sig .tc := ⟨.vmem, 87, rfl⟩
abbrev cc9_stg0_0 : Ref sig .tc := ⟨.vmem, 88, rfl⟩
abbrev cc9_stg1_0 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg5_0 : Ref sig .tc := ⟨.vmem, 93, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem7_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc5_sem6_0 : DmaSem sig := 51
abbrev cc5_sem7_0 : DmaSem sig := 52
abbrev cc6_sem0_0 : DmaSem sig := 53
abbrev cc6_sem0_1 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem5_1 : DmaSem sig := 60
abbrev cc7_sem0_0 : DmaSem sig := 61
abbrev cc7_sem0_1 : DmaSem sig := 62
abbrev cc7_sem1_0 : DmaSem sig := 63
abbrev cc7_sem1_1 : DmaSem sig := 64
abbrev cc7_sem2_0 : DmaSem sig := 65
abbrev cc7_sem3_0 : DmaSem sig := 66
abbrev cc7_sem4_0 : DmaSem sig := 67
abbrev cc7_sem5_0 : DmaSem sig := 68
abbrev cc7_sem5_1 : DmaSem sig := 69
abbrev cc7_sem6_0 : DmaSem sig := 70
abbrev cc7_sem7_0 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem4_0 : DmaSem sig := 77
abbrev cc8_sem5_0 : DmaSem sig := 78
abbrev cc8_sem5_1 : DmaSem sig := 79
abbrev cc9_sem0_0 : DmaSem sig := 80
abbrev cc9_sem1_0 : DmaSem sig := 81
abbrev cc9_sem2_0 : DmaSem sig := 82
abbrev cc9_sem3_0 : DmaSem sig := 83
abbrev cc9_sem4_0 : DmaSem sig := 84
abbrev cc9_sem5_0 : DmaSem sig := 85

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S32x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S256x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x10 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000x1 : S_.BroadcastsInDim S3200000x1 (![] : Fin 0 → Fin S3200000x1.rank)
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S_S3200000 : S_.BroadcastsInDim S3200000 (![] : Fin 0 → Fin S3200000.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S5000x16_S5000x16 : S5000x16.ShapeCasts S5000x16
  broadcasts_S1x16_S5000x16 : S1x16.Broadcasts S5000x16
  reduces_S5000x16_S16 : S5000x16.Reduces [0] S16
  bcast_S_S1x16 : S_.BroadcastsInDim S1x16 (![] : Fin 0 → Fin S1x16.rank)
  shapeCasts_S1x16_S16 : S1x16.ShapeCasts S16
  bcast_S_S16 : S_.BroadcastsInDim S16 (![] : Fin 0 → Fin S16.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S16x32_S16x32_0_0 : ∀ a, (![0, 0] : Fin 2 → Nat) a + S16x32.size a ≤ S16x32.size a
  h_S16x32 : 0 < S16x32.numel
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  reduces_S5000x32_S32 : S5000x32.Reduces [0] S32
  bcast_S_S1x32 : S_.BroadcastsInDim S1x32 (![] : Fin 0 → Fin S1x32.rank)
  shapeCasts_S1x32_S32 : S1x32.ShapeCasts S32
  bcast_S_S32 : S_.BroadcastsInDim S32 (![] : Fin 0 → Fin S32.rank)
  shapeCasts_S100000x32_S25000x128 : S100000x32.ShapeCasts S25000x128
  shapeCasts_S1x32_S1x1x1x32 : S1x32.ShapeCasts S1x1x1x32
  bcast_S1x1x1x32_S1x1x4x32_0_1_2_3 : S1x1x1x32.BroadcastsInDim S1x1x4x32 (![0, 1, 2, 3] : Fin 4 → Fin S1x1x4x32.rank)
  shapeCasts_S1x1x4x32_S1x128 : S1x1x4x32.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S100000x32 : S25000x128.ShapeCasts S100000x32
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S32x64_S32x64_0_0 : ∀ a, (![0, 0] : Fin 2 → Nat) a + S32x64.size a ≤ S32x64.size a
  h_S32x64 : 0 < S32x64.numel
  broadcasts_S1x64_S5000x64 : S1x64.Broadcasts S5000x64
  reduces_S5000x64_S64 : S5000x64.Reduces [0] S64
  bcast_S_S1x64 : S_.BroadcastsInDim S1x64 (![] : Fin 0 → Fin S1x64.rank)
  shapeCasts_S1x64_S64 : S1x64.ShapeCasts S64
  bcast_S_S64 : S_.BroadcastsInDim S64 (![] : Fin 0 → Fin S64.rank)
  shapeCasts_S100000x64_S50000x128 : S100000x64.ShapeCasts S50000x128
  shapeCasts_S1x64_S1x1x1x64 : S1x64.ShapeCasts S1x1x1x64
  bcast_S1x1x1x64_S1x1x2x64_0_1_2_3 : S1x1x1x64.BroadcastsInDim S1x1x2x64 (![0, 1, 2, 3] : Fin 4 → Fin S1x1x2x64.rank)
  shapeCasts_S1x1x2x64_S1x128 : S1x1x2x64.ShapeCasts S1x128
  shapeCasts_S50000x128_S100000x64 : S50000x128.ShapeCasts S100000x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  shapeCasts_S10_S1x10 : S10.ShapeCasts S1x10
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x64_S64x64_0_0 : ∀ a, (![0, 0] : Fin 2 → Nat) a + S64x64.size a ≤ S64x64.size a
  h_S64x64 : 0 < S64x64.numel
  broadcasts_S1x64_S256x64 : S1x64.Broadcasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  scatter_S100000x1_S3200000x1_S3200000x1_1_0_0_1_wf : ScatterDims.WF S100000x1 S3200000x1 S3200000x1 [1] [0] [0] 1
  dot_S5000x64_S64x16_S5000x16_1_0_0_1_n_n_wf : DotDims.WF S5000x64 S64x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x32_S5000x32_1_0_0_1_n_n_wf : DotDims.WF S5000x16 S16x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  dot_S5000x32_S32x64_S5000x64_1_0_0_1_n_n_wf : DotDims.WF S5000x32 S32x64 S5000x64 [1] [0] [0] [1] [] []
  scatter_S256x64_S100000x1_S100000x64_1_0_0_1_wf : ScatterDims.WF S256x64 S100000x1 S100000x64 [1] [0] [0] 1
  scatter_S256x1_S100000x1_S100000x1_1_0_0_1_wf : ScatterDims.WF S256x1 S100000x1 S100000x1 [1] [0] [0] 1
  dot_S256x64_S64x64_S256x64_1_0_0_1_n_n_wf : DotDims.WF S256x64 S64x64 S256x64 [1] [0] [0] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x32.size a ≤ S16x32.size a
  hwx3_2 : ∀ i : grid3.Coords, EltTy.bits .f32 = 32 ∨ (Rect.block (s := S16x32) S16x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x32.size a ≤ S16x32.size a
  hwx3_3 : ∀ i : grid3.Coords, EltTy.bits .f32 = 32 ∨ (Rect.block (s := S16x32) S16x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x32.size a ≤ S1x32.size a
  hwx3_7 : ∀ i : grid3.Coords, EltTy.bits .f32 = 32 ∨ (Rect.block (s := S1x32) S1x32.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S25000x128.size a
  hwx4_0 : ∀ i : grid4.Coords, EltTy.bits .f32 = 32 ∨ (Rect.block (s := S25000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S25000x128.size a
  hwx4_5 : ∀ i : grid4.Coords, EltTy.bits .f32 = 32 ∨ (Rect.block (s := S25000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .f32 = 32 ∨ (Rect.block (s := S32x32) S32x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x32.size a ≤ S32x32.size a
  hwx5_3 : ∀ i : grid5.Coords, EltTy.bits .f32 = 32 ∨ (Rect.block (s := S32x32) S32x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x32.size a ≤ S100000x32.size a
  hwx5_5 : ∀ i : grid5.Coords, EltTy.bits .f32 = 32 ∨ (Rect.block (s := S100000x32) S5000x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x32.size a ≤ S1x32.size a
  hwx5_6 : ∀ i : grid5.Coords, EltTy.bits .f32 = 32 ∨ (Rect.block (s := S1x32) S1x32.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x32.size a ≤ S1x32.size a
  hwx5_7 : ∀ i : grid5.Coords, EltTy.bits .f32 = 32 ∨ (Rect.block (s := S1x32) S1x32.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S25000x128.size a
  hwx6_0 : ∀ i : grid6.Coords, EltTy.bits .f32 = 32 ∨ (Rect.block (s := S25000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S25000x128.size a
  hwx6_5 : ∀ i : grid6.Coords, EltTy.bits .f32 = 32 ∨ (Rect.block (s := S25000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x32.size a ≤ S100000x32.size a
  hwx7_1 : ∀ i : grid7.Coords, EltTy.bits .f32 = 32 ∨ (Rect.block (s := S100000x32) S5000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32x64.size a ≤ S32x64.size a
  hwx7_2 : ∀ i : grid7.Coords, EltTy.bits .f32 = 32 ∨ (Rect.block (s := S32x64) S32x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x64.size a ≤ S32x64.size a
  hwx7_3 : ∀ i : grid7.Coords, EltTy.bits .f32 = 32 ∨ (Rect.block (s := S32x64) S32x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S256x64.size a ≤ S256x64.size a
  hwx9_0 : ∀ i : grid9.Coords, EltTy.bits .f32 = 32 ∨ (Rect.block (s := S256x64) S256x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x10.size a ≤ S64x10.size a
  hwx9_3 : ∀ i : grid9.Coords, EltTy.bits .f32 = 32 ∨ (Rect.block (s := S64x10) S64x10.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x10.size a ≤ S1x10.size a
  hwx9_4 : ∀ i : grid9.Coords, EltTy.bits .f32 = 32 ∨ (Rect.block (s := S1x10) S1x10.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x10.size a ≤ S256x10.size a
  hwx9_5 : ∀ i : grid9.Coords, EltTy.bits .f32 = 32 ∨ (Rect.block (s := S256x10) S256x10.size (cc9_transform_5 i) (hinb9_5 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24_0) S5000x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24_1) S1x16.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24_2) S1x16.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24_0) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S16x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55_0) S5000x32.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v55_1) S1x32.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55_2) S1x32.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v83) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v98) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S32x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100_0) S5000x32.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v100_1) S1x32.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v100_2) S1x32.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v111) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v119) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v123) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v128) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v143) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S5000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg18) S32x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg19) S32x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v144) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v145_0) S5000x64.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v145_1) S1x64.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v145_2) S1x64.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v156) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v160) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v164) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v168) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v172) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v173) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v185) S256x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg23) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v186) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg25) S64x10.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v187) S1x10.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v188) S256x10.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S100000x16 : Shape := ⟨2, ![100000, 16]⟩
abbrev S1x16 : Shape := ⟨2, ![1, 16]⟩
abbrev S3200000x16 : Shape := ⟨2, ![3200000, 16]⟩
abbrev S100000x32 : Shape := ⟨2, ![100000, 32]⟩
abbrev S1x32 : Shape := ⟨2, ![1, 32]⟩
abbrev S3200000x32 : Shape := ⟨2, ![3200000, 32]⟩
abbrev S1x64 : Shape := ⟨2, ![1, 64]⟩
abbrev S256x64 : Shape := ⟨2, ![256, 64]⟩
abbrev S256x1 : Shape := ⟨2, ![256, 1]⟩
abbrev S256x10 : Shape := ⟨2, ![256, 10]⟩
abbrev S1x10 : Shape := ⟨2, ![1, 10]⟩
abbrev S256 : Shape := ⟨1, ![256]⟩

abbrev nBuf : Space → Nat
  | .hbm => 428
  | .vmem => 0
  | .smem => 0
  | _ => 0

abbrev hbmTy0_0 (i : Nat) : BufTy := match i % 128 with
  | 0 => ⟨S100000x64, .f32⟩
  | 1 => ⟨S2x3200000, .i32⟩
  | 2 => ⟨S100000, .i32⟩
  | 3 => ⟨S64x16, .f32⟩
  | 4 => ⟨S64x16, .f32⟩
  | 5 => ⟨S16, .f32⟩
  | 6 => ⟨S16, .f32⟩
  | 7 => ⟨S16, .f32⟩
  | 8 => ⟨S16x32, .f32⟩
  | 9 => ⟨S16x32, .f32⟩
  | 10 => ⟨S32, .f32⟩
  | 11 => ⟨S32, .f32⟩
  | 12 => ⟨S32, .f32⟩
  | 13 => ⟨S32x32, .f32⟩
  | 14 => ⟨S32x32, .f32⟩
  | 15 => ⟨S32, .f32⟩
  | 16 => ⟨S32, .f32⟩
  | 17 => ⟨S32, .f32⟩
  | 18 => ⟨S32x64, .f32⟩
  | 19 => ⟨S32x64, .f32⟩
  | 20 => ⟨S64, .f32⟩
  | 21 => ⟨S64, .f32⟩
  | 22 => ⟨S64, .f32⟩
  | 23 => ⟨S64x64, .f32⟩
  | 24 => ⟨S64, .f32⟩
  | 25 => ⟨S64x10, .f32⟩
  | 26 => ⟨S10, .f32⟩
  | 27 => ⟨S1x3200000, .i32⟩
  | 28 => ⟨S3200000, .i32⟩
  | 29 => ⟨S1x3200000, .i32⟩
  | 30 => ⟨S3200000, .i32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x64, .f32⟩
  | 40 => ⟨S_, .f32⟩
  | 41 => ⟨S100000x64, .f32⟩
  | 42 => ⟨S3200000x1, .i32⟩
  | 43 => ⟨S100000x64, .f32⟩
  | 44 => ⟨S_, .f32⟩
  | 45 => ⟨S3200000x1, .f32⟩
  | 46 => ⟨S_, .f32⟩
  | 47 => ⟨S100000x1, .f32⟩
  | 48 => ⟨S3200000x1, .i32⟩
  | 49 => ⟨S100000x1, .f32⟩
  | 50 => ⟨S_, .f32⟩
  | 51 => ⟨S100000x1, .f32⟩
  | 52 => ⟨S100000x1, .f32⟩
  | 53 => ⟨S100000x64, .f32⟩
  | 54 => ⟨S100000x64, .f32⟩
  | 55 => ⟨S100000x16, .f32⟩
  | 56 => ⟨S100000x16, .f32⟩
  | 57 => ⟨S100000x16, .f32⟩
  | 58 => ⟨S1x16, .f32⟩
  | 59 => ⟨S100000x16, .f32⟩
  | 60 => ⟨S100000x16, .f32⟩
  | 61 => ⟨S_, .f32⟩
  | 62 => ⟨S16, .f32⟩
  | 63 => ⟨S_, .f32⟩
  | 64 => ⟨S16, .f32⟩
  | 65 => ⟨S16, .f32⟩
  | 66 => ⟨S_, .i32⟩
  | 67 => ⟨S_, .f32⟩
  | 68 => ⟨S16, .f32⟩
  | 69 => ⟨S1x16, .f32⟩
  | 70 => ⟨S_, .f32⟩
  | 71 => ⟨S1x16, .f32⟩
  | 72 => ⟨S1x16, .f32⟩
  | 73 => ⟨S100000x16, .f32⟩
  | 74 => ⟨S100000x16, .f32⟩
  | 75 => ⟨S100000x16, .f32⟩
  | 76 => ⟨S_, .f32⟩
  | 77 => ⟨S_, .f32⟩
  | 78 => ⟨S_, .f32⟩
  | 79 => ⟨S_, .f32⟩
  | 80 => ⟨S16, .f32⟩
  | 81 => ⟨S16, .f32⟩
  | 82 => ⟨S16, .f32⟩
  | 83 => ⟨S_, .f32⟩
  | 84 => ⟨S_, .i1⟩
  | 85 => ⟨S_, .f32⟩
  | 86 => ⟨S_, .f32⟩
  | 87 => ⟨S16, .f32⟩
  | 88 => ⟨S16, .f32⟩
  | 89 => ⟨S1x16, .f32⟩
  | 90 => ⟨S100000x16, .f32⟩
  | 91 => ⟨S100000x16, .f32⟩
  | 92 => ⟨S_, .f32⟩
  | 93 => ⟨S16, .f32⟩
  | 94 => ⟨S16, .f32⟩
  | 95 => ⟨S16, .f32⟩
  | 96 => ⟨S1x16, .f32⟩
  | 97 => ⟨S100000x16, .f32⟩
  | 98 => ⟨S100000x16, .f32⟩
  | 99 => ⟨S1x16, .f32⟩
  | 100 => ⟨S100000x16, .f32⟩
  | 101 => ⟨S100000x16, .f32⟩
  | 102 => ⟨S1x16, .f32⟩
  | 103 => ⟨S100000x16, .f32⟩
  | 104 => ⟨S100000x16, .f32⟩
  | 105 => ⟨S_, .f32⟩
  | 106 => ⟨S100000x16, .f32⟩
  | 107 => ⟨S100000x16, .i1⟩
  | 108 => ⟨S_, .f32⟩
  | 109 => ⟨S100000x16, .f32⟩
  | 110 => ⟨S100000x16, .i1⟩
  | 111 => ⟨S_, .f32⟩
  | 112 => ⟨S_, .f32⟩
  | 113 => ⟨S100000x16, .f32⟩
  | 114 => ⟨S100000x16, .f32⟩
  | 115 => ⟨S100000x16, .f32⟩
  | 116 => ⟨S_, .f32⟩
  | 117 => ⟨S100000x16, .f32⟩
  | 118 => ⟨S100000x16, .f32⟩
  | 119 => ⟨S100000x16, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x64, .f32⟩

abbrev hbmTy0_1 (i : Nat) : BufTy := match i % 128 with
  | 0 => ⟨S3200000x16, .f32⟩
  | 1 => ⟨S_, .f32⟩
  | 2 => ⟨S100000x16, .f32⟩
  | 3 => ⟨S3200000x1, .i32⟩
  | 4 => ⟨S100000x16, .f32⟩
  | 5 => ⟨S_, .f32⟩
  | 6 => ⟨S3200000x1, .f32⟩
  | 7 => ⟨S_, .f32⟩
  | 8 => ⟨S100000x1, .f32⟩
  | 9 => ⟨S3200000x1, .i32⟩
  | 10 => ⟨S100000x1, .f32⟩
  | 11 => ⟨S_, .f32⟩
  | 12 => ⟨S100000x1, .f32⟩
  | 13 => ⟨S100000x1, .f32⟩
  | 14 => ⟨S100000x16, .f32⟩
  | 15 => ⟨S100000x16, .f32⟩
  | 16 => ⟨S100000x32, .f32⟩
  | 17 => ⟨S100000x32, .f32⟩
  | 18 => ⟨S100000x32, .f32⟩
  | 19 => ⟨S1x32, .f32⟩
  | 20 => ⟨S100000x32, .f32⟩
  | 21 => ⟨S100000x32, .f32⟩
  | 22 => ⟨S_, .f32⟩
  | 23 => ⟨S32, .f32⟩
  | 24 => ⟨S_, .f32⟩
  | 25 => ⟨S32, .f32⟩
  | 26 => ⟨S32, .f32⟩
  | 27 => ⟨S_, .i32⟩
  | 28 => ⟨S_, .f32⟩
  | 29 => ⟨S32, .f32⟩
  | 30 => ⟨S1x32, .f32⟩
  | 31 => ⟨S_, .f32⟩
  | 32 => ⟨S1x32, .f32⟩
  | 33 => ⟨S1x32, .f32⟩
  | 34 => ⟨S100000x32, .f32⟩
  | 35 => ⟨S100000x32, .f32⟩
  | 36 => ⟨S100000x32, .f32⟩
  | 37 => ⟨S_, .f32⟩
  | 38 => ⟨S_, .f32⟩
  | 39 => ⟨S_, .f32⟩
  | 40 => ⟨S_, .f32⟩
  | 41 => ⟨S32, .f32⟩
  | 42 => ⟨S32, .f32⟩
  | 43 => ⟨S32, .f32⟩
  | 44 => ⟨S_, .f32⟩
  | 45 => ⟨S_, .i1⟩
  | 46 => ⟨S_, .f32⟩
  | 47 => ⟨S_, .f32⟩
  | 48 => ⟨S32, .f32⟩
  | 49 => ⟨S32, .f32⟩
  | 50 => ⟨S1x32, .f32⟩
  | 51 => ⟨S100000x32, .f32⟩
  | 52 => ⟨S100000x32, .f32⟩
  | 53 => ⟨S_, .f32⟩
  | 54 => ⟨S32, .f32⟩
  | 55 => ⟨S32, .f32⟩
  | 56 => ⟨S32, .f32⟩
  | 57 => ⟨S1x32, .f32⟩
  | 58 => ⟨S100000x32, .f32⟩
  | 59 => ⟨S100000x32, .f32⟩
  | 60 => ⟨S1x32, .f32⟩
  | 61 => ⟨S100000x32, .f32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .i1⟩
  | 69 => ⟨S_, .f32⟩
  | 70 => ⟨S100000x32, .f32⟩
  | 71 => ⟨S100000x32, .i1⟩
  | 72 => ⟨S_, .f32⟩
  | 73 => ⟨S_, .f32⟩
  | 74 => ⟨S100000x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x32, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000x32, .f32⟩
  | 90 => ⟨S_, .f32⟩
  | 91 => ⟨S100000x32, .f32⟩
  | 92 => ⟨S3200000x1, .i32⟩
  | 93 => ⟨S100000x32, .f32⟩
  | 94 => ⟨S_, .f32⟩
  | 95 => ⟨S3200000x1, .f32⟩
  | 96 => ⟨S_, .f32⟩
  | 97 => ⟨S100000x1, .f32⟩
  | 98 => ⟨S3200000x1, .i32⟩
  | 99 => ⟨S100000x1, .f32⟩
  | 100 => ⟨S_, .f32⟩
  | 101 => ⟨S100000x1, .f32⟩
  | 102 => ⟨S100000x1, .f32⟩
  | 103 => ⟨S100000x32, .f32⟩
  | 104 => ⟨S100000x32, .f32⟩
  | 105 => ⟨S100000x32, .f32⟩
  | 106 => ⟨S100000x32, .f32⟩
  | 107 => ⟨S100000x32, .f32⟩
  | 108 => ⟨S1x32, .f32⟩
  | 109 => ⟨S100000x32, .f32⟩
  | 110 => ⟨S100000x32, .f32⟩
  | 111 => ⟨S_, .f32⟩
  | 112 => ⟨S32, .f32⟩
  | 113 => ⟨S_, .f32⟩
  | 114 => ⟨S32, .f32⟩
  | 115 => ⟨S32, .f32⟩
  | 116 => ⟨S_, .i32⟩
  | 117 => ⟨S_, .f32⟩
  | 118 => ⟨S32, .f32⟩
  | 119 => ⟨S1x32, .f32⟩
  | 120 => ⟨S_, .f32⟩
  | 121 => ⟨S1x32, .f32⟩
  | 122 => ⟨S1x32, .f32⟩
  | 123 => ⟨S100000x32, .f32⟩
  | 124 => ⟨S100000x32, .f32⟩
  | 125 => ⟨S100000x32, .f32⟩
  | 126 => ⟨S_, .f32⟩
  | 127 => ⟨S_, .f32⟩
  | _ => ⟨S100000x64, .f32⟩

abbrev hbmTy0_2 (i : Nat) : BufTy := match i % 128 with
  | 0 => ⟨S_, .f32⟩
  | 1 => ⟨S_, .f32⟩
  | 2 => ⟨S32, .f32⟩
  | 3 => ⟨S32, .f32⟩
  | 4 => ⟨S32, .f32⟩
  | 5 => ⟨S_, .f32⟩
  | 6 => ⟨S_, .i1⟩
  | 7 => ⟨S_, .f32⟩
  | 8 => ⟨S_, .f32⟩
  | 9 => ⟨S32, .f32⟩
  | 10 => ⟨S32, .f32⟩
  | 11 => ⟨S1x32, .f32⟩
  | 12 => ⟨S100000x32, .f32⟩
  | 13 => ⟨S100000x32, .f32⟩
  | 14 => ⟨S_, .f32⟩
  | 15 => ⟨S32, .f32⟩
  | 16 => ⟨S32, .f32⟩
  | 17 => ⟨S32, .f32⟩
  | 18 => ⟨S1x32, .f32⟩
  | 19 => ⟨S100000x32, .f32⟩
  | 20 => ⟨S100000x32, .f32⟩
  | 21 => ⟨S1x32, .f32⟩
  | 22 => ⟨S100000x32, .f32⟩
  | 23 => ⟨S100000x32, .f32⟩
  | 24 => ⟨S1x32, .f32⟩
  | 25 => ⟨S100000x32, .f32⟩
  | 26 => ⟨S100000x32, .f32⟩
  | 27 => ⟨S_, .f32⟩
  | 28 => ⟨S100000x32, .f32⟩
  | 29 => ⟨S100000x32, .i1⟩
  | 30 => ⟨S_, .f32⟩
  | 31 => ⟨S100000x32, .f32⟩
  | 32 => ⟨S100000x32, .i1⟩
  | 33 => ⟨S_, .f32⟩
  | 34 => ⟨S_, .f32⟩
  | 35 => ⟨S100000x32, .f32⟩
  | 36 => ⟨S100000x32, .f32⟩
  | 37 => ⟨S100000x32, .f32⟩
  | 38 => ⟨S_, .f32⟩
  | 39 => ⟨S100000x32, .f32⟩
  | 40 => ⟨S100000x32, .f32⟩
  | 41 => ⟨S100000x32, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x32, .f32⟩
  | 51 => ⟨S_, .f32⟩
  | 52 => ⟨S100000x32, .f32⟩
  | 53 => ⟨S3200000x1, .i32⟩
  | 54 => ⟨S100000x32, .f32⟩
  | 55 => ⟨S_, .f32⟩
  | 56 => ⟨S3200000x1, .f32⟩
  | 57 => ⟨S_, .f32⟩
  | 58 => ⟨S100000x1, .f32⟩
  | 59 => ⟨S3200000x1, .i32⟩
  | 60 => ⟨S100000x1, .f32⟩
  | 61 => ⟨S_, .f32⟩
  | 62 => ⟨S100000x1, .f32⟩
  | 63 => ⟨S100000x1, .f32⟩
  | 64 => ⟨S100000x32, .f32⟩
  | 65 => ⟨S100000x32, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S100000x64, .f32⟩
  | 85 => ⟨S100000x64, .f32⟩
  | 86 => ⟨S100000x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .i1⟩
  | 119 => ⟨S_, .f32⟩
  | 120 => ⟨S100000x64, .f32⟩
  | 121 => ⟨S100000x64, .i1⟩
  | 122 => ⟨S_, .f32⟩
  | 123 => ⟨S_, .f32⟩
  | 124 => ⟨S100000x64, .f32⟩
  | 125 => ⟨S100000x64, .f32⟩
  | 126 => ⟨S100000x64, .f32⟩
  | 127 => ⟨S_, .f32⟩
  | _ => ⟨S100000x64, .f32⟩

abbrev hbmTy0_3 (i : Nat) : BufTy := match i % 128 with
  | 0 => ⟨S100000x64, .f32⟩
  | 1 => ⟨S100000x64, .f32⟩
  | 2 => ⟨S100000x64, .f32⟩
  | 3 => ⟨S_, .f32⟩
  | 4 => ⟨S256x64, .f32⟩
  | 5 => ⟨S100000x1, .i32⟩
  | 6 => ⟨S256x64, .f32⟩
  | 7 => ⟨S_, .f32⟩
  | 8 => ⟨S100000x1, .f32⟩
  | 9 => ⟨S_, .f32⟩
  | 10 => ⟨S256x1, .f32⟩
  | 11 => ⟨S100000x1, .i32⟩
  | 12 => ⟨S256x1, .f32⟩
  | 13 => ⟨S_, .f32⟩
  | 14 => ⟨S256x1, .f32⟩
  | 15 => ⟨S256x1, .f32⟩
  | 16 => ⟨S256x64, .f32⟩
  | 17 => ⟨S256x64, .f32⟩
  | 18 => ⟨S256x64, .f32⟩
  | 19 => ⟨S1x64, .f32⟩
  | 20 => ⟨S256x64, .f32⟩
  | 21 => ⟨S256x64, .f32⟩
  | 22 => ⟨S_, .f32⟩
  | 23 => ⟨S256x64, .f32⟩
  | 24 => ⟨S256x64, .f32⟩
  | 25 => ⟨S256x10, .f32⟩
  | 26 => ⟨S1x10, .f32⟩
  | 27 => ⟨S256x10, .f32⟩
  | 28 => ⟨S256x10, .f32⟩
  | 29 => ⟨S_, .f32⟩
  | 30 => ⟨S256, .f32⟩
  | 31 => ⟨S_, .f32⟩
  | 32 => ⟨S256, .f32⟩
  | 33 => ⟨S256, .f32⟩
  | 34 => ⟨S256x1, .f32⟩
  | 35 => ⟨S256x10, .f32⟩
  | 36 => ⟨S256x10, .f32⟩
  | 37 => ⟨S256x10, .f32⟩
  | 38 => ⟨S_, .f32⟩
  | 39 => ⟨S256, .f32⟩
  | 40 => ⟨S256x1, .f32⟩
  | 41 => ⟨S256x1, .f32⟩
  | 42 => ⟨S256x10, .f32⟩
  | 43 => ⟨S256x10, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_7 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_cst_1 : Ref sig .tc := ⟨.hbm, 111, rfl⟩
abbrev main_call1_call0_v0 : Ref sig .tc := ⟨.hbm, 112, rfl⟩
abbrev main_call1_call0_v1 : Ref sig .tc := ⟨.hbm, 113, rfl⟩
abbrev main_call1_v4 : Ref sig .tc := ⟨.hbm, 114, rfl⟩
abbrev main_call1_v5 : Ref sig .tc := ⟨.hbm, 115, rfl⟩
abbrev main_call1_cst_2 : Ref sig .tc := ⟨.hbm, 116, rfl⟩
abbrev main_call1_v6 : Ref sig .tc := ⟨.hbm, 117, rfl⟩
abbrev main_call1_v7 : Ref sig .tc := ⟨.hbm, 118, rfl⟩
abbrev main_v47 : Ref sig .tc := ⟨.hbm, 119, rfl⟩
abbrev main_c_8 : Ref sig .tc := ⟨.hbm, 120, rfl⟩
abbrev main_v48 : Ref sig .tc := ⟨.hbm, 121, rfl⟩
abbrev main_v49 : Ref sig .tc := ⟨.hbm, 122, rfl⟩
abbrev main_c_9 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_cst_10 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_cst_11 : Ref sig .tc := ⟨.hbm, 133, rfl⟩
abbrev main_v58 : Ref sig .tc := ⟨.hbm, 134, rfl⟩
abbrev main_cst_12 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_cst_13 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_cst_14 : Ref sig .tc := ⟨.hbm, 150, rfl⟩
abbrev main_v72 : Ref sig .tc := ⟨.hbm, 151, rfl⟩
abbrev main_cst_15 : Ref sig .tc := ⟨.hbm, 152, rfl⟩
abbrev main_v73 : Ref sig .tc := ⟨.hbm, 153, rfl⟩
abbrev main_v74 : Ref sig .tc := ⟨.hbm, 154, rfl⟩
abbrev main_c_16 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_cst_3 : Ref sig .tc := ⟨.hbm, 172, rfl⟩
abbrev main_call2_v12 : Ref sig .tc := ⟨.hbm, 173, rfl⟩
abbrev main_call2_cst_4 : Ref sig .tc := ⟨.hbm, 174, rfl⟩
abbrev main_call2_call0_v0 : Ref sig .tc := ⟨.hbm, 175, rfl⟩
abbrev main_call2_call0_v1 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_cst_17 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_call3_cst : Ref sig .tc := ⟨.hbm, 194, rfl⟩
abbrev main_call3_v0 : Ref sig .tc := ⟨.hbm, 195, rfl⟩
abbrev main_call3_v1 : Ref sig .tc := ⟨.hbm, 196, rfl⟩
abbrev main_call3_cst_0 : Ref sig .tc := ⟨.hbm, 197, rfl⟩
abbrev main_call3_v2 : Ref sig .tc := ⟨.hbm, 198, rfl⟩
abbrev main_call3_v3 : Ref sig .tc := ⟨.hbm, 199, rfl⟩
abbrev main_call3_cst_1 : Ref sig .tc := ⟨.hbm, 200, rfl⟩
abbrev main_call3_call0_v0 : Ref sig .tc := ⟨.hbm, 201, rfl⟩
abbrev main_call3_call0_v1 : Ref sig .tc := ⟨.hbm, 202, rfl⟩
abbrev main_call3_v4 : Ref sig .tc := ⟨.hbm, 203, rfl⟩
abbrev main_call3_v5 : Ref sig .tc := ⟨.hbm, 204, rfl⟩
abbrev main_call3_cst_2 : Ref sig .tc := ⟨.hbm, 205, rfl⟩
abbrev main_call3_v6 : Ref sig .tc := ⟨.hbm, 206, rfl⟩
abbrev main_call3_v7 : Ref sig .tc := ⟨.hbm, 207, rfl⟩
abbrev main_v91 : Ref sig .tc := ⟨.hbm, 208, rfl⟩
abbrev main_c_18 : Ref sig .tc := ⟨.hbm, 209, rfl⟩
abbrev main_v92 : Ref sig .tc := ⟨.hbm, 210, rfl⟩
abbrev main_v93 : Ref sig .tc := ⟨.hbm, 211, rfl⟩
abbrev main_c_19 : Ref sig .tc := ⟨.hbm, 212, rfl⟩
abbrev main_v94 : Ref sig .tc := ⟨.hbm, 213, rfl⟩
abbrev main_v95 : Ref sig .tc := ⟨.hbm, 214, rfl⟩
abbrev main_v96 : Ref sig .tc := ⟨.hbm, 215, rfl⟩
abbrev main_v97 : Ref sig .tc := ⟨.hbm, 216, rfl⟩
abbrev main_v98 : Ref sig .tc := ⟨.hbm, 217, rfl⟩
abbrev main_cst_20 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_cst_21 : Ref sig .tc := ⟨.hbm, 222, rfl⟩
abbrev main_v102 : Ref sig .tc := ⟨.hbm, 223, rfl⟩
abbrev main_cst_22 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_cst_23 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_cst_24 : Ref sig .tc := ⟨.hbm, 239, rfl⟩
abbrev main_v116 : Ref sig .tc := ⟨.hbm, 240, rfl⟩
abbrev main_cst_25 : Ref sig .tc := ⟨.hbm, 241, rfl⟩
abbrev main_v117 : Ref sig .tc := ⟨.hbm, 242, rfl⟩
abbrev main_v118 : Ref sig .tc := ⟨.hbm, 243, rfl⟩
abbrev main_c_26 : Ref sig .tc := ⟨.hbm, 244, rfl⟩
abbrev main_call4_cst : Ref sig .tc := ⟨.hbm, 245, rfl⟩
abbrev main_call4_v0 : Ref sig .tc := ⟨.hbm, 246, rfl⟩
abbrev main_call4_v1 : Ref sig .tc := ⟨.hbm, 247, rfl⟩
abbrev main_call4_cst_0 : Ref sig .tc := ⟨.hbm, 248, rfl⟩
abbrev main_call4_v2 : Ref sig .tc := ⟨.hbm, 249, rfl⟩
abbrev main_call4_v3 : Ref sig .tc := ⟨.hbm, 250, rfl⟩
abbrev main_call4_v4 : Ref sig .tc := ⟨.hbm, 251, rfl⟩
abbrev main_call4_v5 : Ref sig .tc := ⟨.hbm, 252, rfl⟩
abbrev main_call4_v6 : Ref sig .tc := ⟨.hbm, 253, rfl⟩
abbrev main_call4_v7 : Ref sig .tc := ⟨.hbm, 254, rfl⟩
abbrev main_call4_cst_1 : Ref sig .tc := ⟨.hbm, 255, rfl⟩
abbrev main_call4_v8 : Ref sig .tc := ⟨.hbm, 256, rfl⟩
abbrev main_call4_cst_2 : Ref sig .tc := ⟨.hbm, 257, rfl⟩
abbrev main_call4_v9 : Ref sig .tc := ⟨.hbm, 258, rfl⟩
abbrev main_call4_v10 : Ref sig .tc := ⟨.hbm, 259, rfl⟩
abbrev main_call4_v11 : Ref sig .tc := ⟨.hbm, 260, rfl⟩
abbrev main_call4_cst_3 : Ref sig .tc := ⟨.hbm, 261, rfl⟩
abbrev main_call4_v12 : Ref sig .tc := ⟨.hbm, 262, rfl⟩
abbrev main_call4_cst_4 : Ref sig .tc := ⟨.hbm, 263, rfl⟩
abbrev main_call4_call0_v0 : Ref sig .tc := ⟨.hbm, 264, rfl⟩
abbrev main_call4_call0_v1 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_v122 : Ref sig .tc := ⟨.hbm, 269, rfl⟩
abbrev main_cst_27 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩
abbrev main_v128 : Ref sig .tc := ⟨.hbm, 276, rfl⟩
abbrev main_v129 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_call5_cst : Ref sig .tc := ⟨.hbm, 283, rfl⟩
abbrev main_call5_v0 : Ref sig .tc := ⟨.hbm, 284, rfl⟩
abbrev main_call5_v1 : Ref sig .tc := ⟨.hbm, 285, rfl⟩
abbrev main_call5_cst_0 : Ref sig .tc := ⟨.hbm, 286, rfl⟩
abbrev main_call5_v2 : Ref sig .tc := ⟨.hbm, 287, rfl⟩
abbrev main_call5_v3 : Ref sig .tc := ⟨.hbm, 288, rfl⟩
abbrev main_call5_cst_1 : Ref sig .tc := ⟨.hbm, 289, rfl⟩
abbrev main_call5_call0_v0 : Ref sig .tc := ⟨.hbm, 290, rfl⟩
abbrev main_call5_call0_v1 : Ref sig .tc := ⟨.hbm, 291, rfl⟩
abbrev main_call5_v4 : Ref sig .tc := ⟨.hbm, 292, rfl⟩
abbrev main_call5_v5 : Ref sig .tc := ⟨.hbm, 293, rfl⟩
abbrev main_call5_cst_2 : Ref sig .tc := ⟨.hbm, 294, rfl⟩
abbrev main_call5_v6 : Ref sig .tc := ⟨.hbm, 295, rfl⟩
abbrev main_call5_v7 : Ref sig .tc := ⟨.hbm, 296, rfl⟩
abbrev main_v135 : Ref sig .tc := ⟨.hbm, 297, rfl⟩
abbrev main_c_28 : Ref sig .tc := ⟨.hbm, 298, rfl⟩
abbrev main_v136 : Ref sig .tc := ⟨.hbm, 299, rfl⟩
abbrev main_v137 : Ref sig .tc := ⟨.hbm, 300, rfl⟩
abbrev main_c_29 : Ref sig .tc := ⟨.hbm, 301, rfl⟩
abbrev main_v138 : Ref sig .tc := ⟨.hbm, 302, rfl⟩
abbrev main_v139 : Ref sig .tc := ⟨.hbm, 303, rfl⟩
abbrev main_v140 : Ref sig .tc := ⟨.hbm, 304, rfl⟩
abbrev main_v141 : Ref sig .tc := ⟨.hbm, 305, rfl⟩
abbrev main_v142 : Ref sig .tc := ⟨.hbm, 306, rfl⟩
abbrev main_cst_30 : Ref sig .tc := ⟨.hbm, 307, rfl⟩
abbrev main_v143 : Ref sig .tc := ⟨.hbm, 308, rfl⟩
abbrev main_v144 : Ref sig .tc := ⟨.hbm, 309, rfl⟩
abbrev main_v145 : Ref sig .tc := ⟨.hbm, 310, rfl⟩
abbrev main_cst_31 : Ref sig .tc := ⟨.hbm, 311, rfl⟩
abbrev main_v146 : Ref sig .tc := ⟨.hbm, 312, rfl⟩
abbrev main_cst_32 : Ref sig .tc := ⟨.hbm, 313, rfl⟩
abbrev main_v147 : Ref sig .tc := ⟨.hbm, 314, rfl⟩
abbrev main_v148 : Ref sig .tc := ⟨.hbm, 315, rfl⟩
abbrev main_v149 : Ref sig .tc := ⟨.hbm, 316, rfl⟩
abbrev main_cst_33 : Ref sig .tc := ⟨.hbm, 317, rfl⟩
abbrev main_v150 : Ref sig .tc := ⟨.hbm, 318, rfl⟩
abbrev main_v151 : Ref sig .tc := ⟨.hbm, 319, rfl⟩
abbrev main_v152 : Ref sig .tc := ⟨.hbm, 320, rfl⟩
abbrev main_v153 : Ref sig .tc := ⟨.hbm, 321, rfl⟩
abbrev main_v154 : Ref sig .tc := ⟨.hbm, 322, rfl⟩
abbrev main_v155 : Ref sig .tc := ⟨.hbm, 323, rfl⟩
abbrev main_v156 : Ref sig .tc := ⟨.hbm, 324, rfl⟩
abbrev main_v157 : Ref sig .tc := ⟨.hbm, 325, rfl⟩
abbrev main_v158 : Ref sig .tc := ⟨.hbm, 326, rfl⟩
abbrev main_v159 : Ref sig .tc := ⟨.hbm, 327, rfl⟩
abbrev main_cst_34 : Ref sig .tc := ⟨.hbm, 328, rfl⟩
abbrev main_v160 : Ref sig .tc := ⟨.hbm, 329, rfl⟩
abbrev main_cst_35 : Ref sig .tc := ⟨.hbm, 330, rfl⟩
abbrev main_v161 : Ref sig .tc := ⟨.hbm, 331, rfl⟩
abbrev main_v162 : Ref sig .tc := ⟨.hbm, 332, rfl⟩
abbrev main_c_36 : Ref sig .tc := ⟨.hbm, 333, rfl⟩
abbrev main_call6_cst : Ref sig .tc := ⟨.hbm, 334, rfl⟩
abbrev main_call6_v0 : Ref sig .tc := ⟨.hbm, 335, rfl⟩
abbrev main_call6_v1 : Ref sig .tc := ⟨.hbm, 336, rfl⟩
abbrev main_call6_cst_0 : Ref sig .tc := ⟨.hbm, 337, rfl⟩
abbrev main_call6_v2 : Ref sig .tc := ⟨.hbm, 338, rfl⟩
abbrev main_call6_v3 : Ref sig .tc := ⟨.hbm, 339, rfl⟩
abbrev main_call6_v4 : Ref sig .tc := ⟨.hbm, 340, rfl⟩
abbrev main_call6_v5 : Ref sig .tc := ⟨.hbm, 341, rfl⟩
abbrev main_call6_v6 : Ref sig .tc := ⟨.hbm, 342, rfl⟩
abbrev main_call6_v7 : Ref sig .tc := ⟨.hbm, 343, rfl⟩
abbrev main_call6_cst_1 : Ref sig .tc := ⟨.hbm, 344, rfl⟩
abbrev main_call6_v8 : Ref sig .tc := ⟨.hbm, 345, rfl⟩
abbrev main_call6_cst_2 : Ref sig .tc := ⟨.hbm, 346, rfl⟩
abbrev main_call6_v9 : Ref sig .tc := ⟨.hbm, 347, rfl⟩
abbrev main_call6_v10 : Ref sig .tc := ⟨.hbm, 348, rfl⟩
abbrev main_call6_v11 : Ref sig .tc := ⟨.hbm, 349, rfl⟩
abbrev main_call6_cst_3 : Ref sig .tc := ⟨.hbm, 350, rfl⟩
abbrev main_call6_v12 : Ref sig .tc := ⟨.hbm, 351, rfl⟩
abbrev main_call6_cst_4 : Ref sig .tc := ⟨.hbm, 352, rfl⟩
abbrev main_call6_call0_v0 : Ref sig .tc := ⟨.hbm, 353, rfl⟩
abbrev main_call6_call0_v1 : Ref sig .tc := ⟨.hbm, 354, rfl⟩
abbrev main_v163 : Ref sig .tc := ⟨.hbm, 355, rfl⟩
abbrev main_v164 : Ref sig .tc := ⟨.hbm, 356, rfl⟩
abbrev main_v165 : Ref sig .tc := ⟨.hbm, 357, rfl⟩
abbrev main_v166 : Ref sig .tc := ⟨.hbm, 358, rfl⟩
abbrev main_cst_37 : Ref sig .tc := ⟨.hbm, 359, rfl⟩
abbrev main_v167 : Ref sig .tc := ⟨.hbm, 360, rfl⟩
abbrev main_v168 : Ref sig .tc := ⟨.hbm, 361, rfl⟩
abbrev main_v169 : Ref sig .tc := ⟨.hbm, 362, rfl⟩
abbrev main_v170 : Ref sig .tc := ⟨.hbm, 363, rfl⟩
abbrev main_v171 : Ref sig .tc := ⟨.hbm, 364, rfl⟩
abbrev main_v172 : Ref sig .tc := ⟨.hbm, 365, rfl⟩
abbrev main_v173 : Ref sig .tc := ⟨.hbm, 366, rfl⟩
abbrev main_v174 : Ref sig .tc := ⟨.hbm, 367, rfl⟩
abbrev main_v175 : Ref sig .tc := ⟨.hbm, 368, rfl⟩
abbrev main_v176 : Ref sig .tc := ⟨.hbm, 369, rfl⟩
abbrev main_v177 : Ref sig .tc := ⟨.hbm, 370, rfl⟩
abbrev main_v178 : Ref sig .tc := ⟨.hbm, 371, rfl⟩
abbrev main_call7_cst : Ref sig .tc := ⟨.hbm, 372, rfl⟩
abbrev main_call7_v0 : Ref sig .tc := ⟨.hbm, 373, rfl⟩
abbrev main_call7_v1 : Ref sig .tc := ⟨.hbm, 374, rfl⟩
abbrev main_call7_cst_0 : Ref sig .tc := ⟨.hbm, 375, rfl⟩
abbrev main_call7_v2 : Ref sig .tc := ⟨.hbm, 376, rfl⟩
abbrev main_call7_v3 : Ref sig .tc := ⟨.hbm, 377, rfl⟩
abbrev main_call7_cst_1 : Ref sig .tc := ⟨.hbm, 378, rfl⟩
abbrev main_call7_call0_v0 : Ref sig .tc := ⟨.hbm, 379, rfl⟩
abbrev main_call7_call0_v1 : Ref sig .tc := ⟨.hbm, 380, rfl⟩
abbrev main_call7_v4 : Ref sig .tc := ⟨.hbm, 381, rfl⟩
abbrev main_call7_v5 : Ref sig .tc := ⟨.hbm, 382, rfl⟩
abbrev main_call7_cst_2 : Ref sig .tc := ⟨.hbm, 383, rfl⟩
abbrev main_call7_v6 : Ref sig .tc := ⟨.hbm, 384, rfl⟩
abbrev main_call7_v7 : Ref sig .tc := ⟨.hbm, 385, rfl⟩
abbrev main_v179 : Ref sig .tc := ⟨.hbm, 386, rfl⟩
abbrev main_cst_38 : Ref sig .tc := ⟨.hbm, 387, rfl⟩
abbrev main_v180 : Ref sig .tc := ⟨.hbm, 388, rfl⟩
abbrev main_v181 : Ref sig .tc := ⟨.hbm, 389, rfl⟩
abbrev main_v182 : Ref sig .tc := ⟨.hbm, 390, rfl⟩
abbrev main_cst_39 : Ref sig .tc := ⟨.hbm, 391, rfl⟩
abbrev main_v183 : Ref sig .tc := ⟨.hbm, 392, rfl⟩
abbrev main_cst_40 : Ref sig .tc := ⟨.hbm, 393, rfl⟩
abbrev main_v184 : Ref sig .tc := ⟨.hbm, 394, rfl⟩
abbrev main_v185 : Ref sig .tc := ⟨.hbm, 395, rfl⟩
abbrev main_v186 : Ref sig .tc := ⟨.hbm, 396, rfl⟩
abbrev main_cst_41 : Ref sig .tc := ⟨.hbm, 397, rfl⟩
abbrev main_v187 : Ref sig .tc := ⟨.hbm, 398, rfl⟩
abbrev main_v188 : Ref sig .tc := ⟨.hbm, 399, rfl⟩
abbrev main_v189 : Ref sig .tc := ⟨.hbm, 400, rfl⟩
abbrev main_v190 : Ref sig .tc := ⟨.hbm, 401, rfl⟩
abbrev main_v191 : Ref sig .tc := ⟨.hbm, 402, rfl⟩
abbrev main_v192 : Ref sig .tc := ⟨.hbm, 403, rfl⟩
abbrev main_v193 : Ref sig .tc := ⟨.hbm, 404, rfl⟩
abbrev main_v194 : Ref sig .tc := ⟨.hbm, 405, rfl⟩
abbrev main_call8_cst : Ref sig .tc := ⟨.hbm, 406, rfl⟩
abbrev main_call8_v0 : Ref sig .tc := ⟨.hbm, 407, rfl⟩
abbrev main_v195 : Ref sig .tc := ⟨.hbm, 408, rfl⟩
abbrev main_v196 : Ref sig .tc := ⟨.hbm, 409, rfl⟩
abbrev main_v197 : Ref sig .tc := ⟨.hbm, 410, rfl⟩
abbrev main_v198 : Ref sig .tc := ⟨.hbm, 411, rfl⟩
abbrev main_v199 : Ref sig .tc := ⟨.hbm, 412, rfl⟩
abbrev main_call9_cst : Ref sig .tc := ⟨.hbm, 413, rfl⟩
abbrev main_call9_v0 : Ref sig .tc := ⟨.hbm, 414, rfl⟩
abbrev main_call9_cst_0 : Ref sig .tc := ⟨.hbm, 415, rfl⟩
abbrev main_call9_v1 : Ref sig .tc := ⟨.hbm, 416, rfl⟩
abbrev main_call9_v2 : Ref sig .tc := ⟨.hbm, 417, rfl⟩
abbrev main_call9_v3 : Ref sig .tc := ⟨.hbm, 418, rfl⟩
abbrev main_call9_v4 : Ref sig .tc := ⟨.hbm, 419, rfl⟩
abbrev main_call9_v5 : Ref sig .tc := ⟨.hbm, 420, rfl⟩
abbrev main_call9_v6 : Ref sig .tc := ⟨.hbm, 421, rfl⟩
abbrev main_call9_cst_1 : Ref sig .tc := ⟨.hbm, 422, rfl⟩
abbrev main_call9_v7 : Ref sig .tc := ⟨.hbm, 423, rfl⟩
abbrev main_call9_v8 : Ref sig .tc := ⟨.hbm, 424, rfl⟩
abbrev main_call9_v9 : Ref sig .tc := ⟨.hbm, 425, rfl⟩
abbrev main_call9_v10 : Ref sig .tc := ⟨.hbm, 426, rfl⟩
abbrev main_v200 : Ref sig .tc := ⟨.hbm, 427, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  bcast_S_S32 : S_.BroadcastsInDim S32 (![] : Fin 0 → Fin S32.rank)
  bcast_S_S1x32 : S_.BroadcastsInDim S1x32 (![] : Fin 0 → Fin S1x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000x1_S3200000x1_S3200000x1_1_0_0_1_wf : ScatterDims.WF S100000x1 S3200000x1 S3200000x1 [1] [0] [0] 1
  dot_S100000x64_S64x16_S100000x16_1_0_0_1_n_n_wf : DotDims.WF S100000x64 S64x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x32_S100000x32_1_0_0_1_n_n_wf : DotDims.WF S100000x16 S16x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x32_S32x64_S100000x64_1_0_0_1_n_n_wf : DotDims.WF S100000x32 S32x64 S100000x64 [1] [0] [0] [1] [] []
  scatter_S256x64_S100000x1_S100000x64_1_0_0_1_wf : ScatterDims.WF S256x64 S100000x1 S100000x64 [1] [0] [0] 1
  scatter_S256x1_S100000x1_S100000x1_1_0_0_1_wf : ScatterDims.WF S256x1 S100000x1 S100000x1 [1] [0] [0] 1
  dot_S256x64_S64x64_S256x64_1_0_0_1_n_n_wf : DotDims.WF S256x64 S64x64 S256x64 [1] [0] [0] [1] [] []
  dot_S256x64_S64x10_S256x10_1_0_0_1_n_n_wf : DotDims.WF S256x64 S64x10 S256x10 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.R0.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the projection X · W, one row block of 5000 rows per grid point

Windows: 0 = x (5000x64 row block i), 1 = w (64x16, whole at every point), 2 = the output (5000x16 row block i). -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was moved there at this
    point or at an earlier one with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S5000x64 := Rect.unit (s := S5000x64) ![0, 0] S5000x64.size inb_S5000x64_S5000x64_0_0
abbrev r0_w : Rect S64x16 := Rect.unit (s := S64x16) ![0, 0] S64x16.size inb_S64x16_S64x16_0_0
abbrev r0_o : Rect S5000x16 := Rect.unit (s := S5000x16) ![0, 0] S5000x16.size inb_S5000x16_S5000x16_0_0

/-- The output block after the body: the product of the x block and w (both rounded to bf16), accumulated
    into zero, stored over the whole buffer. -/
def out0_2 (x0 : Vec F S5000x64 .f32) (x1 : Vec F S64x16 .f32) : Vec F S5000x16 .f32 :=
  View.canon [⟨r0_o, k0_pay1 (View.ld x0 r0_x) (View.ld x1 r0_w)⟩]

/-- The one store is the whole buffer, so it covers it. -/
theorem cover0_2 (p0 : Vec F S5000x16 .f32) (y : S5000x16.Idx) :
    ∃ pc ∈ ([⟨r0_o, p0⟩] : List (View.Piece (Elt F) S5000x16 .f32)), y ∈ pc.1.set :=
  View.cover_of_tiled [⟨r0_o, p0⟩] S5000x16.size (by rfl) y

/-! ## The body's triple -/

set_option maxHeartbeats 1000000 in
/-- The body on whole staging memrefs, the inputs' at read contents `x0`, `x1` and the output's at anything, runs to
    the continuation holding the inputs' as they were and the output's at `out0_2 x0 x1`. -/
theorem sound_kernel0 (c : Dev nD) (E : Set ℕ) (i : grid0.Coords)
    (arg1 : Memref sig .tc .vmem S5000x64 .f32) (harg1 : arg1.IsWhole)
    (arg2 : Memref sig .tc .vmem S64x16 .f32) (harg2 : arg2.IsWhole)
    (arg3 : Memref sig .tc .vmem S5000x16 .f32) (harg3 : arg3.IsWhole)
    (x0 : Vec F S5000x64 .f32) (x1 : Vec F S64x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of region 0 on core `c`: the arrays as the region finds them; after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem Φ_eq0 (c : Dev nD) (i : Fin (cfg0.N + 1)) : (dat0 V c).Φ i = Pipeline.ΦA spec0 c := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.R1.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

-- membership in a rectangle of long extents is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: y = x · w_root + agg + b on a row block of 5000 rows per grid point, with the column sums of y and of
y * y accumulated over the grid points

Windows: 0 = agg (5000x16 row block i), 1 = x (5000x64 row block i), 2 = w_root (64x16, whole), 3 = b (1x16, whole),
4 = y (5000x16 row block i), 5 = the column sums of y (1x16, block (0,0) at every point), 6 = the column sums of y * y
(likewise). Two scratch rows carry the running sums from point to point: the first point zeroes them, every point
adds its block's column sums and copies the running sums to windows 5 and 6. -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the block was moved there at this
    point or at an earlier one with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S5000x16 := Rect.unit (s := S5000x16) ![0, 0] S5000x16.size inb_S5000x16_S5000x16_0_0
abbrev r1_x : Rect S5000x64 := Rect.unit (s := S5000x64) ![0, 0] S5000x64.size inb_S5000x64_S5000x64_0_0
abbrev r1_w : Rect S64x16 := Rect.unit (s := S64x16) ![0, 0] S64x16.size inb_S64x16_S64x16_0_0
abbrev r1_b : Rect S1x16 := Rect.unit (s := S1x16) ![0, 0] S1x16.size inb_S1x16_S1x16_0_0

/-- The offset of every access is the origin. -/
theorem off1 : (![0, 0] : Fin 2 → ℕ) = fun _ => 0 := by
  funext a; match a with | ⟨0, _⟩ => rfl | ⟨1, _⟩ => rfl

/-- Every index of a row lies in the whole-row rectangle, so a list of stores headed by one through it covers the row. -/
theorem cover1_b (p0 : Vec F S1x16 .f32) (L : List (View.Piece (Elt F) S1x16 .f32)) (y : S1x16.Idx) :
    ∃ pc ∈ ((⟨r1_b, p0⟩ : View.Piece (Elt F) S1x16 .f32) :: L), y ∈ pc.1.set :=
  ⟨_, List.mem_cons.mpr (Or.inl rfl), View.mem_set_unit_zero off1 inb_S1x16_S1x16_0_0 y⟩

/-- The same of a 5000x16 block. -/
theorem cover1_a (p0 : Vec F S5000x16 .f32) (L : List (View.Piece (Elt F) S5000x16 .f32)) (y : S5000x16.Idx) :
    ∃ pc ∈ ((⟨r1_a, p0⟩ : View.Piece (Elt F) S5000x16 .f32) :: L), y ∈ pc.1.set :=
  ⟨_, List.mem_cons.mpr (Or.inl rfl), View.mem_set_unit_zero off1 inb_S5000x16_S5000x16_0_0 y⟩

/-! ## The body's branch -/

/-- The condition of the body's one branch, from the grid coordinate: the point is the first. -/
abbrev cond1 (i : grid1.Coords) : Prop := (Scalar.cmpi .ne (Scalar.extui (Scalar.cmpi .eq (BitVec.ofNat 32 (i 0).val) 0#32)) 0#32) = 1#1
/-- It holds at the first point only: decided over the twenty points. -/
theorem hcond1 : ∀ t : Fin cfg1.N, cond1 (grid1.coords t) ↔ t.val = 0 :=
  (by decide +kernel : ∀ t : Fin grid1.N, cond1 (grid1.coords t) ↔ t.val = 0)

/-! ## What the body stores -/

/-- The store into the y window: x · w_root (both rounded to bf16, accumulated into zero) + agg + b. -/
abbrev pc1Y (x0 : Vec F S5000x16 .f32) (x1 : Vec F S5000x64 .f32) (x2 : Vec F S64x16 .f32) (x3 : Vec F S1x16 .f32) : View.Piece (Elt F) S5000x16 .f32 :=
  ⟨r1_a, k1_pay3 (View.ld x1 r1_x) (View.ld x2 r1_w) (View.ld x0 r1_a) (View.ld x3 r1_b)⟩
/-- The store into the first scratch row: the row `s` read from it plus the column sums of y. -/
abbrev pc1S0 (x0 : Vec F S5000x16 .f32) (x1 : Vec F S5000x64 .f32) (x2 : Vec F S64x16 .f32) (x3 : Vec F S1x16 .f32) (s : Vec F S1x16 .f32) : View.Piece (Elt F) S1x16 .f32 :=
  ⟨r1_b, k1_pay4 (View.ld x1 r1_x) (View.ld x2 r1_w) (View.ld x0 r1_a) (View.ld x3 r1_b) s⟩
/-- The store into the second scratch row: the row `s` read from it plus the column sums of y * y. -/
abbrev pc1S1 (x0 : Vec F S5000x16 .f32) (x1 : Vec F S5000x64 .f32) (x2 : Vec F S64x16 .f32) (x3 : Vec F S1x16 .f32) (s : Vec F S1x16 .f32) : View.Piece (Elt F) S1x16 .f32 :=
  ⟨r1_b, k1_pay5 (View.ld x1 r1_x) (View.ld x2 r1_w) (View.ld x0 r1_a) (View.ld x3 r1_b) s⟩
/-- The first point's stores of zero into the scratch rows. -/
abbrev pc1Z0 : View.Piece (Elt F) S1x16 .f32 := ⟨r1_b, k1_pay1⟩
abbrev pc1Z1 : View.Piece (Elt F) S1x16 .f32 := ⟨r1_b, k1_pay2⟩

/-- The y window after the body. -/
def yblk1 (x0 : Vec F S5000x16 .f32) (x1 : Vec F S5000x64 .f32) (x2 : Vec F S64x16 .f32) (x3 : Vec F S1x16 .f32) : Vec F S5000x16 .f32 := View.canon [pc1Y x0 x1 x2 x3]

/-- The scratch rows' stores at the first point (last first): the row is zeroed, read back, and the block's sums added. -/
abbrev L1A0 (v : View sig .tc .vmem S1x16 .f32) (x0 : Vec F S5000x16 .f32) (x1 : Vec F S5000x64 .f32) (x2 : Vec F S64x16 .f32) (x3 : Vec F S1x16 .f32) : List (View.Piece (Elt F) S1x16 .f32) :=
  [pc1S0 x0 x1 x2 x3 (v.readCov [pc1Z0] r1_b.toLoadRect), pc1Z0]
abbrev L1A1 (v : View sig .tc .vmem S1x16 .f32) (x0 : Vec F S5000x16 .f32) (x1 : Vec F S5000x64 .f32) (x2 : Vec F S64x16 .f32) (x3 : Vec F S1x16 .f32) : List (View.Piece (Elt F) S1x16 .f32) :=
  [pc1S1 x0 x1 x2 x3 (v.readCov [pc1Z1] r1_b.toLoadRect), pc1Z1]
/-- The scratch rows' stores at a later point, the rows holding `s` when the point begins. -/
abbrev L1B0 (x0 : Vec F S5000x16 .f32) (x1 : Vec F S5000x64 .f32) (x2 : Vec F S64x16 .f32) (x3 : Vec F S1x16 .f32) (s : Vec F S1x16 .f32) : List (View.Piece (Elt F) S1x16 .f32) := [pc1S0 x0 x1 x2 x3 (View.ld s r1_b)]
abbrev L1B1 (x0 : Vec F S5000x16 .f32) (x1 : Vec F S5000x64 .f32) (x2 : Vec F S64x16 .f32) (x3 : Vec F S1x16 .f32) (s : Vec F S1x16 .f32) : List (View.Piece (Elt F) S1x16 .f32) := [pc1S1 x0 x1 x2 x3 (View.ld s r1_b)]

/-- What a scratch row holds after stores `L`, and what the sum window copied from it holds. -/
def scr1 (L : List (View.Piece (Elt F) S1x16 .f32)) : Vec F S1x16 .f32 := View.canon L
def sumw1 (v : View sig .tc .vmem S1x16 .f32) (L : List (View.Piece (Elt F) S1x16 .f32)) : Vec F S1x16 .f32 :=
  View.canon [⟨r1_b, v.readCov L r1_b.toLoadRect⟩]

/-! ## The body's triple, case by case -/

set_option maxHeartbeats 4000000 in
/-- The body at the first point (the branch taken) on whole memrefs: the inputs' at read contents `x·`, the outputs' at anything, the scratch rows
    at anything. It runs to the continuation holding the inputs' as they were, the y window at `yblk1`, each scratch row at
    what its stores leave, and each sum window at the copy of its scratch row. -/
theorem sound_kernel1_A (c : Dev nD) (E : Set ℕ) (i : grid1.Coords) (arg1 : Memref sig .tc .vmem S5000x16 .f32) (harg1 : arg1.IsWhole) (arg2 : Memref sig .tc .vmem S5000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S5000x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (hc : cond1 i)
    (x0 : Vec F S5000x16 .f32) (x1 : Vec F S5000x64 .f32) (x2 : Vec F S64x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yblk1 x0 x1 x2 x3) ∗ owns (c : Thread nD τ) arg6 fullShare (sumw1 arg8.view (L1A0 arg8.view x0 x1 x2 x3)) ∗ owns (c : Thread nD τ) arg7 fullShare (sumw1 arg9.view (L1A1 arg9.view x0 x1 x2 x3)) ∗ owns (c : Thread nD τ) arg8 fullShare (scr1 (L1A0 arg8.view x0 x1 x2 x3)) ∗ owns (c : Thread nD τ) arg9 fullShare (scr1 (L1A1 arg9.view x0 x1 x2 x3))) -∗ K ⟨⟩))
      ⊢ wp frame (wpE (defs₀ (F := F)) Variants.none c none) E (cc1__linear_add_stats_kernel i arg1 harg1 arg2 harg2 arg3 harg3 arg4 harg4 arg5 harg5 arg6 harg6 arg7 harg7 arg8 harg8 arg9 harg9) K := by
  simp only [cc1__linear_add_stats_kernel_eq_skeleton]; unfold cc1__linear_add_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf1; subst hf2; subst hf3; subst hf4
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; exact View.read_writes_eq_canon _ _ _ (cover1_a _ _)
  isplitl [H6]
  · iexists _; isplitr
    swap; · iexact H6
    ipureintro; exact View.read_writes_eq_canon _ _ _ (cover1_b _ _)
  isplitl [H7]
  · iexists _; isplitr
    swap; · iexact H7
    ipureintro; exact View.read_writes_eq_canon _ _ _ (cover1_b _ _)
  isplitl [H8]
  · iexists _; isplitr
    swap; · iexact H8
    ipureintro; exact View.read_writes_eq_canon _ _ _ (cover1_b _ _)
  iexists _; isplitr
  swap; · iexact H9
  ipureintro; exact View.read_writes_eq_canon _ _ _ (cover1_b _ _)

set_option maxHeartbeats 4000000 in
/-- The body at a later point (the branch not taken) on whole memrefs: the inputs' at read contents `x·`, the outputs' at anything, the scratch rows
    at the rows \`s0\`, \`s1\` the point before left. It runs to the continuation holding the inputs' as they were, the y window at `yblk1`, each scratch row at
    what its stores leave, and each sum window at the copy of its scratch row. -/
theorem sound_kernel1_B (c : Dev nD) (E : Set ℕ) (i : grid1.Coords) (arg1 : Memref sig .tc .vmem S5000x16 .f32) (harg1 : arg1.IsWhole) (arg2 : Memref sig .tc .vmem S5000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S5000x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (hc : ¬cond1 i)
    (x0 : Vec F S5000x16 .f32) (x1 : Vec F S5000x64 .f32) (x2 : Vec F S64x16 .f32) (x3 : Vec F S1x16 .f32) (s0 s1 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yblk1 x0 x1 x2 x3) ∗ owns (c : Thread nD τ) arg6 fullShare (sumw1 arg8.view (L1B0 x0 x1 x2 x3 s0)) ∗ owns (c : Thread nD τ) arg7 fullShare (sumw1 arg9.view (L1B1 x0 x1 x2 x3 s1)) ∗ owns (c : Thread nD τ) arg8 fullShare (scr1 (L1B0 x0 x1 x2 x3 s0)) ∗ owns (c : Thread nD τ) arg9 fullShare (scr1 (L1B1 x0 x1 x2 x3 s1))) -∗ K ⟨⟩))
      ⊢ wp frame (wpE (defs₀ (F := F)) Variants.none c none) E (cc1__linear_add_stats_kernel i arg1 harg1 arg2 harg2 arg3 harg3 arg4 harg4 arg5 harg5 arg6 harg6 arg7 harg7 arg8 harg8 arg9 harg9) K := by
  simp only [cc1__linear_add_stats_kernel_eq_skeleton]; unfold cc1__linear_add_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; exact View.read_writes_eq_canon _ _ _ (cover1_a _ _)
  isplitl [H6]
  · iexists _; isplitr
    swap; · iexact H6
    ipureintro; exact View.read_writes_eq_canon _ _ _ (cover1_b _ _)
  isplitl [H7]
  · iexists _; isplitr
    swap; · iexact H7
    ipureintro; exact View.read_writes_eq_canon _ _ _ (cover1_b _ _)
  isplitl [H8]
  · iexists _; isplitr
    swap; · iexact H8
    ipureintro; exact View.read_writes_eq_canon _ _ _ (cover1_b _ _)
  iexists _; isplitr
  swap; · iexact H9
  ipureintro; exact View.read_writes_eq_canon _ _ _ (cover1_b _ _)

/-! ## The scratch rows -/

/-- The scratch rows: whole scoped buffers of the kernel's own, passed to the body beside the windows. -/
abbrev scM1_0 : Memref sig .tc .vmem S1x16 .f32 := Memref.whole cc1_scratch0
abbrev scM1_1 : Memref sig .tc .vmem S1x16 .f32 := Memref.whole cc1_scratch1

/-- The region's invariant as the launch hands it over, with the two scratch rows split off the core's other scoped
    buffers and owned as memrefs at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## What the scratch rows and the sum windows hold after each point -/

/-- THE ACCUMULATION. After the body at position `n`: the first scratch row, the second scratch row, window 5, window 6.
    The first point zeroes the rows before adding its block's sums; a later point adds to what the point before left. -/
def accAt1 (c : Dev nD) : (n : ℕ) → n < cfg1.N → Vec F S1x16 .f32 × Vec F S1x16 .f32 × Vec F S1x16 .f32 × Vec F S1x16 .f32
  | 0, hn => (scr1 (L1A0 scM1_0.view (iblk1 V c 0 ⟨0, hn⟩) (iblk1 V c 1 ⟨0, hn⟩) (iblk1 V c 2 ⟨0, hn⟩) (iblk1 V c 3 ⟨0, hn⟩)), scr1 (L1A1 scM1_1.view (iblk1 V c 0 ⟨0, hn⟩) (iblk1 V c 1 ⟨0, hn⟩) (iblk1 V c 2 ⟨0, hn⟩) (iblk1 V c 3 ⟨0, hn⟩)), sumw1 scM1_0.view (L1A0 scM1_0.view (iblk1 V c 0 ⟨0, hn⟩) (iblk1 V c 1 ⟨0, hn⟩) (iblk1 V c 2 ⟨0, hn⟩) (iblk1 V c 3 ⟨0, hn⟩)), sumw1 scM1_1.view (L1A1 scM1_1.view (iblk1 V c 0 ⟨0, hn⟩) (iblk1 V c 1 ⟨0, hn⟩) (iblk1 V c 2 ⟨0, hn⟩) (iblk1 V c 3 ⟨0, hn⟩)))
  | n + 1, hn => (scr1 (L1B0 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).1), scr1 (L1B1 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).2.1), sumw1 scM1_0.view (L1B0 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).1), sumw1 scM1_1.view (L1B1 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).2.1))

/-- `accAt1` at the first point. -/
theorem accAt1_zero (c : Dev nD) (t : Fin cfg1.N) (hz : t.val = 0) :
    accAt1 V c t.val t.isLt = (scr1 (L1A0 scM1_0.view (iblk1 V c 0 t) (iblk1 V c 1 t) (iblk1 V c 2 t) (iblk1 V c 3 t)), scr1 (L1A1 scM1_1.view (iblk1 V c 0 t) (iblk1 V c 1 t) (iblk1 V c 2 t) (iblk1 V c 3 t)), sumw1 scM1_0.view (L1A0 scM1_0.view (iblk1 V c 0 t) (iblk1 V c 1 t) (iblk1 V c 2 t) (iblk1 V c 3 t)), sumw1 scM1_1.view (L1A1 scM1_1.view (iblk1 V c 0 t) (iblk1 V c 1 t) (iblk1 V c 2 t) (iblk1 V c 3 t))) := by
  obtain ⟨n, hn⟩ := t
  cases n with
  | zero => exact rfl
  | succ n => exact absurd hz (Nat.succ_ne_zero n)

/-- `accAt1` at a later point: over what the point before left. -/
theorem accAt1_pos (c : Dev nD) (t : Fin cfg1.N) (hz : t.val ≠ 0) :
    accAt1 V c t.val t.isLt = (scr1 (L1B0 (iblk1 V c 0 t) (iblk1 V c 1 t) (iblk1 V c 2 t) (iblk1 V c 3 t) (accAt1 V c (t.val - 1) (Nat.lt_of_le_of_lt (Nat.sub_le _ _) t.isLt)).1), scr1 (L1B1 (iblk1 V c 0 t) (iblk1 V c 1 t) (iblk1 V c 2 t) (iblk1 V c 3 t) (accAt1 V c (t.val - 1) (Nat.lt_of_le_of_lt (Nat.sub_le _ _) t.isLt)).2.1), sumw1 scM1_0.view (L1B0 (iblk1 V c 0 t) (iblk1 V c 1 t) (iblk1 V c 2 t) (iblk1 V c 3 t) (accAt1 V c (t.val - 1) (Nat.lt_of_le_of_lt (Nat.sub_le _ _) t.isLt)).1), sumw1 scM1_1.view (L1B1 (iblk1 V c 0 t) (iblk1 V c 1 t) (iblk1 V c 2 t) (iblk1 V c 3 t) (accAt1 V c (t.val - 1) (Nat.lt_of_le_of_lt (Nat.sub_le _ _) t.isLt)).2.1)) := by
  obtain ⟨n, hn⟩ := t
  cases n with
  | zero => exact absurd rfl hz
  | succ n => exact rfl

/-! ## The region's invariant -/

/-- Before position `n`: before the first point what the launch hands over (every scratch buffer at anything);
    afterwards the two scratch rows at what the point before left in them, the core's other scoped buffers and its
    generator register untouched. -/
def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn).1 ∗ owns (c : Thread nD τ) scM1_1 fullShare (accAt1 V c n hn).2.1) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn).1 ∗ owns (c : Thread nD τ) scM1_1 fullShare (accAt1 V c n hn).2.1) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accAt1 V c (n - 1) (by omega)).1 ∗ owns (c : Thread nD τ) scM1_1 fullShare (accAt1 V c (n - 1) (by omega)).2.1) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the y window at `yblk1` of the input blocks, the sum windows at `accAt1`'s
    components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => yblk1 (iblk1 V c 0 t) (iblk1 V c 1 t) (iblk1 V c 2 t) (iblk1 V c 3 t)
    | ⟨5, _⟩ => (accAt1 V c t.val t.isLt).2.2.1
    | ⟨6, _⟩ => (accAt1 V c t.val t.isLt).2.2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = yblk1 (iblk1 V c 0 t) (iblk1 V c 1 t) (iblk1 V c 2 t) (iblk1 V c 3 t) := by dsimp only [dat1]
theorem after1_5 (c : Dev nD) (t : Fin cfg1.N) : (dat1 V c).after 5 t = (accAt1 V c t.val t.isLt).2.2.1 := by dsimp only [dat1]
theorem after1_6 (c : Dev nD) (t : Fin cfg1.N) : (dat1 V c).after 6 t = (accAt1 V c t.val t.isLt).2.2.2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks; the first point is the branch's case and finds the
    scratch rows at anything, a later point finds them at what the point before left; the case's triple applies; the
    scratch rows go back into the invariant at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  by_cases hz : t.val = 0
  · rw [PhiS1_castSucc V c t, PhiS1_zero V c _ _ hz, PhiA1_eq, accAt1_zero V c t hz]
    dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ _ _ _ _ ((hcond1 t).mpr hz) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS1_castSucc V c t, PhiS1_pos V c _ _ hz, accAt1_pos V c t hz]
    dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ _ _ _ _ (fun h => hz ((hcond1 t).mp h)) (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

theorem Phi1_zero (c : Dev nD) : (dat1 V c).Φ 0 = Pipeline.ΦA spec1 c := rfl

/-- After any point but the first the invariant gives back what the launch handed over: the scratch rows' named
    contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

theorem Phi1_last (c : Dev nD) : (dat1 V c).Φ (Fin.last cfg1.N) ⊢ Pipeline.ΦA spec1 c :=
  Phi1_out V c _ (by rw [Fin.val_last]; have : cfg1.N = 20 := N_1; omega)

/-- The invariant before the first point, from the generator register and the scoped buffers no window stages. -/
theorem hin1 (c : Dev nD) : iprop((∃ r, prngReg c r) ∗ Pipeline.scopedRest spec1 c) ⊢ ((dat1 V c).Φ 0 : sProp 𝕄) := by
  rw [Phi1_zero]; unfold Pipeline.ΦA
  iintro ⟨Hp, Hr⟩
  isplitl [Hr]; · iexact Hr
  iexact Hp

/-- The invariant after the last point gives them back. -/
theorem hout1 (c : Dev nD) : ((dat1 V c).Φ (Fin.last cfg1.N) : sProp 𝕄) ⊢ iprop((∃ r, prngReg c r) ∗ Pipeline.scopedRest spec1 c) :=
  (Phi1_last V c).trans (by
    unfold Pipeline.ΦA
    iintro ⟨Hr, Hp⟩
    isplitl [Hp]; · iexact Hp
    iexact Hr)

end Cert.KernelIdeal.Hand

end
-- ==== Proof.R2.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: batch normalisation then ELU, pointwise on one row block per grid point

Windows: 0 = y (row block i), 1 = mean, 2 = variance, 3 = gamma, 4 = beta (one row each, whole at every point),
5 = the output (row block i). -/

/-- Window `w`'s block at point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the block was moved there at this
    point or at an earlier one with the same block index. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_y : Rect S5000x16 := Rect.unit (s := S5000x16) ![0, 0] S5000x16.size inb_S5000x16_S5000x16_0_0
abbrev r2_p : Rect S1x16 := Rect.unit (s := S1x16) ![0, 0] S1x16.size inb_S1x16_S1x16_0_0

/-- The output block after the body: ELU of gamma · (y − mean) · rsqrt(variance + ε) + beta, stored over the whole
    buffer (the body reads the variance before the mean). -/
def out2_5 (x0 : Vec F S5000x16 .f32) (x1 x2 x3 x4 : Vec F S1x16 .f32) : Vec F S5000x16 .f32 :=
  View.canon [⟨r2_y, k2_pay1 (View.ld x0 r2_y) (View.ld x2 r2_p) (View.ld x1 r2_p) (View.ld x3 r2_p) (View.ld x4 r2_p)⟩]

/-- The one store is the whole buffer, so it covers it. -/
theorem cover2_5 (p0 : Vec F S5000x16 .f32) (y : S5000x16.Idx) :
    ∃ pc ∈ ([⟨r2_y, p0⟩] : List (View.Piece (Elt F) S5000x16 .f32)), y ∈ pc.1.set :=
  View.cover_of_tiled [⟨r2_y, p0⟩] S5000x16.size (by rfl) y

/-! ## The body's triple -/

set_option maxHeartbeats 1000000 in
/-- The body on whole staging memrefs, the inputs' at read contents `x0 … x4` and the output's at anything, runs to
    the continuation holding the inputs' as they were and the output's at `out2_5 x0 … x4`. -/
theorem sound_kernel2 (c : Dev nD) (E : Set ℕ) (i : grid2.Coords)
    (arg1 : Memref sig .tc .vmem S5000x16 .f32) (harg1 : arg1.IsWhole)
    (arg2 : Memref sig .tc .vmem S1x16 .f32) (harg2 : arg2.IsWhole)
    (arg3 : Memref sig .tc .vmem S1x16 .f32) (harg3 : arg3.IsWhole)
    (arg4 : Memref sig .tc .vmem S1x16 .f32) (harg4 : arg4.IsWhole)
    (arg5 : Memref sig .tc .vmem S1x16 .f32) (harg5 : arg5.IsWhole)
    (arg6 : Memref sig .tc .vmem S5000x16 .f32) (harg6 : arg6.IsWhole)
    (x0 : Vec F S5000x16 .f32) (x1 x2 x3 x4 : Vec F S1x16 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bn_elu_kernel i arg1 harg1 arg2 harg2 arg3 harg3 arg4 harg4 arg5 harg5 arg6 harg6) K := by
  simp only [cc2__bn_elu_kernel_eq_skeleton]; unfold cc2__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of region 2 on core `c`: the arrays as the region finds them; after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem Φ_eq2 (c : Dev nD) (i : Fin (cfg2.N + 1)) : (dat2 V c).Φ i = Pipeline.ΦA spec2 c := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.R3.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: Y = agg · W_rel + x · W_root + b on one row block of 5000 rows per grid point, with the column
sums of Y and of Y² accumulated over the grid's points

Windows: 0 = agg (row block i), 1 = x (row block i), 2 = W_rel, 3 = W_root, 4 = b (each whole at every point),
5 = Y (row block i), 6 = the column sums, 7 = the column sums of squares (one block each, written back after the
last point). Two scratch rows carry the running sums from point to point; the first point zeroes them. -/

/-- Window `w`'s block at point `t`, read off its array at the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S5000x16 := Rect.unit (s := S5000x16) ![0, 0] S5000x16.size inb_S5000x16_S5000x16_0_0
abbrev r3_w : Rect S16x32 := Rect.unit (s := S16x32) ![0, 0] S16x32.size inb_S16x32_S16x32_0_0
abbrev r3_b : Rect S1x32 := Rect.unit (s := S1x32) ![0, 0] S1x32.size inb_S1x32_S1x32_0_0
abbrev r3_y : Rect S5000x32 := Rect.unit (s := S5000x32) ![0, 0] S5000x32.size inb_S5000x32_S5000x32_0_0

/-! ## What the body leaves -/

/-- The block of Y: agg · W_rel + x · W_root + b on the point's rows (operands rounded to bf16, products summed in f32). -/
def lin3 (xa xb : Vec F S5000x16 .f32) (xc xd : Vec F S16x32 .f32) (xe : Vec F S1x32 .f32) : Vec F S5000x32 .f32 :=
  k3_pay4 (View.ld xa r3_a) (View.ld xb r3_a) (View.ld xc r3_w) (View.ld xd r3_w) (View.ld xe r3_b)

/-- Window 5 after the body: the block of Y. -/
def out3_5 (xa xb : Vec F S5000x16 .f32) (xc xd : Vec F S16x32 .f32) (xe : Vec F S1x32 .f32) : Vec F S5000x32 .f32 :=
  View.canon [⟨r3_y, lin3 xa xb xc xd xe⟩]

/-- The running column sums after a point: the sums so far `s` plus the column sums of the point's block of Y. -/
def sum3 (xa xb : Vec F S5000x16 .f32) (xc xd : Vec F S16x32 .f32) (xe : Vec F S1x32 .f32) (s : Vec F S1x32 .f32) : Vec F S1x32 .f32 :=
  View.canon [⟨r3_b, k3_pay5 (View.ld xa r3_a) (View.ld xb r3_a) (View.ld xc r3_w) (View.ld xd r3_w) (View.ld xe r3_b) (View.ld s r3_b)⟩]

/-- The running column sums of squares after a point: `q` plus the column sums of the squares of the point's block of Y. -/
def sq3 (xa xb : Vec F S5000x16 .f32) (xc xd : Vec F S16x32 .f32) (xe : Vec F S1x32 .f32) (q : Vec F S1x32 .f32) : Vec F S1x32 .f32 :=
  View.canon [⟨r3_b, k3_pay1 (View.ld q r3_b) (k3_pay6 (View.ld xa r3_a) (View.ld xb r3_a) (View.ld xc r3_w) (View.ld xd r3_w) (View.ld xe r3_b))⟩]

/-- The zero rows the first point starts the two running sums from. -/
def zero3_s : Vec F S1x32 .f32 := View.canon [⟨r3_b, k3_pay2⟩]
def zero3_q : Vec F S1x32 .f32 := View.canon [⟨r3_b, k3_pay3⟩]

/-- Windows 6 and 7 after the body: the running sums as read back from the scratch rows. -/
def out3_6 (s : Vec F S1x32 .f32) : Vec F S1x32 .f32 := View.canon [⟨r3_b, View.ld s r3_b⟩]

/-- Each buffer is written by one store of its whole shape, which covers it. -/
theorem cover3_y (p : Vec F S5000x32 .f32) (y : S5000x32.Idx) :
    ∃ pc ∈ ([⟨r3_y, p⟩] : List (View.Piece (Elt F) S5000x32 .f32)), y ∈ pc.1.set :=
  View.cover_of_tiled [⟨r3_y, p⟩] S5000x32.size (by rfl) y
theorem cover3_b (p : Vec F S1x32 .f32) (y : S1x32.Idx) :
    ∃ pc ∈ ([⟨r3_b, p⟩] : List (View.Piece (Elt F) S1x32 .f32)), y ∈ pc.1.set :=
  View.cover_of_tiled [⟨r3_b, p⟩] S1x32.size (by rfl) y

/-- A last write that covers the shape alone decides what is read back. -/
theorem read_cons_cover3 {s : Shape} {e : EltTy} {κ : Kind} {sp : Space} (v : View sig κ sp s e) (f : v.ty.Contents (Elt F)) (r : Rect s) (w : r.shape.Idx → Elt F e)
    (L : List (View.Piece (Elt F) s e)) (h : ∀ y, ∃ pc ∈ ([⟨r, w⟩] : List (View.Piece (Elt F) s e)), y ∈ pc.1.set) :
    v.read (Elt F) (v.writes (Elt F) f (⟨r, w⟩ :: L)) = View.canon [⟨r, w⟩] := by
  funext y
  obtain ⟨pc, hm, hy⟩ := h y
  obtain rfl := List.mem_singleton.mp hm
  obtain ⟨x, rfl⟩ : ∃ x, r.emb x = y := r.exists_idx_of_mem hy
  rw [View.read_writes_cons_emb, View.canon_cons_emb]

/-- Every index of a row lies in the row's one rectangle. -/
theorem mem3_b (y : S1x32.Idx) : y ∈ (r3_b).set := by
  obtain ⟨pc, hm, hy⟩ := View.cover_of_tiled (Val := fun _ => Unit) (e := .f32) [⟨r3_b, fun _ => ()⟩] S1x32.size (by rfl) y
  obtain rfl := List.mem_singleton.mp hm
  exact hy

/-- Under a last write that covers the row, earlier writes do not show. -/
theorem canon_cons_cover3 (w : (r3_b).shape.Idx → Elt F .f32) (L : List (View.Piece (Elt F) S1x32 .f32)) :
    View.canon (⟨r3_b, w⟩ :: L) = View.canon [⟨r3_b, w⟩] := by
  funext y
  obtain ⟨x, rfl⟩ : ∃ x, (r3_b).emb x = y := (r3_b).exists_idx_of_mem (mem3_b y)
  rw [View.canon_cons_emb, View.canon_cons_emb]

/-- A list of writes whose last covers the row covers it. -/
theorem cover3_cons (w : Vec F S1x32 .f32) (L : List (View.Piece (Elt F) S1x32 .f32)) (y : S1x32.Idx) :
    ∃ pc ∈ (⟨r3_b, w⟩ :: L : List (View.Piece (Elt F) S1x32 .f32)), y ∈ pc.1.set := by
  obtain ⟨pc, hm, hy⟩ := cover3_b w y
  exact ⟨pc, List.mem_cons.mpr (Or.inl (List.mem_singleton.mp hm)), hy⟩

/-- A row written once and read back through another buffer's store: the copy holds what was written. -/
theorem pure3_rb {κ κ' : Kind} {sp sp' : Space} (v : View sig κ sp S1x32 .f32) (v' : View sig κ' sp' S1x32 .f32) (f : v'.ty.Contents (Elt F))
    (w : (r3_b).shape.Idx → Elt F .f32) :
    v'.read (Elt F) (v'.writes (Elt F) f [⟨r3_b, v.readCov [⟨r3_b, w⟩] r3_b⟩]) = out3_6 (View.canon [⟨r3_b, w⟩]) := by
  rw [View.read_writes_eq_canon _ _ _ (cover3_b _), View.readCov_eq_canon_ld v _ r3_b (cover3_b _)]
  rfl

/-- A row zeroed (`p`), read back, and rewritten as `g` of what was read: it holds `g` of the zero row. -/
theorem pure3_acc0 {κ : Kind} {sp : Space} (v : View sig κ sp S1x32 .f32) (f : v.ty.Contents (Elt F))
    (g : ((r3_b).shape.Idx → Elt F .f32) → ((r3_b).shape.Idx → Elt F .f32)) (p : (r3_b).shape.Idx → Elt F .f32) :
    v.read (Elt F) (v.writes (Elt F) f [⟨r3_b, g (v.readCov [⟨r3_b, p⟩] r3_b)⟩, ⟨r3_b, p⟩])
      = View.canon [⟨r3_b, g (View.ld (View.canon [⟨r3_b, p⟩]) r3_b)⟩] := by
  rw [read_cons_cover3 v f r3_b _ _ (cover3_b _), View.readCov_eq_canon_ld v _ r3_b (cover3_b _)]

/-- The same row read back through another buffer's store. -/
theorem pure3_rb0 {κ κ' : Kind} {sp sp' : Space} (v : View sig κ sp S1x32 .f32) (v' : View sig κ' sp' S1x32 .f32) (f : v'.ty.Contents (Elt F))
    (g : ((r3_b).shape.Idx → Elt F .f32) → ((r3_b).shape.Idx → Elt F .f32)) (p : (r3_b).shape.Idx → Elt F .f32) :
    v'.read (Elt F) (v'.writes (Elt F) f [⟨r3_b, v.readCov [⟨r3_b, g (v.readCov [⟨r3_b, p⟩] r3_b)⟩, ⟨r3_b, p⟩] r3_b⟩])
      = out3_6 (View.canon [⟨r3_b, g (View.ld (View.canon [⟨r3_b, p⟩]) r3_b)⟩]) := by
  rw [View.read_writes_eq_canon _ _ _ (cover3_b _),
    View.readCov_eq_canon_ld v _ r3_b (cover3_cons _ _),
    canon_cons_cover3 _ [⟨r3_b, p⟩], View.readCov_eq_canon_ld v _ r3_b (cover3_b _)]
  rfl
/-! ## The body's triple, at a point after the first and at the first -/

/-- The scf.if's condition: the grid coordinate is 0. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

set_option maxHeartbeats 4000000 in
/-- At a point after the first: the scratch rows hold the running sums `s`, `q` of the points before; the body leaves
    the block of Y in window 5, the new running sums in the scratch rows and copies of them in windows 6 and 7. -/
theorem sound_kernel3_next (c : Dev nD) (E : Set ℕ) (i : grid3.Coords) (ma : Memref sig .tc .vmem S5000x16 .f32) (hma : ma.IsWhole) (mb : Memref sig .tc .vmem S5000x16 .f32) (hmb : mb.IsWhole) (mc : Memref sig .tc .vmem S16x32 .f32) (hmc : mc.IsWhole) (md : Memref sig .tc .vmem S16x32 .f32) (hmd : md.IsWhole) (me : Memref sig .tc .vmem S1x32 .f32) (hme : me.IsWhole) (my : Memref sig .tc .vmem S5000x32 .f32) (hmy : my.IsWhole) (mo : Memref sig .tc .vmem S1x32 .f32) (hmo : mo.IsWhole) (mp : Memref sig .tc .vmem S1x32 .f32) (hmp : mp.IsWhole) (ms : Memref sig .tc .vmem S1x32 .f32) (hms : ms.IsWhole) (mq : Memref sig .tc .vmem S1x32 .f32) (hmq : mq.IsWhole) (hc : ¬cond3_0 i)
    (xa xb : Vec F S5000x16 .f32) (xc xd : Vec F S16x32 .f32) (xe : Vec F S1x32 .f32) (s q : Vec F S1x32 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ owns (c : Thread nD τ) ms fullShare s ∗ owns (c : Thread nD τ) mq fullShare q
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe
            ∗ owns (c : Thread nD τ) my fullShare (out3_5 xa xb xc xd xe)
            ∗ owns (c : Thread nD τ) mo fullShare (out3_6 (sum3 xa xb xc xd xe s))
            ∗ owns (c : Thread nD τ) mp fullShare (out3_6 (sq3 xa xb xc xd xe q))
            ∗ owns (c : Thread nD τ) ms fullShare (sum3 xa xb xc xd xe s)
            ∗ owns (c : Thread nD τ) mq fullShare (sq3 xa xb xc xd xe q)) -∗ K ⟨⟩))
      ⊢ wp frame (wpE (defs₀ (F := F)) Variants.none c none) E (cc3__linear_stats_kernel i ma hma mb hmb mc hmc md hmd me hme my hmy mo hmo mp hmp ms hms mq hmq) K := by
  simp only [cc3__linear_stats_kernel_eq_skeleton]; unfold cc3__linear_stats_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%fs, %hfs, Hs⟩, ⟨%fq, %hfq, Hq⟩, Hk⟩
  subst hfa hfb hfc hfd hfe hfs hfq
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover3_y _)
  isplitl [Ho]
  · iexists _; isplitr
    swap; · iexact Ho
    ipureintro
    refine (View.read_writes_eq_canon _ _ _ (cover3_b _)).trans ?_
    show View.canon [⟨r3_b, View.readCov ms.view [⟨r3_b, _⟩] r3_b⟩] = _
    rw [View.readCov_eq_canon_ld _ _ _ (cover3_b _)]
    rfl
  isplitl [Hp]
  · iexists _; isplitr
    swap; · iexact Hp
    ipureintro
    refine (View.read_writes_eq_canon _ _ _ (cover3_b _)).trans ?_
    show View.canon [⟨r3_b, View.readCov mq.view [⟨r3_b, _⟩] r3_b⟩] = _
    rw [View.readCov_eq_canon_ld _ _ _ (cover3_b _)]
    rfl
  isplitl [Hs]
  · iexists _; isplitr
    swap; · iexact Hs
    ipureintro
    exact View.read_writes_eq_canon _ _ _ (cover3_b _)
  iexists _; isplitr
  swap; · iexact Hq
  ipureintro
  exact View.read_writes_eq_canon _ _ _ (cover3_b _)
set_option maxHeartbeats 4000000 in
/-- At the first point: the scratch rows hold anything; the body zeroes them, then does as at any other point. -/
theorem sound_kernel3_first (c : Dev nD) (E : Set ℕ) (i : grid3.Coords) (ma : Memref sig .tc .vmem S5000x16 .f32) (hma : ma.IsWhole) (mb : Memref sig .tc .vmem S5000x16 .f32) (hmb : mb.IsWhole) (mc : Memref sig .tc .vmem S16x32 .f32) (hmc : mc.IsWhole) (md : Memref sig .tc .vmem S16x32 .f32) (hmd : md.IsWhole) (me : Memref sig .tc .vmem S1x32 .f32) (hme : me.IsWhole) (my : Memref sig .tc .vmem S5000x32 .f32) (hmy : my.IsWhole) (mo : Memref sig .tc .vmem S1x32 .f32) (hmo : mo.IsWhole) (mp : Memref sig .tc .vmem S1x32 .f32) (hmp : mp.IsWhole) (ms : Memref sig .tc .vmem S1x32 .f32) (hms : ms.IsWhole) (mq : Memref sig .tc .vmem S1x32 .f32) (hmq : mq.IsWhole) (hc : cond3_0 i)
    (xa xb : Vec F S5000x16 .f32) (xc xd : Vec F S16x32 .f32) (xe : Vec F S1x32 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ (∃ d, owns (c : Thread nD τ) ms fullShare d) ∗ (∃ d, owns (c : Thread nD τ) mq fullShare d)
        ∗ (iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
            ∗ owns (c : Thread nD τ) my fullShare (out3_5 xa xb xc xd xe)
            ∗ owns (c : Thread nD τ) mo fullShare (out3_6 (sum3 xa xb xc xd xe zero3_s))
            ∗ owns (c : Thread nD τ) mp fullShare (out3_6 (sq3 xa xb xc xd xe zero3_q))
            ∗ owns (c : Thread nD τ) ms fullShare (sum3 xa xb xc xd xe zero3_s)
            ∗ owns (c : Thread nD τ) mq fullShare (sq3 xa xb xc xd xe zero3_q)) -∗ K ⟨⟩))
      ⊢ wp frame (wpE (defs₀ (F := F)) Variants.none c none) E (cc3__linear_stats_kernel i ma hma mb hmb mc hmc md hmd me hme my hmy mo hmo mp hmp ms hms mq hmq) K := by
  simp only [cc3__linear_stats_kernel_eq_skeleton]; unfold cc3__linear_stats_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%ds, %fs, -, Hs⟩, ⟨%dq, %fq, -, Hq⟩, Hk⟩
  subst hfa hfb hfc hfd hfe
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover3_y _)
  isplitl [Ho]
  · iexists _; isplitr
    swap; · iexact Ho
    ipureintro
    exact pure3_rb0 ms.view mo.view _ (fun z => k3_pay5 _ _ _ _ _ z) k3_pay2
  isplitl [Hp]
  · iexists _; isplitr
    swap; · iexact Hp
    ipureintro
    exact pure3_rb0 mq.view mp.view _ (fun z => k3_pay1 z (k3_pay6 _ _ _ _ _)) k3_pay3
  isplitl [Hs]
  · iexists _; isplitr
    swap; · iexact Hs
    ipureintro
    exact pure3_acc0 ms.view _ (fun z => k3_pay5 _ _ _ _ _ z) k3_pay2
  iexists _; isplitr
  swap; · iexact Hq
  ipureintro
  exact pure3_acc0 mq.view _ (fun z => k3_pay1 z (k3_pay6 _ _ _ _ _)) k3_pay3

/-! ## The running sums, point by point -/

/-- What the two scratch rows hold after the body at position `n`: (the column sums, the column sums of squares) of
    the blocks of Y at positions `0 … n`, added block after block from the zero rows. -/
def accAt3 (c : Dev nD) : (n : ℕ) → n < cfg3.N → Vec F S1x32 .f32 × Vec F S1x32 .f32
  | 0, hn => (sum3 (iblk3 V c 0 ⟨0, hn⟩) (iblk3 V c 1 ⟨0, hn⟩) (iblk3 V c 2 ⟨0, hn⟩) (iblk3 V c 3 ⟨0, hn⟩) (iblk3 V c 4 ⟨0, hn⟩) zero3_s, sq3 (iblk3 V c 0 ⟨0, hn⟩) (iblk3 V c 1 ⟨0, hn⟩) (iblk3 V c 2 ⟨0, hn⟩) (iblk3 V c 3 ⟨0, hn⟩) (iblk3 V c 4 ⟨0, hn⟩) zero3_q)
  | n + 1, hn => (sum3 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (accAt3 c n (Nat.lt_of_succ_lt hn)).1,
      sq3 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (accAt3 c n (Nat.lt_of_succ_lt hn)).2)

theorem accAt3_zero (c : Dev nD) (t : Fin cfg3.N) (hz : t.val = 0) :
    accAt3 V c t.val t.isLt = (sum3 (iblk3 V c 0 t) (iblk3 V c 1 t) (iblk3 V c 2 t) (iblk3 V c 3 t) (iblk3 V c 4 t) zero3_s, sq3 (iblk3 V c 0 t) (iblk3 V c 1 t) (iblk3 V c 2 t) (iblk3 V c 3 t) (iblk3 V c 4 t) zero3_q) := by
  obtain ⟨n, hn⟩ := t
  cases n with
  | zero => rfl
  | succ n => exact absurd hz (Nat.succ_ne_zero n)

theorem accAt3_pos (c : Dev nD) (t : Fin cfg3.N) (hz : t.val ≠ 0) :
    accAt3 V c t.val t.isLt = (sum3 (iblk3 V c 0 t) (iblk3 V c 1 t) (iblk3 V c 2 t) (iblk3 V c 3 t) (iblk3 V c 4 t) (accAt3 V c (t.val - 1) (Nat.lt_of_le_of_lt (Nat.sub_le _ _) t.isLt)).1,
      sq3 (iblk3 V c 0 t) (iblk3 V c 1 t) (iblk3 V c 2 t) (iblk3 V c 3 t) (iblk3 V c 4 t) (accAt3 V c (t.val - 1) (Nat.lt_of_le_of_lt (Nat.sub_le _ _) t.isLt)).2) := by
  obtain ⟨n, hn⟩ := t
  cases n with
  | zero => exact absurd rfl hz
  | succ n => rfl

/-! ## The region's invariant -/

/-- The two scratch rows as memrefs. -/
abbrev sc3_s : Memref sig .tc .vmem S1x32 .f32 := Memref.whole cc3_scratch0
abbrev sc3_q : Memref sig .tc .vmem S1x32 .f32 := Memref.whole cc3_scratch1

/-- The other scoped buffers of the core, unopened. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The class's invariant with the two scratch rows taken out of the scoped rest, each at some contents. -/
theorem PhiA3_eq (c : Dev nD) :
    (Pipeline.ΦA spec3 c : sProp 𝕄)
      = iprop(iprop(iprop((∃ d, owns (c : Thread nD τ) sc3_s fullShare d) ∗ (∃ d, owns (c : Thread nD τ) sc3_q fullShare d)) ∗ rest3 c) ∗ (∃ r, prngReg c r)) := by
  unfold Pipeline.ΦA; rw [scopedRest3_split]; simp only [owns_whole]; try rfl

/-- The invariant before position `n`: before the first point the class's (the scratch rows at anything); afterwards the
    scratch rows at the running sums of the points before, the other scoped buffers and the generator register at anything. -/
def Phi3 (c : Dev nD) : (n : ℕ) → n ≤ cfg3.N → sProp 𝕄
  | 0, _ => Pipeline.ΦA spec3 c
  | n + 1, hn => iprop(iprop(iprop(owns (c : Thread nD τ) sc3_s fullShare (accAt3 V c n hn).1 ∗ owns (c : Thread nD τ) sc3_q fullShare (accAt3 V c n hn).2) ∗ rest3 c) ∗ (∃ r, prngReg c r))

theorem Phi3_at_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(iprop(owns (c : Thread nD τ) sc3_s fullShare (accAt3 V c n hn).1 ∗ owns (c : Thread nD τ) sc3_q fullShare (accAt3 V c n hn).2) ∗ rest3 c) ∗ (∃ r, prngReg c r)) := rfl

theorem Phi3_pos (c : Dev nD) (n : ℕ) (h : n ≤ cfg3.N) (hz : n ≠ 0) :
    Phi3 V c n h = iprop(iprop(iprop(owns (c : Thread nD τ) sc3_s fullShare (accAt3 V c (n - 1) (by omega)).1 ∗ owns (c : Thread nD τ) sc3_q fullShare (accAt3 V c (n - 1) (by omega)).2) ∗ rest3 c) ∗ (∃ r, prngReg c r)) := by
  cases n with
  | zero => exact absurd rfl hz
  | succ n => rfl

/-! ## The pipeline's proof data -/

/-- The proof data of pipeline 3 on core `c`: the arrays at the entry contents; after the body at point `t` each input's
    buffer at its block, window 5 at the block of Y, windows 6 and 7 at the running sums; the invariant `Phi3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (accAt3 V c t.val t.isLt).1
    | ⟨7, _⟩ => out3_6 (accAt3 V c t.val t.isLt).2
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (accAt3 V c t.val t.isLt).1 := by dsimp only [dat3]
theorem after3_7 (c : Dev nD) (t : Fin cfg3.N) : (dat3 V c).after 7 t = out3_6 (accAt3 V c t.val t.isLt).2 := by dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

/-- Before the first point the invariant is the class's. -/
theorem Phi3_zero (c : Dev nD) : (dat3 V c).Φ 0 = Pipeline.ΦA spec3 c := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks; the invariant hands the body the scratch rows — at
    anything at the first point, where the body zeroes them, else at the running sums the point before left — and takes
    them back at this point's running sums; the other scoped buffers, the generator register and the core's debt pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    show (dat3 V c).Φ t.succ = Phi3 V c (t.val + 1) t.isLt from rfl, Phi3_succ,
    after3_0, after3_1, after3_2, after3_3, after3_4, after3_5, after3_6, after3_7, Phi3_castSucc]
  by_cases hz : t.val = 0
  · rw [Phi3_at_zero V c _ _ hz, PhiA3_eq, accAt3_zero V c t hz]
    iintro ⟨⟨⟨⟨⟨%ds, HS⟩, ⟨%dq, HQ⟩⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel3_first c Set.univ (grid3.coords t) _ _ _ _ _ _ _ _ _ _ _ _ _ _ _ _ _ _ _ _ ((hcond3_0 t).mpr hz) (iblk3 V c 0 t) (iblk3 V c 1 t) (iblk3 V c 2 t) (iblk3 V c 3 t) (iblk3 V c 4 t) _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexists _; iexact HS
    isplitl [HQ]; · iexists _; iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp
  · rw [Phi3_pos V c _ _ hz, accAt3_pos V c t hz]
    iintro ⟨⟨⟨⟨HS, HQ⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel3_next c Set.univ (grid3.coords t) _ _ _ _ _ _ _ _ _ _ _ _ _ _ _ _ _ _ _ _ (fun h => hz ((hcond3_0 t).mp h)) (iblk3 V c 0 t) (iblk3 V c 1 t) (iblk3 V c 2 t) (iblk3 V c 3 t) (iblk3 V c 4 t) _ _ _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexact HS
    isplitl [HQ]; · iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- After any point the invariant gives the class's back: what the scratch rows hold is forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨⟨HS, HQ⟩, HR⟩, Hg⟩
  isplitl [HS HQ HR]
  · isplitl [HS HQ]
    · isplitl [HS]
      · iexists _; iexact HS
      iexists _; iexact HQ
    iexact HR
  iexact Hg

theorem Phi3_last (c : Dev nD) : (dat3 V c).Φ (Fin.last cfg3.N) ⊢ Pipeline.ΦA spec3 c :=
  Phi3_out V c _ (by rw [Fin.val_last]; have : cfg3.N = 20 := N_3; omega)

end Cert.KernelIdeal.Hand

end
-- ==== Proof.R4.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: batch normalisation then ELU, pointwise on one row block per grid point

Windows: 0 = y (row block i), 1 = mean, 2 = variance, 3 = gamma, 4 = beta (one row each, whole at every point),
5 = the output (row block i). -/

/-- Window `w`'s block at point `t`, read off its array at the entry contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, whether the block was moved there at this
    point or at an earlier one with the same block index. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_y : Rect S5000x128 := Rect.unit (s := S5000x128) ![0, 0] S5000x128.size inb_S5000x128_S5000x128_0_0
abbrev r4_p : Rect S1x128 := Rect.unit (s := S1x128) ![0, 0] S1x128.size inb_S1x128_S1x128_0_0

/-- The output block after the body: ELU of gamma · (y − mean) · rsqrt(variance + ε) + beta, stored over the whole
    buffer (the body reads the variance before the mean). -/
def out4_5 (x0 : Vec F S5000x128 .f32) (x1 x2 x3 x4 : Vec F S1x128 .f32) : Vec F S5000x128 .f32 :=
  View.canon [⟨r4_y, k4_pay1 (View.ld x0 r4_y) (View.ld x2 r4_p) (View.ld x1 r4_p) (View.ld x3 r4_p) (View.ld x4 r4_p)⟩]

/-- The one store is the whole buffer, so it covers it. -/
theorem cover4_5 (p0 : Vec F S5000x128 .f32) (y : S5000x128.Idx) :
    ∃ pc ∈ ([⟨r4_y, p0⟩] : List (View.Piece (Elt F) S5000x128 .f32)), y ∈ pc.1.set :=
  View.cover_of_tiled [⟨r4_y, p0⟩] S5000x128.size (by rfl) y

/-! ## The body's triple -/

set_option maxHeartbeats 1000000 in
/-- The body on whole staging memrefs, the inputs' at read contents `x0 … x4` and the output's at anything, runs to
    the continuation holding the inputs' as they were and the output's at `out4_5 x0 … x4`. -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__bn_elu_kernel i arg1 harg1 arg2 harg2 arg3 harg3 arg4 harg4 arg5 harg5 arg6 harg6) K := by
  simp only [cc4__bn_elu_kernel_eq_skeleton]; unfold cc4__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of region 4 on core `c`: the arrays as the region finds them; after the body at point `t`
    each input's buffer at its block and the output's at `out4_5` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem Φ_eq4 (c : Dev nD) (i : Fin (cfg4.N + 1)) : (dat4 V c).Φ i = Pipeline.ΦA spec4 c := rfl

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.R5.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: Y = agg · W_rel + x · W_root + b on one row block of 5000 rows per grid point, with the column
sums of Y and of Y² accumulated over the grid's points

Windows: 0 = agg (row block i), 1 = x (row block i), 2 = W_rel, 3 = W_root, 4 = b (each whole at every point),
5 = Y (row block i), 6 = the column sums, 7 = the column sums of squares (one block each, written back after the
last point). Two scratch rows carry the running sums from point to point; the first point zeroes them. -/

/-- Window `w`'s block at point `t`, read off its array at the entry contents `V`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_a : Rect S5000x32 := Rect.unit (s := S5000x32) ![0, 0] S5000x32.size inb_S5000x32_S5000x32_0_0
abbrev r5_w : Rect S32x32 := Rect.unit (s := S32x32) ![0, 0] S32x32.size inb_S32x32_S32x32_0_0
abbrev r5_b : Rect S1x32 := Rect.unit (s := S1x32) ![0, 0] S1x32.size inb_S1x32_S1x32_0_0
abbrev r5_y : Rect S5000x32 := Rect.unit (s := S5000x32) ![0, 0] S5000x32.size inb_S5000x32_S5000x32_0_0

/-! ## What the body leaves -/

/-- The block of Y: agg · W_rel + x · W_root + b on the point's rows (operands rounded to bf16, products summed in f32). -/
def lin5 (xa xb : Vec F S5000x32 .f32) (xc xd : Vec F S32x32 .f32) (xe : Vec F S1x32 .f32) : Vec F S5000x32 .f32 :=
  k5_pay4 (View.ld xa r5_a) (View.ld xb r5_a) (View.ld xc r5_w) (View.ld xd r5_w) (View.ld xe r5_b)

/-- Window 5 after the body: the block of Y. -/
def out5_5 (xa xb : Vec F S5000x32 .f32) (xc xd : Vec F S32x32 .f32) (xe : Vec F S1x32 .f32) : Vec F S5000x32 .f32 :=
  View.canon [⟨r5_y, lin5 xa xb xc xd xe⟩]

/-- The running column sums after a point: the sums so far `s` plus the column sums of the point's block of Y. -/
def sum5 (xa xb : Vec F S5000x32 .f32) (xc xd : Vec F S32x32 .f32) (xe : Vec F S1x32 .f32) (s : Vec F S1x32 .f32) : Vec F S1x32 .f32 :=
  View.canon [⟨r5_b, k5_pay5 (View.ld xa r5_a) (View.ld xb r5_a) (View.ld xc r5_w) (View.ld xd r5_w) (View.ld xe r5_b) (View.ld s r5_b)⟩]

/-- The running column sums of squares after a point: `q` plus the column sums of the squares of the point's block of Y. -/
def sq5 (xa xb : Vec F S5000x32 .f32) (xc xd : Vec F S32x32 .f32) (xe : Vec F S1x32 .f32) (q : Vec F S1x32 .f32) : Vec F S1x32 .f32 :=
  View.canon [⟨r5_b, k5_pay1 (View.ld q r5_b) (k5_pay6 (View.ld xa r5_a) (View.ld xb r5_a) (View.ld xc r5_w) (View.ld xd r5_w) (View.ld xe r5_b))⟩]

/-- The zero rows the first point starts the two running sums from. -/
def zero5_s : Vec F S1x32 .f32 := View.canon [⟨r5_b, k5_pay2⟩]
def zero5_q : Vec F S1x32 .f32 := View.canon [⟨r5_b, k5_pay3⟩]

/-- Windows 6 and 7 after the body: the running sums as read back from the scratch rows. -/
def out5_6 (s : Vec F S1x32 .f32) : Vec F S1x32 .f32 := View.canon [⟨r5_b, View.ld s r5_b⟩]

/-- Each buffer is written by one store of its whole shape, which covers it. -/
theorem cover5_y (p : Vec F S5000x32 .f32) (y : S5000x32.Idx) :
    ∃ pc ∈ ([⟨r5_y, p⟩] : List (View.Piece (Elt F) S5000x32 .f32)), y ∈ pc.1.set :=
  View.cover_of_tiled [⟨r5_y, p⟩] S5000x32.size (by rfl) y
theorem cover5_b (p : Vec F S1x32 .f32) (y : S1x32.Idx) :
    ∃ pc ∈ ([⟨r5_b, p⟩] : List (View.Piece (Elt F) S1x32 .f32)), y ∈ pc.1.set :=
  View.cover_of_tiled [⟨r5_b, p⟩] S1x32.size (by rfl) y

/-- A last write that covers the shape alone decides what is read back. -/
theorem read_cons_cover5 {s : Shape} {e : EltTy} {κ : Kind} {sp : Space} (v : View sig κ sp s e) (f : v.ty.Contents (Elt F)) (r : Rect s) (w : r.shape.Idx → Elt F e)
    (L : List (View.Piece (Elt F) s e)) (h : ∀ y, ∃ pc ∈ ([⟨r, w⟩] : List (View.Piece (Elt F) s e)), y ∈ pc.1.set) :
    v.read (Elt F) (v.writes (Elt F) f (⟨r, w⟩ :: L)) = View.canon [⟨r, w⟩] := by
  funext y
  obtain ⟨pc, hm, hy⟩ := h y
  obtain rfl := List.mem_singleton.mp hm
  obtain ⟨x, rfl⟩ : ∃ x, r.emb x = y := r.exists_idx_of_mem hy
  rw [View.read_writes_cons_emb, View.canon_cons_emb]

/-- Every index of a row lies in the row's one rectangle. -/
theorem mem5_b (y : S1x32.Idx) : y ∈ (r5_b).set := by
  obtain ⟨pc, hm, hy⟩ := View.cover_of_tiled (Val := fun _ => Unit) (e := .f32) [⟨r5_b, fun _ => ()⟩] S1x32.size (by rfl) y
  obtain rfl := List.mem_singleton.mp hm
  exact hy

/-- Under a last write that covers the row, earlier writes do not show. -/
theorem canon_cons_cover5 (w : (r5_b).shape.Idx → Elt F .f32) (L : List (View.Piece (Elt F) S1x32 .f32)) :
    View.canon (⟨r5_b, w⟩ :: L) = View.canon [⟨r5_b, w⟩] := by
  funext y
  obtain ⟨x, rfl⟩ : ∃ x, (r5_b).emb x = y := (r5_b).exists_idx_of_mem (mem5_b y)
  rw [View.canon_cons_emb, View.canon_cons_emb]

/-- A list of writes whose last covers the row covers it. -/
theorem cover5_cons (w : Vec F S1x32 .f32) (L : List (View.Piece (Elt F) S1x32 .f32)) (y : S1x32.Idx) :
    ∃ pc ∈ (⟨r5_b, w⟩ :: L : List (View.Piece (Elt F) S1x32 .f32)), y ∈ pc.1.set := by
  obtain ⟨pc, hm, hy⟩ := cover5_b w y
  exact ⟨pc, List.mem_cons.mpr (Or.inl (List.mem_singleton.mp hm)), hy⟩

/-- A row written once and read back through another buffer's store: the copy holds what was written. -/
theorem pure5_rb {κ κ' : Kind} {sp sp' : Space} (v : View sig κ sp S1x32 .f32) (v' : View sig κ' sp' S1x32 .f32) (f : v'.ty.Contents (Elt F))
    (w : (r5_b).shape.Idx → Elt F .f32) :
    v'.read (Elt F) (v'.writes (Elt F) f [⟨r5_b, v.readCov [⟨r5_b, w⟩] r5_b⟩]) = out5_6 (View.canon [⟨r5_b, w⟩]) := by
  rw [View.read_writes_eq_canon _ _ _ (cover5_b _), View.readCov_eq_canon_ld v _ r5_b (cover5_b _)]
  rfl

/-- A row zeroed (`p`), read back, and rewritten as `g` of what was read: it holds `g` of the zero row. -/
theorem pure5_acc0 {κ : Kind} {sp : Space} (v : View sig κ sp S1x32 .f32) (f : v.ty.Contents (Elt F))
    (g : ((r5_b).shape.Idx → Elt F .f32) → ((r5_b).shape.Idx → Elt F .f32)) (p : (r5_b).shape.Idx → Elt F .f32) :
    v.read (Elt F) (v.writes (Elt F) f [⟨r5_b, g (v.readCov [⟨r5_b, p⟩] r5_b)⟩, ⟨r5_b, p⟩])
      = View.canon [⟨r5_b, g (View.ld (View.canon [⟨r5_b, p⟩]) r5_b)⟩] := by
  rw [read_cons_cover5 v f r5_b _ _ (cover5_b _), View.readCov_eq_canon_ld v _ r5_b (cover5_b _)]

/-- The same row read back through another buffer's store. -/
theorem pure5_rb0 {κ κ' : Kind} {sp sp' : Space} (v : View sig κ sp S1x32 .f32) (v' : View sig κ' sp' S1x32 .f32) (f : v'.ty.Contents (Elt F))
    (g : ((r5_b).shape.Idx → Elt F .f32) → ((r5_b).shape.Idx → Elt F .f32)) (p : (r5_b).shape.Idx → Elt F .f32) :
    v'.read (Elt F) (v'.writes (Elt F) f [⟨r5_b, v.readCov [⟨r5_b, g (v.readCov [⟨r5_b, p⟩] r5_b)⟩, ⟨r5_b, p⟩] r5_b⟩])
      = out5_6 (View.canon [⟨r5_b, g (View.ld (View.canon [⟨r5_b, p⟩]) r5_b)⟩]) := by
  rw [View.read_writes_eq_canon _ _ _ (cover5_b _),
    View.readCov_eq_canon_ld v _ r5_b (cover5_cons _ _),
    canon_cons_cover5 _ [⟨r5_b, p⟩], View.readCov_eq_canon_ld v _ r5_b (cover5_b _)]
  rfl
/-! ## The body's triple, at a point after the first and at the first -/

/-- The scf.if's condition: the grid coordinate is 0. -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

set_option maxHeartbeats 4000000 in
/-- At a point after the first: the scratch rows hold the running sums `s`, `q` of the points before; the body leaves
    the block of Y in window 5, the new running sums in the scratch rows and copies of them in windows 6 and 7. -/
theorem sound_kernel5_next (c : Dev nD) (E : Set ℕ) (i : grid5.Coords) (ma : Memref sig .tc .vmem S5000x32 .f32) (hma : ma.IsWhole) (mb : Memref sig .tc .vmem S5000x32 .f32) (hmb : mb.IsWhole) (mc : Memref sig .tc .vmem S32x32 .f32) (hmc : mc.IsWhole) (md : Memref sig .tc .vmem S32x32 .f32) (hmd : md.IsWhole) (me : Memref sig .tc .vmem S1x32 .f32) (hme : me.IsWhole) (my : Memref sig .tc .vmem S5000x32 .f32) (hmy : my.IsWhole) (mo : Memref sig .tc .vmem S1x32 .f32) (hmo : mo.IsWhole) (mp : Memref sig .tc .vmem S1x32 .f32) (hmp : mp.IsWhole) (ms : Memref sig .tc .vmem S1x32 .f32) (hms : ms.IsWhole) (mq : Memref sig .tc .vmem S1x32 .f32) (hmq : mq.IsWhole) (hc : ¬cond5_0 i)
    (xa xb : Vec F S5000x32 .f32) (xc xd : Vec F S32x32 .f32) (xe : Vec F S1x32 .f32) (s q : Vec F S1x32 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ owns (c : Thread nD τ) ms fullShare s ∗ owns (c : Thread nD τ) mq fullShare q
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe
            ∗ owns (c : Thread nD τ) my fullShare (out5_5 xa xb xc xd xe)
            ∗ owns (c : Thread nD τ) mo fullShare (out5_6 (sum5 xa xb xc xd xe s))
            ∗ owns (c : Thread nD τ) mp fullShare (out5_6 (sq5 xa xb xc xd xe q))
            ∗ owns (c : Thread nD τ) ms fullShare (sum5 xa xb xc xd xe s)
            ∗ owns (c : Thread nD τ) mq fullShare (sq5 xa xb xc xd xe q)) -∗ K ⟨⟩))
      ⊢ wp frame (wpE (defs₀ (F := F)) Variants.none c none) E (cc5__linear_stats_kernel i ma hma mb hmb mc hmc md hmd me hme my hmy mo hmo mp hmp ms hms mq hmq) K := by
  simp only [cc5__linear_stats_kernel_eq_skeleton]; unfold cc5__linear_stats_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%fs, %hfs, Hs⟩, ⟨%fq, %hfq, Hq⟩, Hk⟩
  subst hfa hfb hfc hfd hfe hfs hfq
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover5_y _)
  isplitl [Ho]
  · iexists _; isplitr
    swap; · iexact Ho
    ipureintro
    refine (View.read_writes_eq_canon _ _ _ (cover5_b _)).trans ?_
    show View.canon [⟨r5_b, View.readCov ms.view [⟨r5_b, _⟩] r5_b⟩] = _
    rw [View.readCov_eq_canon_ld _ _ _ (cover5_b _)]
    rfl
  isplitl [Hp]
  · iexists _; isplitr
    swap; · iexact Hp
    ipureintro
    refine (View.read_writes_eq_canon _ _ _ (cover5_b _)).trans ?_
    show View.canon [⟨r5_b, View.readCov mq.view [⟨r5_b, _⟩] r5_b⟩] = _
    rw [View.readCov_eq_canon_ld _ _ _ (cover5_b _)]
    rfl
  isplitl [Hs]
  · iexists _; isplitr
    swap; · iexact Hs
    ipureintro
    exact View.read_writes_eq_canon _ _ _ (cover5_b _)
  iexists _; isplitr
  swap; · iexact Hq
  ipureintro
  exact View.read_writes_eq_canon _ _ _ (cover5_b _)
set_option maxHeartbeats 4000000 in
/-- At the first point: the scratch rows hold anything; the body zeroes them, then does as at any other point. -/
theorem sound_kernel5_first (c : Dev nD) (E : Set ℕ) (i : grid5.Coords) (ma : Memref sig .tc .vmem S5000x32 .f32) (hma : ma.IsWhole) (mb : Memref sig .tc .vmem S5000x32 .f32) (hmb : mb.IsWhole) (mc : Memref sig .tc .vmem S32x32 .f32) (hmc : mc.IsWhole) (md : Memref sig .tc .vmem S32x32 .f32) (hmd : md.IsWhole) (me : Memref sig .tc .vmem S1x32 .f32) (hme : me.IsWhole) (my : Memref sig .tc .vmem S5000x32 .f32) (hmy : my.IsWhole) (mo : Memref sig .tc .vmem S1x32 .f32) (hmo : mo.IsWhole) (mp : Memref sig .tc .vmem S1x32 .f32) (hmp : mp.IsWhole) (ms : Memref sig .tc .vmem S1x32 .f32) (hms : ms.IsWhole) (mq : Memref sig .tc .vmem S1x32 .f32) (hmq : mq.IsWhole) (hc : cond5_0 i)
    (xa xb : Vec F S5000x32 .f32) (xc xd : Vec F S32x32 .f32) (xe : Vec F S1x32 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ (∃ d, owns (c : Thread nD τ) ms fullShare d) ∗ (∃ d, owns (c : Thread nD τ) mq fullShare d)
        ∗ (iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
            ∗ owns (c : Thread nD τ) my fullShare (out5_5 xa xb xc xd xe)
            ∗ owns (c : Thread nD τ) mo fullShare (out5_6 (sum5 xa xb xc xd xe zero5_s))
            ∗ owns (c : Thread nD τ) mp fullShare (out5_6 (sq5 xa xb xc xd xe zero5_q))
            ∗ owns (c : Thread nD τ) ms fullShare (sum5 xa xb xc xd xe zero5_s)
            ∗ owns (c : Thread nD τ) mq fullShare (sq5 xa xb xc xd xe zero5_q)) -∗ K ⟨⟩))
      ⊢ wp frame (wpE (defs₀ (F := F)) Variants.none c none) E (cc5__linear_stats_kernel i ma hma mb hmb mc hmc md hmd me hme my hmy mo hmo mp hmp ms hms mq hmq) K := by
  simp only [cc5__linear_stats_kernel_eq_skeleton]; unfold cc5__linear_stats_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%ds, %fs, -, Hs⟩, ⟨%dq, %fq, -, Hq⟩, Hk⟩
  subst hfa hfb hfc hfd hfe
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover5_y _)
  isplitl [Ho]
  · iexists _; isplitr
    swap; · iexact Ho
    ipureintro
    exact pure5_rb0 ms.view mo.view _ (fun z => k5_pay5 _ _ _ _ _ z) k5_pay2
  isplitl [Hp]
  · iexists _; isplitr
    swap; · iexact Hp
    ipureintro
    exact pure5_rb0 mq.view mp.view _ (fun z => k5_pay1 z (k5_pay6 _ _ _ _ _)) k5_pay3
  isplitl [Hs]
  · iexists _; isplitr
    swap; · iexact Hs
    ipureintro
    exact pure5_acc0 ms.view _ (fun z => k5_pay5 _ _ _ _ _ z) k5_pay2
  iexists _; isplitr
  swap; · iexact Hq
  ipureintro
  exact pure5_acc0 mq.view _ (fun z => k5_pay1 z (k5_pay6 _ _ _ _ _)) k5_pay3

/-! ## The running sums, point by point -/

/-- What the two scratch rows hold after the body at position `n`: (the column sums, the column sums of squares) of
    the blocks of Y at positions `0 … n`, added block after block from the zero rows. -/
def accAt5 (c : Dev nD) : (n : ℕ) → n < cfg5.N → Vec F S1x32 .f32 × Vec F S1x32 .f32
  | 0, hn => (sum5 (iblk5 V c 0 ⟨0, hn⟩) (iblk5 V c 1 ⟨0, hn⟩) (iblk5 V c 2 ⟨0, hn⟩) (iblk5 V c 3 ⟨0, hn⟩) (iblk5 V c 4 ⟨0, hn⟩) zero5_s, sq5 (iblk5 V c 0 ⟨0, hn⟩) (iblk5 V c 1 ⟨0, hn⟩) (iblk5 V c 2 ⟨0, hn⟩) (iblk5 V c 3 ⟨0, hn⟩) (iblk5 V c 4 ⟨0, hn⟩) zero5_q)
  | n + 1, hn => (sum5 (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (accAt5 c n (Nat.lt_of_succ_lt hn)).1,
      sq5 (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (accAt5 c n (Nat.lt_of_succ_lt hn)).2)

theorem accAt5_zero (c : Dev nD) (t : Fin cfg5.N) (hz : t.val = 0) :
    accAt5 V c t.val t.isLt = (sum5 (iblk5 V c 0 t) (iblk5 V c 1 t) (iblk5 V c 2 t) (iblk5 V c 3 t) (iblk5 V c 4 t) zero5_s, sq5 (iblk5 V c 0 t) (iblk5 V c 1 t) (iblk5 V c 2 t) (iblk5 V c 3 t) (iblk5 V c 4 t) zero5_q) := by
  obtain ⟨n, hn⟩ := t
  cases n with
  | zero => rfl
  | succ n => exact absurd hz (Nat.succ_ne_zero n)

theorem accAt5_pos (c : Dev nD) (t : Fin cfg5.N) (hz : t.val ≠ 0) :
    accAt5 V c t.val t.isLt = (sum5 (iblk5 V c 0 t) (iblk5 V c 1 t) (iblk5 V c 2 t) (iblk5 V c 3 t) (iblk5 V c 4 t) (accAt5 V c (t.val - 1) (Nat.lt_of_le_of_lt (Nat.sub_le _ _) t.isLt)).1,
      sq5 (iblk5 V c 0 t) (iblk5 V c 1 t) (iblk5 V c 2 t) (iblk5 V c 3 t) (iblk5 V c 4 t) (accAt5 V c (t.val - 1) (Nat.lt_of_le_of_lt (Nat.sub_le _ _) t.isLt)).2) := by
  obtain ⟨n, hn⟩ := t
  cases n with
  | zero => exact absurd rfl hz
  | succ n => rfl

/-! ## The region's invariant -/

/-- The two scratch rows as memrefs. -/
abbrev sc5_s : Memref sig .tc .vmem S1x32 .f32 := Memref.whole cc5_scratch0
abbrev sc5_q : Memref sig .tc .vmem S1x32 .f32 := Memref.whole cc5_scratch1

/-- The other scoped buffers of the core, unopened. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The class's invariant with the two scratch rows taken out of the scoped rest, each at some contents. -/
theorem PhiA5_eq (c : Dev nD) :
    (Pipeline.ΦA spec5 c : sProp 𝕄)
      = iprop(iprop(iprop((∃ d, owns (c : Thread nD τ) sc5_s fullShare d) ∗ (∃ d, owns (c : Thread nD τ) sc5_q fullShare d)) ∗ rest5 c) ∗ (∃ r, prngReg c r)) := by
  unfold Pipeline.ΦA; rw [scopedRest5_split]; simp only [owns_whole]; try rfl

/-- The invariant before position `n`: before the first point the class's (the scratch rows at anything); afterwards the
    scratch rows at the running sums of the points before, the other scoped buffers and the generator register at anything. -/
def Phi5 (c : Dev nD) : (n : ℕ) → n ≤ cfg5.N → sProp 𝕄
  | 0, _ => Pipeline.ΦA spec5 c
  | n + 1, hn => iprop(iprop(iprop(owns (c : Thread nD τ) sc5_s fullShare (accAt5 V c n hn).1 ∗ owns (c : Thread nD τ) sc5_q fullShare (accAt5 V c n hn).2) ∗ rest5 c) ∗ (∃ r, prngReg c r))

theorem Phi5_at_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(iprop(iprop(owns (c : Thread nD τ) sc5_s fullShare (accAt5 V c n hn).1 ∗ owns (c : Thread nD τ) sc5_q fullShare (accAt5 V c n hn).2) ∗ rest5 c) ∗ (∃ r, prngReg c r)) := rfl

theorem Phi5_pos (c : Dev nD) (n : ℕ) (h : n ≤ cfg5.N) (hz : n ≠ 0) :
    Phi5 V c n h = iprop(iprop(iprop(owns (c : Thread nD τ) sc5_s fullShare (accAt5 V c (n - 1) (by omega)).1 ∗ owns (c : Thread nD τ) sc5_q fullShare (accAt5 V c (n - 1) (by omega)).2) ∗ rest5 c) ∗ (∃ r, prngReg c r)) := by
  cases n with
  | zero => exact absurd rfl hz
  | succ n => rfl

/-! ## The pipeline's proof data -/

/-- The proof data of pipeline 5 on core `c`: the arrays at the entry contents; after the body at point `t` each input's
    buffer at its block, window 5 at the block of Y, windows 6 and 7 at the running sums; the invariant `Phi5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
    | ⟨6, _⟩ => out5_6 (accAt5 V c t.val t.isLt).1
    | ⟨7, _⟩ => out5_6 (accAt5 V c t.val t.isLt).2
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]
theorem after5_6 (c : Dev nD) (t : Fin cfg5.N) : (dat5 V c).after 6 t = out5_6 (accAt5 V c t.val t.isLt).1 := by dsimp only [dat5]
theorem after5_7 (c : Dev nD) (t : Fin cfg5.N) : (dat5 V c).after 7 t = out5_6 (accAt5 V c t.val t.isLt).2 := by dsimp only [dat5]

theorem Phi5_castSucc (c : Dev nD) (t : Fin cfg5.N) :
    (dat5 V c).Φ t.castSucc = Phi5 V c t.val (Nat.le_of_lt t.isLt) := by
  dsimp only [dat5]; simp only [Fin.coe_castSucc]

/-- Before the first point the invariant is the class's. -/
theorem Phi5_zero (c : Dev nD) : (dat5 V c).Φ 0 = Pipeline.ΦA spec5 c := rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 4000000 in
/-- The body at any point: the inputs' memrefs hold their blocks; the invariant hands the body the scratch rows — at
    anything at the first point, where the body zeroes them, else at the running sums the point before left — and takes
    them back at this point's running sums; the other scoped buffers, the generator register and the core's debt pass
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl,
    show (dat5 V c).Φ t.succ = Phi5 V c (t.val + 1) t.isLt from rfl, Phi5_succ,
    after5_0, after5_1, after5_2, after5_3, after5_4, after5_5, after5_6, after5_7, Phi5_castSucc]
  by_cases hz : t.val = 0
  · rw [Phi5_at_zero V c _ _ hz, PhiA5_eq, accAt5_zero V c t hz]
    iintro ⟨⟨⟨⟨⟨%ds, HS⟩, ⟨%dq, HQ⟩⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel5_first c Set.univ (grid5.coords t) _ _ _ _ _ _ _ _ _ _ _ _ _ _ _ _ _ _ _ _ ((hcond5_0 t).mpr hz) (iblk5 V c 0 t) (iblk5 V c 1 t) (iblk5 V c 2 t) (iblk5 V c 3 t) (iblk5 V c 4 t) _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexists _; iexact HS
    isplitl [HQ]; · iexists _; iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp
  · rw [Phi5_pos V c _ _ hz, accAt5_pos V c t hz]
    iintro ⟨⟨⟨⟨HS, HQ⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel5_next c Set.univ (grid5.coords t) _ _ _ _ _ _ _ _ _ _ _ _ _ _ _ _ _ _ _ _ (fun h => hz ((hcond5_0 t).mp h)) (iblk5 V c 0 t) (iblk5 V c 1 t) (iblk5 V c 2 t) (iblk5 V c 3 t) (iblk5 V c 4 t) _ _ _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexact HS
    isplitl [HQ]; · iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- After any point the invariant gives the class's back: what the scratch rows hold is forgotten. -/
theorem Phi5_out (c : Dev nD) (t : Fin (cfg5.N + 1)) (ht : t.val ≠ 0) : (dat5 V c).Φ t ⊢ Pipeline.ΦA spec5 c := by
  rw [show (dat5 V c).Φ t = Phi5 V c t.val (Nat.le_of_lt_succ t.isLt) from rfl, Phi5_pos V c _ _ ht, PhiA5_eq]
  iintro ⟨⟨⟨HS, HQ⟩, HR⟩, Hg⟩
  isplitl [HS HQ HR]
  · isplitl [HS HQ]
    · isplitl [HS]
      · iexists _; iexact HS
      iexists _; iexact HQ
    iexact HR
  iexact Hg

theorem Phi5_last (c : Dev nD) : (dat5 V c).Φ (Fin.last cfg5.N) ⊢ Pipeline.ΦA spec5 c :=
  Phi5_out V c _ (by rw [Fin.val_last]; have : cfg5.N = 20 := N_5; omega)

end Cert.KernelIdeal.Hand

end
-- ==== Proof.R6.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: batch normalisation then ELU, pointwise on one row block per grid point

Windows: 0 = y (row block i), 1 = mean, 2 = variance, 3 = gamma, 4 = beta (one row each, whole at every point),
5 = the output (row block i). -/

/-- Window `w`'s block at point `t`, read off its array at the entry contents `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds its block at every point, whether the block was moved there at this
    point or at an earlier one with the same block index. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_y : Rect S5000x128 := Rect.unit (s := S5000x128) ![0, 0] S5000x128.size inb_S5000x128_S5000x128_0_0
abbrev r6_p : Rect S1x128 := Rect.unit (s := S1x128) ![0, 0] S1x128.size inb_S1x128_S1x128_0_0

/-- The output block after the body: ELU of gamma · (y − mean) · rsqrt(variance + ε) + beta, stored over the whole
    buffer (the body reads the variance before the mean). -/
def out6_5 (x0 : Vec F S5000x128 .f32) (x1 x2 x3 x4 : Vec F S1x128 .f32) : Vec F S5000x128 .f32 :=
  View.canon [⟨r6_y, k6_pay1 (View.ld x0 r6_y) (View.ld x2 r6_p) (View.ld x1 r6_p) (View.ld x3 r6_p) (View.ld x4 r6_p)⟩]

/-- The one store is the whole buffer, so it covers it. -/
theorem cover6_5 (p0 : Vec F S5000x128 .f32) (y : S5000x128.Idx) :
    ∃ pc ∈ ([⟨r6_y, p0⟩] : List (View.Piece (Elt F) S5000x128 .f32)), y ∈ pc.1.set :=
  View.cover_of_tiled [⟨r6_y, p0⟩] S5000x128.size (by rfl) y

/-! ## The body's triple -/

set_option maxHeartbeats 1000000 in
/-- The body on whole staging memrefs, the inputs' at read contents `x0 … x4` and the output's at anything, runs to
    the continuation holding the inputs' as they were and the output's at `out6_5 x0 … x4`. -/
theorem sound_kernel6 (c : Dev nD) (E : Set ℕ) (i : grid6.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__bn_elu_kernel i arg1 harg1 arg2 harg2 arg3 harg3 arg4 harg4 arg5 harg5 arg6 harg6) K := by
  simp only [cc6__bn_elu_kernel_eq_skeleton]; unfold cc6__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of region 6 on core `c`: the arrays as the region finds them; after the body at point `t`
    each input's buffer at its block and the output's at `out6_5` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem Φ_eq6 (c : Dev nD) (i : Fin (cfg6.N + 1)) : (dat6 V c).Φ i = Pipeline.ΦA spec6 c := rfl

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.R7.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 7: Y = agg · W_rel + x · W_root + b on one row block of 5000 rows per grid point, with the column
sums of Y and of Y² accumulated over the grid's points

Windows: 0 = agg (row block i), 1 = x (row block i), 2 = W_rel, 3 = W_root, 4 = b (each whole at every point),
5 = Y (row block i), 6 = the column sums, 7 = the column sums of squares (one block each, written back after the
last point). Two scratch rows carry the running sums from point to point; the first point zeroes them. -/

/-- Window `w`'s block at point `t`, read off its array at the entry contents `V`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_a : Rect S5000x32 := Rect.unit (s := S5000x32) ![0, 0] S5000x32.size inb_S5000x32_S5000x32_0_0
abbrev r7_w : Rect S32x64 := Rect.unit (s := S32x64) ![0, 0] S32x64.size inb_S32x64_S32x64_0_0
abbrev r7_b : Rect S1x64 := Rect.unit (s := S1x64) ![0, 0] S1x64.size inb_S1x64_S1x64_0_0
abbrev r7_y : Rect S5000x64 := Rect.unit (s := S5000x64) ![0, 0] S5000x64.size inb_S5000x64_S5000x64_0_0

/-! ## What the body leaves -/

/-- The block of Y: agg · W_rel + x · W_root + b on the point's rows (operands rounded to bf16, products summed in f32). -/
def lin7 (xa xb : Vec F S5000x32 .f32) (xc xd : Vec F S32x64 .f32) (xe : Vec F S1x64 .f32) : Vec F S5000x64 .f32 :=
  k7_pay4 (View.ld xa r7_a) (View.ld xb r7_a) (View.ld xc r7_w) (View.ld xd r7_w) (View.ld xe r7_b)

/-- Window 5 after the body: the block of Y. -/
def out7_5 (xa xb : Vec F S5000x32 .f32) (xc xd : Vec F S32x64 .f32) (xe : Vec F S1x64 .f32) : Vec F S5000x64 .f32 :=
  View.canon [⟨r7_y, lin7 xa xb xc xd xe⟩]

/-- The running column sums after a point: the sums so far `s` plus the column sums of the point's block of Y. -/
def sum7 (xa xb : Vec F S5000x32 .f32) (xc xd : Vec F S32x64 .f32) (xe : Vec F S1x64 .f32) (s : Vec F S1x64 .f32) : Vec F S1x64 .f32 :=
  View.canon [⟨r7_b, k7_pay5 (View.ld xa r7_a) (View.ld xb r7_a) (View.ld xc r7_w) (View.ld xd r7_w) (View.ld xe r7_b) (View.ld s r7_b)⟩]

/-- The running column sums of squares after a point: `q` plus the column sums of the squares of the point's block of Y. -/
def sq7 (xa xb : Vec F S5000x32 .f32) (xc xd : Vec F S32x64 .f32) (xe : Vec F S1x64 .f32) (q : Vec F S1x64 .f32) : Vec F S1x64 .f32 :=
  View.canon [⟨r7_b, k7_pay1 (View.ld q r7_b) (k7_pay6 (View.ld xa r7_a) (View.ld xb r7_a) (View.ld xc r7_w) (View.ld xd r7_w) (View.ld xe r7_b))⟩]

/-- The zero rows the first point starts the two running sums from. -/
def zero7_s : Vec F S1x64 .f32 := View.canon [⟨r7_b, k7_pay2⟩]
def zero7_q : Vec F S1x64 .f32 := View.canon [⟨r7_b, k7_pay3⟩]

/-- Windows 6 and 7 after the body: the running sums as read back from the scratch rows. -/
def out7_6 (s : Vec F S1x64 .f32) : Vec F S1x64 .f32 := View.canon [⟨r7_b, View.ld s r7_b⟩]

/-- Each buffer is written by one store of its whole shape, which covers it. -/
theorem cover7_y (p : Vec F S5000x64 .f32) (y : S5000x64.Idx) :
    ∃ pc ∈ ([⟨r7_y, p⟩] : List (View.Piece (Elt F) S5000x64 .f32)), y ∈ pc.1.set :=
  View.cover_of_tiled [⟨r7_y, p⟩] S5000x64.size (by rfl) y
theorem cover7_b (p : Vec F S1x64 .f32) (y : S1x64.Idx) :
    ∃ pc ∈ ([⟨r7_b, p⟩] : List (View.Piece (Elt F) S1x64 .f32)), y ∈ pc.1.set :=
  View.cover_of_tiled [⟨r7_b, p⟩] S1x64.size (by rfl) y

/-- A last write that covers the shape alone decides what is read back. -/
theorem read_cons_cover7 {s : Shape} {e : EltTy} {κ : Kind} {sp : Space} (v : View sig κ sp s e) (f : v.ty.Contents (Elt F)) (r : Rect s) (w : r.shape.Idx → Elt F e)
    (L : List (View.Piece (Elt F) s e)) (h : ∀ y, ∃ pc ∈ ([⟨r, w⟩] : List (View.Piece (Elt F) s e)), y ∈ pc.1.set) :
    v.read (Elt F) (v.writes (Elt F) f (⟨r, w⟩ :: L)) = View.canon [⟨r, w⟩] := by
  funext y
  obtain ⟨pc, hm, hy⟩ := h y
  obtain rfl := List.mem_singleton.mp hm
  obtain ⟨x, rfl⟩ : ∃ x, r.emb x = y := r.exists_idx_of_mem hy
  rw [View.read_writes_cons_emb, View.canon_cons_emb]

/-- Every index of a row lies in the row's one rectangle. -/
theorem mem7_b (y : S1x64.Idx) : y ∈ (r7_b).set := by
  obtain ⟨pc, hm, hy⟩ := View.cover_of_tiled (Val := fun _ => Unit) (e := .f32) [⟨r7_b, fun _ => ()⟩] S1x64.size (by rfl) y
  obtain rfl := List.mem_singleton.mp hm
  exact hy

/-- Under a last write that covers the row, earlier writes do not show. -/
theorem canon_cons_cover7 (w : (r7_b).shape.Idx → Elt F .f32) (L : List (View.Piece (Elt F) S1x64 .f32)) :
    View.canon (⟨r7_b, w⟩ :: L) = View.canon [⟨r7_b, w⟩] := by
  funext y
  obtain ⟨x, rfl⟩ : ∃ x, (r7_b).emb x = y := (r7_b).exists_idx_of_mem (mem7_b y)
  rw [View.canon_cons_emb, View.canon_cons_emb]

/-- A list of writes whose last covers the row covers it. -/
theorem cover7_cons (w : Vec F S1x64 .f32) (L : List (View.Piece (Elt F) S1x64 .f32)) (y : S1x64.Idx) :
    ∃ pc ∈ (⟨r7_b, w⟩ :: L : List (View.Piece (Elt F) S1x64 .f32)), y ∈ pc.1.set := by
  obtain ⟨pc, hm, hy⟩ := cover7_b w y
  exact ⟨pc, List.mem_cons.mpr (Or.inl (List.mem_singleton.mp hm)), hy⟩

/-- A row written once and read back through another buffer's store: the copy holds what was written. -/
theorem pure7_rb {κ κ' : Kind} {sp sp' : Space} (v : View sig κ sp S1x64 .f32) (v' : View sig κ' sp' S1x64 .f32) (f : v'.ty.Contents (Elt F))
    (w : (r7_b).shape.Idx → Elt F .f32) :
    v'.read (Elt F) (v'.writes (Elt F) f [⟨r7_b, v.readCov [⟨r7_b, w⟩] r7_b⟩]) = out7_6 (View.canon [⟨r7_b, w⟩]) := by
  rw [View.read_writes_eq_canon _ _ _ (cover7_b _), View.readCov_eq_canon_ld v _ r7_b (cover7_b _)]
  rfl

/-- A row zeroed (`p`), read back, and rewritten as `g` of what was read: it holds `g` of the zero row. -/
theorem pure7_acc0 {κ : Kind} {sp : Space} (v : View sig κ sp S1x64 .f32) (f : v.ty.Contents (Elt F))
    (g : ((r7_b).shape.Idx → Elt F .f32) → ((r7_b).shape.Idx → Elt F .f32)) (p : (r7_b).shape.Idx → Elt F .f32) :
    v.read (Elt F) (v.writes (Elt F) f [⟨r7_b, g (v.readCov [⟨r7_b, p⟩] r7_b)⟩, ⟨r7_b, p⟩])
      = View.canon [⟨r7_b, g (View.ld (View.canon [⟨r7_b, p⟩]) r7_b)⟩] := by
  rw [read_cons_cover7 v f r7_b _ _ (cover7_b _), View.readCov_eq_canon_ld v _ r7_b (cover7_b _)]

/-- The same row read back through another buffer's store. -/
theorem pure7_rb0 {κ κ' : Kind} {sp sp' : Space} (v : View sig κ sp S1x64 .f32) (v' : View sig κ' sp' S1x64 .f32) (f : v'.ty.Contents (Elt F))
    (g : ((r7_b).shape.Idx → Elt F .f32) → ((r7_b).shape.Idx → Elt F .f32)) (p : (r7_b).shape.Idx → Elt F .f32) :
    v'.read (Elt F) (v'.writes (Elt F) f [⟨r7_b, v.readCov [⟨r7_b, g (v.readCov [⟨r7_b, p⟩] r7_b)⟩, ⟨r7_b, p⟩] r7_b⟩])
      = out7_6 (View.canon [⟨r7_b, g (View.ld (View.canon [⟨r7_b, p⟩]) r7_b)⟩]) := by
  rw [View.read_writes_eq_canon _ _ _ (cover7_b _),
    View.readCov_eq_canon_ld v _ r7_b (cover7_cons _ _),
    canon_cons_cover7 _ [⟨r7_b, p⟩], View.readCov_eq_canon_ld v _ r7_b (cover7_b _)]
  rfl
/-! ## The body's triple, at a point after the first and at the first -/

/-- The scf.if's condition: the grid coordinate is 0. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)

set_option maxHeartbeats 4000000 in
/-- At a point after the first: the scratch rows hold the running sums `s`, `q` of the points before; the body leaves
    the block of Y in window 5, the new running sums in the scratch rows and copies of them in windows 6 and 7. -/
theorem sound_kernel7_next (c : Dev nD) (E : Set ℕ) (i : grid7.Coords) (ma : Memref sig .tc .vmem S5000x32 .f32) (hma : ma.IsWhole) (mb : Memref sig .tc .vmem S5000x32 .f32) (hmb : mb.IsWhole) (mc : Memref sig .tc .vmem S32x64 .f32) (hmc : mc.IsWhole) (md : Memref sig .tc .vmem S32x64 .f32) (hmd : md.IsWhole) (me : Memref sig .tc .vmem S1x64 .f32) (hme : me.IsWhole) (my : Memref sig .tc .vmem S5000x64 .f32) (hmy : my.IsWhole) (mo : Memref sig .tc .vmem S1x64 .f32) (hmo : mo.IsWhole) (mp : Memref sig .tc .vmem S1x64 .f32) (hmp : mp.IsWhole) (ms : Memref sig .tc .vmem S1x64 .f32) (hms : ms.IsWhole) (mq : Memref sig .tc .vmem S1x64 .f32) (hmq : mq.IsWhole) (hc : ¬cond7_0 i)
    (xa xb : Vec F S5000x32 .f32) (xc xd : Vec F S32x64 .f32) (xe : Vec F S1x64 .f32) (s q : Vec F S1x64 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ owns (c : Thread nD τ) ms fullShare s ∗ owns (c : Thread nD τ) mq fullShare q
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe
            ∗ owns (c : Thread nD τ) my fullShare (out7_5 xa xb xc xd xe)
            ∗ owns (c : Thread nD τ) mo fullShare (out7_6 (sum7 xa xb xc xd xe s))
            ∗ owns (c : Thread nD τ) mp fullShare (out7_6 (sq7 xa xb xc xd xe q))
            ∗ owns (c : Thread nD τ) ms fullShare (sum7 xa xb xc xd xe s)
            ∗ owns (c : Thread nD τ) mq fullShare (sq7 xa xb xc xd xe q)) -∗ K ⟨⟩))
      ⊢ wp frame (wpE (defs₀ (F := F)) Variants.none c none) E (cc7__linear_stats_kernel i ma hma mb hmb mc hmc md hmd me hme my hmy mo hmo mp hmp ms hms mq hmq) K := by
  simp only [cc7__linear_stats_kernel_eq_skeleton]; unfold cc7__linear_stats_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%fs, %hfs, Hs⟩, ⟨%fq, %hfq, Hq⟩, Hk⟩
  subst hfa hfb hfc hfd hfe hfs hfq
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover7_y _)
  isplitl [Ho]
  · iexists _; isplitr
    swap; · iexact Ho
    ipureintro
    refine (View.read_writes_eq_canon _ _ _ (cover7_b _)).trans ?_
    show View.canon [⟨r7_b, View.readCov ms.view [⟨r7_b, _⟩] r7_b⟩] = _
    rw [View.readCov_eq_canon_ld _ _ _ (cover7_b _)]
    rfl
  isplitl [Hp]
  · iexists _; isplitr
    swap; · iexact Hp
    ipureintro
    refine (View.read_writes_eq_canon _ _ _ (cover7_b _)).trans ?_
    show View.canon [⟨r7_b, View.readCov mq.view [⟨r7_b, _⟩] r7_b⟩] = _
    rw [View.readCov_eq_canon_ld _ _ _ (cover7_b _)]
    rfl
  isplitl [Hs]
  · iexists _; isplitr
    swap; · iexact Hs
    ipureintro
    exact View.read_writes_eq_canon _ _ _ (cover7_b _)
  iexists _; isplitr
  swap; · iexact Hq
  ipureintro
  exact View.read_writes_eq_canon _ _ _ (cover7_b _)
set_option maxHeartbeats 4000000 in
/-- At the first point: the scratch rows hold anything; the body zeroes them, then does as at any other point. -/
theorem sound_kernel7_first (c : Dev nD) (E : Set ℕ) (i : grid7.Coords) (ma : Memref sig .tc .vmem S5000x32 .f32) (hma : ma.IsWhole) (mb : Memref sig .tc .vmem S5000x32 .f32) (hmb : mb.IsWhole) (mc : Memref sig .tc .vmem S32x64 .f32) (hmc : mc.IsWhole) (md : Memref sig .tc .vmem S32x64 .f32) (hmd : md.IsWhole) (me : Memref sig .tc .vmem S1x64 .f32) (hme : me.IsWhole) (my : Memref sig .tc .vmem S5000x64 .f32) (hmy : my.IsWhole) (mo : Memref sig .tc .vmem S1x64 .f32) (hmo : mo.IsWhole) (mp : Memref sig .tc .vmem S1x64 .f32) (hmp : mp.IsWhole) (ms : Memref sig .tc .vmem S1x64 .f32) (hms : ms.IsWhole) (mq : Memref sig .tc .vmem S1x64 .f32) (hmq : mq.IsWhole) (hc : cond7_0 i)
    (xa xb : Vec F S5000x32 .f32) (xc xd : Vec F S32x64 .f32) (xe : Vec F S1x64 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ (∃ d, owns (c : Thread nD τ) ms fullShare d) ∗ (∃ d, owns (c : Thread nD τ) mq fullShare d)
        ∗ (iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
            ∗ owns (c : Thread nD τ) my fullShare (out7_5 xa xb xc xd xe)
            ∗ owns (c : Thread nD τ) mo fullShare (out7_6 (sum7 xa xb xc xd xe zero7_s))
            ∗ owns (c : Thread nD τ) mp fullShare (out7_6 (sq7 xa xb xc xd xe zero7_q))
            ∗ owns (c : Thread nD τ) ms fullShare (sum7 xa xb xc xd xe zero7_s)
            ∗ owns (c : Thread nD τ) mq fullShare (sq7 xa xb xc xd xe zero7_q)) -∗ K ⟨⟩))
      ⊢ wp frame (wpE (defs₀ (F := F)) Variants.none c none) E (cc7__linear_stats_kernel i ma hma mb hmb mc hmc md hmd me hme my hmy mo hmo mp hmp ms hms mq hmq) K := by
  simp only [cc7__linear_stats_kernel_eq_skeleton]; unfold cc7__linear_stats_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%ds, %fs, -, Hs⟩, ⟨%dq, %fq, -, Hq⟩, Hk⟩
  subst hfa hfb hfc hfd hfe
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover7_y _)
  isplitl [Ho]
  · iexists _; isplitr
    swap; · iexact Ho
    ipureintro
    exact pure7_rb0 ms.view mo.view _ (fun z => k7_pay5 _ _ _ _ _ z) k7_pay2
  isplitl [Hp]
  · iexists _; isplitr
    swap; · iexact Hp
    ipureintro
    exact pure7_rb0 mq.view mp.view _ (fun z => k7_pay1 z (k7_pay6 _ _ _ _ _)) k7_pay3
  isplitl [Hs]
  · iexists _; isplitr
    swap; · iexact Hs
    ipureintro
    exact pure7_acc0 ms.view _ (fun z => k7_pay5 _ _ _ _ _ z) k7_pay2
  iexists _; isplitr
  swap; · iexact Hq
  ipureintro
  exact pure7_acc0 mq.view _ (fun z => k7_pay1 z (k7_pay6 _ _ _ _ _)) k7_pay3

/-! ## The running sums, point by point -/

/-- What the two scratch rows hold after the body at position `n`: (the column sums, the column sums of squares) of
    the blocks of Y at positions `0 … n`, added block after block from the zero rows. -/
def accAt7 (c : Dev nD) : (n : ℕ) → n < cfg7.N → Vec F S1x64 .f32 × Vec F S1x64 .f32
  | 0, hn => (sum7 (iblk7 V c 0 ⟨0, hn⟩) (iblk7 V c 1 ⟨0, hn⟩) (iblk7 V c 2 ⟨0, hn⟩) (iblk7 V c 3 ⟨0, hn⟩) (iblk7 V c 4 ⟨0, hn⟩) zero7_s, sq7 (iblk7 V c 0 ⟨0, hn⟩) (iblk7 V c 1 ⟨0, hn⟩) (iblk7 V c 2 ⟨0, hn⟩) (iblk7 V c 3 ⟨0, hn⟩) (iblk7 V c 4 ⟨0, hn⟩) zero7_q)
  | n + 1, hn => (sum7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accAt7 c n (Nat.lt_of_succ_lt hn)).1,
      sq7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accAt7 c n (Nat.lt_of_succ_lt hn)).2)

theorem accAt7_zero (c : Dev nD) (t : Fin cfg7.N) (hz : t.val = 0) :
    accAt7 V c t.val t.isLt = (sum7 (iblk7 V c 0 t) (iblk7 V c 1 t) (iblk7 V c 2 t) (iblk7 V c 3 t) (iblk7 V c 4 t) zero7_s, sq7 (iblk7 V c 0 t) (iblk7 V c 1 t) (iblk7 V c 2 t) (iblk7 V c 3 t) (iblk7 V c 4 t) zero7_q) := by
  obtain ⟨n, hn⟩ := t
  cases n with
  | zero => rfl
  | succ n => exact absurd hz (Nat.succ_ne_zero n)

theorem accAt7_pos (c : Dev nD) (t : Fin cfg7.N) (hz : t.val ≠ 0) :
    accAt7 V c t.val t.isLt = (sum7 (iblk7 V c 0 t) (iblk7 V c 1 t) (iblk7 V c 2 t) (iblk7 V c 3 t) (iblk7 V c 4 t) (accAt7 V c (t.val - 1) (Nat.lt_of_le_of_lt (Nat.sub_le _ _) t.isLt)).1,
      sq7 (iblk7 V c 0 t) (iblk7 V c 1 t) (iblk7 V c 2 t) (iblk7 V c 3 t) (iblk7 V c 4 t) (accAt7 V c (t.val - 1) (Nat.lt_of_le_of_lt (Nat.sub_le _ _) t.isLt)).2) := by
  obtain ⟨n, hn⟩ := t
  cases n with
  | zero => exact absurd rfl hz
  | succ n => rfl

/-! ## The region's invariant -/

/-- The two scratch rows as memrefs. -/
abbrev sc7_s : Memref sig .tc .vmem S1x64 .f32 := Memref.whole cc7_scratch0
abbrev sc7_q : Memref sig .tc .vmem S1x64 .f32 := Memref.whole cc7_scratch1

/-- The other scoped buffers of the core, unopened. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The class's invariant with the two scratch rows taken out of the scoped rest, each at some contents. -/
theorem PhiA7_eq (c : Dev nD) :
    (Pipeline.ΦA spec7 c : sProp 𝕄)
      = iprop(iprop(iprop((∃ d, owns (c : Thread nD τ) sc7_s fullShare d) ∗ (∃ d, owns (c : Thread nD τ) sc7_q fullShare d)) ∗ rest7 c) ∗ (∃ r, prngReg c r)) := by
  unfold Pipeline.ΦA; rw [scopedRest7_split]; simp only [owns_whole]; try rfl

/-- The invariant before position `n`: before the first point the class's (the scratch rows at anything); afterwards the
    scratch rows at the running sums of the points before, the other scoped buffers and the generator register at anything. -/
def Phi7 (c : Dev nD) : (n : ℕ) → n ≤ cfg7.N → sProp 𝕄
  | 0, _ => Pipeline.ΦA spec7 c
  | n + 1, hn => iprop(iprop(iprop(owns (c : Thread nD τ) sc7_s fullShare (accAt7 V c n hn).1 ∗ owns (c : Thread nD τ) sc7_q fullShare (accAt7 V c n hn).2) ∗ rest7 c) ∗ (∃ r, prngReg c r))

theorem Phi7_at_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(iprop(owns (c : Thread nD τ) sc7_s fullShare (accAt7 V c n hn).1 ∗ owns (c : Thread nD τ) sc7_q fullShare (accAt7 V c n hn).2) ∗ rest7 c) ∗ (∃ r, prngReg c r)) := rfl

theorem Phi7_pos (c : Dev nD) (n : ℕ) (h : n ≤ cfg7.N) (hz : n ≠ 0) :
    Phi7 V c n h = iprop(iprop(iprop(owns (c : Thread nD τ) sc7_s fullShare (accAt7 V c (n - 1) (by omega)).1 ∗ owns (c : Thread nD τ) sc7_q fullShare (accAt7 V c (n - 1) (by omega)).2) ∗ rest7 c) ∗ (∃ r, prngReg c r)) := by
  cases n with
  | zero => exact absurd rfl hz
  | succ n => rfl

/-! ## The pipeline's proof data -/

/-- The proof data of pipeline 7 on core `c`: the arrays at the entry contents; after the body at point `t` each input's
    buffer at its block, window 5 at the block of Y, windows 6 and 7 at the running sums; the invariant `Phi7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
    | ⟨6, _⟩ => out7_6 (accAt7 V c t.val t.isLt).1
    | ⟨7, _⟩ => out7_6 (accAt7 V c t.val t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]
theorem after7_6 (c : Dev nD) (t : Fin cfg7.N) : (dat7 V c).after 6 t = out7_6 (accAt7 V c t.val t.isLt).1 := by dsimp only [dat7]
theorem after7_7 (c : Dev nD) (t : Fin cfg7.N) : (dat7 V c).after 7 t = out7_6 (accAt7 V c t.val t.isLt).2 := by dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

/-- Before the first point the invariant is the class's. -/
theorem Phi7_zero (c : Dev nD) : (dat7 V c).Φ 0 = Pipeline.ΦA spec7 c := rfl

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

set_option maxHeartbeats 4000000 in
/-- The body at any point: the inputs' memrefs hold their blocks; the invariant hands the body the scratch rows — at
    anything at the first point, where the body zeroes them, else at the running sums the point before left — and takes
    them back at this point's running sums; the other scoped buffers, the generator register and the core's debt pass
    through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl,
    show (dat7 V c).Φ t.succ = Phi7 V c (t.val + 1) t.isLt from rfl, Phi7_succ,
    after7_0, after7_1, after7_2, after7_3, after7_4, after7_5, after7_6, after7_7, Phi7_castSucc]
  by_cases hz : t.val = 0
  · rw [Phi7_at_zero V c _ _ hz, PhiA7_eq, accAt7_zero V c t hz]
    iintro ⟨⟨⟨⟨⟨%ds, HS⟩, ⟨%dq, HQ⟩⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel7_first c Set.univ (grid7.coords t) _ _ _ _ _ _ _ _ _ _ _ _ _ _ _ _ _ _ _ _ ((hcond7_0 t).mpr hz) (iblk7 V c 0 t) (iblk7 V c 1 t) (iblk7 V c 2 t) (iblk7 V c 3 t) (iblk7 V c 4 t) _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexists _; iexact HS
    isplitl [HQ]; · iexists _; iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp
  · rw [Phi7_pos V c _ _ hz, accAt7_pos V c t hz]
    iintro ⟨⟨⟨⟨HS, HQ⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel7_next c Set.univ (grid7.coords t) _ _ _ _ _ _ _ _ _ _ _ _ _ _ _ _ _ _ _ _ (fun h => hz ((hcond7_0 t).mp h)) (iblk7 V c 0 t) (iblk7 V c 1 t) (iblk7 V c 2 t) (iblk7 V c 3 t) (iblk7 V c 4 t) _ _ _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexact HS
    isplitl [HQ]; · iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- After any point the invariant gives the class's back: what the scratch rows hold is forgotten. -/
theorem Phi7_out (c : Dev nD) (t : Fin (cfg7.N + 1)) (ht : t.val ≠ 0) : (dat7 V c).Φ t ⊢ Pipeline.ΦA spec7 c := by
  rw [show (dat7 V c).Φ t = Phi7 V c t.val (Nat.le_of_lt_succ t.isLt) from rfl, Phi7_pos V c _ _ ht, PhiA7_eq]
  iintro ⟨⟨⟨HS, HQ⟩, HR⟩, Hg⟩
  isplitl [HS HQ HR]
  · isplitl [HS HQ]
    · isplitl [HS]
      · iexists _; iexact HS
      iexists _; iexact HQ
    iexact HR
  iexact Hg

theorem Phi7_last (c : Dev nD) : (dat7 V c).Φ (Fin.last cfg7.N) ⊢ Pipeline.ΦA spec7 c :=
  Phi7_out V c _ (by rw [Fin.val_last]; have : cfg7.N = 20 := N_7; omega)

end Cert.KernelIdeal.Hand

end
-- ==== Proof.R8.lean ====
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 8: batch normalisation then ELU, pointwise on one row block per grid point

Windows: 0 = y (row block i), 1 = mean, 2 = variance, 3 = gamma, 4 = beta (one row each, whole at every point),
5 = the output (row block i). -/

/-- Window `w`'s block at point `t`, read off its array at the entry contents `V`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's staging buffer holds its block at every point, whether the block was moved there at this
    point or at an earlier one with the same block index. -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_y : Rect S5000x128 := Rect.unit (s := S5000x128) ![0, 0] S5000x128.size inb_S5000x128_S5000x128_0_0
abbrev r8_p : Rect S1x128 := Rect.unit (s := S1x128) ![0, 0] S1x128.size inb_S1x128_S1x128_0_0

/-- The output block after the body: ELU of gamma · (y − mean) · rsqrt(variance + ε) + beta, stored over the whole
    buffer (the body reads the variance before the mean). -/
def out8_5 (x0 : Vec F S5000x128 .f32) (x1 x2 x3 x4 : Vec F S1x128 .f32) : Vec F S5000x128 .f32 :=
  View.canon [⟨r8_y, k8_pay1 (View.ld x0 r8_y) (View.ld x2 r8_p) (View.ld x1 r8_p) (View.ld x3 r8_p) (View.ld x4 r8_p)⟩]

/-- The one store is the whole buffer, so it covers it. -/
theorem cover8_5 (p0 : Vec F S5000x128 .f32) (y : S5000x128.Idx) :
    ∃ pc ∈ ([⟨r8_y, p0⟩] : List (View.Piece (Elt F) S5000x128 .f32)), y ∈ pc.1.set :=
  View.cover_of_tiled [⟨r8_y, p0⟩] S5000x128.size (by rfl) y

/-! ## The body's triple -/

set_option maxHeartbeats 1000000 in
/-- The body on whole staging memrefs, the inputs' at read contents `x0 … x4` and the output's at anything, runs to
    the continuation holding the inputs' as they were and the output's at `out8_5 x0 … x4`. -/
theorem sound_kernel8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__bn_elu_kernel i arg1 harg1 arg2 harg2 arg3 harg3 arg4 harg4 arg5 harg5 arg6 harg6) K := by
  simp only [cc8__bn_elu_kernel_eq_skeleton]; unfold cc8__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of region 8 on core `c`: the arrays as the region finds them; after the body at point `t`
    each input's buffer at its block and the output's at `out8_5` of the input blocks; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem Φ_eq8 (c : Dev nD) (i : Fin (cfg8.N + 1)) : (dat8 V c).Φ i = Pipeline.ΦA spec8 c := rfl

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so `sound_kernel8` applies; the invariant and
    the core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.R9.lean ====
/- REGION 9 of @main (custom_call 9, the two-layer perceptron and the row-wise log-softmax, one grid point, six whole-array
   windows) at a PARAMETER V, the TensorCore's buffer contents when the region is entered: each window's block, the
   output window's buffer after the body as a pure function of the input blocks, the body's triple, the pipeline's
   proof data and its body obligation. -/
import proofs.«403053_j58033598104012_3_alg».proof.Proof.Gen.KernelIdeal.Launch
import proofs.«403053_j58033598104012_3_alg».proof.Proof.Gen.KernelIdeal.Skeleton
import proofs.«403053_j58033598104012_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, for any proof data whose array is
    the entry contents and whose body leaves the block in place: the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer read or written whole -/

abbrev r9_0 : Rect S256x64 := Rect.unit (s := S256x64) ![0, 0] S256x64.size inb_S256x64_S256x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S64x10 := Rect.unit (s := S64x10) ![0, 0] S64x10.size inb_S64x10_S64x10_0_0
abbrev r9_4 : Rect S1x10 := Rect.unit (s := S1x10) ![0, 0] S1x10.size inb_S1x10_S1x10_0_0
abbrev r9_5 : Rect S256x10 := Rect.unit (s := S256x10) ![0, 0] S256x10.size inb_S256x10_S256x10_0_0

/-! ## What the body leaves in the output window's buffer -/

/-- Window 5's staging buffer after the body, from the five input blocks: its one store, of the log-softmax rows of
    the perceptron's output. -/
def out9_5 (x0 : Vec F S256x64 .f32) (x1 : Vec F S64x64 .f32) (x2 : Vec F S1x64 .f32) (x3 : Vec F S64x10 .f32) (x4 : Vec F S1x10 .f32) :
    Vec F S256x10 .f32 :=
  View.canon [⟨r9_5, k9_pay1 (View.ld x0 r9_0) (View.ld x1 r9_1) (View.ld x2 r9_2) (View.ld x3 r9_3) (View.ld x4 r9_4)⟩]

/-- The one store is of the whole buffer, so it covers it. -/
theorem cover9_5 (p0 : Vec F S256x10 .f32) (y : S256x10.Idx) :
    ∃ pc ∈ ([⟨r9_5, p0⟩] : List (View.Piece (Elt F) S256x10 .f32)), y ∈ pc.1.set :=
  View.cover_of_tiled [⟨r9_5, p0⟩] S256x10.size (by rfl) y

/-! ## The body's triple -/

set_option maxHeartbeats 1000000 in
/-- The kernel body on whole staging memrefs, the inputs' at contents x0..x4 and the output's at anything, runs to the
    continuation holding the inputs' as they were and the output's at out9_5 of the inputs'. -/
theorem sound_kernel9 (c : Dev nD) (E : Set ℕ) (i : grid9.Coords)
    (arg1 : Memref sig .tc .vmem S256x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S256x10 .f32) (harg6 : arg6.IsWhole)
    (x0 : Vec F S256x64 .f32) (x1 : Vec F S64x64 .f32) (x2 : Vec F S1x64 .f32) (x3 : Vec F S64x10 .f32) (x4 : Vec F S1x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core c: the arrays as the region finds them; after the body each input's buffer
    at its block and the output's at out9_5 of the input blocks; the invariant the scoped rest and the generator
    register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant is the class's at every index. -/
theorem Φ_eq9 (c : Dev nD) (i : Fin (cfg9.N + 1)) : (dat9 V c).Φ i = Pipeline.ΦA spec9 c := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and the
    core's owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.Fold.lean ====
import proofs.«403053_j58033598104012_3_alg».proof.Proof.Gen.KernelIdeal.Regions
import proofs.«403053_j58033598104012_3_alg».proof.Proof.R0
import proofs.«403053_j58033598104012_3_alg».proof.Proof.R1
import proofs.«403053_j58033598104012_3_alg».proof.Proof.R2
import proofs.«403053_j58033598104012_3_alg».proof.Proof.R3
import proofs.«403053_j58033598104012_3_alg».proof.Proof.R4
import proofs.«403053_j58033598104012_3_alg».proof.Proof.R5
import proofs.«403053_j58033598104012_3_alg».proof.Proof.R6
import proofs.«403053_j58033598104012_3_alg».proof.Proof.R7
import proofs.«403053_j58033598104012_3_alg».proof.Proof.R8
import proofs.«403053_j58033598104012_3_alg».proof.Proof.R9
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The buffers' contents between items

`W J c` is core `c`'s unscoped buffers after item J−1: the launch contents through the host stretches, each region's
output arrays at what its pipeline has written back after the last grid point (`Dat.arrAt … N` of the region's proof
data, themselves taken at the contents the region is entered from). `T J` is the same read at the TensorCore's
references (what a region's proof data take). -/

/-- Entering region 0: the launch contents after the first host stretch. -/
def W1 (c : Dev nD) : Valuation τ sig (Elt F) := StableHlo.after hostOps0 (Gen.V0 m c)
abbrev T1 : (c : Dev nD) → (b : Ref sig .tc) → Buf (Elt F) ((c : Thread nD τ).loc b) := fun c b => W1 m c b

/-- Leaving region 0: `main_v8` at what the pipeline leaves, every other buffer as entered. -/
def W2 (c : Dev nD) : Valuation τ sig (Elt F) :=
  Function.update (W1 m c) main_v8 ((dat0 (T1 m) c).arrAt 2 cfg0.N)
abbrev T2 : (c : Dev nD) → (b : Ref sig .tc) → Buf (Elt F) ((c : Thread nD τ).loc b) := fun c b => W2 m c b
/-- A buffer region 0 does not write is as entered. -/
theorem W2_of (c : Dev nD) (r : Ref sig .tc) (h0 : r ≠ main_v8) : W2 m c r = W1 m c r := by
  simp only [W2, Function.update_of_ne (StableHlo.devRef_ne_of_ne h0 : (Proc.devRef .tc r : DevRef τ sig) ≠ Proc.devRef .tc main_v8)]
theorem W2_at (c : Dev nD) : W2 m c main_v8 = (dat0 (T1 m) c).arrAt 2 cfg0.N := by
  simp only [W2, Function.update_self]

/-- Entering region 1: after the host stretch `hostOps1`. -/
def W3 (c : Dev nD) : Valuation τ sig (Elt F) := StableHlo.after hostOps1 (W2 m c)
abbrev T3 : (c : Dev nD) → (b : Ref sig .tc) → Buf (Elt F) ((c : Thread nD τ).loc b) := fun c b => W3 m c b

/-- Leaving region 1: `main_v24_0`, `main_v24_1`, `main_v24_2` at what the pipeline leaves, every other buffer as entered. -/
def W4 (c : Dev nD) : Valuation τ sig (Elt F) :=
  Function.update (Function.update (Function.update (W3 m c) main_v24_0 ((dat1 (T3 m) c).arrAt 4 cfg1.N)) main_v24_1 ((dat1 (T3 m) c).arrAt 5 cfg1.N)) main_v24_2 ((dat1 (T3 m) c).arrAt 6 cfg1.N)
abbrev T4 : (c : Dev nD) → (b : Ref sig .tc) → Buf (Elt F) ((c : Thread nD τ).loc b) := fun c b => W4 m c b
/-- A buffer region 1 does not write is as entered. -/
theorem W4_of (c : Dev nD) (r : Ref sig .tc) (h0 : r ≠ main_v24_0) (h1 : r ≠ main_v24_1) (h2 : r ≠ main_v24_2) : W4 m c r = W3 m c r := by
  simp only [W4, Function.update_of_ne (StableHlo.devRef_ne_of_ne h0 : (Proc.devRef .tc r : DevRef τ sig) ≠ Proc.devRef .tc main_v24_0), Function.update_of_ne (StableHlo.devRef_ne_of_ne h1 : (Proc.devRef .tc r : DevRef τ sig) ≠ Proc.devRef .tc main_v24_1), Function.update_of_ne (StableHlo.devRef_ne_of_ne h2 : (Proc.devRef .tc r : DevRef τ sig) ≠ Proc.devRef .tc main_v24_2)]
theorem W4_at_0 (c : Dev nD) : W4 m c main_v24_0 = (dat1 (T3 m) c).arrAt 4 cfg1.N := by
  simp only [W4, Function.update_of_ne (StableHlo.devRef_ne_of_ne (by decide) : (Proc.devRef .tc main_v24_0 : DevRef τ sig) ≠ Proc.devRef .tc main_v24_1), Function.update_of_ne (StableHlo.devRef_ne_of_ne (by decide) : (Proc.devRef .tc main_v24_0 : DevRef τ sig) ≠ Proc.devRef .tc main_v24_2), Function.update_self]
theorem W4_at_1 (c : Dev nD) : W4 m c main_v24_1 = (dat1 (T3 m) c).arrAt 5 cfg1.N := by
  simp only [W4, Function.update_of_ne (StableHlo.devRef_ne_of_ne (by decide) : (Proc.devRef .tc main_v24_1 : DevRef τ sig) ≠ Proc.devRef .tc main_v24_2), Function.update_self]
theorem W4_at_2 (c : Dev nD) : W4 m c main_v24_2 = (dat1 (T3 m) c).arrAt 6 cfg1.N := by
  simp only [W4, Function.update_self]

/-- Entering region 2: after the host stretch `hostOps2`. -/
def W5 (c : Dev nD) : Valuation τ sig (Elt F) := StableHlo.after hostOps2 (W4 m c)
abbrev T5 : (c : Dev nD) → (b : Ref sig .tc) → Buf (Elt F) ((c : Thread nD τ).loc b) := fun c b => W5 m c b

/-- Leaving region 2: `main_v39` at what the pipeline leaves, every other buffer as entered. -/
def W6 (c : Dev nD) : Valuation τ sig (Elt F) :=
  Function.update (W5 m c) main_v39 ((dat2 (T5 m) c).arrAt 5 cfg2.N)
abbrev T6 : (c : Dev nD) → (b : Ref sig .tc) → Buf (Elt F) ((c : Thread nD τ).loc b) := fun c b => W6 m c b
/-- A buffer region 2 does not write is as entered. -/
theorem W6_of (c : Dev nD) (r : Ref sig .tc) (h0 : r ≠ main_v39) : W6 m c r = W5 m c r := by
  simp only [W6, Function.update_of_ne (StableHlo.devRef_ne_of_ne h0 : (Proc.devRef .tc r : DevRef τ sig) ≠ Proc.devRef .tc main_v39)]
theorem W6_at (c : Dev nD) : W6 m c main_v39 = (dat2 (T5 m) c).arrAt 5 cfg2.N := by
  simp only [W6, Function.update_self]

/-- Entering region 3: after the host stretch `hostOps3`. -/
def W7 (c : Dev nD) : Valuation τ sig (Elt F) := StableHlo.after hostOps3 (W6 m c)
abbrev T7 : (c : Dev nD) → (b : Ref sig .tc) → Buf (Elt F) ((c : Thread nD τ).loc b) := fun c b => W7 m c b

/-- Leaving region 3: `main_v55_0`, `main_v55_1`, `main_v55_2` at what the pipeline leaves, every other buffer as entered. -/
def W8 (c : Dev nD) : Valuation τ sig (Elt F) :=
  Function.update (Function.update (Function.update (W7 m c) main_v55_0 ((dat3 (T7 m) c).arrAt 5 cfg3.N)) main_v55_1 ((dat3 (T7 m) c).arrAt 6 cfg3.N)) main_v55_2 ((dat3 (T7 m) c).arrAt 7 cfg3.N)
abbrev T8 : (c : Dev nD) → (b : Ref sig .tc) → Buf (Elt F) ((c : Thread nD τ).loc b) := fun c b => W8 m c b
/-- A buffer region 3 does not write is as entered. -/
theorem W8_of (c : Dev nD) (r : Ref sig .tc) (h0 : r ≠ main_v55_0) (h1 : r ≠ main_v55_1) (h2 : r ≠ main_v55_2) : W8 m c r = W7 m c r := by
  simp only [W8, Function.update_of_ne (StableHlo.devRef_ne_of_ne h0 : (Proc.devRef .tc r : DevRef τ sig) ≠ Proc.devRef .tc main_v55_0), Function.update_of_ne (StableHlo.devRef_ne_of_ne h1 : (Proc.devRef .tc r : DevRef τ sig) ≠ Proc.devRef .tc main_v55_1), Function.update_of_ne (StableHlo.devRef_ne_of_ne h2 : (Proc.devRef .tc r : DevRef τ sig) ≠ Proc.devRef .tc main_v55_2)]
theorem W8_at_0 (c : Dev nD) : W8 m c main_v55_0 = (dat3 (T7 m) c).arrAt 5 cfg3.N := by
  simp only [W8, Function.update_of_ne (StableHlo.devRef_ne_of_ne (by decide) : (Proc.devRef .tc main_v55_0 : DevRef τ sig) ≠ Proc.devRef .tc main_v55_1), Function.update_of_ne (StableHlo.devRef_ne_of_ne (by decide) : (Proc.devRef .tc main_v55_0 : DevRef τ sig) ≠ Proc.devRef .tc main_v55_2), Function.update_self]
theorem W8_at_1 (c : Dev nD) : W8 m c main_v55_1 = (dat3 (T7 m) c).arrAt 6 cfg3.N := by
  simp only [W8, Function.update_of_ne (StableHlo.devRef_ne_of_ne (by decide) : (Proc.devRef .tc main_v55_1 : DevRef τ sig) ≠ Proc.devRef .tc main_v55_2), Function.update_self]
theorem W8_at_2 (c : Dev nD) : W8 m c main_v55_2 = (dat3 (T7 m) c).arrAt 7 cfg3.N := by
  simp only [W8, Function.update_self]

/-- Entering region 4: after the host stretch `hostOps4`. -/
def W9 (c : Dev nD) : Valuation τ sig (Elt F) := StableHlo.after hostOps4 (W8 m c)
abbrev T9 : (c : Dev nD) → (b : Ref sig .tc) → Buf (Elt F) ((c : Thread nD τ).loc b) := fun c b => W9 m c b

/-- Leaving region 4: `main_v83` at what the pipeline leaves, every other buffer as entered. -/
def W10 (c : Dev nD) : Valuation τ sig (Elt F) :=
  Function.update (W9 m c) main_v83 ((dat4 (T9 m) c).arrAt 5 cfg4.N)
abbrev T10 : (c : Dev nD) → (b : Ref sig .tc) → Buf (Elt F) ((c : Thread nD τ).loc b) := fun c b => W10 m c b
/-- A buffer region 4 does not write is as entered. -/
theorem W10_of (c : Dev nD) (r : Ref sig .tc) (h0 : r ≠ main_v83) : W10 m c r = W9 m c r := by
  simp only [W10, Function.update_of_ne (StableHlo.devRef_ne_of_ne h0 : (Proc.devRef .tc r : DevRef τ sig) ≠ Proc.devRef .tc main_v83)]
theorem W10_at (c : Dev nD) : W10 m c main_v83 = (dat4 (T9 m) c).arrAt 5 cfg4.N := by
  simp only [W10, Function.update_self]

/-- Entering region 5: after the host stretch `hostOps5`. -/
def W11 (c : Dev nD) : Valuation τ sig (Elt F) := StableHlo.after hostOps5 (W10 m c)
abbrev T11 : (c : Dev nD) → (b : Ref sig .tc) → Buf (Elt F) ((c : Thread nD τ).loc b) := fun c b => W11 m c b

/-- Leaving region 5: `main_v100_0`, `main_v100_1`, `main_v100_2` at what the pipeline leaves, every other buffer as entered. -/
def W12 (c : Dev nD) : Valuation τ sig (Elt F) :=
  Function.update (Function.update (Function.update (W11 m c) main_v100_0 ((dat5 (T11 m) c).arrAt 5 cfg5.N)) main_v100_1 ((dat5 (T11 m) c).arrAt 6 cfg5.N)) main_v100_2 ((dat5 (T11 m) c).arrAt 7 cfg5.N)
abbrev T12 : (c : Dev nD) → (b : Ref sig .tc) → Buf (Elt F) ((c : Thread nD τ).loc b) := fun c b => W12 m c b
/-- A buffer region 5 does not write is as entered. -/
theorem W12_of (c : Dev nD) (r : Ref sig .tc) (h0 : r ≠ main_v100_0) (h1 : r ≠ main_v100_1) (h2 : r ≠ main_v100_2) : W12 m c r = W11 m c r := by
  simp only [W12, Function.update_of_ne (StableHlo.devRef_ne_of_ne h0 : (Proc.devRef .tc r : DevRef τ sig) ≠ Proc.devRef .tc main_v100_0), Function.update_of_ne (StableHlo.devRef_ne_of_ne h1 : (Proc.devRef .tc r : DevRef τ sig) ≠ Proc.devRef .tc main_v100_1), Function.update_of_ne (StableHlo.devRef_ne_of_ne h2 : (Proc.devRef .tc r : DevRef τ sig) ≠ Proc.devRef .tc main_v100_2)]
theorem W12_at_0 (c : Dev nD) : W12 m c main_v100_0 = (dat5 (T11 m) c).arrAt 5 cfg5.N := by
  simp only [W12, Function.update_of_ne (StableHlo.devRef_ne_of_ne (by decide) : (Proc.devRef .tc main_v100_0 : DevRef τ sig) ≠ Proc.devRef .tc main_v100_1), Function.update_of_ne (StableHlo.devRef_ne_of_ne (by decide) : (Proc.devRef .tc main_v100_0 : DevRef τ sig) ≠ Proc.devRef .tc main_v100_2), Function.update_self]
theorem W12_at_1 (c : Dev nD) : W12 m c main_v100_1 = (dat5 (T11 m) c).arrAt 6 cfg5.N := by
  simp only [W12, Function.update_of_ne (StableHlo.devRef_ne_of_ne (by decide) : (Proc.devRef .tc main_v100_1 : DevRef τ sig) ≠ Proc.devRef .tc main_v100_2), Function.update_self]
theorem W12_at_2 (c : Dev nD) : W12 m c main_v100_2 = (dat5 (T11 m) c).arrAt 7 cfg5.N := by
  simp only [W12, Function.update_self]

/-- Entering region 6: after the host stretch `hostOps6`. -/
def W13 (c : Dev nD) : Valuation τ sig (Elt F) := StableHlo.after hostOps6 (W12 m c)
abbrev T13 : (c : Dev nD) → (b : Ref sig .tc) → Buf (Elt F) ((c : Thread nD τ).loc b) := fun c b => W13 m c b

/-- Leaving region 6: `main_v128` at what the pipeline leaves, every other buffer as entered. -/
def W14 (c : Dev nD) : Valuation τ sig (Elt F) :=
  Function.update (W13 m c) main_v128 ((dat6 (T13 m) c).arrAt 5 cfg6.N)
abbrev T14 : (c : Dev nD) → (b : Ref sig .tc) → Buf (Elt F) ((c : Thread nD τ).loc b) := fun c b => W14 m c b
/-- A buffer region 6 does not write is as entered. -/
theorem W14_of (c : Dev nD) (r : Ref sig .tc) (h0 : r ≠ main_v128) : W14 m c r = W13 m c r := by
  simp only [W14, Function.update_of_ne (StableHlo.devRef_ne_of_ne h0 : (Proc.devRef .tc r : DevRef τ sig) ≠ Proc.devRef .tc main_v128)]
theorem W14_at (c : Dev nD) : W14 m c main_v128 = (dat6 (T13 m) c).arrAt 5 cfg6.N := by
  simp only [W14, Function.update_self]

/-- Entering region 7: after the host stretch `hostOps7`. -/
def W15 (c : Dev nD) : Valuation τ sig (Elt F) := StableHlo.after hostOps7 (W14 m c)
abbrev T15 : (c : Dev nD) → (b : Ref sig .tc) → Buf (Elt F) ((c : Thread nD τ).loc b) := fun c b => W15 m c b

/-- Leaving region 7: `main_v145_0`, `main_v145_1`, `main_v145_2` at what the pipeline leaves, every other buffer as entered. -/
def W16 (c : Dev nD) : Valuation τ sig (Elt F) :=
  Function.update (Function.update (Function.update (W15 m c) main_v145_0 ((dat7 (T15 m) c).arrAt 5 cfg7.N)) main_v145_1 ((dat7 (T15 m) c).arrAt 6 cfg7.N)) main_v145_2 ((dat7 (T15 m) c).arrAt 7 cfg7.N)
abbrev T16 : (c : Dev nD) → (b : Ref sig .tc) → Buf (Elt F) ((c : Thread nD τ).loc b) := fun c b => W16 m c b
/-- A buffer region 7 does not write is as entered. -/
theorem W16_of (c : Dev nD) (r : Ref sig .tc) (h0 : r ≠ main_v145_0) (h1 : r ≠ main_v145_1) (h2 : r ≠ main_v145_2) : W16 m c r = W15 m c r := by
  simp only [W16, Function.update_of_ne (StableHlo.devRef_ne_of_ne h0 : (Proc.devRef .tc r : DevRef τ sig) ≠ Proc.devRef .tc main_v145_0), Function.update_of_ne (StableHlo.devRef_ne_of_ne h1 : (Proc.devRef .tc r : DevRef τ sig) ≠ Proc.devRef .tc main_v145_1), Function.update_of_ne (StableHlo.devRef_ne_of_ne h2 : (Proc.devRef .tc r : DevRef τ sig) ≠ Proc.devRef .tc main_v145_2)]
theorem W16_at_0 (c : Dev nD) : W16 m c main_v145_0 = (dat7 (T15 m) c).arrAt 5 cfg7.N := by
  simp only [W16, Function.update_of_ne (StableHlo.devRef_ne_of_ne (by decide) : (Proc.devRef .tc main_v145_0 : DevRef τ sig) ≠ Proc.devRef .tc main_v145_1), Function.update_of_ne (StableHlo.devRef_ne_of_ne (by decide) : (Proc.devRef .tc main_v145_0 : DevRef τ sig) ≠ Proc.devRef .tc main_v145_2), Function.update_self]
theorem W16_at_1 (c : Dev nD) : W16 m c main_v145_1 = (dat7 (T15 m) c).arrAt 6 cfg7.N := by
  simp only [W16, Function.update_of_ne (StableHlo.devRef_ne_of_ne (by decide) : (Proc.devRef .tc main_v145_1 : DevRef τ sig) ≠ Proc.devRef .tc main_v145_2), Function.update_self]
theorem W16_at_2 (c : Dev nD) : W16 m c main_v145_2 = (dat7 (T15 m) c).arrAt 7 cfg7.N := by
  simp only [W16, Function.update_self]

/-- Entering region 8: after the host stretch `hostOps8`. -/
def W17 (c : Dev nD) : Valuation τ sig (Elt F) := StableHlo.after hostOps8 (W16 m c)
abbrev T17 : (c : Dev nD) → (b : Ref sig .tc) → Buf (Elt F) ((c : Thread nD τ).loc b) := fun c b => W17 m c b

/-- Leaving region 8: `main_v173` at what the pipeline leaves, every other buffer as entered. -/
def W18 (c : Dev nD) : Valuation τ sig (Elt F) :=
  Function.update (W17 m c) main_v173 ((dat8 (T17 m) c).arrAt 5 cfg8.N)
abbrev T18 : (c : Dev nD) → (b : Ref sig .tc) → Buf (Elt F) ((c : Thread nD τ).loc b) := fun c b => W18 m c b
/-- A buffer region 8 does not write is as entered. -/
theorem W18_of (c : Dev nD) (r : Ref sig .tc) (h0 : r ≠ main_v173) : W18 m c r = W17 m c r := by
  simp only [W18, Function.update_of_ne (StableHlo.devRef_ne_of_ne h0 : (Proc.devRef .tc r : DevRef τ sig) ≠ Proc.devRef .tc main_v173)]
theorem W18_at (c : Dev nD) : W18 m c main_v173 = (dat8 (T17 m) c).arrAt 5 cfg8.N := by
  simp only [W18, Function.update_self]

/-- Entering region 9: after the host stretch `hostOps9`. -/
def W19 (c : Dev nD) : Valuation τ sig (Elt F) := StableHlo.after hostOps9 (W18 m c)
abbrev T19 : (c : Dev nD) → (b : Ref sig .tc) → Buf (Elt F) ((c : Thread nD τ).loc b) := fun c b => W19 m c b

/-- Leaving region 9: `main_v188` at what the pipeline leaves, every other buffer as entered. -/
def W20 (c : Dev nD) : Valuation τ sig (Elt F) :=
  Function.update (W19 m c) main_v188 ((dat9 (T19 m) c).arrAt 5 cfg9.N)
abbrev T20 : (c : Dev nD) → (b : Ref sig .tc) → Buf (Elt F) ((c : Thread nD τ).loc b) := fun c b => W20 m c b
/-- A buffer region 9 does not write is as entered. -/
theorem W20_of (c : Dev nD) (r : Ref sig .tc) (h0 : r ≠ main_v188) : W20 m c r = W19 m c r := by
  simp only [W20, Function.update_of_ne (StableHlo.devRef_ne_of_ne h0 : (Proc.devRef .tc r : DevRef τ sig) ≠ Proc.devRef .tc main_v188)]
theorem W20_at (c : Dev nD) : W20 m c main_v188 = (dat9 (T19 m) c).arrAt 5 cfg9.N := by
  simp only [W20, Function.update_self]

/-- What @main returns on core `c`: region 9's output array after its last grid point. -/
def RES (c : Dev nD) : Buf (Elt F) ((c : Thread nD τ).loc main_v188) := (dat9 (T19 m) c).arrAt 5 cfg9.N

/-- The regions' outputs as the generated valuations take them: `outs J r c` is `W J c` read at `r`. -/
def outs : Gen.Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | _ => W1 m c r

/-! ## The generated valuations at these outputs are the fold -/

theorem V1_eq (c : Dev nD) : Gen.V1 m c = W1 m c := rfl
theorem V2_eq (c : Dev nD) : Gen.V2 m (outs m) c = W2 m c := by
  have e : outs m 2 main_v8 c = W2 m c main_v8 := rfl
  unfold Gen.V2; rw [V1_eq m c, e, W2_at m c]; unfold W2; rfl
theorem V3_eq (c : Dev nD) : Gen.V3 m (outs m) c = W3 m c := by
  unfold Gen.V3 W3; rw [V2_eq m c]
theorem V4_eq (c : Dev nD) : Gen.V4 m (outs m) c = W4 m c := by
  have e0 : outs m 4 main_v24_0 c = W4 m c main_v24_0 := rfl
  have e1 : outs m 4 main_v24_1 c = W4 m c main_v24_1 := rfl
  have e2 : outs m 4 main_v24_2 c = W4 m c main_v24_2 := rfl
  unfold Gen.V4; rw [V3_eq m c, e0, e1, e2, W4_at_0 m c, W4_at_1 m c, W4_at_2 m c]; unfold W4; rfl
theorem V5_eq (c : Dev nD) : Gen.V5 m (outs m) c = W5 m c := by
  unfold Gen.V5 W5; rw [V4_eq m c]
theorem V6_eq (c : Dev nD) : Gen.V6 m (outs m) c = W6 m c := by
  have e : outs m 6 main_v39 c = W6 m c main_v39 := rfl
  unfold Gen.V6; rw [V5_eq m c, e, W6_at m c]; unfold W6; rfl
theorem V7_eq (c : Dev nD) : Gen.V7 m (outs m) c = W7 m c := by
  unfold Gen.V7 W7; rw [V6_eq m c]
theorem V8_eq (c : Dev nD) : Gen.V8 m (outs m) c = W8 m c := by
  have e0 : outs m 8 main_v55_0 c = W8 m c main_v55_0 := rfl
  have e1 : outs m 8 main_v55_1 c = W8 m c main_v55_1 := rfl
  have e2 : outs m 8 main_v55_2 c = W8 m c main_v55_2 := rfl
  unfold Gen.V8; rw [V7_eq m c, e0, e1, e2, W8_at_0 m c, W8_at_1 m c, W8_at_2 m c]; unfold W8; rfl
theorem V9_eq (c : Dev nD) : Gen.V9 m (outs m) c = W9 m c := by
  unfold Gen.V9 W9; rw [V8_eq m c]
theorem V10_eq (c : Dev nD) : Gen.V10 m (outs m) c = W10 m c := by
  have e : outs m 10 main_v83 c = W10 m c main_v83 := rfl
  unfold Gen.V10; rw [V9_eq m c, e, W10_at m c]; unfold W10; rfl
theorem V11_eq (c : Dev nD) : Gen.V11 m (outs m) c = W11 m c := by
  unfold Gen.V11 W11; rw [V10_eq m c]
theorem V12_eq (c : Dev nD) : Gen.V12 m (outs m) c = W12 m c := by
  have e0 : outs m 12 main_v100_0 c = W12 m c main_v100_0 := rfl
  have e1 : outs m 12 main_v100_1 c = W12 m c main_v100_1 := rfl
  have e2 : outs m 12 main_v100_2 c = W12 m c main_v100_2 := rfl
  unfold Gen.V12; rw [V11_eq m c, e0, e1, e2, W12_at_0 m c, W12_at_1 m c, W12_at_2 m c]; unfold W12; rfl
theorem V13_eq (c : Dev nD) : Gen.V13 m (outs m) c = W13 m c := by
  unfold Gen.V13 W13; rw [V12_eq m c]
theorem V14_eq (c : Dev nD) : Gen.V14 m (outs m) c = W14 m c := by
  have e : outs m 14 main_v128 c = W14 m c main_v128 := rfl
  unfold Gen.V14; rw [V13_eq m c, e, W14_at m c]; unfold W14; rfl
theorem V15_eq (c : Dev nD) : Gen.V15 m (outs m) c = W15 m c := by
  unfold Gen.V15 W15; rw [V14_eq m c]
theorem V16_eq (c : Dev nD) : Gen.V16 m (outs m) c = W16 m c := by
  have e0 : outs m 16 main_v145_0 c = W16 m c main_v145_0 := rfl
  have e1 : outs m 16 main_v145_1 c = W16 m c main_v145_1 := rfl
  have e2 : outs m 16 main_v145_2 c = W16 m c main_v145_2 := rfl
  unfold Gen.V16; rw [V15_eq m c, e0, e1, e2, W16_at_0 m c, W16_at_1 m c, W16_at_2 m c]; unfold W16; rfl
theorem V17_eq (c : Dev nD) : Gen.V17 m (outs m) c = W17 m c := by
  unfold Gen.V17 W17; rw [V16_eq m c]
theorem V18_eq (c : Dev nD) : Gen.V18 m (outs m) c = W18 m c := by
  have e : outs m 18 main_v173 c = W18 m c main_v173 := rfl
  unfold Gen.V18; rw [V17_eq m c, e, W18_at m c]; unfold W18; rfl
theorem V19_eq (c : Dev nD) : Gen.V19 m (outs m) c = W19 m c := by
  unfold Gen.V19 W19; rw [V18_eq m c]
theorem V20_eq (c : Dev nD) : Gen.V20 m (outs m) c = W20 m c := by
  have e : outs m 20 main_v188 c = W20 m c main_v188 := rfl
  unfold Gen.V20; rw [V19_eq m c, e, W20_at m c]; unfold W20; rfl

theorem V20_res (c : Dev nD) : Gen.V20 m (outs m) c main_v188 = RES m c := by
  rw [V20_eq m c]; exact W20_at m c

end Cert.KernelIdeal.Hand

end
-- ==== Proof.RunBase.lean ====
import proofs.«403053_j58033598104012_3_alg».proof.Proof.Fold
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The proof data family, and what rides beside the buffers -/

/-- Every region's proof data, each at the contents its region is entered from. -/
def pdats : (p : Fin 10) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c
  | ⟨7, _⟩ => fun c => dat7 (T15 m) c
  | ⟨8, _⟩ => fun c => dat8 (T17 m) c
  | ⟨9, _⟩ => fun c => dat9 (T19 m) c

/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

end Cert.KernelIdeal.Hand

end
-- ==== Proof.Reg0.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 0 -/

/-! At region 0's exit each of its arrays holds what the pipeline leaves: an input as entered (never written), an
    output its write-backs folded. Window by window, then for every window. -/
theorem hF0_0 (c : Dev nD) : (dat0 (T1 m) c).arrAt (0 : Fin 3) cfg0.N = T2 m c (Pipeline.arrRef spec0 (0 : Fin 3)) :=
  ((dat0 (T1 m) c).arrAt_in 0 rfl _).trans (W2_of m c (Pipeline.arrRef spec0 0) (by decide)).symm
theorem hF0_1 (c : Dev nD) : (dat0 (T1 m) c).arrAt (1 : Fin 3) cfg0.N = T2 m c (Pipeline.arrRef spec0 (1 : Fin 3)) :=
  ((dat0 (T1 m) c).arrAt_in 1 rfl _).trans (W2_of m c (Pipeline.arrRef spec0 1) (by decide)).symm
theorem hF0_2 (c : Dev nD) : (dat0 (T1 m) c).arrAt (2 : Fin 3) cfg0.N = T2 m c (Pipeline.arrRef spec0 (2 : Fin 3)) :=
  (W2_at m c).symm
theorem hF0 (c : Dev nD) (w : Fin 3) : (dat0 (T1 m) c).arrAt w cfg0.N = T2 m c (Pipeline.arrRef spec0 w) := by
  have h : w = 0 ∨ w = 1 ∨ w = 2 := by revert w; decide
  rcases h with rfl | rfl | rfl
  · exact hF0_0 m c
  · exact hF0_1 m c
  · exact hF0_2 m c
/-- and every other buffer what it held at entry. -/
theorem hrest0 (c : Dev nD) : ∀ b, b ∉ Finset.univ.image (Pipeline.arrRef spec0) → T2 m c b = T1 m c b :=
  fun b hb => W2_of m c b (fun e => hb (Finset.mem_image.mpr ⟨2, Finset.mem_univ _, e.symm⟩))

-- a library lemma stated over the pinned configuration unifies with the printed one only when unification may unfold
-- plain definitions in a metavariable's type
set_option backward.isDefEq.respectTransparency.types false in
/-- REGION 0 over the thread state: entered from every unscoped buffer at `W1`, left at `W2`. Its arrays are
    split out of the unscoped buffers and put back at the exit contents; the generator register and the scoped buffers into the invariant and out;
    nothing owed; no semaphore of the kernel's own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Φ_eq0 (T1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Φ_eq0 (T1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 0 is the record's, -/
theorem hpre0 (c : Dev nD) : iprop(StableHlo.held (c : Thread nD τ) (Pipeline.ucRefs τ sig) (Gen.V1 m c) ∗ R (F := F) c) ⊢ (reg0 m).pre c := by
  rw [V1_eq m c]; exact .rfl
/-- and the record's after it the generated one. -/
theorem hpost0 (c : Dev nD) : (reg0 m).post c ⊢ iprop(StableHlo.held (c : Thread nD τ) (Pipeline.ucRefs τ sig) (Gen.V2 m (outs m) c) ∗ R (F := F) c) := by
  rw [V2_eq m c]; exact .rfl

end Cert.KernelIdeal.Hand

end
-- ==== Proof.Reg1.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 1 -/

/-! At region 1's exit each of its arrays holds what the pipeline leaves: an input as entered (never written), an
    output its write-backs folded. Window by window, then for every window. -/
theorem hF1_0 (c : Dev nD) : (dat1 (T3 m) c).arrAt (0 : Fin 7) cfg1.N = T4 m c (Pipeline.arrRef spec1 (0 : Fin 7)) :=
  ((dat1 (T3 m) c).arrAt_in 0 rfl _).trans (W4_of m c (Pipeline.arrRef spec1 0) (by decide) (by decide) (by decide)).symm
theorem hF1_1 (c : Dev nD) : (dat1 (T3 m) c).arrAt (1 : Fin 7) cfg1.N = T4 m c (Pipeline.arrRef spec1 (1 : Fin 7)) :=
  ((dat1 (T3 m) c).arrAt_in 1 rfl _).trans (W4_of m c (Pipeline.arrRef spec1 1) (by decide) (by decide) (by decide)).symm
theorem hF1_2 (c : Dev nD) : (dat1 (T3 m) c).arrAt (2 : Fin 7) cfg1.N = T4 m c (Pipeline.arrRef spec1 (2 : Fin 7)) :=
  ((dat1 (T3 m) c).arrAt_in 2 rfl _).trans (W4_of m c (Pipeline.arrRef spec1 2) (by decide) (by decide) (by decide)).symm
theorem hF1_3 (c : Dev nD) : (dat1 (T3 m) c).arrAt (3 : Fin 7) cfg1.N = T4 m c (Pipeline.arrRef spec1 (3 : Fin 7)) :=
  ((dat1 (T3 m) c).arrAt_in 3 rfl _).trans (W4_of m c (Pipeline.arrRef spec1 3) (by decide) (by decide) (by decide)).symm
theorem hF1_4 (c : Dev nD) : (dat1 (T3 m) c).arrAt (4 : Fin 7) cfg1.N = T4 m c (Pipeline.arrRef spec1 (4 : Fin 7)) :=
  (W4_at_0 m c).symm
theorem hF1_5 (c : Dev nD) : (dat1 (T3 m) c).arrAt (5 : Fin 7) cfg1.N = T4 m c (Pipeline.arrRef spec1 (5 : Fin 7)) :=
  (W4_at_1 m c).symm
theorem hF1_6 (c : Dev nD) : (dat1 (T3 m) c).arrAt (6 : Fin 7) cfg1.N = T4 m c (Pipeline.arrRef spec1 (6 : Fin 7)) :=
  (W4_at_2 m c).symm
theorem hF1 (c : Dev nD) (w : Fin 7) : (dat1 (T3 m) c).arrAt w cfg1.N = T4 m c (Pipeline.arrRef spec1 w) := by
  have h : w = 0 ∨ w = 1 ∨ w = 2 ∨ w = 3 ∨ w = 4 ∨ w = 5 ∨ w = 6 := by revert w; decide
  rcases h with rfl | rfl | rfl | rfl | rfl | rfl | rfl
  · exact hF1_0 m c
  · exact hF1_1 m c
  · exact hF1_2 m c
  · exact hF1_3 m c
  · exact hF1_4 m c
  · exact hF1_5 m c
  · exact hF1_6 m c
/-- and every other buffer what it held at entry. -/
theorem hrest1 (c : Dev nD) : ∀ b, b ∉ Finset.univ.image (Pipeline.arrRef spec1) → T4 m c b = T3 m c b :=
  fun b hb => W4_of m c b (fun e => hb (Finset.mem_image.mpr ⟨4, Finset.mem_univ _, e.symm⟩)) (fun e => hb (Finset.mem_image.mpr ⟨5, Finset.mem_univ _, e.symm⟩)) (fun e => hb (Finset.mem_image.mpr ⟨6, Finset.mem_univ _, e.symm⟩))

-- a library lemma stated over the pinned configuration unifies with the printed one only when unification may unfold
-- plain definitions in a metavariable's type
set_option backward.isDefEq.respectTransparency.types false in
/-- REGION 1 over the thread state: entered from every unscoped buffer at `W3`, left at `W4`. Its arrays are
    split out of the unscoped buffers and put back at the exit contents; the generator register and the scoped buffers (the two accumulators among them) into the invariant and out;
    nothing owed; no semaphore of the kernel's own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_zero (T3 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (T3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 1 is the record's, -/
theorem hpre1 (c : Dev nD) : iprop(StableHlo.held (c : Thread nD τ) (Pipeline.ucRefs τ sig) (Gen.V3 m (outs m) c) ∗ R (F := F) c) ⊢ (reg1 m).pre c := by
  rw [V3_eq m c]; exact .rfl
/-- and the record's after it the generated one. -/
theorem hpost1 (c : Dev nD) : (reg1 m).post c ⊢ iprop(StableHlo.held (c : Thread nD τ) (Pipeline.ucRefs τ sig) (Gen.V4 m (outs m) c) ∗ R (F := F) c) := by
  rw [V4_eq m c]; exact .rfl

end Cert.KernelIdeal.Hand

end
-- ==== Proof.Reg2.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 2 -/

/-! At region 2's exit each of its arrays holds what the pipeline leaves: an input as entered (never written), an
    output its write-backs folded. Window by window, then for every window. -/
theorem hF2_0 (c : Dev nD) : (dat2 (T5 m) c).arrAt (0 : Fin 6) cfg2.N = T6 m c (Pipeline.arrRef spec2 (0 : Fin 6)) :=
  ((dat2 (T5 m) c).arrAt_in 0 rfl _).trans (W6_of m c (Pipeline.arrRef spec2 0) (by decide)).symm
theorem hF2_1 (c : Dev nD) : (dat2 (T5 m) c).arrAt (1 : Fin 6) cfg2.N = T6 m c (Pipeline.arrRef spec2 (1 : Fin 6)) :=
  ((dat2 (T5 m) c).arrAt_in 1 rfl _).trans (W6_of m c (Pipeline.arrRef spec2 1) (by decide)).symm
theorem hF2_2 (c : Dev nD) : (dat2 (T5 m) c).arrAt (2 : Fin 6) cfg2.N = T6 m c (Pipeline.arrRef spec2 (2 : Fin 6)) :=
  ((dat2 (T5 m) c).arrAt_in 2 rfl _).trans (W6_of m c (Pipeline.arrRef spec2 2) (by decide)).symm
theorem hF2_3 (c : Dev nD) : (dat2 (T5 m) c).arrAt (3 : Fin 6) cfg2.N = T6 m c (Pipeline.arrRef spec2 (3 : Fin 6)) :=
  ((dat2 (T5 m) c).arrAt_in 3 rfl _).trans (W6_of m c (Pipeline.arrRef spec2 3) (by decide)).symm
theorem hF2_4 (c : Dev nD) : (dat2 (T5 m) c).arrAt (4 : Fin 6) cfg2.N = T6 m c (Pipeline.arrRef spec2 (4 : Fin 6)) :=
  ((dat2 (T5 m) c).arrAt_in 4 rfl _).trans (W6_of m c (Pipeline.arrRef spec2 4) (by decide)).symm
theorem hF2_5 (c : Dev nD) : (dat2 (T5 m) c).arrAt (5 : Fin 6) cfg2.N = T6 m c (Pipeline.arrRef spec2 (5 : Fin 6)) :=
  (W6_at m c).symm
theorem hF2 (c : Dev nD) (w : Fin 6) : (dat2 (T5 m) c).arrAt w cfg2.N = T6 m c (Pipeline.arrRef spec2 w) := by
  have h : w = 0 ∨ w = 1 ∨ w = 2 ∨ w = 3 ∨ w = 4 ∨ w = 5 := by revert w; decide
  rcases h with rfl | rfl | rfl | rfl | rfl | rfl
  · exact hF2_0 m c
  · exact hF2_1 m c
  · exact hF2_2 m c
  · exact hF2_3 m c
  · exact hF2_4 m c
  · exact hF2_5 m c
/-- and every other buffer what it held at entry. -/
theorem hrest2 (c : Dev nD) : ∀ b, b ∉ Finset.univ.image (Pipeline.arrRef spec2) → T6 m c b = T5 m c b :=
  fun b hb => W6_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 2 over the thread state: entered from every unscoped buffer at `W5`, left at `W6`. Its arrays are
    split out of the unscoped buffers and put back at the exit contents; the generator register and the scoped buffers into the invariant and out;
    nothing owed; no semaphore of the kernel's own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Φ_eq2 (T5 m) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Φ_eq2 (T5 m) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 2 is the record's, -/
theorem hpre2 (c : Dev nD) : iprop(StableHlo.held (c : Thread nD τ) (Pipeline.ucRefs τ sig) (Gen.V5 m (outs m) c) ∗ R (F := F) c) ⊢ (reg2 m).pre c := by
  rw [V5_eq m c]; exact .rfl
/-- and the record's after it the generated one. -/
theorem hpost2 (c : Dev nD) : (reg2 m).post c ⊢ iprop(StableHlo.held (c : Thread nD τ) (Pipeline.ucRefs τ sig) (Gen.V6 m (outs m) c) ∗ R (F := F) c) := by
  rw [V6_eq m c]; exact .rfl

end Cert.KernelIdeal.Hand

end
-- ==== Proof.Reg3.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 3 -/

/-! At region 3's exit each of its arrays holds what the pipeline leaves: an input as entered (never written), an
    output its write-backs folded. Window by window, then for every window. -/
theorem hF3_0 (c : Dev nD) : (dat3 (T7 m) c).arrAt (0 : Fin 8) cfg3.N = T8 m c (Pipeline.arrRef spec3 (0 : Fin 8)) :=
  ((dat3 (T7 m) c).arrAt_in 0 rfl _).trans (W8_of m c (Pipeline.arrRef spec3 0) (by decide) (by decide) (by decide)).symm
theorem hF3_1 (c : Dev nD) : (dat3 (T7 m) c).arrAt (1 : Fin 8) cfg3.N = T8 m c (Pipeline.arrRef spec3 (1 : Fin 8)) :=
  ((dat3 (T7 m) c).arrAt_in 1 rfl _).trans (W8_of m c (Pipeline.arrRef spec3 1) (by decide) (by decide) (by decide)).symm
theorem hF3_2 (c : Dev nD) : (dat3 (T7 m) c).arrAt (2 : Fin 8) cfg3.N = T8 m c (Pipeline.arrRef spec3 (2 : Fin 8)) :=
  ((dat3 (T7 m) c).arrAt_in 2 rfl _).trans (W8_of m c (Pipeline.arrRef spec3 2) (by decide) (by decide) (by decide)).symm
theorem hF3_3 (c : Dev nD) : (dat3 (T7 m) c).arrAt (3 : Fin 8) cfg3.N = T8 m c (Pipeline.arrRef spec3 (3 : Fin 8)) :=
  ((dat3 (T7 m) c).arrAt_in 3 rfl _).trans (W8_of m c (Pipeline.arrRef spec3 3) (by decide) (by decide) (by decide)).symm
theorem hF3_4 (c : Dev nD) : (dat3 (T7 m) c).arrAt (4 : Fin 8) cfg3.N = T8 m c (Pipeline.arrRef spec3 (4 : Fin 8)) :=
  ((dat3 (T7 m) c).arrAt_in 4 rfl _).trans (W8_of m c (Pipeline.arrRef spec3 4) (by decide) (by decide) (by decide)).symm
theorem hF3_5 (c : Dev nD) : (dat3 (T7 m) c).arrAt (5 : Fin 8) cfg3.N = T8 m c (Pipeline.arrRef spec3 (5 : Fin 8)) :=
  (W8_at_0 m c).symm
theorem hF3_6 (c : Dev nD) : (dat3 (T7 m) c).arrAt (6 : Fin 8) cfg3.N = T8 m c (Pipeline.arrRef spec3 (6 : Fin 8)) :=
  (W8_at_1 m c).symm
theorem hF3_7 (c : Dev nD) : (dat3 (T7 m) c).arrAt (7 : Fin 8) cfg3.N = T8 m c (Pipeline.arrRef spec3 (7 : Fin 8)) :=
  (W8_at_2 m c).symm
theorem hF3 (c : Dev nD) (w : Fin 8) : (dat3 (T7 m) c).arrAt w cfg3.N = T8 m c (Pipeline.arrRef spec3 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact hF3_0 m c
  · exact hF3_1 m c
  · exact hF3_2 m c
  · exact hF3_3 m c
  · exact hF3_4 m c
  · exact hF3_5 m c
  · exact hF3_6 m c
  · exact hF3_7 m c
/-- and every other buffer what it held at entry. -/
theorem hrest3 (c : Dev nD) : ∀ b, b ∉ Finset.univ.image (Pipeline.arrRef spec3) → T8 m c b = T7 m c b :=
  fun b hb => W8_of m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

-- a library lemma stated over the pinned configuration unifies with the printed one only when unification may unfold
-- plain definitions in a metavariable's type
set_option backward.isDefEq.respectTransparency.types false in
/-- REGION 3 over the thread state: entered from every unscoped buffer at `W7`, left at `W8`. Its arrays are
    split out of the unscoped buffers and put back at the exit contents; the generator register and the scoped buffers (the two accumulators among them) into the invariant and out;
    nothing owed; no semaphore of the kernel's own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_zero (T7 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Phi3_last (T7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 3 is the record's, -/
theorem hpre3 (c : Dev nD) : iprop(StableHlo.held (c : Thread nD τ) (Pipeline.ucRefs τ sig) (Gen.V7 m (outs m) c) ∗ R (F := F) c) ⊢ (reg3 m).pre c := by
  rw [V7_eq m c]; exact .rfl
/-- and the record's after it the generated one. -/
theorem hpost3 (c : Dev nD) : (reg3 m).post c ⊢ iprop(StableHlo.held (c : Thread nD τ) (Pipeline.ucRefs τ sig) (Gen.V8 m (outs m) c) ∗ R (F := F) c) := by
  rw [V8_eq m c]; exact .rfl

end Cert.KernelIdeal.Hand

end
-- ==== Proof.Reg4.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 4 -/

/-! At region 4's exit each of its arrays holds what the pipeline leaves: an input as entered (never written), an
    output its write-backs folded. Window by window, then for every window. -/
theorem hF4_0 (c : Dev nD) : (dat4 (T9 m) c).arrAt (0 : Fin 6) cfg4.N = T10 m c (Pipeline.arrRef spec4 (0 : Fin 6)) :=
  ((dat4 (T9 m) c).arrAt_in 0 rfl _).trans (W10_of m c (Pipeline.arrRef spec4 0) (by decide)).symm
theorem hF4_1 (c : Dev nD) : (dat4 (T9 m) c).arrAt (1 : Fin 6) cfg4.N = T10 m c (Pipeline.arrRef spec4 (1 : Fin 6)) :=
  ((dat4 (T9 m) c).arrAt_in 1 rfl _).trans (W10_of m c (Pipeline.arrRef spec4 1) (by decide)).symm
theorem hF4_2 (c : Dev nD) : (dat4 (T9 m) c).arrAt (2 : Fin 6) cfg4.N = T10 m c (Pipeline.arrRef spec4 (2 : Fin 6)) :=
  ((dat4 (T9 m) c).arrAt_in 2 rfl _).trans (W10_of m c (Pipeline.arrRef spec4 2) (by decide)).symm
theorem hF4_3 (c : Dev nD) : (dat4 (T9 m) c).arrAt (3 : Fin 6) cfg4.N = T10 m c (Pipeline.arrRef spec4 (3 : Fin 6)) :=
  ((dat4 (T9 m) c).arrAt_in 3 rfl _).trans (W10_of m c (Pipeline.arrRef spec4 3) (by decide)).symm
theorem hF4_4 (c : Dev nD) : (dat4 (T9 m) c).arrAt (4 : Fin 6) cfg4.N = T10 m c (Pipeline.arrRef spec4 (4 : Fin 6)) :=
  ((dat4 (T9 m) c).arrAt_in 4 rfl _).trans (W10_of m c (Pipeline.arrRef spec4 4) (by decide)).symm
theorem hF4_5 (c : Dev nD) : (dat4 (T9 m) c).arrAt (5 : Fin 6) cfg4.N = T10 m c (Pipeline.arrRef spec4 (5 : Fin 6)) :=
  (W10_at m c).symm
theorem hF4 (c : Dev nD) (w : Fin 6) : (dat4 (T9 m) c).arrAt w cfg4.N = T10 m c (Pipeline.arrRef spec4 w) := by
  have h : w = 0 ∨ w = 1 ∨ w = 2 ∨ w = 3 ∨ w = 4 ∨ w = 5 := by revert w; decide
  rcases h with rfl | rfl | rfl | rfl | rfl | rfl
  · exact hF4_0 m c
  · exact hF4_1 m c
  · exact hF4_2 m c
  · exact hF4_3 m c
  · exact hF4_4 m c
  · exact hF4_5 m c
/-- and every other buffer what it held at entry. -/
theorem hrest4 (c : Dev nD) : ∀ b, b ∉ Finset.univ.image (Pipeline.arrRef spec4) → T10 m c b = T9 m c b :=
  fun b hb => W10_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 4 over the thread state: entered from every unscoped buffer at `W9`, left at `W10`. Its arrays are
    split out of the unscoped buffers and put back at the exit contents; the generator register and the scoped buffers into the invariant and out;
    nothing owed; no semaphore of the kernel's own. -/
def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Φ_eq4 (T9 m) c 0]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from Φ_eq4 (T9 m) c _]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 4 is the record's, -/
theorem hpre4 (c : Dev nD) : iprop(StableHlo.held (c : Thread nD τ) (Pipeline.ucRefs τ sig) (Gen.V9 m (outs m) c) ∗ R (F := F) c) ⊢ (reg4 m).pre c := by
  rw [V9_eq m c]; exact .rfl
/-- and the record's after it the generated one. -/
theorem hpost4 (c : Dev nD) : (reg4 m).post c ⊢ iprop(StableHlo.held (c : Thread nD τ) (Pipeline.ucRefs τ sig) (Gen.V10 m (outs m) c) ∗ R (F := F) c) := by
  rw [V10_eq m c]; exact .rfl

end Cert.KernelIdeal.Hand

end
-- ==== Proof.Reg5.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 5 -/

/-! At region 5's exit each of its arrays holds what the pipeline leaves: an input as entered (never written), an
    output its write-backs folded. Window by window, then for every window. -/
theorem hF5_0 (c : Dev nD) : (dat5 (T11 m) c).arrAt (0 : Fin 8) cfg5.N = T12 m c (Pipeline.arrRef spec5 (0 : Fin 8)) :=
  ((dat5 (T11 m) c).arrAt_in 0 rfl _).trans (W12_of m c (Pipeline.arrRef spec5 0) (by decide) (by decide) (by decide)).symm
theorem hF5_1 (c : Dev nD) : (dat5 (T11 m) c).arrAt (1 : Fin 8) cfg5.N = T12 m c (Pipeline.arrRef spec5 (1 : Fin 8)) :=
  ((dat5 (T11 m) c).arrAt_in 1 rfl _).trans (W12_of m c (Pipeline.arrRef spec5 1) (by decide) (by decide) (by decide)).symm
theorem hF5_2 (c : Dev nD) : (dat5 (T11 m) c).arrAt (2 : Fin 8) cfg5.N = T12 m c (Pipeline.arrRef spec5 (2 : Fin 8)) :=
  ((dat5 (T11 m) c).arrAt_in 2 rfl _).trans (W12_of m c (Pipeline.arrRef spec5 2) (by decide) (by decide) (by decide)).symm
theorem hF5_3 (c : Dev nD) : (dat5 (T11 m) c).arrAt (3 : Fin 8) cfg5.N = T12 m c (Pipeline.arrRef spec5 (3 : Fin 8)) :=
  ((dat5 (T11 m) c).arrAt_in 3 rfl _).trans (W12_of m c (Pipeline.arrRef spec5 3) (by decide) (by decide) (by decide)).symm
theorem hF5_4 (c : Dev nD) : (dat5 (T11 m) c).arrAt (4 : Fin 8) cfg5.N = T12 m c (Pipeline.arrRef spec5 (4 : Fin 8)) :=
  ((dat5 (T11 m) c).arrAt_in 4 rfl _).trans (W12_of m c (Pipeline.arrRef spec5 4) (by decide) (by decide) (by decide)).symm
theorem hF5_5 (c : Dev nD) : (dat5 (T11 m) c).arrAt (5 : Fin 8) cfg5.N = T12 m c (Pipeline.arrRef spec5 (5 : Fin 8)) :=
  (W12_at_0 m c).symm
theorem hF5_6 (c : Dev nD) : (dat5 (T11 m) c).arrAt (6 : Fin 8) cfg5.N = T12 m c (Pipeline.arrRef spec5 (6 : Fin 8)) :=
  (W12_at_1 m c).symm
theorem hF5_7 (c : Dev nD) : (dat5 (T11 m) c).arrAt (7 : Fin 8) cfg5.N = T12 m c (Pipeline.arrRef spec5 (7 : Fin 8)) :=
  (W12_at_2 m c).symm
theorem hF5 (c : Dev nD) (w : Fin 8) : (dat5 (T11 m) c).arrAt w cfg5.N = T12 m c (Pipeline.arrRef spec5 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact hF5_0 m c
  · exact hF5_1 m c
  · exact hF5_2 m c
  · exact hF5_3 m c
  · exact hF5_4 m c
  · exact hF5_5 m c
  · exact hF5_6 m c
  · exact hF5_7 m c
/-- and every other buffer what it held at entry. -/
theorem hrest5 (c : Dev nD) : ∀ b, b ∉ Finset.univ.image (Pipeline.arrRef spec5) → T12 m c b = T11 m c b :=
  fun b hb => W12_of m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

-- a library lemma stated over the pinned configuration unifies with the printed one only when unification may unfold
-- plain definitions in a metavariable's type
set_option backward.isDefEq.respectTransparency.types false in
/-- REGION 5 over the thread state: entered from every unscoped buffer at `W11`, left at `W12`. Its arrays are
    split out of the unscoped buffers and put back at the exit contents; the generator register and the scoped buffers (the two accumulators among them) into the invariant and out;
    nothing owed; no semaphore of the kernel's own. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi5_zero (T11 m) c]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from Phi5_last (T11 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T11 m c) (T12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 5 is the record's, -/
theorem hpre5 (c : Dev nD) : iprop(StableHlo.held (c : Thread nD τ) (Pipeline.ucRefs τ sig) (Gen.V11 m (outs m) c) ∗ R (F := F) c) ⊢ (reg5 m).pre c := by
  rw [V11_eq m c]; exact .rfl
/-- and the record's after it the generated one. -/
theorem hpost5 (c : Dev nD) : (reg5 m).post c ⊢ iprop(StableHlo.held (c : Thread nD τ) (Pipeline.ucRefs τ sig) (Gen.V12 m (outs m) c) ∗ R (F := F) c) := by
  rw [V12_eq m c]; exact .rfl

end Cert.KernelIdeal.Hand

end
-- ==== Proof.Reg6.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 6 -/

/-! At region 6's exit each of its arrays holds what the pipeline leaves: an input as entered (never written), an
    output its write-backs folded. Window by window, then for every window. -/
theorem hF6_0 (c : Dev nD) : (dat6 (T13 m) c).arrAt (0 : Fin 6) cfg6.N = T14 m c (Pipeline.arrRef spec6 (0 : Fin 6)) :=
  ((dat6 (T13 m) c).arrAt_in 0 rfl _).trans (W14_of m c (Pipeline.arrRef spec6 0) (by decide)).symm
theorem hF6_1 (c : Dev nD) : (dat6 (T13 m) c).arrAt (1 : Fin 6) cfg6.N = T14 m c (Pipeline.arrRef spec6 (1 : Fin 6)) :=
  ((dat6 (T13 m) c).arrAt_in 1 rfl _).trans (W14_of m c (Pipeline.arrRef spec6 1) (by decide)).symm
theorem hF6_2 (c : Dev nD) : (dat6 (T13 m) c).arrAt (2 : Fin 6) cfg6.N = T14 m c (Pipeline.arrRef spec6 (2 : Fin 6)) :=
  ((dat6 (T13 m) c).arrAt_in 2 rfl _).trans (W14_of m c (Pipeline.arrRef spec6 2) (by decide)).symm
theorem hF6_3 (c : Dev nD) : (dat6 (T13 m) c).arrAt (3 : Fin 6) cfg6.N = T14 m c (Pipeline.arrRef spec6 (3 : Fin 6)) :=
  ((dat6 (T13 m) c).arrAt_in 3 rfl _).trans (W14_of m c (Pipeline.arrRef spec6 3) (by decide)).symm
theorem hF6_4 (c : Dev nD) : (dat6 (T13 m) c).arrAt (4 : Fin 6) cfg6.N = T14 m c (Pipeline.arrRef spec6 (4 : Fin 6)) :=
  ((dat6 (T13 m) c).arrAt_in 4 rfl _).trans (W14_of m c (Pipeline.arrRef spec6 4) (by decide)).symm
theorem hF6_5 (c : Dev nD) : (dat6 (T13 m) c).arrAt (5 : Fin 6) cfg6.N = T14 m c (Pipeline.arrRef spec6 (5 : Fin 6)) :=
  (W14_at m c).symm
theorem hF6 (c : Dev nD) (w : Fin 6) : (dat6 (T13 m) c).arrAt w cfg6.N = T14 m c (Pipeline.arrRef spec6 w) := by
  have h : w = 0 ∨ w = 1 ∨ w = 2 ∨ w = 3 ∨ w = 4 ∨ w = 5 := by revert w; decide
  rcases h with rfl | rfl | rfl | rfl | rfl | rfl
  · exact hF6_0 m c
  · exact hF6_1 m c
  · exact hF6_2 m c
  · exact hF6_3 m c
  · exact hF6_4 m c
  · exact hF6_5 m c
/-- and every other buffer what it held at entry. -/
theorem hrest6 (c : Dev nD) : ∀ b, b ∉ Finset.univ.image (Pipeline.arrRef spec6) → T14 m c b = T13 m c b :=
  fun b hb => W14_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 6 over the thread state: entered from every unscoped buffer at `W13`, left at `W14`. Its arrays are
    split out of the unscoped buffers and put back at the exit contents; the generator register and the scoped buffers into the invariant and out;
    nothing owed; no semaphore of the kernel's own. -/
def reg6 : RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (T13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Φ_eq6 (T13 m) c 0]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from Φ_eq6 (T13 m) c _]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T13 m c) (T14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 6 is the record's, -/
theorem hpre6 (c : Dev nD) : iprop(StableHlo.held (c : Thread nD τ) (Pipeline.ucRefs τ sig) (Gen.V13 m (outs m) c) ∗ R (F := F) c) ⊢ (reg6 m).pre c := by
  rw [V13_eq m c]; exact .rfl
/-- and the record's after it the generated one. -/
theorem hpost6 (c : Dev nD) : (reg6 m).post c ⊢ iprop(StableHlo.held (c : Thread nD τ) (Pipeline.ucRefs τ sig) (Gen.V14 m (outs m) c) ∗ R (F := F) c) := by
  rw [V14_eq m c]; exact .rfl

end Cert.KernelIdeal.Hand

end
-- ==== Proof.Reg7.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 7 -/

/-! At region 7's exit each of its arrays holds what the pipeline leaves: an input as entered (never written), an
    output its write-backs folded. Window by window, then for every window. -/
theorem hF7_0 (c : Dev nD) : (dat7 (T15 m) c).arrAt (0 : Fin 8) cfg7.N = T16 m c (Pipeline.arrRef spec7 (0 : Fin 8)) :=
  ((dat7 (T15 m) c).arrAt_in 0 rfl _).trans (W16_of m c (Pipeline.arrRef spec7 0) (by decide) (by decide) (by decide)).symm
theorem hF7_1 (c : Dev nD) : (dat7 (T15 m) c).arrAt (1 : Fin 8) cfg7.N = T16 m c (Pipeline.arrRef spec7 (1 : Fin 8)) :=
  ((dat7 (T15 m) c).arrAt_in 1 rfl _).trans (W16_of m c (Pipeline.arrRef spec7 1) (by decide) (by decide) (by decide)).symm
theorem hF7_2 (c : Dev nD) : (dat7 (T15 m) c).arrAt (2 : Fin 8) cfg7.N = T16 m c (Pipeline.arrRef spec7 (2 : Fin 8)) :=
  ((dat7 (T15 m) c).arrAt_in 2 rfl _).trans (W16_of m c (Pipeline.arrRef spec7 2) (by decide) (by decide) (by decide)).symm
theorem hF7_3 (c : Dev nD) : (dat7 (T15 m) c).arrAt (3 : Fin 8) cfg7.N = T16 m c (Pipeline.arrRef spec7 (3 : Fin 8)) :=
  ((dat7 (T15 m) c).arrAt_in 3 rfl _).trans (W16_of m c (Pipeline.arrRef spec7 3) (by decide) (by decide) (by decide)).symm
theorem hF7_4 (c : Dev nD) : (dat7 (T15 m) c).arrAt (4 : Fin 8) cfg7.N = T16 m c (Pipeline.arrRef spec7 (4 : Fin 8)) :=
  ((dat7 (T15 m) c).arrAt_in 4 rfl _).trans (W16_of m c (Pipeline.arrRef spec7 4) (by decide) (by decide) (by decide)).symm
theorem hF7_5 (c : Dev nD) : (dat7 (T15 m) c).arrAt (5 : Fin 8) cfg7.N = T16 m c (Pipeline.arrRef spec7 (5 : Fin 8)) :=
  (W16_at_0 m c).symm
theorem hF7_6 (c : Dev nD) : (dat7 (T15 m) c).arrAt (6 : Fin 8) cfg7.N = T16 m c (Pipeline.arrRef spec7 (6 : Fin 8)) :=
  (W16_at_1 m c).symm
theorem hF7_7 (c : Dev nD) : (dat7 (T15 m) c).arrAt (7 : Fin 8) cfg7.N = T16 m c (Pipeline.arrRef spec7 (7 : Fin 8)) :=
  (W16_at_2 m c).symm
theorem hF7 (c : Dev nD) (w : Fin 8) : (dat7 (T15 m) c).arrAt w cfg7.N = T16 m c (Pipeline.arrRef spec7 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact hF7_0 m c
  · exact hF7_1 m c
  · exact hF7_2 m c
  · exact hF7_3 m c
  · exact hF7_4 m c
  · exact hF7_5 m c
  · exact hF7_6 m c
  · exact hF7_7 m c
/-- and every other buffer what it held at entry. -/
theorem hrest7 (c : Dev nD) : ∀ b, b ∉ Finset.univ.image (Pipeline.arrRef spec7) → T16 m c b = T15 m c b :=
  fun b hb => W16_of m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

-- a library lemma stated over the pinned configuration unifies with the printed one only when unification may unfold
-- plain definitions in a metavariable's type
set_option backward.isDefEq.respectTransparency.types false in
/-- REGION 7 over the thread state: entered from every unscoped buffer at `W15`, left at `W16`. Its arrays are
    split out of the unscoped buffers and put back at the exit contents; the generator register and the scoped buffers (the two accumulators among them) into the invariant and out;
    nothing owed; no semaphore of the kernel's own. -/
def reg7 : RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (T15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (T15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi7_zero (T15 m) c]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from Phi7_last (T15 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T15 m c) (T16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 7 is the record's, -/
theorem hpre7 (c : Dev nD) : iprop(StableHlo.held (c : Thread nD τ) (Pipeline.ucRefs τ sig) (Gen.V15 m (outs m) c) ∗ R (F := F) c) ⊢ (reg7 m).pre c := by
  rw [V15_eq m c]; exact .rfl
/-- and the record's after it the generated one. -/
theorem hpost7 (c : Dev nD) : (reg7 m).post c ⊢ iprop(StableHlo.held (c : Thread nD τ) (Pipeline.ucRefs τ sig) (Gen.V16 m (outs m) c) ∗ R (F := F) c) := by
  rw [V16_eq m c]; exact .rfl

end Cert.KernelIdeal.Hand

end
-- ==== Proof.Reg8.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 8 -/

/-! At region 8's exit each of its arrays holds what the pipeline leaves: an input as entered (never written), an
    output its write-backs folded. Window by window, then for every window. -/
theorem hF8_0 (c : Dev nD) : (dat8 (T17 m) c).arrAt (0 : Fin 6) cfg8.N = T18 m c (Pipeline.arrRef spec8 (0 : Fin 6)) :=
  ((dat8 (T17 m) c).arrAt_in 0 rfl _).trans (W18_of m c (Pipeline.arrRef spec8 0) (by decide)).symm
theorem hF8_1 (c : Dev nD) : (dat8 (T17 m) c).arrAt (1 : Fin 6) cfg8.N = T18 m c (Pipeline.arrRef spec8 (1 : Fin 6)) :=
  ((dat8 (T17 m) c).arrAt_in 1 rfl _).trans (W18_of m c (Pipeline.arrRef spec8 1) (by decide)).symm
theorem hF8_2 (c : Dev nD) : (dat8 (T17 m) c).arrAt (2 : Fin 6) cfg8.N = T18 m c (Pipeline.arrRef spec8 (2 : Fin 6)) :=
  ((dat8 (T17 m) c).arrAt_in 2 rfl _).trans (W18_of m c (Pipeline.arrRef spec8 2) (by decide)).symm
theorem hF8_3 (c : Dev nD) : (dat8 (T17 m) c).arrAt (3 : Fin 6) cfg8.N = T18 m c (Pipeline.arrRef spec8 (3 : Fin 6)) :=
  ((dat8 (T17 m) c).arrAt_in 3 rfl _).trans (W18_of m c (Pipeline.arrRef spec8 3) (by decide)).symm
theorem hF8_4 (c : Dev nD) : (dat8 (T17 m) c).arrAt (4 : Fin 6) cfg8.N = T18 m c (Pipeline.arrRef spec8 (4 : Fin 6)) :=
  ((dat8 (T17 m) c).arrAt_in 4 rfl _).trans (W18_of m c (Pipeline.arrRef spec8 4) (by decide)).symm
theorem hF8_5 (c : Dev nD) : (dat8 (T17 m) c).arrAt (5 : Fin 6) cfg8.N = T18 m c (Pipeline.arrRef spec8 (5 : Fin 6)) :=
  (W18_at m c).symm
theorem hF8 (c : Dev nD) (w : Fin 6) : (dat8 (T17 m) c).arrAt w cfg8.N = T18 m c (Pipeline.arrRef spec8 w) := by
  have h : w = 0 ∨ w = 1 ∨ w = 2 ∨ w = 3 ∨ w = 4 ∨ w = 5 := by revert w; decide
  rcases h with rfl | rfl | rfl | rfl | rfl | rfl
  · exact hF8_0 m c
  · exact hF8_1 m c
  · exact hF8_2 m c
  · exact hF8_3 m c
  · exact hF8_4 m c
  · exact hF8_5 m c
/-- and every other buffer what it held at entry. -/
theorem hrest8 (c : Dev nD) : ∀ b, b ∉ Finset.univ.image (Pipeline.arrRef spec8) → T18 m c b = T17 m c b :=
  fun b hb => W18_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 8 over the thread state: entered from every unscoped buffer at `W17`, left at `W18`. Its arrays are
    split out of the unscoped buffers and put back at the exit contents; the generator register and the scoped buffers into the invariant and out;
    nothing owed; no semaphore of the kernel's own. -/
def reg8 : RegionSeg (pcfgs (F := F)) adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (T17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (T17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Φ_eq8 (T17 m) c 0]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from Φ_eq8 (T17 m) c _]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T17 m c) (T18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 8 is the record's, -/
theorem hpre8 (c : Dev nD) : iprop(StableHlo.held (c : Thread nD τ) (Pipeline.ucRefs τ sig) (Gen.V17 m (outs m) c) ∗ R (F := F) c) ⊢ (reg8 m).pre c := by
  rw [V17_eq m c]; exact .rfl
/-- and the record's after it the generated one. -/
theorem hpost8 (c : Dev nD) : (reg8 m).post c ⊢ iprop(StableHlo.held (c : Thread nD τ) (Pipeline.ucRefs τ sig) (Gen.V18 m (outs m) c) ∗ R (F := F) c) := by
  rw [V18_eq m c]; exact .rfl

end Cert.KernelIdeal.Hand

end
-- ==== Proof.Reg9.lean ====
import proofs.«403053_j58033598104012_3_alg».proof.Proof.RunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 9 -/

/-! At region 9's exit each of its arrays holds what the pipeline leaves: an input as entered (never written), an
    output its write-backs folded. Window by window, then for every window. -/
theorem hF9_0 (c : Dev nD) : (dat9 (T19 m) c).arrAt (0 : Fin 6) cfg9.N = T20 m c (Pipeline.arrRef spec9 (0 : Fin 6)) :=
  ((dat9 (T19 m) c).arrAt_in 0 rfl _).trans (W20_of m c (Pipeline.arrRef spec9 0) (by decide)).symm
theorem hF9_1 (c : Dev nD) : (dat9 (T19 m) c).arrAt (1 : Fin 6) cfg9.N = T20 m c (Pipeline.arrRef spec9 (1 : Fin 6)) :=
  ((dat9 (T19 m) c).arrAt_in 1 rfl _).trans (W20_of m c (Pipeline.arrRef spec9 1) (by decide)).symm
theorem hF9_2 (c : Dev nD) : (dat9 (T19 m) c).arrAt (2 : Fin 6) cfg9.N = T20 m c (Pipeline.arrRef spec9 (2 : Fin 6)) :=
  ((dat9 (T19 m) c).arrAt_in 2 rfl _).trans (W20_of m c (Pipeline.arrRef spec9 2) (by decide)).symm
theorem hF9_3 (c : Dev nD) : (dat9 (T19 m) c).arrAt (3 : Fin 6) cfg9.N = T20 m c (Pipeline.arrRef spec9 (3 : Fin 6)) :=
  ((dat9 (T19 m) c).arrAt_in 3 rfl _).trans (W20_of m c (Pipeline.arrRef spec9 3) (by decide)).symm
theorem hF9_4 (c : Dev nD) : (dat9 (T19 m) c).arrAt (4 : Fin 6) cfg9.N = T20 m c (Pipeline.arrRef spec9 (4 : Fin 6)) :=
  ((dat9 (T19 m) c).arrAt_in 4 rfl _).trans (W20_of m c (Pipeline.arrRef spec9 4) (by decide)).symm
theorem hF9_5 (c : Dev nD) : (dat9 (T19 m) c).arrAt (5 : Fin 6) cfg9.N = T20 m c (Pipeline.arrRef spec9 (5 : Fin 6)) :=
  (W20_at m c).symm
theorem hF9 (c : Dev nD) (w : Fin 6) : (dat9 (T19 m) c).arrAt w cfg9.N = T20 m c (Pipeline.arrRef spec9 w) := by
  have h : w = 0 ∨ w = 1 ∨ w = 2 ∨ w = 3 ∨ w = 4 ∨ w = 5 := by revert w; decide
  rcases h with rfl | rfl | rfl | rfl | rfl | rfl
  · exact hF9_0 m c
  · exact hF9_1 m c
  · exact hF9_2 m c
  · exact hF9_3 m c
  · exact hF9_4 m c
  · exact hF9_5 m c
/-- and every other buffer what it held at entry. -/
theorem hrest9 (c : Dev nD) : ∀ b, b ∉ Finset.univ.image (Pipeline.arrRef spec9) → T20 m c b = T19 m c b :=
  fun b hb => W20_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 9 over the thread state: entered from every unscoped buffer at `W19`, left at `W20`. Its arrays are
    split out of the unscoped buffers and put back at the exit contents; the generator register and the scoped buffers into the invariant and out;
    nothing owed; no semaphore of the kernel's own. -/
def reg9 : RegionSeg (pcfgs (F := F)) adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (T19 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (T19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Φ_eq9 (T19 m) c 0]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from Φ_eq9 (T19 m) c _]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T19 m c) (T20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 9 is the record's, -/
theorem hpre9 (c : Dev nD) : iprop(StableHlo.held (c : Thread nD τ) (Pipeline.ucRefs τ sig) (Gen.V19 m (outs m) c) ∗ R (F := F) c) ⊢ (reg9 m).pre c := by
  rw [V19_eq m c]; exact .rfl
/-- and the record's after it the generated one. -/
theorem hpost9 (c : Dev nD) : (reg9 m).post c ⊢ iprop(StableHlo.held (c : Thread nD τ) (Pipeline.ucRefs τ sig) (Gen.V20 m (outs m) c) ∗ R (F := F) c) := by
  rw [V20_eq m c]; exact .rfl

end Cert.KernelIdeal.Hand

end
-- ==== Proof.Run.lean ====
import proofs.«403053_j58033598104012_3_alg».proof.Proof.Reg0
import proofs.«403053_j58033598104012_3_alg».proof.Proof.Reg1
import proofs.«403053_j58033598104012_3_alg».proof.Proof.Reg2
import proofs.«403053_j58033598104012_3_alg».proof.Proof.Reg3
import proofs.«403053_j58033598104012_3_alg».proof.Proof.Reg4
import proofs.«403053_j58033598104012_3_alg».proof.Proof.Reg5
import proofs.«403053_j58033598104012_3_alg».proof.Proof.Reg6
import proofs.«403053_j58033598104012_3_alg».proof.Proof.Reg7
import proofs.«403053_j58033598104012_3_alg».proof.Proof.Reg8
import proofs.«403053_j58033598104012_3_alg».proof.Proof.Reg9
-- ==== Proof.RunMain.lean ====
import proofs.«403053_j58033598104012_3_alg».proof.Proof.Run

set_option maxRecDepth 1920

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! # The run of @main: the segments from the launch to the return, the result buffer named -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers ends with the core owing nothing (the generator register is dropped). -/
theorem R_owes (c : Dev nD) : R (F := F) c ⊢ (iprop(∃ W, owes (c : Thread nD τ) (0 : CellTallies nD τ sig Unit) W) : sProp 𝕄) := by
  iintro ⟨-, H⟩; iexact H

-- the launch theorem for a list of segments is stated over the pinned configurations; matching it against this
-- statement unfolds plain definitions in a type
set_option backward.isDefEq.respectTransparency.types false in
/-- THE RUN. From any memory `m` with zero counters and any generator registers, every weakly fair execution of @main on
    the TensorCores terminates, and every final memory holds in `main_v188` what region 9's pipeline leaves there
    (`RES m c`: its output array after the last grid point, the earlier regions' outputs and the host stretches folded
    in through `W1 … W19`) and every argument array as launched. The segments are the host stretches over the generated
    valuations and the ten region records; the valuations are read at the regions' outputs chosen as the fold. -/
theorem run_named (ρ : Dev nD → PrngReg) :
    θ_run defs (onTc (τ := τ) (main (F := F))) ⟨m, fun _ => 0, ρ⟩ (fun r => ∀ c : Dev nD,
      r.2.mem ((c.tc : Thread nD τ).loc main_v188) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) := by
  refine Pipeline.θ_run_regions_kit_dev (pcfgs (F := F)) adm (pdats m) () cellOf_inj emb₁ defs₀ Variants.none L lv m ρ main
    (Gen.segs m (outs m) Variants.none L lv (fun _ => R (F := F)) () (pdats m) (reg0 m) (reg1 m) (reg2 m) (reg3 m) (reg4 m) (reg5 m) (reg6 m) (reg7 m) (reg8 m) (reg9 m))
    (fun c Q => by
      rewrite [main_chain c, Seg.run_eq_chain,
        show (Gen.segs m (outs m) Variants.none L lv (fun _ => R (F := F)) () (pdats m) (reg0 m) (reg1 m) (reg2 m) (reg3 m) (reg4 m) (reg5 m) (reg6 m) (reg7 m) (reg8 m) (reg9 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V20 m (outs m) c))
    (hch := fun c => ⟨.rfl, hpre0 m c, hpost0 m c, hpre1 m c, hpost1 m c, hpre2 m c, hpost2 m c, hpre3 m c, hpost3 m c, hpre4 m c, hpost4 m c, hpre5 m c, hpost5 m c, hpre6 m c, hpost6 m c, hpre7 m c, hpost7 m c, hpre8 m c, hpost8 m c, hpre9 m c, (hpost9 m c).trans (sep_mono .rfl (R_owes c))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V20 m (outs m) c b)
    (hfin := fun c s' => by
      iintro ⟨Hh, HSI⟩
      unfold StableHlo.held
      imodintro
      iapply (pointsTo_read_all (Pipeline.ucRefs τ sig) (fun b => (((c : Thread nD τ)).1, b)) (Gen.V20 m (outs m) c) s')
      isplitl [Hh] <;> iassumption)
    (hQ := fun s h c =>
      ⟨(h c _ (mem_uc main_v188 (by decide))).trans (V20_res m c),
        (h c _ (mem_uc main_arg0 (by decide))).trans (Gen.V20_main_arg0 m (outs m) c),
        (h c _ (mem_uc main_arg1 (by decide))).trans (Gen.V20_main_arg1 m (outs m) c),
        (h c _ (mem_uc main_arg2 (by decide))).trans (Gen.V20_main_arg2 m (outs m) c),
        (h c _ (mem_uc main_arg3 (by decide))).trans (Gen.V20_main_arg3 m (outs m) c),
        (h c _ (mem_uc main_arg4 (by decide))).trans (Gen.V20_main_arg4 m (outs m) c),
        (h c _ (mem_uc main_arg5 (by decide))).trans (Gen.V20_main_arg5 m (outs m) c),
        (h c _ (mem_uc main_arg6 (by decide))).trans (Gen.V20_main_arg6 m (outs m) c),
        (h c _ (mem_uc main_arg7 (by decide))).trans (Gen.V20_main_arg7 m (outs m) c),
        (h c _ (mem_uc main_arg8 (by decide))).trans (Gen.V20_main_arg8 m (outs m) c),
        (h c _ (mem_uc main_arg9 (by decide))).trans (Gen.V20_main_arg9 m (outs m) c),
        (h c _ (mem_uc main_arg10 (by decide))).trans (Gen.V20_main_arg10 m (outs m) c),
        (h c _ (mem_uc main_arg11 (by decide))).trans (Gen.V20_main_arg11 m (outs m) c),
        (h c _ (mem_uc main_arg12 (by decide))).trans (Gen.V20_main_arg12 m (outs m) c),
        (h c _ (mem_uc main_arg13 (by decide))).trans (Gen.V20_main_arg13 m (outs m) c),
        (h c _ (mem_uc main_arg14 (by decide))).trans (Gen.V20_main_arg14 m (outs m) c),
        (h c _ (mem_uc main_arg15 (by decide))).trans (Gen.V20_main_arg15 m (outs m) c),
        (h c _ (mem_uc main_arg16 (by decide))).trans (Gen.V20_main_arg16 m (outs m) c),
        (h c _ (mem_uc main_arg17 (by decide))).trans (Gen.V20_main_arg17 m (outs m) c),
        (h c _ (mem_uc main_arg18 (by decide))).trans (Gen.V20_main_arg18 m (outs m) c),
        (h c _ (mem_uc main_arg19 (by decide))).trans (Gen.V20_main_arg19 m (outs m) c),
        (h c _ (mem_uc main_arg20 (by decide))).trans (Gen.V20_main_arg20 m (outs m) c),
        (h c _ (mem_uc main_arg21 (by decide))).trans (Gen.V20_main_arg21 m (outs m) c),
        (h c _ (mem_uc main_arg22 (by decide))).trans (Gen.V20_main_arg22 m (outs m) c),
        (h c _ (mem_uc main_arg23 (by decide))).trans (Gen.V20_main_arg23 m (outs m) c),
        (h c _ (mem_uc main_arg24 (by decide))).trans (Gen.V20_main_arg24 m (outs m) c),
        (h c _ (mem_uc main_arg25 (by decide))).trans (Gen.V20_main_arg25 m (outs m) c),
        (h c _ (mem_uc main_arg26 (by decide))).trans (Gen.V20_main_arg26 m (outs m) c)⟩)

/-- info: 'Cert.KernelIdeal.Hand.run_named' depends on axioms: [propext, Classical.choice, Quot.sound] -/
#guard_msgs in #print axioms run_named

end Cert.KernelIdeal.Hand

end
-- ==== Proof.KR0.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the projection X · W, one row block of 5000 rows per grid point

Windows: 0 = x (5000x64 row block i), 1 = w (64x16, whole at every point), 2 = the output (5000x16 row block i). -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was moved there at this
    point or at an earlier one with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S5000x64 := Rect.unit (s := S5000x64) ![0, 0] S5000x64.size inb_S5000x64_S5000x64_0_0
abbrev r0_w : Rect S64x16 := Rect.unit (s := S64x16) ![0, 0] S64x16.size inb_S64x16_S64x16_0_0
abbrev r0_o : Rect S5000x16 := Rect.unit (s := S5000x16) ![0, 0] S5000x16.size inb_S5000x16_S5000x16_0_0

/-- The output block after the body: the product of the x block and w (both rounded to bf16), accumulated
    into zero, stored over the whole buffer. -/
def out0_2 (x0 : Vec F S5000x64 .f32) (x1 : Vec F S64x16 .f32) : Vec F S5000x16 .f32 :=
  View.canon [⟨r0_o, k0_pay1 (View.ld x0 r0_x) (View.ld x1 r0_w)⟩]

/-- The one store is the whole buffer, so it covers it. -/
theorem cover0_2 (p0 : Vec F S5000x16 .f32) (y : S5000x16.Idx) :
    ∃ pc ∈ ([⟨r0_o, p0⟩] : List (View.Piece (Elt F) S5000x16 .f32)), y ∈ pc.1.set :=
  View.cover_of_tiled [⟨r0_o, p0⟩] S5000x16.size (by rfl) y

/-! ## The body's triple -/

set_option maxHeartbeats 1000000 in
/-- The body on whole staging memrefs, the inputs' at read contents `x0`, `x1` and the output's at anything, runs to
    the continuation holding the inputs' as they were and the output's at `out0_2 x0 x1`. -/
theorem sound_kernel0 (c : Dev nD) (E : Set ℕ) (i : grid0.Coords)
    (arg1 : Memref sig .tc .vmem S5000x64 .f32) (harg1 : arg1.IsWhole)
    (arg2 : Memref sig .tc .vmem S64x16 .f32) (harg2 : arg2.IsWhole)
    (arg3 : Memref sig .tc .vmem S5000x16 .f32) (harg3 : arg3.IsWhole)
    (x0 : Vec F S5000x64 .f32) (x1 : Vec F S64x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of region 0 on core `c`: the arrays as the region finds them; after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem Φ_eq0 (c : Dev nD) (i : Fin (cfg0.N + 1)) : (dat0 V c).Φ i = Pipeline.ΦA spec0 c := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KR1.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

-- membership in a rectangle of long extents is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: y = x · w_root + agg + b on a row block of 5000 rows per grid point, with the column sums of y and of
y * y accumulated over the grid points

Windows: 0 = agg (5000x16 row block i), 1 = x (5000x64 row block i), 2 = w_root (64x16, whole), 3 = b (1x16, whole),
4 = y (5000x16 row block i), 5 = the column sums of y (1x16, block (0,0) at every point), 6 = the column sums of y * y
(likewise). Two scratch rows carry the running sums from point to point: the first point zeroes them, every point
adds its block's column sums and copies the running sums to windows 5 and 6. -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the block was moved there at this
    point or at an earlier one with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S5000x16 := Rect.unit (s := S5000x16) ![0, 0] S5000x16.size inb_S5000x16_S5000x16_0_0
abbrev r1_x : Rect S5000x64 := Rect.unit (s := S5000x64) ![0, 0] S5000x64.size inb_S5000x64_S5000x64_0_0
abbrev r1_w : Rect S64x16 := Rect.unit (s := S64x16) ![0, 0] S64x16.size inb_S64x16_S64x16_0_0
abbrev r1_b : Rect S1x16 := Rect.unit (s := S1x16) ![0, 0] S1x16.size inb_S1x16_S1x16_0_0

/-- The offset of every access is the origin. -/
theorem off1 : (![0, 0] : Fin 2 → ℕ) = fun _ => 0 := by
  funext a; match a with | ⟨0, _⟩ => rfl | ⟨1, _⟩ => rfl

/-- Every index of a row lies in the whole-row rectangle, so a list of stores headed by one through it covers the row. -/
theorem cover1_b (p0 : Vec F S1x16 .f32) (L : List (View.Piece (Elt F) S1x16 .f32)) (y : S1x16.Idx) :
    ∃ pc ∈ ((⟨r1_b, p0⟩ : View.Piece (Elt F) S1x16 .f32) :: L), y ∈ pc.1.set :=
  ⟨_, List.mem_cons.mpr (Or.inl rfl), View.mem_set_unit_zero off1 inb_S1x16_S1x16_0_0 y⟩

/-- The same of a 5000x16 block. -/
theorem cover1_a (p0 : Vec F S5000x16 .f32) (L : List (View.Piece (Elt F) S5000x16 .f32)) (y : S5000x16.Idx) :
    ∃ pc ∈ ((⟨r1_a, p0⟩ : View.Piece (Elt F) S5000x16 .f32) :: L), y ∈ pc.1.set :=
  ⟨_, List.mem_cons.mpr (Or.inl rfl), View.mem_set_unit_zero off1 inb_S5000x16_S5000x16_0_0 y⟩

/-! ## The body's branch -/

/-- The condition of the body's one branch, from the grid coordinate: the point is the first. -/
abbrev cond1 (i : grid1.Coords) : Prop := (Scalar.cmpi .ne (Scalar.extui (Scalar.cmpi .eq (BitVec.ofNat 32 (i 0).val) 0#32)) 0#32) = 1#1
/-- It holds at the first point only: decided over the twenty points. -/
theorem hcond1 : ∀ t : Fin cfg1.N, cond1 (grid1.coords t) ↔ t.val = 0 :=
  (by decide +kernel : ∀ t : Fin grid1.N, cond1 (grid1.coords t) ↔ t.val = 0)

/-! ## What the body stores -/

/-- The store into the y window: x · w_root (both rounded to bf16, accumulated into zero) + agg + b. -/
abbrev pc1Y (x0 : Vec F S5000x16 .f32) (x1 : Vec F S5000x64 .f32) (x2 : Vec F S64x16 .f32) (x3 : Vec F S1x16 .f32) : View.Piece (Elt F) S5000x16 .f32 :=
  ⟨r1_a, k1_pay3 (View.ld x1 r1_x) (View.ld x2 r1_w) (View.ld x0 r1_a) (View.ld x3 r1_b)⟩
/-- The store into the first scratch row: the row `s` read from it plus the column sums of y. -/
abbrev pc1S0 (x0 : Vec F S5000x16 .f32) (x1 : Vec F S5000x64 .f32) (x2 : Vec F S64x16 .f32) (x3 : Vec F S1x16 .f32) (s : Vec F S1x16 .f32) : View.Piece (Elt F) S1x16 .f32 :=
  ⟨r1_b, k1_pay4 (View.ld x1 r1_x) (View.ld x2 r1_w) (View.ld x0 r1_a) (View.ld x3 r1_b) s⟩
/-- The store into the second scratch row: the row `s` read from it plus the column sums of y * y. -/
abbrev pc1S1 (x0 : Vec F S5000x16 .f32) (x1 : Vec F S5000x64 .f32) (x2 : Vec F S64x16 .f32) (x3 : Vec F S1x16 .f32) (s : Vec F S1x16 .f32) : View.Piece (Elt F) S1x16 .f32 :=
  ⟨r1_b, k1_pay5 (View.ld x1 r1_x) (View.ld x2 r1_w) (View.ld x0 r1_a) (View.ld x3 r1_b) s⟩
/-- The first point's stores of zero into the scratch rows. -/
abbrev pc1Z0 : View.Piece (Elt F) S1x16 .f32 := ⟨r1_b, k1_pay1⟩
abbrev pc1Z1 : View.Piece (Elt F) S1x16 .f32 := ⟨r1_b, k1_pay2⟩

/-- The y window after the body. -/
def yblk1 (x0 : Vec F S5000x16 .f32) (x1 : Vec F S5000x64 .f32) (x2 : Vec F S64x16 .f32) (x3 : Vec F S1x16 .f32) : Vec F S5000x16 .f32 := View.canon [pc1Y x0 x1 x2 x3]

/-- The scratch rows' stores at the first point (last first): the row is zeroed, read back, and the block's sums added. -/
abbrev L1A0 (v : View sig .tc .vmem S1x16 .f32) (x0 : Vec F S5000x16 .f32) (x1 : Vec F S5000x64 .f32) (x2 : Vec F S64x16 .f32) (x3 : Vec F S1x16 .f32) : List (View.Piece (Elt F) S1x16 .f32) :=
  [pc1S0 x0 x1 x2 x3 (v.readCov [pc1Z0] r1_b.toLoadRect), pc1Z0]
abbrev L1A1 (v : View sig .tc .vmem S1x16 .f32) (x0 : Vec F S5000x16 .f32) (x1 : Vec F S5000x64 .f32) (x2 : Vec F S64x16 .f32) (x3 : Vec F S1x16 .f32) : List (View.Piece (Elt F) S1x16 .f32) :=
  [pc1S1 x0 x1 x2 x3 (v.readCov [pc1Z1] r1_b.toLoadRect), pc1Z1]
/-- The scratch rows' stores at a later point, the rows holding `s` when the point begins. -/
abbrev L1B0 (x0 : Vec F S5000x16 .f32) (x1 : Vec F S5000x64 .f32) (x2 : Vec F S64x16 .f32) (x3 : Vec F S1x16 .f32) (s : Vec F S1x16 .f32) : List (View.Piece (Elt F) S1x16 .f32) := [pc1S0 x0 x1 x2 x3 (View.ld s r1_b)]
abbrev L1B1 (x0 : Vec F S5000x16 .f32) (x1 : Vec F S5000x64 .f32) (x2 : Vec F S64x16 .f32) (x3 : Vec F S1x16 .f32) (s : Vec F S1x16 .f32) : List (View.Piece (Elt F) S1x16 .f32) := [pc1S1 x0 x1 x2 x3 (View.ld s r1_b)]

/-- What a scratch row holds after stores `L`, and what the sum window copied from it holds. -/
def scr1 (L : List (View.Piece (Elt F) S1x16 .f32)) : Vec F S1x16 .f32 := View.canon L
def sumw1 (v : View sig .tc .vmem S1x16 .f32) (L : List (View.Piece (Elt F) S1x16 .f32)) : Vec F S1x16 .f32 :=
  View.canon [⟨r1_b, v.readCov L r1_b.toLoadRect⟩]

/-! ## The body's triple, case by case -/

set_option maxHeartbeats 4000000 in
/-- The body at the first point (the branch taken) on whole memrefs: the inputs' at read contents `x·`, the outputs' at anything, the scratch rows
    at anything. It runs to the continuation holding the inputs' as they were, the y window at `yblk1`, each scratch row at
    what its stores leave, and each sum window at the copy of its scratch row. -/
theorem sound_kernel1_A (c : Dev nD) (E : Set ℕ) (i : grid1.Coords) (arg1 : Memref sig .tc .vmem S5000x16 .f32) (harg1 : arg1.IsWhole) (arg2 : Memref sig .tc .vmem S5000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S5000x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (hc : cond1 i)
    (x0 : Vec F S5000x16 .f32) (x1 : Vec F S5000x64 .f32) (x2 : Vec F S64x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yblk1 x0 x1 x2 x3) ∗ owns (c : Thread nD τ) arg6 fullShare (sumw1 arg8.view (L1A0 arg8.view x0 x1 x2 x3)) ∗ owns (c : Thread nD τ) arg7 fullShare (sumw1 arg9.view (L1A1 arg9.view x0 x1 x2 x3)) ∗ owns (c : Thread nD τ) arg8 fullShare (scr1 (L1A0 arg8.view x0 x1 x2 x3)) ∗ owns (c : Thread nD τ) arg9 fullShare (scr1 (L1A1 arg9.view x0 x1 x2 x3))) -∗ K ⟨⟩))
      ⊢ wp frame (wpE (defs₀ (F := F)) Variants.none c none) E (cc1__linear_add_stats_kernel i arg1 harg1 arg2 harg2 arg3 harg3 arg4 harg4 arg5 harg5 arg6 harg6 arg7 harg7 arg8 harg8 arg9 harg9) K := by
  simp only [cc1__linear_add_stats_kernel_eq_skeleton]; unfold cc1__linear_add_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf1; subst hf2; subst hf3; subst hf4
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; exact View.read_writes_eq_canon _ _ _ (cover1_a _ _)
  isplitl [H6]
  · iexists _; isplitr
    swap; · iexact H6
    ipureintro; exact View.read_writes_eq_canon _ _ _ (cover1_b _ _)
  isplitl [H7]
  · iexists _; isplitr
    swap; · iexact H7
    ipureintro; exact View.read_writes_eq_canon _ _ _ (cover1_b _ _)
  isplitl [H8]
  · iexists _; isplitr
    swap; · iexact H8
    ipureintro; exact View.read_writes_eq_canon _ _ _ (cover1_b _ _)
  iexists _; isplitr
  swap; · iexact H9
  ipureintro; exact View.read_writes_eq_canon _ _ _ (cover1_b _ _)

set_option maxHeartbeats 4000000 in
/-- The body at a later point (the branch not taken) on whole memrefs: the inputs' at read contents `x·`, the outputs' at anything, the scratch rows
    at the rows \`s0\`, \`s1\` the point before left. It runs to the continuation holding the inputs' as they were, the y window at `yblk1`, each scratch row at
    what its stores leave, and each sum window at the copy of its scratch row. -/
theorem sound_kernel1_B (c : Dev nD) (E : Set ℕ) (i : grid1.Coords) (arg1 : Memref sig .tc .vmem S5000x16 .f32) (harg1 : arg1.IsWhole) (arg2 : Memref sig .tc .vmem S5000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S5000x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (hc : ¬cond1 i)
    (x0 : Vec F S5000x16 .f32) (x1 : Vec F S5000x64 .f32) (x2 : Vec F S64x16 .f32) (x3 : Vec F S1x16 .f32) (s0 s1 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yblk1 x0 x1 x2 x3) ∗ owns (c : Thread nD τ) arg6 fullShare (sumw1 arg8.view (L1B0 x0 x1 x2 x3 s0)) ∗ owns (c : Thread nD τ) arg7 fullShare (sumw1 arg9.view (L1B1 x0 x1 x2 x3 s1)) ∗ owns (c : Thread nD τ) arg8 fullShare (scr1 (L1B0 x0 x1 x2 x3 s0)) ∗ owns (c : Thread nD τ) arg9 fullShare (scr1 (L1B1 x0 x1 x2 x3 s1))) -∗ K ⟨⟩))
      ⊢ wp frame (wpE (defs₀ (F := F)) Variants.none c none) E (cc1__linear_add_stats_kernel i arg1 harg1 arg2 harg2 arg3 harg3 arg4 harg4 arg5 harg5 arg6 harg6 arg7 harg7 arg8 harg8 arg9 harg9) K := by
  simp only [cc1__linear_add_stats_kernel_eq_skeleton]; unfold cc1__linear_add_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; exact View.read_writes_eq_canon _ _ _ (cover1_a _ _)
  isplitl [H6]
  · iexists _; isplitr
    swap; · iexact H6
    ipureintro; exact View.read_writes_eq_canon _ _ _ (cover1_b _ _)
  isplitl [H7]
  · iexists _; isplitr
    swap; · iexact H7
    ipureintro; exact View.read_writes_eq_canon _ _ _ (cover1_b _ _)
  isplitl [H8]
  · iexists _; isplitr
    swap; · iexact H8
    ipureintro; exact View.read_writes_eq_canon _ _ _ (cover1_b _ _)
  iexists _; isplitr
  swap; · iexact H9
  ipureintro; exact View.read_writes_eq_canon _ _ _ (cover1_b _ _)

/-! ## The scratch rows -/

/-- The scratch rows: whole scoped buffers of the kernel's own, passed to the body beside the windows. -/
abbrev scM1_0 : Memref sig .tc .vmem S1x16 .f32 := Memref.whole cc1_scratch0
abbrev scM1_1 : Memref sig .tc .vmem S1x16 .f32 := Memref.whole cc1_scratch1

/-- The region's invariant as the launch hands it over, with the two scratch rows split off the core's other scoped
    buffers and owned as memrefs at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## What the scratch rows and the sum windows hold after each point -/

/-- THE ACCUMULATION. After the body at position `n`: the first scratch row, the second scratch row, window 5, window 6.
    The first point zeroes the rows before adding its block's sums; a later point adds to what the point before left. -/
def accAt1 (c : Dev nD) : (n : ℕ) → n < cfg1.N → Vec F S1x16 .f32 × Vec F S1x16 .f32 × Vec F S1x16 .f32 × Vec F S1x16 .f32
  | 0, hn => (scr1 (L1A0 scM1_0.view (iblk1 V c 0 ⟨0, hn⟩) (iblk1 V c 1 ⟨0, hn⟩) (iblk1 V c 2 ⟨0, hn⟩) (iblk1 V c 3 ⟨0, hn⟩)), scr1 (L1A1 scM1_1.view (iblk1 V c 0 ⟨0, hn⟩) (iblk1 V c 1 ⟨0, hn⟩) (iblk1 V c 2 ⟨0, hn⟩) (iblk1 V c 3 ⟨0, hn⟩)), sumw1 scM1_0.view (L1A0 scM1_0.view (iblk1 V c 0 ⟨0, hn⟩) (iblk1 V c 1 ⟨0, hn⟩) (iblk1 V c 2 ⟨0, hn⟩) (iblk1 V c 3 ⟨0, hn⟩)), sumw1 scM1_1.view (L1A1 scM1_1.view (iblk1 V c 0 ⟨0, hn⟩) (iblk1 V c 1 ⟨0, hn⟩) (iblk1 V c 2 ⟨0, hn⟩) (iblk1 V c 3 ⟨0, hn⟩)))
  | n + 1, hn => (scr1 (L1B0 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).1), scr1 (L1B1 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).2.1), sumw1 scM1_0.view (L1B0 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).1), sumw1 scM1_1.view (L1B1 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).2.1))

/-- `accAt1` at the first point. -/
theorem accAt1_zero (c : Dev nD) (t : Fin cfg1.N) (hz : t.val = 0) :
    accAt1 V c t.val t.isLt = (scr1 (L1A0 scM1_0.view (iblk1 V c 0 t) (iblk1 V c 1 t) (iblk1 V c 2 t) (iblk1 V c 3 t)), scr1 (L1A1 scM1_1.view (iblk1 V c 0 t) (iblk1 V c 1 t) (iblk1 V c 2 t) (iblk1 V c 3 t)), sumw1 scM1_0.view (L1A0 scM1_0.view (iblk1 V c 0 t) (iblk1 V c 1 t) (iblk1 V c 2 t) (iblk1 V c 3 t)), sumw1 scM1_1.view (L1A1 scM1_1.view (iblk1 V c 0 t) (iblk1 V c 1 t) (iblk1 V c 2 t) (iblk1 V c 3 t))) := by
  obtain ⟨n, hn⟩ := t
  cases n with
  | zero => exact rfl
  | succ n => exact absurd hz (Nat.succ_ne_zero n)

/-- `accAt1` at a later point: over what the point before left. -/
theorem accAt1_pos (c : Dev nD) (t : Fin cfg1.N) (hz : t.val ≠ 0) :
    accAt1 V c t.val t.isLt = (scr1 (L1B0 (iblk1 V c 0 t) (iblk1 V c 1 t) (iblk1 V c 2 t) (iblk1 V c 3 t) (accAt1 V c (t.val - 1) (Nat.lt_of_le_of_lt (Nat.sub_le _ _) t.isLt)).1), scr1 (L1B1 (iblk1 V c 0 t) (iblk1 V c 1 t) (iblk1 V c 2 t) (iblk1 V c 3 t) (accAt1 V c (t.val - 1) (Nat.lt_of_le_of_lt (Nat.sub_le _ _) t.isLt)).2.1), sumw1 scM1_0.view (L1B0 (iblk1 V c 0 t) (iblk1 V c 1 t) (iblk1 V c 2 t) (iblk1 V c 3 t) (accAt1 V c (t.val - 1) (Nat.lt_of_le_of_lt (Nat.sub_le _ _) t.isLt)).1), sumw1 scM1_1.view (L1B1 (iblk1 V c 0 t) (iblk1 V c 1 t) (iblk1 V c 2 t) (iblk1 V c 3 t) (accAt1 V c (t.val - 1) (Nat.lt_of_le_of_lt (Nat.sub_le _ _) t.isLt)).2.1)) := by
  obtain ⟨n, hn⟩ := t
  cases n with
  | zero => exact absurd rfl hz
  | succ n => exact rfl

/-! ## The region's invariant -/

/-- Before position `n`: before the first point what the launch hands over (every scratch buffer at anything);
    afterwards the two scratch rows at what the point before left in them, the core's other scoped buffers and its
    generator register untouched. -/
def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn).1 ∗ owns (c : Thread nD τ) scM1_1 fullShare (accAt1 V c n hn).2.1) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn).1 ∗ owns (c : Thread nD τ) scM1_1 fullShare (accAt1 V c n hn).2.1) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accAt1 V c (n - 1) (by omega)).1 ∗ owns (c : Thread nD τ) scM1_1 fullShare (accAt1 V c (n - 1) (by omega)).2.1) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the y window at `yblk1` of the input blocks, the sum windows at `accAt1`'s
    components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => yblk1 (iblk1 V c 0 t) (iblk1 V c 1 t) (iblk1 V c 2 t) (iblk1 V c 3 t)
    | ⟨5, _⟩ => (accAt1 V c t.val t.isLt).2.2.1
    | ⟨6, _⟩ => (accAt1 V c t.val t.isLt).2.2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = yblk1 (iblk1 V c 0 t) (iblk1 V c 1 t) (iblk1 V c 2 t) (iblk1 V c 3 t) := by dsimp only [dat1]
theorem after1_5 (c : Dev nD) (t : Fin cfg1.N) : (dat1 V c).after 5 t = (accAt1 V c t.val t.isLt).2.2.1 := by dsimp only [dat1]
theorem after1_6 (c : Dev nD) (t : Fin cfg1.N) : (dat1 V c).after 6 t = (accAt1 V c t.val t.isLt).2.2.2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks; the first point is the branch's case and finds the
    scratch rows at anything, a later point finds them at what the point before left; the case's triple applies; the
    scratch rows go back into the invariant at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  by_cases hz : t.val = 0
  · rw [PhiS1_castSucc V c t, PhiS1_zero V c _ _ hz, PhiA1_eq, accAt1_zero V c t hz]
    dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ _ _ _ _ ((hcond1 t).mpr hz) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS1_castSucc V c t, PhiS1_pos V c _ _ hz, accAt1_pos V c t hz]
    dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ _ _ _ _ (fun h => hz ((hcond1 t).mp h)) (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

theorem Phi1_zero (c : Dev nD) : (dat1 V c).Φ 0 = Pipeline.ΦA spec1 c := rfl

/-- After any point but the first the invariant gives back what the launch handed over: the scratch rows' named
    contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

theorem Phi1_last (c : Dev nD) : (dat1 V c).Φ (Fin.last cfg1.N) ⊢ Pipeline.ΦA spec1 c :=
  Phi1_out V c _ (by rw [Fin.val_last]; have : cfg1.N = 20 := N_1; omega)

/-- The invariant before the first point, from the generator register and the scoped buffers no window stages. -/
theorem hin1 (c : Dev nD) : iprop((∃ r, prngReg c r) ∗ Pipeline.scopedRest spec1 c) ⊢ ((dat1 V c).Φ 0 : sProp 𝕄) := by
  rw [Phi1_zero]; unfold Pipeline.ΦA
  iintro ⟨Hp, Hr⟩
  isplitl [Hr]; · iexact Hr
  iexact Hp

/-- The invariant after the last point gives them back. -/
theorem hout1 (c : Dev nD) : ((dat1 V c).Φ (Fin.last cfg1.N) : sProp 𝕄) ⊢ iprop((∃ r, prngReg c r) ∗ Pipeline.scopedRest spec1 c) :=
  (Phi1_last V c).trans (by
    unfold Pipeline.ΦA
    iintro ⟨Hr, Hp⟩
    isplitl [Hp]; · iexact Hp
    iexact Hr)

end Cert.Kernel.Hand

end
-- ==== Proof.KR2.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: batch normalisation then ELU, pointwise on one row block per grid point

Windows: 0 = y (row block i), 1 = mean, 2 = variance, 3 = gamma, 4 = beta (one row each, whole at every point),
5 = the output (row block i). -/

/-- Window `w`'s block at point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the block was moved there at this
    point or at an earlier one with the same block index. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_y : Rect S5000x16 := Rect.unit (s := S5000x16) ![0, 0] S5000x16.size inb_S5000x16_S5000x16_0_0
abbrev r2_p : Rect S1x16 := Rect.unit (s := S1x16) ![0, 0] S1x16.size inb_S1x16_S1x16_0_0

/-- The output block after the body: ELU of gamma · (y − mean) · rsqrt(variance + ε) + beta, stored over the whole
    buffer (the body reads the variance before the mean). -/
def out2_5 (x0 : Vec F S5000x16 .f32) (x1 x2 x3 x4 : Vec F S1x16 .f32) : Vec F S5000x16 .f32 :=
  View.canon [⟨r2_y, k2_pay1 (View.ld x0 r2_y) (View.ld x2 r2_p) (View.ld x1 r2_p) (View.ld x3 r2_p) (View.ld x4 r2_p)⟩]

/-- The one store is the whole buffer, so it covers it. -/
theorem cover2_5 (p0 : Vec F S5000x16 .f32) (y : S5000x16.Idx) :
    ∃ pc ∈ ([⟨r2_y, p0⟩] : List (View.Piece (Elt F) S5000x16 .f32)), y ∈ pc.1.set :=
  View.cover_of_tiled [⟨r2_y, p0⟩] S5000x16.size (by rfl) y

/-! ## The body's triple -/

set_option maxHeartbeats 1000000 in
/-- The body on whole staging memrefs, the inputs' at read contents `x0 … x4` and the output's at anything, runs to
    the continuation holding the inputs' as they were and the output's at `out2_5 x0 … x4`. -/
theorem sound_kernel2 (c : Dev nD) (E : Set ℕ) (i : grid2.Coords)
    (arg1 : Memref sig .tc .vmem S5000x16 .f32) (harg1 : arg1.IsWhole)
    (arg2 : Memref sig .tc .vmem S1x16 .f32) (harg2 : arg2.IsWhole)
    (arg3 : Memref sig .tc .vmem S1x16 .f32) (harg3 : arg3.IsWhole)
    (arg4 : Memref sig .tc .vmem S1x16 .f32) (harg4 : arg4.IsWhole)
    (arg5 : Memref sig .tc .vmem S1x16 .f32) (harg5 : arg5.IsWhole)
    (arg6 : Memref sig .tc .vmem S5000x16 .f32) (harg6 : arg6.IsWhole)
    (x0 : Vec F S5000x16 .f32) (x1 x2 x3 x4 : Vec F S1x16 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bn_elu_kernel i arg1 harg1 arg2 harg2 arg3 harg3 arg4 harg4 arg5 harg5 arg6 harg6) K := by
  simp only [cc2__bn_elu_kernel_eq_skeleton]; unfold cc2__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of region 2 on core `c`: the arrays as the region finds them; after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem Φ_eq2 (c : Dev nD) (i : Fin (cfg2.N + 1)) : (dat2 V c).Φ i = Pipeline.ΦA spec2 c := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.KR3.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: Y = agg · W_rel + x · W_root + b on one row block of 5000 rows per grid point, with the column
sums of Y and of Y² accumulated over the grid's points

Windows: 0 = agg (row block i), 1 = x (row block i), 2 = W_rel, 3 = W_root, 4 = b (each whole at every point),
5 = Y (row block i), 6 = the column sums, 7 = the column sums of squares (one block each, written back after the
last point). Two scratch rows carry the running sums from point to point; the first point zeroes them. -/

/-- Window `w`'s block at point `t`, read off its array at the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S5000x16 := Rect.unit (s := S5000x16) ![0, 0] S5000x16.size inb_S5000x16_S5000x16_0_0
abbrev r3_w : Rect S16x32 := Rect.unit (s := S16x32) ![0, 0] S16x32.size inb_S16x32_S16x32_0_0
abbrev r3_b : Rect S1x32 := Rect.unit (s := S1x32) ![0, 0] S1x32.size inb_S1x32_S1x32_0_0
abbrev r3_y : Rect S5000x32 := Rect.unit (s := S5000x32) ![0, 0] S5000x32.size inb_S5000x32_S5000x32_0_0

/-! ## What the body leaves -/

/-- The block of Y: agg · W_rel + x · W_root + b on the point's rows (operands rounded to bf16, products summed in f32). -/
def lin3 (xa xb : Vec F S5000x16 .f32) (xc xd : Vec F S16x32 .f32) (xe : Vec F S1x32 .f32) : Vec F S5000x32 .f32 :=
  k3_pay4 (View.ld xa r3_a) (View.ld xb r3_a) (View.ld xc r3_w) (View.ld xd r3_w) (View.ld xe r3_b)

/-- Window 5 after the body: the block of Y. -/
def out3_5 (xa xb : Vec F S5000x16 .f32) (xc xd : Vec F S16x32 .f32) (xe : Vec F S1x32 .f32) : Vec F S5000x32 .f32 :=
  View.canon [⟨r3_y, lin3 xa xb xc xd xe⟩]

/-- The running column sums after a point: the sums so far `s` plus the column sums of the point's block of Y. -/
def sum3 (xa xb : Vec F S5000x16 .f32) (xc xd : Vec F S16x32 .f32) (xe : Vec F S1x32 .f32) (s : Vec F S1x32 .f32) : Vec F S1x32 .f32 :=
  View.canon [⟨r3_b, k3_pay5 (View.ld xa r3_a) (View.ld xb r3_a) (View.ld xc r3_w) (View.ld xd r3_w) (View.ld xe r3_b) (View.ld s r3_b)⟩]

/-- The running column sums of squares after a point: `q` plus the column sums of the squares of the point's block of Y. -/
def sq3 (xa xb : Vec F S5000x16 .f32) (xc xd : Vec F S16x32 .f32) (xe : Vec F S1x32 .f32) (q : Vec F S1x32 .f32) : Vec F S1x32 .f32 :=
  View.canon [⟨r3_b, k3_pay1 (View.ld q r3_b) (k3_pay6 (View.ld xa r3_a) (View.ld xb r3_a) (View.ld xc r3_w) (View.ld xd r3_w) (View.ld xe r3_b))⟩]

/-- The zero rows the first point starts the two running sums from. -/
def zero3_s : Vec F S1x32 .f32 := View.canon [⟨r3_b, k3_pay2⟩]
def zero3_q : Vec F S1x32 .f32 := View.canon [⟨r3_b, k3_pay3⟩]

/-- Windows 6 and 7 after the body: the running sums as read back from the scratch rows. -/
def out3_6 (s : Vec F S1x32 .f32) : Vec F S1x32 .f32 := View.canon [⟨r3_b, View.ld s r3_b⟩]

/-- Each buffer is written by one store of its whole shape, which covers it. -/
theorem cover3_y (p : Vec F S5000x32 .f32) (y : S5000x32.Idx) :
    ∃ pc ∈ ([⟨r3_y, p⟩] : List (View.Piece (Elt F) S5000x32 .f32)), y ∈ pc.1.set :=
  View.cover_of_tiled [⟨r3_y, p⟩] S5000x32.size (by rfl) y
theorem cover3_b (p : Vec F S1x32 .f32) (y : S1x32.Idx) :
    ∃ pc ∈ ([⟨r3_b, p⟩] : List (View.Piece (Elt F) S1x32 .f32)), y ∈ pc.1.set :=
  View.cover_of_tiled [⟨r3_b, p⟩] S1x32.size (by rfl) y

/-- A last write that covers the shape alone decides what is read back. -/
theorem read_cons_cover3 {s : Shape} {e : EltTy} {κ : Kind} {sp : Space} (v : View sig κ sp s e) (f : v.ty.Contents (Elt F)) (r : Rect s) (w : r.shape.Idx → Elt F e)
    (L : List (View.Piece (Elt F) s e)) (h : ∀ y, ∃ pc ∈ ([⟨r, w⟩] : List (View.Piece (Elt F) s e)), y ∈ pc.1.set) :
    v.read (Elt F) (v.writes (Elt F) f (⟨r, w⟩ :: L)) = View.canon [⟨r, w⟩] := by
  funext y
  obtain ⟨pc, hm, hy⟩ := h y
  obtain rfl := List.mem_singleton.mp hm
  obtain ⟨x, rfl⟩ : ∃ x, r.emb x = y := r.exists_idx_of_mem hy
  rw [View.read_writes_cons_emb, View.canon_cons_emb]

/-- Every index of a row lies in the row's one rectangle. -/
theorem mem3_b (y : S1x32.Idx) : y ∈ (r3_b).set := by
  obtain ⟨pc, hm, hy⟩ := View.cover_of_tiled (Val := fun _ => Unit) (e := .f32) [⟨r3_b, fun _ => ()⟩] S1x32.size (by rfl) y
  obtain rfl := List.mem_singleton.mp hm
  exact hy

/-- Under a last write that covers the row, earlier writes do not show. -/
theorem canon_cons_cover3 (w : (r3_b).shape.Idx → Elt F .f32) (L : List (View.Piece (Elt F) S1x32 .f32)) :
    View.canon (⟨r3_b, w⟩ :: L) = View.canon [⟨r3_b, w⟩] := by
  funext y
  obtain ⟨x, rfl⟩ : ∃ x, (r3_b).emb x = y := (r3_b).exists_idx_of_mem (mem3_b y)
  rw [View.canon_cons_emb, View.canon_cons_emb]

/-- A list of writes whose last covers the row covers it. -/
theorem cover3_cons (w : Vec F S1x32 .f32) (L : List (View.Piece (Elt F) S1x32 .f32)) (y : S1x32.Idx) :
    ∃ pc ∈ (⟨r3_b, w⟩ :: L : List (View.Piece (Elt F) S1x32 .f32)), y ∈ pc.1.set := by
  obtain ⟨pc, hm, hy⟩ := cover3_b w y
  exact ⟨pc, List.mem_cons.mpr (Or.inl (List.mem_singleton.mp hm)), hy⟩

/-- A row written once and read back through another buffer's store: the copy holds what was written. -/
theorem pure3_rb {κ κ' : Kind} {sp sp' : Space} (v : View sig κ sp S1x32 .f32) (v' : View sig κ' sp' S1x32 .f32) (f : v'.ty.Contents (Elt F))
    (w : (r3_b).shape.Idx → Elt F .f32) :
    v'.read (Elt F) (v'.writes (Elt F) f [⟨r3_b, v.readCov [⟨r3_b, w⟩] r3_b⟩]) = out3_6 (View.canon [⟨r3_b, w⟩]) := by
  rw [View.read_writes_eq_canon _ _ _ (cover3_b _), View.readCov_eq_canon_ld v _ r3_b (cover3_b _)]
  rfl

/-- A row zeroed (`p`), read back, and rewritten as `g` of what was read: it holds `g` of the zero row. -/
theorem pure3_acc0 {κ : Kind} {sp : Space} (v : View sig κ sp S1x32 .f32) (f : v.ty.Contents (Elt F))
    (g : ((r3_b).shape.Idx → Elt F .f32) → ((r3_b).shape.Idx → Elt F .f32)) (p : (r3_b).shape.Idx → Elt F .f32) :
    v.read (Elt F) (v.writes (Elt F) f [⟨r3_b, g (v.readCov [⟨r3_b, p⟩] r3_b)⟩, ⟨r3_b, p⟩])
      = View.canon [⟨r3_b, g (View.ld (View.canon [⟨r3_b, p⟩]) r3_b)⟩] := by
  rw [read_cons_cover3 v f r3_b _ _ (cover3_b _), View.readCov_eq_canon_ld v _ r3_b (cover3_b _)]

/-- The same row read back through another buffer's store. -/
theorem pure3_rb0 {κ κ' : Kind} {sp sp' : Space} (v : View sig κ sp S1x32 .f32) (v' : View sig κ' sp' S1x32 .f32) (f : v'.ty.Contents (Elt F))
    (g : ((r3_b).shape.Idx → Elt F .f32) → ((r3_b).shape.Idx → Elt F .f32)) (p : (r3_b).shape.Idx → Elt F .f32) :
    v'.read (Elt F) (v'.writes (Elt F) f [⟨r3_b, v.readCov [⟨r3_b, g (v.readCov [⟨r3_b, p⟩] r3_b)⟩, ⟨r3_b, p⟩] r3_b⟩])
      = out3_6 (View.canon [⟨r3_b, g (View.ld (View.canon [⟨r3_b, p⟩]) r3_b)⟩]) := by
  rw [View.read_writes_eq_canon _ _ _ (cover3_b _),
    View.readCov_eq_canon_ld v _ r3_b (cover3_cons _ _),
    canon_cons_cover3 _ [⟨r3_b, p⟩], View.readCov_eq_canon_ld v _ r3_b (cover3_b _)]
  rfl
/-! ## The body's triple, at a point after the first and at the first -/

/-- The scf.if's condition: the grid coordinate is 0. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

set_option maxHeartbeats 4000000 in
/-- At a point after the first: the scratch rows hold the running sums `s`, `q` of the points before; the body leaves
    the block of Y in window 5, the new running sums in the scratch rows and copies of them in windows 6 and 7. -/
theorem sound_kernel3_next (c : Dev nD) (E : Set ℕ) (i : grid3.Coords) (ma : Memref sig .tc .vmem S5000x16 .f32) (hma : ma.IsWhole) (mb : Memref sig .tc .vmem S5000x16 .f32) (hmb : mb.IsWhole) (mc : Memref sig .tc .vmem S16x32 .f32) (hmc : mc.IsWhole) (md : Memref sig .tc .vmem S16x32 .f32) (hmd : md.IsWhole) (me : Memref sig .tc .vmem S1x32 .f32) (hme : me.IsWhole) (my : Memref sig .tc .vmem S5000x32 .f32) (hmy : my.IsWhole) (mo : Memref sig .tc .vmem S1x32 .f32) (hmo : mo.IsWhole) (mp : Memref sig .tc .vmem S1x32 .f32) (hmp : mp.IsWhole) (ms : Memref sig .tc .vmem S1x32 .f32) (hms : ms.IsWhole) (mq : Memref sig .tc .vmem S1x32 .f32) (hmq : mq.IsWhole) (hc : ¬cond3_0 i)
    (xa xb : Vec F S5000x16 .f32) (xc xd : Vec F S16x32 .f32) (xe : Vec F S1x32 .f32) (s q : Vec F S1x32 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ owns (c : Thread nD τ) ms fullShare s ∗ owns (c : Thread nD τ) mq fullShare q
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe
            ∗ owns (c : Thread nD τ) my fullShare (out3_5 xa xb xc xd xe)
            ∗ owns (c : Thread nD τ) mo fullShare (out3_6 (sum3 xa xb xc xd xe s))
            ∗ owns (c : Thread nD τ) mp fullShare (out3_6 (sq3 xa xb xc xd xe q))
            ∗ owns (c : Thread nD τ) ms fullShare (sum3 xa xb xc xd xe s)
            ∗ owns (c : Thread nD τ) mq fullShare (sq3 xa xb xc xd xe q)) -∗ K ⟨⟩))
      ⊢ wp frame (wpE (defs₀ (F := F)) Variants.none c none) E (cc3__linear_stats_kernel i ma hma mb hmb mc hmc md hmd me hme my hmy mo hmo mp hmp ms hms mq hmq) K := by
  simp only [cc3__linear_stats_kernel_eq_skeleton]; unfold cc3__linear_stats_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%fs, %hfs, Hs⟩, ⟨%fq, %hfq, Hq⟩, Hk⟩
  subst hfa hfb hfc hfd hfe hfs hfq
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover3_y _)
  isplitl [Ho]
  · iexists _; isplitr
    swap; · iexact Ho
    ipureintro
    refine (View.read_writes_eq_canon _ _ _ (cover3_b _)).trans ?_
    show View.canon [⟨r3_b, View.readCov ms.view [⟨r3_b, _⟩] r3_b⟩] = _
    rw [View.readCov_eq_canon_ld _ _ _ (cover3_b _)]
    rfl
  isplitl [Hp]
  · iexists _; isplitr
    swap; · iexact Hp
    ipureintro
    refine (View.read_writes_eq_canon _ _ _ (cover3_b _)).trans ?_
    show View.canon [⟨r3_b, View.readCov mq.view [⟨r3_b, _⟩] r3_b⟩] = _
    rw [View.readCov_eq_canon_ld _ _ _ (cover3_b _)]
    rfl
  isplitl [Hs]
  · iexists _; isplitr
    swap; · iexact Hs
    ipureintro
    exact View.read_writes_eq_canon _ _ _ (cover3_b _)
  iexists _; isplitr
  swap; · iexact Hq
  ipureintro
  exact View.read_writes_eq_canon _ _ _ (cover3_b _)
set_option maxHeartbeats 4000000 in
/-- At the first point: the scratch rows hold anything; the body zeroes them, then does as at any other point. -/
theorem sound_kernel3_first (c : Dev nD) (E : Set ℕ) (i : grid3.Coords) (ma : Memref sig .tc .vmem S5000x16 .f32) (hma : ma.IsWhole) (mb : Memref sig .tc .vmem S5000x16 .f32) (hmb : mb.IsWhole) (mc : Memref sig .tc .vmem S16x32 .f32) (hmc : mc.IsWhole) (md : Memref sig .tc .vmem S16x32 .f32) (hmd : md.IsWhole) (me : Memref sig .tc .vmem S1x32 .f32) (hme : me.IsWhole) (my : Memref sig .tc .vmem S5000x32 .f32) (hmy : my.IsWhole) (mo : Memref sig .tc .vmem S1x32 .f32) (hmo : mo.IsWhole) (mp : Memref sig .tc .vmem S1x32 .f32) (hmp : mp.IsWhole) (ms : Memref sig .tc .vmem S1x32 .f32) (hms : ms.IsWhole) (mq : Memref sig .tc .vmem S1x32 .f32) (hmq : mq.IsWhole) (hc : cond3_0 i)
    (xa xb : Vec F S5000x16 .f32) (xc xd : Vec F S16x32 .f32) (xe : Vec F S1x32 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ (∃ d, owns (c : Thread nD τ) ms fullShare d) ∗ (∃ d, owns (c : Thread nD τ) mq fullShare d)
        ∗ (iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
            ∗ owns (c : Thread nD τ) my fullShare (out3_5 xa xb xc xd xe)
            ∗ owns (c : Thread nD τ) mo fullShare (out3_6 (sum3 xa xb xc xd xe zero3_s))
            ∗ owns (c : Thread nD τ) mp fullShare (out3_6 (sq3 xa xb xc xd xe zero3_q))
            ∗ owns (c : Thread nD τ) ms fullShare (sum3 xa xb xc xd xe zero3_s)
            ∗ owns (c : Thread nD τ) mq fullShare (sq3 xa xb xc xd xe zero3_q)) -∗ K ⟨⟩))
      ⊢ wp frame (wpE (defs₀ (F := F)) Variants.none c none) E (cc3__linear_stats_kernel i ma hma mb hmb mc hmc md hmd me hme my hmy mo hmo mp hmp ms hms mq hmq) K := by
  simp only [cc3__linear_stats_kernel_eq_skeleton]; unfold cc3__linear_stats_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%ds, %fs, -, Hs⟩, ⟨%dq, %fq, -, Hq⟩, Hk⟩
  subst hfa hfb hfc hfd hfe
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover3_y _)
  isplitl [Ho]
  · iexists _; isplitr
    swap; · iexact Ho
    ipureintro
    exact pure3_rb0 ms.view mo.view _ (fun z => k3_pay5 _ _ _ _ _ z) k3_pay2
  isplitl [Hp]
  · iexists _; isplitr
    swap; · iexact Hp
    ipureintro
    exact pure3_rb0 mq.view mp.view _ (fun z => k3_pay1 z (k3_pay6 _ _ _ _ _)) k3_pay3
  isplitl [Hs]
  · iexists _; isplitr
    swap; · iexact Hs
    ipureintro
    exact pure3_acc0 ms.view _ (fun z => k3_pay5 _ _ _ _ _ z) k3_pay2
  iexists _; isplitr
  swap; · iexact Hq
  ipureintro
  exact pure3_acc0 mq.view _ (fun z => k3_pay1 z (k3_pay6 _ _ _ _ _)) k3_pay3

/-! ## The running sums, point by point -/

/-- What the two scratch rows hold after the body at position `n`: (the column sums, the column sums of squares) of
    the blocks of Y at positions `0 … n`, added block after block from the zero rows. -/
def accAt3 (c : Dev nD) : (n : ℕ) → n < cfg3.N → Vec F S1x32 .f32 × Vec F S1x32 .f32
  | 0, hn => (sum3 (iblk3 V c 0 ⟨0, hn⟩) (iblk3 V c 1 ⟨0, hn⟩) (iblk3 V c 2 ⟨0, hn⟩) (iblk3 V c 3 ⟨0, hn⟩) (iblk3 V c 4 ⟨0, hn⟩) zero3_s, sq3 (iblk3 V c 0 ⟨0, hn⟩) (iblk3 V c 1 ⟨0, hn⟩) (iblk3 V c 2 ⟨0, hn⟩) (iblk3 V c 3 ⟨0, hn⟩) (iblk3 V c 4 ⟨0, hn⟩) zero3_q)
  | n + 1, hn => (sum3 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (accAt3 c n (Nat.lt_of_succ_lt hn)).1,
      sq3 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (accAt3 c n (Nat.lt_of_succ_lt hn)).2)

theorem accAt3_zero (c : Dev nD) (t : Fin cfg3.N) (hz : t.val = 0) :
    accAt3 V c t.val t.isLt = (sum3 (iblk3 V c 0 t) (iblk3 V c 1 t) (iblk3 V c 2 t) (iblk3 V c 3 t) (iblk3 V c 4 t) zero3_s, sq3 (iblk3 V c 0 t) (iblk3 V c 1 t) (iblk3 V c 2 t) (iblk3 V c 3 t) (iblk3 V c 4 t) zero3_q) := by
  obtain ⟨n, hn⟩ := t
  cases n with
  | zero => rfl
  | succ n => exact absurd hz (Nat.succ_ne_zero n)

theorem accAt3_pos (c : Dev nD) (t : Fin cfg3.N) (hz : t.val ≠ 0) :
    accAt3 V c t.val t.isLt = (sum3 (iblk3 V c 0 t) (iblk3 V c 1 t) (iblk3 V c 2 t) (iblk3 V c 3 t) (iblk3 V c 4 t) (accAt3 V c (t.val - 1) (Nat.lt_of_le_of_lt (Nat.sub_le _ _) t.isLt)).1,
      sq3 (iblk3 V c 0 t) (iblk3 V c 1 t) (iblk3 V c 2 t) (iblk3 V c 3 t) (iblk3 V c 4 t) (accAt3 V c (t.val - 1) (Nat.lt_of_le_of_lt (Nat.sub_le _ _) t.isLt)).2) := by
  obtain ⟨n, hn⟩ := t
  cases n with
  | zero => exact absurd rfl hz
  | succ n => rfl

/-! ## The region's invariant -/

/-- The two scratch rows as memrefs. -/
abbrev sc3_s : Memref sig .tc .vmem S1x32 .f32 := Memref.whole cc3_scratch0
abbrev sc3_q : Memref sig .tc .vmem S1x32 .f32 := Memref.whole cc3_scratch1

/-- The other scoped buffers of the core, unopened. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The class's invariant with the two scratch rows taken out of the scoped rest, each at some contents. -/
theorem PhiA3_eq (c : Dev nD) :
    (Pipeline.ΦA spec3 c : sProp 𝕄)
      = iprop(iprop(iprop((∃ d, owns (c : Thread nD τ) sc3_s fullShare d) ∗ (∃ d, owns (c : Thread nD τ) sc3_q fullShare d)) ∗ rest3 c) ∗ (∃ r, prngReg c r)) := by
  unfold Pipeline.ΦA; rw [scopedRest3_split]; simp only [owns_whole]; try rfl

/-- The invariant before position `n`: before the first point the class's (the scratch rows at anything); afterwards the
    scratch rows at the running sums of the points before, the other scoped buffers and the generator register at anything. -/
def Phi3 (c : Dev nD) : (n : ℕ) → n ≤ cfg3.N → sProp 𝕄
  | 0, _ => Pipeline.ΦA spec3 c
  | n + 1, hn => iprop(iprop(iprop(owns (c : Thread nD τ) sc3_s fullShare (accAt3 V c n hn).1 ∗ owns (c : Thread nD τ) sc3_q fullShare (accAt3 V c n hn).2) ∗ rest3 c) ∗ (∃ r, prngReg c r))

theorem Phi3_at_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(iprop(owns (c : Thread nD τ) sc3_s fullShare (accAt3 V c n hn).1 ∗ owns (c : Thread nD τ) sc3_q fullShare (accAt3 V c n hn).2) ∗ rest3 c) ∗ (∃ r, prngReg c r)) := rfl

theorem Phi3_pos (c : Dev nD) (n : ℕ) (h : n ≤ cfg3.N) (hz : n ≠ 0) :
    Phi3 V c n h = iprop(iprop(iprop(owns (c : Thread nD τ) sc3_s fullShare (accAt3 V c (n - 1) (by omega)).1 ∗ owns (c : Thread nD τ) sc3_q fullShare (accAt3 V c (n - 1) (by omega)).2) ∗ rest3 c) ∗ (∃ r, prngReg c r)) := by
  cases n with
  | zero => exact absurd rfl hz
  | succ n => rfl

/-! ## The pipeline's proof data -/

/-- The proof data of pipeline 3 on core `c`: the arrays at the entry contents; after the body at point `t` each input's
    buffer at its block, window 5 at the block of Y, windows 6 and 7 at the running sums; the invariant `Phi3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (accAt3 V c t.val t.isLt).1
    | ⟨7, _⟩ => out3_6 (accAt3 V c t.val t.isLt).2
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (accAt3 V c t.val t.isLt).1 := by dsimp only [dat3]
theorem after3_7 (c : Dev nD) (t : Fin cfg3.N) : (dat3 V c).after 7 t = out3_6 (accAt3 V c t.val t.isLt).2 := by dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

/-- Before the first point the invariant is the class's. -/
theorem Phi3_zero (c : Dev nD) : (dat3 V c).Φ 0 = Pipeline.ΦA spec3 c := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks; the invariant hands the body the scratch rows — at
    anything at the first point, where the body zeroes them, else at the running sums the point before left — and takes
    them back at this point's running sums; the other scoped buffers, the generator register and the core's debt pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    show (dat3 V c).Φ t.succ = Phi3 V c (t.val + 1) t.isLt from rfl, Phi3_succ,
    after3_0, after3_1, after3_2, after3_3, after3_4, after3_5, after3_6, after3_7, Phi3_castSucc]
  by_cases hz : t.val = 0
  · rw [Phi3_at_zero V c _ _ hz, PhiA3_eq, accAt3_zero V c t hz]
    iintro ⟨⟨⟨⟨⟨%ds, HS⟩, ⟨%dq, HQ⟩⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel3_first c Set.univ (grid3.coords t) _ _ _ _ _ _ _ _ _ _ _ _ _ _ _ _ _ _ _ _ ((hcond3_0 t).mpr hz) (iblk3 V c 0 t) (iblk3 V c 1 t) (iblk3 V c 2 t) (iblk3 V c 3 t) (iblk3 V c 4 t) _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexists _; iexact HS
    isplitl [HQ]; · iexists _; iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp
  · rw [Phi3_pos V c _ _ hz, accAt3_pos V c t hz]
    iintro ⟨⟨⟨⟨HS, HQ⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel3_next c Set.univ (grid3.coords t) _ _ _ _ _ _ _ _ _ _ _ _ _ _ _ _ _ _ _ _ (fun h => hz ((hcond3_0 t).mp h)) (iblk3 V c 0 t) (iblk3 V c 1 t) (iblk3 V c 2 t) (iblk3 V c 3 t) (iblk3 V c 4 t) _ _ _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexact HS
    isplitl [HQ]; · iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- After any point the invariant gives the class's back: what the scratch rows hold is forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨⟨HS, HQ⟩, HR⟩, Hg⟩
  isplitl [HS HQ HR]
  · isplitl [HS HQ]
    · isplitl [HS]
      · iexists _; iexact HS
      iexists _; iexact HQ
    iexact HR
  iexact Hg

theorem Phi3_last (c : Dev nD) : (dat3 V c).Φ (Fin.last cfg3.N) ⊢ Pipeline.ΦA spec3 c :=
  Phi3_out V c _ (by rw [Fin.val_last]; have : cfg3.N = 20 := N_3; omega)

end Cert.Kernel.Hand

end
-- ==== Proof.KR4.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: batch normalisation then ELU, pointwise on one row block per grid point

Windows: 0 = y (row block i), 1 = mean, 2 = variance, 3 = gamma, 4 = beta (one row each, whole at every point),
5 = the output (row block i). -/

/-- Window `w`'s block at point `t`, read off its array at the entry contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, whether the block was moved there at this
    point or at an earlier one with the same block index. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_y : Rect S5000x128 := Rect.unit (s := S5000x128) ![0, 0] S5000x128.size inb_S5000x128_S5000x128_0_0
abbrev r4_p : Rect S1x128 := Rect.unit (s := S1x128) ![0, 0] S1x128.size inb_S1x128_S1x128_0_0

/-- The output block after the body: ELU of gamma · (y − mean) · rsqrt(variance + ε) + beta, stored over the whole
    buffer (the body reads the variance before the mean). -/
def out4_5 (x0 : Vec F S5000x128 .f32) (x1 x2 x3 x4 : Vec F S1x128 .f32) : Vec F S5000x128 .f32 :=
  View.canon [⟨r4_y, k4_pay1 (View.ld x0 r4_y) (View.ld x2 r4_p) (View.ld x1 r4_p) (View.ld x3 r4_p) (View.ld x4 r4_p)⟩]

/-- The one store is the whole buffer, so it covers it. -/
theorem cover4_5 (p0 : Vec F S5000x128 .f32) (y : S5000x128.Idx) :
    ∃ pc ∈ ([⟨r4_y, p0⟩] : List (View.Piece (Elt F) S5000x128 .f32)), y ∈ pc.1.set :=
  View.cover_of_tiled [⟨r4_y, p0⟩] S5000x128.size (by rfl) y

/-! ## The body's triple -/

set_option maxHeartbeats 1000000 in
/-- The body on whole staging memrefs, the inputs' at read contents `x0 … x4` and the output's at anything, runs to
    the continuation holding the inputs' as they were and the output's at `out4_5 x0 … x4`. -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__bn_elu_kernel i arg1 harg1 arg2 harg2 arg3 harg3 arg4 harg4 arg5 harg5 arg6 harg6) K := by
  simp only [cc4__bn_elu_kernel_eq_skeleton]; unfold cc4__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of region 4 on core `c`: the arrays as the region finds them; after the body at point `t`
    each input's buffer at its block and the output's at `out4_5` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem Φ_eq4 (c : Dev nD) (i : Fin (cfg4.N + 1)) : (dat4 V c).Φ i = Pipeline.ΦA spec4 c := rfl

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.KR5.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: Y = agg · W_rel + x · W_root + b on one row block of 5000 rows per grid point, with the column
sums of Y and of Y² accumulated over the grid's points

Windows: 0 = agg (row block i), 1 = x (row block i), 2 = W_rel, 3 = W_root, 4 = b (each whole at every point),
5 = Y (row block i), 6 = the column sums, 7 = the column sums of squares (one block each, written back after the
last point). Two scratch rows carry the running sums from point to point; the first point zeroes them. -/

/-- Window `w`'s block at point `t`, read off its array at the entry contents `V`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_a : Rect S5000x32 := Rect.unit (s := S5000x32) ![0, 0] S5000x32.size inb_S5000x32_S5000x32_0_0
abbrev r5_w : Rect S32x32 := Rect.unit (s := S32x32) ![0, 0] S32x32.size inb_S32x32_S32x32_0_0
abbrev r5_b : Rect S1x32 := Rect.unit (s := S1x32) ![0, 0] S1x32.size inb_S1x32_S1x32_0_0
abbrev r5_y : Rect S5000x32 := Rect.unit (s := S5000x32) ![0, 0] S5000x32.size inb_S5000x32_S5000x32_0_0

/-! ## What the body leaves -/

/-- The block of Y: agg · W_rel + x · W_root + b on the point's rows (operands rounded to bf16, products summed in f32). -/
def lin5 (xa xb : Vec F S5000x32 .f32) (xc xd : Vec F S32x32 .f32) (xe : Vec F S1x32 .f32) : Vec F S5000x32 .f32 :=
  k5_pay4 (View.ld xa r5_a) (View.ld xb r5_a) (View.ld xc r5_w) (View.ld xd r5_w) (View.ld xe r5_b)

/-- Window 5 after the body: the block of Y. -/
def out5_5 (xa xb : Vec F S5000x32 .f32) (xc xd : Vec F S32x32 .f32) (xe : Vec F S1x32 .f32) : Vec F S5000x32 .f32 :=
  View.canon [⟨r5_y, lin5 xa xb xc xd xe⟩]

/-- The running column sums after a point: the sums so far `s` plus the column sums of the point's block of Y. -/
def sum5 (xa xb : Vec F S5000x32 .f32) (xc xd : Vec F S32x32 .f32) (xe : Vec F S1x32 .f32) (s : Vec F S1x32 .f32) : Vec F S1x32 .f32 :=
  View.canon [⟨r5_b, k5_pay5 (View.ld xa r5_a) (View.ld xb r5_a) (View.ld xc r5_w) (View.ld xd r5_w) (View.ld xe r5_b) (View.ld s r5_b)⟩]

/-- The running column sums of squares after a point: `q` plus the column sums of the squares of the point's block of Y. -/
def sq5 (xa xb : Vec F S5000x32 .f32) (xc xd : Vec F S32x32 .f32) (xe : Vec F S1x32 .f32) (q : Vec F S1x32 .f32) : Vec F S1x32 .f32 :=
  View.canon [⟨r5_b, k5_pay1 (View.ld q r5_b) (k5_pay6 (View.ld xa r5_a) (View.ld xb r5_a) (View.ld xc r5_w) (View.ld xd r5_w) (View.ld xe r5_b))⟩]

/-- The zero rows the first point starts the two running sums from. -/
def zero5_s : Vec F S1x32 .f32 := View.canon [⟨r5_b, k5_pay2⟩]
def zero5_q : Vec F S1x32 .f32 := View.canon [⟨r5_b, k5_pay3⟩]

/-- Windows 6 and 7 after the body: the running sums as read back from the scratch rows. -/
def out5_6 (s : Vec F S1x32 .f32) : Vec F S1x32 .f32 := View.canon [⟨r5_b, View.ld s r5_b⟩]

/-- Each buffer is written by one store of its whole shape, which covers it. -/
theorem cover5_y (p : Vec F S5000x32 .f32) (y : S5000x32.Idx) :
    ∃ pc ∈ ([⟨r5_y, p⟩] : List (View.Piece (Elt F) S5000x32 .f32)), y ∈ pc.1.set :=
  View.cover_of_tiled [⟨r5_y, p⟩] S5000x32.size (by rfl) y
theorem cover5_b (p : Vec F S1x32 .f32) (y : S1x32.Idx) :
    ∃ pc ∈ ([⟨r5_b, p⟩] : List (View.Piece (Elt F) S1x32 .f32)), y ∈ pc.1.set :=
  View.cover_of_tiled [⟨r5_b, p⟩] S1x32.size (by rfl) y

/-- A last write that covers the shape alone decides what is read back. -/
theorem read_cons_cover5 {s : Shape} {e : EltTy} {κ : Kind} {sp : Space} (v : View sig κ sp s e) (f : v.ty.Contents (Elt F)) (r : Rect s) (w : r.shape.Idx → Elt F e)
    (L : List (View.Piece (Elt F) s e)) (h : ∀ y, ∃ pc ∈ ([⟨r, w⟩] : List (View.Piece (Elt F) s e)), y ∈ pc.1.set) :
    v.read (Elt F) (v.writes (Elt F) f (⟨r, w⟩ :: L)) = View.canon [⟨r, w⟩] := by
  funext y
  obtain ⟨pc, hm, hy⟩ := h y
  obtain rfl := List.mem_singleton.mp hm
  obtain ⟨x, rfl⟩ : ∃ x, r.emb x = y := r.exists_idx_of_mem hy
  rw [View.read_writes_cons_emb, View.canon_cons_emb]

/-- Every index of a row lies in the row's one rectangle. -/
theorem mem5_b (y : S1x32.Idx) : y ∈ (r5_b).set := by
  obtain ⟨pc, hm, hy⟩ := View.cover_of_tiled (Val := fun _ => Unit) (e := .f32) [⟨r5_b, fun _ => ()⟩] S1x32.size (by rfl) y
  obtain rfl := List.mem_singleton.mp hm
  exact hy

/-- Under a last write that covers the row, earlier writes do not show. -/
theorem canon_cons_cover5 (w : (r5_b).shape.Idx → Elt F .f32) (L : List (View.Piece (Elt F) S1x32 .f32)) :
    View.canon (⟨r5_b, w⟩ :: L) = View.canon [⟨r5_b, w⟩] := by
  funext y
  obtain ⟨x, rfl⟩ : ∃ x, (r5_b).emb x = y := (r5_b).exists_idx_of_mem (mem5_b y)
  rw [View.canon_cons_emb, View.canon_cons_emb]

/-- A list of writes whose last covers the row covers it. -/
theorem cover5_cons (w : Vec F S1x32 .f32) (L : List (View.Piece (Elt F) S1x32 .f32)) (y : S1x32.Idx) :
    ∃ pc ∈ (⟨r5_b, w⟩ :: L : List (View.Piece (Elt F) S1x32 .f32)), y ∈ pc.1.set := by
  obtain ⟨pc, hm, hy⟩ := cover5_b w y
  exact ⟨pc, List.mem_cons.mpr (Or.inl (List.mem_singleton.mp hm)), hy⟩

/-- A row written once and read back through another buffer's store: the copy holds what was written. -/
theorem pure5_rb {κ κ' : Kind} {sp sp' : Space} (v : View sig κ sp S1x32 .f32) (v' : View sig κ' sp' S1x32 .f32) (f : v'.ty.Contents (Elt F))
    (w : (r5_b).shape.Idx → Elt F .f32) :
    v'.read (Elt F) (v'.writes (Elt F) f [⟨r5_b, v.readCov [⟨r5_b, w⟩] r5_b⟩]) = out5_6 (View.canon [⟨r5_b, w⟩]) := by
  rw [View.read_writes_eq_canon _ _ _ (cover5_b _), View.readCov_eq_canon_ld v _ r5_b (cover5_b _)]
  rfl

/-- A row zeroed (`p`), read back, and rewritten as `g` of what was read: it holds `g` of the zero row. -/
theorem pure5_acc0 {κ : Kind} {sp : Space} (v : View sig κ sp S1x32 .f32) (f : v.ty.Contents (Elt F))
    (g : ((r5_b).shape.Idx → Elt F .f32) → ((r5_b).shape.Idx → Elt F .f32)) (p : (r5_b).shape.Idx → Elt F .f32) :
    v.read (Elt F) (v.writes (Elt F) f [⟨r5_b, g (v.readCov [⟨r5_b, p⟩] r5_b)⟩, ⟨r5_b, p⟩])
      = View.canon [⟨r5_b, g (View.ld (View.canon [⟨r5_b, p⟩]) r5_b)⟩] := by
  rw [read_cons_cover5 v f r5_b _ _ (cover5_b _), View.readCov_eq_canon_ld v _ r5_b (cover5_b _)]

/-- The same row read back through another buffer's store. -/
theorem pure5_rb0 {κ κ' : Kind} {sp sp' : Space} (v : View sig κ sp S1x32 .f32) (v' : View sig κ' sp' S1x32 .f32) (f : v'.ty.Contents (Elt F))
    (g : ((r5_b).shape.Idx → Elt F .f32) → ((r5_b).shape.Idx → Elt F .f32)) (p : (r5_b).shape.Idx → Elt F .f32) :
    v'.read (Elt F) (v'.writes (Elt F) f [⟨r5_b, v.readCov [⟨r5_b, g (v.readCov [⟨r5_b, p⟩] r5_b)⟩, ⟨r5_b, p⟩] r5_b⟩])
      = out5_6 (View.canon [⟨r5_b, g (View.ld (View.canon [⟨r5_b, p⟩]) r5_b)⟩]) := by
  rw [View.read_writes_eq_canon _ _ _ (cover5_b _),
    View.readCov_eq_canon_ld v _ r5_b (cover5_cons _ _),
    canon_cons_cover5 _ [⟨r5_b, p⟩], View.readCov_eq_canon_ld v _ r5_b (cover5_b _)]
  rfl
/-! ## The body's triple, at a point after the first and at the first -/

/-- The scf.if's condition: the grid coordinate is 0. -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

set_option maxHeartbeats 4000000 in
/-- At a point after the first: the scratch rows hold the running sums `s`, `q` of the points before; the body leaves
    the block of Y in window 5, the new running sums in the scratch rows and copies of them in windows 6 and 7. -/
theorem sound_kernel5_next (c : Dev nD) (E : Set ℕ) (i : grid5.Coords) (ma : Memref sig .tc .vmem S5000x32 .f32) (hma : ma.IsWhole) (mb : Memref sig .tc .vmem S5000x32 .f32) (hmb : mb.IsWhole) (mc : Memref sig .tc .vmem S32x32 .f32) (hmc : mc.IsWhole) (md : Memref sig .tc .vmem S32x32 .f32) (hmd : md.IsWhole) (me : Memref sig .tc .vmem S1x32 .f32) (hme : me.IsWhole) (my : Memref sig .tc .vmem S5000x32 .f32) (hmy : my.IsWhole) (mo : Memref sig .tc .vmem S1x32 .f32) (hmo : mo.IsWhole) (mp : Memref sig .tc .vmem S1x32 .f32) (hmp : mp.IsWhole) (ms : Memref sig .tc .vmem S1x32 .f32) (hms : ms.IsWhole) (mq : Memref sig .tc .vmem S1x32 .f32) (hmq : mq.IsWhole) (hc : ¬cond5_0 i)
    (xa xb : Vec F S5000x32 .f32) (xc xd : Vec F S32x32 .f32) (xe : Vec F S1x32 .f32) (s q : Vec F S1x32 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ owns (c : Thread nD τ) ms fullShare s ∗ owns (c : Thread nD τ) mq fullShare q
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe
            ∗ owns (c : Thread nD τ) my fullShare (out5_5 xa xb xc xd xe)
            ∗ owns (c : Thread nD τ) mo fullShare (out5_6 (sum5 xa xb xc xd xe s))
            ∗ owns (c : Thread nD τ) mp fullShare (out5_6 (sq5 xa xb xc xd xe q))
            ∗ owns (c : Thread nD τ) ms fullShare (sum5 xa xb xc xd xe s)
            ∗ owns (c : Thread nD τ) mq fullShare (sq5 xa xb xc xd xe q)) -∗ K ⟨⟩))
      ⊢ wp frame (wpE (defs₀ (F := F)) Variants.none c none) E (cc5__linear_stats_kernel i ma hma mb hmb mc hmc md hmd me hme my hmy mo hmo mp hmp ms hms mq hmq) K := by
  simp only [cc5__linear_stats_kernel_eq_skeleton]; unfold cc5__linear_stats_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%fs, %hfs, Hs⟩, ⟨%fq, %hfq, Hq⟩, Hk⟩
  subst hfa hfb hfc hfd hfe hfs hfq
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover5_y _)
  isplitl [Ho]
  · iexists _; isplitr
    swap; · iexact Ho
    ipureintro
    refine (View.read_writes_eq_canon _ _ _ (cover5_b _)).trans ?_
    show View.canon [⟨r5_b, View.readCov ms.view [⟨r5_b, _⟩] r5_b⟩] = _
    rw [View.readCov_eq_canon_ld _ _ _ (cover5_b _)]
    rfl
  isplitl [Hp]
  · iexists _; isplitr
    swap; · iexact Hp
    ipureintro
    refine (View.read_writes_eq_canon _ _ _ (cover5_b _)).trans ?_
    show View.canon [⟨r5_b, View.readCov mq.view [⟨r5_b, _⟩] r5_b⟩] = _
    rw [View.readCov_eq_canon_ld _ _ _ (cover5_b _)]
    rfl
  isplitl [Hs]
  · iexists _; isplitr
    swap; · iexact Hs
    ipureintro
    exact View.read_writes_eq_canon _ _ _ (cover5_b _)
  iexists _; isplitr
  swap; · iexact Hq
  ipureintro
  exact View.read_writes_eq_canon _ _ _ (cover5_b _)
set_option maxHeartbeats 4000000 in
/-- At the first point: the scratch rows hold anything; the body zeroes them, then does as at any other point. -/
theorem sound_kernel5_first (c : Dev nD) (E : Set ℕ) (i : grid5.Coords) (ma : Memref sig .tc .vmem S5000x32 .f32) (hma : ma.IsWhole) (mb : Memref sig .tc .vmem S5000x32 .f32) (hmb : mb.IsWhole) (mc : Memref sig .tc .vmem S32x32 .f32) (hmc : mc.IsWhole) (md : Memref sig .tc .vmem S32x32 .f32) (hmd : md.IsWhole) (me : Memref sig .tc .vmem S1x32 .f32) (hme : me.IsWhole) (my : Memref sig .tc .vmem S5000x32 .f32) (hmy : my.IsWhole) (mo : Memref sig .tc .vmem S1x32 .f32) (hmo : mo.IsWhole) (mp : Memref sig .tc .vmem S1x32 .f32) (hmp : mp.IsWhole) (ms : Memref sig .tc .vmem S1x32 .f32) (hms : ms.IsWhole) (mq : Memref sig .tc .vmem S1x32 .f32) (hmq : mq.IsWhole) (hc : cond5_0 i)
    (xa xb : Vec F S5000x32 .f32) (xc xd : Vec F S32x32 .f32) (xe : Vec F S1x32 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ (∃ d, owns (c : Thread nD τ) ms fullShare d) ∗ (∃ d, owns (c : Thread nD τ) mq fullShare d)
        ∗ (iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
            ∗ owns (c : Thread nD τ) my fullShare (out5_5 xa xb xc xd xe)
            ∗ owns (c : Thread nD τ) mo fullShare (out5_6 (sum5 xa xb xc xd xe zero5_s))
            ∗ owns (c : Thread nD τ) mp fullShare (out5_6 (sq5 xa xb xc xd xe zero5_q))
            ∗ owns (c : Thread nD τ) ms fullShare (sum5 xa xb xc xd xe zero5_s)
            ∗ owns (c : Thread nD τ) mq fullShare (sq5 xa xb xc xd xe zero5_q)) -∗ K ⟨⟩))
      ⊢ wp frame (wpE (defs₀ (F := F)) Variants.none c none) E (cc5__linear_stats_kernel i ma hma mb hmb mc hmc md hmd me hme my hmy mo hmo mp hmp ms hms mq hmq) K := by
  simp only [cc5__linear_stats_kernel_eq_skeleton]; unfold cc5__linear_stats_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%ds, %fs, -, Hs⟩, ⟨%dq, %fq, -, Hq⟩, Hk⟩
  subst hfa hfb hfc hfd hfe
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover5_y _)
  isplitl [Ho]
  · iexists _; isplitr
    swap; · iexact Ho
    ipureintro
    exact pure5_rb0 ms.view mo.view _ (fun z => k5_pay5 _ _ _ _ _ z) k5_pay2
  isplitl [Hp]
  · iexists _; isplitr
    swap; · iexact Hp
    ipureintro
    exact pure5_rb0 mq.view mp.view _ (fun z => k5_pay1 z (k5_pay6 _ _ _ _ _)) k5_pay3
  isplitl [Hs]
  · iexists _; isplitr
    swap; · iexact Hs
    ipureintro
    exact pure5_acc0 ms.view _ (fun z => k5_pay5 _ _ _ _ _ z) k5_pay2
  iexists _; isplitr
  swap; · iexact Hq
  ipureintro
  exact pure5_acc0 mq.view _ (fun z => k5_pay1 z (k5_pay6 _ _ _ _ _)) k5_pay3

/-! ## The running sums, point by point -/

/-- What the two scratch rows hold after the body at position `n`: (the column sums, the column sums of squares) of
    the blocks of Y at positions `0 … n`, added block after block from the zero rows. -/
def accAt5 (c : Dev nD) : (n : ℕ) → n < cfg5.N → Vec F S1x32 .f32 × Vec F S1x32 .f32
  | 0, hn => (sum5 (iblk5 V c 0 ⟨0, hn⟩) (iblk5 V c 1 ⟨0, hn⟩) (iblk5 V c 2 ⟨0, hn⟩) (iblk5 V c 3 ⟨0, hn⟩) (iblk5 V c 4 ⟨0, hn⟩) zero5_s, sq5 (iblk5 V c 0 ⟨0, hn⟩) (iblk5 V c 1 ⟨0, hn⟩) (iblk5 V c 2 ⟨0, hn⟩) (iblk5 V c 3 ⟨0, hn⟩) (iblk5 V c 4 ⟨0, hn⟩) zero5_q)
  | n + 1, hn => (sum5 (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (accAt5 c n (Nat.lt_of_succ_lt hn)).1,
      sq5 (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (accAt5 c n (Nat.lt_of_succ_lt hn)).2)

theorem accAt5_zero (c : Dev nD) (t : Fin cfg5.N) (hz : t.val = 0) :
    accAt5 V c t.val t.isLt = (sum5 (iblk5 V c 0 t) (iblk5 V c 1 t) (iblk5 V c 2 t) (iblk5 V c 3 t) (iblk5 V c 4 t) zero5_s, sq5 (iblk5 V c 0 t) (iblk5 V c 1 t) (iblk5 V c 2 t) (iblk5 V c 3 t) (iblk5 V c 4 t) zero5_q) := by
  obtain ⟨n, hn⟩ := t
  cases n with
  | zero => rfl
  | succ n => exact absurd hz (Nat.succ_ne_zero n)

theorem accAt5_pos (c : Dev nD) (t : Fin cfg5.N) (hz : t.val ≠ 0) :
    accAt5 V c t.val t.isLt = (sum5 (iblk5 V c 0 t) (iblk5 V c 1 t) (iblk5 V c 2 t) (iblk5 V c 3 t) (iblk5 V c 4 t) (accAt5 V c (t.val - 1) (Nat.lt_of_le_of_lt (Nat.sub_le _ _) t.isLt)).1,
      sq5 (iblk5 V c 0 t) (iblk5 V c 1 t) (iblk5 V c 2 t) (iblk5 V c 3 t) (iblk5 V c 4 t) (accAt5 V c (t.val - 1) (Nat.lt_of_le_of_lt (Nat.sub_le _ _) t.isLt)).2) := by
  obtain ⟨n, hn⟩ := t
  cases n with
  | zero => exact absurd rfl hz
  | succ n => rfl

/-! ## The region's invariant -/

/-- The two scratch rows as memrefs. -/
abbrev sc5_s : Memref sig .tc .vmem S1x32 .f32 := Memref.whole cc5_scratch0
abbrev sc5_q : Memref sig .tc .vmem S1x32 .f32 := Memref.whole cc5_scratch1

/-- The other scoped buffers of the core, unopened. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The class's invariant with the two scratch rows taken out of the scoped rest, each at some contents. -/
theorem PhiA5_eq (c : Dev nD) :
    (Pipeline.ΦA spec5 c : sProp 𝕄)
      = iprop(iprop(iprop((∃ d, owns (c : Thread nD τ) sc5_s fullShare d) ∗ (∃ d, owns (c : Thread nD τ) sc5_q fullShare d)) ∗ rest5 c) ∗ (∃ r, prngReg c r)) := by
  unfold Pipeline.ΦA; rw [scopedRest5_split]; simp only [owns_whole]; try rfl

/-- The invariant before position `n`: before the first point the class's (the scratch rows at anything); afterwards the
    scratch rows at the running sums of the points before, the other scoped buffers and the generator register at anything. -/
def Phi5 (c : Dev nD) : (n : ℕ) → n ≤ cfg5.N → sProp 𝕄
  | 0, _ => Pipeline.ΦA spec5 c
  | n + 1, hn => iprop(iprop(iprop(owns (c : Thread nD τ) sc5_s fullShare (accAt5 V c n hn).1 ∗ owns (c : Thread nD τ) sc5_q fullShare (accAt5 V c n hn).2) ∗ rest5 c) ∗ (∃ r, prngReg c r))

theorem Phi5_at_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(iprop(iprop(owns (c : Thread nD τ) sc5_s fullShare (accAt5 V c n hn).1 ∗ owns (c : Thread nD τ) sc5_q fullShare (accAt5 V c n hn).2) ∗ rest5 c) ∗ (∃ r, prngReg c r)) := rfl

theorem Phi5_pos (c : Dev nD) (n : ℕ) (h : n ≤ cfg5.N) (hz : n ≠ 0) :
    Phi5 V c n h = iprop(iprop(iprop(owns (c : Thread nD τ) sc5_s fullShare (accAt5 V c (n - 1) (by omega)).1 ∗ owns (c : Thread nD τ) sc5_q fullShare (accAt5 V c (n - 1) (by omega)).2) ∗ rest5 c) ∗ (∃ r, prngReg c r)) := by
  cases n with
  | zero => exact absurd rfl hz
  | succ n => rfl

/-! ## The pipeline's proof data -/

/-- The proof data of pipeline 5 on core `c`: the arrays at the entry contents; after the body at point `t` each input's
    buffer at its block, window 5 at the block of Y, windows 6 and 7 at the running sums; the invariant `Phi5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
    | ⟨6, _⟩ => out5_6 (accAt5 V c t.val t.isLt).1
    | ⟨7, _⟩ => out5_6 (accAt5 V c t.val t.isLt).2
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]
theorem after5_6 (c : Dev nD) (t : Fin cfg5.N) : (dat5 V c).after 6 t = out5_6 (accAt5 V c t.val t.isLt).1 := by dsimp only [dat5]
theorem after5_7 (c : Dev nD) (t : Fin cfg5.N) : (dat5 V c).after 7 t = out5_6 (accAt5 V c t.val t.isLt).2 := by dsimp only [dat5]

theorem Phi5_castSucc (c : Dev nD) (t : Fin cfg5.N) :
    (dat5 V c).Φ t.castSucc = Phi5 V c t.val (Nat.le_of_lt t.isLt) := by
  dsimp only [dat5]; simp only [Fin.coe_castSucc]

/-- Before the first point the invariant is the class's. -/
theorem Phi5_zero (c : Dev nD) : (dat5 V c).Φ 0 = Pipeline.ΦA spec5 c := rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 4000000 in
/-- The body at any point: the inputs' memrefs hold their blocks; the invariant hands the body the scratch rows — at
    anything at the first point, where the body zeroes them, else at the running sums the point before left — and takes
    them back at this point's running sums; the other scoped buffers, the generator register and the core's debt pass
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl,
    show (dat5 V c).Φ t.succ = Phi5 V c (t.val + 1) t.isLt from rfl, Phi5_succ,
    after5_0, after5_1, after5_2, after5_3, after5_4, after5_5, after5_6, after5_7, Phi5_castSucc]
  by_cases hz : t.val = 0
  · rw [Phi5_at_zero V c _ _ hz, PhiA5_eq, accAt5_zero V c t hz]
    iintro ⟨⟨⟨⟨⟨%ds, HS⟩, ⟨%dq, HQ⟩⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel5_first c Set.univ (grid5.coords t) _ _ _ _ _ _ _ _ _ _ _ _ _ _ _ _ _ _ _ _ ((hcond5_0 t).mpr hz) (iblk5 V c 0 t) (iblk5 V c 1 t) (iblk5 V c 2 t) (iblk5 V c 3 t) (iblk5 V c 4 t) _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexists _; iexact HS
    isplitl [HQ]; · iexists _; iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp
  · rw [Phi5_pos V c _ _ hz, accAt5_pos V c t hz]
    iintro ⟨⟨⟨⟨HS, HQ⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel5_next c Set.univ (grid5.coords t) _ _ _ _ _ _ _ _ _ _ _ _ _ _ _ _ _ _ _ _ (fun h => hz ((hcond5_0 t).mp h)) (iblk5 V c 0 t) (iblk5 V c 1 t) (iblk5 V c 2 t) (iblk5 V c 3 t) (iblk5 V c 4 t) _ _ _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexact HS
    isplitl [HQ]; · iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- After any point the invariant gives the class's back: what the scratch rows hold is forgotten. -/
theorem Phi5_out (c : Dev nD) (t : Fin (cfg5.N + 1)) (ht : t.val ≠ 0) : (dat5 V c).Φ t ⊢ Pipeline.ΦA spec5 c := by
  rw [show (dat5 V c).Φ t = Phi5 V c t.val (Nat.le_of_lt_succ t.isLt) from rfl, Phi5_pos V c _ _ ht, PhiA5_eq]
  iintro ⟨⟨⟨HS, HQ⟩, HR⟩, Hg⟩
  isplitl [HS HQ HR]
  · isplitl [HS HQ]
    · isplitl [HS]
      · iexists _; iexact HS
      iexists _; iexact HQ
    iexact HR
  iexact Hg

theorem Phi5_last (c : Dev nD) : (dat5 V c).Φ (Fin.last cfg5.N) ⊢ Pipeline.ΦA spec5 c :=
  Phi5_out V c _ (by rw [Fin.val_last]; have : cfg5.N = 20 := N_5; omega)

end Cert.Kernel.Hand

end
-- ==== Proof.KR6.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: batch normalisation then ELU, pointwise on one row block per grid point

Windows: 0 = y (row block i), 1 = mean, 2 = variance, 3 = gamma, 4 = beta (one row each, whole at every point),
5 = the output (row block i). -/

/-- Window `w`'s block at point `t`, read off its array at the entry contents `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds its block at every point, whether the block was moved there at this
    point or at an earlier one with the same block index. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_y : Rect S5000x128 := Rect.unit (s := S5000x128) ![0, 0] S5000x128.size inb_S5000x128_S5000x128_0_0
abbrev r6_p : Rect S1x128 := Rect.unit (s := S1x128) ![0, 0] S1x128.size inb_S1x128_S1x128_0_0

/-- The output block after the body: ELU of gamma · (y − mean) · rsqrt(variance + ε) + beta, stored over the whole
    buffer (the body reads the variance before the mean). -/
def out6_5 (x0 : Vec F S5000x128 .f32) (x1 x2 x3 x4 : Vec F S1x128 .f32) : Vec F S5000x128 .f32 :=
  View.canon [⟨r6_y, k6_pay1 (View.ld x0 r6_y) (View.ld x2 r6_p) (View.ld x1 r6_p) (View.ld x3 r6_p) (View.ld x4 r6_p)⟩]

/-- The one store is the whole buffer, so it covers it. -/
theorem cover6_5 (p0 : Vec F S5000x128 .f32) (y : S5000x128.Idx) :
    ∃ pc ∈ ([⟨r6_y, p0⟩] : List (View.Piece (Elt F) S5000x128 .f32)), y ∈ pc.1.set :=
  View.cover_of_tiled [⟨r6_y, p0⟩] S5000x128.size (by rfl) y

/-! ## The body's triple -/

set_option maxHeartbeats 1000000 in
/-- The body on whole staging memrefs, the inputs' at read contents `x0 … x4` and the output's at anything, runs to
    the continuation holding the inputs' as they were and the output's at `out6_5 x0 … x4`. -/
theorem sound_kernel6 (c : Dev nD) (E : Set ℕ) (i : grid6.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__bn_elu_kernel i arg1 harg1 arg2 harg2 arg3 harg3 arg4 harg4 arg5 harg5 arg6 harg6) K := by
  simp only [cc6__bn_elu_kernel_eq_skeleton]; unfold cc6__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of region 6 on core `c`: the arrays as the region finds them; after the body at point `t`
    each input's buffer at its block and the output's at `out6_5` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem Φ_eq6 (c : Dev nD) (i : Fin (cfg6.N + 1)) : (dat6 V c).Φ i = Pipeline.ΦA spec6 c := rfl

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KR7.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 7: Y = agg · W_rel + x · W_root + b on one row block of 5000 rows per grid point, with the column
sums of Y and of Y² accumulated over the grid's points

Windows: 0 = agg (row block i), 1 = x (row block i), 2 = W_rel, 3 = W_root, 4 = b (each whole at every point),
5 = Y (row block i), 6 = the column sums, 7 = the column sums of squares (one block each, written back after the
last point). Two scratch rows carry the running sums from point to point; the first point zeroes them. -/

/-- Window `w`'s block at point `t`, read off its array at the entry contents `V`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_a : Rect S5000x32 := Rect.unit (s := S5000x32) ![0, 0] S5000x32.size inb_S5000x32_S5000x32_0_0
abbrev r7_w : Rect S32x64 := Rect.unit (s := S32x64) ![0, 0] S32x64.size inb_S32x64_S32x64_0_0
abbrev r7_b : Rect S1x64 := Rect.unit (s := S1x64) ![0, 0] S1x64.size inb_S1x64_S1x64_0_0
abbrev r7_y : Rect S5000x64 := Rect.unit (s := S5000x64) ![0, 0] S5000x64.size inb_S5000x64_S5000x64_0_0

/-! ## What the body leaves -/

/-- The block of Y: agg · W_rel + x · W_root + b on the point's rows (operands rounded to bf16, products summed in f32). -/
def lin7 (xa xb : Vec F S5000x32 .f32) (xc xd : Vec F S32x64 .f32) (xe : Vec F S1x64 .f32) : Vec F S5000x64 .f32 :=
  k7_pay4 (View.ld xa r7_a) (View.ld xb r7_a) (View.ld xc r7_w) (View.ld xd r7_w) (View.ld xe r7_b)

/-- Window 5 after the body: the block of Y. -/
def out7_5 (xa xb : Vec F S5000x32 .f32) (xc xd : Vec F S32x64 .f32) (xe : Vec F S1x64 .f32) : Vec F S5000x64 .f32 :=
  View.canon [⟨r7_y, lin7 xa xb xc xd xe⟩]

/-- The running column sums after a point: the sums so far `s` plus the column sums of the point's block of Y. -/
def sum7 (xa xb : Vec F S5000x32 .f32) (xc xd : Vec F S32x64 .f32) (xe : Vec F S1x64 .f32) (s : Vec F S1x64 .f32) : Vec F S1x64 .f32 :=
  View.canon [⟨r7_b, k7_pay5 (View.ld xa r7_a) (View.ld xb r7_a) (View.ld xc r7_w) (View.ld xd r7_w) (View.ld xe r7_b) (View.ld s r7_b)⟩]

/-- The running column sums of squares after a point: `q` plus the column sums of the squares of the point's block of Y. -/
def sq7 (xa xb : Vec F S5000x32 .f32) (xc xd : Vec F S32x64 .f32) (xe : Vec F S1x64 .f32) (q : Vec F S1x64 .f32) : Vec F S1x64 .f32 :=
  View.canon [⟨r7_b, k7_pay1 (View.ld q r7_b) (k7_pay6 (View.ld xa r7_a) (View.ld xb r7_a) (View.ld xc r7_w) (View.ld xd r7_w) (View.ld xe r7_b))⟩]

/-- The zero rows the first point starts the two running sums from. -/
def zero7_s : Vec F S1x64 .f32 := View.canon [⟨r7_b, k7_pay2⟩]
def zero7_q : Vec F S1x64 .f32 := View.canon [⟨r7_b, k7_pay3⟩]

/-- Windows 6 and 7 after the body: the running sums as read back from the scratch rows. -/
def out7_6 (s : Vec F S1x64 .f32) : Vec F S1x64 .f32 := View.canon [⟨r7_b, View.ld s r7_b⟩]

/-- Each buffer is written by one store of its whole shape, which covers it. -/
theorem cover7_y (p : Vec F S5000x64 .f32) (y : S5000x64.Idx) :
    ∃ pc ∈ ([⟨r7_y, p⟩] : List (View.Piece (Elt F) S5000x64 .f32)), y ∈ pc.1.set :=
  View.cover_of_tiled [⟨r7_y, p⟩] S5000x64.size (by rfl) y
theorem cover7_b (p : Vec F S1x64 .f32) (y : S1x64.Idx) :
    ∃ pc ∈ ([⟨r7_b, p⟩] : List (View.Piece (Elt F) S1x64 .f32)), y ∈ pc.1.set :=
  View.cover_of_tiled [⟨r7_b, p⟩] S1x64.size (by rfl) y

/-- A last write that covers the shape alone decides what is read back. -/
theorem read_cons_cover7 {s : Shape} {e : EltTy} {κ : Kind} {sp : Space} (v : View sig κ sp s e) (f : v.ty.Contents (Elt F)) (r : Rect s) (w : r.shape.Idx → Elt F e)
    (L : List (View.Piece (Elt F) s e)) (h : ∀ y, ∃ pc ∈ ([⟨r, w⟩] : List (View.Piece (Elt F) s e)), y ∈ pc.1.set) :
    v.read (Elt F) (v.writes (Elt F) f (⟨r, w⟩ :: L)) = View.canon [⟨r, w⟩] := by
  funext y
  obtain ⟨pc, hm, hy⟩ := h y
  obtain rfl := List.mem_singleton.mp hm
  obtain ⟨x, rfl⟩ : ∃ x, r.emb x = y := r.exists_idx_of_mem hy
  rw [View.read_writes_cons_emb, View.canon_cons_emb]

/-- Every index of a row lies in the row's one rectangle. -/
theorem mem7_b (y : S1x64.Idx) : y ∈ (r7_b).set := by
  obtain ⟨pc, hm, hy⟩ := View.cover_of_tiled (Val := fun _ => Unit) (e := .f32) [⟨r7_b, fun _ => ()⟩] S1x64.size (by rfl) y
  obtain rfl := List.mem_singleton.mp hm
  exact hy

/-- Under a last write that covers the row, earlier writes do not show. -/
theorem canon_cons_cover7 (w : (r7_b).shape.Idx → Elt F .f32) (L : List (View.Piece (Elt F) S1x64 .f32)) :
    View.canon (⟨r7_b, w⟩ :: L) = View.canon [⟨r7_b, w⟩] := by
  funext y
  obtain ⟨x, rfl⟩ : ∃ x, (r7_b).emb x = y := (r7_b).exists_idx_of_mem (mem7_b y)
  rw [View.canon_cons_emb, View.canon_cons_emb]

/-- A list of writes whose last covers the row covers it. -/
theorem cover7_cons (w : Vec F S1x64 .f32) (L : List (View.Piece (Elt F) S1x64 .f32)) (y : S1x64.Idx) :
    ∃ pc ∈ (⟨r7_b, w⟩ :: L : List (View.Piece (Elt F) S1x64 .f32)), y ∈ pc.1.set := by
  obtain ⟨pc, hm, hy⟩ := cover7_b w y
  exact ⟨pc, List.mem_cons.mpr (Or.inl (List.mem_singleton.mp hm)), hy⟩

/-- A row written once and read back through another buffer's store: the copy holds what was written. -/
theorem pure7_rb {κ κ' : Kind} {sp sp' : Space} (v : View sig κ sp S1x64 .f32) (v' : View sig κ' sp' S1x64 .f32) (f : v'.ty.Contents (Elt F))
    (w : (r7_b).shape.Idx → Elt F .f32) :
    v'.read (Elt F) (v'.writes (Elt F) f [⟨r7_b, v.readCov [⟨r7_b, w⟩] r7_b⟩]) = out7_6 (View.canon [⟨r7_b, w⟩]) := by
  rw [View.read_writes_eq_canon _ _ _ (cover7_b _), View.readCov_eq_canon_ld v _ r7_b (cover7_b _)]
  rfl

/-- A row zeroed (`p`), read back, and rewritten as `g` of what was read: it holds `g` of the zero row. -/
theorem pure7_acc0 {κ : Kind} {sp : Space} (v : View sig κ sp S1x64 .f32) (f : v.ty.Contents (Elt F))
    (g : ((r7_b).shape.Idx → Elt F .f32) → ((r7_b).shape.Idx → Elt F .f32)) (p : (r7_b).shape.Idx → Elt F .f32) :
    v.read (Elt F) (v.writes (Elt F) f [⟨r7_b, g (v.readCov [⟨r7_b, p⟩] r7_b)⟩, ⟨r7_b, p⟩])
      = View.canon [⟨r7_b, g (View.ld (View.canon [⟨r7_b, p⟩]) r7_b)⟩] := by
  rw [read_cons_cover7 v f r7_b _ _ (cover7_b _), View.readCov_eq_canon_ld v _ r7_b (cover7_b _)]

/-- The same row read back through another buffer's store. -/
theorem pure7_rb0 {κ κ' : Kind} {sp sp' : Space} (v : View sig κ sp S1x64 .f32) (v' : View sig κ' sp' S1x64 .f32) (f : v'.ty.Contents (Elt F))
    (g : ((r7_b).shape.Idx → Elt F .f32) → ((r7_b).shape.Idx → Elt F .f32)) (p : (r7_b).shape.Idx → Elt F .f32) :
    v'.read (Elt F) (v'.writes (Elt F) f [⟨r7_b, v.readCov [⟨r7_b, g (v.readCov [⟨r7_b, p⟩] r7_b)⟩, ⟨r7_b, p⟩] r7_b⟩])
      = out7_6 (View.canon [⟨r7_b, g (View.ld (View.canon [⟨r7_b, p⟩]) r7_b)⟩]) := by
  rw [View.read_writes_eq_canon _ _ _ (cover7_b _),
    View.readCov_eq_canon_ld v _ r7_b (cover7_cons _ _),
    canon_cons_cover7 _ [⟨r7_b, p⟩], View.readCov_eq_canon_ld v _ r7_b (cover7_b _)]
  rfl
/-! ## The body's triple, at a point after the first and at the first -/

/-- The scf.if's condition: the grid coordinate is 0. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)

set_option maxHeartbeats 4000000 in
/-- At a point after the first: the scratch rows hold the running sums `s`, `q` of the points before; the body leaves
    the block of Y in window 5, the new running sums in the scratch rows and copies of them in windows 6 and 7. -/
theorem sound_kernel7_next (c : Dev nD) (E : Set ℕ) (i : grid7.Coords) (ma : Memref sig .tc .vmem S5000x32 .f32) (hma : ma.IsWhole) (mb : Memref sig .tc .vmem S5000x32 .f32) (hmb : mb.IsWhole) (mc : Memref sig .tc .vmem S32x64 .f32) (hmc : mc.IsWhole) (md : Memref sig .tc .vmem S32x64 .f32) (hmd : md.IsWhole) (me : Memref sig .tc .vmem S1x64 .f32) (hme : me.IsWhole) (my : Memref sig .tc .vmem S5000x64 .f32) (hmy : my.IsWhole) (mo : Memref sig .tc .vmem S1x64 .f32) (hmo : mo.IsWhole) (mp : Memref sig .tc .vmem S1x64 .f32) (hmp : mp.IsWhole) (ms : Memref sig .tc .vmem S1x64 .f32) (hms : ms.IsWhole) (mq : Memref sig .tc .vmem S1x64 .f32) (hmq : mq.IsWhole) (hc : ¬cond7_0 i)
    (xa xb : Vec F S5000x32 .f32) (xc xd : Vec F S32x64 .f32) (xe : Vec F S1x64 .f32) (s q : Vec F S1x64 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ owns (c : Thread nD τ) ms fullShare s ∗ owns (c : Thread nD τ) mq fullShare q
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe
            ∗ owns (c : Thread nD τ) my fullShare (out7_5 xa xb xc xd xe)
            ∗ owns (c : Thread nD τ) mo fullShare (out7_6 (sum7 xa xb xc xd xe s))
            ∗ owns (c : Thread nD τ) mp fullShare (out7_6 (sq7 xa xb xc xd xe q))
            ∗ owns (c : Thread nD τ) ms fullShare (sum7 xa xb xc xd xe s)
            ∗ owns (c : Thread nD τ) mq fullShare (sq7 xa xb xc xd xe q)) -∗ K ⟨⟩))
      ⊢ wp frame (wpE (defs₀ (F := F)) Variants.none c none) E (cc7__linear_stats_kernel i ma hma mb hmb mc hmc md hmd me hme my hmy mo hmo mp hmp ms hms mq hmq) K := by
  simp only [cc7__linear_stats_kernel_eq_skeleton]; unfold cc7__linear_stats_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%fs, %hfs, Hs⟩, ⟨%fq, %hfq, Hq⟩, Hk⟩
  subst hfa hfb hfc hfd hfe hfs hfq
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover7_y _)
  isplitl [Ho]
  · iexists _; isplitr
    swap; · iexact Ho
    ipureintro
    refine (View.read_writes_eq_canon _ _ _ (cover7_b _)).trans ?_
    show View.canon [⟨r7_b, View.readCov ms.view [⟨r7_b, _⟩] r7_b⟩] = _
    rw [View.readCov_eq_canon_ld _ _ _ (cover7_b _)]
    rfl
  isplitl [Hp]
  · iexists _; isplitr
    swap; · iexact Hp
    ipureintro
    refine (View.read_writes_eq_canon _ _ _ (cover7_b _)).trans ?_
    show View.canon [⟨r7_b, View.readCov mq.view [⟨r7_b, _⟩] r7_b⟩] = _
    rw [View.readCov_eq_canon_ld _ _ _ (cover7_b _)]
    rfl
  isplitl [Hs]
  · iexists _; isplitr
    swap; · iexact Hs
    ipureintro
    exact View.read_writes_eq_canon _ _ _ (cover7_b _)
  iexists _; isplitr
  swap; · iexact Hq
  ipureintro
  exact View.read_writes_eq_canon _ _ _ (cover7_b _)
set_option maxHeartbeats 4000000 in
/-- At the first point: the scratch rows hold anything; the body zeroes them, then does as at any other point. -/
theorem sound_kernel7_first (c : Dev nD) (E : Set ℕ) (i : grid7.Coords) (ma : Memref sig .tc .vmem S5000x32 .f32) (hma : ma.IsWhole) (mb : Memref sig .tc .vmem S5000x32 .f32) (hmb : mb.IsWhole) (mc : Memref sig .tc .vmem S32x64 .f32) (hmc : mc.IsWhole) (md : Memref sig .tc .vmem S32x64 .f32) (hmd : md.IsWhole) (me : Memref sig .tc .vmem S1x64 .f32) (hme : me.IsWhole) (my : Memref sig .tc .vmem S5000x64 .f32) (hmy : my.IsWhole) (mo : Memref sig .tc .vmem S1x64 .f32) (hmo : mo.IsWhole) (mp : Memref sig .tc .vmem S1x64 .f32) (hmp : mp.IsWhole) (ms : Memref sig .tc .vmem S1x64 .f32) (hms : ms.IsWhole) (mq : Memref sig .tc .vmem S1x64 .f32) (hmq : mq.IsWhole) (hc : cond7_0 i)
    (xa xb : Vec F S5000x32 .f32) (xc xd : Vec F S32x64 .f32) (xe : Vec F S1x64 .f32) (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
        ∗ (∃ d, owns (c : Thread nD τ) my fullShare d) ∗ (∃ d, owns (c : Thread nD τ) mo fullShare d) ∗ (∃ d, owns (c : Thread nD τ) mp fullShare d)
        ∗ (∃ d, owns (c : Thread nD τ) ms fullShare d) ∗ (∃ d, owns (c : Thread nD τ) mq fullShare d)
        ∗ (iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe
            ∗ owns (c : Thread nD τ) my fullShare (out7_5 xa xb xc xd xe)
            ∗ owns (c : Thread nD τ) mo fullShare (out7_6 (sum7 xa xb xc xd xe zero7_s))
            ∗ owns (c : Thread nD τ) mp fullShare (out7_6 (sq7 xa xb xc xd xe zero7_q))
            ∗ owns (c : Thread nD τ) ms fullShare (sum7 xa xb xc xd xe zero7_s)
            ∗ owns (c : Thread nD τ) mq fullShare (sq7 xa xb xc xd xe zero7_q)) -∗ K ⟨⟩))
      ⊢ wp frame (wpE (defs₀ (F := F)) Variants.none c none) E (cc7__linear_stats_kernel i ma hma mb hmb mc hmc md hmd me hme my hmy mo hmo mp hmp ms hms mq hmq) K := by
  simp only [cc7__linear_stats_kernel_eq_skeleton]; unfold cc7__linear_stats_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%dy, %fy, -, Hy⟩, ⟨%dO, %fo, -, Ho⟩, ⟨%dp, %fp, -, Hp⟩, ⟨%ds, %fs, -, Hs⟩, ⟨%dq, %fq, -, Hq⟩, Hk⟩
  subst hfa hfb hfc hfd hfe
  sl_exec (disch := first | exact hc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hy]
  · iexists _; isplitr
    swap; · iexact Hy
    ipureintro
    exact View.read_writes_eq_canon _ _ _ (cover7_y _)
  isplitl [Ho]
  · iexists _; isplitr
    swap; · iexact Ho
    ipureintro
    exact pure7_rb0 ms.view mo.view _ (fun z => k7_pay5 _ _ _ _ _ z) k7_pay2
  isplitl [Hp]
  · iexists _; isplitr
    swap; · iexact Hp
    ipureintro
    exact pure7_rb0 mq.view mp.view _ (fun z => k7_pay1 z (k7_pay6 _ _ _ _ _)) k7_pay3
  isplitl [Hs]
  · iexists _; isplitr
    swap; · iexact Hs
    ipureintro
    exact pure7_acc0 ms.view _ (fun z => k7_pay5 _ _ _ _ _ z) k7_pay2
  iexists _; isplitr
  swap; · iexact Hq
  ipureintro
  exact pure7_acc0 mq.view _ (fun z => k7_pay1 z (k7_pay6 _ _ _ _ _)) k7_pay3

/-! ## The running sums, point by point -/

/-- What the two scratch rows hold after the body at position `n`: (the column sums, the column sums of squares) of
    the blocks of Y at positions `0 … n`, added block after block from the zero rows. -/
def accAt7 (c : Dev nD) : (n : ℕ) → n < cfg7.N → Vec F S1x64 .f32 × Vec F S1x64 .f32
  | 0, hn => (sum7 (iblk7 V c 0 ⟨0, hn⟩) (iblk7 V c 1 ⟨0, hn⟩) (iblk7 V c 2 ⟨0, hn⟩) (iblk7 V c 3 ⟨0, hn⟩) (iblk7 V c 4 ⟨0, hn⟩) zero7_s, sq7 (iblk7 V c 0 ⟨0, hn⟩) (iblk7 V c 1 ⟨0, hn⟩) (iblk7 V c 2 ⟨0, hn⟩) (iblk7 V c 3 ⟨0, hn⟩) (iblk7 V c 4 ⟨0, hn⟩) zero7_q)
  | n + 1, hn => (sum7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accAt7 c n (Nat.lt_of_succ_lt hn)).1,
      sq7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accAt7 c n (Nat.lt_of_succ_lt hn)).2)

theorem accAt7_zero (c : Dev nD) (t : Fin cfg7.N) (hz : t.val = 0) :
    accAt7 V c t.val t.isLt = (sum7 (iblk7 V c 0 t) (iblk7 V c 1 t) (iblk7 V c 2 t) (iblk7 V c 3 t) (iblk7 V c 4 t) zero7_s, sq7 (iblk7 V c 0 t) (iblk7 V c 1 t) (iblk7 V c 2 t) (iblk7 V c 3 t) (iblk7 V c 4 t) zero7_q) := by
  obtain ⟨n, hn⟩ := t
  cases n with
  | zero => rfl
  | succ n => exact absurd hz (Nat.succ_ne_zero n)

theorem accAt7_pos (c : Dev nD) (t : Fin cfg7.N) (hz : t.val ≠ 0) :
    accAt7 V c t.val t.isLt = (sum7 (iblk7 V c 0 t) (iblk7 V c 1 t) (iblk7 V c 2 t) (iblk7 V c 3 t) (iblk7 V c 4 t) (accAt7 V c (t.val - 1) (Nat.lt_of_le_of_lt (Nat.sub_le _ _) t.isLt)).1,
      sq7 (iblk7 V c 0 t) (iblk7 V c 1 t) (iblk7 V c 2 t) (iblk7 V c 3 t) (iblk7 V c 4 t) (accAt7 V c (t.val - 1) (Nat.lt_of_le_of_lt (Nat.sub_le _ _) t.isLt)).2) := by
  obtain ⟨n, hn⟩ := t
  cases n with
  | zero => exact absurd rfl hz
  | succ n => rfl

/-! ## The region's invariant -/

/-- The two scratch rows as memrefs. -/
abbrev sc7_s : Memref sig .tc .vmem S1x64 .f32 := Memref.whole cc7_scratch0
abbrev sc7_q : Memref sig .tc .vmem S1x64 .f32 := Memref.whole cc7_scratch1

/-- The other scoped buffers of the core, unopened. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The class's invariant with the two scratch rows taken out of the scoped rest, each at some contents. -/
theorem PhiA7_eq (c : Dev nD) :
    (Pipeline.ΦA spec7 c : sProp 𝕄)
      = iprop(iprop(iprop((∃ d, owns (c : Thread nD τ) sc7_s fullShare d) ∗ (∃ d, owns (c : Thread nD τ) sc7_q fullShare d)) ∗ rest7 c) ∗ (∃ r, prngReg c r)) := by
  unfold Pipeline.ΦA; rw [scopedRest7_split]; simp only [owns_whole]; try rfl

/-- The invariant before position `n`: before the first point the class's (the scratch rows at anything); afterwards the
    scratch rows at the running sums of the points before, the other scoped buffers and the generator register at anything. -/
def Phi7 (c : Dev nD) : (n : ℕ) → n ≤ cfg7.N → sProp 𝕄
  | 0, _ => Pipeline.ΦA spec7 c
  | n + 1, hn => iprop(iprop(iprop(owns (c : Thread nD τ) sc7_s fullShare (accAt7 V c n hn).1 ∗ owns (c : Thread nD τ) sc7_q fullShare (accAt7 V c n hn).2) ∗ rest7 c) ∗ (∃ r, prngReg c r))

theorem Phi7_at_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(iprop(owns (c : Thread nD τ) sc7_s fullShare (accAt7 V c n hn).1 ∗ owns (c : Thread nD τ) sc7_q fullShare (accAt7 V c n hn).2) ∗ rest7 c) ∗ (∃ r, prngReg c r)) := rfl

theorem Phi7_pos (c : Dev nD) (n : ℕ) (h : n ≤ cfg7.N) (hz : n ≠ 0) :
    Phi7 V c n h = iprop(iprop(iprop(owns (c : Thread nD τ) sc7_s fullShare (accAt7 V c (n - 1) (by omega)).1 ∗ owns (c : Thread nD τ) sc7_q fullShare (accAt7 V c (n - 1) (by omega)).2) ∗ rest7 c) ∗ (∃ r, prngReg c r)) := by
  cases n with
  | zero => exact absurd rfl hz
  | succ n => rfl

/-! ## The pipeline's proof data -/

/-- The proof data of pipeline 7 on core `c`: the arrays at the entry contents; after the body at point `t` each input's
    buffer at its block, window 5 at the block of Y, windows 6 and 7 at the running sums; the invariant `Phi7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
    | ⟨6, _⟩ => out7_6 (accAt7 V c t.val t.isLt).1
    | ⟨7, _⟩ => out7_6 (accAt7 V c t.val t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]
theorem after7_6 (c : Dev nD) (t : Fin cfg7.N) : (dat7 V c).after 6 t = out7_6 (accAt7 V c t.val t.isLt).1 := by dsimp only [dat7]
theorem after7_7 (c : Dev nD) (t : Fin cfg7.N) : (dat7 V c).after 7 t = out7_6 (accAt7 V c t.val t.isLt).2 := by dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

/-- Before the first point the invariant is the class's. -/
theorem Phi7_zero (c : Dev nD) : (dat7 V c).Φ 0 = Pipeline.ΦA spec7 c := rfl

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

set_option maxHeartbeats 4000000 in
/-- The body at any point: the inputs' memrefs hold their blocks; the invariant hands the body the scratch rows — at
    anything at the first point, where the body zeroes them, else at the running sums the point before left — and takes
    them back at this point's running sums; the other scoped buffers, the generator register and the core's debt pass
    through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl,
    show (dat7 V c).Φ t.succ = Phi7 V c (t.val + 1) t.isLt from rfl, Phi7_succ,
    after7_0, after7_1, after7_2, after7_3, after7_4, after7_5, after7_6, after7_7, Phi7_castSucc]
  by_cases hz : t.val = 0
  · rw [Phi7_at_zero V c _ _ hz, PhiA7_eq, accAt7_zero V c t hz]
    iintro ⟨⟨⟨⟨⟨%ds, HS⟩, ⟨%dq, HQ⟩⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel7_first c Set.univ (grid7.coords t) _ _ _ _ _ _ _ _ _ _ _ _ _ _ _ _ _ _ _ _ ((hcond7_0 t).mpr hz) (iblk7 V c 0 t) (iblk7 V c 1 t) (iblk7 V c 2 t) (iblk7 V c 3 t) (iblk7 V c 4 t) _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexists _; iexact HS
    isplitl [HQ]; · iexists _; iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp
  · rw [Phi7_pos V c _ _ hz, accAt7_pos V c t hz]
    iintro ⟨⟨⟨⟨HS, HQ⟩, HR⟩, Hg⟩, Ho, ⟨%da, Hwa⟩, ⟨%db, Hwb⟩, ⟨%dc, Hwc⟩, ⟨%dd, Hwd⟩, ⟨%de, Hwe⟩, ⟨%dy, Hwy⟩, ⟨%dO, Hwo⟩, ⟨%dp, Hwp⟩⟩
    iapply (sound_kernel7_next c Set.univ (grid7.coords t) _ _ _ _ _ _ _ _ _ _ _ _ _ _ _ _ _ _ _ _ (fun h => hz ((hcond7_0 t).mp h)) (iblk7 V c 0 t) (iblk7 V c 1 t) (iblk7 V c 2 t) (iblk7 V c 3 t) (iblk7 V c 4 t) _ _ _)
    isplitl [Hwa]; · iexact Hwa
    isplitl [Hwb]; · iexact Hwb
    isplitl [Hwc]; · iexact Hwc
    isplitl [Hwd]; · iexact Hwd
    isplitl [Hwe]; · iexact Hwe
    isplitl [Hwy]; · iexists _; iexact Hwy
    isplitl [Hwo]; · iexists _; iexact Hwo
    isplitl [Hwp]; · iexists _; iexact Hwp
    isplitl [HS]; · iexact HS
    isplitl [HQ]; · iexact HQ
    iintro ⟨Hwa, Hwb, Hwc, Hwd, Hwe, Hwy, Hwo, Hwp, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [Hwa]; · iexact Hwa
    isplitl [Hwb]; · iexact Hwb
    isplitl [Hwc]; · iexact Hwc
    isplitl [Hwd]; · iexact Hwd
    isplitl [Hwe]; · iexact Hwe
    isplitl [Hwy]; · iexact Hwy
    isplitl [Hwo]; · iexact Hwo
    iexact Hwp

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- After any point the invariant gives the class's back: what the scratch rows hold is forgotten. -/
theorem Phi7_out (c : Dev nD) (t : Fin (cfg7.N + 1)) (ht : t.val ≠ 0) : (dat7 V c).Φ t ⊢ Pipeline.ΦA spec7 c := by
  rw [show (dat7 V c).Φ t = Phi7 V c t.val (Nat.le_of_lt_succ t.isLt) from rfl, Phi7_pos V c _ _ ht, PhiA7_eq]
  iintro ⟨⟨⟨HS, HQ⟩, HR⟩, Hg⟩
  isplitl [HS HQ HR]
  · isplitl [HS HQ]
    · isplitl [HS]
      · iexists _; iexact HS
      iexists _; iexact HQ
    iexact HR
  iexact Hg

theorem Phi7_last (c : Dev nD) : (dat7 V c).Φ (Fin.last cfg7.N) ⊢ Pipeline.ΦA spec7 c :=
  Phi7_out V c _ (by rw [Fin.val_last]; have : cfg7.N = 20 := N_7; omega)

end Cert.Kernel.Hand

end
-- ==== Proof.KR8.lean ====
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 8: batch normalisation then ELU, pointwise on one row block per grid point

Windows: 0 = y (row block i), 1 = mean, 2 = variance, 3 = gamma, 4 = beta (one row each, whole at every point),
5 = the output (row block i). -/

/-- Window `w`'s block at point `t`, read off its array at the entry contents `V`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's staging buffer holds its block at every point, whether the block was moved there at this
    point or at an earlier one with the same block index. -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_y : Rect S5000x128 := Rect.unit (s := S5000x128) ![0, 0] S5000x128.size inb_S5000x128_S5000x128_0_0
abbrev r8_p : Rect S1x128 := Rect.unit (s := S1x128) ![0, 0] S1x128.size inb_S1x128_S1x128_0_0

/-- The output block after the body: ELU of gamma · (y − mean) · rsqrt(variance + ε) + beta, stored over the whole
    buffer (the body reads the variance before the mean). -/
def out8_5 (x0 : Vec F S5000x128 .f32) (x1 x2 x3 x4 : Vec F S1x128 .f32) : Vec F S5000x128 .f32 :=
  View.canon [⟨r8_y, k8_pay1 (View.ld x0 r8_y) (View.ld x2 r8_p) (View.ld x1 r8_p) (View.ld x3 r8_p) (View.ld x4 r8_p)⟩]

/-- The one store is the whole buffer, so it covers it. -/
theorem cover8_5 (p0 : Vec F S5000x128 .f32) (y : S5000x128.Idx) :
    ∃ pc ∈ ([⟨r8_y, p0⟩] : List (View.Piece (Elt F) S5000x128 .f32)), y ∈ pc.1.set :=
  View.cover_of_tiled [⟨r8_y, p0⟩] S5000x128.size (by rfl) y

/-! ## The body's triple -/

set_option maxHeartbeats 1000000 in
/-- The body on whole staging memrefs, the inputs' at read contents `x0 … x4` and the output's at anything, runs to
    the continuation holding the inputs' as they were and the output's at `out8_5 x0 … x4`. -/
theorem sound_kernel8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__bn_elu_kernel i arg1 harg1 arg2 harg2 arg3 harg3 arg4 harg4 arg5 harg5 arg6 harg6) K := by
  simp only [cc8__bn_elu_kernel_eq_skeleton]; unfold cc8__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of region 8 on core `c`: the arrays as the region finds them; after the body at point `t`
    each input's buffer at its block and the output's at `out8_5` of the input blocks; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem Φ_eq8 (c : Dev nD) (i : Fin (cfg8.N + 1)) : (dat8 V c).Φ i = Pipeline.ΦA spec8 c := rfl

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so `sound_kernel8` applies; the invariant and
    the core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.KR9.lean ====
/- REGION 9 of @main (custom_call 9, the two-layer perceptron and the row-wise log-softmax, one grid point, six whole-array
   windows) at a PARAMETER V, the TensorCore's buffer contents when the region is entered: each window's block, the
   output window's buffer after the body as a pure function of the input blocks, the body's triple, the pipeline's
   proof data and its body obligation. -/
import proofs.«403053_j58033598104012_3_alg».proof.Proof.Gen.Kernel.Launch
import proofs.«403053_j58033598104012_3_alg».proof.Proof.Gen.Kernel.Skeleton
import proofs.«403053_j58033598104012_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, for any proof data whose array is
    the entry contents and whose body leaves the block in place: the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer read or written whole -/

abbrev r9_0 : Rect S256x64 := Rect.unit (s := S256x64) ![0, 0] S256x64.size inb_S256x64_S256x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S64x10 := Rect.unit (s := S64x10) ![0, 0] S64x10.size inb_S64x10_S64x10_0_0
abbrev r9_4 : Rect S1x10 := Rect.unit (s := S1x10) ![0, 0] S1x10.size inb_S1x10_S1x10_0_0
abbrev r9_5 : Rect S256x10 := Rect.unit (s := S256x10) ![0, 0] S256x10.size inb_S256x10_S256x10_0_0

/-! ## What the body leaves in the output window's buffer -/

/-- Window 5's staging buffer after the body, from the five input blocks: its one store, of the log-softmax rows of
    the perceptron's output. -/
def out9_5 (x0 : Vec F S256x64 .f32) (x1 : Vec F S64x64 .f32) (x2 : Vec F S1x64 .f32) (x3 : Vec F S64x10 .f32) (x4 : Vec F S1x10 .f32) :
    Vec F S256x10 .f32 :=
  View.canon [⟨r9_5, k9_pay1 (View.ld x0 r9_0) (View.ld x1 r9_1) (View.ld x2 r9_2) (View.ld x3 r9_3) (View.ld x4 r9_4)⟩]

/-- The one store is of the whole buffer, so it covers it. -/
theorem cover9_5 (p0 : Vec F S256x10 .f32) (y : S256x10.Idx) :
    ∃ pc ∈ ([⟨r9_5, p0⟩] : List (View.Piece (Elt F) S256x10 .f32)), y ∈ pc.1.set :=
  View.cover_of_tiled [⟨r9_5, p0⟩] S256x10.size (by rfl) y

/-! ## The body's triple -/

set_option maxHeartbeats 1000000 in
/-- The kernel body on whole staging memrefs, the inputs' at contents x0..x4 and the output's at anything, runs to the
    continuation holding the inputs' as they were and the output's at out9_5 of the inputs'. -/
theorem sound_kernel9 (c : Dev nD) (E : Set ℕ) (i : grid9.Coords)
    (arg1 : Memref sig .tc .vmem S256x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S256x10 .f32) (harg6 : arg6.IsWhole)
    (x0 : Vec F S256x64 .f32) (x1 : Vec F S64x64 .f32) (x2 : Vec F S1x64 .f32) (x3 : Vec F S64x10 .f32) (x4 : Vec F S1x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core c: the arrays as the region finds them; after the body each input's buffer
    at its block and the output's at out9_5 of the input blocks; the invariant the scoped rest and the generator
    register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant is the class's at every index. -/
theorem Φ_eq9 (c : Dev nD) (i : Fin (cfg9.N + 1)) : (dat9 V c).Φ i = Pipeline.ΦA spec9 c := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and the
    core's owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KFold.lean ====
import proofs.«403053_j58033598104012_3_alg».proof.Proof.Gen.Kernel.Regions
import proofs.«403053_j58033598104012_3_alg».proof.Proof.KR0
import proofs.«403053_j58033598104012_3_alg».proof.Proof.KR1
import proofs.«403053_j58033598104012_3_alg».proof.Proof.KR2
import proofs.«403053_j58033598104012_3_alg».proof.Proof.KR3
import proofs.«403053_j58033598104012_3_alg».proof.Proof.KR4
import proofs.«403053_j58033598104012_3_alg».proof.Proof.KR5
import proofs.«403053_j58033598104012_3_alg».proof.Proof.KR6
import proofs.«403053_j58033598104012_3_alg».proof.Proof.KR7
import proofs.«403053_j58033598104012_3_alg».proof.Proof.KR8
import proofs.«403053_j58033598104012_3_alg».proof.Proof.KR9
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The buffers' contents between items

`W J c` is core `c`'s unscoped buffers after item J−1: the launch contents through the host stretches, each region's
output arrays at what its pipeline has written back after the last grid point (`Dat.arrAt … N` of the region's proof
data, themselves taken at the contents the region is entered from). `T J` is the same read at the TensorCore's
references (what a region's proof data take). -/

/-- Entering region 0: the launch contents after the first host stretch. -/
def W1 (c : Dev nD) : Valuation τ sig (Elt F) := StableHlo.after hostOps0 (Gen.V0 m c)
abbrev T1 : (c : Dev nD) → (b : Ref sig .tc) → Buf (Elt F) ((c : Thread nD τ).loc b) := fun c b => W1 m c b

/-- Leaving region 0: `main_v8` at what the pipeline leaves, every other buffer as entered. -/
def W2 (c : Dev nD) : Valuation τ sig (Elt F) :=
  Function.update (W1 m c) main_v8 ((dat0 (T1 m) c).arrAt 2 cfg0.N)
abbrev T2 : (c : Dev nD) → (b : Ref sig .tc) → Buf (Elt F) ((c : Thread nD τ).loc b) := fun c b => W2 m c b
/-- A buffer region 0 does not write is as entered. -/
theorem W2_of (c : Dev nD) (r : Ref sig .tc) (h0 : r ≠ main_v8) : W2 m c r = W1 m c r := by
  simp only [W2, Function.update_of_ne (StableHlo.devRef_ne_of_ne h0 : (Proc.devRef .tc r : DevRef τ sig) ≠ Proc.devRef .tc main_v8)]
theorem W2_at (c : Dev nD) : W2 m c main_v8 = (dat0 (T1 m) c).arrAt 2 cfg0.N := by
  simp only [W2, Function.update_self]

/-- Entering region 1: after the host stretch `hostOps1`. -/
def W3 (c : Dev nD) : Valuation τ sig (Elt F) := StableHlo.after hostOps1 (W2 m c)
abbrev T3 : (c : Dev nD) → (b : Ref sig .tc) → Buf (Elt F) ((c : Thread nD τ).loc b) := fun c b => W3 m c b

/-- Leaving region 1: `main_v24_0`, `main_v24_1`, `main_v24_2` at what the pipeline leaves, every other buffer as entered. -/
def W4 (c : Dev nD) : Valuation τ sig (Elt F) :=
  Function.update (Function.update (Function.update (W3 m c) main_v24_0 ((dat1 (T3 m) c).arrAt 4 cfg1.N)) main_v24_1 ((dat1 (T3 m) c).arrAt 5 cfg1.N)) main_v24_2 ((dat1 (T3 m) c).arrAt 6 cfg1.N)
abbrev T4 : (c : Dev nD) → (b : Ref sig .tc) → Buf (Elt F) ((c : Thread nD τ).loc b) := fun c b => W4 m c b
/-- A buffer region 1 does not write is as entered. -/
theorem W4_of (c : Dev nD) (r : Ref sig .tc) (h0 : r ≠ main_v24_0) (h1 : r ≠ main_v24_1) (h2 : r ≠ main_v24_2) : W4 m c r = W3 m c r := by
  simp only [W4, Function.update_of_ne (StableHlo.devRef_ne_of_ne h0 : (Proc.devRef .tc r : DevRef τ sig) ≠ Proc.devRef .tc main_v24_0), Function.update_of_ne (StableHlo.devRef_ne_of_ne h1 : (Proc.devRef .tc r : DevRef τ sig) ≠ Proc.devRef .tc main_v24_1), Function.update_of_ne (StableHlo.devRef_ne_of_ne h2 : (Proc.devRef .tc r : DevRef τ sig) ≠ Proc.devRef .tc main_v24_2)]
theorem W4_at_0 (c : Dev nD) : W4 m c main_v24_0 = (dat1 (T3 m) c).arrAt 4 cfg1.N := by
  simp only [W4, Function.update_of_ne (StableHlo.devRef_ne_of_ne (by decide) : (Proc.devRef .tc main_v24_0 : DevRef τ sig) ≠ Proc.devRef .tc main_v24_1), Function.update_of_ne (StableHlo.devRef_ne_of_ne (by decide) : (Proc.devRef .tc main_v24_0 : DevRef τ sig) ≠ Proc.devRef .tc main_v24_2), Function.update_self]
theorem W4_at_1 (c : Dev nD) : W4 m c main_v24_1 = (dat1 (T3 m) c).arrAt 5 cfg1.N := by
  simp only [W4, Function.update_of_ne (StableHlo.devRef_ne_of_ne (by decide) : (Proc.devRef .tc main_v24_1 : DevRef τ sig) ≠ Proc.devRef .tc main_v24_2), Function.update_self]
theorem W4_at_2 (c : Dev nD) : W4 m c main_v24_2 = (dat1 (T3 m) c).arrAt 6 cfg1.N := by
  simp only [W4, Function.update_self]

/-- Entering region 2: after the host stretch `hostOps2`. -/
def W5 (c : Dev nD) : Valuation τ sig (Elt F) := StableHlo.after hostOps2 (W4 m c)
abbrev T5 : (c : Dev nD) → (b : Ref sig .tc) → Buf (Elt F) ((c : Thread nD τ).loc b) := fun c b => W5 m c b

/-- Leaving region 2: `main_v39` at what the pipeline leaves, every other buffer as entered. -/
def W6 (c : Dev nD) : Valuation τ sig (Elt F) :=
  Function.update (W5 m c) main_v39 ((dat2 (T5 m) c).arrAt 5 cfg2.N)
abbrev T6 : (c : Dev nD) → (b : Ref sig .tc) → Buf (Elt F) ((c : Thread nD τ).loc b) := fun c b => W6 m c b
/-- A buffer region 2 does not write is as entered. -/
theorem W6_of (c : Dev nD) (r : Ref sig .tc) (h0 : r ≠ main_v39) : W6 m c r = W5 m c r := by
  simp only [W6, Function.update_of_ne (StableHlo.devRef_ne_of_ne h0 : (Proc.devRef .tc r : DevRef τ sig) ≠ Proc.devRef .tc main_v39)]
theorem W6_at (c : Dev nD) : W6 m c main_v39 = (dat2 (T5 m) c).arrAt 5 cfg2.N := by
  simp only [W6, Function.update_self]

/-- Entering region 3: after the host stretch `hostOps3`. -/
def W7 (c : Dev nD) : Valuation τ sig (Elt F) := StableHlo.after hostOps3 (W6 m c)
abbrev T7 : (c : Dev nD) → (b : Ref sig .tc) → Buf (Elt F) ((c : Thread nD τ).loc b) := fun c b => W7 m c b

/-- Leaving region 3: `main_v55_0`, `main_v55_1`, `main_v55_2` at what the pipeline leaves, every other buffer as entered. -/
def W8 (c : Dev nD) : Valuation τ sig (Elt F) :=
  Function.update (Function.update (Function.update (W7 m c) main_v55_0 ((dat3 (T7 m) c).arrAt 5 cfg3.N)) main_v55_1 ((dat3 (T7 m) c).arrAt 6 cfg3.N)) main_v55_2 ((dat3 (T7 m) c).arrAt 7 cfg3.N)
abbrev T8 : (c : Dev nD) → (b : Ref sig .tc) → Buf (Elt F) ((c : Thread nD τ).loc b) := fun c b => W8 m c b
/-- A buffer region 3 does not write is as entered. -/
theorem W8_of (c : Dev nD) (r : Ref sig .tc) (h0 : r ≠ main_v55_0) (h1 : r ≠ main_v55_1) (h2 : r ≠ main_v55_2) : W8 m c r = W7 m c r := by
  simp only [W8, Function.update_of_ne (StableHlo.devRef_ne_of_ne h0 : (Proc.devRef .tc r : DevRef τ sig) ≠ Proc.devRef .tc main_v55_0), Function.update_of_ne (StableHlo.devRef_ne_of_ne h1 : (Proc.devRef .tc r : DevRef τ sig) ≠ Proc.devRef .tc main_v55_1), Function.update_of_ne (StableHlo.devRef_ne_of_ne h2 : (Proc.devRef .tc r : DevRef τ sig) ≠ Proc.devRef .tc main_v55_2)]
theorem W8_at_0 (c : Dev nD) : W8 m c main_v55_0 = (dat3 (T7 m) c).arrAt 5 cfg3.N := by
  simp only [W8, Function.update_of_ne (StableHlo.devRef_ne_of_ne (by decide) : (Proc.devRef .tc main_v55_0 : DevRef τ sig) ≠ Proc.devRef .tc main_v55_1), Function.update_of_ne (StableHlo.devRef_ne_of_ne (by decide) : (Proc.devRef .tc main_v55_0 : DevRef τ sig) ≠ Proc.devRef .tc main_v55_2), Function.update_self]
theorem W8_at_1 (c : Dev nD) : W8 m c main_v55_1 = (dat3 (T7 m) c).arrAt 6 cfg3.N := by
  simp only [W8, Function.update_of_ne (StableHlo.devRef_ne_of_ne (by decide) : (Proc.devRef .tc main_v55_1 : DevRef τ sig) ≠ Proc.devRef .tc main_v55_2), Function.update_self]
theorem W8_at_2 (c : Dev nD) : W8 m c main_v55_2 = (dat3 (T7 m) c).arrAt 7 cfg3.N := by
  simp only [W8, Function.update_self]

/-- Entering region 4: after the host stretch `hostOps4`. -/
def W9 (c : Dev nD) : Valuation τ sig (Elt F) := StableHlo.after hostOps4 (W8 m c)
abbrev T9 : (c : Dev nD) → (b : Ref sig .tc) → Buf (Elt F) ((c : Thread nD τ).loc b) := fun c b => W9 m c b

/-- Leaving region 4: `main_v83` at what the pipeline leaves, every other buffer as entered. -/
def W10 (c : Dev nD) : Valuation τ sig (Elt F) :=
  Function.update (W9 m c) main_v83 ((dat4 (T9 m) c).arrAt 5 cfg4.N)
abbrev T10 : (c : Dev nD) → (b : Ref sig .tc) → Buf (Elt F) ((c : Thread nD τ).loc b) := fun c b => W10 m c b
/-- A buffer region 4 does not write is as entered. -/
theorem W10_of (c : Dev nD) (r : Ref sig .tc) (h0 : r ≠ main_v83) : W10 m c r = W9 m c r := by
  simp only [W10, Function.update_of_ne (StableHlo.devRef_ne_of_ne h0 : (Proc.devRef .tc r : DevRef τ sig) ≠ Proc.devRef .tc main_v83)]
theorem W10_at (c : Dev nD) : W10 m c main_v83 = (dat4 (T9 m) c).arrAt 5 cfg4.N := by
  simp only [W10, Function.update_self]

/-- Entering region 5: after the host stretch `hostOps5`. -/
def W11 (c : Dev nD) : Valuation τ sig (Elt F) := StableHlo.after hostOps5 (W10 m c)
abbrev T11 : (c : Dev nD) → (b : Ref sig .tc) → Buf (Elt F) ((c : Thread nD τ).loc b) := fun c b => W11 m c b

/-- Leaving region 5: `main_v100_0`, `main_v100_1`, `main_v100_2` at what the pipeline leaves, every other buffer as entered. -/
def W12 (c : Dev nD) : Valuation τ sig (Elt F) :=
  Function.update (Function.update (Function.update (W11 m c) main_v100_0 ((dat5 (T11 m) c).arrAt 5 cfg5.N)) main_v100_1 ((dat5 (T11 m) c).arrAt 6 cfg5.N)) main_v100_2 ((dat5 (T11 m) c).arrAt 7 cfg5.N)
abbrev T12 : (c : Dev nD) → (b : Ref sig .tc) → Buf (Elt F) ((c : Thread nD τ).loc b) := fun c b => W12 m c b
/-- A buffer region 5 does not write is as entered. -/
theorem W12_of (c : Dev nD) (r : Ref sig .tc) (h0 : r ≠ main_v100_0) (h1 : r ≠ main_v100_1) (h2 : r ≠ main_v100_2) : W12 m c r = W11 m c r := by
  simp only [W12, Function.update_of_ne (StableHlo.devRef_ne_of_ne h0 : (Proc.devRef .tc r : DevRef τ sig) ≠ Proc.devRef .tc main_v100_0), Function.update_of_ne (StableHlo.devRef_ne_of_ne h1 : (Proc.devRef .tc r : DevRef τ sig) ≠ Proc.devRef .tc main_v100_1), Function.update_of_ne (StableHlo.devRef_ne_of_ne h2 : (Proc.devRef .tc r : DevRef τ sig) ≠ Proc.devRef .tc main_v100_2)]
theorem W12_at_0 (c : Dev nD) : W12 m c main_v100_0 = (dat5 (T11 m) c).arrAt 5 cfg5.N := by
  simp only [W12, Function.update_of_ne (StableHlo.devRef_ne_of_ne (by decide) : (Proc.devRef .tc main_v100_0 : DevRef τ sig) ≠ Proc.devRef .tc main_v100_1), Function.update_of_ne (StableHlo.devRef_ne_of_ne (by decide) : (Proc.devRef .tc main_v100_0 : DevRef τ sig) ≠ Proc.devRef .tc main_v100_2), Function.update_self]
theorem W12_at_1 (c : Dev nD) : W12 m c main_v100_1 = (dat5 (T11 m) c).arrAt 6 cfg5.N := by
  simp only [W12, Function.update_of_ne (StableHlo.devRef_ne_of_ne (by decide) : (Proc.devRef .tc main_v100_1 : DevRef τ sig) ≠ Proc.devRef .tc main_v100_2), Function.update_self]
theorem W12_at_2 (c : Dev nD) : W12 m c main_v100_2 = (dat5 (T11 m) c).arrAt 7 cfg5.N := by
  simp only [W12, Function.update_self]

/-- Entering region 6: after the host stretch `hostOps6`. -/
def W13 (c : Dev nD) : Valuation τ sig (Elt F) := StableHlo.after hostOps6 (W12 m c)
abbrev T13 : (c : Dev nD) → (b : Ref sig .tc) → Buf (Elt F) ((c : Thread nD τ).loc b) := fun c b => W13 m c b

/-- Leaving region 6: `main_v128` at what the pipeline leaves, every other buffer as entered. -/
def W14 (c : Dev nD) : Valuation τ sig (Elt F) :=
  Function.update (W13 m c) main_v128 ((dat6 (T13 m) c).arrAt 5 cfg6.N)
abbrev T14 : (c : Dev nD) → (b : Ref sig .tc) → Buf (Elt F) ((c : Thread nD τ).loc b) := fun c b => W14 m c b
/-- A buffer region 6 does not write is as entered. -/
theorem W14_of (c : Dev nD) (r : Ref sig .tc) (h0 : r ≠ main_v128) : W14 m c r = W13 m c r := by
  simp only [W14, Function.update_of_ne (StableHlo.devRef_ne_of_ne h0 : (Proc.devRef .tc r : DevRef τ sig) ≠ Proc.devRef .tc main_v128)]
theorem W14_at (c : Dev nD) : W14 m c main_v128 = (dat6 (T13 m) c).arrAt 5 cfg6.N := by
  simp only [W14, Function.update_self]

/-- Entering region 7: after the host stretch `hostOps7`. -/
def W15 (c : Dev nD) : Valuation τ sig (Elt F) := StableHlo.after hostOps7 (W14 m c)
abbrev T15 : (c : Dev nD) → (b : Ref sig .tc) → Buf (Elt F) ((c : Thread nD τ).loc b) := fun c b => W15 m c b

/-- Leaving region 7: `main_v145_0`, `main_v145_1`, `main_v145_2` at what the pipeline leaves, every other buffer as entered. -/
def W16 (c : Dev nD) : Valuation τ sig (Elt F) :=
  Function.update (Function.update (Function.update (W15 m c) main_v145_0 ((dat7 (T15 m) c).arrAt 5 cfg7.N)) main_v145_1 ((dat7 (T15 m) c).arrAt 6 cfg7.N)) main_v145_2 ((dat7 (T15 m) c).arrAt 7 cfg7.N)
abbrev T16 : (c : Dev nD) → (b : Ref sig .tc) → Buf (Elt F) ((c : Thread nD τ).loc b) := fun c b => W16 m c b
/-- A buffer region 7 does not write is as entered. -/
theorem W16_of (c : Dev nD) (r : Ref sig .tc) (h0 : r ≠ main_v145_0) (h1 : r ≠ main_v145_1) (h2 : r ≠ main_v145_2) : W16 m c r = W15 m c r := by
  simp only [W16, Function.update_of_ne (StableHlo.devRef_ne_of_ne h0 : (Proc.devRef .tc r : DevRef τ sig) ≠ Proc.devRef .tc main_v145_0), Function.update_of_ne (StableHlo.devRef_ne_of_ne h1 : (Proc.devRef .tc r : DevRef τ sig) ≠ Proc.devRef .tc main_v145_1), Function.update_of_ne (StableHlo.devRef_ne_of_ne h2 : (Proc.devRef .tc r : DevRef τ sig) ≠ Proc.devRef .tc main_v145_2)]
theorem W16_at_0 (c : Dev nD) : W16 m c main_v145_0 = (dat7 (T15 m) c).arrAt 5 cfg7.N := by
  simp only [W16, Function.update_of_ne (StableHlo.devRef_ne_of_ne (by decide) : (Proc.devRef .tc main_v145_0 : DevRef τ sig) ≠ Proc.devRef .tc main_v145_1), Function.update_of_ne (StableHlo.devRef_ne_of_ne (by decide) : (Proc.devRef .tc main_v145_0 : DevRef τ sig) ≠ Proc.devRef .tc main_v145_2), Function.update_self]
theorem W16_at_1 (c : Dev nD) : W16 m c main_v145_1 = (dat7 (T15 m) c).arrAt 6 cfg7.N := by
  simp only [W16, Function.update_of_ne (StableHlo.devRef_ne_of_ne (by decide) : (Proc.devRef .tc main_v145_1 : DevRef τ sig) ≠ Proc.devRef .tc main_v145_2), Function.update_self]
theorem W16_at_2 (c : Dev nD) : W16 m c main_v145_2 = (dat7 (T15 m) c).arrAt 7 cfg7.N := by
  simp only [W16, Function.update_self]

/-- Entering region 8: after the host stretch `hostOps8`. -/
def W17 (c : Dev nD) : Valuation τ sig (Elt F) := StableHlo.after hostOps8 (W16 m c)
abbrev T17 : (c : Dev nD) → (b : Ref sig .tc) → Buf (Elt F) ((c : Thread nD τ).loc b) := fun c b => W17 m c b

/-- Leaving region 8: `main_v173` at what the pipeline leaves, every other buffer as entered. -/
def W18 (c : Dev nD) : Valuation τ sig (Elt F) :=
  Function.update (W17 m c) main_v173 ((dat8 (T17 m) c).arrAt 5 cfg8.N)
abbrev T18 : (c : Dev nD) → (b : Ref sig .tc) → Buf (Elt F) ((c : Thread nD τ).loc b) := fun c b => W18 m c b
/-- A buffer region 8 does not write is as entered. -/
theorem W18_of (c : Dev nD) (r : Ref sig .tc) (h0 : r ≠ main_v173) : W18 m c r = W17 m c r := by
  simp only [W18, Function.update_of_ne (StableHlo.devRef_ne_of_ne h0 : (Proc.devRef .tc r : DevRef τ sig) ≠ Proc.devRef .tc main_v173)]
theorem W18_at (c : Dev nD) : W18 m c main_v173 = (dat8 (T17 m) c).arrAt 5 cfg8.N := by
  simp only [W18, Function.update_self]

/-- Entering region 9: after the host stretch `hostOps9`. -/
def W19 (c : Dev nD) : Valuation τ sig (Elt F) := StableHlo.after hostOps9 (W18 m c)
abbrev T19 : (c : Dev nD) → (b : Ref sig .tc) → Buf (Elt F) ((c : Thread nD τ).loc b) := fun c b => W19 m c b

/-- Leaving region 9: `main_v188` at what the pipeline leaves, every other buffer as entered. -/
def W20 (c : Dev nD) : Valuation τ sig (Elt F) :=
  Function.update (W19 m c) main_v188 ((dat9 (T19 m) c).arrAt 5 cfg9.N)
abbrev T20 : (c : Dev nD) → (b : Ref sig .tc) → Buf (Elt F) ((c : Thread nD τ).loc b) := fun c b => W20 m c b
/-- A buffer region 9 does not write is as entered. -/
theorem W20_of (c : Dev nD) (r : Ref sig .tc) (h0 : r ≠ main_v188) : W20 m c r = W19 m c r := by
  simp only [W20, Function.update_of_ne (StableHlo.devRef_ne_of_ne h0 : (Proc.devRef .tc r : DevRef τ sig) ≠ Proc.devRef .tc main_v188)]
theorem W20_at (c : Dev nD) : W20 m c main_v188 = (dat9 (T19 m) c).arrAt 5 cfg9.N := by
  simp only [W20, Function.update_self]

/-- What @main returns on core `c`: region 9's output array after its last grid point. -/
def RES (c : Dev nD) : Buf (Elt F) ((c : Thread nD τ).loc main_v188) := (dat9 (T19 m) c).arrAt 5 cfg9.N

/-- The regions' outputs as the generated valuations take them: `outs J r c` is `W J c` read at `r`. -/
def outs : Gen.Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | _ => W1 m c r

/-! ## The generated valuations at these outputs are the fold -/

theorem V1_eq (c : Dev nD) : Gen.V1 m c = W1 m c := rfl
theorem V2_eq (c : Dev nD) : Gen.V2 m (outs m) c = W2 m c := by
  have e : outs m 2 main_v8 c = W2 m c main_v8 := rfl
  unfold Gen.V2; rw [V1_eq m c, e, W2_at m c]; unfold W2; rfl
theorem V3_eq (c : Dev nD) : Gen.V3 m (outs m) c = W3 m c := by
  unfold Gen.V3 W3; rw [V2_eq m c]
theorem V4_eq (c : Dev nD) : Gen.V4 m (outs m) c = W4 m c := by
  have e0 : outs m 4 main_v24_0 c = W4 m c main_v24_0 := rfl
  have e1 : outs m 4 main_v24_1 c = W4 m c main_v24_1 := rfl
  have e2 : outs m 4 main_v24_2 c = W4 m c main_v24_2 := rfl
  unfold Gen.V4; rw [V3_eq m c, e0, e1, e2, W4_at_0 m c, W4_at_1 m c, W4_at_2 m c]; unfold W4; rfl
theorem V5_eq (c : Dev nD) : Gen.V5 m (outs m) c = W5 m c := by
  unfold Gen.V5 W5; rw [V4_eq m c]
theorem V6_eq (c : Dev nD) : Gen.V6 m (outs m) c = W6 m c := by
  have e : outs m 6 main_v39 c = W6 m c main_v39 := rfl
  unfold Gen.V6; rw [V5_eq m c, e, W6_at m c]; unfold W6; rfl
theorem V7_eq (c : Dev nD) : Gen.V7 m (outs m) c = W7 m c := by
  unfold Gen.V7 W7; rw [V6_eq m c]
theorem V8_eq (c : Dev nD) : Gen.V8 m (outs m) c = W8 m c := by
  have e0 : outs m 8 main_v55_0 c = W8 m c main_v55_0 := rfl
  have e1 : outs m 8 main_v55_1 c = W8 m c main_v55_1 := rfl
  have e2 : outs m 8 main_v55_2 c = W8 m c main_v55_2 := rfl
  unfold Gen.V8; rw [V7_eq m c, e0, e1, e2, W8_at_0 m c, W8_at_1 m c, W8_at_2 m c]; unfold W8; rfl
theorem V9_eq (c : Dev nD) : Gen.V9 m (outs m) c = W9 m c := by
  unfold Gen.V9 W9; rw [V8_eq m c]
theorem V10_eq (c : Dev nD) : Gen.V10 m (outs m) c = W10 m c := by
  have e : outs m 10 main_v83 c = W10 m c main_v83 := rfl
  unfold Gen.V10; rw [V9_eq m c, e, W10_at m c]; unfold W10; rfl
theorem V11_eq (c : Dev nD) : Gen.V11 m (outs m) c = W11 m c := by
  unfold Gen.V11 W11; rw [V10_eq m c]
theorem V12_eq (c : Dev nD) : Gen.V12 m (outs m) c = W12 m c := by
  have e0 : outs m 12 main_v100_0 c = W12 m c main_v100_0 := rfl
  have e1 : outs m 12 main_v100_1 c = W12 m c main_v100_1 := rfl
  have e2 : outs m 12 main_v100_2 c = W12 m c main_v100_2 := rfl
  unfold Gen.V12; rw [V11_eq m c, e0, e1, e2, W12_at_0 m c, W12_at_1 m c, W12_at_2 m c]; unfold W12; rfl
theorem V13_eq (c : Dev nD) : Gen.V13 m (outs m) c = W13 m c := by
  unfold Gen.V13 W13; rw [V12_eq m c]
theorem V14_eq (c : Dev nD) : Gen.V14 m (outs m) c = W14 m c := by
  have e : outs m 14 main_v128 c = W14 m c main_v128 := rfl
  unfold Gen.V14; rw [V13_eq m c, e, W14_at m c]; unfold W14; rfl
theorem V15_eq (c : Dev nD) : Gen.V15 m (outs m) c = W15 m c := by
  unfold Gen.V15 W15; rw [V14_eq m c]
theorem V16_eq (c : Dev nD) : Gen.V16 m (outs m) c = W16 m c := by
  have e0 : outs m 16 main_v145_0 c = W16 m c main_v145_0 := rfl
  have e1 : outs m 16 main_v145_1 c = W16 m c main_v145_1 := rfl
  have e2 : outs m 16 main_v145_2 c = W16 m c main_v145_2 := rfl
  unfold Gen.V16; rw [V15_eq m c, e0, e1, e2, W16_at_0 m c, W16_at_1 m c, W16_at_2 m c]; unfold W16; rfl
theorem V17_eq (c : Dev nD) : Gen.V17 m (outs m) c = W17 m c := by
  unfold Gen.V17 W17; rw [V16_eq m c]
theorem V18_eq (c : Dev nD) : Gen.V18 m (outs m) c = W18 m c := by
  have e : outs m 18 main_v173 c = W18 m c main_v173 := rfl
  unfold Gen.V18; rw [V17_eq m c, e, W18_at m c]; unfold W18; rfl
theorem V19_eq (c : Dev nD) : Gen.V19 m (outs m) c = W19 m c := by
  unfold Gen.V19 W19; rw [V18_eq m c]
theorem V20_eq (c : Dev nD) : Gen.V20 m (outs m) c = W20 m c := by
  have e : outs m 20 main_v188 c = W20 m c main_v188 := rfl
  unfold Gen.V20; rw [V19_eq m c, e, W20_at m c]; unfold W20; rfl

theorem V20_res (c : Dev nD) : Gen.V20 m (outs m) c main_v188 = RES m c := by
  rw [V20_eq m c]; exact W20_at m c

end Cert.Kernel.Hand

end
-- ==== Proof.KRunBase.lean ====
import proofs.«403053_j58033598104012_3_alg».proof.Proof.KFold
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The proof data family, and what rides beside the buffers -/

/-- Every region's proof data, each at the contents its region is entered from. -/
def pdats : (p : Fin 10) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c
  | ⟨7, _⟩ => fun c => dat7 (T15 m) c
  | ⟨8, _⟩ => fun c => dat8 (T17 m) c
  | ⟨9, _⟩ => fun c => dat9 (T19 m) c

/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

end Cert.Kernel.Hand

end
-- ==== Proof.KReg0.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 0 -/

/-! At region 0's exit each of its arrays holds what the pipeline leaves: an input as entered (never written), an
    output its write-backs folded. Window by window, then for every window. -/
theorem hF0_0 (c : Dev nD) : (dat0 (T1 m) c).arrAt (0 : Fin 3) cfg0.N = T2 m c (Pipeline.arrRef spec0 (0 : Fin 3)) :=
  ((dat0 (T1 m) c).arrAt_in 0 rfl _).trans (W2_of m c (Pipeline.arrRef spec0 0) (by decide)).symm
theorem hF0_1 (c : Dev nD) : (dat0 (T1 m) c).arrAt (1 : Fin 3) cfg0.N = T2 m c (Pipeline.arrRef spec0 (1 : Fin 3)) :=
  ((dat0 (T1 m) c).arrAt_in 1 rfl _).trans (W2_of m c (Pipeline.arrRef spec0 1) (by decide)).symm
theorem hF0_2 (c : Dev nD) : (dat0 (T1 m) c).arrAt (2 : Fin 3) cfg0.N = T2 m c (Pipeline.arrRef spec0 (2 : Fin 3)) :=
  (W2_at m c).symm
theorem hF0 (c : Dev nD) (w : Fin 3) : (dat0 (T1 m) c).arrAt w cfg0.N = T2 m c (Pipeline.arrRef spec0 w) := by
  have h : w = 0 ∨ w = 1 ∨ w = 2 := by revert w; decide
  rcases h with rfl | rfl | rfl
  · exact hF0_0 m c
  · exact hF0_1 m c
  · exact hF0_2 m c
/-- and every other buffer what it held at entry. -/
theorem hrest0 (c : Dev nD) : ∀ b, b ∉ Finset.univ.image (Pipeline.arrRef spec0) → T2 m c b = T1 m c b :=
  fun b hb => W2_of m c b (fun e => hb (Finset.mem_image.mpr ⟨2, Finset.mem_univ _, e.symm⟩))

-- a library lemma stated over the pinned configuration unifies with the printed one only when unification may unfold
-- plain definitions in a metavariable's type
set_option backward.isDefEq.respectTransparency.types false in
/-- REGION 0 over the thread state: entered from every unscoped buffer at `W1`, left at `W2`. Its arrays are
    split out of the unscoped buffers and put back at the exit contents; the generator register and the scoped buffers into the invariant and out;
    nothing owed; no semaphore of the kernel's own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Φ_eq0 (T1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Φ_eq0 (T1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 0 is the record's, -/
theorem hpre0 (c : Dev nD) : iprop(StableHlo.held (c : Thread nD τ) (Pipeline.ucRefs τ sig) (Gen.V1 m c) ∗ R (F := F) c) ⊢ (reg0 m).pre c := by
  rw [V1_eq m c]; exact .rfl
/-- and the record's after it the generated one. -/
theorem hpost0 (c : Dev nD) : (reg0 m).post c ⊢ iprop(StableHlo.held (c : Thread nD τ) (Pipeline.ucRefs τ sig) (Gen.V2 m (outs m) c) ∗ R (F := F) c) := by
  rw [V2_eq m c]; exact .rfl

end Cert.Kernel.Hand

end
-- ==== Proof.KReg1.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 1 -/

/-! At region 1's exit each of its arrays holds what the pipeline leaves: an input as entered (never written), an
    output its write-backs folded. Window by window, then for every window. -/
theorem hF1_0 (c : Dev nD) : (dat1 (T3 m) c).arrAt (0 : Fin 7) cfg1.N = T4 m c (Pipeline.arrRef spec1 (0 : Fin 7)) :=
  ((dat1 (T3 m) c).arrAt_in 0 rfl _).trans (W4_of m c (Pipeline.arrRef spec1 0) (by decide) (by decide) (by decide)).symm
theorem hF1_1 (c : Dev nD) : (dat1 (T3 m) c).arrAt (1 : Fin 7) cfg1.N = T4 m c (Pipeline.arrRef spec1 (1 : Fin 7)) :=
  ((dat1 (T3 m) c).arrAt_in 1 rfl _).trans (W4_of m c (Pipeline.arrRef spec1 1) (by decide) (by decide) (by decide)).symm
theorem hF1_2 (c : Dev nD) : (dat1 (T3 m) c).arrAt (2 : Fin 7) cfg1.N = T4 m c (Pipeline.arrRef spec1 (2 : Fin 7)) :=
  ((dat1 (T3 m) c).arrAt_in 2 rfl _).trans (W4_of m c (Pipeline.arrRef spec1 2) (by decide) (by decide) (by decide)).symm
theorem hF1_3 (c : Dev nD) : (dat1 (T3 m) c).arrAt (3 : Fin 7) cfg1.N = T4 m c (Pipeline.arrRef spec1 (3 : Fin 7)) :=
  ((dat1 (T3 m) c).arrAt_in 3 rfl _).trans (W4_of m c (Pipeline.arrRef spec1 3) (by decide) (by decide) (by decide)).symm
theorem hF1_4 (c : Dev nD) : (dat1 (T3 m) c).arrAt (4 : Fin 7) cfg1.N = T4 m c (Pipeline.arrRef spec1 (4 : Fin 7)) :=
  (W4_at_0 m c).symm
theorem hF1_5 (c : Dev nD) : (dat1 (T3 m) c).arrAt (5 : Fin 7) cfg1.N = T4 m c (Pipeline.arrRef spec1 (5 : Fin 7)) :=
  (W4_at_1 m c).symm
theorem hF1_6 (c : Dev nD) : (dat1 (T3 m) c).arrAt (6 : Fin 7) cfg1.N = T4 m c (Pipeline.arrRef spec1 (6 : Fin 7)) :=
  (W4_at_2 m c).symm
theorem hF1 (c : Dev nD) (w : Fin 7) : (dat1 (T3 m) c).arrAt w cfg1.N = T4 m c (Pipeline.arrRef spec1 w) := by
  have h : w = 0 ∨ w = 1 ∨ w = 2 ∨ w = 3 ∨ w = 4 ∨ w = 5 ∨ w = 6 := by revert w; decide
  rcases h with rfl | rfl | rfl | rfl | rfl | rfl | rfl
  · exact hF1_0 m c
  · exact hF1_1 m c
  · exact hF1_2 m c
  · exact hF1_3 m c
  · exact hF1_4 m c
  · exact hF1_5 m c
  · exact hF1_6 m c
/-- and every other buffer what it held at entry. -/
theorem hrest1 (c : Dev nD) : ∀ b, b ∉ Finset.univ.image (Pipeline.arrRef spec1) → T4 m c b = T3 m c b :=
  fun b hb => W4_of m c b (fun e => hb (Finset.mem_image.mpr ⟨4, Finset.mem_univ _, e.symm⟩)) (fun e => hb (Finset.mem_image.mpr ⟨5, Finset.mem_univ _, e.symm⟩)) (fun e => hb (Finset.mem_image.mpr ⟨6, Finset.mem_univ _, e.symm⟩))

-- a library lemma stated over the pinned configuration unifies with the printed one only when unification may unfold
-- plain definitions in a metavariable's type
set_option backward.isDefEq.respectTransparency.types false in
/-- REGION 1 over the thread state: entered from every unscoped buffer at `W3`, left at `W4`. Its arrays are
    split out of the unscoped buffers and put back at the exit contents; the generator register and the scoped buffers (the two accumulators among them) into the invariant and out;
    nothing owed; no semaphore of the kernel's own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_zero (T3 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (T3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 1 is the record's, -/
theorem hpre1 (c : Dev nD) : iprop(StableHlo.held (c : Thread nD τ) (Pipeline.ucRefs τ sig) (Gen.V3 m (outs m) c) ∗ R (F := F) c) ⊢ (reg1 m).pre c := by
  rw [V3_eq m c]; exact .rfl
/-- and the record's after it the generated one. -/
theorem hpost1 (c : Dev nD) : (reg1 m).post c ⊢ iprop(StableHlo.held (c : Thread nD τ) (Pipeline.ucRefs τ sig) (Gen.V4 m (outs m) c) ∗ R (F := F) c) := by
  rw [V4_eq m c]; exact .rfl

end Cert.Kernel.Hand

end
-- ==== Proof.KReg2.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 2 -/

/-! At region 2's exit each of its arrays holds what the pipeline leaves: an input as entered (never written), an
    output its write-backs folded. Window by window, then for every window. -/
theorem hF2_0 (c : Dev nD) : (dat2 (T5 m) c).arrAt (0 : Fin 6) cfg2.N = T6 m c (Pipeline.arrRef spec2 (0 : Fin 6)) :=
  ((dat2 (T5 m) c).arrAt_in 0 rfl _).trans (W6_of m c (Pipeline.arrRef spec2 0) (by decide)).symm
theorem hF2_1 (c : Dev nD) : (dat2 (T5 m) c).arrAt (1 : Fin 6) cfg2.N = T6 m c (Pipeline.arrRef spec2 (1 : Fin 6)) :=
  ((dat2 (T5 m) c).arrAt_in 1 rfl _).trans (W6_of m c (Pipeline.arrRef spec2 1) (by decide)).symm
theorem hF2_2 (c : Dev nD) : (dat2 (T5 m) c).arrAt (2 : Fin 6) cfg2.N = T6 m c (Pipeline.arrRef spec2 (2 : Fin 6)) :=
  ((dat2 (T5 m) c).arrAt_in 2 rfl _).trans (W6_of m c (Pipeline.arrRef spec2 2) (by decide)).symm
theorem hF2_3 (c : Dev nD) : (dat2 (T5 m) c).arrAt (3 : Fin 6) cfg2.N = T6 m c (Pipeline.arrRef spec2 (3 : Fin 6)) :=
  ((dat2 (T5 m) c).arrAt_in 3 rfl _).trans (W6_of m c (Pipeline.arrRef spec2 3) (by decide)).symm
theorem hF2_4 (c : Dev nD) : (dat2 (T5 m) c).arrAt (4 : Fin 6) cfg2.N = T6 m c (Pipeline.arrRef spec2 (4 : Fin 6)) :=
  ((dat2 (T5 m) c).arrAt_in 4 rfl _).trans (W6_of m c (Pipeline.arrRef spec2 4) (by decide)).symm
theorem hF2_5 (c : Dev nD) : (dat2 (T5 m) c).arrAt (5 : Fin 6) cfg2.N = T6 m c (Pipeline.arrRef spec2 (5 : Fin 6)) :=
  (W6_at m c).symm
theorem hF2 (c : Dev nD) (w : Fin 6) : (dat2 (T5 m) c).arrAt w cfg2.N = T6 m c (Pipeline.arrRef spec2 w) := by
  have h : w = 0 ∨ w = 1 ∨ w = 2 ∨ w = 3 ∨ w = 4 ∨ w = 5 := by revert w; decide
  rcases h with rfl | rfl | rfl | rfl | rfl | rfl
  · exact hF2_0 m c
  · exact hF2_1 m c
  · exact hF2_2 m c
  · exact hF2_3 m c
  · exact hF2_4 m c
  · exact hF2_5 m c
/-- and every other buffer what it held at entry. -/
theorem hrest2 (c : Dev nD) : ∀ b, b ∉ Finset.univ.image (Pipeline.arrRef spec2) → T6 m c b = T5 m c b :=
  fun b hb => W6_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 2 over the thread state: entered from every unscoped buffer at `W5`, left at `W6`. Its arrays are
    split out of the unscoped buffers and put back at the exit contents; the generator register and the scoped buffers into the invariant and out;
    nothing owed; no semaphore of the kernel's own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Φ_eq2 (T5 m) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Φ_eq2 (T5 m) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 2 is the record's, -/
theorem hpre2 (c : Dev nD) : iprop(StableHlo.held (c : Thread nD τ) (Pipeline.ucRefs τ sig) (Gen.V5 m (outs m) c) ∗ R (F := F) c) ⊢ (reg2 m).pre c := by
  rw [V5_eq m c]; exact .rfl
/-- and the record's after it the generated one. -/
theorem hpost2 (c : Dev nD) : (reg2 m).post c ⊢ iprop(StableHlo.held (c : Thread nD τ) (Pipeline.ucRefs τ sig) (Gen.V6 m (outs m) c) ∗ R (F := F) c) := by
  rw [V6_eq m c]; exact .rfl

end Cert.Kernel.Hand

end
-- ==== Proof.KReg3.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 3 -/

/-! At region 3's exit each of its arrays holds what the pipeline leaves: an input as entered (never written), an
    output its write-backs folded. Window by window, then for every window. -/
theorem hF3_0 (c : Dev nD) : (dat3 (T7 m) c).arrAt (0 : Fin 8) cfg3.N = T8 m c (Pipeline.arrRef spec3 (0 : Fin 8)) :=
  ((dat3 (T7 m) c).arrAt_in 0 rfl _).trans (W8_of m c (Pipeline.arrRef spec3 0) (by decide) (by decide) (by decide)).symm
theorem hF3_1 (c : Dev nD) : (dat3 (T7 m) c).arrAt (1 : Fin 8) cfg3.N = T8 m c (Pipeline.arrRef spec3 (1 : Fin 8)) :=
  ((dat3 (T7 m) c).arrAt_in 1 rfl _).trans (W8_of m c (Pipeline.arrRef spec3 1) (by decide) (by decide) (by decide)).symm
theorem hF3_2 (c : Dev nD) : (dat3 (T7 m) c).arrAt (2 : Fin 8) cfg3.N = T8 m c (Pipeline.arrRef spec3 (2 : Fin 8)) :=
  ((dat3 (T7 m) c).arrAt_in 2 rfl _).trans (W8_of m c (Pipeline.arrRef spec3 2) (by decide) (by decide) (by decide)).symm
theorem hF3_3 (c : Dev nD) : (dat3 (T7 m) c).arrAt (3 : Fin 8) cfg3.N = T8 m c (Pipeline.arrRef spec3 (3 : Fin 8)) :=
  ((dat3 (T7 m) c).arrAt_in 3 rfl _).trans (W8_of m c (Pipeline.arrRef spec3 3) (by decide) (by decide) (by decide)).symm
theorem hF3_4 (c : Dev nD) : (dat3 (T7 m) c).arrAt (4 : Fin 8) cfg3.N = T8 m c (Pipeline.arrRef spec3 (4 : Fin 8)) :=
  ((dat3 (T7 m) c).arrAt_in 4 rfl _).trans (W8_of m c (Pipeline.arrRef spec3 4) (by decide) (by decide) (by decide)).symm
theorem hF3_5 (c : Dev nD) : (dat3 (T7 m) c).arrAt (5 : Fin 8) cfg3.N = T8 m c (Pipeline.arrRef spec3 (5 : Fin 8)) :=
  (W8_at_0 m c).symm
theorem hF3_6 (c : Dev nD) : (dat3 (T7 m) c).arrAt (6 : Fin 8) cfg3.N = T8 m c (Pipeline.arrRef spec3 (6 : Fin 8)) :=
  (W8_at_1 m c).symm
theorem hF3_7 (c : Dev nD) : (dat3 (T7 m) c).arrAt (7 : Fin 8) cfg3.N = T8 m c (Pipeline.arrRef spec3 (7 : Fin 8)) :=
  (W8_at_2 m c).symm
theorem hF3 (c : Dev nD) (w : Fin 8) : (dat3 (T7 m) c).arrAt w cfg3.N = T8 m c (Pipeline.arrRef spec3 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact hF3_0 m c
  · exact hF3_1 m c
  · exact hF3_2 m c
  · exact hF3_3 m c
  · exact hF3_4 m c
  · exact hF3_5 m c
  · exact hF3_6 m c
  · exact hF3_7 m c
/-- and every other buffer what it held at entry. -/
theorem hrest3 (c : Dev nD) : ∀ b, b ∉ Finset.univ.image (Pipeline.arrRef spec3) → T8 m c b = T7 m c b :=
  fun b hb => W8_of m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

-- a library lemma stated over the pinned configuration unifies with the printed one only when unification may unfold
-- plain definitions in a metavariable's type
set_option backward.isDefEq.respectTransparency.types false in
/-- REGION 3 over the thread state: entered from every unscoped buffer at `W7`, left at `W8`. Its arrays are
    split out of the unscoped buffers and put back at the exit contents; the generator register and the scoped buffers (the two accumulators among them) into the invariant and out;
    nothing owed; no semaphore of the kernel's own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_zero (T7 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Phi3_last (T7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 3 is the record's, -/
theorem hpre3 (c : Dev nD) : iprop(StableHlo.held (c : Thread nD τ) (Pipeline.ucRefs τ sig) (Gen.V7 m (outs m) c) ∗ R (F := F) c) ⊢ (reg3 m).pre c := by
  rw [V7_eq m c]; exact .rfl
/-- and the record's after it the generated one. -/
theorem hpost3 (c : Dev nD) : (reg3 m).post c ⊢ iprop(StableHlo.held (c : Thread nD τ) (Pipeline.ucRefs τ sig) (Gen.V8 m (outs m) c) ∗ R (F := F) c) := by
  rw [V8_eq m c]; exact .rfl

end Cert.Kernel.Hand

end
-- ==== Proof.KReg4.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 4 -/

/-! At region 4's exit each of its arrays holds what the pipeline leaves: an input as entered (never written), an
    output its write-backs folded. Window by window, then for every window. -/
theorem hF4_0 (c : Dev nD) : (dat4 (T9 m) c).arrAt (0 : Fin 6) cfg4.N = T10 m c (Pipeline.arrRef spec4 (0 : Fin 6)) :=
  ((dat4 (T9 m) c).arrAt_in 0 rfl _).trans (W10_of m c (Pipeline.arrRef spec4 0) (by decide)).symm
theorem hF4_1 (c : Dev nD) : (dat4 (T9 m) c).arrAt (1 : Fin 6) cfg4.N = T10 m c (Pipeline.arrRef spec4 (1 : Fin 6)) :=
  ((dat4 (T9 m) c).arrAt_in 1 rfl _).trans (W10_of m c (Pipeline.arrRef spec4 1) (by decide)).symm
theorem hF4_2 (c : Dev nD) : (dat4 (T9 m) c).arrAt (2 : Fin 6) cfg4.N = T10 m c (Pipeline.arrRef spec4 (2 : Fin 6)) :=
  ((dat4 (T9 m) c).arrAt_in 2 rfl _).trans (W10_of m c (Pipeline.arrRef spec4 2) (by decide)).symm
theorem hF4_3 (c : Dev nD) : (dat4 (T9 m) c).arrAt (3 : Fin 6) cfg4.N = T10 m c (Pipeline.arrRef spec4 (3 : Fin 6)) :=
  ((dat4 (T9 m) c).arrAt_in 3 rfl _).trans (W10_of m c (Pipeline.arrRef spec4 3) (by decide)).symm
theorem hF4_4 (c : Dev nD) : (dat4 (T9 m) c).arrAt (4 : Fin 6) cfg4.N = T10 m c (Pipeline.arrRef spec4 (4 : Fin 6)) :=
  ((dat4 (T9 m) c).arrAt_in 4 rfl _).trans (W10_of m c (Pipeline.arrRef spec4 4) (by decide)).symm
theorem hF4_5 (c : Dev nD) : (dat4 (T9 m) c).arrAt (5 : Fin 6) cfg4.N = T10 m c (Pipeline.arrRef spec4 (5 : Fin 6)) :=
  (W10_at m c).symm
theorem hF4 (c : Dev nD) (w : Fin 6) : (dat4 (T9 m) c).arrAt w cfg4.N = T10 m c (Pipeline.arrRef spec4 w) := by
  have h : w = 0 ∨ w = 1 ∨ w = 2 ∨ w = 3 ∨ w = 4 ∨ w = 5 := by revert w; decide
  rcases h with rfl | rfl | rfl | rfl | rfl | rfl
  · exact hF4_0 m c
  · exact hF4_1 m c
  · exact hF4_2 m c
  · exact hF4_3 m c
  · exact hF4_4 m c
  · exact hF4_5 m c
/-- and every other buffer what it held at entry. -/
theorem hrest4 (c : Dev nD) : ∀ b, b ∉ Finset.univ.image (Pipeline.arrRef spec4) → T10 m c b = T9 m c b :=
  fun b hb => W10_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 4 over the thread state: entered from every unscoped buffer at `W9`, left at `W10`. Its arrays are
    split out of the unscoped buffers and put back at the exit contents; the generator register and the scoped buffers into the invariant and out;
    nothing owed; no semaphore of the kernel's own. -/
def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Φ_eq4 (T9 m) c 0]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from Φ_eq4 (T9 m) c _]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 4 is the record's, -/
theorem hpre4 (c : Dev nD) : iprop(StableHlo.held (c : Thread nD τ) (Pipeline.ucRefs τ sig) (Gen.V9 m (outs m) c) ∗ R (F := F) c) ⊢ (reg4 m).pre c := by
  rw [V9_eq m c]; exact .rfl
/-- and the record's after it the generated one. -/
theorem hpost4 (c : Dev nD) : (reg4 m).post c ⊢ iprop(StableHlo.held (c : Thread nD τ) (Pipeline.ucRefs τ sig) (Gen.V10 m (outs m) c) ∗ R (F := F) c) := by
  rw [V10_eq m c]; exact .rfl

end Cert.Kernel.Hand

end
-- ==== Proof.KReg5.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 5 -/

/-! At region 5's exit each of its arrays holds what the pipeline leaves: an input as entered (never written), an
    output its write-backs folded. Window by window, then for every window. -/
theorem hF5_0 (c : Dev nD) : (dat5 (T11 m) c).arrAt (0 : Fin 8) cfg5.N = T12 m c (Pipeline.arrRef spec5 (0 : Fin 8)) :=
  ((dat5 (T11 m) c).arrAt_in 0 rfl _).trans (W12_of m c (Pipeline.arrRef spec5 0) (by decide) (by decide) (by decide)).symm
theorem hF5_1 (c : Dev nD) : (dat5 (T11 m) c).arrAt (1 : Fin 8) cfg5.N = T12 m c (Pipeline.arrRef spec5 (1 : Fin 8)) :=
  ((dat5 (T11 m) c).arrAt_in 1 rfl _).trans (W12_of m c (Pipeline.arrRef spec5 1) (by decide) (by decide) (by decide)).symm
theorem hF5_2 (c : Dev nD) : (dat5 (T11 m) c).arrAt (2 : Fin 8) cfg5.N = T12 m c (Pipeline.arrRef spec5 (2 : Fin 8)) :=
  ((dat5 (T11 m) c).arrAt_in 2 rfl _).trans (W12_of m c (Pipeline.arrRef spec5 2) (by decide) (by decide) (by decide)).symm
theorem hF5_3 (c : Dev nD) : (dat5 (T11 m) c).arrAt (3 : Fin 8) cfg5.N = T12 m c (Pipeline.arrRef spec5 (3 : Fin 8)) :=
  ((dat5 (T11 m) c).arrAt_in 3 rfl _).trans (W12_of m c (Pipeline.arrRef spec5 3) (by decide) (by decide) (by decide)).symm
theorem hF5_4 (c : Dev nD) : (dat5 (T11 m) c).arrAt (4 : Fin 8) cfg5.N = T12 m c (Pipeline.arrRef spec5 (4 : Fin 8)) :=
  ((dat5 (T11 m) c).arrAt_in 4 rfl _).trans (W12_of m c (Pipeline.arrRef spec5 4) (by decide) (by decide) (by decide)).symm
theorem hF5_5 (c : Dev nD) : (dat5 (T11 m) c).arrAt (5 : Fin 8) cfg5.N = T12 m c (Pipeline.arrRef spec5 (5 : Fin 8)) :=
  (W12_at_0 m c).symm
theorem hF5_6 (c : Dev nD) : (dat5 (T11 m) c).arrAt (6 : Fin 8) cfg5.N = T12 m c (Pipeline.arrRef spec5 (6 : Fin 8)) :=
  (W12_at_1 m c).symm
theorem hF5_7 (c : Dev nD) : (dat5 (T11 m) c).arrAt (7 : Fin 8) cfg5.N = T12 m c (Pipeline.arrRef spec5 (7 : Fin 8)) :=
  (W12_at_2 m c).symm
theorem hF5 (c : Dev nD) (w : Fin 8) : (dat5 (T11 m) c).arrAt w cfg5.N = T12 m c (Pipeline.arrRef spec5 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact hF5_0 m c
  · exact hF5_1 m c
  · exact hF5_2 m c
  · exact hF5_3 m c
  · exact hF5_4 m c
  · exact hF5_5 m c
  · exact hF5_6 m c
  · exact hF5_7 m c
/-- and every other buffer what it held at entry. -/
theorem hrest5 (c : Dev nD) : ∀ b, b ∉ Finset.univ.image (Pipeline.arrRef spec5) → T12 m c b = T11 m c b :=
  fun b hb => W12_of m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

-- a library lemma stated over the pinned configuration unifies with the printed one only when unification may unfold
-- plain definitions in a metavariable's type
set_option backward.isDefEq.respectTransparency.types false in
/-- REGION 5 over the thread state: entered from every unscoped buffer at `W11`, left at `W12`. Its arrays are
    split out of the unscoped buffers and put back at the exit contents; the generator register and the scoped buffers (the two accumulators among them) into the invariant and out;
    nothing owed; no semaphore of the kernel's own. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi5_zero (T11 m) c]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from Phi5_last (T11 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T11 m c) (T12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 5 is the record's, -/
theorem hpre5 (c : Dev nD) : iprop(StableHlo.held (c : Thread nD τ) (Pipeline.ucRefs τ sig) (Gen.V11 m (outs m) c) ∗ R (F := F) c) ⊢ (reg5 m).pre c := by
  rw [V11_eq m c]; exact .rfl
/-- and the record's after it the generated one. -/
theorem hpost5 (c : Dev nD) : (reg5 m).post c ⊢ iprop(StableHlo.held (c : Thread nD τ) (Pipeline.ucRefs τ sig) (Gen.V12 m (outs m) c) ∗ R (F := F) c) := by
  rw [V12_eq m c]; exact .rfl

end Cert.Kernel.Hand

end
-- ==== Proof.KReg6.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 6 -/

/-! At region 6's exit each of its arrays holds what the pipeline leaves: an input as entered (never written), an
    output its write-backs folded. Window by window, then for every window. -/
theorem hF6_0 (c : Dev nD) : (dat6 (T13 m) c).arrAt (0 : Fin 6) cfg6.N = T14 m c (Pipeline.arrRef spec6 (0 : Fin 6)) :=
  ((dat6 (T13 m) c).arrAt_in 0 rfl _).trans (W14_of m c (Pipeline.arrRef spec6 0) (by decide)).symm
theorem hF6_1 (c : Dev nD) : (dat6 (T13 m) c).arrAt (1 : Fin 6) cfg6.N = T14 m c (Pipeline.arrRef spec6 (1 : Fin 6)) :=
  ((dat6 (T13 m) c).arrAt_in 1 rfl _).trans (W14_of m c (Pipeline.arrRef spec6 1) (by decide)).symm
theorem hF6_2 (c : Dev nD) : (dat6 (T13 m) c).arrAt (2 : Fin 6) cfg6.N = T14 m c (Pipeline.arrRef spec6 (2 : Fin 6)) :=
  ((dat6 (T13 m) c).arrAt_in 2 rfl _).trans (W14_of m c (Pipeline.arrRef spec6 2) (by decide)).symm
theorem hF6_3 (c : Dev nD) : (dat6 (T13 m) c).arrAt (3 : Fin 6) cfg6.N = T14 m c (Pipeline.arrRef spec6 (3 : Fin 6)) :=
  ((dat6 (T13 m) c).arrAt_in 3 rfl _).trans (W14_of m c (Pipeline.arrRef spec6 3) (by decide)).symm
theorem hF6_4 (c : Dev nD) : (dat6 (T13 m) c).arrAt (4 : Fin 6) cfg6.N = T14 m c (Pipeline.arrRef spec6 (4 : Fin 6)) :=
  ((dat6 (T13 m) c).arrAt_in 4 rfl _).trans (W14_of m c (Pipeline.arrRef spec6 4) (by decide)).symm
theorem hF6_5 (c : Dev nD) : (dat6 (T13 m) c).arrAt (5 : Fin 6) cfg6.N = T14 m c (Pipeline.arrRef spec6 (5 : Fin 6)) :=
  (W14_at m c).symm
theorem hF6 (c : Dev nD) (w : Fin 6) : (dat6 (T13 m) c).arrAt w cfg6.N = T14 m c (Pipeline.arrRef spec6 w) := by
  have h : w = 0 ∨ w = 1 ∨ w = 2 ∨ w = 3 ∨ w = 4 ∨ w = 5 := by revert w; decide
  rcases h with rfl | rfl | rfl | rfl | rfl | rfl
  · exact hF6_0 m c
  · exact hF6_1 m c
  · exact hF6_2 m c
  · exact hF6_3 m c
  · exact hF6_4 m c
  · exact hF6_5 m c
/-- and every other buffer what it held at entry. -/
theorem hrest6 (c : Dev nD) : ∀ b, b ∉ Finset.univ.image (Pipeline.arrRef spec6) → T14 m c b = T13 m c b :=
  fun b hb => W14_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 6 over the thread state: entered from every unscoped buffer at `W13`, left at `W14`. Its arrays are
    split out of the unscoped buffers and put back at the exit contents; the generator register and the scoped buffers into the invariant and out;
    nothing owed; no semaphore of the kernel's own. -/
def reg6 : RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (T13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Φ_eq6 (T13 m) c 0]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from Φ_eq6 (T13 m) c _]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T13 m c) (T14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 6 is the record's, -/
theorem hpre6 (c : Dev nD) : iprop(StableHlo.held (c : Thread nD τ) (Pipeline.ucRefs τ sig) (Gen.V13 m (outs m) c) ∗ R (F := F) c) ⊢ (reg6 m).pre c := by
  rw [V13_eq m c]; exact .rfl
/-- and the record's after it the generated one. -/
theorem hpost6 (c : Dev nD) : (reg6 m).post c ⊢ iprop(StableHlo.held (c : Thread nD τ) (Pipeline.ucRefs τ sig) (Gen.V14 m (outs m) c) ∗ R (F := F) c) := by
  rw [V14_eq m c]; exact .rfl

end Cert.Kernel.Hand

end
-- ==== Proof.KReg7.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 7 -/

/-! At region 7's exit each of its arrays holds what the pipeline leaves: an input as entered (never written), an
    output its write-backs folded. Window by window, then for every window. -/
theorem hF7_0 (c : Dev nD) : (dat7 (T15 m) c).arrAt (0 : Fin 8) cfg7.N = T16 m c (Pipeline.arrRef spec7 (0 : Fin 8)) :=
  ((dat7 (T15 m) c).arrAt_in 0 rfl _).trans (W16_of m c (Pipeline.arrRef spec7 0) (by decide) (by decide) (by decide)).symm
theorem hF7_1 (c : Dev nD) : (dat7 (T15 m) c).arrAt (1 : Fin 8) cfg7.N = T16 m c (Pipeline.arrRef spec7 (1 : Fin 8)) :=
  ((dat7 (T15 m) c).arrAt_in 1 rfl _).trans (W16_of m c (Pipeline.arrRef spec7 1) (by decide) (by decide) (by decide)).symm
theorem hF7_2 (c : Dev nD) : (dat7 (T15 m) c).arrAt (2 : Fin 8) cfg7.N = T16 m c (Pipeline.arrRef spec7 (2 : Fin 8)) :=
  ((dat7 (T15 m) c).arrAt_in 2 rfl _).trans (W16_of m c (Pipeline.arrRef spec7 2) (by decide) (by decide) (by decide)).symm
theorem hF7_3 (c : Dev nD) : (dat7 (T15 m) c).arrAt (3 : Fin 8) cfg7.N = T16 m c (Pipeline.arrRef spec7 (3 : Fin 8)) :=
  ((dat7 (T15 m) c).arrAt_in 3 rfl _).trans (W16_of m c (Pipeline.arrRef spec7 3) (by decide) (by decide) (by decide)).symm
theorem hF7_4 (c : Dev nD) : (dat7 (T15 m) c).arrAt (4 : Fin 8) cfg7.N = T16 m c (Pipeline.arrRef spec7 (4 : Fin 8)) :=
  ((dat7 (T15 m) c).arrAt_in 4 rfl _).trans (W16_of m c (Pipeline.arrRef spec7 4) (by decide) (by decide) (by decide)).symm
theorem hF7_5 (c : Dev nD) : (dat7 (T15 m) c).arrAt (5 : Fin 8) cfg7.N = T16 m c (Pipeline.arrRef spec7 (5 : Fin 8)) :=
  (W16_at_0 m c).symm
theorem hF7_6 (c : Dev nD) : (dat7 (T15 m) c).arrAt (6 : Fin 8) cfg7.N = T16 m c (Pipeline.arrRef spec7 (6 : Fin 8)) :=
  (W16_at_1 m c).symm
theorem hF7_7 (c : Dev nD) : (dat7 (T15 m) c).arrAt (7 : Fin 8) cfg7.N = T16 m c (Pipeline.arrRef spec7 (7 : Fin 8)) :=
  (W16_at_2 m c).symm
theorem hF7 (c : Dev nD) (w : Fin 8) : (dat7 (T15 m) c).arrAt w cfg7.N = T16 m c (Pipeline.arrRef spec7 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact hF7_0 m c
  · exact hF7_1 m c
  · exact hF7_2 m c
  · exact hF7_3 m c
  · exact hF7_4 m c
  · exact hF7_5 m c
  · exact hF7_6 m c
  · exact hF7_7 m c
/-- and every other buffer what it held at entry. -/
theorem hrest7 (c : Dev nD) : ∀ b, b ∉ Finset.univ.image (Pipeline.arrRef spec7) → T16 m c b = T15 m c b :=
  fun b hb => W16_of m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

-- a library lemma stated over the pinned configuration unifies with the printed one only when unification may unfold
-- plain definitions in a metavariable's type
set_option backward.isDefEq.respectTransparency.types false in
/-- REGION 7 over the thread state: entered from every unscoped buffer at `W15`, left at `W16`. Its arrays are
    split out of the unscoped buffers and put back at the exit contents; the generator register and the scoped buffers (the two accumulators among them) into the invariant and out;
    nothing owed; no semaphore of the kernel's own. -/
def reg7 : RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (T15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (T15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi7_zero (T15 m) c]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from Phi7_last (T15 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T15 m c) (T16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 7 is the record's, -/
theorem hpre7 (c : Dev nD) : iprop(StableHlo.held (c : Thread nD τ) (Pipeline.ucRefs τ sig) (Gen.V15 m (outs m) c) ∗ R (F := F) c) ⊢ (reg7 m).pre c := by
  rw [V15_eq m c]; exact .rfl
/-- and the record's after it the generated one. -/
theorem hpost7 (c : Dev nD) : (reg7 m).post c ⊢ iprop(StableHlo.held (c : Thread nD τ) (Pipeline.ucRefs τ sig) (Gen.V16 m (outs m) c) ∗ R (F := F) c) := by
  rw [V16_eq m c]; exact .rfl

end Cert.Kernel.Hand

end
-- ==== Proof.KReg8.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 8 -/

/-! At region 8's exit each of its arrays holds what the pipeline leaves: an input as entered (never written), an
    output its write-backs folded. Window by window, then for every window. -/
theorem hF8_0 (c : Dev nD) : (dat8 (T17 m) c).arrAt (0 : Fin 6) cfg8.N = T18 m c (Pipeline.arrRef spec8 (0 : Fin 6)) :=
  ((dat8 (T17 m) c).arrAt_in 0 rfl _).trans (W18_of m c (Pipeline.arrRef spec8 0) (by decide)).symm
theorem hF8_1 (c : Dev nD) : (dat8 (T17 m) c).arrAt (1 : Fin 6) cfg8.N = T18 m c (Pipeline.arrRef spec8 (1 : Fin 6)) :=
  ((dat8 (T17 m) c).arrAt_in 1 rfl _).trans (W18_of m c (Pipeline.arrRef spec8 1) (by decide)).symm
theorem hF8_2 (c : Dev nD) : (dat8 (T17 m) c).arrAt (2 : Fin 6) cfg8.N = T18 m c (Pipeline.arrRef spec8 (2 : Fin 6)) :=
  ((dat8 (T17 m) c).arrAt_in 2 rfl _).trans (W18_of m c (Pipeline.arrRef spec8 2) (by decide)).symm
theorem hF8_3 (c : Dev nD) : (dat8 (T17 m) c).arrAt (3 : Fin 6) cfg8.N = T18 m c (Pipeline.arrRef spec8 (3 : Fin 6)) :=
  ((dat8 (T17 m) c).arrAt_in 3 rfl _).trans (W18_of m c (Pipeline.arrRef spec8 3) (by decide)).symm
theorem hF8_4 (c : Dev nD) : (dat8 (T17 m) c).arrAt (4 : Fin 6) cfg8.N = T18 m c (Pipeline.arrRef spec8 (4 : Fin 6)) :=
  ((dat8 (T17 m) c).arrAt_in 4 rfl _).trans (W18_of m c (Pipeline.arrRef spec8 4) (by decide)).symm
theorem hF8_5 (c : Dev nD) : (dat8 (T17 m) c).arrAt (5 : Fin 6) cfg8.N = T18 m c (Pipeline.arrRef spec8 (5 : Fin 6)) :=
  (W18_at m c).symm
theorem hF8 (c : Dev nD) (w : Fin 6) : (dat8 (T17 m) c).arrAt w cfg8.N = T18 m c (Pipeline.arrRef spec8 w) := by
  have h : w = 0 ∨ w = 1 ∨ w = 2 ∨ w = 3 ∨ w = 4 ∨ w = 5 := by revert w; decide
  rcases h with rfl | rfl | rfl | rfl | rfl | rfl
  · exact hF8_0 m c
  · exact hF8_1 m c
  · exact hF8_2 m c
  · exact hF8_3 m c
  · exact hF8_4 m c
  · exact hF8_5 m c
/-- and every other buffer what it held at entry. -/
theorem hrest8 (c : Dev nD) : ∀ b, b ∉ Finset.univ.image (Pipeline.arrRef spec8) → T18 m c b = T17 m c b :=
  fun b hb => W18_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 8 over the thread state: entered from every unscoped buffer at `W17`, left at `W18`. Its arrays are
    split out of the unscoped buffers and put back at the exit contents; the generator register and the scoped buffers into the invariant and out;
    nothing owed; no semaphore of the kernel's own. -/
def reg8 : RegionSeg (pcfgs (F := F)) adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (T17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (T17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Φ_eq8 (T17 m) c 0]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from Φ_eq8 (T17 m) c _]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T17 m c) (T18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 8 is the record's, -/
theorem hpre8 (c : Dev nD) : iprop(StableHlo.held (c : Thread nD τ) (Pipeline.ucRefs τ sig) (Gen.V17 m (outs m) c) ∗ R (F := F) c) ⊢ (reg8 m).pre c := by
  rw [V17_eq m c]; exact .rfl
/-- and the record's after it the generated one. -/
theorem hpost8 (c : Dev nD) : (reg8 m).post c ⊢ iprop(StableHlo.held (c : Thread nD τ) (Pipeline.ucRefs τ sig) (Gen.V18 m (outs m) c) ∗ R (F := F) c) := by
  rw [V18_eq m c]; exact .rfl

end Cert.Kernel.Hand

end
-- ==== Proof.KReg9.lean ====
import proofs.«403053_j58033598104012_3_alg».proof.Proof.KRunBase
import Idealize.ShloMosaic.Lib.Pipeline.RegionsLoop
import Idealize.ShloMosaic.Lib.Pipeline.FrameSuffix
import Idealize.ShloMosaic.Lib.Pipeline.Kit

-- deciding that two references far into the signature differ recurses as deep as their position
set_option maxRecDepth 16384
set_option maxHeartbeats 1000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## Region 9 -/

/-! At region 9's exit each of its arrays holds what the pipeline leaves: an input as entered (never written), an
    output its write-backs folded. Window by window, then for every window. -/
theorem hF9_0 (c : Dev nD) : (dat9 (T19 m) c).arrAt (0 : Fin 6) cfg9.N = T20 m c (Pipeline.arrRef spec9 (0 : Fin 6)) :=
  ((dat9 (T19 m) c).arrAt_in 0 rfl _).trans (W20_of m c (Pipeline.arrRef spec9 0) (by decide)).symm
theorem hF9_1 (c : Dev nD) : (dat9 (T19 m) c).arrAt (1 : Fin 6) cfg9.N = T20 m c (Pipeline.arrRef spec9 (1 : Fin 6)) :=
  ((dat9 (T19 m) c).arrAt_in 1 rfl _).trans (W20_of m c (Pipeline.arrRef spec9 1) (by decide)).symm
theorem hF9_2 (c : Dev nD) : (dat9 (T19 m) c).arrAt (2 : Fin 6) cfg9.N = T20 m c (Pipeline.arrRef spec9 (2 : Fin 6)) :=
  ((dat9 (T19 m) c).arrAt_in 2 rfl _).trans (W20_of m c (Pipeline.arrRef spec9 2) (by decide)).symm
theorem hF9_3 (c : Dev nD) : (dat9 (T19 m) c).arrAt (3 : Fin 6) cfg9.N = T20 m c (Pipeline.arrRef spec9 (3 : Fin 6)) :=
  ((dat9 (T19 m) c).arrAt_in 3 rfl _).trans (W20_of m c (Pipeline.arrRef spec9 3) (by decide)).symm
theorem hF9_4 (c : Dev nD) : (dat9 (T19 m) c).arrAt (4 : Fin 6) cfg9.N = T20 m c (Pipeline.arrRef spec9 (4 : Fin 6)) :=
  ((dat9 (T19 m) c).arrAt_in 4 rfl _).trans (W20_of m c (Pipeline.arrRef spec9 4) (by decide)).symm
theorem hF9_5 (c : Dev nD) : (dat9 (T19 m) c).arrAt (5 : Fin 6) cfg9.N = T20 m c (Pipeline.arrRef spec9 (5 : Fin 6)) :=
  (W20_at m c).symm
theorem hF9 (c : Dev nD) (w : Fin 6) : (dat9 (T19 m) c).arrAt w cfg9.N = T20 m c (Pipeline.arrRef spec9 w) := by
  have h : w = 0 ∨ w = 1 ∨ w = 2 ∨ w = 3 ∨ w = 4 ∨ w = 5 := by revert w; decide
  rcases h with rfl | rfl | rfl | rfl | rfl | rfl
  · exact hF9_0 m c
  · exact hF9_1 m c
  · exact hF9_2 m c
  · exact hF9_3 m c
  · exact hF9_4 m c
  · exact hF9_5 m c
/-- and every other buffer what it held at entry. -/
theorem hrest9 (c : Dev nD) : ∀ b, b ∉ Finset.univ.image (Pipeline.arrRef spec9) → T20 m c b = T19 m c b :=
  fun b hb => W20_of m c b (fun e => hb (Finset.mem_image.mpr ⟨5, Finset.mem_univ _, e.symm⟩))

-- a library lemma stated over the pinned configuration unifies with the printed one only when unification may unfold
-- plain definitions in a metavariable's type
set_option backward.isDefEq.respectTransparency.types false in
/-- REGION 9 over the thread state: entered from every unscoped buffer at `W19`, left at `W20`. Its arrays are
    split out of the unscoped buffers and put back at the exit contents; the generator register and the scoped buffers into the invariant and out;
    nothing owed; no semaphore of the kernel's own. -/
def reg9 : RegionSeg (pcfgs (F := F)) adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (T19 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (T19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Φ_eq9 (T19 m) c 0]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from Φ_eq9 (T19 m) c _]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T19 m c) (T20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generated thread state before region 9 is the record's, -/
theorem hpre9 (c : Dev nD) : iprop(StableHlo.held (c : Thread nD τ) (Pipeline.ucRefs τ sig) (Gen.V19 m (outs m) c) ∗ R (F := F) c) ⊢ (reg9 m).pre c := by
  rw [V19_eq m c]; exact .rfl
/-- and the record's after it the generated one. -/
theorem hpost9 (c : Dev nD) : (reg9 m).post c ⊢ iprop(StableHlo.held (c : Thread nD τ) (Pipeline.ucRefs τ sig) (Gen.V20 m (outs m) c) ∗ R (F := F) c) := by
  rw [V20_eq m c]; exact .rfl

end Cert.Kernel.Hand

end
-- ==== Proof.KRun.lean ====
import proofs.«403053_j58033598104012_3_alg».proof.Proof.KReg0
import proofs.«403053_j58033598104012_3_alg».proof.Proof.KReg1
import proofs.«403053_j58033598104012_3_alg».proof.Proof.KReg2
import proofs.«403053_j58033598104012_3_alg».proof.Proof.KReg3
import proofs.«403053_j58033598104012_3_alg».proof.Proof.KReg4
import proofs.«403053_j58033598104012_3_alg».proof.Proof.KReg5
import proofs.«403053_j58033598104012_3_alg».proof.Proof.KReg6
import proofs.«403053_j58033598104012_3_alg».proof.Proof.KReg7
import proofs.«403053_j58033598104012_3_alg».proof.Proof.KReg8
import proofs.«403053_j58033598104012_3_alg».proof.Proof.KReg9
-- ==== Proof.KRunMain.lean ====
import proofs.«403053_j58033598104012_3_alg».proof.Proof.KRun

set_option maxRecDepth 1920

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! # The run of @main: the segments from the launch to the return, the result buffer named -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers ends with the core owing nothing (the generator register is dropped). -/
theorem R_owes (c : Dev nD) : R (F := F) c ⊢ (iprop(∃ W, owes (c : Thread nD τ) (0 : CellTallies nD τ sig Unit) W) : sProp 𝕄) := by
  iintro ⟨-, H⟩; iexact H

-- the launch theorem for a list of segments is stated over the pinned configurations; matching it against this
-- statement unfolds plain definitions in a type
set_option backward.isDefEq.respectTransparency.types false in
/-- THE RUN. From any memory `m` with zero counters and any generator registers, every weakly fair execution of @main on
    the TensorCores terminates, and every final memory holds in `main_v188` what region 9's pipeline leaves there
    (`RES m c`: its output array after the last grid point, the earlier regions' outputs and the host stretches folded
    in through `W1 … W19`) and every argument array as launched. The segments are the host stretches over the generated
    valuations and the ten region records; the valuations are read at the regions' outputs chosen as the fold. -/
theorem run_named (ρ : Dev nD → PrngReg) :
    θ_run defs (onTc (τ := τ) (main (F := F))) ⟨m, fun _ => 0, ρ⟩ (fun r => ∀ c : Dev nD,
      r.2.mem ((c.tc : Thread nD τ).loc main_v188) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) := by
  refine Pipeline.θ_run_regions_kit_dev (pcfgs (F := F)) adm (pdats m) () cellOf_inj emb₁ defs₀ Variants.none L lv m ρ main
    (Gen.segs m (outs m) Variants.none L lv (fun _ => R (F := F)) () (pdats m) (reg0 m) (reg1 m) (reg2 m) (reg3 m) (reg4 m) (reg5 m) (reg6 m) (reg7 m) (reg8 m) (reg9 m))
    (fun c Q => by
      rewrite [main_chain c, Seg.run_eq_chain,
        show (Gen.segs m (outs m) Variants.none L lv (fun _ => R (F := F)) () (pdats m) (reg0 m) (reg1 m) (reg2 m) (reg3 m) (reg4 m) (reg5 m) (reg6 m) (reg7 m) (reg8 m) (reg9 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V20 m (outs m) c))
    (hch := fun c => ⟨.rfl, hpre0 m c, hpost0 m c, hpre1 m c, hpost1 m c, hpre2 m c, hpost2 m c, hpre3 m c, hpost3 m c, hpre4 m c, hpost4 m c, hpre5 m c, hpost5 m c, hpre6 m c, hpost6 m c, hpre7 m c, hpost7 m c, hpre8 m c, hpost8 m c, hpre9 m c, (hpost9 m c).trans (sep_mono .rfl (R_owes c))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V20 m (outs m) c b)
    (hfin := fun c s' => by
      iintro ⟨Hh, HSI⟩
      unfold StableHlo.held
      imodintro
      iapply (pointsTo_read_all (Pipeline.ucRefs τ sig) (fun b => (((c : Thread nD τ)).1, b)) (Gen.V20 m (outs m) c) s')
      isplitl [Hh] <;> iassumption)
    (hQ := fun s h c =>
      ⟨(h c _ (mem_uc main_v188 (by decide))).trans (V20_res m c),
        (h c _ (mem_uc main_arg0 (by decide))).trans (Gen.V20_main_arg0 m (outs m) c),
        (h c _ (mem_uc main_arg1 (by decide))).trans (Gen.V20_main_arg1 m (outs m) c),
        (h c _ (mem_uc main_arg2 (by decide))).trans (Gen.V20_main_arg2 m (outs m) c),
        (h c _ (mem_uc main_arg3 (by decide))).trans (Gen.V20_main_arg3 m (outs m) c),
        (h c _ (mem_uc main_arg4 (by decide))).trans (Gen.V20_main_arg4 m (outs m) c),
        (h c _ (mem_uc main_arg5 (by decide))).trans (Gen.V20_main_arg5 m (outs m) c),
        (h c _ (mem_uc main_arg6 (by decide))).trans (Gen.V20_main_arg6 m (outs m) c),
        (h c _ (mem_uc main_arg7 (by decide))).trans (Gen.V20_main_arg7 m (outs m) c),
        (h c _ (mem_uc main_arg8 (by decide))).trans (Gen.V20_main_arg8 m (outs m) c),
        (h c _ (mem_uc main_arg9 (by decide))).trans (Gen.V20_main_arg9 m (outs m) c),
        (h c _ (mem_uc main_arg10 (by decide))).trans (Gen.V20_main_arg10 m (outs m) c),
        (h c _ (mem_uc main_arg11 (by decide))).trans (Gen.V20_main_arg11 m (outs m) c),
        (h c _ (mem_uc main_arg12 (by decide))).trans (Gen.V20_main_arg12 m (outs m) c),
        (h c _ (mem_uc main_arg13 (by decide))).trans (Gen.V20_main_arg13 m (outs m) c),
        (h c _ (mem_uc main_arg14 (by decide))).trans (Gen.V20_main_arg14 m (outs m) c),
        (h c _ (mem_uc main_arg15 (by decide))).trans (Gen.V20_main_arg15 m (outs m) c),
        (h c _ (mem_uc main_arg16 (by decide))).trans (Gen.V20_main_arg16 m (outs m) c),
        (h c _ (mem_uc main_arg17 (by decide))).trans (Gen.V20_main_arg17 m (outs m) c),
        (h c _ (mem_uc main_arg18 (by decide))).trans (Gen.V20_main_arg18 m (outs m) c),
        (h c _ (mem_uc main_arg19 (by decide))).trans (Gen.V20_main_arg19 m (outs m) c),
        (h c _ (mem_uc main_arg20 (by decide))).trans (Gen.V20_main_arg20 m (outs m) c),
        (h c _ (mem_uc main_arg21 (by decide))).trans (Gen.V20_main_arg21 m (outs m) c),
        (h c _ (mem_uc main_arg22 (by decide))).trans (Gen.V20_main_arg22 m (outs m) c),
        (h c _ (mem_uc main_arg23 (by decide))).trans (Gen.V20_main_arg23 m (outs m) c),
        (h c _ (mem_uc main_arg24 (by decide))).trans (Gen.V20_main_arg24 m (outs m) c),
        (h c _ (mem_uc main_arg25 (by decide))).trans (Gen.V20_main_arg25 m (outs m) c),
        (h c _ (mem_uc main_arg26 (by decide))).trans (Gen.V20_main_arg26 m (outs m) c)⟩)

/-- info: 'Cert.Kernel.Hand.run_named' depends on axioms: [propext, Classical.choice, Quot.sound] -/
#guard_msgs in #print axioms run_named

end Cert.Kernel.Hand

end
-- ==== Proof.HostK.lean ====
import proofs.«403053_j58033598104012_3_alg».proof.Proof.Gen.KernelIdeal.Regions
import Idealize.ShloMosaic.Lib.StableHlo.Run

/-!
  The host stretches of the program, read as terms: what each buffer a later item reads holds after a
  stretch, as a composition of array operations over the contents W before the stretch (W arbitrary).
  This file: the named building blocks, and stretches 0 to 4.
-/

set_option maxRecDepth 1920

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## The building blocks -/

/-- Row 0 of the 2×E edge list (the sources), as a vector of length E. -/
def srcOf (e : IVec S2x3200000 32) : IVec S3200000 32 :=
  shapeCast S3200000 (extractStridedSlice S1x3200000 ![0, 0] e slices_S2x3200000_S1x3200000_0_0) shapeCasts_S1x3200000_S3200000

/-- Row 1 of the 2×E edge list (the destinations), as a vector of length E. -/
def dstOf (e : IVec S2x3200000 32) : IVec S3200000 32 :=
  shapeCast S3200000 (extractStridedSlice S1x3200000 ![1, 0] e slices_S2x3200000_S1x3200000_1_0) shapeCasts_S1x3200000_S3200000

/-- An index vector of length E as an E×1 column (the index operand of a gather or a scatter). -/
def colIdx (d : IVec S3200000 32) : IVec S3200000x1 32 :=
  broadcastInDim S3200000x1 ![0] bcast_S3200000_S3200000x1_0 d

/-- The in-degree of every node, N×1: ones scattered and summed at the destinations. -/
def degOf (d : IVec S3200000 32) : FVec F S100000x1 .f32 :=
  Host.scatterAdd scatter_S100000x1_S3200000x1_S3200000x1_1_0_0_1
    (broadcastInDim S100000x1 ![] bcast_S_S100000x1 (constant S_ .f32 0x00000000#32))
    (colIdx d)
    (broadcastInDim S3200000x1 ![] bcast_S_S3200000x1 (constant S_ .f32 0x3F800000#32))

/-- A source index wrapped when negative (s < 0 ↦ s + N), as an E×1 column. -/
def normIdx (s : IVec S3200000 32) : IVec S3200000x1 32 :=
  colIdx (select (cmpi .slt s (broadcastInDim S3200000 ![] bcast_S_S3200000 (constantI S_ 32 0#32)))
    (addi s (broadcastInDim S3200000 ![] bcast_S_S3200000 (constantI S_ 32 100000#32))) s)

/-- The divisor of a mean: max(count, 1), N×1. -/
def cntClamp (cnt : FVec F S100000x1 .f32) : FVec F S100000x1 .f32 :=
  maximumf cnt (broadcastInDim S100000x1 ![] bcast_S_S100000x1 (constant S_ .f32 0x3F800000#32))

/-- Mean aggregation over incoming edges, width 16: rows of h gathered at the (wrapped) sources, summed at
    the destinations, divided by max(in-degree, 1). -/
def segMean16 (cnt : FVec F S100000x1 .f32) (d s : IVec S3200000 32) (h : FVec F S100000x16 .f32) : FVec F S100000x16 .f32 :=
  Host.divf
    (Host.scatterAdd scatter_S100000x16_S3200000x1_S3200000x16_1_0_0_1
      (broadcastInDim S100000x16 ![] bcast_S_S100000x16 (constant S_ .f32 0x00000000#32))
      (colIdx d)
      (Host.gather gather_S100000x16_S3200000x1_S3200000x16_1_0_n_n_0_1_116 h (normIdx s)))
    (broadcastInDim S100000x16 ![0, 1] bcast_S100000x1_S100000x16_0_1 (cntClamp cnt))

/-- Mean aggregation over incoming edges, width 32: rows of h gathered at the (wrapped) sources, summed at
    the destinations, divided by max(in-degree, 1). -/
def segMean32 (cnt : FVec F S100000x1 .f32) (d s : IVec S3200000 32) (h : FVec F S100000x32 .f32) : FVec F S100000x32 .f32 :=
  Host.divf
    (Host.scatterAdd scatter_S100000x32_S3200000x1_S3200000x32_1_0_0_1
      (broadcastInDim S100000x32 ![] bcast_S_S100000x32 (constant S_ .f32 0x00000000#32))
      (colIdx d)
      (Host.gather gather_S100000x32_S3200000x1_S3200000x32_1_0_n_n_0_1_132 h (normIdx s)))
    (broadcastInDim S100000x32 ![0, 1] bcast_S100000x1_S100000x32_0_1 (cntClamp cnt))

/-- A vector of length 16 as a 1×16 row. -/
def row16 (v : FVec F S16 .f32) : FVec F S1x16 .f32 := shapeCast S1x16 v shapeCasts_S16_S1x16

/-- The column mean from a 1×16 row of column sums: the sums divided by N = 100000, as a vector of length 16. -/
def meanOf16 (s : FVec F S1x16 .f32) : FVec F S16 .f32 :=
  shapeCast S16 (Host.divf s (broadcastInDim S1x16 ![] bcast_S_S1x16 (constant S_ .f32 0x47C35000#32))) shapeCasts_S1x16_S16

/-- The biased column variance from the sums s and the sums of squares q, clamped below at 0:
    max(q/N − (s/N)², 0). -/
def varOf16 (s q : FVec F S1x16 .f32) : FVec F S16 .f32 :=
  maximumf (subf (meanOf16 q) (mulf (meanOf16 s) (meanOf16 s)))
    (broadcastInDim S16 ![] bcast_S_S16 (constant S_ .f32 0x00000000#32))

/-- A vector of length 32 as a 1×32 row. -/
def row32 (v : FVec F S32 .f32) : FVec F S1x32 .f32 := shapeCast S1x32 v shapeCasts_S32_S1x32

/-- The column mean from a 1×32 row of column sums: the sums divided by N = 100000, as a vector of length 32. -/
def meanOf32 (s : FVec F S1x32 .f32) : FVec F S32 .f32 :=
  shapeCast S32 (Host.divf s (broadcastInDim S1x32 ![] bcast_S_S1x32 (constant S_ .f32 0x47C35000#32))) shapeCasts_S1x32_S32

/-- The biased column variance from the sums s and the sums of squares q, clamped below at 0:
    max(q/N − (s/N)², 0). -/
def varOf32 (s q : FVec F S1x32 .f32) : FVec F S32 .f32 :=
  maximumf (subf (meanOf32 q) (mulf (meanOf32 s) (meanOf32 s)))
    (broadcastInDim S32 ![] bcast_S_S32 (constant S_ .f32 0x00000000#32))

/-- A vector of length 64 as a 1×64 row. -/
def row64 (v : FVec F S64 .f32) : FVec F S1x64 .f32 := shapeCast S1x64 v shapeCasts_S64_S1x64

/-- The column mean from a 1×64 row of column sums: the sums divided by N = 100000, as a vector of length 64. -/
def meanOf64 (s : FVec F S1x64 .f32) : FVec F S64 .f32 :=
  shapeCast S64 (Host.divf s (broadcastInDim S1x64 ![] bcast_S_S1x64 (constant S_ .f32 0x47C35000#32))) shapeCasts_S1x64_S64

/-- The biased column variance from the sums s and the sums of squares q, clamped below at 0:
    max(q/N − (s/N)², 0). -/
def varOf64 (s q : FVec F S1x64 .f32) : FVec F S64 .f32 :=
  maximumf (subf (meanOf64 q) (mulf (meanOf64 s) (meanOf64 s)))
    (broadcastInDim S64 ![] bcast_S_S64 (constant S_ .f32 0x00000000#32))

/-- A vector of length 10 as a 1×10 row. -/
def row10 (v : FVec F S10 .f32) : FVec F S1x10 .f32 := shapeCast S1x10 v shapeCasts_S10_S1x10

/-- A vector of length 32 repeated 4 times along a 128-lane row (the lane-dense form of a per-column
    parameter: lane l holds entry l mod 32). -/
def tile32 (v : FVec F S32 .f32) : FVec F S1x128 .f32 :=
  shapeCast S1x128
    (broadcastInDim S1x1x4x32 ![0, 1, 2, 3] bcast_S1x1x1x32_S1x1x4x32_0_1_2_3
      (shapeCast S1x1x1x32 (row32 v) shapeCasts_S1x32_S1x1x1x32))
    shapeCasts_S1x1x4x32_S1x128

/-- An N×32 array in its lane-dense form, 25000×128 (row-major order kept). -/
def dense32 (y : FVec F S100000x32 .f32) : FVec F S25000x128 .f32 :=
  shapeCast S25000x128 y shapeCasts_S100000x32_S25000x128

/-- A lane-dense 25000×128 array back as N×32. -/
def undense32 (y : FVec F S25000x128 .f32) : FVec F S100000x32 .f32 :=
  shapeCast S100000x32 y shapeCasts_S25000x128_S100000x32

/-- A vector of length 64 repeated 2 times along a 128-lane row (the lane-dense form of a per-column
    parameter: lane l holds entry l mod 64). -/
def tile64 (v : FVec F S64 .f32) : FVec F S1x128 .f32 :=
  shapeCast S1x128
    (broadcastInDim S1x1x2x64 ![0, 1, 2, 3] bcast_S1x1x1x64_S1x1x2x64_0_1_2_3
      (shapeCast S1x1x1x64 (row64 v) shapeCasts_S1x64_S1x1x1x64))
    shapeCasts_S1x1x2x64_S1x128

/-- An N×64 array in its lane-dense form, 50000×128 (row-major order kept). -/
def dense64 (y : FVec F S100000x64 .f32) : FVec F S50000x128 .f32 :=
  shapeCast S50000x128 y shapeCasts_S100000x64_S50000x128

/-- A lane-dense 50000×128 array back as N×64. -/
def undense64 (y : FVec F S50000x128 .f32) : FVec F S100000x64 .f32 :=
  shapeCast S100000x64 y shapeCasts_S50000x128_S100000x64

/-- The graph id of every node as an N×1 column (the index operand of the pooling scatters). -/
def batchCol (b : IVec S100000 32) : IVec S100000x1 32 :=
  broadcastInDim S100000x1 ![0] bcast_S100000_S100000x1_0 b

/-- Mean pooling to the 256 graphs: rows of h summed per graph id, divided by max(nodes in the graph, 1). -/
def poolMean (b : IVec S100000 32) (h : FVec F S100000x64 .f32) : FVec F S256x64 .f32 :=
  Host.divf
    (Host.scatterAdd scatter_S256x64_S100000x1_S100000x64_1_0_0_1
      (broadcastInDim S256x64 ![] bcast_S_S256x64 (constant S_ .f32 0x00000000#32))
      (batchCol b) h)
    (broadcastInDim S256x64 ![0, 1] bcast_S256x1_S256x64_0_1
      (maximumf
        (Host.scatterAdd scatter_S256x1_S100000x1_S100000x1_1_0_0_1
          (broadcastInDim S256x1 ![] bcast_S_S256x1 (constant S_ .f32 0x00000000#32))
          (batchCol b)
          (broadcastInDim S100000x1 ![] bcast_S_S100000x1 (constant S_ .f32 0x3F800000#32)))
        (broadcastInDim S256x1 ![] bcast_S_S256x1 (constant S_ .f32 0x3F800000#32))))

/-! ## Stretch 0: sources, destinations, in-degrees -/

theorem host0_v1 (W : Valuation τ sig (Elt F)) :
    StableHlo.after hostOps0 W main_v1 = srcOf (W main_arg1) := by
  dsimp only [hostOps0]; after_results_simp; rfl

theorem host0_v3 (W : Valuation τ sig (Elt F)) :
    StableHlo.after hostOps0 W main_v3 = dstOf (W main_arg1) := by
  dsimp only [hostOps0]; after_results_simp; rfl

theorem host0_v7 (W : Valuation τ sig (Elt F)) :
    StableHlo.after hostOps0 W main_v7 = degOf (dstOf (W main_arg1)) := by
  dsimp only [hostOps0]; after_results_simp; rfl

/-- A buffer stretch 0 does not write keeps its contents. -/
theorem host0_keep (W : Valuation τ sig (Elt F)) (r : Ref sig .tc) (h : r ∉ hostOps0_W) :
    StableHlo.after hostOps0 W r = W r :=
  StableHlo.after_of_writes_sub hostOps0 W hostOps0_writes h

/-! ## Stretch 1: the aggregation of layer 1 (width 16) and its bias row -/

theorem host1_v22 (W : Valuation τ sig (Elt F)) :
    StableHlo.after hostOps1 W main_v22 = segMean16 (W main_v7) (W main_v3) (W main_v1) (W main_v8) := by
  dsimp only [hostOps1]; after_results_simp; rfl

theorem host1_v23 (W : Valuation τ sig (Elt F)) :
    StableHlo.after hostOps1 W main_v23 = row16 (W main_arg5) := by
  dsimp only [hostOps1]; after_results_simp; rfl

/-- A buffer stretch 1 does not write keeps its contents. -/
theorem host1_keep (W : Valuation τ sig (Elt F)) (r : Ref sig .tc) (h : r ∉ hostOps1_W) :
    StableHlo.after hostOps1 W r = W r :=
  StableHlo.after_of_writes_sub hostOps1 W hostOps1_writes h

/-! ## Stretch 2: the statistics of layer 1 and the normalisation's parameter rows -/

theorem host2_v35 (W : Valuation τ sig (Elt F)) :
    StableHlo.after hostOps2 W main_v35 = row16 (meanOf16 (W main_v24_1)) := by
  dsimp only [hostOps2]; after_results_simp; rfl

theorem host2_v36 (W : Valuation τ sig (Elt F)) :
    StableHlo.after hostOps2 W main_v36 = row16 (varOf16 (W main_v24_1) (W main_v24_2)) := by
  dsimp only [hostOps2]; after_results_simp; rfl

theorem host2_v37 (W : Valuation τ sig (Elt F)) :
    StableHlo.after hostOps2 W main_v37 = row16 (W main_arg6) := by
  dsimp only [hostOps2]; after_results_simp; rfl

theorem host2_v38 (W : Valuation τ sig (Elt F)) :
    StableHlo.after hostOps2 W main_v38 = row16 (W main_arg7) := by
  dsimp only [hostOps2]; after_results_simp; rfl

/-- A buffer stretch 2 does not write keeps its contents. -/
theorem host2_keep (W : Valuation τ sig (Elt F)) (r : Ref sig .tc) (h : r ∉ hostOps2_W) :
    StableHlo.after hostOps2 W r = W r :=
  StableHlo.after_of_writes_sub hostOps2 W hostOps2_writes h

/-! ## Stretch 3: the aggregation of layer 2 (width 16) and its bias row -/

theorem host3_v53 (W : Valuation τ sig (Elt F)) :
    StableHlo.after hostOps3 W main_v53 = segMean16 (W main_v7) (W main_v3) (W main_v1) (W main_v39) := by
  dsimp only [hostOps3]; after_results_simp; rfl

theorem host3_v54 (W : Valuation τ sig (Elt F)) :
    StableHlo.after hostOps3 W main_v54 = row32 (W main_arg10) := by
  dsimp only [hostOps3]; after_results_simp; rfl

/-- A buffer stretch 3 does not write keeps its contents. -/
theorem host3_keep (W : Valuation τ sig (Elt F)) (r : Ref sig .tc) (h : r ∉ hostOps3_W) :
    StableHlo.after hostOps3 W r = W r :=
  StableHlo.after_of_writes_sub hostOps3 W hostOps3_writes h

/-! ## Stretch 4: the statistics of layer width 32 and the lane-dense operands of the normalisation -/

theorem host4_v66 (W : Valuation τ sig (Elt F)) :
    StableHlo.after hostOps4 W main_v66 = dense32 (W main_v55_0) := by
  dsimp only [hostOps4]; after_results_simp; rfl

theorem host4_v70 (W : Valuation τ sig (Elt F)) :
    StableHlo.after hostOps4 W main_v70 = tile32 (meanOf32 (W main_v55_1)) := by
  dsimp only [hostOps4]; after_results_simp; rfl

theorem host4_v74 (W : Valuation τ sig (Elt F)) :
    StableHlo.after hostOps4 W main_v74 = tile32 (varOf32 (W main_v55_1) (W main_v55_2)) := by
  dsimp only [hostOps4]; after_results_simp; rfl

theorem host4_v78 (W : Valuation τ sig (Elt F)) :
    StableHlo.after hostOps4 W main_v78 = tile32 (W main_arg11) := by
  dsimp only [hostOps4]; after_results_simp; rfl

theorem host4_v82 (W : Valuation τ sig (Elt F)) :
    StableHlo.after hostOps4 W main_v82 = tile32 (W main_arg12) := by
  dsimp only [hostOps4]; after_results_simp; rfl

/-- A buffer stretch 4 does not write keeps its contents. -/
theorem host4_keep (W : Valuation τ sig (Elt F)) (r : Ref sig .tc) (h : r ∉ hostOps4_W) :
    StableHlo.after hostOps4 W r = W r :=
  StableHlo.after_of_writes_sub hostOps4 W hostOps4_writes h

end Cert.KernelIdeal.Hand
-- ==== Proof.HostK2.lean ====
import proofs.«403053_j58033598104012_3_alg».proof.Proof.HostK

/-!
  The host stretches of the program, read as terms (continued): stretches 5 to 9.
-/

set_option maxRecDepth 1920

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## Stretch 5: layer 2's output back as N×32, the aggregation of layer 3 (width 32) and its bias row -/

theorem host5_v84 (W : Valuation τ sig (Elt F)) :
    StableHlo.after hostOps5 W main_v84 = undense32 (W main_v83) := by
  dsimp only [hostOps5]; after_results_simp; rfl

theorem host5_v98 (W : Valuation τ sig (Elt F)) :
    StableHlo.after hostOps5 W main_v98 = segMean32 (W main_v7) (W main_v3) (W main_v1) (undense32 (W main_v83)) := by
  dsimp only [hostOps5]; after_results_simp; rfl

theorem host5_v99 (W : Valuation τ sig (Elt F)) :
    StableHlo.after hostOps5 W main_v99 = row32 (W main_arg15) := by
  dsimp only [hostOps5]; after_results_simp; rfl

/-- A buffer stretch 5 does not write keeps its contents. -/
theorem host5_keep (W : Valuation τ sig (Elt F)) (r : Ref sig .tc) (h : r ∉ hostOps5_W) :
    StableHlo.after hostOps5 W r = W r :=
  StableHlo.after_of_writes_sub hostOps5 W hostOps5_writes h

/-! ## Stretch 6: the statistics of layer width 32 and the lane-dense operands of the normalisation -/

theorem host6_v111 (W : Valuation τ sig (Elt F)) :
    StableHlo.after hostOps6 W main_v111 = dense32 (W main_v100_0) := by
  dsimp only [hostOps6]; after_results_simp; rfl

theorem host6_v115 (W : Valuation τ sig (Elt F)) :
    StableHlo.after hostOps6 W main_v115 = tile32 (meanOf32 (W main_v100_1)) := by
  dsimp only [hostOps6]; after_results_simp; rfl

theorem host6_v119 (W : Valuation τ sig (Elt F)) :
    StableHlo.after hostOps6 W main_v119 = tile32 (varOf32 (W main_v100_1) (W main_v100_2)) := by
  dsimp only [hostOps6]; after_results_simp; rfl

theorem host6_v123 (W : Valuation τ sig (Elt F)) :
    StableHlo.after hostOps6 W main_v123 = tile32 (W main_arg16) := by
  dsimp only [hostOps6]; after_results_simp; rfl

theorem host6_v127 (W : Valuation τ sig (Elt F)) :
    StableHlo.after hostOps6 W main_v127 = tile32 (W main_arg17) := by
  dsimp only [hostOps6]; after_results_simp; rfl

/-- A buffer stretch 6 does not write keeps its contents. -/
theorem host6_keep (W : Valuation τ sig (Elt F)) (r : Ref sig .tc) (h : r ∉ hostOps6_W) :
    StableHlo.after hostOps6 W r = W r :=
  StableHlo.after_of_writes_sub hostOps6 W hostOps6_writes h

/-! ## Stretch 7: layer 3's output back as N×32, the aggregation of layer 4 (width 32) and its bias row -/

theorem host7_v129 (W : Valuation τ sig (Elt F)) :
    StableHlo.after hostOps7 W main_v129 = undense32 (W main_v128) := by
  dsimp only [hostOps7]; after_results_simp; rfl

theorem host7_v143 (W : Valuation τ sig (Elt F)) :
    StableHlo.after hostOps7 W main_v143 = segMean32 (W main_v7) (W main_v3) (W main_v1) (undense32 (W main_v128)) := by
  dsimp only [hostOps7]; after_results_simp; rfl

theorem host7_v144 (W : Valuation τ sig (Elt F)) :
    StableHlo.after hostOps7 W main_v144 = row64 (W main_arg20) := by
  dsimp only [hostOps7]; after_results_simp; rfl

/-- A buffer stretch 7 does not write keeps its contents. -/
theorem host7_keep (W : Valuation τ sig (Elt F)) (r : Ref sig .tc) (h : r ∉ hostOps7_W) :
    StableHlo.after hostOps7 W r = W r :=
  StableHlo.after_of_writes_sub hostOps7 W hostOps7_writes h

/-! ## Stretch 8: the statistics of layer width 64 and the lane-dense operands of the normalisation -/

theorem host8_v156 (W : Valuation τ sig (Elt F)) :
    StableHlo.after hostOps8 W main_v156 = dense64 (W main_v145_0) := by
  dsimp only [hostOps8]; after_results_simp; rfl

theorem host8_v160 (W : Valuation τ sig (Elt F)) :
    StableHlo.after hostOps8 W main_v160 = tile64 (meanOf64 (W main_v145_1)) := by
  dsimp only [hostOps8]; after_results_simp; rfl

theorem host8_v164 (W : Valuation τ sig (Elt F)) :
    StableHlo.after hostOps8 W main_v164 = tile64 (varOf64 (W main_v145_1) (W main_v145_2)) := by
  dsimp only [hostOps8]; after_results_simp; rfl

theorem host8_v168 (W : Valuation τ sig (Elt F)) :
    StableHlo.after hostOps8 W main_v168 = tile64 (W main_arg21) := by
  dsimp only [hostOps8]; after_results_simp; rfl

theorem host8_v172 (W : Valuation τ sig (Elt F)) :
    StableHlo.after hostOps8 W main_v172 = tile64 (W main_arg22) := by
  dsimp only [hostOps8]; after_results_simp; rfl

/-- A buffer stretch 8 does not write keeps its contents. -/
theorem host8_keep (W : Valuation τ sig (Elt F)) (r : Ref sig .tc) (h : r ∉ hostOps8_W) :
    StableHlo.after hostOps8 W r = W r :=
  StableHlo.after_of_writes_sub hostOps8 W hostOps8_writes h

/-! ## Stretch 9: layer 4's output back as N×64, the mean pooling to graphs, the head's bias rows -/

theorem host9_v174 (W : Valuation τ sig (Elt F)) :
    StableHlo.after hostOps9 W main_v174 = undense64 (W main_v173) := by
  dsimp only [hostOps9]; after_results_simp; rfl

theorem host9_v185 (W : Valuation τ sig (Elt F)) :
    StableHlo.after hostOps9 W main_v185 = poolMean (W main_arg2) (undense64 (W main_v173)) := by
  dsimp only [hostOps9]; after_results_simp; rfl

theorem host9_v186 (W : Valuation τ sig (Elt F)) :
    StableHlo.after hostOps9 W main_v186 = row64 (W main_arg24) := by
  dsimp only [hostOps9]; after_results_simp; rfl

theorem host9_v187 (W : Valuation τ sig (Elt F)) :
    StableHlo.after hostOps9 W main_v187 = row10 (W main_arg26) := by
  dsimp only [hostOps9]; after_results_simp; rfl

/-- A buffer stretch 9 does not write keeps its contents. -/
theorem host9_keep (W : Valuation τ sig (Elt F)) (r : Ref sig .tc) (h : r ∉ hostOps9_W) :
    StableHlo.after hostOps9 W r = W r :=
  StableHlo.after_of_writes_sub hostOps9 W hostOps9_writes h

end Cert.KernelIdeal.Hand
-- ==== Proof.KerWire.lean ====
import proofs.«403053_j58033598104012_3_alg».proof.Proof.HostK
import proofs.«403053_j58033598104012_3_alg».proof.Proof.HostK2

/-!
  What every region finds in the buffers it reads, in terms of the launch contents and of what the
  earlier regions left in their output buffers.

  The buffers' contents between the program's items are the valuations V1 … V20 over the unknown
  region outputs `outs`. A host stretch's results are the composed terms of its operations over the
  contents before it; a buffer an item does not write keeps its contents. Unfolding the items one
  after the other gives each region's operands.
-/

set_option maxRecDepth 1920

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (outs : Outs (F := F)) (c : Dev nD)

/-! ## Three nested updates read at each of their points -/

section Upd
variable {α : Type} [DecidableEq α] {β : α → Type}

theorem upd3_0 (f : (a : α) → β a) (a b d : α) (x : β a) (y : β b) (z : β d) (hab : a ≠ b) (had : a ≠ d) :
    Function.update (Function.update (Function.update f a x) b y) d z a = x := by
  rw [Function.update_of_ne had, Function.update_of_ne hab, Function.update_self]

theorem upd3_1 (f : (a : α) → β a) (a b d : α) (x : β a) (y : β b) (z : β d) (hbd : b ≠ d) :
    Function.update (Function.update (Function.update f a x) b y) d z b = y := by
  rw [Function.update_of_ne hbd, Function.update_self]

theorem upd3_2 (f : (a : α) → β a) (a b d : α) (x : β a) (y : β b) (z : β d) :
    Function.update (Function.update (Function.update f a x) b y) d z d = z := by
  rw [Function.update_self]

end Upd

/-! ## The edge list's rows and the in-degrees -/

/-- The edges' sources. -/
abbrev kS : IVec S3200000 32 := srcOf (V0 m c main_arg1)
/-- The edges' destinations. -/
abbrev kD : IVec S3200000 32 := dstOf (V0 m c main_arg1)
/-- The nodes' in-degrees. -/
abbrev kG : FVec F S100000x1 .f32 := degOf (dstOf (V0 m c main_arg1))

theorem w1_v1 : V1 m c main_v1 = kS m c := host0_v1 (V0 m c)
theorem w1_v3 : V1 m c main_v3 = kD m c := host0_v3 (V0 m c)
theorem w1_v7 : V1 m c main_v7 = kG m c := host0_v7 (V0 m c)

theorem w2_v1 : V2 m outs c main_v1 = kS m c := by rw [V2_of m outs c _ (by decide), w1_v1]
theorem w2_v3 : V2 m outs c main_v3 = kD m c := by rw [V2_of m outs c _ (by decide), w1_v3]
theorem w2_v7 : V2 m outs c main_v7 = kG m c := by rw [V2_of m outs c _ (by decide), w1_v7]

theorem w6_v1 : V6 m outs c main_v1 = kS m c := by
  rw [V6_of m outs c _ (by decide), V5_of m outs c _ (by decide), V4_of m outs c _ (by decide),
    V3_of m outs c _ (by decide), w2_v1]
theorem w6_v3 : V6 m outs c main_v3 = kD m c := by
  rw [V6_of m outs c _ (by decide), V5_of m outs c _ (by decide), V4_of m outs c _ (by decide),
    V3_of m outs c _ (by decide), w2_v3]
theorem w6_v7 : V6 m outs c main_v7 = kG m c := by
  rw [V6_of m outs c _ (by decide), V5_of m outs c _ (by decide), V4_of m outs c _ (by decide),
    V3_of m outs c _ (by decide), w2_v7]

theorem w10_v1 : V10 m outs c main_v1 = kS m c := by
  rw [V10_of m outs c _ (by decide), V9_of m outs c _ (by decide), V8_of m outs c _ (by decide),
    V7_of m outs c _ (by decide), w6_v1]
theorem w10_v3 : V10 m outs c main_v3 = kD m c := by
  rw [V10_of m outs c _ (by decide), V9_of m outs c _ (by decide), V8_of m outs c _ (by decide),
    V7_of m outs c _ (by decide), w6_v3]
theorem w10_v7 : V10 m outs c main_v7 = kG m c := by
  rw [V10_of m outs c _ (by decide), V9_of m outs c _ (by decide), V8_of m outs c _ (by decide),
    V7_of m outs c _ (by decide), w6_v7]

theorem w14_v1 : V14 m outs c main_v1 = kS m c := by
  rw [V14_of m outs c _ (by decide), V13_of m outs c _ (by decide), V12_of m outs c _ (by decide),
    V11_of m outs c _ (by decide), w10_v1]
theorem w14_v3 : V14 m outs c main_v3 = kD m c := by
  rw [V14_of m outs c _ (by decide), V13_of m outs c _ (by decide), V12_of m outs c _ (by decide),
    V11_of m outs c _ (by decide), w10_v3]
theorem w14_v7 : V14 m outs c main_v7 = kG m c := by
  rw [V14_of m outs c _ (by decide), V13_of m outs c _ (by decide), V12_of m outs c _ (by decide),
    V11_of m outs c _ (by decide), w10_v7]

/-! ## A buffer no item writes -/

/-- `r` is written by no host stretch and is no region's output. -/
structure Kept (r : Ref sig .tc) : Prop where
  h0 : r ∉ hostOps0_W
  h1 : r ∉ hostOps1_W
  h2 : r ∉ hostOps2_W
  h3 : r ∉ hostOps3_W
  h4 : r ∉ hostOps4_W
  h5 : r ∉ hostOps5_W
  h6 : r ∉ hostOps6_W
  h7 : r ∉ hostOps7_W
  h8 : r ∉ hostOps8_W
  h9 : r ∉ hostOps9_W
  g2 : r ∉ ([main_v8] : List (Ref sig .tc))
  g4 : r ∉ ([main_v24_0, main_v24_1, main_v24_2] : List (Ref sig .tc))
  g6 : r ∉ ([main_v39] : List (Ref sig .tc))
  g8 : r ∉ ([main_v55_0, main_v55_1, main_v55_2] : List (Ref sig .tc))
  g10 : r ∉ ([main_v83] : List (Ref sig .tc))
  g12 : r ∉ ([main_v100_0, main_v100_1, main_v100_2] : List (Ref sig .tc))
  g14 : r ∉ ([main_v128] : List (Ref sig .tc))
  g16 : r ∉ ([main_v145_0, main_v145_1, main_v145_2] : List (Ref sig .tc))
  g18 : r ∉ ([main_v173] : List (Ref sig .tc))

namespace Kept
variable {m outs c} {r : Ref sig .tc} (h : Kept r)
include h

theorem v1 : V1 m c r = V0 m c r := V1_of m c r h.h0
theorem v2 : V2 m outs c r = V0 m c r := by rw [V2_of m outs c r h.g2]; exact h.v1
theorem v3 : V3 m outs c r = V0 m c r := by rw [V3_of m outs c r h.h1]; exact h.v2
theorem v4 : V4 m outs c r = V0 m c r := by rw [V4_of m outs c r h.g4]; exact h.v3
theorem v5 : V5 m outs c r = V0 m c r := by rw [V5_of m outs c r h.h2]; exact h.v4
theorem v6 : V6 m outs c r = V0 m c r := by rw [V6_of m outs c r h.g6]; exact h.v5
theorem v7 : V7 m outs c r = V0 m c r := by rw [V7_of m outs c r h.h3]; exact h.v6
theorem v8 : V8 m outs c r = V0 m c r := by rw [V8_of m outs c r h.g8]; exact h.v7
theorem v9 : V9 m outs c r = V0 m c r := by rw [V9_of m outs c r h.h4]; exact h.v8
theorem v10 : V10 m outs c r = V0 m c r := by rw [V10_of m outs c r h.g10]; exact h.v9
theorem v11 : V11 m outs c r = V0 m c r := by rw [V11_of m outs c r h.h5]; exact h.v10
theorem v12 : V12 m outs c r = V0 m c r := by rw [V12_of m outs c r h.g12]; exact h.v11
theorem v13 : V13 m outs c r = V0 m c r := by rw [V13_of m outs c r h.h6]; exact h.v12
theorem v14 : V14 m outs c r = V0 m c r := by rw [V14_of m outs c r h.g14]; exact h.v13
theorem v15 : V15 m outs c r = V0 m c r := by rw [V15_of m outs c r h.h7]; exact h.v14
theorem v16 : V16 m outs c r = V0 m c r := by rw [V16_of m outs c r h.g16]; exact h.v15
theorem v17 : V17 m outs c r = V0 m c r := by rw [V17_of m outs c r h.h8]; exact h.v16
theorem v18 : V18 m outs c r = V0 m c r := by rw [V18_of m outs c r h.g18]; exact h.v17
theorem v19 : V19 m outs c r = V0 m c r := by rw [V19_of m outs c r h.h9]; exact h.v18

end Kept

theorem kept_arg0 : Kept main_arg0 := ⟨by decide, by decide, by decide, by decide, by decide, by decide, by decide, by decide, by decide, by decide, by decide, by decide, by decide, by decide, by decide, by decide, by decide, by decide, by decide⟩
theorem kept_arg2 : Kept main_arg2 := ⟨by decide, by decide, by decide, by decide, by decide, by decide, by decide, by decide, by decide, by decide, by decide, by decide, by decide, by decide, by decide, by decide, by decide, by decide, by decide⟩
theorem kept_arg3 : Kept main_arg3 := ⟨by decide, by decide, by decide, by decide, by decide, by decide, by decide, by decide, by decide, by decide, by decide, by decide, by decide, by decide, by decide, by decide, by decide, by decide, by decide⟩
theorem kept_arg4 : Kept main_arg4 := ⟨by decide, by decide, by decide, by decide, by decide, by decide, by decide, by decide, by decide, by decide, by decide, by decide, by decide, by decide, by decide, by decide, by decide, by decide, by decide⟩
theorem kept_arg5 : Kept main_arg5 := ⟨by decide, by decide, by decide, by decide, by decide, by decide, by decide, by decide, by decide, by decide, by decide, by decide, by decide, by decide, by decide, by decide, by decide, by decide, by decide⟩
theorem kept_arg6 : Kept main_arg6 := ⟨by decide, by decide, by decide, by decide, by decide, by decide, by decide, by decide, by decide, by decide, by decide, by decide, by decide, by decide, by decide, by decide, by decide, by decide, by decide⟩
theorem kept_arg7 : Kept main_arg7 := ⟨by decide, by decide, by decide, by decide, by decide, by decide, by decide, by decide, by decide, by decide, by decide, by decide, by decide, by decide, by decide, by decide, by decide, by decide, by decide⟩
theorem kept_arg8 : Kept main_arg8 := ⟨by decide, by decide, by decide, by decide, by decide, by decide, by decide, by decide, by decide, by decide, by decide, by decide, by decide, by decide, by decide, by decide, by decide, by decide, by decide⟩
theorem kept_arg9 : Kept main_arg9 := ⟨by decide, by decide, by decide, by decide, by decide, by decide, by decide, by decide, by decide, by decide, by decide, by decide, by decide, by decide, by decide, by decide, by decide, by decide, by decide⟩
theorem kept_arg10 : Kept main_arg10 := ⟨by decide, by decide, by decide, by decide, by decide, by decide, by decide, by decide, by decide, by decide, by decide, by decide, by decide, by decide, by decide, by decide, by decide, by decide, by decide⟩
theorem kept_arg11 : Kept main_arg11 := ⟨by decide, by decide, by decide, by decide, by decide, by decide, by decide, by decide, by decide, by decide, by decide, by decide, by decide, by decide, by decide, by decide, by decide, by decide, by decide⟩
theorem kept_arg12 : Kept main_arg12 := ⟨by decide, by decide, by decide, by decide, by decide, by decide, by decide, by decide, by decide, by decide, by decide, by decide, by decide, by decide, by decide, by decide, by decide, by decide, by decide⟩
theorem kept_arg13 : Kept main_arg13 := ⟨by decide, by decide, by decide, by decide, by decide, by decide, by decide, by decide, by decide, by decide, by decide, by decide, by decide, by decide, by decide, by decide, by decide, by decide, by decide⟩
theorem kept_arg14 : Kept main_arg14 := ⟨by decide, by decide, by decide, by decide, by decide, by decide, by decide, by decide, by decide, by decide, by decide, by decide, by decide, by decide, by decide, by decide, by decide, by decide, by decide⟩
theorem kept_arg15 : Kept main_arg15 := ⟨by decide, by decide, by decide, by decide, by decide, by decide, by decide, by decide, by decide, by decide, by decide, by decide, by decide, by decide, by decide, by decide, by decide, by decide, by decide⟩
theorem kept_arg16 : Kept main_arg16 := ⟨by decide, by decide, by decide, by decide, by decide, by decide, by decide, by decide, by decide, by decide, by decide, by decide, by decide, by decide, by decide, by decide, by decide, by decide, by decide⟩
theorem kept_arg17 : Kept main_arg17 := ⟨by decide, by decide, by decide, by decide, by decide, by decide, by decide, by decide, by decide, by decide, by decide, by decide, by decide, by decide, by decide, by decide, by decide, by decide, by decide⟩
theorem kept_arg18 : Kept main_arg18 := ⟨by decide, by decide, by decide, by decide, by decide, by decide, by decide, by decide, by decide, by decide, by decide, by decide, by decide, by decide, by decide, by decide, by decide, by decide, by decide⟩
theorem kept_arg19 : Kept main_arg19 := ⟨by decide, by decide, by decide, by decide, by decide, by decide, by decide, by decide, by decide, by decide, by decide, by decide, by decide, by decide, by decide, by decide, by decide, by decide, by decide⟩
theorem kept_arg20 : Kept main_arg20 := ⟨by decide, by decide, by decide, by decide, by decide, by decide, by decide, by decide, by decide, by decide, by decide, by decide, by decide, by decide, by decide, by decide, by decide, by decide, by decide⟩
theorem kept_arg21 : Kept main_arg21 := ⟨by decide, by decide, by decide, by decide, by decide, by decide, by decide, by decide, by decide, by decide, by decide, by decide, by decide, by decide, by decide, by decide, by decide, by decide, by decide⟩
theorem kept_arg22 : Kept main_arg22 := ⟨by decide, by decide, by decide, by decide, by decide, by decide, by decide, by decide, by decide, by decide, by decide, by decide, by decide, by decide, by decide, by decide, by decide, by decide, by decide⟩
theorem kept_arg23 : Kept main_arg23 := ⟨by decide, by decide, by decide, by decide, by decide, by decide, by decide, by decide, by decide, by decide, by decide, by decide, by decide, by decide, by decide, by decide, by decide, by decide, by decide⟩
theorem kept_arg24 : Kept main_arg24 := ⟨by decide, by decide, by decide, by decide, by decide, by decide, by decide, by decide, by decide, by decide, by decide, by decide, by decide, by decide, by decide, by decide, by decide, by decide, by decide⟩
theorem kept_arg25 : Kept main_arg25 := ⟨by decide, by decide, by decide, by decide, by decide, by decide, by decide, by decide, by decide, by decide, by decide, by decide, by decide, by decide, by decide, by decide, by decide, by decide, by decide⟩
theorem kept_arg26 : Kept main_arg26 := ⟨by decide, by decide, by decide, by decide, by decide, by decide, by decide, by decide, by decide, by decide, by decide, by decide, by decide, by decide, by decide, by decide, by decide, by decide, by decide⟩

/-! ## Region 0 (the projection): operands, output -/

theorem in0_0 : V1 m c main_arg0 = V0 m c main_arg0 := V1_of m c _ (by decide)
theorem in0_1 : V1 m c main_arg3 = V0 m c main_arg3 := V1_of m c _ (by decide)
theorem w2_v8 : V2 m outs c main_v8 = outs 2 main_v8 c := Function.update_self _ _ _

/-! ## Region 1 (layer 1's linear map and statistics): operands, outputs -/

theorem in1_0 : V3 m outs c main_v22 = segMean16 (kG m c) (kD m c) (kS m c) (outs 2 main_v8 c) := by
  refine (host1_v22 (V2 m outs c)).trans ?_
  rw [w2_v7, w2_v3, w2_v1, w2_v8]
theorem in1_1 : V3 m outs c main_arg0 = V0 m c main_arg0 := (kept_arg0).v3 (m := m) (outs := outs) (c := c)
theorem in1_2 : V3 m outs c main_arg4 = V0 m c main_arg4 := (kept_arg4).v3 (m := m) (outs := outs) (c := c)
theorem in1_3 : V3 m outs c main_v23 = row16 (V0 m c main_arg5) := by
  refine (host1_v23 (V2 m outs c)).trans ?_
  rw [(kept_arg5).v2 (m := m) (outs := outs) (c := c)]
theorem w4_0 : V4 m outs c main_v24_0 = outs 4 main_v24_0 c := upd3_0 _ _ _ _ _ _ _ (by decide) (by decide)
theorem w4_1 : V4 m outs c main_v24_1 = outs 4 main_v24_1 c := upd3_1 _ _ _ _ _ _ _ (by decide)
theorem w4_2 : V4 m outs c main_v24_2 = outs 4 main_v24_2 c := upd3_2 _ _ _ _ _ _ _

/-! ## Region 2 (layer 1's normalisation and ELU): operands, output -/

theorem in2_0 : V5 m outs c main_v24_0 = outs 4 main_v24_0 c := by
  rw [V5_of m outs c _ (by decide), w4_0]
theorem in2_1 : V5 m outs c main_v35 = row16 (meanOf16 (outs 4 main_v24_1 c)) := by
  refine (host2_v35 (V4 m outs c)).trans ?_
  rw [w4_1]
theorem in2_2 : V5 m outs c main_v36 = row16 (varOf16 (outs 4 main_v24_1 c) (outs 4 main_v24_2 c)) := by
  refine (host2_v36 (V4 m outs c)).trans ?_
  rw [w4_1, w4_2]
theorem in2_3 : V5 m outs c main_v37 = row16 (V0 m c main_arg6) := by
  refine (host2_v37 (V4 m outs c)).trans ?_
  rw [(kept_arg6).v4 (m := m) (outs := outs) (c := c)]
theorem in2_4 : V5 m outs c main_v38 = row16 (V0 m c main_arg7) := by
  refine (host2_v38 (V4 m outs c)).trans ?_
  rw [(kept_arg7).v4 (m := m) (outs := outs) (c := c)]
theorem w6_v39 : V6 m outs c main_v39 = outs 6 main_v39 c := Function.update_self _ _ _

/-! ## Region 3 (layer 2's linear map and statistics): operands, outputs -/

theorem in3_0 : V7 m outs c main_v53 = segMean16 (kG m c) (kD m c) (kS m c) (outs 6 main_v39 c) := by
  refine (host3_v53 (V6 m outs c)).trans ?_
  rw [w6_v7, w6_v3, w6_v1, w6_v39]
theorem in3_1 : V7 m outs c main_v39 = outs 6 main_v39 c := by
  rw [V7_of m outs c _ (by decide), w6_v39]
theorem in3_2 : V7 m outs c main_arg8 = V0 m c main_arg8 := (kept_arg8).v7 (m := m) (outs := outs) (c := c)
theorem in3_3 : V7 m outs c main_arg9 = V0 m c main_arg9 := (kept_arg9).v7 (m := m) (outs := outs) (c := c)
theorem in3_4 : V7 m outs c main_v54 = row32 (V0 m c main_arg10) := by
  refine (host3_v54 (V6 m outs c)).trans ?_
  rw [(kept_arg10).v6 (m := m) (outs := outs) (c := c)]
theorem w8_0 : V8 m outs c main_v55_0 = outs 8 main_v55_0 c := upd3_0 _ _ _ _ _ _ _ (by decide) (by decide)
theorem w8_1 : V8 m outs c main_v55_1 = outs 8 main_v55_1 c := upd3_1 _ _ _ _ _ _ _ (by decide)
theorem w8_2 : V8 m outs c main_v55_2 = outs 8 main_v55_2 c := upd3_2 _ _ _ _ _ _ _

/-! ## Region 4 (layer 2's normalisation and ELU, 128 lanes wide): operands, output -/

theorem in4_0 : V9 m outs c main_v66 = dense32 (outs 8 main_v55_0 c) := by
  refine (host4_v66 (V8 m outs c)).trans ?_
  rw [w8_0]
theorem in4_1 : V9 m outs c main_v70 = tile32 (meanOf32 (outs 8 main_v55_1 c)) := by
  refine (host4_v70 (V8 m outs c)).trans ?_
  rw [w8_1]
theorem in4_2 : V9 m outs c main_v74 = tile32 (varOf32 (outs 8 main_v55_1 c) (outs 8 main_v55_2 c)) := by
  refine (host4_v74 (V8 m outs c)).trans ?_
  rw [w8_1, w8_2]
theorem in4_3 : V9 m outs c main_v78 = tile32 (V0 m c main_arg11) := by
  refine (host4_v78 (V8 m outs c)).trans ?_
  rw [(kept_arg11).v8 (m := m) (outs := outs) (c := c)]
theorem in4_4 : V9 m outs c main_v82 = tile32 (V0 m c main_arg12) := by
  refine (host4_v82 (V8 m outs c)).trans ?_
  rw [(kept_arg12).v8 (m := m) (outs := outs) (c := c)]
theorem w10_v83 : V10 m outs c main_v83 = outs 10 main_v83 c := Function.update_self _ _ _

/-! ## Region 5 (layer 3's linear map and statistics): operands, outputs -/

theorem in5_0 : V11 m outs c main_v98 = segMean32 (kG m c) (kD m c) (kS m c) (undense32 (outs 10 main_v83 c)) := by
  refine (host5_v98 (V10 m outs c)).trans ?_
  rw [w10_v7, w10_v3, w10_v1, w10_v83]
theorem in5_1 : V11 m outs c main_v84 = undense32 (outs 10 main_v83 c) := by
  refine (host5_v84 (V10 m outs c)).trans ?_
  rw [w10_v83]
theorem in5_2 : V11 m outs c main_arg13 = V0 m c main_arg13 := (kept_arg13).v11 (m := m) (outs := outs) (c := c)
theorem in5_3 : V11 m outs c main_arg14 = V0 m c main_arg14 := (kept_arg14).v11 (m := m) (outs := outs) (c := c)
theorem in5_4 : V11 m outs c main_v99 = row32 (V0 m c main_arg15) := by
  refine (host5_v99 (V10 m outs c)).trans ?_
  rw [(kept_arg15).v10 (m := m) (outs := outs) (c := c)]
theorem w12_0 : V12 m outs c main_v100_0 = outs 12 main_v100_0 c := upd3_0 _ _ _ _ _ _ _ (by decide) (by decide)
theorem w12_1 : V12 m outs c main_v100_1 = outs 12 main_v100_1 c := upd3_1 _ _ _ _ _ _ _ (by decide)
theorem w12_2 : V12 m outs c main_v100_2 = outs 12 main_v100_2 c := upd3_2 _ _ _ _ _ _ _

/-! ## Region 6 (layer 3's normalisation and ELU, 128 lanes wide): operands, output -/

theorem in6_0 : V13 m outs c main_v111 = dense32 (outs 12 main_v100_0 c) := by
  refine (host6_v111 (V12 m outs c)).trans ?_
  rw [w12_0]
theorem in6_1 : V13 m outs c main_v115 = tile32 (meanOf32 (outs 12 main_v100_1 c)) := by
  refine (host6_v115 (V12 m outs c)).trans ?_
  rw [w12_1]
theorem in6_2 : V13 m outs c main_v119 = tile32 (varOf32 (outs 12 main_v100_1 c) (outs 12 main_v100_2 c)) := by
  refine (host6_v119 (V12 m outs c)).trans ?_
  rw [w12_1, w12_2]
theorem in6_3 : V13 m outs c main_v123 = tile32 (V0 m c main_arg16) := by
  refine (host6_v123 (V12 m outs c)).trans ?_
  rw [(kept_arg16).v12 (m := m) (outs := outs) (c := c)]
theorem in6_4 : V13 m outs c main_v127 = tile32 (V0 m c main_arg17) := by
  refine (host6_v127 (V12 m outs c)).trans ?_
  rw [(kept_arg17).v12 (m := m) (outs := outs) (c := c)]
theorem w14_v128 : V14 m outs c main_v128 = outs 14 main_v128 c := Function.update_self _ _ _

/-! ## Region 7 (layer 4's linear map and statistics): operands, outputs -/

theorem in7_0 : V15 m outs c main_v143 = segMean32 (kG m c) (kD m c) (kS m c) (undense32 (outs 14 main_v128 c)) := by
  refine (host7_v143 (V14 m outs c)).trans ?_
  rw [w14_v7, w14_v3, w14_v1, w14_v128]
theorem in7_1 : V15 m outs c main_v129 = undense32 (outs 14 main_v128 c) := by
  refine (host7_v129 (V14 m outs c)).trans ?_
  rw [w14_v128]
theorem in7_2 : V15 m outs c main_arg18 = V0 m c main_arg18 := (kept_arg18).v15 (m := m) (outs := outs) (c := c)
theorem in7_3 : V15 m outs c main_arg19 = V0 m c main_arg19 := (kept_arg19).v15 (m := m) (outs := outs) (c := c)
theorem in7_4 : V15 m outs c main_v144 = row64 (V0 m c main_arg20) := by
  refine (host7_v144 (V14 m outs c)).trans ?_
  rw [(kept_arg20).v14 (m := m) (outs := outs) (c := c)]
theorem w16_0 : V16 m outs c main_v145_0 = outs 16 main_v145_0 c := upd3_0 _ _ _ _ _ _ _ (by decide) (by decide)
theorem w16_1 : V16 m outs c main_v145_1 = outs 16 main_v145_1 c := upd3_1 _ _ _ _ _ _ _ (by decide)
theorem w16_2 : V16 m outs c main_v145_2 = outs 16 main_v145_2 c := upd3_2 _ _ _ _ _ _ _

/-! ## Region 8 (layer 4's normalisation and ELU, 128 lanes wide): operands, output -/

theorem in8_0 : V17 m outs c main_v156 = dense64 (outs 16 main_v145_0 c) := by
  refine (host8_v156 (V16 m outs c)).trans ?_
  rw [w16_0]
theorem in8_1 : V17 m outs c main_v160 = tile64 (meanOf64 (outs 16 main_v145_1 c)) := by
  refine (host8_v160 (V16 m outs c)).trans ?_
  rw [w16_1]
theorem in8_2 : V17 m outs c main_v164 = tile64 (varOf64 (outs 16 main_v145_1 c) (outs 16 main_v145_2 c)) := by
  refine (host8_v164 (V16 m outs c)).trans ?_
  rw [w16_1, w16_2]
theorem in8_3 : V17 m outs c main_v168 = tile64 (V0 m c main_arg21) := by
  refine (host8_v168 (V16 m outs c)).trans ?_
  rw [(kept_arg21).v16 (m := m) (outs := outs) (c := c)]
theorem in8_4 : V17 m outs c main_v172 = tile64 (V0 m c main_arg22) := by
  refine (host8_v172 (V16 m outs c)).trans ?_
  rw [(kept_arg22).v16 (m := m) (outs := outs) (c := c)]
theorem w18_v173 : V18 m outs c main_v173 = outs 18 main_v173 c := Function.update_self _ _ _

/-! ## Region 9 (the pooled rows through the two linear layers and the log-softmax): operands, output -/

theorem in9_0 : V19 m outs c main_v185 = poolMean (V0 m c main_arg2) (undense64 (outs 18 main_v173 c)) := by
  refine (host9_v185 (V18 m outs c)).trans ?_
  rw [(kept_arg2).v18 (m := m) (outs := outs) (c := c), w18_v173]
theorem in9_1 : V19 m outs c main_arg23 = V0 m c main_arg23 := (kept_arg23).v19 (m := m) (outs := outs) (c := c)
theorem in9_2 : V19 m outs c main_v186 = row64 (V0 m c main_arg24) := by
  refine (host9_v186 (V18 m outs c)).trans ?_
  rw [(kept_arg24).v18 (m := m) (outs := outs) (c := c)]
theorem in9_3 : V19 m outs c main_arg25 = V0 m c main_arg25 := (kept_arg25).v19 (m := m) (outs := outs) (c := c)
theorem in9_4 : V19 m outs c main_v187 = row10 (V0 m c main_arg26) := by
  refine (host9_v187 (V18 m outs c)).trans ?_
  rw [(kept_arg26).v18 (m := m) (outs := outs) (c := c)]
theorem w20_v188 : V20 m outs c main_v188 = outs 20 main_v188 c := Function.update_self _ _ _

end Cert.KernelIdeal.Hand
end
-- ==== Proof.KerEntry.lean ====
import proofs.«403053_j58033598104012_3_alg».proof.Proof.KerWire
import proofs.«403053_j58033598104012_3_alg».proof.Proof.Fold

/-!
  The same operands read off the run's own fold: the valuation a region enters at is the generated
  one at the fold's region outputs, so each operand is the host term over the launch contents and
  the arrays the earlier regions left.
-/

set_option maxRecDepth 1920

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (c : Dev nD)

theorem e0_0 : T1 m c main_arg0 = V0 m c main_arg0 :=
  (congrFun (V1_eq m c) main_arg0).symm.trans (in0_0 m c)
theorem e0_1 : T1 m c main_arg3 = V0 m c main_arg3 :=
  (congrFun (V1_eq m c) main_arg3).symm.trans (in0_1 m c)
theorem e1_0 : T3 m c main_v22 = segMean16 (kG m c) (kD m c) (kS m c) (outs m 2 main_v8 c) :=
  (congrFun (V3_eq m c) main_v22).symm.trans (in1_0 m (outs m) c)
theorem e1_1 : T3 m c main_arg0 = V0 m c main_arg0 :=
  (congrFun (V3_eq m c) main_arg0).symm.trans (in1_1 m (outs m) c)
theorem e1_2 : T3 m c main_arg4 = V0 m c main_arg4 :=
  (congrFun (V3_eq m c) main_arg4).symm.trans (in1_2 m (outs m) c)
theorem e1_3 : T3 m c main_v23 = row16 (V0 m c main_arg5) :=
  (congrFun (V3_eq m c) main_v23).symm.trans (in1_3 m (outs m) c)
theorem e2_0 : T5 m c main_v24_0 = outs m 4 main_v24_0 c :=
  (congrFun (V5_eq m c) main_v24_0).symm.trans (in2_0 m (outs m) c)
theorem e2_1 : T5 m c main_v35 = row16 (meanOf16 (outs m 4 main_v24_1 c)) :=
  (congrFun (V5_eq m c) main_v35).symm.trans (in2_1 m (outs m) c)
theorem e2_2 : T5 m c main_v36 = row16 (varOf16 (outs m 4 main_v24_1 c) (outs m 4 main_v24_2 c)) :=
  (congrFun (V5_eq m c) main_v36).symm.trans (in2_2 m (outs m) c)
theorem e2_3 : T5 m c main_v37 = row16 (V0 m c main_arg6) :=
  (congrFun (V5_eq m c) main_v37).symm.trans (in2_3 m (outs m) c)
theorem e2_4 : T5 m c main_v38 = row16 (V0 m c main_arg7) :=
  (congrFun (V5_eq m c) main_v38).symm.trans (in2_4 m (outs m) c)
theorem e3_0 : T7 m c main_v53 = segMean16 (kG m c) (kD m c) (kS m c) (outs m 6 main_v39 c) :=
  (congrFun (V7_eq m c) main_v53).symm.trans (in3_0 m (outs m) c)
theorem e3_1 : T7 m c main_v39 = outs m 6 main_v39 c :=
  (congrFun (V7_eq m c) main_v39).symm.trans (in3_1 m (outs m) c)
theorem e3_2 : T7 m c main_arg8 = V0 m c main_arg8 :=
  (congrFun (V7_eq m c) main_arg8).symm.trans (in3_2 m (outs m) c)
theorem e3_3 : T7 m c main_arg9 = V0 m c main_arg9 :=
  (congrFun (V7_eq m c) main_arg9).symm.trans (in3_3 m (outs m) c)
theorem e3_4 : T7 m c main_v54 = row32 (V0 m c main_arg10) :=
  (congrFun (V7_eq m c) main_v54).symm.trans (in3_4 m (outs m) c)
theorem e4_0 : T9 m c main_v66 = dense32 (outs m 8 main_v55_0 c) :=
  (congrFun (V9_eq m c) main_v66).symm.trans (in4_0 m (outs m) c)
theorem e4_1 : T9 m c main_v70 = tile32 (meanOf32 (outs m 8 main_v55_1 c)) :=
  (congrFun (V9_eq m c) main_v70).symm.trans (in4_1 m (outs m) c)
theorem e4_2 : T9 m c main_v74 = tile32 (varOf32 (outs m 8 main_v55_1 c) (outs m 8 main_v55_2 c)) :=
  (congrFun (V9_eq m c) main_v74).symm.trans (in4_2 m (outs m) c)
theorem e4_3 : T9 m c main_v78 = tile32 (V0 m c main_arg11) :=
  (congrFun (V9_eq m c) main_v78).symm.trans (in4_3 m (outs m) c)
theorem e4_4 : T9 m c main_v82 = tile32 (V0 m c main_arg12) :=
  (congrFun (V9_eq m c) main_v82).symm.trans (in4_4 m (outs m) c)
theorem e5_0 : T11 m c main_v98 = segMean32 (kG m c) (kD m c) (kS m c) (undense32 (outs m 10 main_v83 c)) :=
  (congrFun (V11_eq m c) main_v98).symm.trans (in5_0 m (outs m) c)
theorem e5_1 : T11 m c main_v84 = undense32 (outs m 10 main_v83 c) :=
  (congrFun (V11_eq m c) main_v84).symm.trans (in5_1 m (outs m) c)
theorem e5_2 : T11 m c main_arg13 = V0 m c main_arg13 :=
  (congrFun (V11_eq m c) main_arg13).symm.trans (in5_2 m (outs m) c)
theorem e5_3 : T11 m c main_arg14 = V0 m c main_arg14 :=
  (congrFun (V11_eq m c) main_arg14).symm.trans (in5_3 m (outs m) c)
theorem e5_4 : T11 m c main_v99 = row32 (V0 m c main_arg15) :=
  (congrFun (V11_eq m c) main_v99).symm.trans (in5_4 m (outs m) c)
theorem e6_0 : T13 m c main_v111 = dense32 (outs m 12 main_v100_0 c) :=
  (congrFun (V13_eq m c) main_v111).symm.trans (in6_0 m (outs m) c)
theorem e6_1 : T13 m c main_v115 = tile32 (meanOf32 (outs m 12 main_v100_1 c)) :=
  (congrFun (V13_eq m c) main_v115).symm.trans (in6_1 m (outs m) c)
theorem e6_2 : T13 m c main_v119 = tile32 (varOf32 (outs m 12 main_v100_1 c) (outs m 12 main_v100_2 c)) :=
  (congrFun (V13_eq m c) main_v119).symm.trans (in6_2 m (outs m) c)
theorem e6_3 : T13 m c main_v123 = tile32 (V0 m c main_arg16) :=
  (congrFun (V13_eq m c) main_v123).symm.trans (in6_3 m (outs m) c)
theorem e6_4 : T13 m c main_v127 = tile32 (V0 m c main_arg17) :=
  (congrFun (V13_eq m c) main_v127).symm.trans (in6_4 m (outs m) c)
theorem e7_0 : T15 m c main_v143 = segMean32 (kG m c) (kD m c) (kS m c) (undense32 (outs m 14 main_v128 c)) :=
  (congrFun (V15_eq m c) main_v143).symm.trans (in7_0 m (outs m) c)
theorem e7_1 : T15 m c main_v129 = undense32 (outs m 14 main_v128 c) :=
  (congrFun (V15_eq m c) main_v129).symm.trans (in7_1 m (outs m) c)
theorem e7_2 : T15 m c main_arg18 = V0 m c main_arg18 :=
  (congrFun (V15_eq m c) main_arg18).symm.trans (in7_2 m (outs m) c)
theorem e7_3 : T15 m c main_arg19 = V0 m c main_arg19 :=
  (congrFun (V15_eq m c) main_arg19).symm.trans (in7_3 m (outs m) c)
theorem e7_4 : T15 m c main_v144 = row64 (V0 m c main_arg20) :=
  (congrFun (V15_eq m c) main_v144).symm.trans (in7_4 m (outs m) c)
theorem e8_0 : T17 m c main_v156 = dense64 (outs m 16 main_v145_0 c) :=
  (congrFun (V17_eq m c) main_v156).symm.trans (in8_0 m (outs m) c)
theorem e8_1 : T17 m c main_v160 = tile64 (meanOf64 (outs m 16 main_v145_1 c)) :=
  (congrFun (V17_eq m c) main_v160).symm.trans (in8_1 m (outs m) c)
theorem e8_2 : T17 m c main_v164 = tile64 (varOf64 (outs m 16 main_v145_1 c) (outs m 16 main_v145_2 c)) :=
  (congrFun (V17_eq m c) main_v164).symm.trans (in8_2 m (outs m) c)
theorem e8_3 : T17 m c main_v168 = tile64 (V0 m c main_arg21) :=
  (congrFun (V17_eq m c) main_v168).symm.trans (in8_3 m (outs m) c)
theorem e8_4 : T17 m c main_v172 = tile64 (V0 m c main_arg22) :=
  (congrFun (V17_eq m c) main_v172).symm.trans (in8_4 m (outs m) c)
theorem e9_0 : T19 m c main_v185 = poolMean (V0 m c main_arg2) (undense64 (outs m 18 main_v173 c)) :=
  (congrFun (V19_eq m c) main_v185).symm.trans (in9_0 m (outs m) c)
theorem e9_1 : T19 m c main_arg23 = V0 m c main_arg23 :=
  (congrFun (V19_eq m c) main_arg23).symm.trans (in9_1 m (outs m) c)
theorem e9_2 : T19 m c main_v186 = row64 (V0 m c main_arg24) :=
  (congrFun (V19_eq m c) main_v186).symm.trans (in9_2 m (outs m) c)
theorem e9_3 : T19 m c main_arg25 = V0 m c main_arg25 :=
  (congrFun (V19_eq m c) main_arg25).symm.trans (in9_3 m (outs m) c)
theorem e9_4 : T19 m c main_v187 = row10 (V0 m c main_arg26) :=
  (congrFun (V19_eq m c) main_v187).symm.trans (in9_4 m (outs m) c)

/-! ## What each region leaves, as the fold names it -/

theorem o2 : outs m 2 main_v8 c = (dat0 (T1 m) c).arrAt 2 cfg0.N := W2_at m c
theorem o4_0 : outs m 4 main_v24_0 c = (dat1 (T3 m) c).arrAt 4 cfg1.N := W4_at_0 m c
theorem o4_1 : outs m 4 main_v24_1 c = (dat1 (T3 m) c).arrAt 5 cfg1.N := W4_at_1 m c
theorem o4_2 : outs m 4 main_v24_2 c = (dat1 (T3 m) c).arrAt 6 cfg1.N := W4_at_2 m c
theorem o6 : outs m 6 main_v39 c = (dat2 (T5 m) c).arrAt 5 cfg2.N := W6_at m c
theorem o8_0 : outs m 8 main_v55_0 c = (dat3 (T7 m) c).arrAt 5 cfg3.N := W8_at_0 m c
theorem o8_1 : outs m 8 main_v55_1 c = (dat3 (T7 m) c).arrAt 6 cfg3.N := W8_at_1 m c
theorem o8_2 : outs m 8 main_v55_2 c = (dat3 (T7 m) c).arrAt 7 cfg3.N := W8_at_2 m c
theorem o10 : outs m 10 main_v83 c = (dat4 (T9 m) c).arrAt 5 cfg4.N := W10_at m c
theorem o12_0 : outs m 12 main_v100_0 c = (dat5 (T11 m) c).arrAt 5 cfg5.N := W12_at_0 m c
theorem o12_1 : outs m 12 main_v100_1 c = (dat5 (T11 m) c).arrAt 6 cfg5.N := W12_at_1 m c
theorem o12_2 : outs m 12 main_v100_2 c = (dat5 (T11 m) c).arrAt 7 cfg5.N := W12_at_2 m c
theorem o14 : outs m 14 main_v128 c = (dat6 (T13 m) c).arrAt 5 cfg6.N := W14_at m c
theorem o16_0 : outs m 16 main_v145_0 c = (dat7 (T15 m) c).arrAt 5 cfg7.N := W16_at_0 m c
theorem o16_1 : outs m 16 main_v145_1 c = (dat7 (T15 m) c).arrAt 6 cfg7.N := W16_at_1 m c
theorem o16_2 : outs m 16 main_v145_2 c = (dat7 (T15 m) c).arrAt 7 cfg7.N := W16_at_2 m c
theorem o18 : outs m 18 main_v173 c = (dat8 (T17 m) c).arrAt 5 cfg8.N := W18_at m c
theorem o20 : outs m 20 main_v188 c = RES m c := W20_at m c

end Cert.KernelIdeal.Hand
end
-- ==== Proof.VLaws.lean ====
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Hand

open Idealize.ShloMosaic
open Idealize.ShloMosaic.ValueIdx

/-- The zero offsets of a rank-2 rectangle. -/
theorem zeros2 : (![0, 0] : Fin 2 → Nat) = fun _ => 0 := funext fun a => by fin_cases a <;> rfl

/-- An exponential of a vector at an index is the exponential of the element … -/
theorem exp_apply {s : Shape} {φ : FTy} (a : FVec Ideal s φ) (i : s.Idx) : exp a i = Ideal.exp (a i) := rfl
/-- … and so is a reciprocal square root. -/
theorem rsqrt_apply {s : Shape} {φ : FTy} (a : FVec Ideal s φ) (i : s.Idx) : rsqrt a i = Ideal.rsqrt (a i) := rfl

/-- ELU on the extended reals, in the form the kernel computes it: `z` above zero, `exp (min z 0) - 1` otherwise. -/
def eluK (z : EReal) : EReal := if 0 < z then z else Ideal.exp (min z 0) - 1

/-- The select on "z > 0" between `z` and `exp (min z 0) - 1`, the constants as their words, is `eluK z`. -/
theorem select_elu (z : EReal) :
    Scalar.select (Ideal.cmp .ogt z (Ideal.ofBits .f32 0x00000000#32)) z
        (Ideal.exp (min z (Ideal.ofBits .f32 0x00000000#32)) - Ideal.ofBits .f32 0x3F800000#32) = eluK z := by
  rw [Ideal.ofBits_zero_f32, Ideal.ofBits_one_f32]
  unfold eluK Scalar.select Ideal.cmp
  by_cases h : (0 : EReal) < z <;> simp [h]

end Cert.KernelIdeal.Hand
-- ==== Proof.V0.lean ====
import proofs.«403053_j58033598104012_3_alg».proof.Proof.R0
import proofs.«403053_j58033598104012_3_alg».proof.Proof.VLaws
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 0 at the ideal values: the output array is X · W, entry by entry -/

/-- The body's payload at row `p`, column `q` of the block: the inner product of row `p` of the x block and column `q`
    of w (rounding to bf16 is the identity on extended reals; the accumulator starts at zero). -/
theorem pay0_apply (x0 : Vec Ideal S5000x64 .f32) (x1 : Vec Ideal S64x16 .f32) (p : Fin 5000) (q : Fin 16) :
    k0_pay1 x0 x1 (ix2 p q) = ∑ j : Fin 64, x0 (ix2 p j) * x1 (ix2 j q) := by
  unfold k0_pay1
  show FloatOps.matmul dot_S5000x64_S64x16_S5000x16_1_0_0_1_n_n none _ _ (constant S5000x16 .f32 0x00000000#32) (ix2 p q) = _
  rw [Ideal.matmul_constant_zero_apply,
    ← Equiv.sum_comp (contrEquiv1 dot_S5000x64_S64x16_S5000x16_1_0_0_1_n_n 64 rfl rfl).symm]
  refine Finset.sum_congr rfl fun j _ => ?_
  have cj := contrEquiv1_symm_val dot_S5000x64_S64x16_S5000x16_1_0_0_1_n_n 64 rfl rfl j
  have hl : dot_S5000x64_S64x16_S5000x16_1_0_0_1_n_n.lhsIdx (ix2 p q) ((contrEquiv1 _ 64 rfl rfl).symm j) = ix2 p j := by
    funext ax; apply Fin.ext
    match ax with
    | ⟨0, _⟩ => rfl
    | ⟨1, _⟩ => exact cj
  have hr : dot_S5000x64_S64x16_S5000x16_1_0_0_1_n_n.rhsIdx (ix2 p q) ((contrEquiv1 _ 64 rfl rfl).symm j) = ix2 j q := by
    funext ax; apply Fin.ext
    match ax with
    | ⟨0, _⟩ => exact cj
    | ⟨1, _⟩ => rfl
  rw [hl, hr]
  rfl

/-- The arrays of the region as it finds them, and the output array as it leaves it, typed by their shapes. -/
abbrev xArr0 (c : Dev nD) : S100000x64.Idx → EReal := V c main_arg0
abbrev wArr0 (c : Dev nD) : S64x16.Idx → EReal := V c main_arg3
abbrev res0 (c : Dev nD) : S100000x16.Idx → EReal := (dat0 V c).arrAt 2 cfg0.N

/-- The product of a 100000x64 array by a 64x16 one, entry by entry. -/
def matProd0 (A : S100000x64.Idx → EReal) (W : S64x16.Idx → EReal) : S100000x16.Idx → EReal :=
  fun i => ∑ j : Fin 64, A (ix2 (i 0) j) * W (ix2 j (i 1))

/-- Entry (i, k) of the product is the inner product of row `i` of the first array and column `k` of the second. -/
theorem matProd0_apply (A : S100000x64.Idx → EReal) (W : S64x16.Idx → EReal) (i : Fin 100000) (k : Fin 16) :
    matProd0 A W (ix2 i k) = ∑ j : Fin 64, A (ix2 i j) * W (ix2 j k) := rfl

/-- The block index maps over the grid: x and the output move down the rows with the point, w stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the product of the arrays as the region finds them. -/
theorem flushed0_eq (c : Dev nD) (t : Fin cfg0.N) :
    (dat0 V c).flushed 2 t = ((cfg0.win 2).blk t).view.read (Elt Ideal) (matProd0 (V c main_arg0) (V c main_arg3)) := by
  show (cfg0.win 2).cut (grid0.coords t) ((dat0 V c).after 2 t) = _
  rw [after0_2]
  unfold out0_2
  rw [View.canon_unit_zero zeros2]
  simp only [View.ld_unit_zero (S := S5000x64) zeros2, View.ld_unit_zero (S := S64x16) zeros2]
  obtain ⟨e0, e1, e2, e3, e4, e5⟩ := idx_facts0 t
  funext y
  obtain ⟨p, q, rfl⟩ : ∃ (p : Fin 5000) (q : Fin 16), y = ix2 p q := ⟨y 0, y 1, eq_ix2 y⟩
  show k0_pay1 (iblk0 V c 0 t) (iblk0 V c 1 t) (ix2 p q) = matProd0 (xArr0 V c) (wArr0 V c) (((cfg0.win 2).blk t).view.emb (ix2 p q))
  rw [pay0_apply]
  unfold matProd0
  refine Finset.sum_congr rfl fun j _ => ?_
  show xArr0 V c (((cfg0.win 0).blk t).view.emb (ix2 p j)) * wArr0 V c (((cfg0.win 1).blk t).view.emb (ix2 j q))
    = xArr0 V c (ix2 (((cfg0.win 2).blk t).view.emb (ix2 p q) 0) j) * wArr0 V c (ix2 j (((cfg0.win 2).blk t).view.emb (ix2 p q) 1))
  have h0 : ((cfg0.win 0).blk t).view.emb (ix2 p j) = ix2 (((cfg0.win 2).blk t).view.emb (ix2 p q) 0) j := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * j.val = j.val; omega
  have h1 : ((cfg0.win 1).blk t).view.emb (ix2 j q) = ix2 j (((cfg0.win 2).blk t).view.emb (ix2 p q) 1) := by
    funext a; apply Fin.ext
    match a with
    | ⟨0, _⟩ => show win0_1.index t (0 : Fin 2) * 64 + 1 * j.val = j.val; omega
    | ⟨1, _⟩ => show win0_1.index t (1 : Fin 2) * 16 + 1 * q.val = win0_2.index t (1 : Fin 2) * 16 + 1 * q.val; omega
  rw [h0, h1]
  rfl

/-- An index of the output array is in point `t`'s block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v8).slice (win0_2.rect t)).set ↔ _
  rw [View.set_slice_whole, Rect.mem_set_unit]
  exact Iff.rfl

/-- Every row of the output array is in the block of the point numbered by the row's quotient by 5000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 5000, by show (i 0).val / 5000 < 20; omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the region: the product of the arrays as the region finds them. -/
theorem final0 (c : Dev nD) : (dat0 V c).arrAt 2 cfg0.N = matProd0 (V c main_arg0) (V c main_arg3) :=
  (dat0 V c).arrAt_eq_of_cover 2 (matProd0 (V c main_arg0) (V c main_arg3)) (fun t _ => flushed0_eq V c t) cover0

/-- Entry (i, k) of the output array after the region is the inner product of row `i` of x and column `k` of w. -/
theorem val0 (c : Dev nD) (i : Fin 100000) (k : Fin 16) :
    res0 V c (ix2 i k) = ∑ j : Fin 64, xArr0 V c (ix2 i j) * wArr0 V c (ix2 j k) :=
  congrFun (final0 V c) (ix2 i k)

end Cert.KernelIdeal.Hand
-- ==== Proof.MathReal.lean ====
/-
  Extended-real arithmetic on FINITE values.

  Every float of the two programs is, at the ideal reading, an extended real; on the inputs the
  claim admits every one of them is a real number. This file collects what makes the extended-real
  operations (sum, product, difference, quotient by a nonzero real, maximum, minimum, exponential,
  reciprocal square root of a positive real) agree with the real ones on real arguments, and the
  statement that each of them keeps a value real.
-/
import Idealize.ShloMosaic.PureOps.Ideal
import Mathlib.Data.EReal.Inv
import Mathlib.Algebra.BigOperators.Group.Finset.Basic
import Mathlib.Algebra.BigOperators.Ring.Finset
import Mathlib.Algebra.Order.BigOperators.Group.Finset
import Mathlib.Analysis.SpecialFunctions.Sqrt
import Mathlib.Tactic.Ring
import Mathlib.Tactic.Linarith
import Mathlib.Tactic.FieldSimp

namespace Cert.Math

open Idealize.ShloMosaic
open scoped BigOperators

/-! ## The cast of a real expression -/

/-- A sum of reals, cast term by term, is the cast of the sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor nonzero. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The maximum of two reals. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two reals. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- The reciprocal square root of a positive real. -/
theorem rsqrt_coe_pos {r : ℝ} (hr : 0 < r) : Ideal.rsqrt (r : EReal) = (((Real.sqrt r)⁻¹ : ℝ) : EReal) := by
  rw [Ideal.rsqrt_coe, if_neg (not_lt.2 hr.le), if_neg hr.ne']

/-- `e^x - 1` of a real. -/
theorem expm1_coe (r : ℝ) : Ideal.expm1 (r : EReal) = ((Real.exp r - 1 : ℝ) : EReal) := by
  rw [Ideal.expm1, Ideal.exp_coe, EReal.coe_sub, EReal.coe_one]

/-! ## Finiteness -/

/-- A value is FINITE: it is a real number. -/
def IsReal (x : EReal) : Prop := ∃ r : ℝ, x = (r : EReal)

namespace IsReal

theorem coe (r : ℝ) : IsReal (r : EReal) := ⟨r, rfl⟩
theorem zero : IsReal 0 := ⟨0, rfl⟩
theorem one : IsReal 1 := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem neg {x : EReal} (hx : IsReal x) : IsReal (-x) := by
  obtain ⟨a, rfl⟩ := hx; exact ⟨-a, (EReal.coe_neg a).symm⟩

theorem sum {ι : Type*} (s : Finset ι) {f : ι → EReal} (hf : ∀ i ∈ s, IsReal (f i)) : IsReal (∑ i ∈ s, f i) := by
  classical
  induction s using Finset.induction_on with
  | empty => simpa using zero
  | insert a s ha ih =>
    rw [Finset.sum_insert ha]
    exact add (hf a (Finset.mem_insert_self a s)) (ih fun i hi => hf i (Finset.mem_insert_of_mem hi))

/-- A quotient by a nonzero real. -/
theorem div {x y : EReal} (hx : IsReal x) (hy : IsReal y) (h0 : y ≠ 0) : IsReal (Ideal.div x y) := by
  obtain ⟨a, rfl⟩ := hx; obtain ⟨b, rfl⟩ := hy
  exact ⟨a / b, div_coe a b (by intro h; exact h0 (by rw [h]; rfl))⟩

theorem max {x y : EReal} (hx : IsReal x) (hy : IsReal y) : IsReal (max x y) := by
  obtain ⟨a, rfl⟩ := hx; obtain ⟨b, rfl⟩ := hy; exact ⟨_, max_coe a b⟩

theorem min {x y : EReal} (hx : IsReal x) (hy : IsReal y) : IsReal (min x y) := by
  obtain ⟨a, rfl⟩ := hx; obtain ⟨b, rfl⟩ := hy; exact ⟨_, min_coe a b⟩

theorem ite {p : Prop} [Decidable p] {x y : EReal} (hx : IsReal x) (hy : IsReal y) : IsReal (if p then x else y) := by
  split <;> assumption

theorem exp {x : EReal} (hx : IsReal x) : IsReal (Ideal.exp x) := by
  obtain ⟨a, rfl⟩ := hx; exact ⟨_, Ideal.exp_coe a⟩

theorem expm1 {x : EReal} (hx : IsReal x) : IsReal (Ideal.expm1 x) := by
  obtain ⟨a, rfl⟩ := hx; exact ⟨_, expm1_coe a⟩

/-- The reciprocal square root of a positive real is real. -/
theorem rsqrt {x : EReal} (hx : IsReal x) (h0 : 0 < x) : IsReal (Ideal.rsqrt x) := by
  obtain ⟨a, rfl⟩ := hx
  exact ⟨_, rsqrt_coe_pos (EReal.coe_pos.1 h0)⟩

/-- A real value is neither infinity. -/
theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

/-- A value that is neither infinity is real. -/
theorem of_ne {x : EReal} (ht : x ≠ ⊤) (hb : x ≠ ⊥) : IsReal x := ⟨x.toReal, (EReal.coe_toReal ht hb).symm⟩

end IsReal

end Cert.Math
-- ==== Proof.MathLayer.lean ====
/-
  The places where the kernel's arithmetic differs from the reference's, each as an identity on
  real numbers read at the extended reals.

  * LINEARITY OF THE MEAN AGGREGATION. The reference averages the neighbours' feature rows and
    then multiplies by the weight matrix; the kernel multiplies every row by the weight matrix
    first and averages the products. A finite sum and a division by a nonzero real commute with
    a matrix product.
  * THE VARIANCE. The reference takes the mean of the squared deviations from the mean; the
    kernel takes the mean of the squares minus the square of the mean and clamps it at zero.
    The two are equal, and the second is nonnegative, so the clamp is the identity.
  * THE ELU. Both select `x` where `x > 0`; elsewhere the kernel takes `e^(min x 0) - 1` and the
    reference `1 · (e^x' - 1)` at `x' = x` where `x ≤ 0`.
  * A SUM BY BLOCKS. A sum over `m · n` rows is the sum over `m` blocks of the sums over the `n`
    rows of each.
-/
import proofs.«403053_j58033598104012_3_alg».proof.Proof.MathReal
import Mathlib.Algebra.BigOperators.Intervals
import Mathlib.Algebra.BigOperators.Fin
import Mathlib.Logic.Equiv.Fin.Basic

namespace Cert.Math

open Idealize.ShloMosaic
open scoped BigOperators

/-! ## Linearity of the mean aggregation -/

/-- On the reals: the average over the edges `S` of the products `∑ j, x e j * W j` is the product of
    the averages with `W`. -/
theorem mean_matmul_real {ε ι : Type*} [Fintype ι] (S : Finset ε) (x : ε → ι → ℝ) (W : ι → ℝ) (c : ℝ) :
    (∑ e ∈ S, ∑ j, x e j * W j) / c = ∑ j, ((∑ e ∈ S, x e j) / c) * W j := by
  rw [Finset.sum_comm, Finset.sum_div]
  refine Finset.sum_congr rfl fun j _ => ?_
  rw [← Finset.sum_mul]; ring

/-- At the extended reals, the divisor a nonzero real: the kernel's side (each edge's row already
    multiplied by the weights, summed over the edges, divided) is the reference's side (the rows summed
    over the edges, divided, then multiplied by the weights). -/
theorem mean_matmul {ε ι : Type*} [Fintype ι] (S : Finset ε) (x : ε → ι → ℝ) (W : ι → ℝ) (c : ℝ) (hc : c ≠ 0) :
    Ideal.div (∑ e ∈ S, ∑ j, ((x e j : ℝ) : EReal) * ((W j : ℝ) : EReal)) (c : EReal) =
      ∑ j, Ideal.div (∑ e ∈ S, ((x e j : ℝ) : EReal)) (c : EReal) * ((W j : ℝ) : EReal) := by
  have hl : (∑ e ∈ S, ∑ j, ((x e j : ℝ) : EReal) * ((W j : ℝ) : EReal)) = ((∑ e ∈ S, ∑ j, x e j * W j : ℝ) : EReal) := by
    rw [← coe_sum]; refine Finset.sum_congr rfl fun e _ => ?_
    rw [← coe_sum]; refine Finset.sum_congr rfl fun j _ => (EReal.coe_mul _ _).symm
  have hr : ∀ j, Ideal.div (∑ e ∈ S, ((x e j : ℝ) : EReal)) (c : EReal) * ((W j : ℝ) : EReal) =
      ((((∑ e ∈ S, x e j) / c) * W j : ℝ) : EReal) := fun j => by
    rw [coe_sum, div_coe _ _ hc, EReal.coe_mul]
  rw [hl, div_coe _ _ hc, Finset.sum_congr rfl fun j _ => hr j, coe_sum, mean_matmul_real]

/-! ## The variance -/

/-- On the reals, `n` the number of terms and not zero: the mean of the squares minus the square of the
    mean is the mean of the squared deviations from the mean. -/
theorem var_real {ι : Type*} [Fintype ι] (y : ι → ℝ) (n : ℝ) (hn : n = (Fintype.card ι : ℝ)) (h0 : n ≠ 0) :
    (∑ i, y i * y i) / n - (∑ i, y i) / n * ((∑ i, y i) / n) =
      (∑ i, (y i - (∑ i, y i) / n) * (y i - (∑ i, y i) / n)) / n := by
  have h : ∑ i, (y i - (∑ i, y i) / n) * (y i - (∑ i, y i) / n) =
      (∑ i, y i * y i) - 2 * ((∑ i, y i) / n) * (∑ i, y i) + n * (((∑ i, y i) / n) * ((∑ i, y i) / n)) := by
    have : ∀ i, (y i - (∑ i, y i) / n) * (y i - (∑ i, y i) / n) =
        y i * y i - 2 * ((∑ i, y i) / n) * y i + ((∑ i, y i) / n) * ((∑ i, y i) / n) := fun i => by ring
    rw [Finset.sum_congr rfl fun i _ => this i, Finset.sum_add_distrib, Finset.sum_sub_distrib, ← Finset.mul_sum,
      Finset.sum_const, Finset.card_univ, nsmul_eq_mul, ← hn]
  rw [h]; field_simp; ring

/-- The mean of squared deviations is not negative. -/
theorem var_nonneg {ι : Type*} [Fintype ι] (y : ι → ℝ) (m n : ℝ) (h0 : 0 < n) :
    0 ≤ (∑ i, (y i - m) * (y i - m)) / n :=
  div_nonneg (Finset.sum_nonneg fun i _ => mul_self_nonneg _) h0.le

/-- At the extended reals: the kernel's clamped one-pass variance is the reference's two-pass variance. -/
theorem var_eq {ι : Type*} [Fintype ι] (y : ι → ℝ) (n : ℝ) (hn : n = (Fintype.card ι : ℝ)) (h0 : 0 < n) :
    max (Ideal.div (∑ i, ((y i : ℝ) : EReal) * ((y i : ℝ) : EReal)) (n : EReal) -
        Ideal.div (∑ i, ((y i : ℝ) : EReal)) (n : EReal) * Ideal.div (∑ i, ((y i : ℝ) : EReal)) (n : EReal)) 0 =
      Ideal.div (∑ i, (((y i : ℝ) : EReal) - Ideal.div (∑ i, ((y i : ℝ) : EReal)) (n : EReal)) *
        (((y i : ℝ) : EReal) - Ideal.div (∑ i, ((y i : ℝ) : EReal)) (n : EReal))) (n : EReal) := by
  have hs : (∑ i, ((y i : ℝ) : EReal)) = ((∑ i, y i : ℝ) : EReal) := coe_sum _ _
  have hq : (∑ i, ((y i : ℝ) : EReal) * ((y i : ℝ) : EReal)) = ((∑ i, y i * y i : ℝ) : EReal) := by
    rw [← coe_sum]; exact Finset.sum_congr rfl fun i _ => (EReal.coe_mul _ _).symm
  rw [hs, hq, div_coe _ _ h0.ne', div_coe _ _ h0.ne', ← EReal.coe_mul, ← EReal.coe_sub]
  have hd : (∑ i, (((y i : ℝ) : EReal) - (((∑ i, y i) / n : ℝ) : EReal)) * (((y i : ℝ) : EReal) - (((∑ i, y i) / n : ℝ) : EReal))) =
      ((∑ i, (y i - (∑ i, y i) / n) * (y i - (∑ i, y i) / n) : ℝ) : EReal) := by
    rw [← coe_sum]; refine Finset.sum_congr rfl fun i _ => ?_
    rw [← EReal.coe_sub, ← EReal.coe_mul]
  rw [hd, div_coe _ _ h0.ne', ← EReal.coe_zero, max_coe, var_real y n hn h0.ne',
    max_eq_left (var_nonneg y _ n h0)]

/-! ## The ELU -/

/-- Off the positive side (`x ≤ 0`) the kernel's `e^(min x 0) - 1` is the reference's
    `1 · expm1 x'` at `x' = x`; on it both are `x`. For every extended real. -/
theorem elu_eq (x : EReal) :
    (if 0 < x then x else Ideal.exp (min x 0) - 1) =
      (if 0 < x then x else 1 * Ideal.expm1 (if 0 < x then 0 else x)) := by
  by_cases h : 0 < x
  · rw [if_pos h, if_pos h]
  · rw [if_neg h, if_neg h, if_neg h, one_mul, Ideal.expm1, min_eq_left (not_lt.1 h)]

/-! ## A sum by blocks -/

/-- A sum over `m * n` consecutive naturals is the sum over `m` blocks of the sums over the `n` of each. -/
theorem sum_range_blocks {M : Type*} [AddCommMonoid M] (f : ℕ → M) (m n : ℕ) :
    ∑ i ∈ Finset.range (m * n), f i = ∑ b ∈ Finset.range m, ∑ r ∈ Finset.range n, f (b * n + r) := by
  induction m with
  | zero => simp
  | succ m ih => rw [Nat.succ_mul, Finset.sum_range_add, ih, Finset.sum_range_succ]

/-- The same over `Fin`: row `b * n + r` is row `r` of block `b`. -/
theorem sum_fin_blocks {M : Type*} [AddCommMonoid M] {m n : ℕ} (f : Fin (m * n) → M) :
    ∑ i, f i = ∑ b : Fin m, ∑ r : Fin n, f ⟨b.val * n + r.val, by
      calc b.val * n + r.val < b.val * n + n := Nat.add_lt_add_left r.isLt _
        _ = (b.val + 1) * n := (Nat.succ_mul _ _).symm
        _ ≤ m * n := Nat.mul_le_mul_right _ b.isLt⟩ := by
  rw [← (finProdFinEquiv (m := m) (n := n)).sum_comp, Fintype.sum_prod_type]
  refine Finset.sum_congr rfl fun b _ => Finset.sum_congr rfl fun r _ => ?_
  congr 1; refine Fin.ext ?_
  simp [finProdFinEquiv, Nat.mul_comm, Nat.add_comm]

end Cert.Math
-- ==== Proof.V1.lean ====
import proofs.«403053_j58033598104012_3_alg».proof.Proof.R1
import proofs.«403053_j58033598104012_3_alg».proof.Proof.MathLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 1 at the ideal values: y = x · w_root + agg + b entry by entry, and the two sum rows as sums over all rows -/

/-! ## The payloads at an index -/

/-- The y payload at row `p`, column `q` of the block: the inner product of row `p` of the x block and column `q` of w
    (rounding to bf16 is the identity on extended reals; the accumulator starts at zero), plus the agg block there,
    plus the bias row at `q` — in the body's order of the two additions. -/
theorem pay1_3_apply (v3 : Vec Ideal S5000x64 .f32) (v5 : Vec Ideal S64x16 .f32) (v8 : Vec Ideal S5000x16 .f32) (v11 : Vec Ideal S1x16 .f32) (p : Fin 5000) (q : Fin 16) :
    k1_pay3 v3 v5 v8 v11 (ix2 p q) = (∑ j : Fin 64, v3 (ix2 p j) * v5 (ix2 j q)) + v8 (ix2 p q) + v11 (ix2 (0 : Fin 1) q) := by
  have hmm : FloatOps.matmul (F := Ideal) dot_S5000x64_S64x16_S5000x16_1_0_0_1_n_n none (truncf .bf16 v3 bitsLt_bf16_f32) (truncf .bf16 v5 bitsLt_bf16_f32)
      (constant S5000x16 .f32 0x00000000#32) (ix2 p q) = ∑ j : Fin 64, v3 (ix2 p j) * v5 (ix2 j q) := by
    rw [Ideal.matmul_constant_zero_apply,
      ← Equiv.sum_comp (contrEquiv1 dot_S5000x64_S64x16_S5000x16_1_0_0_1_n_n 64 rfl rfl).symm]
    refine Finset.sum_congr rfl fun j _ => ?_
    have cj := contrEquiv1_symm_val dot_S5000x64_S64x16_S5000x16_1_0_0_1_n_n 64 rfl rfl j
    have hl : dot_S5000x64_S64x16_S5000x16_1_0_0_1_n_n.lhsIdx (ix2 p q) ((contrEquiv1 _ 64 rfl rfl).symm j) = ix2 p j := by
      funext ax; apply Fin.ext
      match ax with
      | ⟨0, _⟩ => rfl
      | ⟨1, _⟩ => exact cj
    have hr : dot_S5000x64_S64x16_S5000x16_1_0_0_1_n_n.rhsIdx (ix2 p q) ((contrEquiv1 _ 64 rfl rfl).symm j) = ix2 j q := by
      funext ax; apply Fin.ext
      match ax with
      | ⟨0, _⟩ => exact cj
      | ⟨1, _⟩ => rfl
    rw [hl, hr]
    rfl
  unfold k1_pay3
  show (FloatOps.matmul (F := Ideal) dot_S5000x64_S64x16_S5000x16_1_0_0_1_n_n none (truncf .bf16 v3 bitsLt_bf16_f32) (truncf .bf16 v5 bitsLt_bf16_f32)
        (constant S5000x16 .f32 0x00000000#32) (ix2 p q)
      + shapeCast S5000x16 v8 shapeCasts_S5000x16_S5000x16 (ix2 p q))
      + broadcastTo S5000x16 (shapeCast S1x16 v11 shapeCasts_S1x16_S1x16) broadcasts_S1x16_S5000x16 (ix2 p q) = _
  rw [hmm, shapeCast_self, shapeCast_self, broadcastTo_1b_ab_apply]

/-- The zero rows the first point stores. -/
theorem pay1_1_apply (i : S1x16.Idx) : k1_pay1 (F := Ideal) i = 0 := by
  unfold k1_pay1
  show shapeCast S1x16 (broadcast S1x16 _) shapeCasts_S1x16_S1x16 i = 0
  rw [shapeCast_self]
  exact Ideal.ofBits_zero_f32
theorem pay1_2_apply (i : S1x16.Idx) : k1_pay2 (F := Ideal) i = 0 := by
  unfold k1_pay2
  show shapeCast S1x16 (broadcast S1x16 _) shapeCasts_S1x16_S1x16 i = 0
  rw [shapeCast_self]
  exact Ideal.ofBits_zero_f32

/-- The index a column sum reads: row `k` of column `q`. -/
theorem lift1 (q : Fin 16) (k : Fin 5000) : reduces_S5000x16_S16.lift (ix1 q) k = ix2 k q := by
  funext ax; apply Fin.ext
  match ax with
  | ⟨0, _⟩ => rfl
  | ⟨1, _⟩ => rfl

/-- The first scratch row's payload: the row read plus the column sums of the y payload. -/
theorem pay1_4_apply (v3 : Vec Ideal S5000x64 .f32) (v5 : Vec Ideal S64x16 .f32) (v8 : Vec Ideal S5000x16 .f32) (v11 : Vec Ideal S1x16 .f32) (v16 : Vec Ideal S1x16 .f32) (u : Fin 1) (q : Fin 16) :
    k1_pay4 v3 v5 v8 v11 v16 (ix2 u q) = v16 (ix2 u q) + ∑ p : Fin 5000, k1_pay3 v3 v5 v8 v11 (ix2 p q) := by
  unfold k1_pay4
  show shapeCast S1x16 (addf v16 (shapeCast S1x16 (multiReduction .add [0] S16 (k1_pay3 v3 v5 v8 v11) 0x00000000#32 reduces_S5000x16_S16 (.inl rfl) rfl) shapeCasts_S16_S1x16)) shapeCasts_S1x16_S1x16 (ix2 u q) = _
  rw [shapeCast_self]
  show v16 (ix2 u q) + shapeCast S1x16 (multiReduction .add [0] S16 (k1_pay3 v3 v5 v8 v11) 0x00000000#32 reduces_S5000x16_S16 (.inl rfl) rfl) shapeCasts_S16_S1x16 (ix2 u q) = _
  rw [shapeCast_a_1a_apply]
  refine congrArg (v16 (ix2 u q) + ·) ?_
  exact (Ideal.multiReduction_add_single (k1_pay3 v3 v5 v8 v11) _ reduces_S5000x16_S16 _ _ (ix1 q)).trans
    (Finset.sum_congr rfl fun k _ => congrArg (k1_pay3 v3 v5 v8 v11) (lift1 q k))

/-- The second scratch row's payload: the row read plus the column sums of the squares of the y payload. -/
theorem pay1_5_apply (v3 : Vec Ideal S5000x64 .f32) (v5 : Vec Ideal S64x16 .f32) (v8 : Vec Ideal S5000x16 .f32) (v11 : Vec Ideal S1x16 .f32) (v23 : Vec Ideal S1x16 .f32) (u : Fin 1) (q : Fin 16) :
    k1_pay5 v3 v5 v8 v11 v23 (ix2 u q) = v23 (ix2 u q) + ∑ p : Fin 5000, k1_pay3 v3 v5 v8 v11 (ix2 p q) * k1_pay3 v3 v5 v8 v11 (ix2 p q) := by
  unfold k1_pay5
  show shapeCast S1x16 (addf v23 (shapeCast S1x16 (multiReduction .add [0] S16 (mulf (k1_pay3 v3 v5 v8 v11) (k1_pay3 v3 v5 v8 v11)) 0x00000000#32 reduces_S5000x16_S16 (.inl rfl) rfl) shapeCasts_S16_S1x16)) shapeCasts_S1x16_S1x16 (ix2 u q) = _
  rw [shapeCast_self]
  show v23 (ix2 u q) + shapeCast S1x16 (multiReduction .add [0] S16 (mulf (k1_pay3 v3 v5 v8 v11) (k1_pay3 v3 v5 v8 v11)) 0x00000000#32 reduces_S5000x16_S16 (.inl rfl) rfl) shapeCasts_S16_S1x16 (ix2 u q) = _
  rw [shapeCast_a_1a_apply]
  refine congrArg (v23 (ix2 u q) + ·) ?_
  exact (Ideal.multiReduction_add_single (mulf (k1_pay3 v3 v5 v8 v11) (k1_pay3 v3 v5 v8 v11)) _ reduces_S5000x16_S16 _ _ (ix1 q)).trans
    (Finset.sum_congr rfl fun k _ => congrArg (mulf (k1_pay3 v3 v5 v8 v11) (k1_pay3 v3 v5 v8 v11)) (lift1 q k))

/-! ## The arrays -/

/-- The arrays of the region as it finds them, typed by their shapes: agg, x, w_root, b (window order). -/
abbrev aArr1 (c : Dev nD) : S100000x16.Idx → EReal := V c main_v22
abbrev xArr1 (c : Dev nD) : S100000x64.Idx → EReal := V c main_arg0
abbrev wArr1 (c : Dev nD) : S64x16.Idx → EReal := V c main_arg4
abbrev bArr1 (c : Dev nD) : S1x16.Idx → EReal := V c main_v23

/-- y as a function of the operand arrays (window order: agg, x, w_root, b). -/
def f1_4 (A : S100000x16.Idx → EReal) (X : S100000x64.Idx → EReal) (Wr : S64x16.Idx → EReal) (B : S1x16.Idx → EReal) :
    S100000x16.Idx → EReal :=
  fun i => (∑ j : Fin 64, X (ix2 (i 0) j) * Wr (ix2 j (i 1))) + A (ix2 (i 0) (i 1)) + B (ix2 (0 : Fin 1) (i 1))
/-- The column sums of y over all rows, and of its squares. -/
def f1_5 (A : S100000x16.Idx → EReal) (X : S100000x64.Idx → EReal) (Wr : S64x16.Idx → EReal) (B : S1x16.Idx → EReal) :
    S1x16.Idx → EReal :=
  fun i => ∑ r : Fin 100000, f1_4 A X Wr B (ix2 r (i 1))
def f1_6 (A : S100000x16.Idx → EReal) (X : S100000x64.Idx → EReal) (Wr : S64x16.Idx → EReal) (B : S1x16.Idx → EReal) :
    S1x16.Idx → EReal :=
  fun i => ∑ r : Fin 100000, f1_4 A X Wr B (ix2 r (i 1)) * f1_4 A X Wr B (ix2 r (i 1))

theorem f1_4_apply (A : S100000x16.Idx → EReal) (X : S100000x64.Idx → EReal) (Wr : S64x16.Idx → EReal) (B : S1x16.Idx → EReal)
    (i : Fin 100000) (k : Fin 16) :
    f1_4 A X Wr B (ix2 i k) = (∑ j : Fin 64, X (ix2 i j) * Wr (ix2 j k)) + A (ix2 i k) + B (ix2 (0 : Fin 1) k) := rfl
theorem f1_5_apply (A : S100000x16.Idx → EReal) (X : S100000x64.Idx → EReal) (Wr : S64x16.Idx → EReal) (B : S1x16.Idx → EReal)
    (k : Fin 16) : f1_5 A X Wr B (ix2 (0 : Fin 1) k) = ∑ i : Fin 100000, f1_4 A X Wr B (ix2 i k) := rfl
theorem f1_6_apply (A : S100000x16.Idx → EReal) (X : S100000x64.Idx → EReal) (Wr : S64x16.Idx → EReal) (B : S1x16.Idx → EReal)
    (k : Fin 16) : f1_6 A X Wr B (ix2 (0 : Fin 1) k) = ∑ i : Fin 100000, f1_4 A X Wr B (ix2 i k) * f1_4 A X Wr B (ix2 i k) := rfl

/-! ## From blocks to arrays -/

/-- The block index maps over the grid: agg, x and y move down the rows with the point; w, b and the sum rows stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `p` of block `t` is row `5000 t + p` of the array. -/
def row1 (t : Fin cfg1.N) (p : Fin 5000) : Fin 100000 :=
  ⟨t.val * 5000 + p.val, by have h : t.val < 20 := lt_of_lt_of_eq t.isLt N_1; have := p.isLt; omega⟩

theorem emb1_0 (t : Fin cfg1.N) (p : Fin 5000) (q : Fin 16) : ((cfg1.win 0).blk t).view.emb (ix2 p q) = ix2 (row1 t p) q := by
  obtain ⟨e0, e1, -⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 16 + 1 * q.val = q.val; omega
theorem emb1_1 (t : Fin cfg1.N) (p : Fin 5000) (j : Fin 64) : ((cfg1.win 1).blk t).view.emb (ix2 p j) = ix2 (row1 t p) j := by
  obtain ⟨-, -, e0, e1, -⟩ := idx_facts1 t
  funext a; apply Fin.ext
  match a with
  | ⟨0, _⟩ => show win1_1.index t (0 : Fin 2) * 5000 + 1 * p.val = t.val * 5000 + p.val; omega
  | ⟨1, _⟩ => show win1_1.index t (1 : Fin 2) * 64 + 1 * j.val = j.val; omega
theorem emb1_2 (t : Fin cfg1.N) (j : Fin 64) (q : Fin 16) : ((cfg1.win 2).blk t).view.emb (ix2 j q) = ix2 j q := by
  obtain ⟨-, -, -, -, e0, e1, -⟩ := idx_facts1 t
  funext a; apply Fin.ext
  match a with
  | ⟨0, _⟩ => show win1_2.index t (0 : Fin 2) * 64 + 1 * j.val = j.val; omega
  | ⟨1, _⟩ => show win1_2.index t (1 : Fin 2) * 16 + 1 * q.val = q.val; omega
theorem emb1_3 (t : Fin cfg1.N) (u : Fin 1) (q : Fin 16) : ((cfg1.win 3).blk t).view.emb (ix2 u q) = ix2 u q := by
  obtain ⟨-, -, -, -, -, -, e0, e1, -⟩ := idx_facts1 t
  funext a; apply Fin.ext
  match a with
  | ⟨0, _⟩ => show win1_3.index t (0 : Fin 2) * 1 + 1 * u.val = u.val; omega
  | ⟨1, _⟩ => show win1_3.index t (1 : Fin 2) * 16 + 1 * q.val = q.val; omega
theorem emb1_4 (t : Fin cfg1.N) (p : Fin 5000) (q : Fin 16) : ((cfg1.win 4).blk t).view.emb (ix2 p q) = ix2 (row1 t p) q := by
  obtain ⟨-, -, -, -, -, -, -, -, e0, e1, -⟩ := idx_facts1 t
  funext a; apply Fin.ext
  match a with
  | ⟨0, _⟩ => show win1_4.index t (0 : Fin 2) * 5000 + 1 * p.val = t.val * 5000 + p.val; omega
  | ⟨1, _⟩ => show win1_4.index t (1 : Fin 2) * 16 + 1 * q.val = q.val; omega
theorem emb1_5 (t : Fin cfg1.N) (u : Fin 1) (q : Fin 16) : ((cfg1.win 5).blk t).view.emb (ix2 u q) = ix2 u q := by
  obtain ⟨-, -, -, -, -, -, -, -, -, -, e0, e1, -⟩ := idx_facts1 t
  funext a; apply Fin.ext
  match a with
  | ⟨0, _⟩ => show win1_5.index t (0 : Fin 2) * 1 + 1 * u.val = u.val; omega
  | ⟨1, _⟩ => show win1_5.index t (1 : Fin 2) * 16 + 1 * q.val = q.val; omega
theorem emb1_6 (t : Fin cfg1.N) (u : Fin 1) (q : Fin 16) : ((cfg1.win 6).blk t).view.emb (ix2 u q) = ix2 u q := by
  obtain ⟨-, -, -, -, -, -, -, -, -, -, -, -, e0, e1⟩ := idx_facts1 t
  funext a; apply Fin.ext
  match a with
  | ⟨0, _⟩ => show win1_6.index t (0 : Fin 2) * 1 + 1 * u.val = u.val; omega
  | ⟨1, _⟩ => show win1_6.index t (1 : Fin 2) * 16 + 1 * q.val = q.val; omega

/-- The y payload of point `t` at (p, q) is y of the arrays at row `5000 t + p`, column `q`. -/
theorem y1_at (c : Dev nD) (t : Fin cfg1.N) (p : Fin 5000) (q : Fin 16) :
    k1_pay3 (iblk1 V c 1 t) (iblk1 V c 2 t) (iblk1 V c 0 t) (iblk1 V c 3 t) (ix2 p q) = f1_4 (aArr1 V c) (xArr1 V c) (wArr1 V c) (bArr1 V c) (ix2 (row1 t p) q) := by
  rw [pay1_3_apply, f1_4_apply]
  refine congrArg₂ (· + ·) (congrArg₂ (· + ·) (Finset.sum_congr rfl fun j _ => ?_) ?_) ?_
  · show xArr1 V c (((cfg1.win 1).blk t).view.emb (ix2 p j)) * wArr1 V c (((cfg1.win 2).blk t).view.emb (ix2 j q)) = _
    rw [emb1_1, emb1_2]
  · show aArr1 V c (((cfg1.win 0).blk t).view.emb (ix2 p q)) = _
    rw [emb1_0]
  · show bArr1 V c (((cfg1.win 3).blk t).view.emb (ix2 (0 : Fin 1) q)) = _
    rw [emb1_3]

/-- What point `t` writes back to the y window is row block `t` of y of the arrays as the region finds them. -/
theorem flushed1_4_eq (c : Dev nD) (t : Fin cfg1.N) :
    (dat1 V c).flushed 4 t = ((cfg1.win 4).blk t).view.read (Elt Ideal) (f1_4 (aArr1 V c) (xArr1 V c) (wArr1 V c) (bArr1 V c)) := by
  show (cfg1.win 4).cut (grid1.coords t) ((dat1 V c).after 4 t) = _
  rw [after1_4]
  unfold yblk1
  rw [View.canon_unit_zero off1]
  simp only [View.ld_unit_zero (S := S5000x64) off1, View.ld_unit_zero (S := S64x16) off1, View.ld_unit_zero (S := S5000x16) off1, View.ld_unit_zero (S := S1x16) off1]
  funext y
  obtain ⟨p, q, rfl⟩ : ∃ (p : Fin 5000) (q : Fin 16), y = ix2 p q := ⟨y 0, y 1, eq_ix2 y⟩
  show k1_pay3 (iblk1 V c 1 t) (iblk1 V c 2 t) (iblk1 V c 0 t) (iblk1 V c 3 t) (ix2 p q) = f1_4 (aArr1 V c) (xArr1 V c) (wArr1 V c) (bArr1 V c) (((cfg1.win 4).blk t).view.emb (ix2 p q))
  rw [emb1_4, y1_at]

theorem mem_blk1_4 (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v24_0).slice (win1_4.rect t)).set ↔ _
  rw [View.set_slice_whole, Rect.mem_set_unit]
  exact Iff.rfl

/-- Every row of the y array is in the block of the point numbered by the row's quotient by 5000. -/
theorem cover1_4 (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  let t : Fin cfg1.N := ⟨(i 0).val / 5000, by show (i 0).val / 5000 < 20; omega⟩
  obtain ⟨-, -, -, -, -, -, -, -, e0, e1, -⟩ := idx_facts1 t
  have ht : t.val = (i 0).val / 5000 := rfl
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 16 ≤ (i 1).val ∧ (i 1).val < win1_4.index t (1 : Fin 2) * 16 + 16; omega

/-- The y array after the region. -/
theorem final1_4 (c : Dev nD) : (dat1 V c).arrAt 4 cfg1.N = f1_4 (aArr1 V c) (xArr1 V c) (wArr1 V c) (bArr1 V c) :=
  (dat1 V c).arrAt_eq_of_cover 4 (f1_4 (aArr1 V c) (xArr1 V c) (wArr1 V c) (bArr1 V c)) (fun t _ => flushed1_4_eq V c t) cover1_4

/-! ## The sum rows -/

/-- A sum window copied from a scratch row whose last store is whole holds the row. -/
theorem sumw1_eq (v : View sig .tc .vmem S1x16 .f32) (p0 : Vec Ideal S1x16 .f32) (L : List (View.Piece (Elt Ideal) S1x16 .f32)) :
    sumw1 v ((⟨r1_b, p0⟩ : View.Piece (Elt Ideal) S1x16 .f32) :: L) = scr1 ((⟨r1_b, p0⟩ : View.Piece (Elt Ideal) S1x16 .f32) :: L) := by
  unfold sumw1 scr1
  rw [View.canon_unit_zero off1, View.readCov_eq_canon_ld v _ r1_b (cover1_b p0 L), View.ld_unit_zero off1]

/-- The column sums of point `t`'s block. -/
def col1 (c : Dev nD) (t : Fin cfg1.N) (q : Fin 16) : EReal := ∑ p : Fin 5000, k1_pay3 (iblk1 V c 1 t) (iblk1 V c 2 t) (iblk1 V c 0 t) (iblk1 V c 3 t) (ix2 p q)

/-- The scratch row after point `n` holds the sum over the points so far of their blocks' column sums. -/
theorem acc1_0_eq (c : Dev nD) : ∀ (n : ℕ) (hn : n < cfg1.N) (u : Fin 1) (q : Fin 16),
    (accAt1 V c n hn).1 (ix2 u q) = ∑ t : Fin (n + 1), col1 V c ⟨t.val, lt_of_lt_of_le t.isLt hn⟩ q := by
  intro n
  induction n with
  | zero =>
    intro hn u q
    have h := accAt1_zero V c ⟨0, hn⟩ rfl
    rw [show accAt1 V c 0 hn = _ from h]
    dsimp only
    unfold scr1
    rw [View.canon_cons_unit_zero off1, View.readCov_unit_zero _ off1]
    simp only [View.ld_unit_zero (S := S5000x64) off1, View.ld_unit_zero (S := S64x16) off1, View.ld_unit_zero (S := S5000x16) off1, View.ld_unit_zero (S := S1x16) off1]
    rw [pay1_4_apply, pay1_1_apply, zero_add]
    exact (Fin.sum_univ_one (fun t : Fin 1 => col1 V c ⟨t.val, lt_of_lt_of_le t.isLt hn⟩ q)).symm
  | succ n ih =>
    intro hn u q
    have h := accAt1_pos V c ⟨n + 1, hn⟩ (Nat.succ_ne_zero n)
    rw [show accAt1 V c (n + 1) hn = _ from h]
    dsimp only
    unfold scr1
    rw [View.canon_unit_zero off1]
    simp only [View.ld_unit_zero (S := S5000x64) off1, View.ld_unit_zero (S := S64x16) off1, View.ld_unit_zero (S := S5000x16) off1, View.ld_unit_zero (S := S1x16) off1]
    rw [pay1_4_apply]
    conv_rhs => rw [Fin.sum_univ_castSucc]
    refine congrArg₂ (· + ·) ?_ rfl
    exact ih (Nat.lt_of_succ_lt hn) u q

/-- Window 5 after each point is a copy of the scratch row. -/
theorem acc1_w5 (c : Dev nD) (n : ℕ) (hn : n < cfg1.N) : (accAt1 V c n hn).2.2.1 = (accAt1 V c n hn).1 := by
  cases n with
  | zero => exact sumw1_eq _ _ _
  | succ n => exact sumw1_eq _ _ _

/-- The sum over the twenty points of the blocks' column sums is the sum over all rows. -/
theorem col1_total (c : Dev nD) (q : Fin 16) (hN : ∀ t : Fin 20, t.val < cfg1.N) :
    ∑ t : Fin 20, col1 V c ⟨t.val, hN t⟩ q = ∑ r : Fin 100000, f1_4 (aArr1 V c) (xArr1 V c) (wArr1 V c) (bArr1 V c) (ix2 r q) := by
  have hE : (20 * 5000 : ℕ) = 100000 := by norm_num
  refine Eq.trans ?_ (Equiv.sum_comp (finCongr hE) (fun r : Fin 100000 => f1_4 (aArr1 V c) (xArr1 V c) (wArr1 V c) (bArr1 V c) (ix2 r q)))
  refine Eq.trans ?_ (Cert.Math.sum_fin_blocks (m := 20) (n := 5000) (fun i => f1_4 (aArr1 V c) (xArr1 V c) (wArr1 V c) (bArr1 V c) (ix2 (finCongr hE i) q))).symm
  refine Finset.sum_congr rfl fun t _ => ?_
  unfold col1
  refine Finset.sum_congr rfl fun p _ => ?_
  rw [y1_at]
  exact congrArg (fun r : Fin 100000 => f1_4 (aArr1 V c) (xArr1 V c) (wArr1 V c) (bArr1 V c) (ix2 r q)) (Fin.ext rfl)

theorem mem_blk1_5 (t : Fin cfg1.N) (i : S1x16.Idx) :
    i ∈ ((cfg1.win 5).blk t).view.set ↔ ∀ a : Fin 2, win1_5.index t a * S1x16.size a ≤ (i a).val ∧ (i a).val < win1_5.index t a * S1x16.size a + S1x16.size a := by
  show i ∈ ((View.whole main_v24_1).slice (win1_5.rect t)).set ↔ _
  rw [View.set_slice_whole, Rect.mem_set_unit]
  exact Iff.rfl

/-- What the last point writes back to window 5: the sums over all rows. -/
theorem flushed1_5_eq (c : Dev nD) (t : Fin cfg1.N) (ht : (cfg1.win 5).flush t = true) :
    (dat1 V c).flushed 5 t = ((cfg1.win 5).blk t).view.read (Elt Ideal) (f1_5 (aArr1 V c) (xArr1 V c) (wArr1 V c) (bArr1 V c)) := by
  have h19 : t.val = 19 := by
    have h := (flush1_5 t).mp ht
    have hlt : t.val < 20 := lt_of_lt_of_eq t.isLt N_1
    omega
  have hs : ∀ (u : Fin 1) (q : Fin 16), (accAt1 V c t.val t.isLt).1 (ix2 u q) = f1_5 (aArr1 V c) (xArr1 V c) (wArr1 V c) (bArr1 V c) (ix2 u q) := by
    intro u q
    rw [acc1_0_eq]
    obtain ⟨tv, htv⟩ := t
    obtain rfl : tv = 19 := h19
    exact col1_total V c q (fun t => lt_of_lt_of_eq t.isLt N_1.symm)
  show (cfg1.win 5).cut (grid1.coords t) ((dat1 V c).after 5 t) = _
  rw [after1_5, acc1_w5]
  generalize (accAt1 V c t.val t.isLt).1 = s at hs ⊢
  generalize f1_5 (aArr1 V c) (xArr1 V c) (wArr1 V c) (bArr1 V c) = G at hs ⊢
  funext y
  obtain ⟨u, q, rfl⟩ : ∃ (u : Fin 1) (q : Fin 16), y = ix2 u q := ⟨y 0, y 1, eq_ix2 y⟩
  show s (ix2 u q) = G (((cfg1.win 5).blk t).view.emb (ix2 u q))
  rw [emb1_5, hs]

/-- The one row of window 5's array is in the last point's block. -/
theorem cover1_5 (i : S1x16.Idx) :
    ∃ t : Fin cfg1.N, (cfg1.win 5).flush t = true ∧ i ∈ ((cfg1.win 5).blk t).view.set := by
  have hi0 : (i 0).val < 1 := (i 0).isLt
  have hi1 : (i 1).val < 16 := (i 1).isLt
  let t : Fin cfg1.N := ⟨19, by show 19 < 20; omega⟩
  obtain ⟨-, -, -, -, -, -, -, -, -, -, e50, e51, e60, e61⟩ := idx_facts1 t
  refine ⟨t, (flush1_5 t).mpr rfl, ?_⟩
  rw [mem_blk1_5]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 16 ≤ (i 1).val ∧ (i 1).val < win1_5.index t (1 : Fin 2) * 16 + 16; omega

/-- Window 5's array after the region. -/
theorem final1_5 (c : Dev nD) : (dat1 V c).arrAt 5 cfg1.N = f1_5 (aArr1 V c) (xArr1 V c) (wArr1 V c) (bArr1 V c) :=
  (dat1 V c).arrAt_eq_of_cover 5 (f1_5 (aArr1 V c) (xArr1 V c) (wArr1 V c) (bArr1 V c)) (fun t ht => flushed1_5_eq V c t ht) cover1_5

/-- The column sums of point `t`'s block of squares. -/
def colsq1 (c : Dev nD) (t : Fin cfg1.N) (q : Fin 16) : EReal := ∑ p : Fin 5000, k1_pay3 (iblk1 V c 1 t) (iblk1 V c 2 t) (iblk1 V c 0 t) (iblk1 V c 3 t) (ix2 p q) * k1_pay3 (iblk1 V c 1 t) (iblk1 V c 2 t) (iblk1 V c 0 t) (iblk1 V c 3 t) (ix2 p q)

/-- The scratch row after point `n` holds the sum over the points so far of their blocks' column sums. -/
theorem acc1_1_eq (c : Dev nD) : ∀ (n : ℕ) (hn : n < cfg1.N) (u : Fin 1) (q : Fin 16),
    (accAt1 V c n hn).2.1 (ix2 u q) = ∑ t : Fin (n + 1), colsq1 V c ⟨t.val, lt_of_lt_of_le t.isLt hn⟩ q := by
  intro n
  induction n with
  | zero =>
    intro hn u q
    have h := accAt1_zero V c ⟨0, hn⟩ rfl
    rw [show accAt1 V c 0 hn = _ from h]
    dsimp only
    unfold scr1
    rw [View.canon_cons_unit_zero off1, View.readCov_unit_zero _ off1]
    simp only [View.ld_unit_zero (S := S5000x64) off1, View.ld_unit_zero (S := S64x16) off1, View.ld_unit_zero (S := S5000x16) off1, View.ld_unit_zero (S := S1x16) off1]
    rw [pay1_5_apply, pay1_2_apply, zero_add]
    exact (Fin.sum_univ_one (fun t : Fin 1 => colsq1 V c ⟨t.val, lt_of_lt_of_le t.isLt hn⟩ q)).symm
  | succ n ih =>
    intro hn u q
    have h := accAt1_pos V c ⟨n + 1, hn⟩ (Nat.succ_ne_zero n)
    rw [show accAt1 V c (n + 1) hn = _ from h]
    dsimp only
    unfold scr1
    rw [View.canon_unit_zero off1]
    simp only [View.ld_unit_zero (S := S5000x64) off1, View.ld_unit_zero (S := S64x16) off1, View.ld_unit_zero (S := S5000x16) off1, View.ld_unit_zero (S := S1x16) off1]
    rw [pay1_5_apply]
    conv_rhs => rw [Fin.sum_univ_castSucc]
    refine congrArg₂ (· + ·) ?_ rfl
    exact ih (Nat.lt_of_succ_lt hn) u q

/-- Window 6 after each point is a copy of the scratch row. -/
theorem acc1_w6 (c : Dev nD) (n : ℕ) (hn : n < cfg1.N) : (accAt1 V c n hn).2.2.2 = (accAt1 V c n hn).2.1 := by
  cases n with
  | zero => exact sumw1_eq _ _ _
  | succ n => exact sumw1_eq _ _ _

/-- The sum over the twenty points of the blocks' column sums is the sum over all rows. -/
theorem colsq1_total (c : Dev nD) (q : Fin 16) (hN : ∀ t : Fin 20, t.val < cfg1.N) :
    ∑ t : Fin 20, colsq1 V c ⟨t.val, hN t⟩ q = ∑ r : Fin 100000, f1_4 (aArr1 V c) (xArr1 V c) (wArr1 V c) (bArr1 V c) (ix2 r q) * f1_4 (aArr1 V c) (xArr1 V c) (wArr1 V c) (bArr1 V c) (ix2 r q) := by
  have hE : (20 * 5000 : ℕ) = 100000 := by norm_num
  refine Eq.trans ?_ (Equiv.sum_comp (finCongr hE) (fun r : Fin 100000 => f1_4 (aArr1 V c) (xArr1 V c) (wArr1 V c) (bArr1 V c) (ix2 r q) * f1_4 (aArr1 V c) (xArr1 V c) (wArr1 V c) (bArr1 V c) (ix2 r q)))
  refine Eq.trans ?_ (Cert.Math.sum_fin_blocks (m := 20) (n := 5000) (fun i => f1_4 (aArr1 V c) (xArr1 V c) (wArr1 V c) (bArr1 V c) (ix2 (finCongr hE i) q) * f1_4 (aArr1 V c) (xArr1 V c) (wArr1 V c) (bArr1 V c) (ix2 (finCongr hE i) q))).symm
  refine Finset.sum_congr rfl fun t _ => ?_
  unfold colsq1
  refine Finset.sum_congr rfl fun p _ => ?_
  rw [y1_at]
  exact congrArg (fun r : Fin 100000 => f1_4 (aArr1 V c) (xArr1 V c) (wArr1 V c) (bArr1 V c) (ix2 r q) * f1_4 (aArr1 V c) (xArr1 V c) (wArr1 V c) (bArr1 V c) (ix2 r q)) (Fin.ext rfl)

theorem mem_blk1_6 (t : Fin cfg1.N) (i : S1x16.Idx) :
    i ∈ ((cfg1.win 6).blk t).view.set ↔ ∀ a : Fin 2, win1_6.index t a * S1x16.size a ≤ (i a).val ∧ (i a).val < win1_6.index t a * S1x16.size a + S1x16.size a := by
  show i ∈ ((View.whole main_v24_2).slice (win1_6.rect t)).set ↔ _
  rw [View.set_slice_whole, Rect.mem_set_unit]
  exact Iff.rfl

/-- What the last point writes back to window 6: the sums over all rows. -/
theorem flushed1_6_eq (c : Dev nD) (t : Fin cfg1.N) (ht : (cfg1.win 6).flush t = true) :
    (dat1 V c).flushed 6 t = ((cfg1.win 6).blk t).view.read (Elt Ideal) (f1_6 (aArr1 V c) (xArr1 V c) (wArr1 V c) (bArr1 V c)) := by
  have h19 : t.val = 19 := by
    have h := (flush1_6 t).mp ht
    have hlt : t.val < 20 := lt_of_lt_of_eq t.isLt N_1
    omega
  have hs : ∀ (u : Fin 1) (q : Fin 16), (accAt1 V c t.val t.isLt).2.1 (ix2 u q) = f1_6 (aArr1 V c) (xArr1 V c) (wArr1 V c) (bArr1 V c) (ix2 u q) := by
    intro u q
    rw [acc1_1_eq]
    obtain ⟨tv, htv⟩ := t
    obtain rfl : tv = 19 := h19
    exact colsq1_total V c q (fun t => lt_of_lt_of_eq t.isLt N_1.symm)
  show (cfg1.win 6).cut (grid1.coords t) ((dat1 V c).after 6 t) = _
  rw [after1_6, acc1_w6]
  generalize (accAt1 V c t.val t.isLt).2.1 = s at hs ⊢
  generalize f1_6 (aArr1 V c) (xArr1 V c) (wArr1 V c) (bArr1 V c) = G at hs ⊢
  funext y
  obtain ⟨u, q, rfl⟩ : ∃ (u : Fin 1) (q : Fin 16), y = ix2 u q := ⟨y 0, y 1, eq_ix2 y⟩
  show s (ix2 u q) = G (((cfg1.win 6).blk t).view.emb (ix2 u q))
  rw [emb1_6, hs]

/-- The one row of window 6's array is in the last point's block. -/
theorem cover1_6 (i : S1x16.Idx) :
    ∃ t : Fin cfg1.N, (cfg1.win 6).flush t = true ∧ i ∈ ((cfg1.win 6).blk t).view.set := by
  have hi0 : (i 0).val < 1 := (i 0).isLt
  have hi1 : (i 1).val < 16 := (i 1).isLt
  let t : Fin cfg1.N := ⟨19, by show 19 < 20; omega⟩
  obtain ⟨-, -, -, -, -, -, -, -, -, -, e50, e51, e60, e61⟩ := idx_facts1 t
  refine ⟨t, (flush1_6 t).mpr rfl, ?_⟩
  rw [mem_blk1_6]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 16 ≤ (i 1).val ∧ (i 1).val < win1_6.index t (1 : Fin 2) * 16 + 16; omega

/-- Window 6's array after the region. -/
theorem final1_6 (c : Dev nD) : (dat1 V c).arrAt 6 cfg1.N = f1_6 (aArr1 V c) (xArr1 V c) (wArr1 V c) (bArr1 V c) :=
  (dat1 V c).arrAt_eq_of_cover 6 (f1_6 (aArr1 V c) (xArr1 V c) (wArr1 V c) (bArr1 V c)) (fun t ht => flushed1_6_eq V c t ht) cover1_6

end Cert.KernelIdeal.Hand

end
-- ==== Proof.V2.lean ====
import proofs.«403053_j58033598104012_3_alg».proof.Proof.R2
import proofs.«403053_j58033598104012_3_alg».proof.Proof.VLaws
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 2 at the ideal values: the output array is ELU of the normalised y, entry by entry -/

/-- The arrays of the region as it finds them, and the output array as it leaves it, typed by their shapes. -/
abbrev yArr2 (c : Dev nD) : S100000x16.Idx → EReal := V c (Pipeline.arrRef spec2 0)
abbrev meanArr2 (c : Dev nD) : S1x16.Idx → EReal := V c (Pipeline.arrRef spec2 1)
abbrev varArr2 (c : Dev nD) : S1x16.Idx → EReal := V c (Pipeline.arrRef spec2 2)
abbrev gammaArr2 (c : Dev nD) : S1x16.Idx → EReal := V c (Pipeline.arrRef spec2 3)
abbrev betaArr2 (c : Dev nD) : S1x16.Idx → EReal := V c (Pipeline.arrRef spec2 4)
abbrev res2 (c : Dev nD) : S100000x16.Idx → EReal := (dat2 V c).arrAt 5 cfg2.N

/-- A row vector broadcast down the block's rows reads, at (p, q), its entry q. -/
theorem bcastRow2 {α : Type} (x : S1x16.Idx → α) (p : Fin 5000) (q : Fin 16) :
    broadcastTo S5000x16 x broadcasts_S1x16_S5000x16 (ix2 p q) = x (ix2 0 q) :=
  broadcastTo_apply x _ (ix2 p q) (ix2 0 q) (fun a => by match a with | ⟨0, _⟩ => rfl | ⟨1, _⟩ => rfl)

/-- The body's payload at row `p`, column `q` of the block: ELU of (y − mean) · rsqrt(variance + ε) · gamma + beta,
    the four statistics read at column `q`. -/
theorem pay2_apply (x0 : Vec Ideal S5000x16 .f32) (xv xm xg xb : Vec Ideal S1x16 .f32) (p : Fin 5000) (q : Fin 16) :
    k2_pay1 x0 xv xm xg xb (ix2 p q)
      = eluK ((x0 (ix2 p q) - xm (ix2 0 q)) * Ideal.rsqrt (xv (ix2 0 q) + Ideal.ofBits .f32 0x3727C5AC#32) * xg (ix2 0 q) + xb (ix2 0 q)) := by
  unfold k2_pay1
  simp only [shapeCast_self, select_apply, cmpf_apply, subf_apply, mulf_apply, addf_apply, minimumf_apply, exp_apply,
    rsqrt_apply, broadcast_apply, bcastRow2]
  exact select_elu _

/-- Batch normalisation by one row of statistics then ELU, of an array with rows of 16, entry by entry. -/
def bnElu2 (Y : S100000x16.Idx → EReal) (M Vr G B : S1x16.Idx → EReal) : S100000x16.Idx → EReal :=
  fun i => eluK ((Y i - M (ix2 0 (i 1))) * Ideal.rsqrt (Vr (ix2 0 (i 1)) + Ideal.ofBits .f32 0x3727C5AC#32) * G (ix2 0 (i 1)) + B (ix2 0 (i 1)))

/-- Entry (i, k) of `bnElu2`: the statistics read at column `k`. -/
theorem bnElu2_apply (Y : S100000x16.Idx → EReal) (M Vr G B : S1x16.Idx → EReal) (i : Fin 100000) (k : Fin 16) :
    bnElu2 Y M Vr G B (ix2 i k) = eluK ((Y (ix2 i k) - M (ix2 0 k)) * Ideal.rsqrt (Vr (ix2 0 k) + Ideal.ofBits .f32 0x3727C5AC#32) * G (ix2 0 k) + B (ix2 0 k)) := rfl

/-- The block index maps over the grid: y and the output move down the rows with the point, the statistics stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1000000 in
/-- What point `t` writes back is row block `t` of `bnElu2` of the arrays as the region finds them. -/
theorem flushed2_eq (c : Dev nD) (t : Fin cfg2.N) :
    (dat2 V c).flushed 5 t = ((cfg2.win 5).blk t).view.read (Elt Ideal)
      (bnElu2 (yArr2 V c) (meanArr2 V c) (varArr2 V c) (gammaArr2 V c) (betaArr2 V c)) := by
  show (cfg2.win 5).cut (grid2.coords t) ((dat2 V c).after 5 t) = _
  rw [after2_5]
  unfold out2_5
  rw [View.canon_unit_zero zeros2]
  simp only [View.ld_unit_zero (S := S5000x16) zeros2, View.ld_unit_zero (S := S1x16) zeros2]
  obtain ⟨e00, e01, e10, e11, e20, e21, e30, e31, e40, e41, e50, e51⟩ := idx_facts2 t
  funext y
  obtain ⟨p, q, rfl⟩ : ∃ (p : Fin 5000) (q : Fin 16), y = ix2 p q := ⟨y 0, y 1, eq_ix2 y⟩
  show k2_pay1 (iblk2 V c 0 t) (iblk2 V c 2 t) (iblk2 V c 1 t) (iblk2 V c 3 t) (iblk2 V c 4 t) (ix2 p q)
    = bnElu2 (yArr2 V c) (meanArr2 V c) (varArr2 V c) (gammaArr2 V c) (betaArr2 V c) (((cfg2.win 5).blk t).view.emb (ix2 p q))
  rw [pay2_apply]
  unfold bnElu2
  have h0 : ((cfg2.win 0).blk t).view.emb (ix2 p q) = ((cfg2.win 5).blk t).view.emb (ix2 p q) := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 16 + 1 * q.val = win2_5.index t (1 : Fin 2) * 16 + 1 * q.val; omega
  have h1 : ((cfg2.win 1).blk t).view.emb (ix2 0 q) = ix2 0 (((cfg2.win 5).blk t).view.emb (ix2 p q) 1) := by
    funext a; apply Fin.ext
    match a with
    | ⟨0, _⟩ => show win2_1.index t (0 : Fin 2) * 1 + 1 * 0 = 0; omega
    | ⟨1, _⟩ => show win2_1.index t (1 : Fin 2) * 16 + 1 * q.val = win2_5.index t (1 : Fin 2) * 16 + 1 * q.val; omega
  have h2 : ((cfg2.win 2).blk t).view.emb (ix2 0 q) = ix2 0 (((cfg2.win 5).blk t).view.emb (ix2 p q) 1) := by
    funext a; apply Fin.ext
    match a with
    | ⟨0, _⟩ => show win2_2.index t (0 : Fin 2) * 1 + 1 * 0 = 0; omega
    | ⟨1, _⟩ => show win2_2.index t (1 : Fin 2) * 16 + 1 * q.val = win2_5.index t (1 : Fin 2) * 16 + 1 * q.val; omega
  have h3 : ((cfg2.win 3).blk t).view.emb (ix2 0 q) = ix2 0 (((cfg2.win 5).blk t).view.emb (ix2 p q) 1) := by
    funext a; apply Fin.ext
    match a with
    | ⟨0, _⟩ => show win2_3.index t (0 : Fin 2) * 1 + 1 * 0 = 0; omega
    | ⟨1, _⟩ => show win2_3.index t (1 : Fin 2) * 16 + 1 * q.val = win2_5.index t (1 : Fin 2) * 16 + 1 * q.val; omega
  have h4 : ((cfg2.win 4).blk t).view.emb (ix2 0 q) = ix2 0 (((cfg2.win 5).blk t).view.emb (ix2 p q) 1) := by
    funext a; apply Fin.ext
    match a with
    | ⟨0, _⟩ => show win2_4.index t (0 : Fin 2) * 1 + 1 * 0 = 0; omega
    | ⟨1, _⟩ => show win2_4.index t (1 : Fin 2) * 16 + 1 * q.val = win2_5.index t (1 : Fin 2) * 16 + 1 * q.val; omega
  have r0 : iblk2 V c 0 t (ix2 p q) = yArr2 V c (((cfg2.win 5).blk t).view.emb (ix2 p q)) := congrArg (yArr2 V c) h0
  have r1 : iblk2 V c 1 t (ix2 0 q) = meanArr2 V c (ix2 0 (((cfg2.win 5).blk t).view.emb (ix2 p q) 1)) := congrArg (meanArr2 V c) h1
  have r2 : iblk2 V c 2 t (ix2 0 q) = varArr2 V c (ix2 0 (((cfg2.win 5).blk t).view.emb (ix2 p q) 1)) := congrArg (varArr2 V c) h2
  have r3 : iblk2 V c 3 t (ix2 0 q) = gammaArr2 V c (ix2 0 (((cfg2.win 5).blk t).view.emb (ix2 p q) 1)) := congrArg (gammaArr2 V c) h3
  have r4 : iblk2 V c 4 t (ix2 0 q) = betaArr2 V c (ix2 0 (((cfg2.win 5).blk t).view.emb (ix2 p q) 1)) := congrArg (betaArr2 V c) h4
  rw [r0, r1, r2, r3, r4]

/-- An index of the output array is in point `t`'s block iff each coordinate is in the block's range on its axis. -/
theorem mem_blk2 (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v39).slice (win2_5.rect t)).set ↔ _
  rw [View.set_slice_whole, Rect.mem_set_unit]
  exact Iff.rfl

/-- Every row of the output array is in the block of the point numbered by the row's quotient by 5000. -/
theorem covered2 (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  let t : Fin cfg2.N := ⟨(i 0).val / 5000, by show (i 0).val / 5000 < 20; omega⟩
  obtain ⟨e00, e01, e10, e11, e20, e21, e30, e31, e40, e41, e50, e51⟩ := idx_facts2 t
  have ht : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 16 ≤ (i 1).val ∧ (i 1).val < win2_5.index t (1 : Fin 2) * 16 + 16; omega

/-- The output array after the region: `bnElu2` of the arrays as the region finds them. -/
theorem final2 (c : Dev nD) :
    (dat2 V c).arrAt 5 cfg2.N = bnElu2 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed2_eq V c t) covered2

/-- Entry (i, k) of the output array after the region. -/
theorem val2 (c : Dev nD) (i : Fin 100000) (k : Fin 16) :
    res2 V c (ix2 i k) = eluK ((yArr2 V c (ix2 i k) - meanArr2 V c (ix2 0 k))
      * Ideal.rsqrt (varArr2 V c (ix2 0 k) + Ideal.ofBits .f32 0x3727C5AC#32) * gammaArr2 V c (ix2 0 k) + betaArr2 V c (ix2 0 k)) :=
  congrFun (final2 V c) (ix2 i k)

end Cert.KernelIdeal.Hand
-- ==== Proof.V3.lean ====
import proofs.«403053_j58033598104012_3_alg».proof.Proof.R3
import proofs.«403053_j58033598104012_3_alg».proof.Proof.MathLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 3 at the ideal values: Y = agg · W_rel + x · W_root + b entry by entry, and the two sum rows as sums
over all rows of Y and of Y² -/

theorem off3 : (![0, 0] : Fin 2 → ℕ) = fun _ => 0 := funext fun a => by fin_cases a <;> rfl

/-! ## The payloads at an index -/

/-- A product block at row `p`, column `q`: the inner product of row `p` of the left block and column `q` of the right
    one (rounding to bf16 is the identity on extended reals; the accumulator starts at zero). -/
theorem mm3_apply (l : Vec Ideal S5000x16 .f32) (r : Vec Ideal S16x32 .f32) (p : Fin 5000) (q : Fin 32) :
    FloatOps.matmul (F := Ideal) dot_S5000x16_S16x32_S5000x32_1_0_0_1_n_n none (truncf .bf16 l bitsLt_bf16_f32) (truncf .bf16 r bitsLt_bf16_f32)
      (constant S5000x32 .f32 0x00000000#32) (ix2 p q) = ∑ j : Fin 16, l (ix2 p j) * r (ix2 j q) := by
  rw [Ideal.matmul_constant_zero_apply,
    ← Equiv.sum_comp (contrEquiv1 dot_S5000x16_S16x32_S5000x32_1_0_0_1_n_n 16 rfl rfl).symm]
  refine Finset.sum_congr rfl fun j _ => ?_
  have cj := contrEquiv1_symm_val dot_S5000x16_S16x32_S5000x32_1_0_0_1_n_n 16 rfl rfl j
  have hl : dot_S5000x16_S16x32_S5000x32_1_0_0_1_n_n.lhsIdx (ix2 p q) ((contrEquiv1 _ 16 rfl rfl).symm j) = ix2 p j := by
    funext ax; apply Fin.ext
    match ax with
    | ⟨0, _⟩ => rfl
    | ⟨1, _⟩ => exact cj
  have hr : dot_S5000x16_S16x32_S5000x32_1_0_0_1_n_n.rhsIdx (ix2 p q) ((contrEquiv1 _ 16 rfl rfl).symm j) = ix2 j q := by
    funext ax; apply Fin.ext
    match ax with
    | ⟨0, _⟩ => exact cj
    | ⟨1, _⟩ => rfl
  rw [hl, hr]
  rfl

/-- The Y payload at row `p`, column `q` of the block: the two inner products added, then the bias row at `q` — in the
    body's order of the additions. -/
theorem payload3_4_apply (xa xb : Vec Ideal S5000x16 .f32) (xc xd : Vec Ideal S16x32 .f32) (xe : Vec Ideal S1x32 .f32) (p : Fin 5000) (q : Fin 32) :
    k3_pay4 xa xb xc xd xe (ix2 p q)
      = ((∑ j : Fin 16, xa (ix2 p j) * xc (ix2 j q)) + (∑ j : Fin 16, xb (ix2 p j) * xd (ix2 j q))) + xe (ix2 (0 : Fin 1) q) := by
  unfold k3_pay4
  show (FloatOps.matmul (F := Ideal) dot_S5000x16_S16x32_S5000x32_1_0_0_1_n_n none (truncf .bf16 (shapeCast S5000x16 xa shapeCasts_S5000x16_S5000x16) bitsLt_bf16_f32) (truncf .bf16 xc bitsLt_bf16_f32)
        (constant S5000x32 .f32 0x00000000#32) (ix2 p q)
      + FloatOps.matmul (F := Ideal) dot_S5000x16_S16x32_S5000x32_1_0_0_1_n_n none (truncf .bf16 (shapeCast S5000x16 xb shapeCasts_S5000x16_S5000x16) bitsLt_bf16_f32) (truncf .bf16 xd bitsLt_bf16_f32)
        (constant S5000x32 .f32 0x00000000#32) (ix2 p q))
      + broadcastTo S5000x32 (shapeCast S1x32 xe shapeCasts_S1x32_S1x32) broadcasts_S1x32_S5000x32 (ix2 p q) = _
  rw [shapeCast_self, shapeCast_self, shapeCast_self, mm3_apply, mm3_apply, broadcastTo_1b_ab_apply]

/-- The zero rows the first point stores. -/
theorem payload3_2_apply (i : S1x32.Idx) : k3_pay2 (F := Ideal) i = 0 := by
  unfold k3_pay2
  show shapeCast S1x32 (broadcast S1x32 _) shapeCasts_S1x32_S1x32 i = 0
  rw [shapeCast_self]
  exact Ideal.ofBits_zero_f32
theorem payload3_3_apply (i : S1x32.Idx) : k3_pay3 (F := Ideal) i = 0 := by
  unfold k3_pay3
  show shapeCast S1x32 (broadcast S1x32 _) shapeCasts_S1x32_S1x32 i = 0
  rw [shapeCast_self]
  exact Ideal.ofBits_zero_f32

/-- The index a column sum reads: row `k` of column `q`. -/
theorem lift3 (q : Fin 32) (k : Fin 5000) : reduces_S5000x32_S32.lift (ix1 q) k = ix2 k q := by
  funext ax; apply Fin.ext
  match ax with
  | ⟨0, _⟩ => rfl
  | ⟨1, _⟩ => rfl

/-- The first scratch row's payload: the row read plus the column sums of the Y payload. -/
theorem payload3_5_apply (xa xb : Vec Ideal S5000x16 .f32) (xc xd : Vec Ideal S16x32 .f32) (xe : Vec Ideal S1x32 .f32) (s : Vec Ideal S1x32 .f32) (u : Fin 1) (q : Fin 32) :
    k3_pay5 xa xb xc xd xe s (ix2 u q) = s (ix2 u q) + ∑ p : Fin 5000, k3_pay4 xa xb xc xd xe (ix2 p q) := by
  unfold k3_pay5
  show shapeCast S1x32 (addf s (shapeCast S1x32 (multiReduction .add [0] S32 (k3_pay4 xa xb xc xd xe) 0x00000000#32 reduces_S5000x32_S32 (.inl rfl) rfl) shapeCasts_S32_S1x32)) shapeCasts_S1x32_S1x32 (ix2 u q) = _
  rw [shapeCast_self]
  show s (ix2 u q) + shapeCast S1x32 (multiReduction .add [0] S32 (k3_pay4 xa xb xc xd xe) 0x00000000#32 reduces_S5000x32_S32 (.inl rfl) rfl) shapeCasts_S32_S1x32 (ix2 u q) = _
  rw [shapeCast_a_1a_apply]
  refine congrArg (s (ix2 u q) + ·) ?_
  exact (Ideal.multiReduction_add_single (k3_pay4 xa xb xc xd xe) _ reduces_S5000x32_S32 _ _ (ix1 q)).trans
    (Finset.sum_congr rfl fun k _ => congrArg (k3_pay4 xa xb xc xd xe) (lift3 q k))

/-- The column sums of the squares of the Y payload. -/
theorem payload3_6_apply (xa xb : Vec Ideal S5000x16 .f32) (xc xd : Vec Ideal S16x32 .f32) (xe : Vec Ideal S1x32 .f32) (u : Fin 1) (q : Fin 32) :
    k3_pay6 xa xb xc xd xe (ix2 u q) = ∑ p : Fin 5000, k3_pay4 xa xb xc xd xe (ix2 p q) * k3_pay4 xa xb xc xd xe (ix2 p q) := by
  unfold k3_pay6
  show shapeCast S1x32 (multiReduction .add [0] S32 (mulf (k3_pay4 xa xb xc xd xe) (k3_pay4 xa xb xc xd xe)) 0x00000000#32 reduces_S5000x32_S32 (.inl rfl) rfl) shapeCasts_S32_S1x32 (ix2 u q) = _
  rw [shapeCast_a_1a_apply]
  exact (Ideal.multiReduction_add_single (mulf (k3_pay4 xa xb xc xd xe) (k3_pay4 xa xb xc xd xe)) _ reduces_S5000x32_S32 _ _ (ix1 q)).trans
    (Finset.sum_congr rfl fun k _ => congrArg (mulf (k3_pay4 xa xb xc xd xe) (k3_pay4 xa xb xc xd xe)) (lift3 q k))

/-- The second scratch row's payload: the row read plus the other row. -/
theorem payload3_1_apply (s : Vec Ideal S1x32 .f32) (w : FVec Ideal S1x32 .f32) (i : S1x32.Idx) : k3_pay1 s w i = s i + w i := by
  unfold k3_pay1
  show shapeCast S1x32 (addf (s : FVec Ideal S1x32 .f32) w) shapeCasts_S1x32_S1x32 i = _
  rw [shapeCast_self]
  rfl

/-! ## The closed forms of the frame at an index -/

theorem out3_6_eq (s : Vec Ideal S1x32 .f32) : out3_6 s = s := by
  unfold out3_6
  rw [View.canon_unit_zero off3, View.ld_unit_zero off3]

theorem zero3_s_apply (i : S1x32.Idx) : zero3_s (F := Ideal) i = 0 := by
  unfold zero3_s
  rw [View.canon_unit_zero off3]
  exact payload3_2_apply i
theorem zero3_q_apply (i : S1x32.Idx) : zero3_q (F := Ideal) i = 0 := by
  unfold zero3_q
  rw [View.canon_unit_zero off3]
  exact payload3_3_apply i

theorem sum3_apply (xa xb : Vec Ideal S5000x16 .f32) (xc xd : Vec Ideal S16x32 .f32) (xe : Vec Ideal S1x32 .f32) (s : Vec Ideal S1x32 .f32) (u : Fin 1) (q : Fin 32) :
    sum3 xa xb xc xd xe s (ix2 u q) = s (ix2 u q) + ∑ p : Fin 5000, k3_pay4 xa xb xc xd xe (ix2 p q) := by
  unfold sum3
  rw [View.canon_unit_zero off3]
  simp only [View.ld_unit_zero (S := S5000x16) off3, View.ld_unit_zero (S := S16x32) off3, View.ld_unit_zero (S := S1x32) off3]
  exact payload3_5_apply xa xb xc xd xe s u q

theorem sq3_apply (xa xb : Vec Ideal S5000x16 .f32) (xc xd : Vec Ideal S16x32 .f32) (xe : Vec Ideal S1x32 .f32) (s : Vec Ideal S1x32 .f32) (u : Fin 1) (q : Fin 32) :
    sq3 xa xb xc xd xe s (ix2 u q) = s (ix2 u q) + ∑ p : Fin 5000, k3_pay4 xa xb xc xd xe (ix2 p q) * k3_pay4 xa xb xc xd xe (ix2 p q) := by
  unfold sq3
  rw [View.canon_unit_zero off3]
  simp only [View.ld_unit_zero (S := S5000x16) off3, View.ld_unit_zero (S := S16x32) off3, View.ld_unit_zero (S := S1x32) off3]
  rw [payload3_1_apply, payload3_6_apply]

theorem out3_5_apply (xa xb : Vec Ideal S5000x16 .f32) (xc xd : Vec Ideal S16x32 .f32) (xe : Vec Ideal S1x32 .f32) (p : Fin 5000) (q : Fin 32) :
    out3_5 xa xb xc xd xe (ix2 p q) = k3_pay4 xa xb xc xd xe (ix2 p q) := by
  unfold out3_5 lin3
  rw [View.canon_unit_zero off3]
  simp only [View.ld_unit_zero (S := S5000x16) off3, View.ld_unit_zero (S := S16x32) off3, View.ld_unit_zero (S := S1x32) off3]

/-! ## The arrays -/

/-- The arrays of the region as it finds them, typed by their shapes: agg, x, W_rel, W_root, b (window order). -/
abbrev aArr3 (c : Dev nD) : S100000x16.Idx → EReal := V c (Pipeline.arrRef spec3 0)
abbrev xArr3 (c : Dev nD) : S100000x16.Idx → EReal := V c (Pipeline.arrRef spec3 1)
abbrev wrArr3 (c : Dev nD) : S16x32.Idx → EReal := V c (Pipeline.arrRef spec3 2)
abbrev woArr3 (c : Dev nD) : S16x32.Idx → EReal := V c (Pipeline.arrRef spec3 3)
abbrev bArr3 (c : Dev nD) : S1x32.Idx → EReal := V c (Pipeline.arrRef spec3 4)

/-- Y as a function of the operand arrays (window order: agg, x, W_rel, W_root, b). -/
def f3_5 (A X : S100000x16.Idx → EReal) (Wr Wo : S16x32.Idx → EReal) (B : S1x32.Idx → EReal) : S100000x32.Idx → EReal :=
  fun i => ((∑ j : Fin 16, A (ix2 (i 0) j) * Wr (ix2 j (i 1))) + (∑ j : Fin 16, X (ix2 (i 0) j) * Wo (ix2 j (i 1)))) + B (ix2 (0 : Fin 1) (i 1))
/-- The column sums of Y over all rows, and of its squares. -/
def f3_6 (A X : S100000x16.Idx → EReal) (Wr Wo : S16x32.Idx → EReal) (B : S1x32.Idx → EReal) : S1x32.Idx → EReal :=
  fun i => ∑ r : Fin 100000, f3_5 A X Wr Wo B (ix2 r (i 1))
def f3_7 (A X : S100000x16.Idx → EReal) (Wr Wo : S16x32.Idx → EReal) (B : S1x32.Idx → EReal) : S1x32.Idx → EReal :=
  fun i => ∑ r : Fin 100000, f3_5 A X Wr Wo B (ix2 r (i 1)) * f3_5 A X Wr Wo B (ix2 r (i 1))

theorem f3_5_apply (A X : S100000x16.Idx → EReal) (Wr Wo : S16x32.Idx → EReal) (B : S1x32.Idx → EReal) (i : Fin 100000) (k : Fin 32) :
    f3_5 A X Wr Wo B (ix2 i k) = ((∑ j : Fin 16, A (ix2 i j) * Wr (ix2 j k)) + (∑ j : Fin 16, X (ix2 i j) * Wo (ix2 j k))) + B (ix2 (0 : Fin 1) k) := rfl
theorem f3_6_apply (A X : S100000x16.Idx → EReal) (Wr Wo : S16x32.Idx → EReal) (B : S1x32.Idx → EReal) (k : Fin 32) :
    f3_6 A X Wr Wo B (ix2 (0 : Fin 1) k) = ∑ i : Fin 100000, f3_5 A X Wr Wo B (ix2 i k) := rfl
theorem f3_7_apply (A X : S100000x16.Idx → EReal) (Wr Wo : S16x32.Idx → EReal) (B : S1x32.Idx → EReal) (k : Fin 32) :
    f3_7 A X Wr Wo B (ix2 (0 : Fin 1) k) = ∑ i : Fin 100000, f3_5 A X Wr Wo B (ix2 i k) * f3_5 A X Wr Wo B (ix2 i k) := rfl

/-! ## From blocks to arrays -/

/-- The block index maps over the grid: agg, x and Y move down the rows with the point; the rest stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- Row `p` of block `t` is row `5000 t + p` of the array. -/
def row3 (t : Fin cfg3.N) (p : Fin 5000) : Fin 100000 :=
  ⟨t.val * 5000 + p.val, by have h : t.val < 20 := lt_of_lt_of_eq t.isLt N_3; have := p.isLt; omega⟩

theorem emb3_0 (t : Fin cfg3.N) (p : Fin 5000) (j : Fin 16) : ((cfg3.win 0).blk t).view.emb (ix2 p j) = ix2 (row3 t p) j := by
  obtain ⟨ha, hb, -⟩ := idx_facts3 t
  funext ax; apply Fin.ext
  match ax with
  | ⟨0, _⟩ => show win3_0.index t (0 : Fin 2) * 5000 + 1 * p.val = t.val * 5000 + p.val; omega
  | ⟨1, _⟩ => show win3_0.index t (1 : Fin 2) * 16 + 1 * j.val = j.val; omega
theorem emb3_1 (t : Fin cfg3.N) (p : Fin 5000) (j : Fin 16) : ((cfg3.win 1).blk t).view.emb (ix2 p j) = ix2 (row3 t p) j := by
  obtain ⟨-, -, ha, hb, -⟩ := idx_facts3 t
  funext ax; apply Fin.ext
  match ax with
  | ⟨0, _⟩ => show win3_1.index t (0 : Fin 2) * 5000 + 1 * p.val = t.val * 5000 + p.val; omega
  | ⟨1, _⟩ => show win3_1.index t (1 : Fin 2) * 16 + 1 * j.val = j.val; omega
theorem emb3_2 (t : Fin cfg3.N) (j : Fin 16) (q : Fin 32) : ((cfg3.win 2).blk t).view.emb (ix2 j q) = ix2 j q := by
  obtain ⟨-, -, -, -, ha, hb, -⟩ := idx_facts3 t
  funext ax; apply Fin.ext
  match ax with
  | ⟨0, _⟩ => show win3_2.index t (0 : Fin 2) * 16 + 1 * j.val = j.val; omega
  | ⟨1, _⟩ => show win3_2.index t (1 : Fin 2) * 32 + 1 * q.val = q.val; omega
theorem emb3_3 (t : Fin cfg3.N) (j : Fin 16) (q : Fin 32) : ((cfg3.win 3).blk t).view.emb (ix2 j q) = ix2 j q := by
  obtain ⟨-, -, -, -, -, -, ha, hb, -⟩ := idx_facts3 t
  funext ax; apply Fin.ext
  match ax with
  | ⟨0, _⟩ => show win3_3.index t (0 : Fin 2) * 16 + 1 * j.val = j.val; omega
  | ⟨1, _⟩ => show win3_3.index t (1 : Fin 2) * 32 + 1 * q.val = q.val; omega
theorem emb3_4 (t : Fin cfg3.N) (u : Fin 1) (q : Fin 32) : ((cfg3.win 4).blk t).view.emb (ix2 u q) = ix2 u q := by
  obtain ⟨-, -, -, -, -, -, -, -, ha, hb, -⟩ := idx_facts3 t
  funext ax; apply Fin.ext
  match ax with
  | ⟨0, _⟩ => show win3_4.index t (0 : Fin 2) * 1 + 1 * u.val = u.val; omega
  | ⟨1, _⟩ => show win3_4.index t (1 : Fin 2) * 32 + 1 * q.val = q.val; omega
theorem emb3_5 (t : Fin cfg3.N) (p : Fin 5000) (q : Fin 32) : ((cfg3.win 5).blk t).view.emb (ix2 p q) = ix2 (row3 t p) q := by
  obtain ⟨-, -, -, -, -, -, -, -, -, -, ha, hb, -⟩ := idx_facts3 t
  funext ax; apply Fin.ext
  match ax with
  | ⟨0, _⟩ => show win3_5.index t (0 : Fin 2) * 5000 + 1 * p.val = t.val * 5000 + p.val; omega
  | ⟨1, _⟩ => show win3_5.index t (1 : Fin 2) * 32 + 1 * q.val = q.val; omega
theorem emb3_6 (t : Fin cfg3.N) (u : Fin 1) (q : Fin 32) : ((cfg3.win 6).blk t).view.emb (ix2 u q) = ix2 u q := by
  obtain ⟨-, -, -, -, -, -, -, -, -, -, -, -, ha, hb, -⟩ := idx_facts3 t
  funext ax; apply Fin.ext
  match ax with
  | ⟨0, _⟩ => show win3_6.index t (0 : Fin 2) * 1 + 1 * u.val = u.val; omega
  | ⟨1, _⟩ => show win3_6.index t (1 : Fin 2) * 32 + 1 * q.val = q.val; omega
theorem emb3_7 (t : Fin cfg3.N) (u : Fin 1) (q : Fin 32) : ((cfg3.win 7).blk t).view.emb (ix2 u q) = ix2 u q := by
  obtain ⟨-, -, -, -, -, -, -, -, -, -, -, -, -, -, ha, hb⟩ := idx_facts3 t
  funext ax; apply Fin.ext
  match ax with
  | ⟨0, _⟩ => show win3_7.index t (0 : Fin 2) * 1 + 1 * u.val = u.val; omega
  | ⟨1, _⟩ => show win3_7.index t (1 : Fin 2) * 32 + 1 * q.val = q.val; omega

/-- The Y payload of point `t` at (p, q) is Y of the arrays at row `5000 t + p`, column `q`. -/
theorem y3_at (c : Dev nD) (t : Fin cfg3.N) (p : Fin 5000) (q : Fin 32) :
    k3_pay4 (iblk3 V c 0 t) (iblk3 V c 1 t) (iblk3 V c 2 t) (iblk3 V c 3 t) (iblk3 V c 4 t) (ix2 p q) = f3_5 (aArr3 V c) (xArr3 V c) (wrArr3 V c) (woArr3 V c) (bArr3 V c) (ix2 (row3 t p) q) := by
  rw [payload3_4_apply, f3_5_apply]
  refine congrArg₂ (· + ·) (congrArg₂ (· + ·) (Finset.sum_congr rfl fun j _ => ?_) (Finset.sum_congr rfl fun j _ => ?_)) ?_
  · show aArr3 V c (((cfg3.win 0).blk t).view.emb (ix2 p j)) * wrArr3 V c (((cfg3.win 2).blk t).view.emb (ix2 j q)) = _
    rw [emb3_0, emb3_2]
  · show xArr3 V c (((cfg3.win 1).blk t).view.emb (ix2 p j)) * woArr3 V c (((cfg3.win 3).blk t).view.emb (ix2 j q)) = _
    rw [emb3_1, emb3_3]
  · show bArr3 V c (((cfg3.win 4).blk t).view.emb (ix2 (0 : Fin 1) q)) = _
    rw [emb3_4]

/-- What point `t` writes back to the Y window is row block `t` of Y of the arrays as the region finds them. -/
theorem flushed3_5_eq (c : Dev nD) (t : Fin cfg3.N) :
    (dat3 V c).flushed 5 t = ((cfg3.win 5).blk t).view.read (Elt Ideal) (f3_5 (aArr3 V c) (xArr3 V c) (wrArr3 V c) (woArr3 V c) (bArr3 V c)) := by
  show (cfg3.win 5).cut (grid3.coords t) ((dat3 V c).after 5 t) = _
  rw [after3_5]
  funext y
  obtain ⟨p, q, rfl⟩ : ∃ (p : Fin 5000) (q : Fin 32), y = ix2 p q := ⟨y 0, y 1, eq_ix2 y⟩
  show out3_5 (iblk3 V c 0 t) (iblk3 V c 1 t) (iblk3 V c 2 t) (iblk3 V c 3 t) (iblk3 V c 4 t) (ix2 p q) = f3_5 (aArr3 V c) (xArr3 V c) (wrArr3 V c) (woArr3 V c) (bArr3 V c) (((cfg3.win 5).blk t).view.emb (ix2 p q))
  rw [out3_5_apply, emb3_5, y3_at]

theorem mem_blk3_5 (t : Fin cfg3.N) (i : S100000x32.Idx) :
    i ∈ ((cfg3.win 5).blk t).view.set ↔ ∀ a : Fin 2, win3_5.index t a * S5000x32.size a ≤ (i a).val ∧ (i a).val < win3_5.index t a * S5000x32.size a + S5000x32.size a := by
  show i ∈ ((View.whole main_v55_0).slice (win3_5.rect t)).set ↔ _
  rw [View.set_slice_whole, Rect.mem_set_unit]
  exact Iff.rfl

/-- Every row of the Y array is in the block of the point numbered by the row's quotient by 5000. -/
theorem acover3_5 (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  let t : Fin cfg3.N := ⟨(i 0).val / 5000, by show (i 0).val / 5000 < 20; omega⟩
  obtain ⟨-, -, -, -, -, -, -, -, -, -, ha, hb, -⟩ := idx_facts3 t
  have ht : t.val = (i 0).val / 5000 := rfl
  refine ⟨t, flush3_5 t, ?_⟩
  rw [mem_blk3_5]
  intro ax
  match ax with
  | ⟨0, _⟩ => show win3_5.index t (0 : Fin 2) * 5000 ≤ (i 0).val ∧ (i 0).val < win3_5.index t (0 : Fin 2) * 5000 + 5000; omega
  | ⟨1, _⟩ => show win3_5.index t (1 : Fin 2) * 32 ≤ (i 1).val ∧ (i 1).val < win3_5.index t (1 : Fin 2) * 32 + 32; omega

/-- The Y array after the region. -/
theorem final3_5 (c : Dev nD) : (dat3 V c).arrAt 5 cfg3.N = f3_5 (aArr3 V c) (xArr3 V c) (wrArr3 V c) (woArr3 V c) (bArr3 V c) :=
  (dat3 V c).arrAt_eq_of_cover 5 (f3_5 (aArr3 V c) (xArr3 V c) (wrArr3 V c) (woArr3 V c) (bArr3 V c)) (fun t _ => flushed3_5_eq V c t) acover3_5

/-! ## The sum rows -/

/-- The column sums of point `t`'s block of Y, and of its squares. -/
def col3 (c : Dev nD) (t : Fin cfg3.N) (q : Fin 32) : EReal := ∑ p : Fin 5000, k3_pay4 (iblk3 V c 0 t) (iblk3 V c 1 t) (iblk3 V c 2 t) (iblk3 V c 3 t) (iblk3 V c 4 t) (ix2 p q)
def colsq3 (c : Dev nD) (t : Fin cfg3.N) (q : Fin 32) : EReal :=
  ∑ p : Fin 5000, k3_pay4 (iblk3 V c 0 t) (iblk3 V c 1 t) (iblk3 V c 2 t) (iblk3 V c 3 t) (iblk3 V c 4 t) (ix2 p q) * k3_pay4 (iblk3 V c 0 t) (iblk3 V c 1 t) (iblk3 V c 2 t) (iblk3 V c 3 t) (iblk3 V c 4 t) (ix2 p q)

/-- The scratch rows after point `n` hold the sums over the points so far of their blocks' column sums. -/
theorem acc3_s_eq (c : Dev nD) : ∀ (n : ℕ) (hn : n < cfg3.N) (u : Fin 1) (q : Fin 32),
    (accAt3 V c n hn).1 (ix2 u q) = ∑ t : Fin (n + 1), col3 V c ⟨t.val, lt_of_lt_of_le t.isLt hn⟩ q := by
  intro n
  induction n with
  | zero =>
    intro hn u q
    have h := accAt3_zero V c ⟨0, hn⟩ rfl
    rw [show accAt3 V c 0 hn = _ from h]
    dsimp only
    rw [sum3_apply, zero3_s_apply, zero_add]
    exact (Fin.sum_univ_one (fun t : Fin 1 => col3 V c ⟨t.val, lt_of_lt_of_le t.isLt hn⟩ q)).symm
  | succ n ih =>
    intro hn u q
    have h := accAt3_pos V c ⟨n + 1, hn⟩ (Nat.succ_ne_zero n)
    rw [show accAt3 V c (n + 1) hn = _ from h]
    dsimp only
    rw [sum3_apply]
    conv_rhs => rw [Fin.sum_univ_castSucc]
    refine congrArg₂ (· + ·) ?_ rfl
    exact ih (Nat.lt_of_succ_lt hn) u q

theorem acc3_q_eq (c : Dev nD) : ∀ (n : ℕ) (hn : n < cfg3.N) (u : Fin 1) (q : Fin 32),
    (accAt3 V c n hn).2 (ix2 u q) = ∑ t : Fin (n + 1), colsq3 V c ⟨t.val, lt_of_lt_of_le t.isLt hn⟩ q := by
  intro n
  induction n with
  | zero =>
    intro hn u q
    have h := accAt3_zero V c ⟨0, hn⟩ rfl
    rw [show accAt3 V c 0 hn = _ from h]
    dsimp only
    rw [sq3_apply, zero3_q_apply, zero_add]
    exact (Fin.sum_univ_one (fun t : Fin 1 => colsq3 V c ⟨t.val, lt_of_lt_of_le t.isLt hn⟩ q)).symm
  | succ n ih =>
    intro hn u q
    have h := accAt3_pos V c ⟨n + 1, hn⟩ (Nat.succ_ne_zero n)
    rw [show accAt3 V c (n + 1) hn = _ from h]
    dsimp only
    rw [sq3_apply]
    conv_rhs => rw [Fin.sum_univ_castSucc]
    refine congrArg₂ (· + ·) ?_ rfl
    exact ih (Nat.lt_of_succ_lt hn) u q

/-- The sum over the twenty points of the blocks' column sums is the sum over all rows. -/
theorem col3_total (c : Dev nD) (q : Fin 32) (hN : ∀ t : Fin 20, t.val < cfg3.N) :
    ∑ t : Fin 20, col3 V c ⟨t.val, hN t⟩ q = ∑ r : Fin 100000, f3_5 (aArr3 V c) (xArr3 V c) (wrArr3 V c) (woArr3 V c) (bArr3 V c) (ix2 r q) := by
  have hE : (20 * 5000 : ℕ) = 100000 := by norm_num
  refine Eq.trans ?_ (Equiv.sum_comp (finCongr hE) (fun r : Fin 100000 => f3_5 (aArr3 V c) (xArr3 V c) (wrArr3 V c) (woArr3 V c) (bArr3 V c) (ix2 r q)))
  refine Eq.trans ?_ (Cert.Math.sum_fin_blocks (m := 20) (n := 5000) (fun i => f3_5 (aArr3 V c) (xArr3 V c) (wrArr3 V c) (woArr3 V c) (bArr3 V c) (ix2 (finCongr hE i) q))).symm
  refine Finset.sum_congr rfl fun t _ => ?_
  unfold col3
  refine Finset.sum_congr rfl fun p _ => ?_
  rw [y3_at]
  exact congrArg (fun r : Fin 100000 => f3_5 (aArr3 V c) (xArr3 V c) (wrArr3 V c) (woArr3 V c) (bArr3 V c) (ix2 r q)) (Fin.ext rfl)

theorem colsq3_total (c : Dev nD) (q : Fin 32) (hN : ∀ t : Fin 20, t.val < cfg3.N) :
    ∑ t : Fin 20, colsq3 V c ⟨t.val, hN t⟩ q = ∑ r : Fin 100000, f3_5 (aArr3 V c) (xArr3 V c) (wrArr3 V c) (woArr3 V c) (bArr3 V c) (ix2 r q) * f3_5 (aArr3 V c) (xArr3 V c) (wrArr3 V c) (woArr3 V c) (bArr3 V c) (ix2 r q) := by
  have hE : (20 * 5000 : ℕ) = 100000 := by norm_num
  refine Eq.trans ?_ (Equiv.sum_comp (finCongr hE) (fun r : Fin 100000 => f3_5 (aArr3 V c) (xArr3 V c) (wrArr3 V c) (woArr3 V c) (bArr3 V c) (ix2 r q) * f3_5 (aArr3 V c) (xArr3 V c) (wrArr3 V c) (woArr3 V c) (bArr3 V c) (ix2 r q)))
  refine Eq.trans ?_ (Cert.Math.sum_fin_blocks (m := 20) (n := 5000) (fun i => f3_5 (aArr3 V c) (xArr3 V c) (wrArr3 V c) (woArr3 V c) (bArr3 V c) (ix2 (finCongr hE i) q) * f3_5 (aArr3 V c) (xArr3 V c) (wrArr3 V c) (woArr3 V c) (bArr3 V c) (ix2 (finCongr hE i) q))).symm
  refine Finset.sum_congr rfl fun t _ => ?_
  unfold colsq3
  refine Finset.sum_congr rfl fun p _ => ?_
  rw [y3_at]
  exact congrArg (fun r : Fin 100000 => f3_5 (aArr3 V c) (xArr3 V c) (wrArr3 V c) (woArr3 V c) (bArr3 V c) (ix2 r q) * f3_5 (aArr3 V c) (xArr3 V c) (wrArr3 V c) (woArr3 V c) (bArr3 V c) (ix2 r q)) (Fin.ext rfl)

theorem mem_blk3_6 (t : Fin cfg3.N) (i : S1x32.Idx) :
    i ∈ ((cfg3.win 6).blk t).view.set ↔ ∀ a : Fin 2, win3_6.index t a * S1x32.size a ≤ (i a).val ∧ (i a).val < win3_6.index t a * S1x32.size a + S1x32.size a := by
  show i ∈ ((View.whole main_v55_1).slice (win3_6.rect t)).set ↔ _
  rw [View.set_slice_whole, Rect.mem_set_unit]
  exact Iff.rfl

set_option maxRecDepth 200000 in
/-- What the last point writes back to window 6: the sums over all rows. -/
theorem flushed3_6_eq (c : Dev nD) (t : Fin cfg3.N) (ht : (cfg3.win 6).flush t = true) :
    (dat3 V c).flushed 6 t = ((cfg3.win 6).blk t).view.read (Elt Ideal) (f3_6 (aArr3 V c) (xArr3 V c) (wrArr3 V c) (woArr3 V c) (bArr3 V c)) := by
  have hlast : t.val = 19 := by
    have h := (flush3_6 t).mp ht
    have hlt : t.val < 20 := lt_of_lt_of_eq t.isLt N_3
    omega
  have hs : ∀ (u : Fin 1) (q : Fin 32), (accAt3 V c t.val t.isLt).1 (ix2 u q) = f3_6 (aArr3 V c) (xArr3 V c) (wrArr3 V c) (woArr3 V c) (bArr3 V c) (ix2 u q) := by
    intro u q
    rw [acc3_s_eq]
    obtain ⟨tv, htv⟩ := t
    obtain rfl : tv = 19 := hlast
    exact col3_total V c q (fun t => lt_of_lt_of_eq t.isLt N_3.symm)
  show (cfg3.win 6).cut (grid3.coords t) ((dat3 V c).after 6 t) = _
  rw [after3_6, out3_6_eq]
  generalize (accAt3 V c t.val t.isLt).1 = s at hs ⊢
  funext y
  obtain ⟨u, q, rfl⟩ : ∃ (u : Fin 1) (q : Fin 32), y = ix2 u q := ⟨y 0, y 1, eq_ix2 y⟩
  show s (ix2 u q) = f3_6 (aArr3 V c) (xArr3 V c) (wrArr3 V c) (woArr3 V c) (bArr3 V c) (((cfg3.win 6).blk t).view.emb (ix2 u q))
  rw [emb3_6, hs]

/-- The one row of window 6's array is in the last point's block. -/
theorem acover3_6 (i : S1x32.Idx) :
    ∃ t : Fin cfg3.N, (cfg3.win 6).flush t = true ∧ i ∈ ((cfg3.win 6).blk t).view.set := by
  have hi0 : (i 0).val < 1 := (i 0).isLt
  have hi1 : (i 1).val < 32 := (i 1).isLt
  let t : Fin cfg3.N := ⟨19, by show 19 < 20; omega⟩
  obtain ⟨-, -, -, -, -, -, -, -, -, -, -, -, ha, hb, -⟩ := idx_facts3 t
  refine ⟨t, (flush3_6 t).mpr rfl, ?_⟩
  rw [mem_blk3_6]
  intro ax
  match ax with
  | ⟨0, _⟩ => show win3_6.index t (0 : Fin 2) * 1 ≤ (i 0).val ∧ (i 0).val < win3_6.index t (0 : Fin 2) * 1 + 1; omega
  | ⟨1, _⟩ => show win3_6.index t (1 : Fin 2) * 32 ≤ (i 1).val ∧ (i 1).val < win3_6.index t (1 : Fin 2) * 32 + 32; omega

/-- Window 6's array after the region. -/
theorem final3_6 (c : Dev nD) : (dat3 V c).arrAt 6 cfg3.N = f3_6 (aArr3 V c) (xArr3 V c) (wrArr3 V c) (woArr3 V c) (bArr3 V c) :=
  (dat3 V c).arrAt_eq_of_cover 6 (f3_6 (aArr3 V c) (xArr3 V c) (wrArr3 V c) (woArr3 V c) (bArr3 V c)) (fun t ht => flushed3_6_eq V c t ht) acover3_6

theorem mem_blk3_7 (t : Fin cfg3.N) (i : S1x32.Idx) :
    i ∈ ((cfg3.win 7).blk t).view.set ↔ ∀ a : Fin 2, win3_7.index t a * S1x32.size a ≤ (i a).val ∧ (i a).val < win3_7.index t a * S1x32.size a + S1x32.size a := by
  show i ∈ ((View.whole main_v55_2).slice (win3_7.rect t)).set ↔ _
  rw [View.set_slice_whole, Rect.mem_set_unit]
  exact Iff.rfl

set_option maxRecDepth 200000 in
/-- What the last point writes back to window 7: the sums over all rows. -/
theorem flushed3_7_eq (c : Dev nD) (t : Fin cfg3.N) (ht : (cfg3.win 7).flush t = true) :
    (dat3 V c).flushed 7 t = ((cfg3.win 7).blk t).view.read (Elt Ideal) (f3_7 (aArr3 V c) (xArr3 V c) (wrArr3 V c) (woArr3 V c) (bArr3 V c)) := by
  have hlast : t.val = 19 := by
    have h := (flush3_7 t).mp ht
    have hlt : t.val < 20 := lt_of_lt_of_eq t.isLt N_3
    omega
  have hs : ∀ (u : Fin 1) (q : Fin 32), (accAt3 V c t.val t.isLt).2 (ix2 u q) = f3_7 (aArr3 V c) (xArr3 V c) (wrArr3 V c) (woArr3 V c) (bArr3 V c) (ix2 u q) := by
    intro u q
    rw [acc3_q_eq]
    obtain ⟨tv, htv⟩ := t
    obtain rfl : tv = 19 := hlast
    exact colsq3_total V c q (fun t => lt_of_lt_of_eq t.isLt N_3.symm)
  show (cfg3.win 7).cut (grid3.coords t) ((dat3 V c).after 7 t) = _
  rw [after3_7, out3_6_eq]
  generalize (accAt3 V c t.val t.isLt).2 = s at hs ⊢
  funext y
  obtain ⟨u, q, rfl⟩ : ∃ (u : Fin 1) (q : Fin 32), y = ix2 u q := ⟨y 0, y 1, eq_ix2 y⟩
  show s (ix2 u q) = f3_7 (aArr3 V c) (xArr3 V c) (wrArr3 V c) (woArr3 V c) (bArr3 V c) (((cfg3.win 7).blk t).view.emb (ix2 u q))
  rw [emb3_7, hs]

/-- The one row of window 7's array is in the last point's block. -/
theorem acover3_7 (i : S1x32.Idx) :
    ∃ t : Fin cfg3.N, (cfg3.win 7).flush t = true ∧ i ∈ ((cfg3.win 7).blk t).view.set := by
  have hi0 : (i 0).val < 1 := (i 0).isLt
  have hi1 : (i 1).val < 32 := (i 1).isLt
  let t : Fin cfg3.N := ⟨19, by show 19 < 20; omega⟩
  obtain ⟨-, -, -, -, -, -, -, -, -, -, -, -, -, -, ha, hb⟩ := idx_facts3 t
  refine ⟨t, (flush3_7 t).mpr rfl, ?_⟩
  rw [mem_blk3_7]
  intro ax
  match ax with
  | ⟨0, _⟩ => show win3_7.index t (0 : Fin 2) * 1 ≤ (i 0).val ∧ (i 0).val < win3_7.index t (0 : Fin 2) * 1 + 1; omega
  | ⟨1, _⟩ => show win3_7.index t (1 : Fin 2) * 32 ≤ (i 1).val ∧ (i 1).val < win3_7.index t (1 : Fin 2) * 32 + 32; omega

/-- Window 7's array after the region. -/
theorem final3_7 (c : Dev nD) : (dat3 V c).arrAt 7 cfg3.N = f3_7 (aArr3 V c) (xArr3 V c) (wrArr3 V c) (woArr3 V c) (bArr3 V c) :=
  (dat3 V c).arrAt_eq_of_cover 7 (f3_7 (aArr3 V c) (xArr3 V c) (wrArr3 V c) (woArr3 V c) (bArr3 V c)) (fun t ht => flushed3_7_eq V c t ht) acover3_7

end Cert.KernelIdeal.Hand

end
-- ==== Proof.V4.lean ====
import proofs.«403053_j58033598104012_3_alg».proof.Proof.R4
import proofs.«403053_j58033598104012_3_alg».proof.Proof.VLaws
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 4 at the ideal values: the output array is ELU of the normalised y, entry by entry -/

/-- The arrays of the region as it finds them, and the output array as it leaves it, typed by their shapes. -/
abbrev yArr4 (c : Dev nD) : S25000x128.Idx → EReal := V c (Pipeline.arrRef spec4 0)
abbrev meanArr4 (c : Dev nD) : S1x128.Idx → EReal := V c (Pipeline.arrRef spec4 1)
abbrev varArr4 (c : Dev nD) : S1x128.Idx → EReal := V c (Pipeline.arrRef spec4 2)
abbrev gammaArr4 (c : Dev nD) : S1x128.Idx → EReal := V c (Pipeline.arrRef spec4 3)
abbrev betaArr4 (c : Dev nD) : S1x128.Idx → EReal := V c (Pipeline.arrRef spec4 4)
abbrev res4 (c : Dev nD) : S25000x128.Idx → EReal := (dat4 V c).arrAt 5 cfg4.N

/-- A row vector broadcast down the block's rows reads, at (p, q), its entry q. -/
theorem bcastRow4 {α : Type} (x : S1x128.Idx → α) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The body's payload at row `p`, column `q` of the block: ELU of (y − mean) · rsqrt(variance + ε) · gamma + beta,
    the four statistics read at column `q`. -/
theorem pay4_apply (x0 : Vec Ideal S5000x128 .f32) (xv xm xg xb : Vec Ideal S1x128 .f32) (p : Fin 5000) (q : Fin 128) :
    k4_pay1 x0 xv xm xg xb (ix2 p q)
      = eluK ((x0 (ix2 p q) - xm (ix2 0 q)) * Ideal.rsqrt (xv (ix2 0 q) + Ideal.ofBits .f32 0x3727C5AC#32) * xg (ix2 0 q) + xb (ix2 0 q)) := by
  unfold k4_pay1
  simp only [shapeCast_self, select_apply, cmpf_apply, subf_apply, mulf_apply, addf_apply, minimumf_apply, exp_apply,
    rsqrt_apply, broadcast_apply, bcastRow4]
  exact select_elu _

/-- Batch normalisation by one row of statistics then ELU, of an array with rows of 128, entry by entry. -/
def bnElu4 (Y : S25000x128.Idx → EReal) (M Vr G B : S1x128.Idx → EReal) : S25000x128.Idx → EReal :=
  fun i => eluK ((Y i - M (ix2 0 (i 1))) * Ideal.rsqrt (Vr (ix2 0 (i 1)) + Ideal.ofBits .f32 0x3727C5AC#32) * G (ix2 0 (i 1)) + B (ix2 0 (i 1)))

/-- Entry (i, k) of `bnElu4`: the statistics read at column `k`. -/
theorem bnElu4_apply (Y : S25000x128.Idx → EReal) (M Vr G B : S1x128.Idx → EReal) (i : Fin 25000) (k : Fin 128) :
    bnElu4 Y M Vr G B (ix2 i k) = eluK ((Y (ix2 i k) - M (ix2 0 k)) * Ideal.rsqrt (Vr (ix2 0 k) + Ideal.ofBits .f32 0x3727C5AC#32) * G (ix2 0 k) + B (ix2 0 k)) := rfl

/-- The block index maps over the grid: y and the output move down the rows with the point, the statistics stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1000000 in
/-- What point `t` writes back is row block `t` of `bnElu4` of the arrays as the region finds them. -/
theorem flushed4_eq (c : Dev nD) (t : Fin cfg4.N) :
    (dat4 V c).flushed 5 t = ((cfg4.win 5).blk t).view.read (Elt Ideal)
      (bnElu4 (yArr4 V c) (meanArr4 V c) (varArr4 V c) (gammaArr4 V c) (betaArr4 V c)) := by
  show (cfg4.win 5).cut (grid4.coords t) ((dat4 V c).after 5 t) = _
  rw [after4_5]
  unfold out4_5
  rw [View.canon_unit_zero zeros2]
  simp only [View.ld_unit_zero (S := S5000x128) zeros2, View.ld_unit_zero (S := S1x128) zeros2]
  obtain ⟨e00, e01, e10, e11, e20, e21, e30, e31, e40, e41, e50, e51⟩ := idx_facts4 t
  funext y
  obtain ⟨p, q, rfl⟩ : ∃ (p : Fin 5000) (q : Fin 128), y = ix2 p q := ⟨y 0, y 1, eq_ix2 y⟩
  show k4_pay1 (iblk4 V c 0 t) (iblk4 V c 2 t) (iblk4 V c 1 t) (iblk4 V c 3 t) (iblk4 V c 4 t) (ix2 p q)
    = bnElu4 (yArr4 V c) (meanArr4 V c) (varArr4 V c) (gammaArr4 V c) (betaArr4 V c) (((cfg4.win 5).blk t).view.emb (ix2 p q))
  rw [pay4_apply]
  unfold bnElu4
  have h0 : ((cfg4.win 0).blk t).view.emb (ix2 p q) = ((cfg4.win 5).blk t).view.emb (ix2 p q) := by
    funext a; apply Fin.ext
    match a with
    | ⟨0, _⟩ => show win4_0.index t (0 : Fin 2) * 5000 + 1 * p.val = win4_5.index t (0 : Fin 2) * 5000 + 1 * p.val; omega
    | ⟨1, _⟩ => show win4_0.index t (1 : Fin 2) * 128 + 1 * q.val = win4_5.index t (1 : Fin 2) * 128 + 1 * q.val; omega
  have h1 : ((cfg4.win 1).blk t).view.emb (ix2 0 q) = ix2 0 (((cfg4.win 5).blk t).view.emb (ix2 p q) 1) := by
    funext a; apply Fin.ext
    match a with
    | ⟨0, _⟩ => show win4_1.index t (0 : Fin 2) * 1 + 1 * 0 = 0; omega
    | ⟨1, _⟩ => show win4_1.index t (1 : Fin 2) * 128 + 1 * q.val = win4_5.index t (1 : Fin 2) * 128 + 1 * q.val; omega
  have h2 : ((cfg4.win 2).blk t).view.emb (ix2 0 q) = ix2 0 (((cfg4.win 5).blk t).view.emb (ix2 p q) 1) := by
    funext a; apply Fin.ext
    match a with
    | ⟨0, _⟩ => show win4_2.index t (0 : Fin 2) * 1 + 1 * 0 = 0; omega
    | ⟨1, _⟩ => show win4_2.index t (1 : Fin 2) * 128 + 1 * q.val = win4_5.index t (1 : Fin 2) * 128 + 1 * q.val; omega
  have h3 : ((cfg4.win 3).blk t).view.emb (ix2 0 q) = ix2 0 (((cfg4.win 5).blk t).view.emb (ix2 p q) 1) := by
    funext a; apply Fin.ext
    match a with
    | ⟨0, _⟩ => show win4_3.index t (0 : Fin 2) * 1 + 1 * 0 = 0; omega
    | ⟨1, _⟩ => show win4_3.index t (1 : Fin 2) * 128 + 1 * q.val = win4_5.index t (1 : Fin 2) * 128 + 1 * q.val; omega
  have h4 : ((cfg4.win 4).blk t).view.emb (ix2 0 q) = ix2 0 (((cfg4.win 5).blk t).view.emb (ix2 p q) 1) := by
    funext a; apply Fin.ext
    match a with
    | ⟨0, _⟩ => show win4_4.index t (0 : Fin 2) * 1 + 1 * 0 = 0; omega
    | ⟨1, _⟩ => show win4_4.index t (1 : Fin 2) * 128 + 1 * q.val = win4_5.index t (1 : Fin 2) * 128 + 1 * q.val; omega
  have r0 : iblk4 V c 0 t (ix2 p q) = yArr4 V c (((cfg4.win 5).blk t).view.emb (ix2 p q)) := congrArg (yArr4 V c) h0
  have r1 : iblk4 V c 1 t (ix2 0 q) = meanArr4 V c (ix2 0 (((cfg4.win 5).blk t).view.emb (ix2 p q) 1)) := congrArg (meanArr4 V c) h1
  have r2 : iblk4 V c 2 t (ix2 0 q) = varArr4 V c (ix2 0 (((cfg4.win 5).blk t).view.emb (ix2 p q) 1)) := congrArg (varArr4 V c) h2
  have r3 : iblk4 V c 3 t (ix2 0 q) = gammaArr4 V c (ix2 0 (((cfg4.win 5).blk t).view.emb (ix2 p q) 1)) := congrArg (gammaArr4 V c) h3
  have r4 : iblk4 V c 4 t (ix2 0 q) = betaArr4 V c (ix2 0 (((cfg4.win 5).blk t).view.emb (ix2 p q) 1)) := congrArg (betaArr4 V c) h4
  rw [r0, r1, r2, r3, r4]

/-- An index of the output array is in point `t`'s block iff each coordinate is in the block's range on its axis. -/
theorem mem_blk4 (t : Fin cfg4.N) (i : S25000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v83).slice (win4_5.rect t)).set ↔ _
  rw [View.set_slice_whole, Rect.mem_set_unit]
  exact Iff.rfl

/-- Every row of the output array is in the block of the point numbered by the row's quotient by 5000. -/
theorem covered4 (i : S25000x128.Idx) :
    ∃ t : Fin cfg4.N, (cfg4.win 5).flush t = true ∧ i ∈ ((cfg4.win 5).blk t).view.set := by
  have hi0 : (i 0).val < 25000 := (i 0).isLt
  have hi1 : (i 1).val < 128 := (i 1).isLt
  let t : Fin cfg4.N := ⟨(i 0).val / 5000, by show (i 0).val / 5000 < 5; omega⟩
  obtain ⟨e00, e01, e10, e11, e20, e21, e30, e31, e40, e41, e50, e51⟩ := idx_facts4 t
  have ht : t.val = (i 0).val / 5000 := rfl
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The output array after the region: `bnElu4` of the arrays as the region finds them. -/
theorem final4 (c : Dev nD) :
    (dat4 V c).arrAt 5 cfg4.N = bnElu4 (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 _ (fun t _ => flushed4_eq V c t) covered4

/-- Entry (i, k) of the output array after the region. -/
theorem val4 (c : Dev nD) (i : Fin 25000) (k : Fin 128) :
    res4 V c (ix2 i k) = eluK ((yArr4 V c (ix2 i k) - meanArr4 V c (ix2 0 k))
      * Ideal.rsqrt (varArr4 V c (ix2 0 k) + Ideal.ofBits .f32 0x3727C5AC#32) * gammaArr4 V c (ix2 0 k) + betaArr4 V c (ix2 0 k)) :=
  congrFun (final4 V c) (ix2 i k)

end Cert.KernelIdeal.Hand
-- ==== Proof.V5.lean ====
import proofs.«403053_j58033598104012_3_alg».proof.Proof.R5
import proofs.«403053_j58033598104012_3_alg».proof.Proof.MathLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 5 at the ideal values: Y = agg · W_rel + x · W_root + b entry by entry, and the two sum rows as sums
over all rows of Y and of Y² -/

theorem off5 : (![0, 0] : Fin 2 → ℕ) = fun _ => 0 := funext fun a => by fin_cases a <;> rfl

/-! ## The payloads at an index -/

/-- A product block at row `p`, column `q`: the inner product of row `p` of the left block and column `q` of the right
    one (rounding to bf16 is the identity on extended reals; the accumulator starts at zero). -/
theorem mm5_apply (l : Vec Ideal S5000x32 .f32) (r : Vec Ideal S32x32 .f32) (p : Fin 5000) (q : Fin 32) :
    FloatOps.matmul (F := Ideal) dot_S5000x32_S32x32_S5000x32_1_0_0_1_n_n none (truncf .bf16 l bitsLt_bf16_f32) (truncf .bf16 r bitsLt_bf16_f32)
      (constant S5000x32 .f32 0x00000000#32) (ix2 p q) = ∑ j : Fin 32, l (ix2 p j) * r (ix2 j q) := by
  rw [Ideal.matmul_constant_zero_apply,
    ← Equiv.sum_comp (contrEquiv1 dot_S5000x32_S32x32_S5000x32_1_0_0_1_n_n 32 rfl rfl).symm]
  refine Finset.sum_congr rfl fun j _ => ?_
  have cj := contrEquiv1_symm_val dot_S5000x32_S32x32_S5000x32_1_0_0_1_n_n 32 rfl rfl j
  have hl : dot_S5000x32_S32x32_S5000x32_1_0_0_1_n_n.lhsIdx (ix2 p q) ((contrEquiv1 _ 32 rfl rfl).symm j) = ix2 p j := by
    funext ax; apply Fin.ext
    match ax with
    | ⟨0, _⟩ => rfl
    | ⟨1, _⟩ => exact cj
  have hr : dot_S5000x32_S32x32_S5000x32_1_0_0_1_n_n.rhsIdx (ix2 p q) ((contrEquiv1 _ 32 rfl rfl).symm j) = ix2 j q := by
    funext ax; apply Fin.ext
    match ax with
    | ⟨0, _⟩ => exact cj
    | ⟨1, _⟩ => rfl
  rw [hl, hr]
  rfl

/-- The Y payload at row `p`, column `q` of the block: the two inner products added, then the bias row at `q` — in the
    body's order of the additions. -/
theorem payload5_4_apply (xa xb : Vec Ideal S5000x32 .f32) (xc xd : Vec Ideal S32x32 .f32) (xe : Vec Ideal S1x32 .f32) (p : Fin 5000) (q : Fin 32) :
    k5_pay4 xa xb xc xd xe (ix2 p q)
      = ((∑ j : Fin 32, xa (ix2 p j) * xc (ix2 j q)) + (∑ j : Fin 32, xb (ix2 p j) * xd (ix2 j q))) + xe (ix2 (0 : Fin 1) q) := by
  unfold k5_pay4
  show (FloatOps.matmul (F := Ideal) dot_S5000x32_S32x32_S5000x32_1_0_0_1_n_n none (truncf .bf16 (shapeCast S5000x32 xa shapeCasts_S5000x32_S5000x32) bitsLt_bf16_f32) (truncf .bf16 xc bitsLt_bf16_f32)
        (constant S5000x32 .f32 0x00000000#32) (ix2 p q)
      + FloatOps.matmul (F := Ideal) dot_S5000x32_S32x32_S5000x32_1_0_0_1_n_n none (truncf .bf16 (shapeCast S5000x32 xb shapeCasts_S5000x32_S5000x32) bitsLt_bf16_f32) (truncf .bf16 xd bitsLt_bf16_f32)
        (constant S5000x32 .f32 0x00000000#32) (ix2 p q))
      + broadcastTo S5000x32 (shapeCast S1x32 xe shapeCasts_S1x32_S1x32) broadcasts_S1x32_S5000x32 (ix2 p q) = _
  rw [shapeCast_self, shapeCast_self, shapeCast_self, mm5_apply, mm5_apply, broadcastTo_1b_ab_apply]

/-- The zero rows the first point stores. -/
theorem payload5_2_apply (i : S1x32.Idx) : k5_pay2 (F := Ideal) i = 0 := by
  unfold k5_pay2
  show shapeCast S1x32 (broadcast S1x32 _) shapeCasts_S1x32_S1x32 i = 0
  rw [shapeCast_self]
  exact Ideal.ofBits_zero_f32
theorem payload5_3_apply (i : S1x32.Idx) : k5_pay3 (F := Ideal) i = 0 := by
  unfold k5_pay3
  show shapeCast S1x32 (broadcast S1x32 _) shapeCasts_S1x32_S1x32 i = 0
  rw [shapeCast_self]
  exact Ideal.ofBits_zero_f32

/-- The index a column sum reads: row `k` of column `q`. -/
theorem lift5 (q : Fin 32) (k : Fin 5000) : reduces_S5000x32_S32.lift (ix1 q) k = ix2 k q := by
  funext ax; apply Fin.ext
  match ax with
  | ⟨0, _⟩ => rfl
  | ⟨1, _⟩ => rfl

/-- The first scratch row's payload: the row read plus the column sums of the Y payload. -/
theorem payload5_5_apply (xa xb : Vec Ideal S5000x32 .f32) (xc xd : Vec Ideal S32x32 .f32) (xe : Vec Ideal S1x32 .f32) (s : Vec Ideal S1x32 .f32) (u : Fin 1) (q : Fin 32) :
    k5_pay5 xa xb xc xd xe s (ix2 u q) = s (ix2 u q) + ∑ p : Fin 5000, k5_pay4 xa xb xc xd xe (ix2 p q) := by
  unfold k5_pay5
  show shapeCast S1x32 (addf s (shapeCast S1x32 (multiReduction .add [0] S32 (k5_pay4 xa xb xc xd xe) 0x00000000#32 reduces_S5000x32_S32 (.inl rfl) rfl) shapeCasts_S32_S1x32)) shapeCasts_S1x32_S1x32 (ix2 u q) = _
  rw [shapeCast_self]
  show s (ix2 u q) + shapeCast S1x32 (multiReduction .add [0] S32 (k5_pay4 xa xb xc xd xe) 0x00000000#32 reduces_S5000x32_S32 (.inl rfl) rfl) shapeCasts_S32_S1x32 (ix2 u q) = _
  rw [shapeCast_a_1a_apply]
  refine congrArg (s (ix2 u q) + ·) ?_
  exact (Ideal.multiReduction_add_single (k5_pay4 xa xb xc xd xe) _ reduces_S5000x32_S32 _ _ (ix1 q)).trans
    (Finset.sum_congr rfl fun k _ => congrArg (k5_pay4 xa xb xc xd xe) (lift5 q k))

/-- The column sums of the squares of the Y payload. -/
theorem payload5_6_apply (xa xb : Vec Ideal S5000x32 .f32) (xc xd : Vec Ideal S32x32 .f32) (xe : Vec Ideal S1x32 .f32) (u : Fin 1) (q : Fin 32) :
    k5_pay6 xa xb xc xd xe (ix2 u q) = ∑ p : Fin 5000, k5_pay4 xa xb xc xd xe (ix2 p q) * k5_pay4 xa xb xc xd xe (ix2 p q) := by
  unfold k5_pay6
  show shapeCast S1x32 (multiReduction .add [0] S32 (mulf (k5_pay4 xa xb xc xd xe) (k5_pay4 xa xb xc xd xe)) 0x00000000#32 reduces_S5000x32_S32 (.inl rfl) rfl) shapeCasts_S32_S1x32 (ix2 u q) = _
  rw [shapeCast_a_1a_apply]
  exact (Ideal.multiReduction_add_single (mulf (k5_pay4 xa xb xc xd xe) (k5_pay4 xa xb xc xd xe)) _ reduces_S5000x32_S32 _ _ (ix1 q)).trans
    (Finset.sum_congr rfl fun k _ => congrArg (mulf (k5_pay4 xa xb xc xd xe) (k5_pay4 xa xb xc xd xe)) (lift5 q k))

/-- The second scratch row's payload: the row read plus the other row. -/
theorem payload5_1_apply (s : Vec Ideal S1x32 .f32) (w : FVec Ideal S1x32 .f32) (i : S1x32.Idx) : k5_pay1 s w i = s i + w i := by
  unfold k5_pay1
  show shapeCast S1x32 (addf (s : FVec Ideal S1x32 .f32) w) shapeCasts_S1x32_S1x32 i = _
  rw [shapeCast_self]
  rfl

/-! ## The closed forms of the frame at an index -/

theorem out5_6_eq (s : Vec Ideal S1x32 .f32) : out5_6 s = s := by
  unfold out5_6
  rw [View.canon_unit_zero off5, View.ld_unit_zero off5]

theorem zero5_s_apply (i : S1x32.Idx) : zero5_s (F := Ideal) i = 0 := by
  unfold zero5_s
  rw [View.canon_unit_zero off5]
  exact payload5_2_apply i
theorem zero5_q_apply (i : S1x32.Idx) : zero5_q (F := Ideal) i = 0 := by
  unfold zero5_q
  rw [View.canon_unit_zero off5]
  exact payload5_3_apply i

theorem sum5_apply (xa xb : Vec Ideal S5000x32 .f32) (xc xd : Vec Ideal S32x32 .f32) (xe : Vec Ideal S1x32 .f32) (s : Vec Ideal S1x32 .f32) (u : Fin 1) (q : Fin 32) :
    sum5 xa xb xc xd xe s (ix2 u q) = s (ix2 u q) + ∑ p : Fin 5000, k5_pay4 xa xb xc xd xe (ix2 p q) := by
  unfold sum5
  rw [View.canon_unit_zero off5]
  simp only [View.ld_unit_zero (S := S5000x32) off5, View.ld_unit_zero (S := S32x32) off5, View.ld_unit_zero (S := S1x32) off5]
  exact payload5_5_apply xa xb xc xd xe s u q

theorem sq5_apply (xa xb : Vec Ideal S5000x32 .f32) (xc xd : Vec Ideal S32x32 .f32) (xe : Vec Ideal S1x32 .f32) (s : Vec Ideal S1x32 .f32) (u : Fin 1) (q : Fin 32) :
    sq5 xa xb xc xd xe s (ix2 u q) = s (ix2 u q) + ∑ p : Fin 5000, k5_pay4 xa xb xc xd xe (ix2 p q) * k5_pay4 xa xb xc xd xe (ix2 p q) := by
  unfold sq5
  rw [View.canon_unit_zero off5]
  simp only [View.ld_unit_zero (S := S5000x32) off5, View.ld_unit_zero (S := S32x32) off5, View.ld_unit_zero (S := S1x32) off5]
  rw [payload5_1_apply, payload5_6_apply]

theorem out5_5_apply (xa xb : Vec Ideal S5000x32 .f32) (xc xd : Vec Ideal S32x32 .f32) (xe : Vec Ideal S1x32 .f32) (p : Fin 5000) (q : Fin 32) :
    out5_5 xa xb xc xd xe (ix2 p q) = k5_pay4 xa xb xc xd xe (ix2 p q) := by
  unfold out5_5 lin5
  rw [View.canon_unit_zero off5]
  simp only [View.ld_unit_zero (S := S5000x32) off5, View.ld_unit_zero (S := S32x32) off5, View.ld_unit_zero (S := S1x32) off5]

/-! ## The arrays -/

/-- The arrays of the region as it finds them, typed by their shapes: agg, x, W_rel, W_root, b (window order). -/
abbrev aArr5 (c : Dev nD) : S100000x32.Idx → EReal := V c (Pipeline.arrRef spec5 0)
abbrev xArr5 (c : Dev nD) : S100000x32.Idx → EReal := V c (Pipeline.arrRef spec5 1)
abbrev wrArr5 (c : Dev nD) : S32x32.Idx → EReal := V c (Pipeline.arrRef spec5 2)
abbrev woArr5 (c : Dev nD) : S32x32.Idx → EReal := V c (Pipeline.arrRef spec5 3)
abbrev bArr5 (c : Dev nD) : S1x32.Idx → EReal := V c (Pipeline.arrRef spec5 4)

/-- Y as a function of the operand arrays (window order: agg, x, W_rel, W_root, b). -/
def f5_5 (A X : S100000x32.Idx → EReal) (Wr Wo : S32x32.Idx → EReal) (B : S1x32.Idx → EReal) : S100000x32.Idx → EReal :=
  fun i => ((∑ j : Fin 32, A (ix2 (i 0) j) * Wr (ix2 j (i 1))) + (∑ j : Fin 32, X (ix2 (i 0) j) * Wo (ix2 j (i 1)))) + B (ix2 (0 : Fin 1) (i 1))
/-- The column sums of Y over all rows, and of its squares. -/
def f5_6 (A X : S100000x32.Idx → EReal) (Wr Wo : S32x32.Idx → EReal) (B : S1x32.Idx → EReal) : S1x32.Idx → EReal :=
  fun i => ∑ r : Fin 100000, f5_5 A X Wr Wo B (ix2 r (i 1))
def f5_7 (A X : S100000x32.Idx → EReal) (Wr Wo : S32x32.Idx → EReal) (B : S1x32.Idx → EReal) : S1x32.Idx → EReal :=
  fun i => ∑ r : Fin 100000, f5_5 A X Wr Wo B (ix2 r (i 1)) * f5_5 A X Wr Wo B (ix2 r (i 1))

theorem f5_5_apply (A X : S100000x32.Idx → EReal) (Wr Wo : S32x32.Idx → EReal) (B : S1x32.Idx → EReal) (i : Fin 100000) (k : Fin 32) :
    f5_5 A X Wr Wo B (ix2 i k) = ((∑ j : Fin 32, A (ix2 i j) * Wr (ix2 j k)) + (∑ j : Fin 32, X (ix2 i j) * Wo (ix2 j k))) + B (ix2 (0 : Fin 1) k) := rfl
theorem f5_6_apply (A X : S100000x32.Idx → EReal) (Wr Wo : S32x32.Idx → EReal) (B : S1x32.Idx → EReal) (k : Fin 32) :
    f5_6 A X Wr Wo B (ix2 (0 : Fin 1) k) = ∑ i : Fin 100000, f5_5 A X Wr Wo B (ix2 i k) := rfl
theorem f5_7_apply (A X : S100000x32.Idx → EReal) (Wr Wo : S32x32.Idx → EReal) (B : S1x32.Idx → EReal) (k : Fin 32) :
    f5_7 A X Wr Wo B (ix2 (0 : Fin 1) k) = ∑ i : Fin 100000, f5_5 A X Wr Wo B (ix2 i k) * f5_5 A X Wr Wo B (ix2 i k) := rfl

/-! ## From blocks to arrays -/

/-- The block index maps over the grid: agg, x and Y move down the rows with the point; the rest stay. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-- Row `p` of block `t` is row `5000 t + p` of the array. -/
def row5 (t : Fin cfg5.N) (p : Fin 5000) : Fin 100000 :=
  ⟨t.val * 5000 + p.val, by have h : t.val < 20 := lt_of_lt_of_eq t.isLt N_5; have := p.isLt; omega⟩

theorem emb5_0 (t : Fin cfg5.N) (p : Fin 5000) (j : Fin 32) : ((cfg5.win 0).blk t).view.emb (ix2 p j) = ix2 (row5 t p) j := by
  obtain ⟨ha, hb, -⟩ := idx_facts5 t
  funext ax; apply Fin.ext
  match ax with
  | ⟨0, _⟩ => show win5_0.index t (0 : Fin 2) * 5000 + 1 * p.val = t.val * 5000 + p.val; omega
  | ⟨1, _⟩ => show win5_0.index t (1 : Fin 2) * 32 + 1 * j.val = j.val; omega
theorem emb5_1 (t : Fin cfg5.N) (p : Fin 5000) (j : Fin 32) : ((cfg5.win 1).blk t).view.emb (ix2 p j) = ix2 (row5 t p) j := by
  obtain ⟨-, -, ha, hb, -⟩ := idx_facts5 t
  funext ax; apply Fin.ext
  match ax with
  | ⟨0, _⟩ => show win5_1.index t (0 : Fin 2) * 5000 + 1 * p.val = t.val * 5000 + p.val; omega
  | ⟨1, _⟩ => show win5_1.index t (1 : Fin 2) * 32 + 1 * j.val = j.val; omega
theorem emb5_2 (t : Fin cfg5.N) (j : Fin 32) (q : Fin 32) : ((cfg5.win 2).blk t).view.emb (ix2 j q) = ix2 j q := by
  obtain ⟨-, -, -, -, ha, hb, -⟩ := idx_facts5 t
  funext ax; apply Fin.ext
  match ax with
  | ⟨0, _⟩ => show win5_2.index t (0 : Fin 2) * 32 + 1 * j.val = j.val; omega
  | ⟨1, _⟩ => show win5_2.index t (1 : Fin 2) * 32 + 1 * q.val = q.val; omega
theorem emb5_3 (t : Fin cfg5.N) (j : Fin 32) (q : Fin 32) : ((cfg5.win 3).blk t).view.emb (ix2 j q) = ix2 j q := by
  obtain ⟨-, -, -, -, -, -, ha, hb, -⟩ := idx_facts5 t
  funext ax; apply Fin.ext
  match ax with
  | ⟨0, _⟩ => show win5_3.index t (0 : Fin 2) * 32 + 1 * j.val = j.val; omega
  | ⟨1, _⟩ => show win5_3.index t (1 : Fin 2) * 32 + 1 * q.val = q.val; omega
theorem emb5_4 (t : Fin cfg5.N) (u : Fin 1) (q : Fin 32) : ((cfg5.win 4).blk t).view.emb (ix2 u q) = ix2 u q := by
  obtain ⟨-, -, -, -, -, -, -, -, ha, hb, -⟩ := idx_facts5 t
  funext ax; apply Fin.ext
  match ax with
  | ⟨0, _⟩ => show win5_4.index t (0 : Fin 2) * 1 + 1 * u.val = u.val; omega
  | ⟨1, _⟩ => show win5_4.index t (1 : Fin 2) * 32 + 1 * q.val = q.val; omega
theorem emb5_5 (t : Fin cfg5.N) (p : Fin 5000) (q : Fin 32) : ((cfg5.win 5).blk t).view.emb (ix2 p q) = ix2 (row5 t p) q := by
  obtain ⟨-, -, -, -, -, -, -, -, -, -, ha, hb, -⟩ := idx_facts5 t
  funext ax; apply Fin.ext
  match ax with
  | ⟨0, _⟩ => show win5_5.index t (0 : Fin 2) * 5000 + 1 * p.val = t.val * 5000 + p.val; omega
  | ⟨1, _⟩ => show win5_5.index t (1 : Fin 2) * 32 + 1 * q.val = q.val; omega
theorem emb5_6 (t : Fin cfg5.N) (u : Fin 1) (q : Fin 32) : ((cfg5.win 6).blk t).view.emb (ix2 u q) = ix2 u q := by
  obtain ⟨-, -, -, -, -, -, -, -, -, -, -, -, ha, hb, -⟩ := idx_facts5 t
  funext ax; apply Fin.ext
  match ax with
  | ⟨0, _⟩ => show win5_6.index t (0 : Fin 2) * 1 + 1 * u.val = u.val; omega
  | ⟨1, _⟩ => show win5_6.index t (1 : Fin 2) * 32 + 1 * q.val = q.val; omega
theorem emb5_7 (t : Fin cfg5.N) (u : Fin 1) (q : Fin 32) : ((cfg5.win 7).blk t).view.emb (ix2 u q) = ix2 u q := by
  obtain ⟨-, -, -, -, -, -, -, -, -, -, -, -, -, -, ha, hb⟩ := idx_facts5 t
  funext ax; apply Fin.ext
  match ax with
  | ⟨0, _⟩ => show win5_7.index t (0 : Fin 2) * 1 + 1 * u.val = u.val; omega
  | ⟨1, _⟩ => show win5_7.index t (1 : Fin 2) * 32 + 1 * q.val = q.val; omega

/-- The Y payload of point `t` at (p, q) is Y of the arrays at row `5000 t + p`, column `q`. -/
theorem y5_at (c : Dev nD) (t : Fin cfg5.N) (p : Fin 5000) (q : Fin 32) :
    k5_pay4 (iblk5 V c 0 t) (iblk5 V c 1 t) (iblk5 V c 2 t) (iblk5 V c 3 t) (iblk5 V c 4 t) (ix2 p q) = f5_5 (aArr5 V c) (xArr5 V c) (wrArr5 V c) (woArr5 V c) (bArr5 V c) (ix2 (row5 t p) q) := by
  rw [payload5_4_apply, f5_5_apply]
  refine congrArg₂ (· + ·) (congrArg₂ (· + ·) (Finset.sum_congr rfl fun j _ => ?_) (Finset.sum_congr rfl fun j _ => ?_)) ?_
  · show aArr5 V c (((cfg5.win 0).blk t).view.emb (ix2 p j)) * wrArr5 V c (((cfg5.win 2).blk t).view.emb (ix2 j q)) = _
    rw [emb5_0, emb5_2]
  · show xArr5 V c (((cfg5.win 1).blk t).view.emb (ix2 p j)) * woArr5 V c (((cfg5.win 3).blk t).view.emb (ix2 j q)) = _
    rw [emb5_1, emb5_3]
  · show bArr5 V c (((cfg5.win 4).blk t).view.emb (ix2 (0 : Fin 1) q)) = _
    rw [emb5_4]

/-- What point `t` writes back to the Y window is row block `t` of Y of the arrays as the region finds them. -/
theorem flushed5_5_eq (c : Dev nD) (t : Fin cfg5.N) :
    (dat5 V c).flushed 5 t = ((cfg5.win 5).blk t).view.read (Elt Ideal) (f5_5 (aArr5 V c) (xArr5 V c) (wrArr5 V c) (woArr5 V c) (bArr5 V c)) := by
  show (cfg5.win 5).cut (grid5.coords t) ((dat5 V c).after 5 t) = _
  rw [after5_5]
  funext y
  obtain ⟨p, q, rfl⟩ : ∃ (p : Fin 5000) (q : Fin 32), y = ix2 p q := ⟨y 0, y 1, eq_ix2 y⟩
  show out5_5 (iblk5 V c 0 t) (iblk5 V c 1 t) (iblk5 V c 2 t) (iblk5 V c 3 t) (iblk5 V c 4 t) (ix2 p q) = f5_5 (aArr5 V c) (xArr5 V c) (wrArr5 V c) (woArr5 V c) (bArr5 V c) (((cfg5.win 5).blk t).view.emb (ix2 p q))
  rw [out5_5_apply, emb5_5, y5_at]

theorem mem_blk5_5 (t : Fin cfg5.N) (i : S100000x32.Idx) :
    i ∈ ((cfg5.win 5).blk t).view.set ↔ ∀ a : Fin 2, win5_5.index t a * S5000x32.size a ≤ (i a).val ∧ (i a).val < win5_5.index t a * S5000x32.size a + S5000x32.size a := by
  show i ∈ ((View.whole main_v100_0).slice (win5_5.rect t)).set ↔ _
  rw [View.set_slice_whole, Rect.mem_set_unit]
  exact Iff.rfl

/-- Every row of the Y array is in the block of the point numbered by the row's quotient by 5000. -/
theorem acover5_5 (i : S100000x32.Idx) :
    ∃ t : Fin cfg5.N, (cfg5.win 5).flush t = true ∧ i ∈ ((cfg5.win 5).blk t).view.set := by
  have hi0 : (i 0).val < 100000 := (i 0).isLt
  have hi1 : (i 1).val < 32 := (i 1).isLt
  let t : Fin cfg5.N := ⟨(i 0).val / 5000, by show (i 0).val / 5000 < 20; omega⟩
  obtain ⟨-, -, -, -, -, -, -, -, -, -, ha, hb, -⟩ := idx_facts5 t
  have ht : t.val = (i 0).val / 5000 := rfl
  refine ⟨t, flush5_5 t, ?_⟩
  rw [mem_blk5_5]
  intro ax
  match ax with
  | ⟨0, _⟩ => show win5_5.index t (0 : Fin 2) * 5000 ≤ (i 0).val ∧ (i 0).val < win5_5.index t (0 : Fin 2) * 5000 + 5000; omega
  | ⟨1, _⟩ => show win5_5.index t (1 : Fin 2) * 32 ≤ (i 1).val ∧ (i 1).val < win5_5.index t (1 : Fin 2) * 32 + 32; omega

/-- The Y array after the region. -/
theorem final5_5 (c : Dev nD) : (dat5 V c).arrAt 5 cfg5.N = f5_5 (aArr5 V c) (xArr5 V c) (wrArr5 V c) (woArr5 V c) (bArr5 V c) :=
  (dat5 V c).arrAt_eq_of_cover 5 (f5_5 (aArr5 V c) (xArr5 V c) (wrArr5 V c) (woArr5 V c) (bArr5 V c)) (fun t _ => flushed5_5_eq V c t) acover5_5

/-! ## The sum rows -/

/-- The column sums of point `t`'s block of Y, and of its squares. -/
def col5 (c : Dev nD) (t : Fin cfg5.N) (q : Fin 32) : EReal := ∑ p : Fin 5000, k5_pay4 (iblk5 V c 0 t) (iblk5 V c 1 t) (iblk5 V c 2 t) (iblk5 V c 3 t) (iblk5 V c 4 t) (ix2 p q)
def colsq5 (c : Dev nD) (t : Fin cfg5.N) (q : Fin 32) : EReal :=
  ∑ p : Fin 5000, k5_pay4 (iblk5 V c 0 t) (iblk5 V c 1 t) (iblk5 V c 2 t) (iblk5 V c 3 t) (iblk5 V c 4 t) (ix2 p q) * k5_pay4 (iblk5 V c 0 t) (iblk5 V c 1 t) (iblk5 V c 2 t) (iblk5 V c 3 t) (iblk5 V c 4 t) (ix2 p q)

/-- The scratch rows after point `n` hold the sums over the points so far of their blocks' column sums. -/
theorem acc5_s_eq (c : Dev nD) : ∀ (n : ℕ) (hn : n < cfg5.N) (u : Fin 1) (q : Fin 32),
    (accAt5 V c n hn).1 (ix2 u q) = ∑ t : Fin (n + 1), col5 V c ⟨t.val, lt_of_lt_of_le t.isLt hn⟩ q := by
  intro n
  induction n with
  | zero =>
    intro hn u q
    have h := accAt5_zero V c ⟨0, hn⟩ rfl
    rw [show accAt5 V c 0 hn = _ from h]
    dsimp only
    rw [sum5_apply, zero5_s_apply, zero_add]
    exact (Fin.sum_univ_one (fun t : Fin 1 => col5 V c ⟨t.val, lt_of_lt_of_le t.isLt hn⟩ q)).symm
  | succ n ih =>
    intro hn u q
    have h := accAt5_pos V c ⟨n + 1, hn⟩ (Nat.succ_ne_zero n)
    rw [show accAt5 V c (n + 1) hn = _ from h]
    dsimp only
    rw [sum5_apply]
    conv_rhs => rw [Fin.sum_univ_castSucc]
    refine congrArg₂ (· + ·) ?_ rfl
    exact ih (Nat.lt_of_succ_lt hn) u q

theorem acc5_q_eq (c : Dev nD) : ∀ (n : ℕ) (hn : n < cfg5.N) (u : Fin 1) (q : Fin 32),
    (accAt5 V c n hn).2 (ix2 u q) = ∑ t : Fin (n + 1), colsq5 V c ⟨t.val, lt_of_lt_of_le t.isLt hn⟩ q := by
  intro n
  induction n with
  | zero =>
    intro hn u q
    have h := accAt5_zero V c ⟨0, hn⟩ rfl
    rw [show accAt5 V c 0 hn = _ from h]
    dsimp only
    rw [sq5_apply, zero5_q_apply, zero_add]
    exact (Fin.sum_univ_one (fun t : Fin 1 => colsq5 V c ⟨t.val, lt_of_lt_of_le t.isLt hn⟩ q)).symm
  | succ n ih =>
    intro hn u q
    have h := accAt5_pos V c ⟨n + 1, hn⟩ (Nat.succ_ne_zero n)
    rw [show accAt5 V c (n + 1) hn = _ from h]
    dsimp only
    rw [sq5_apply]
    conv_rhs => rw [Fin.sum_univ_castSucc]
    refine congrArg₂ (· + ·) ?_ rfl
    exact ih (Nat.lt_of_succ_lt hn) u q

/-- The sum over the twenty points of the blocks' column sums is the sum over all rows. -/
theorem col5_total (c : Dev nD) (q : Fin 32) (hN : ∀ t : Fin 20, t.val < cfg5.N) :
    ∑ t : Fin 20, col5 V c ⟨t.val, hN t⟩ q = ∑ r : Fin 100000, f5_5 (aArr5 V c) (xArr5 V c) (wrArr5 V c) (woArr5 V c) (bArr5 V c) (ix2 r q) := by
  have hE : (20 * 5000 : ℕ) = 100000 := by norm_num
  refine Eq.trans ?_ (Equiv.sum_comp (finCongr hE) (fun r : Fin 100000 => f5_5 (aArr5 V c) (xArr5 V c) (wrArr5 V c) (woArr5 V c) (bArr5 V c) (ix2 r q)))
  refine Eq.trans ?_ (Cert.Math.sum_fin_blocks (m := 20) (n := 5000) (fun i => f5_5 (aArr5 V c) (xArr5 V c) (wrArr5 V c) (woArr5 V c) (bArr5 V c) (ix2 (finCongr hE i) q))).symm
  refine Finset.sum_congr rfl fun t _ => ?_
  unfold col5
  refine Finset.sum_congr rfl fun p _ => ?_
  rw [y5_at]
  exact congrArg (fun r : Fin 100000 => f5_5 (aArr5 V c) (xArr5 V c) (wrArr5 V c) (woArr5 V c) (bArr5 V c) (ix2 r q)) (Fin.ext rfl)

theorem colsq5_total (c : Dev nD) (q : Fin 32) (hN : ∀ t : Fin 20, t.val < cfg5.N) :
    ∑ t : Fin 20, colsq5 V c ⟨t.val, hN t⟩ q = ∑ r : Fin 100000, f5_5 (aArr5 V c) (xArr5 V c) (wrArr5 V c) (woArr5 V c) (bArr5 V c) (ix2 r q) * f5_5 (aArr5 V c) (xArr5 V c) (wrArr5 V c) (woArr5 V c) (bArr5 V c) (ix2 r q) := by
  have hE : (20 * 5000 : ℕ) = 100000 := by norm_num
  refine Eq.trans ?_ (Equiv.sum_comp (finCongr hE) (fun r : Fin 100000 => f5_5 (aArr5 V c) (xArr5 V c) (wrArr5 V c) (woArr5 V c) (bArr5 V c) (ix2 r q) * f5_5 (aArr5 V c) (xArr5 V c) (wrArr5 V c) (woArr5 V c) (bArr5 V c) (ix2 r q)))
  refine Eq.trans ?_ (Cert.Math.sum_fin_blocks (m := 20) (n := 5000) (fun i => f5_5 (aArr5 V c) (xArr5 V c) (wrArr5 V c) (woArr5 V c) (bArr5 V c) (ix2 (finCongr hE i) q) * f5_5 (aArr5 V c) (xArr5 V c) (wrArr5 V c) (woArr5 V c) (bArr5 V c) (ix2 (finCongr hE i) q))).symm
  refine Finset.sum_congr rfl fun t _ => ?_
  unfold colsq5
  refine Finset.sum_congr rfl fun p _ => ?_
  rw [y5_at]
  exact congrArg (fun r : Fin 100000 => f5_5 (aArr5 V c) (xArr5 V c) (wrArr5 V c) (woArr5 V c) (bArr5 V c) (ix2 r q) * f5_5 (aArr5 V c) (xArr5 V c) (wrArr5 V c) (woArr5 V c) (bArr5 V c) (ix2 r q)) (Fin.ext rfl)

theorem mem_blk5_6 (t : Fin cfg5.N) (i : S1x32.Idx) :
    i ∈ ((cfg5.win 6).blk t).view.set ↔ ∀ a : Fin 2, win5_6.index t a * S1x32.size a ≤ (i a).val ∧ (i a).val < win5_6.index t a * S1x32.size a + S1x32.size a := by
  show i ∈ ((View.whole main_v100_1).slice (win5_6.rect t)).set ↔ _
  rw [View.set_slice_whole, Rect.mem_set_unit]
  exact Iff.rfl

set_option maxRecDepth 200000 in
/-- What the last point writes back to window 6: the sums over all rows. -/
theorem flushed5_6_eq (c : Dev nD) (t : Fin cfg5.N) (ht : (cfg5.win 6).flush t = true) :
    (dat5 V c).flushed 6 t = ((cfg5.win 6).blk t).view.read (Elt Ideal) (f5_6 (aArr5 V c) (xArr5 V c) (wrArr5 V c) (woArr5 V c) (bArr5 V c)) := by
  have hlast : t.val = 19 := by
    have h := (flush5_6 t).mp ht
    have hlt : t.val < 20 := lt_of_lt_of_eq t.isLt N_5
    omega
  have hs : ∀ (u : Fin 1) (q : Fin 32), (accAt5 V c t.val t.isLt).1 (ix2 u q) = f5_6 (aArr5 V c) (xArr5 V c) (wrArr5 V c) (woArr5 V c) (bArr5 V c) (ix2 u q) := by
    intro u q
    rw [acc5_s_eq]
    obtain ⟨tv, htv⟩ := t
    obtain rfl : tv = 19 := hlast
    exact col5_total V c q (fun t => lt_of_lt_of_eq t.isLt N_5.symm)
  show (cfg5.win 6).cut (grid5.coords t) ((dat5 V c).after 6 t) = _
  rw [after5_6, out5_6_eq]
  generalize (accAt5 V c t.val t.isLt).1 = s at hs ⊢
  funext y
  obtain ⟨u, q, rfl⟩ : ∃ (u : Fin 1) (q : Fin 32), y = ix2 u q := ⟨y 0, y 1, eq_ix2 y⟩
  show s (ix2 u q) = f5_6 (aArr5 V c) (xArr5 V c) (wrArr5 V c) (woArr5 V c) (bArr5 V c) (((cfg5.win 6).blk t).view.emb (ix2 u q))
  rw [emb5_6, hs]

/-- The one row of window 6's array is in the last point's block. -/
theorem acover5_6 (i : S1x32.Idx) :
    ∃ t : Fin cfg5.N, (cfg5.win 6).flush t = true ∧ i ∈ ((cfg5.win 6).blk t).view.set := by
  have hi0 : (i 0).val < 1 := (i 0).isLt
  have hi1 : (i 1).val < 32 := (i 1).isLt
  let t : Fin cfg5.N := ⟨19, by show 19 < 20; omega⟩
  obtain ⟨-, -, -, -, -, -, -, -, -, -, -, -, ha, hb, -⟩ := idx_facts5 t
  refine ⟨t, (flush5_6 t).mpr rfl, ?_⟩
  rw [mem_blk5_6]
  intro ax
  match ax with
  | ⟨0, _⟩ => show win5_6.index t (0 : Fin 2) * 1 ≤ (i 0).val ∧ (i 0).val < win5_6.index t (0 : Fin 2) * 1 + 1; omega
  | ⟨1, _⟩ => show win5_6.index t (1 : Fin 2) * 32 ≤ (i 1).val ∧ (i 1).val < win5_6.index t (1 : Fin 2) * 32 + 32; omega

/-- Window 6's array after the region. -/
theorem final5_6 (c : Dev nD) : (dat5 V c).arrAt 6 cfg5.N = f5_6 (aArr5 V c) (xArr5 V c) (wrArr5 V c) (woArr5 V c) (bArr5 V c) :=
  (dat5 V c).arrAt_eq_of_cover 6 (f5_6 (aArr5 V c) (xArr5 V c) (wrArr5 V c) (woArr5 V c) (bArr5 V c)) (fun t ht => flushed5_6_eq V c t ht) acover5_6

theorem mem_blk5_7 (t : Fin cfg5.N) (i : S1x32.Idx) :
    i ∈ ((cfg5.win 7).blk t).view.set ↔ ∀ a : Fin 2, win5_7.index t a * S1x32.size a ≤ (i a).val ∧ (i a).val < win5_7.index t a * S1x32.size a + S1x32.size a := by
  show i ∈ ((View.whole main_v100_2).slice (win5_7.rect t)).set ↔ _
  rw [View.set_slice_whole, Rect.mem_set_unit]
  exact Iff.rfl

set_option maxRecDepth 200000 in
/-- What the last point writes back to window 7: the sums over all rows. -/
theorem flushed5_7_eq (c : Dev nD) (t : Fin cfg5.N) (ht : (cfg5.win 7).flush t = true) :
    (dat5 V c).flushed 7 t = ((cfg5.win 7).blk t).view.read (Elt Ideal) (f5_7 (aArr5 V c) (xArr5 V c) (wrArr5 V c) (woArr5 V c) (bArr5 V c)) := by
  have hlast : t.val = 19 := by
    have h := (flush5_7 t).mp ht
    have hlt : t.val < 20 := lt_of_lt_of_eq t.isLt N_5
    omega
  have hs : ∀ (u : Fin 1) (q : Fin 32), (accAt5 V c t.val t.isLt).2 (ix2 u q) = f5_7 (aArr5 V c) (xArr5 V c) (wrArr5 V c) (woArr5 V c) (bArr5 V c) (ix2 u q) := by
    intro u q
    rw [acc5_q_eq]
    obtain ⟨tv, htv⟩ := t
    obtain rfl : tv = 19 := hlast
    exact colsq5_total V c q (fun t => lt_of_lt_of_eq t.isLt N_5.symm)
  show (cfg5.win 7).cut (grid5.coords t) ((dat5 V c).after 7 t) = _
  rw [after5_7, out5_6_eq]
  generalize (accAt5 V c t.val t.isLt).2 = s at hs ⊢
  funext y
  obtain ⟨u, q, rfl⟩ : ∃ (u : Fin 1) (q : Fin 32), y = ix2 u q := ⟨y 0, y 1, eq_ix2 y⟩
  show s (ix2 u q) = f5_7 (aArr5 V c) (xArr5 V c) (wrArr5 V c) (woArr5 V c) (bArr5 V c) (((cfg5.win 7).blk t).view.emb (ix2 u q))
  rw [emb5_7, hs]

/-- The one row of window 7's array is in the last point's block. -/
theorem acover5_7 (i : S1x32.Idx) :
    ∃ t : Fin cfg5.N, (cfg5.win 7).flush t = true ∧ i ∈ ((cfg5.win 7).blk t).view.set := by
  have hi0 : (i 0).val < 1 := (i 0).isLt
  have hi1 : (i 1).val < 32 := (i 1).isLt
  let t : Fin cfg5.N := ⟨19, by show 19 < 20; omega⟩
  obtain ⟨-, -, -, -, -, -, -, -, -, -, -, -, -, -, ha, hb⟩ := idx_facts5 t
  refine ⟨t, (flush5_7 t).mpr rfl, ?_⟩
  rw [mem_blk5_7]
  intro ax
  match ax with
  | ⟨0, _⟩ => show win5_7.index t (0 : Fin 2) * 1 ≤ (i 0).val ∧ (i 0).val < win5_7.index t (0 : Fin 2) * 1 + 1; omega
  | ⟨1, _⟩ => show win5_7.index t (1 : Fin 2) * 32 ≤ (i 1).val ∧ (i 1).val < win5_7.index t (1 : Fin 2) * 32 + 32; omega

/-- Window 7's array after the region. -/
theorem final5_7 (c : Dev nD) : (dat5 V c).arrAt 7 cfg5.N = f5_7 (aArr5 V c) (xArr5 V c) (wrArr5 V c) (woArr5 V c) (bArr5 V c) :=
  (dat5 V c).arrAt_eq_of_cover 7 (f5_7 (aArr5 V c) (xArr5 V c) (wrArr5 V c) (woArr5 V c) (bArr5 V c)) (fun t ht => flushed5_7_eq V c t ht) acover5_7

end Cert.KernelIdeal.Hand

end
-- ==== Proof.V6.lean ====
import proofs.«403053_j58033598104012_3_alg».proof.Proof.R6
import proofs.«403053_j58033598104012_3_alg».proof.Proof.VLaws
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 6 at the ideal values: the output array is ELU of the normalised y, entry by entry -/

/-- The arrays of the region as it finds them, and the output array as it leaves it, typed by their shapes. -/
abbrev yArr6 (c : Dev nD) : S25000x128.Idx → EReal := V c (Pipeline.arrRef spec6 0)
abbrev meanArr6 (c : Dev nD) : S1x128.Idx → EReal := V c (Pipeline.arrRef spec6 1)
abbrev varArr6 (c : Dev nD) : S1x128.Idx → EReal := V c (Pipeline.arrRef spec6 2)
abbrev gammaArr6 (c : Dev nD) : S1x128.Idx → EReal := V c (Pipeline.arrRef spec6 3)
abbrev betaArr6 (c : Dev nD) : S1x128.Idx → EReal := V c (Pipeline.arrRef spec6 4)
abbrev res6 (c : Dev nD) : S25000x128.Idx → EReal := (dat6 V c).arrAt 5 cfg6.N

/-- A row vector broadcast down the block's rows reads, at (p, q), its entry q. -/
theorem bcastRow6 {α : Type} (x : S1x128.Idx → α) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The body's payload at row `p`, column `q` of the block: ELU of (y − mean) · rsqrt(variance + ε) · gamma + beta,
    the four statistics read at column `q`. -/
theorem pay6_apply (x0 : Vec Ideal S5000x128 .f32) (xv xm xg xb : Vec Ideal S1x128 .f32) (p : Fin 5000) (q : Fin 128) :
    k6_pay1 x0 xv xm xg xb (ix2 p q)
      = eluK ((x0 (ix2 p q) - xm (ix2 0 q)) * Ideal.rsqrt (xv (ix2 0 q) + Ideal.ofBits .f32 0x3727C5AC#32) * xg (ix2 0 q) + xb (ix2 0 q)) := by
  unfold k6_pay1
  simp only [shapeCast_self, select_apply, cmpf_apply, subf_apply, mulf_apply, addf_apply, minimumf_apply, exp_apply,
    rsqrt_apply, broadcast_apply, bcastRow6]
  exact select_elu _

/-- Batch normalisation by one row of statistics then ELU, of an array with rows of 128, entry by entry. -/
def bnElu6 (Y : S25000x128.Idx → EReal) (M Vr G B : S1x128.Idx → EReal) : S25000x128.Idx → EReal :=
  fun i => eluK ((Y i - M (ix2 0 (i 1))) * Ideal.rsqrt (Vr (ix2 0 (i 1)) + Ideal.ofBits .f32 0x3727C5AC#32) * G (ix2 0 (i 1)) + B (ix2 0 (i 1)))

/-- Entry (i, k) of `bnElu6`: the statistics read at column `k`. -/
theorem bnElu6_apply (Y : S25000x128.Idx → EReal) (M Vr G B : S1x128.Idx → EReal) (i : Fin 25000) (k : Fin 128) :
    bnElu6 Y M Vr G B (ix2 i k) = eluK ((Y (ix2 i k) - M (ix2 0 k)) * Ideal.rsqrt (Vr (ix2 0 k) + Ideal.ofBits .f32 0x3727C5AC#32) * G (ix2 0 k) + B (ix2 0 k)) := rfl

/-- The block index maps over the grid: y and the output move down the rows with the point, the statistics stay. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

set_option maxHeartbeats 1000000 in
/-- What point `t` writes back is row block `t` of `bnElu6` of the arrays as the region finds them. -/
theorem flushed6_eq (c : Dev nD) (t : Fin cfg6.N) :
    (dat6 V c).flushed 5 t = ((cfg6.win 5).blk t).view.read (Elt Ideal)
      (bnElu6 (yArr6 V c) (meanArr6 V c) (varArr6 V c) (gammaArr6 V c) (betaArr6 V c)) := by
  show (cfg6.win 5).cut (grid6.coords t) ((dat6 V c).after 5 t) = _
  rw [after6_5]
  unfold out6_5
  rw [View.canon_unit_zero zeros2]
  simp only [View.ld_unit_zero (S := S5000x128) zeros2, View.ld_unit_zero (S := S1x128) zeros2]
  obtain ⟨e00, e01, e10, e11, e20, e21, e30, e31, e40, e41, e50, e51⟩ := idx_facts6 t
  funext y
  obtain ⟨p, q, rfl⟩ : ∃ (p : Fin 5000) (q : Fin 128), y = ix2 p q := ⟨y 0, y 1, eq_ix2 y⟩
  show k6_pay1 (iblk6 V c 0 t) (iblk6 V c 2 t) (iblk6 V c 1 t) (iblk6 V c 3 t) (iblk6 V c 4 t) (ix2 p q)
    = bnElu6 (yArr6 V c) (meanArr6 V c) (varArr6 V c) (gammaArr6 V c) (betaArr6 V c) (((cfg6.win 5).blk t).view.emb (ix2 p q))
  rw [pay6_apply]
  unfold bnElu6
  have h0 : ((cfg6.win 0).blk t).view.emb (ix2 p q) = ((cfg6.win 5).blk t).view.emb (ix2 p q) := by
    funext a; apply Fin.ext
    match a with
    | ⟨0, _⟩ => show win6_0.index t (0 : Fin 2) * 5000 + 1 * p.val = win6_5.index t (0 : Fin 2) * 5000 + 1 * p.val; omega
    | ⟨1, _⟩ => show win6_0.index t (1 : Fin 2) * 128 + 1 * q.val = win6_5.index t (1 : Fin 2) * 128 + 1 * q.val; omega
  have h1 : ((cfg6.win 1).blk t).view.emb (ix2 0 q) = ix2 0 (((cfg6.win 5).blk t).view.emb (ix2 p q) 1) := by
    funext a; apply Fin.ext
    match a with
    | ⟨0, _⟩ => show win6_1.index t (0 : Fin 2) * 1 + 1 * 0 = 0; omega
    | ⟨1, _⟩ => show win6_1.index t (1 : Fin 2) * 128 + 1 * q.val = win6_5.index t (1 : Fin 2) * 128 + 1 * q.val; omega
  have h2 : ((cfg6.win 2).blk t).view.emb (ix2 0 q) = ix2 0 (((cfg6.win 5).blk t).view.emb (ix2 p q) 1) := by
    funext a; apply Fin.ext
    match a with
    | ⟨0, _⟩ => show win6_2.index t (0 : Fin 2) * 1 + 1 * 0 = 0; omega
    | ⟨1, _⟩ => show win6_2.index t (1 : Fin 2) * 128 + 1 * q.val = win6_5.index t (1 : Fin 2) * 128 + 1 * q.val; omega
  have h3 : ((cfg6.win 3).blk t).view.emb (ix2 0 q) = ix2 0 (((cfg6.win 5).blk t).view.emb (ix2 p q) 1) := by
    funext a; apply Fin.ext
    match a with
    | ⟨0, _⟩ => show win6_3.index t (0 : Fin 2) * 1 + 1 * 0 = 0; omega
    | ⟨1, _⟩ => show win6_3.index t (1 : Fin 2) * 128 + 1 * q.val = win6_5.index t (1 : Fin 2) * 128 + 1 * q.val; omega
  have h4 : ((cfg6.win 4).blk t).view.emb (ix2 0 q) = ix2 0 (((cfg6.win 5).blk t).view.emb (ix2 p q) 1) := by
    funext a; apply Fin.ext
    match a with
    | ⟨0, _⟩ => show win6_4.index t (0 : Fin 2) * 1 + 1 * 0 = 0; omega
    | ⟨1, _⟩ => show win6_4.index t (1 : Fin 2) * 128 + 1 * q.val = win6_5.index t (1 : Fin 2) * 128 + 1 * q.val; omega
  have r0 : iblk6 V c 0 t (ix2 p q) = yArr6 V c (((cfg6.win 5).blk t).view.emb (ix2 p q)) := congrArg (yArr6 V c) h0
  have r1 : iblk6 V c 1 t (ix2 0 q) = meanArr6 V c (ix2 0 (((cfg6.win 5).blk t).view.emb (ix2 p q) 1)) := congrArg (meanArr6 V c) h1
  have r2 : iblk6 V c 2 t (ix2 0 q) = varArr6 V c (ix2 0 (((cfg6.win 5).blk t).view.emb (ix2 p q) 1)) := congrArg (varArr6 V c) h2
  have r3 : iblk6 V c 3 t (ix2 0 q) = gammaArr6 V c (ix2 0 (((cfg6.win 5).blk t).view.emb (ix2 p q) 1)) := congrArg (gammaArr6 V c) h3
  have r4 : iblk6 V c 4 t (ix2 0 q) = betaArr6 V c (ix2 0 (((cfg6.win 5).blk t).view.emb (ix2 p q) 1)) := congrArg (betaArr6 V c) h4
  rw [r0, r1, r2, r3, r4]

/-- An index of the output array is in point `t`'s block iff each coordinate is in the block's range on its axis. -/
theorem mem_blk6 (t : Fin cfg6.N) (i : S25000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v128).slice (win6_5.rect t)).set ↔ _
  rw [View.set_slice_whole, Rect.mem_set_unit]
  exact Iff.rfl

/-- Every row of the output array is in the block of the point numbered by the row's quotient by 5000. -/
theorem covered6 (i : S25000x128.Idx) :
    ∃ t : Fin cfg6.N, (cfg6.win 5).flush t = true ∧ i ∈ ((cfg6.win 5).blk t).view.set := by
  have hi0 : (i 0).val < 25000 := (i 0).isLt
  have hi1 : (i 1).val < 128 := (i 1).isLt
  let t : Fin cfg6.N := ⟨(i 0).val / 5000, by show (i 0).val / 5000 < 5; omega⟩
  obtain ⟨e00, e01, e10, e11, e20, e21, e30, e31, e40, e41, e50, e51⟩ := idx_facts6 t
  have ht : t.val = (i 0).val / 5000 := rfl
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- The output array after the region: `bnElu6` of the arrays as the region finds them. -/
theorem final6 (c : Dev nD) :
    (dat6 V c).arrAt 5 cfg6.N = bnElu6 (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 _ (fun t _ => flushed6_eq V c t) covered6

/-- Entry (i, k) of the output array after the region. -/
theorem val6 (c : Dev nD) (i : Fin 25000) (k : Fin 128) :
    res6 V c (ix2 i k) = eluK ((yArr6 V c (ix2 i k) - meanArr6 V c (ix2 0 k))
      * Ideal.rsqrt (varArr6 V c (ix2 0 k) + Ideal.ofBits .f32 0x3727C5AC#32) * gammaArr6 V c (ix2 0 k) + betaArr6 V c (ix2 0 k)) :=
  congrFun (final6 V c) (ix2 i k)

end Cert.KernelIdeal.Hand
-- ==== Proof.V7.lean ====
import proofs.«403053_j58033598104012_3_alg».proof.Proof.R7
import proofs.«403053_j58033598104012_3_alg».proof.Proof.MathLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 7 at the ideal values: Y = agg · W_rel + x · W_root + b entry by entry, and the two sum rows as sums
over all rows of Y and of Y² -/

theorem off7 : (![0, 0] : Fin 2 → ℕ) = fun _ => 0 := funext fun a => by fin_cases a <;> rfl

/-! ## The payloads at an index -/

/-- A product block at row `p`, column `q`: the inner product of row `p` of the left block and column `q` of the right
    one (rounding to bf16 is the identity on extended reals; the accumulator starts at zero). -/
theorem mm7_apply (l : Vec Ideal S5000x32 .f32) (r : Vec Ideal S32x64 .f32) (p : Fin 5000) (q : Fin 64) :
    FloatOps.matmul (F := Ideal) dot_S5000x32_S32x64_S5000x64_1_0_0_1_n_n none (truncf .bf16 l bitsLt_bf16_f32) (truncf .bf16 r bitsLt_bf16_f32)
      (constant S5000x64 .f32 0x00000000#32) (ix2 p q) = ∑ j : Fin 32, l (ix2 p j) * r (ix2 j q) := by
  rw [Ideal.matmul_constant_zero_apply,
    ← Equiv.sum_comp (contrEquiv1 dot_S5000x32_S32x64_S5000x64_1_0_0_1_n_n 32 rfl rfl).symm]
  refine Finset.sum_congr rfl fun j _ => ?_
  have cj := contrEquiv1_symm_val dot_S5000x32_S32x64_S5000x64_1_0_0_1_n_n 32 rfl rfl j
  have hl : dot_S5000x32_S32x64_S5000x64_1_0_0_1_n_n.lhsIdx (ix2 p q) ((contrEquiv1 _ 32 rfl rfl).symm j) = ix2 p j := by
    funext ax; apply Fin.ext
    match ax with
    | ⟨0, _⟩ => rfl
    | ⟨1, _⟩ => exact cj
  have hr : dot_S5000x32_S32x64_S5000x64_1_0_0_1_n_n.rhsIdx (ix2 p q) ((contrEquiv1 _ 32 rfl rfl).symm j) = ix2 j q := by
    funext ax; apply Fin.ext
    match ax with
    | ⟨0, _⟩ => exact cj
    | ⟨1, _⟩ => rfl
  rw [hl, hr]
  rfl

/-- The Y payload at row `p`, column `q` of the block: the two inner products added, then the bias row at `q` — in the
    body's order of the additions. -/
theorem payload7_4_apply (xa xb : Vec Ideal S5000x32 .f32) (xc xd : Vec Ideal S32x64 .f32) (xe : Vec Ideal S1x64 .f32) (p : Fin 5000) (q : Fin 64) :
    k7_pay4 xa xb xc xd xe (ix2 p q)
      = ((∑ j : Fin 32, xa (ix2 p j) * xc (ix2 j q)) + (∑ j : Fin 32, xb (ix2 p j) * xd (ix2 j q))) + xe (ix2 (0 : Fin 1) q) := by
  unfold k7_pay4
  show (FloatOps.matmul (F := Ideal) dot_S5000x32_S32x64_S5000x64_1_0_0_1_n_n none (truncf .bf16 (shapeCast S5000x32 xa shapeCasts_S5000x32_S5000x32) bitsLt_bf16_f32) (truncf .bf16 xc bitsLt_bf16_f32)
        (constant S5000x64 .f32 0x00000000#32) (ix2 p q)
      + FloatOps.matmul (F := Ideal) dot_S5000x32_S32x64_S5000x64_1_0_0_1_n_n none (truncf .bf16 (shapeCast S5000x32 xb shapeCasts_S5000x32_S5000x32) bitsLt_bf16_f32) (truncf .bf16 xd bitsLt_bf16_f32)
        (constant S5000x64 .f32 0x00000000#32) (ix2 p q))
      + broadcastTo S5000x64 (shapeCast S1x64 xe shapeCasts_S1x64_S1x64) broadcasts_S1x64_S5000x64 (ix2 p q) = _
  rw [shapeCast_self, shapeCast_self, shapeCast_self, mm7_apply, mm7_apply, broadcastTo_1b_ab_apply]

/-- The zero rows the first point stores. -/
theorem payload7_2_apply (i : S1x64.Idx) : k7_pay2 (F := Ideal) i = 0 := by
  unfold k7_pay2
  show shapeCast S1x64 (broadcast S1x64 _) shapeCasts_S1x64_S1x64 i = 0
  rw [shapeCast_self]
  exact Ideal.ofBits_zero_f32
theorem payload7_3_apply (i : S1x64.Idx) : k7_pay3 (F := Ideal) i = 0 := by
  unfold k7_pay3
  show shapeCast S1x64 (broadcast S1x64 _) shapeCasts_S1x64_S1x64 i = 0
  rw [shapeCast_self]
  exact Ideal.ofBits_zero_f32

/-- The index a column sum reads: row `k` of column `q`. -/
theorem lift7 (q : Fin 64) (k : Fin 5000) : reduces_S5000x64_S64.lift (ix1 q) k = ix2 k q := by
  funext ax; apply Fin.ext
  match ax with
  | ⟨0, _⟩ => rfl
  | ⟨1, _⟩ => rfl

/-- The first scratch row's payload: the row read plus the column sums of the Y payload. -/
theorem payload7_5_apply (xa xb : Vec Ideal S5000x32 .f32) (xc xd : Vec Ideal S32x64 .f32) (xe : Vec Ideal S1x64 .f32) (s : Vec Ideal S1x64 .f32) (u : Fin 1) (q : Fin 64) :
    k7_pay5 xa xb xc xd xe s (ix2 u q) = s (ix2 u q) + ∑ p : Fin 5000, k7_pay4 xa xb xc xd xe (ix2 p q) := by
  unfold k7_pay5
  show shapeCast S1x64 (addf s (shapeCast S1x64 (multiReduction .add [0] S64 (k7_pay4 xa xb xc xd xe) 0x00000000#32 reduces_S5000x64_S64 (.inl rfl) rfl) shapeCasts_S64_S1x64)) shapeCasts_S1x64_S1x64 (ix2 u q) = _
  rw [shapeCast_self]
  show s (ix2 u q) + shapeCast S1x64 (multiReduction .add [0] S64 (k7_pay4 xa xb xc xd xe) 0x00000000#32 reduces_S5000x64_S64 (.inl rfl) rfl) shapeCasts_S64_S1x64 (ix2 u q) = _
  rw [shapeCast_a_1a_apply]
  refine congrArg (s (ix2 u q) + ·) ?_
  exact (Ideal.multiReduction_add_single (k7_pay4 xa xb xc xd xe) _ reduces_S5000x64_S64 _ _ (ix1 q)).trans
    (Finset.sum_congr rfl fun k _ => congrArg (k7_pay4 xa xb xc xd xe) (lift7 q k))

/-- The column sums of the squares of the Y payload. -/
theorem payload7_6_apply (xa xb : Vec Ideal S5000x32 .f32) (xc xd : Vec Ideal S32x64 .f32) (xe : Vec Ideal S1x64 .f32) (u : Fin 1) (q : Fin 64) :
    k7_pay6 xa xb xc xd xe (ix2 u q) = ∑ p : Fin 5000, k7_pay4 xa xb xc xd xe (ix2 p q) * k7_pay4 xa xb xc xd xe (ix2 p q) := by
  unfold k7_pay6
  show shapeCast S1x64 (multiReduction .add [0] S64 (mulf (k7_pay4 xa xb xc xd xe) (k7_pay4 xa xb xc xd xe)) 0x00000000#32 reduces_S5000x64_S64 (.inl rfl) rfl) shapeCasts_S64_S1x64 (ix2 u q) = _
  rw [shapeCast_a_1a_apply]
  exact (Ideal.multiReduction_add_single (mulf (k7_pay4 xa xb xc xd xe) (k7_pay4 xa xb xc xd xe)) _ reduces_S5000x64_S64 _ _ (ix1 q)).trans
    (Finset.sum_congr rfl fun k _ => congrArg (mulf (k7_pay4 xa xb xc xd xe) (k7_pay4 xa xb xc xd xe)) (lift7 q k))

/-- The second scratch row's payload: the row read plus the other row. -/
theorem payload7_1_apply (s : Vec Ideal S1x64 .f32) (w : FVec Ideal S1x64 .f32) (i : S1x64.Idx) : k7_pay1 s w i = s i + w i := by
  unfold k7_pay1
  show shapeCast S1x64 (addf (s : FVec Ideal S1x64 .f32) w) shapeCasts_S1x64_S1x64 i = _
  rw [shapeCast_self]
  rfl

/-! ## The closed forms of the frame at an index -/

theorem out7_6_eq (s : Vec Ideal S1x64 .f32) : out7_6 s = s := by
  unfold out7_6
  rw [View.canon_unit_zero off7, View.ld_unit_zero off7]

theorem zero7_s_apply (i : S1x64.Idx) : zero7_s (F := Ideal) i = 0 := by
  unfold zero7_s
  rw [View.canon_unit_zero off7]
  exact payload7_2_apply i
theorem zero7_q_apply (i : S1x64.Idx) : zero7_q (F := Ideal) i = 0 := by
  unfold zero7_q
  rw [View.canon_unit_zero off7]
  exact payload7_3_apply i

theorem sum7_apply (xa xb : Vec Ideal S5000x32 .f32) (xc xd : Vec Ideal S32x64 .f32) (xe : Vec Ideal S1x64 .f32) (s : Vec Ideal S1x64 .f32) (u : Fin 1) (q : Fin 64) :
    sum7 xa xb xc xd xe s (ix2 u q) = s (ix2 u q) + ∑ p : Fin 5000, k7_pay4 xa xb xc xd xe (ix2 p q) := by
  unfold sum7
  rw [View.canon_unit_zero off7]
  simp only [View.ld_unit_zero (S := S5000x32) off7, View.ld_unit_zero (S := S32x64) off7, View.ld_unit_zero (S := S1x64) off7]
  exact payload7_5_apply xa xb xc xd xe s u q

theorem sq7_apply (xa xb : Vec Ideal S5000x32 .f32) (xc xd : Vec Ideal S32x64 .f32) (xe : Vec Ideal S1x64 .f32) (s : Vec Ideal S1x64 .f32) (u : Fin 1) (q : Fin 64) :
    sq7 xa xb xc xd xe s (ix2 u q) = s (ix2 u q) + ∑ p : Fin 5000, k7_pay4 xa xb xc xd xe (ix2 p q) * k7_pay4 xa xb xc xd xe (ix2 p q) := by
  unfold sq7
  rw [View.canon_unit_zero off7]
  simp only [View.ld_unit_zero (S := S5000x32) off7, View.ld_unit_zero (S := S32x64) off7, View.ld_unit_zero (S := S1x64) off7]
  rw [payload7_1_apply, payload7_6_apply]

theorem out7_5_apply (xa xb : Vec Ideal S5000x32 .f32) (xc xd : Vec Ideal S32x64 .f32) (xe : Vec Ideal S1x64 .f32) (p : Fin 5000) (q : Fin 64) :
    out7_5 xa xb xc xd xe (ix2 p q) = k7_pay4 xa xb xc xd xe (ix2 p q) := by
  unfold out7_5 lin7
  rw [View.canon_unit_zero off7]
  simp only [View.ld_unit_zero (S := S5000x32) off7, View.ld_unit_zero (S := S32x64) off7, View.ld_unit_zero (S := S1x64) off7]

/-! ## The arrays -/

/-- The arrays of the region as it finds them, typed by their shapes: agg, x, W_rel, W_root, b (window order). -/
abbrev aArr7 (c : Dev nD) : S100000x32.Idx → EReal := V c (Pipeline.arrRef spec7 0)
abbrev xArr7 (c : Dev nD) : S100000x32.Idx → EReal := V c (Pipeline.arrRef spec7 1)
abbrev wrArr7 (c : Dev nD) : S32x64.Idx → EReal := V c (Pipeline.arrRef spec7 2)
abbrev woArr7 (c : Dev nD) : S32x64.Idx → EReal := V c (Pipeline.arrRef spec7 3)
abbrev bArr7 (c : Dev nD) : S1x64.Idx → EReal := V c (Pipeline.arrRef spec7 4)

/-- Y as a function of the operand arrays (window order: agg, x, W_rel, W_root, b). -/
def f7_5 (A X : S100000x32.Idx → EReal) (Wr Wo : S32x64.Idx → EReal) (B : S1x64.Idx → EReal) : S100000x64.Idx → EReal :=
  fun i => ((∑ j : Fin 32, A (ix2 (i 0) j) * Wr (ix2 j (i 1))) + (∑ j : Fin 32, X (ix2 (i 0) j) * Wo (ix2 j (i 1)))) + B (ix2 (0 : Fin 1) (i 1))
/-- The column sums of Y over all rows, and of its squares. -/
def f7_6 (A X : S100000x32.Idx → EReal) (Wr Wo : S32x64.Idx → EReal) (B : S1x64.Idx → EReal) : S1x64.Idx → EReal :=
  fun i => ∑ r : Fin 100000, f7_5 A X Wr Wo B (ix2 r (i 1))
def f7_7 (A X : S100000x32.Idx → EReal) (Wr Wo : S32x64.Idx → EReal) (B : S1x64.Idx → EReal) : S1x64.Idx → EReal :=
  fun i => ∑ r : Fin 100000, f7_5 A X Wr Wo B (ix2 r (i 1)) * f7_5 A X Wr Wo B (ix2 r (i 1))

theorem f7_5_apply (A X : S100000x32.Idx → EReal) (Wr Wo : S32x64.Idx → EReal) (B : S1x64.Idx → EReal) (i : Fin 100000) (k : Fin 64) :
    f7_5 A X Wr Wo B (ix2 i k) = ((∑ j : Fin 32, A (ix2 i j) * Wr (ix2 j k)) + (∑ j : Fin 32, X (ix2 i j) * Wo (ix2 j k))) + B (ix2 (0 : Fin 1) k) := rfl
theorem f7_6_apply (A X : S100000x32.Idx → EReal) (Wr Wo : S32x64.Idx → EReal) (B : S1x64.Idx → EReal) (k : Fin 64) :
    f7_6 A X Wr Wo B (ix2 (0 : Fin 1) k) = ∑ i : Fin 100000, f7_5 A X Wr Wo B (ix2 i k) := rfl
theorem f7_7_apply (A X : S100000x32.Idx → EReal) (Wr Wo : S32x64.Idx → EReal) (B : S1x64.Idx → EReal) (k : Fin 64) :
    f7_7 A X Wr Wo B (ix2 (0 : Fin 1) k) = ∑ i : Fin 100000, f7_5 A X Wr Wo B (ix2 i k) * f7_5 A X Wr Wo B (ix2 i k) := rfl

/-! ## From blocks to arrays -/

/-- The block index maps over the grid: agg, x and Y move down the rows with the point; the rest stay. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0 :=
  (by decide +kernel : ∀ t : Fin grid7.N, _)

/-- Row `p` of block `t` is row `5000 t + p` of the array. -/
def row7 (t : Fin cfg7.N) (p : Fin 5000) : Fin 100000 :=
  ⟨t.val * 5000 + p.val, by have h : t.val < 20 := lt_of_lt_of_eq t.isLt N_7; have := p.isLt; omega⟩

theorem emb7_0 (t : Fin cfg7.N) (p : Fin 5000) (j : Fin 32) : ((cfg7.win 0).blk t).view.emb (ix2 p j) = ix2 (row7 t p) j := by
  obtain ⟨ha, hb, -⟩ := idx_facts7 t
  funext ax; apply Fin.ext
  match ax with
  | ⟨0, _⟩ => show win7_0.index t (0 : Fin 2) * 5000 + 1 * p.val = t.val * 5000 + p.val; omega
  | ⟨1, _⟩ => show win7_0.index t (1 : Fin 2) * 32 + 1 * j.val = j.val; omega
theorem emb7_1 (t : Fin cfg7.N) (p : Fin 5000) (j : Fin 32) : ((cfg7.win 1).blk t).view.emb (ix2 p j) = ix2 (row7 t p) j := by
  obtain ⟨-, -, ha, hb, -⟩ := idx_facts7 t
  funext ax; apply Fin.ext
  match ax with
  | ⟨0, _⟩ => show win7_1.index t (0 : Fin 2) * 5000 + 1 * p.val = t.val * 5000 + p.val; omega
  | ⟨1, _⟩ => show win7_1.index t (1 : Fin 2) * 32 + 1 * j.val = j.val; omega
theorem emb7_2 (t : Fin cfg7.N) (j : Fin 32) (q : Fin 64) : ((cfg7.win 2).blk t).view.emb (ix2 j q) = ix2 j q := by
  obtain ⟨-, -, -, -, ha, hb, -⟩ := idx_facts7 t
  funext ax; apply Fin.ext
  match ax with
  | ⟨0, _⟩ => show win7_2.index t (0 : Fin 2) * 32 + 1 * j.val = j.val; omega
  | ⟨1, _⟩ => show win7_2.index t (1 : Fin 2) * 64 + 1 * q.val = q.val; omega
theorem emb7_3 (t : Fin cfg7.N) (j : Fin 32) (q : Fin 64) : ((cfg7.win 3).blk t).view.emb (ix2 j q) = ix2 j q := by
  obtain ⟨-, -, -, -, -, -, ha, hb, -⟩ := idx_facts7 t
  funext ax; apply Fin.ext
  match ax with
  | ⟨0, _⟩ => show win7_3.index t (0 : Fin 2) * 32 + 1 * j.val = j.val; omega
  | ⟨1, _⟩ => show win7_3.index t (1 : Fin 2) * 64 + 1 * q.val = q.val; omega
theorem emb7_4 (t : Fin cfg7.N) (u : Fin 1) (q : Fin 64) : ((cfg7.win 4).blk t).view.emb (ix2 u q) = ix2 u q := by
  obtain ⟨-, -, -, -, -, -, -, -, ha, hb, -⟩ := idx_facts7 t
  funext ax; apply Fin.ext
  match ax with
  | ⟨0, _⟩ => show win7_4.index t (0 : Fin 2) * 1 + 1 * u.val = u.val; omega
  | ⟨1, _⟩ => show win7_4.index t (1 : Fin 2) * 64 + 1 * q.val = q.val; omega
theorem emb7_5 (t : Fin cfg7.N) (p : Fin 5000) (q : Fin 64) : ((cfg7.win 5).blk t).view.emb (ix2 p q) = ix2 (row7 t p) q := by
  obtain ⟨-, -, -, -, -, -, -, -, -, -, ha, hb, -⟩ := idx_facts7 t
  funext ax; apply Fin.ext
  match ax with
  | ⟨0, _⟩ => show win7_5.index t (0 : Fin 2) * 5000 + 1 * p.val = t.val * 5000 + p.val; omega
  | ⟨1, _⟩ => show win7_5.index t (1 : Fin 2) * 64 + 1 * q.val = q.val; omega
theorem emb7_6 (t : Fin cfg7.N) (u : Fin 1) (q : Fin 64) : ((cfg7.win 6).blk t).view.emb (ix2 u q) = ix2 u q := by
  obtain ⟨-, -, -, -, -, -, -, -, -, -, -, -, ha, hb, -⟩ := idx_facts7 t
  funext ax; apply Fin.ext
  match ax with
  | ⟨0, _⟩ => show win7_6.index t (0 : Fin 2) * 1 + 1 * u.val = u.val; omega
  | ⟨1, _⟩ => show win7_6.index t (1 : Fin 2) * 64 + 1 * q.val = q.val; omega
theorem emb7_7 (t : Fin cfg7.N) (u : Fin 1) (q : Fin 64) : ((cfg7.win 7).blk t).view.emb (ix2 u q) = ix2 u q := by
  obtain ⟨-, -, -, -, -, -, -, -, -, -, -, -, -, -, ha, hb⟩ := idx_facts7 t
  funext ax; apply Fin.ext
  match ax with
  | ⟨0, _⟩ => show win7_7.index t (0 : Fin 2) * 1 + 1 * u.val = u.val; omega
  | ⟨1, _⟩ => show win7_7.index t (1 : Fin 2) * 64 + 1 * q.val = q.val; omega

/-- The Y payload of point `t` at (p, q) is Y of the arrays at row `5000 t + p`, column `q`. -/
theorem y7_at (c : Dev nD) (t : Fin cfg7.N) (p : Fin 5000) (q : Fin 64) :
    k7_pay4 (iblk7 V c 0 t) (iblk7 V c 1 t) (iblk7 V c 2 t) (iblk7 V c 3 t) (iblk7 V c 4 t) (ix2 p q) = f7_5 (aArr7 V c) (xArr7 V c) (wrArr7 V c) (woArr7 V c) (bArr7 V c) (ix2 (row7 t p) q) := by
  rw [payload7_4_apply, f7_5_apply]
  refine congrArg₂ (· + ·) (congrArg₂ (· + ·) (Finset.sum_congr rfl fun j _ => ?_) (Finset.sum_congr rfl fun j _ => ?_)) ?_
  · show aArr7 V c (((cfg7.win 0).blk t).view.emb (ix2 p j)) * wrArr7 V c (((cfg7.win 2).blk t).view.emb (ix2 j q)) = _
    rw [emb7_0, emb7_2]
  · show xArr7 V c (((cfg7.win 1).blk t).view.emb (ix2 p j)) * woArr7 V c (((cfg7.win 3).blk t).view.emb (ix2 j q)) = _
    rw [emb7_1, emb7_3]
  · show bArr7 V c (((cfg7.win 4).blk t).view.emb (ix2 (0 : Fin 1) q)) = _
    rw [emb7_4]

/-- What point `t` writes back to the Y window is row block `t` of Y of the arrays as the region finds them. -/
theorem flushed7_5_eq (c : Dev nD) (t : Fin cfg7.N) :
    (dat7 V c).flushed 5 t = ((cfg7.win 5).blk t).view.read (Elt Ideal) (f7_5 (aArr7 V c) (xArr7 V c) (wrArr7 V c) (woArr7 V c) (bArr7 V c)) := by
  show (cfg7.win 5).cut (grid7.coords t) ((dat7 V c).after 5 t) = _
  rw [after7_5]
  funext y
  obtain ⟨p, q, rfl⟩ : ∃ (p : Fin 5000) (q : Fin 64), y = ix2 p q := ⟨y 0, y 1, eq_ix2 y⟩
  show out7_5 (iblk7 V c 0 t) (iblk7 V c 1 t) (iblk7 V c 2 t) (iblk7 V c 3 t) (iblk7 V c 4 t) (ix2 p q) = f7_5 (aArr7 V c) (xArr7 V c) (wrArr7 V c) (woArr7 V c) (bArr7 V c) (((cfg7.win 5).blk t).view.emb (ix2 p q))
  rw [out7_5_apply, emb7_5, y7_at]

theorem mem_blk7_5 (t : Fin cfg7.N) (i : S100000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v145_0).slice (win7_5.rect t)).set ↔ _
  rw [View.set_slice_whole, Rect.mem_set_unit]
  exact Iff.rfl

/-- Every row of the Y array is in the block of the point numbered by the row's quotient by 5000. -/
theorem acover7_5 (i : S100000x64.Idx) :
    ∃ t : Fin cfg7.N, (cfg7.win 5).flush t = true ∧ i ∈ ((cfg7.win 5).blk t).view.set := by
  have hi0 : (i 0).val < 100000 := (i 0).isLt
  have hi1 : (i 1).val < 64 := (i 1).isLt
  let t : Fin cfg7.N := ⟨(i 0).val / 5000, by show (i 0).val / 5000 < 20; omega⟩
  obtain ⟨-, -, -, -, -, -, -, -, -, -, ha, hb, -⟩ := idx_facts7 t
  have ht : t.val = (i 0).val / 5000 := rfl
  refine ⟨t, flush7_5 t, ?_⟩
  rw [mem_blk7_5]
  intro ax
  match ax with
  | ⟨0, _⟩ => show win7_5.index t (0 : Fin 2) * 5000 ≤ (i 0).val ∧ (i 0).val < win7_5.index t (0 : Fin 2) * 5000 + 5000; omega
  | ⟨1, _⟩ => show win7_5.index t (1 : Fin 2) * 64 ≤ (i 1).val ∧ (i 1).val < win7_5.index t (1 : Fin 2) * 64 + 64; omega

/-- The Y array after the region. -/
theorem final7_5 (c : Dev nD) : (dat7 V c).arrAt 5 cfg7.N = f7_5 (aArr7 V c) (xArr7 V c) (wrArr7 V c) (woArr7 V c) (bArr7 V c) :=
  (dat7 V c).arrAt_eq_of_cover 5 (f7_5 (aArr7 V c) (xArr7 V c) (wrArr7 V c) (woArr7 V c) (bArr7 V c)) (fun t _ => flushed7_5_eq V c t) acover7_5

/-! ## The sum rows -/

/-- The column sums of point `t`'s block of Y, and of its squares. -/
def col7 (c : Dev nD) (t : Fin cfg7.N) (q : Fin 64) : EReal := ∑ p : Fin 5000, k7_pay4 (iblk7 V c 0 t) (iblk7 V c 1 t) (iblk7 V c 2 t) (iblk7 V c 3 t) (iblk7 V c 4 t) (ix2 p q)
def colsq7 (c : Dev nD) (t : Fin cfg7.N) (q : Fin 64) : EReal :=
  ∑ p : Fin 5000, k7_pay4 (iblk7 V c 0 t) (iblk7 V c 1 t) (iblk7 V c 2 t) (iblk7 V c 3 t) (iblk7 V c 4 t) (ix2 p q) * k7_pay4 (iblk7 V c 0 t) (iblk7 V c 1 t) (iblk7 V c 2 t) (iblk7 V c 3 t) (iblk7 V c 4 t) (ix2 p q)

/-- The scratch rows after point `n` hold the sums over the points so far of their blocks' column sums. -/
theorem acc7_s_eq (c : Dev nD) : ∀ (n : ℕ) (hn : n < cfg7.N) (u : Fin 1) (q : Fin 64),
    (accAt7 V c n hn).1 (ix2 u q) = ∑ t : Fin (n + 1), col7 V c ⟨t.val, lt_of_lt_of_le t.isLt hn⟩ q := by
  intro n
  induction n with
  | zero =>
    intro hn u q
    have h := accAt7_zero V c ⟨0, hn⟩ rfl
    rw [show accAt7 V c 0 hn = _ from h]
    dsimp only
    rw [sum7_apply, zero7_s_apply, zero_add]
    exact (Fin.sum_univ_one (fun t : Fin 1 => col7 V c ⟨t.val, lt_of_lt_of_le t.isLt hn⟩ q)).symm
  | succ n ih =>
    intro hn u q
    have h := accAt7_pos V c ⟨n + 1, hn⟩ (Nat.succ_ne_zero n)
    rw [show accAt7 V c (n + 1) hn = _ from h]
    dsimp only
    rw [sum7_apply]
    conv_rhs => rw [Fin.sum_univ_castSucc]
    refine congrArg₂ (· + ·) ?_ rfl
    exact ih (Nat.lt_of_succ_lt hn) u q

theorem acc7_q_eq (c : Dev nD) : ∀ (n : ℕ) (hn : n < cfg7.N) (u : Fin 1) (q : Fin 64),
    (accAt7 V c n hn).2 (ix2 u q) = ∑ t : Fin (n + 1), colsq7 V c ⟨t.val, lt_of_lt_of_le t.isLt hn⟩ q := by
  intro n
  induction n with
  | zero =>
    intro hn u q
    have h := accAt7_zero V c ⟨0, hn⟩ rfl
    rw [show accAt7 V c 0 hn = _ from h]
    dsimp only
    rw [sq7_apply, zero7_q_apply, zero_add]
    exact (Fin.sum_univ_one (fun t : Fin 1 => colsq7 V c ⟨t.val, lt_of_lt_of_le t.isLt hn⟩ q)).symm
  | succ n ih =>
    intro hn u q
    have h := accAt7_pos V c ⟨n + 1, hn⟩ (Nat.succ_ne_zero n)
    rw [show accAt7 V c (n + 1) hn = _ from h]
    dsimp only
    rw [sq7_apply]
    conv_rhs => rw [Fin.sum_univ_castSucc]
    refine congrArg₂ (· + ·) ?_ rfl
    exact ih (Nat.lt_of_succ_lt hn) u q

/-- The sum over the twenty points of the blocks' column sums is the sum over all rows. -/
theorem col7_total (c : Dev nD) (q : Fin 64) (hN : ∀ t : Fin 20, t.val < cfg7.N) :
    ∑ t : Fin 20, col7 V c ⟨t.val, hN t⟩ q = ∑ r : Fin 100000, f7_5 (aArr7 V c) (xArr7 V c) (wrArr7 V c) (woArr7 V c) (bArr7 V c) (ix2 r q) := by
  have hE : (20 * 5000 : ℕ) = 100000 := by norm_num
  refine Eq.trans ?_ (Equiv.sum_comp (finCongr hE) (fun r : Fin 100000 => f7_5 (aArr7 V c) (xArr7 V c) (wrArr7 V c) (woArr7 V c) (bArr7 V c) (ix2 r q)))
  refine Eq.trans ?_ (Cert.Math.sum_fin_blocks (m := 20) (n := 5000) (fun i => f7_5 (aArr7 V c) (xArr7 V c) (wrArr7 V c) (woArr7 V c) (bArr7 V c) (ix2 (finCongr hE i) q))).symm
  refine Finset.sum_congr rfl fun t _ => ?_
  unfold col7
  refine Finset.sum_congr rfl fun p _ => ?_
  rw [y7_at]
  exact congrArg (fun r : Fin 100000 => f7_5 (aArr7 V c) (xArr7 V c) (wrArr7 V c) (woArr7 V c) (bArr7 V c) (ix2 r q)) (Fin.ext rfl)

theorem colsq7_total (c : Dev nD) (q : Fin 64) (hN : ∀ t : Fin 20, t.val < cfg7.N) :
    ∑ t : Fin 20, colsq7 V c ⟨t.val, hN t⟩ q = ∑ r : Fin 100000, f7_5 (aArr7 V c) (xArr7 V c) (wrArr7 V c) (woArr7 V c) (bArr7 V c) (ix2 r q) * f7_5 (aArr7 V c) (xArr7 V c) (wrArr7 V c) (woArr7 V c) (bArr7 V c) (ix2 r q) := by
  have hE : (20 * 5000 : ℕ) = 100000 := by norm_num
  refine Eq.trans ?_ (Equiv.sum_comp (finCongr hE) (fun r : Fin 100000 => f7_5 (aArr7 V c) (xArr7 V c) (wrArr7 V c) (woArr7 V c) (bArr7 V c) (ix2 r q) * f7_5 (aArr7 V c) (xArr7 V c) (wrArr7 V c) (woArr7 V c) (bArr7 V c) (ix2 r q)))
  refine Eq.trans ?_ (Cert.Math.sum_fin_blocks (m := 20) (n := 5000) (fun i => f7_5 (aArr7 V c) (xArr7 V c) (wrArr7 V c) (woArr7 V c) (bArr7 V c) (ix2 (finCongr hE i) q) * f7_5 (aArr7 V c) (xArr7 V c) (wrArr7 V c) (woArr7 V c) (bArr7 V c) (ix2 (finCongr hE i) q))).symm
  refine Finset.sum_congr rfl fun t _ => ?_
  unfold colsq7
  refine Finset.sum_congr rfl fun p _ => ?_
  rw [y7_at]
  exact congrArg (fun r : Fin 100000 => f7_5 (aArr7 V c) (xArr7 V c) (wrArr7 V c) (woArr7 V c) (bArr7 V c) (ix2 r q) * f7_5 (aArr7 V c) (xArr7 V c) (wrArr7 V c) (woArr7 V c) (bArr7 V c) (ix2 r q)) (Fin.ext rfl)

theorem mem_blk7_6 (t : Fin cfg7.N) (i : S1x64.Idx) :
    i ∈ ((cfg7.win 6).blk t).view.set ↔ ∀ a : Fin 2, win7_6.index t a * S1x64.size a ≤ (i a).val ∧ (i a).val < win7_6.index t a * S1x64.size a + S1x64.size a := by
  show i ∈ ((View.whole main_v145_1).slice (win7_6.rect t)).set ↔ _
  rw [View.set_slice_whole, Rect.mem_set_unit]
  exact Iff.rfl

set_option maxRecDepth 200000 in
/-- What the last point writes back to window 6: the sums over all rows. -/
theorem flushed7_6_eq (c : Dev nD) (t : Fin cfg7.N) (ht : (cfg7.win 6).flush t = true) :
    (dat7 V c).flushed 6 t = ((cfg7.win 6).blk t).view.read (Elt Ideal) (f7_6 (aArr7 V c) (xArr7 V c) (wrArr7 V c) (woArr7 V c) (bArr7 V c)) := by
  have hlast : t.val = 19 := by
    have h := (flush7_6 t).mp ht
    have hlt : t.val < 20 := lt_of_lt_of_eq t.isLt N_7
    omega
  have hs : ∀ (u : Fin 1) (q : Fin 64), (accAt7 V c t.val t.isLt).1 (ix2 u q) = f7_6 (aArr7 V c) (xArr7 V c) (wrArr7 V c) (woArr7 V c) (bArr7 V c) (ix2 u q) := by
    intro u q
    rw [acc7_s_eq]
    obtain ⟨tv, htv⟩ := t
    obtain rfl : tv = 19 := hlast
    exact col7_total V c q (fun t => lt_of_lt_of_eq t.isLt N_7.symm)
  show (cfg7.win 6).cut (grid7.coords t) ((dat7 V c).after 6 t) = _
  rw [after7_6, out7_6_eq]
  generalize (accAt7 V c t.val t.isLt).1 = s at hs ⊢
  funext y
  obtain ⟨u, q, rfl⟩ : ∃ (u : Fin 1) (q : Fin 64), y = ix2 u q := ⟨y 0, y 1, eq_ix2 y⟩
  show s (ix2 u q) = f7_6 (aArr7 V c) (xArr7 V c) (wrArr7 V c) (woArr7 V c) (bArr7 V c) (((cfg7.win 6).blk t).view.emb (ix2 u q))
  rw [emb7_6, hs]

/-- The one row of window 6's array is in the last point's block. -/
theorem acover7_6 (i : S1x64.Idx) :
    ∃ t : Fin cfg7.N, (cfg7.win 6).flush t = true ∧ i ∈ ((cfg7.win 6).blk t).view.set := by
  have hi0 : (i 0).val < 1 := (i 0).isLt
  have hi1 : (i 1).val < 64 := (i 1).isLt
  let t : Fin cfg7.N := ⟨19, by show 19 < 20; omega⟩
  obtain ⟨-, -, -, -, -, -, -, -, -, -, -, -, ha, hb, -⟩ := idx_facts7 t
  refine ⟨t, (flush7_6 t).mpr rfl, ?_⟩
  rw [mem_blk7_6]
  intro ax
  match ax with
  | ⟨0, _⟩ => show win7_6.index t (0 : Fin 2) * 1 ≤ (i 0).val ∧ (i 0).val < win7_6.index t (0 : Fin 2) * 1 + 1; omega
  | ⟨1, _⟩ => show win7_6.index t (1 : Fin 2) * 64 ≤ (i 1).val ∧ (i 1).val < win7_6.index t (1 : Fin 2) * 64 + 64; omega

/-- Window 6's array after the region. -/
theorem final7_6 (c : Dev nD) : (dat7 V c).arrAt 6 cfg7.N = f7_6 (aArr7 V c) (xArr7 V c) (wrArr7 V c) (woArr7 V c) (bArr7 V c) :=
  (dat7 V c).arrAt_eq_of_cover 6 (f7_6 (aArr7 V c) (xArr7 V c) (wrArr7 V c) (woArr7 V c) (bArr7 V c)) (fun t ht => flushed7_6_eq V c t ht) acover7_6

theorem mem_blk7_7 (t : Fin cfg7.N) (i : S1x64.Idx) :
    i ∈ ((cfg7.win 7).blk t).view.set ↔ ∀ a : Fin 2, win7_7.index t a * S1x64.size a ≤ (i a).val ∧ (i a).val < win7_7.index t a * S1x64.size a + S1x64.size a := by
  show i ∈ ((View.whole main_v145_2).slice (win7_7.rect t)).set ↔ _
  rw [View.set_slice_whole, Rect.mem_set_unit]
  exact Iff.rfl

set_option maxRecDepth 200000 in
/-- What the last point writes back to window 7: the sums over all rows. -/
theorem flushed7_7_eq (c : Dev nD) (t : Fin cfg7.N) (ht : (cfg7.win 7).flush t = true) :
    (dat7 V c).flushed 7 t = ((cfg7.win 7).blk t).view.read (Elt Ideal) (f7_7 (aArr7 V c) (xArr7 V c) (wrArr7 V c) (woArr7 V c) (bArr7 V c)) := by
  have hlast : t.val = 19 := by
    have h := (flush7_7 t).mp ht
    have hlt : t.val < 20 := lt_of_lt_of_eq t.isLt N_7
    omega
  have hs : ∀ (u : Fin 1) (q : Fin 64), (accAt7 V c t.val t.isLt).2 (ix2 u q) = f7_7 (aArr7 V c) (xArr7 V c) (wrArr7 V c) (woArr7 V c) (bArr7 V c) (ix2 u q) := by
    intro u q
    rw [acc7_q_eq]
    obtain ⟨tv, htv⟩ := t
    obtain rfl : tv = 19 := hlast
    exact colsq7_total V c q (fun t => lt_of_lt_of_eq t.isLt N_7.symm)
  show (cfg7.win 7).cut (grid7.coords t) ((dat7 V c).after 7 t) = _
  rw [after7_7, out7_6_eq]
  generalize (accAt7 V c t.val t.isLt).2 = s at hs ⊢
  funext y
  obtain ⟨u, q, rfl⟩ : ∃ (u : Fin 1) (q : Fin 64), y = ix2 u q := ⟨y 0, y 1, eq_ix2 y⟩
  show s (ix2 u q) = f7_7 (aArr7 V c) (xArr7 V c) (wrArr7 V c) (woArr7 V c) (bArr7 V c) (((cfg7.win 7).blk t).view.emb (ix2 u q))
  rw [emb7_7, hs]

/-- The one row of window 7's array is in the last point's block. -/
theorem acover7_7 (i : S1x64.Idx) :
    ∃ t : Fin cfg7.N, (cfg7.win 7).flush t = true ∧ i ∈ ((cfg7.win 7).blk t).view.set := by
  have hi0 : (i 0).val < 1 := (i 0).isLt
  have hi1 : (i 1).val < 64 := (i 1).isLt
  let t : Fin cfg7.N := ⟨19, by show 19 < 20; omega⟩
  obtain ⟨-, -, -, -, -, -, -, -, -, -, -, -, -, -, ha, hb⟩ := idx_facts7 t
  refine ⟨t, (flush7_7 t).mpr rfl, ?_⟩
  rw [mem_blk7_7]
  intro ax
  match ax with
  | ⟨0, _⟩ => show win7_7.index t (0 : Fin 2) * 1 ≤ (i 0).val ∧ (i 0).val < win7_7.index t (0 : Fin 2) * 1 + 1; omega
  | ⟨1, _⟩ => show win7_7.index t (1 : Fin 2) * 64 ≤ (i 1).val ∧ (i 1).val < win7_7.index t (1 : Fin 2) * 64 + 64; omega

/-- Window 7's array after the region. -/
theorem final7_7 (c : Dev nD) : (dat7 V c).arrAt 7 cfg7.N = f7_7 (aArr7 V c) (xArr7 V c) (wrArr7 V c) (woArr7 V c) (bArr7 V c) :=
  (dat7 V c).arrAt_eq_of_cover 7 (f7_7 (aArr7 V c) (xArr7 V c) (wrArr7 V c) (woArr7 V c) (bArr7 V c)) (fun t ht => flushed7_7_eq V c t ht) acover7_7

end Cert.KernelIdeal.Hand

end
-- ==== Proof.V8.lean ====
import proofs.«403053_j58033598104012_3_alg».proof.Proof.R8
import proofs.«403053_j58033598104012_3_alg».proof.Proof.VLaws
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! # Region 8 at the ideal values: the output array is ELU of the normalised y, entry by entry -/

/-- The arrays of the region as it finds them, and the output array as it leaves it, typed by their shapes. -/
abbrev yArr8 (c : Dev nD) : S50000x128.Idx → EReal := V c (Pipeline.arrRef spec8 0)
abbrev meanArr8 (c : Dev nD) : S1x128.Idx → EReal := V c (Pipeline.arrRef spec8 1)
abbrev varArr8 (c : Dev nD) : S1x128.Idx → EReal := V c (Pipeline.arrRef spec8 2)
abbrev gammaArr8 (c : Dev nD) : S1x128.Idx → EReal := V c (Pipeline.arrRef spec8 3)
abbrev betaArr8 (c : Dev nD) : S1x128.Idx → EReal := V c (Pipeline.arrRef spec8 4)
abbrev res8 (c : Dev nD) : S50000x128.Idx → EReal := (dat8 V c).arrAt 5 cfg8.N

/-- A row vector broadcast down the block's rows reads, at (p, q), its entry q. -/
theorem bcastRow8 {α : Type} (x : S1x128.Idx → α) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The body's payload at row `p`, column `q` of the block: ELU of (y − mean) · rsqrt(variance + ε) · gamma + beta,
    the four statistics read at column `q`. -/
theorem pay8_apply (x0 : Vec Ideal S5000x128 .f32) (xv xm xg xb : Vec Ideal S1x128 .f32) (p : Fin 5000) (q : Fin 128) :
    k8_pay1 x0 xv xm xg xb (ix2 p q)
      = eluK ((x0 (ix2 p q) - xm (ix2 0 q)) * Ideal.rsqrt (xv (ix2 0 q) + Ideal.ofBits .f32 0x3727C5AC#32) * xg (ix2 0 q) + xb (ix2 0 q)) := by
  unfold k8_pay1
  simp only [shapeCast_self, select_apply, cmpf_apply, subf_apply, mulf_apply, addf_apply, minimumf_apply, exp_apply,
    rsqrt_apply, broadcast_apply, bcastRow8]
  exact select_elu _

/-- Batch normalisation by one row of statistics then ELU, of an array with rows of 128, entry by entry. -/
def bnElu8 (Y : S50000x128.Idx → EReal) (M Vr G B : S1x128.Idx → EReal) : S50000x128.Idx → EReal :=
  fun i => eluK ((Y i - M (ix2 0 (i 1))) * Ideal.rsqrt (Vr (ix2 0 (i 1)) + Ideal.ofBits .f32 0x3727C5AC#32) * G (ix2 0 (i 1)) + B (ix2 0 (i 1)))

/-- Entry (i, k) of `bnElu8`: the statistics read at column `k`. -/
theorem bnElu8_apply (Y : S50000x128.Idx → EReal) (M Vr G B : S1x128.Idx → EReal) (i : Fin 50000) (k : Fin 128) :
    bnElu8 Y M Vr G B (ix2 i k) = eluK ((Y (ix2 i k) - M (ix2 0 k)) * Ideal.rsqrt (Vr (ix2 0 k) + Ideal.ofBits .f32 0x3727C5AC#32) * G (ix2 0 k) + B (ix2 0 k)) := rfl

/-- The block index maps over the grid: y and the output move down the rows with the point, the statistics stay. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

set_option maxHeartbeats 1000000 in
/-- What point `t` writes back is row block `t` of `bnElu8` of the arrays as the region finds them. -/
theorem flushed8_eq (c : Dev nD) (t : Fin cfg8.N) :
    (dat8 V c).flushed 5 t = ((cfg8.win 5).blk t).view.read (Elt Ideal)
      (bnElu8 (yArr8 V c) (meanArr8 V c) (varArr8 V c) (gammaArr8 V c) (betaArr8 V c)) := by
  show (cfg8.win 5).cut (grid8.coords t) ((dat8 V c).after 5 t) = _
  rw [after8_5]
  unfold out8_5
  rw [View.canon_unit_zero zeros2]
  simp only [View.ld_unit_zero (S := S5000x128) zeros2, View.ld_unit_zero (S := S1x128) zeros2]
  obtain ⟨e00, e01, e10, e11, e20, e21, e30, e31, e40, e41, e50, e51⟩ := idx_facts8 t
  funext y
  obtain ⟨p, q, rfl⟩ : ∃ (p : Fin 5000) (q : Fin 128), y = ix2 p q := ⟨y 0, y 1, eq_ix2 y⟩
  show k8_pay1 (iblk8 V c 0 t) (iblk8 V c 2 t) (iblk8 V c 1 t) (iblk8 V c 3 t) (iblk8 V c 4 t) (ix2 p q)
    = bnElu8 (yArr8 V c) (meanArr8 V c) (varArr8 V c) (gammaArr8 V c) (betaArr8 V c) (((cfg8.win 5).blk t).view.emb (ix2 p q))
  rw [pay8_apply]
  unfold bnElu8
  have h0 : ((cfg8.win 0).blk t).view.emb (ix2 p q) = ((cfg8.win 5).blk t).view.emb (ix2 p q) := by
    funext a; apply Fin.ext
    match a with
    | ⟨0, _⟩ => show win8_0.index t (0 : Fin 2) * 5000 + 1 * p.val = win8_5.index t (0 : Fin 2) * 5000 + 1 * p.val; omega
    | ⟨1, _⟩ => show win8_0.index t (1 : Fin 2) * 128 + 1 * q.val = win8_5.index t (1 : Fin 2) * 128 + 1 * q.val; omega
  have h1 : ((cfg8.win 1).blk t).view.emb (ix2 0 q) = ix2 0 (((cfg8.win 5).blk t).view.emb (ix2 p q) 1) := by
    funext a; apply Fin.ext
    match a with
    | ⟨0, _⟩ => show win8_1.index t (0 : Fin 2) * 1 + 1 * 0 = 0; omega
    | ⟨1, _⟩ => show win8_1.index t (1 : Fin 2) * 128 + 1 * q.val = win8_5.index t (1 : Fin 2) * 128 + 1 * q.val; omega
  have h2 : ((cfg8.win 2).blk t).view.emb (ix2 0 q) = ix2 0 (((cfg8.win 5).blk t).view.emb (ix2 p q) 1) := by
    funext a; apply Fin.ext
    match a with
    | ⟨0, _⟩ => show win8_2.index t (0 : Fin 2) * 1 + 1 * 0 = 0; omega
    | ⟨1, _⟩ => show win8_2.index t (1 : Fin 2) * 128 + 1 * q.val = win8_5.index t (1 : Fin 2) * 128 + 1 * q.val; omega
  have h3 : ((cfg8.win 3).blk t).view.emb (ix2 0 q) = ix2 0 (((cfg8.win 5).blk t).view.emb (ix2 p q) 1) := by
    funext a; apply Fin.ext
    match a with
    | ⟨0, _⟩ => show win8_3.index t (0 : Fin 2) * 1 + 1 * 0 = 0; omega
    | ⟨1, _⟩ => show win8_3.index t (1 : Fin 2) * 128 + 1 * q.val = win8_5.index t (1 : Fin 2) * 128 + 1 * q.val; omega
  have h4 : ((cfg8.win 4).blk t).view.emb (ix2 0 q) = ix2 0 (((cfg8.win 5).blk t).view.emb (ix2 p q) 1) := by
    funext a; apply Fin.ext
    match a with
    | ⟨0, _⟩ => show win8_4.index t (0 : Fin 2) * 1 + 1 * 0 = 0; omega
    | ⟨1, _⟩ => show win8_4.index t (1 : Fin 2) * 128 + 1 * q.val = win8_5.index t (1 : Fin 2) * 128 + 1 * q.val; omega
  have r0 : iblk8 V c 0 t (ix2 p q) = yArr8 V c (((cfg8.win 5).blk t).view.emb (ix2 p q)) := congrArg (yArr8 V c) h0
  have r1 : iblk8 V c 1 t (ix2 0 q) = meanArr8 V c (ix2 0 (((cfg8.win 5).blk t).view.emb (ix2 p q) 1)) := congrArg (meanArr8 V c) h1
  have r2 : iblk8 V c 2 t (ix2 0 q) = varArr8 V c (ix2 0 (((cfg8.win 5).blk t).view.emb (ix2 p q) 1)) := congrArg (varArr8 V c) h2
  have r3 : iblk8 V c 3 t (ix2 0 q) = gammaArr8 V c (ix2 0 (((cfg8.win 5).blk t).view.emb (ix2 p q) 1)) := congrArg (gammaArr8 V c) h3
  have r4 : iblk8 V c 4 t (ix2 0 q) = betaArr8 V c (ix2 0 (((cfg8.win 5).blk t).view.emb (ix2 p q) 1)) := congrArg (betaArr8 V c) h4
  rw [r0, r1, r2, r3, r4]

/-- An index of the output array is in point `t`'s block iff each coordinate is in the block's range on its axis. -/
theorem mem_blk8 (t : Fin cfg8.N) (i : S50000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v173).slice (win8_5.rect t)).set ↔ _
  rw [View.set_slice_whole, Rect.mem_set_unit]
  exact Iff.rfl

/-- Every row of the output array is in the block of the point numbered by the row's quotient by 5000. -/
theorem covered8 (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  let t : Fin cfg8.N := ⟨(i 0).val / 5000, by show (i 0).val / 5000 < 10; omega⟩
  obtain ⟨e00, e01, e10, e11, e20, e21, e30, e31, e40, e41, e50, e51⟩ := idx_facts8 t
  have ht : t.val = (i 0).val / 5000 := rfl
  refine ⟨t, flush8_5 t, ?_⟩
  rw [mem_blk8]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 128 ≤ (i 1).val ∧ (i 1).val < win8_5.index t (1 : Fin 2) * 128 + 128; omega

/-- The output array after the region: `bnElu8` of the arrays as the region finds them. -/
theorem final8 (c : Dev nD) :
    (dat8 V c).arrAt 5 cfg8.N = bnElu8 (V c (Pipeline.arrRef spec8 0)) (V c (Pipeline.arrRef spec8 1)) (V c (Pipeline.arrRef spec8 2)) (V c (Pipeline.arrRef spec8 3)) (V c (Pipeline.arrRef spec8 4)) :=
  (dat8 V c).arrAt_eq_of_cover 5 _ (fun t _ => flushed8_eq V c t) covered8

/-- Entry (i, k) of the output array after the region. -/
theorem val8 (c : Dev nD) (i : Fin 50000) (k : Fin 128) :
    res8 V c (ix2 i k) = eluK ((yArr8 V c (ix2 i k) - meanArr8 V c (ix2 0 k))
      * Ideal.rsqrt (varArr8 V c (ix2 0 k) + Ideal.ofBits .f32 0x3727C5AC#32) * gammaArr8 V c (ix2 0 k) + betaArr8 V c (ix2 0 k)) :=
  congrFun (final8 V c) (ix2 i k)

end Cert.KernelIdeal.Hand
-- ==== Proof.V9.lean ====
/- REGION 9 read at the ideal values: the output array after the region is ONE function of the five input arrays as the
   region finds them, the two-layer perceptron followed by the row-wise log-softmax. -/
import proofs.«403053_j58033598104012_3_alg».proof.Proof.R9
import Idealize.ShloMosaic.Lib.KernelVsHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-! ## The region's function -/

/-- The hidden layer: the rows times the first weight matrix, the bias along every row, the negative part cut. -/
def mlpHidden (x : FVec Ideal S256x64 .f32) (w1 : FVec Ideal S64x64 .f32) (b1 : FVec Ideal S1x64 .f32) : FVec Ideal S256x64 .f32 :=
  maximumf (addf (Host.dotGeneral dot_S256x64_S64x64_S256x64_1_0_0_1_n_n none x w1) (broadcastTo S256x64 b1 broadcasts_S1x64_S256x64))
    (broadcast S256x64 (Scalar.ofBits .f32 0x00000000#32))

/-- The logits: the hidden rows times the second weight matrix, the bias along every row. -/
def mlpLogits (h : FVec Ideal S256x64 .f32) (w2 : FVec Ideal S64x10 .f32) (b2 : FVec Ideal S1x10 .f32) : FVec Ideal S256x10 .f32 :=
  addf (Host.dotGeneral dot_S256x64_S64x10_S256x10_1_0_0_1_n_n none h w2) (broadcastTo S256x10 b2 broadcasts_S1x10_S256x10)

/-- Row-wise log-softmax: each row less its maximum, less the logarithm of the sum of the exponentials of that. -/
def logSoftmaxRows (z : FVec Ideal S256x10 .f32) : FVec Ideal S256x10 .f32 :=
  let s : FVec Ideal S256x10 .f32 := subf z (broadcastTo S256x10
    (shapeCast S256x1 (multiReduction .maximumf [1] S256 z 0xFF800000#32 reduces_S256x10_S256 (.inl rfl) rfl) shapeCasts_S256_S256x1)
    broadcasts_S256x1_S256x10)
  subf s (broadcastTo S256x10
    (log (shapeCast S256x1 (multiReduction .add [1] S256 (exp s) 0x00000000#32 reduces_S256x10_S256 (.inl rfl) rfl) shapeCasts_S256_S256x1))
    broadcasts_S256x1_S256x10)

def f9_5 (x : FVec Ideal S256x64 .f32) (w1 : FVec Ideal S64x64 .f32) (b1 : FVec Ideal S1x64 .f32) (w2 : FVec Ideal S64x10 .f32)
    (b2 : FVec Ideal S1x10 .f32) : FVec Ideal S256x10 .f32 :=
  logSoftmaxRows (mlpLogits (mlpHidden x w1 b1) w2 b2)

theorem pay9_eq (x0 : Vec Ideal S256x64 .f32) (x1 : Vec Ideal S64x64 .f32) (x2 : Vec Ideal S1x64 .f32) (x3 : Vec Ideal S64x10 .f32)
    (x4 : Vec Ideal S1x10 .f32) : k9_pay1 x0 x1 x2 x3 x4 = f9_5 x0 x1 x2 x3 x4 := by
  unfold k9_pay1
  simp only [shapeCast_self]
  rw [matmul_zero_eq_dotGeneral, matmul_zero_eq_dotGeneral]
  rfl

/-! ## Each window's one block is its whole array -/

variable (V : (c : Dev nD) → (b : Ref sig .tc) → Buf (Elt Ideal) ((c : Thread nD τ).loc b))

theorem hz9 : (![0, 0] : Fin 2 → Nat) = fun _ => 0 := funext fun a => by fin_cases a <;> rfl

/-- Window k's one block, read through the window at the only point, is its array: the block index is zero on both axes. -/
theorem iblk9_0 (c : Dev nD) (t : Fin cfg9.N) : iblk9 V c 0 t = V c main_v185 := by
  funext j
  show V c main_v185 (((cfg9.win 0).blk t).view.emb j) = V c main_v185 j
  congr 1; funext a; apply Fin.ext
  match a with
  | ⟨0, _⟩ => show 0 * 256 + 1 * (j 0).val = (j 0).val; omega
  | ⟨1, _⟩ => show 0 * 64 + 1 * (j 1).val = (j 1).val; omega

theorem iblk9_1 (c : Dev nD) (t : Fin cfg9.N) : iblk9 V c 1 t = V c main_arg23 := by
  funext j
  show V c main_arg23 (((cfg9.win 1).blk t).view.emb j) = V c main_arg23 j
  congr 1; funext a; apply Fin.ext
  match a with
  | ⟨0, _⟩ => show 0 * 64 + 1 * (j 0).val = (j 0).val; omega
  | ⟨1, _⟩ => show 0 * 64 + 1 * (j 1).val = (j 1).val; omega

theorem iblk9_2 (c : Dev nD) (t : Fin cfg9.N) : iblk9 V c 2 t = V c main_v186 := by
  funext j
  show V c main_v186 (((cfg9.win 2).blk t).view.emb j) = V c main_v186 j
  congr 1; funext a; apply Fin.ext
  match a with
  | ⟨0, _⟩ => show 0 * 1 + 1 * (j 0).val = (j 0).val; omega
  | ⟨1, _⟩ => show 0 * 64 + 1 * (j 1).val = (j 1).val; omega

theorem iblk9_3 (c : Dev nD) (t : Fin cfg9.N) : iblk9 V c 3 t = V c main_arg25 := by
  funext j
  show V c main_arg25 (((cfg9.win 3).blk t).view.emb j) = V c main_arg25 j
  congr 1; funext a; apply Fin.ext
  match a with
  | ⟨0, _⟩ => show 0 * 64 + 1 * (j 0).val = (j 0).val; omega
  | ⟨1, _⟩ => show 0 * 10 + 1 * (j 1).val = (j 1).val; omega

theorem iblk9_4 (c : Dev nD) (t : Fin cfg9.N) : iblk9 V c 4 t = V c main_v187 := by
  funext j
  show V c main_v187 (((cfg9.win 4).blk t).view.emb j) = V c main_v187 j
  congr 1; funext a; apply Fin.ext
  match a with
  | ⟨0, _⟩ => show 0 * 1 + 1 * (j 0).val = (j 0).val; omega
  | ⟨1, _⟩ => show 0 * 10 + 1 * (j 1).val = (j 1).val; omega

theorem flushed9_5 (c : Dev nD) (t : Fin cfg9.N) :
    (dat9 V c).flushed 5 t = ((cfg9.win 5).blk t).view.read (Elt Ideal)
      (f9_5 (V c main_v185) (V c main_arg23) (V c main_v186) (V c main_arg25) (V c main_v187)) := by
  show (cfg9.win 5).cut (grid9.coords t) ((dat9 V c).after 5 t) = _
  rw [after9_5]
  unfold out9_5
  rw [View.canon_unit_zero hz9]
  simp only [View.ld_unit_zero (S := S256x64) hz9, View.ld_unit_zero (S := S64x64) hz9, View.ld_unit_zero (S := S1x64) hz9,
    View.ld_unit_zero (S := S64x10) hz9, View.ld_unit_zero (S := S1x10) hz9]
  rw [pay9_eq, iblk9_0, iblk9_1, iblk9_2, iblk9_3, iblk9_4]
  funext j
  show f9_5 _ _ _ _ _ ((win9 5).xinj (grid9.coords t) j) = f9_5 _ _ _ _ _ (((cfg9.win 5).blk t).view.emb j)
  congr 1; funext a; apply Fin.ext
  match a with
  | ⟨0, _⟩ => show (j 0).val = 0 * 256 + 1 * (j 0).val; omega
  | ⟨1, _⟩ => show (j 1).val = 0 * 10 + 1 * (j 1).val; omega

theorem cover9_out (i : S256x10.Idx) : ∃ t : Fin cfg9.N, (cfg9.win 5).flush t = true ∧ i ∈ ((cfg9.win 5).blk t).view.set := by
  refine ⟨t9_0, flush9_5 _, ?_⟩
  show i ∈ ((View.whole main_v188).slice (win9_5.rect t9_0)).set
  rw [View.set_slice_whole, Rect.mem_set_unit]
  intro a
  match a with
  | ⟨0, _⟩ => show 0 * 256 ≤ (i 0).val ∧ (i 0).val < 0 * 256 + 256; have h : (i 0).val < 256 := (i 0).isLt; omega
  | ⟨1, _⟩ => show 0 * 10 ≤ (i 1).val ∧ (i 1).val < 0 * 10 + 10; have h : (i 1).val < 10 := (i 1).isLt; omega

/-- THE OUTPUT ARRAY after the region: the perceptron and the row-wise log-softmax of the five input arrays as the region
    finds them. -/
theorem final9_5 (c : Dev nD) :
    (dat9 V c).arrAt 5 cfg9.N = f9_5 (V c main_v185) (V c main_arg23) (V c main_v186) (V c main_arg25) (V c main_v187) :=
  (dat9 V c).arrAt_eq_of_cover 5 _ (fun t _ => flushed9_5 V c t) cover9_out

end Cert.KernelIdeal.Hand

end
-- ==== Proof.KerValue.lean ====
import proofs.«403053_j58033598104012_3_alg».proof.Proof.KerEntry
import proofs.«403053_j58033598104012_3_alg».proof.Proof.V0
import proofs.«403053_j58033598104012_3_alg».proof.Proof.V1
import proofs.«403053_j58033598104012_3_alg».proof.Proof.V2
import proofs.«403053_j58033598104012_3_alg».proof.Proof.V3
import proofs.«403053_j58033598104012_3_alg».proof.Proof.V4
import proofs.«403053_j58033598104012_3_alg».proof.Proof.V5
import proofs.«403053_j58033598104012_3_alg».proof.Proof.V6
import proofs.«403053_j58033598104012_3_alg».proof.Proof.V7
import proofs.«403053_j58033598104012_3_alg».proof.Proof.V8
import proofs.«403053_j58033598104012_3_alg».proof.Proof.V9

/-!
  The kernel program's result as a composition of the regions' functions and the host terms over the
  launch contents: each region's output array is its function of the operands it finds, and the
  operands are the host terms of KerEntry.
-/

set_option maxRecDepth 1920

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-! ## Layer 1 -/

/-- Region 0 leaves the product of the node rows with the relation weights of layer 1. -/
theorem kv0 : outs m 2 main_v8 c = matProd0 (V0 m c main_arg0) (V0 m c main_arg3) := by
  rw [o2, final0]
  show matProd0 (T1 m c main_arg0) (T1 m c main_arg3) = _
  rw [e0_0, e0_1]

/-- Region 1 leaves layer 1's linear map of the mean-aggregated projections and the node rows, and its column sums
    and sums of squares. -/
theorem kv1_0 : outs m 4 main_v24_0 c = f1_4 (segMean16 (F := Ideal) (kG m c) (kD m c) (kS m c) (outs m 2 main_v8 c)) (V0 m c main_arg0) (V0 m c main_arg4) (row16 (F := Ideal) (V0 m c main_arg5)) := by
  rw [o4_0, final1_4]
  show f1_4 (T3 m c main_v22) (T3 m c main_arg0) (T3 m c main_arg4) (T3 m c main_v23) = _
  rw [e1_0, e1_1, e1_2, e1_3]
theorem kv1_1 : outs m 4 main_v24_1 c = f1_5 (segMean16 (F := Ideal) (kG m c) (kD m c) (kS m c) (outs m 2 main_v8 c)) (V0 m c main_arg0) (V0 m c main_arg4) (row16 (F := Ideal) (V0 m c main_arg5)) := by
  rw [o4_1, final1_5]
  show f1_5 (T3 m c main_v22) (T3 m c main_arg0) (T3 m c main_arg4) (T3 m c main_v23) = _
  rw [e1_0, e1_1, e1_2, e1_3]
theorem kv1_2 : outs m 4 main_v24_2 c = f1_6 (segMean16 (F := Ideal) (kG m c) (kD m c) (kS m c) (outs m 2 main_v8 c)) (V0 m c main_arg0) (V0 m c main_arg4) (row16 (F := Ideal) (V0 m c main_arg5)) := by
  rw [o4_2, final1_6]
  show f1_6 (T3 m c main_v22) (T3 m c main_arg0) (T3 m c main_arg4) (T3 m c main_v23) = _
  rw [e1_0, e1_1, e1_2, e1_3]

/-- Region 2 leaves layer 1's normalised, ELU'd rows: its function of region 1's three outputs and the scale and shift rows. -/
theorem kv2 : outs m 6 main_v39 c = bnElu2 (outs m 4 main_v24_0 c) (row16 (F := Ideal) (meanOf16 (F := Ideal) (outs m 4 main_v24_1 c)))
    (row16 (F := Ideal) (varOf16 (F := Ideal) (outs m 4 main_v24_1 c) (outs m 4 main_v24_2 c))) (row16 (F := Ideal) (V0 m c main_arg6)) (row16 (F := Ideal) (V0 m c main_arg7)) := by
  rw [o6, final2]
  show bnElu2 (T5 m c main_v24_0) (T5 m c main_v35) (T5 m c main_v36) (T5 m c main_v37) (T5 m c main_v38) = _
  rw [e2_0, e2_1, e2_2, e2_3, e2_4]

/-! ## Layer 2 -/

theorem kv3_0 : outs m 8 main_v55_0 c = f3_5 (segMean16 (F := Ideal) (kG m c) (kD m c) (kS m c) (outs m 6 main_v39 c)) (outs m 6 main_v39 c) (V0 m c main_arg8) (V0 m c main_arg9) (row32 (F := Ideal) (V0 m c main_arg10)) := by
  rw [o8_0, final3_5]
  show f3_5 (T7 m c main_v53) (T7 m c main_v39) (T7 m c main_arg8) (T7 m c main_arg9) (T7 m c main_v54) = _
  rw [e3_0, e3_1, e3_2, e3_3, e3_4]
theorem kv3_1 : outs m 8 main_v55_1 c = f3_6 (segMean16 (F := Ideal) (kG m c) (kD m c) (kS m c) (outs m 6 main_v39 c)) (outs m 6 main_v39 c) (V0 m c main_arg8) (V0 m c main_arg9) (row32 (F := Ideal) (V0 m c main_arg10)) := by
  rw [o8_1, final3_6]
  show f3_6 (T7 m c main_v53) (T7 m c main_v39) (T7 m c main_arg8) (T7 m c main_arg9) (T7 m c main_v54) = _
  rw [e3_0, e3_1, e3_2, e3_3, e3_4]
theorem kv3_2 : outs m 8 main_v55_2 c = f3_7 (segMean16 (F := Ideal) (kG m c) (kD m c) (kS m c) (outs m 6 main_v39 c)) (outs m 6 main_v39 c) (V0 m c main_arg8) (V0 m c main_arg9) (row32 (F := Ideal) (V0 m c main_arg10)) := by
  rw [o8_2, final3_7]
  show f3_7 (T7 m c main_v53) (T7 m c main_v39) (T7 m c main_arg8) (T7 m c main_arg9) (T7 m c main_v54) = _
  rw [e3_0, e3_1, e3_2, e3_3, e3_4]

/-- Region 4 leaves layer 2's normalised, ELU'd rows, 128 lanes wide. -/
theorem kv4 : outs m 10 main_v83 c = bnElu4 (dense32 (F := Ideal) (outs m 8 main_v55_0 c)) (tile32 (F := Ideal) (meanOf32 (F := Ideal) (outs m 8 main_v55_1 c)))
    (tile32 (F := Ideal) (varOf32 (F := Ideal) (outs m 8 main_v55_1 c) (outs m 8 main_v55_2 c))) (tile32 (F := Ideal) (V0 m c main_arg11)) (tile32 (F := Ideal) (V0 m c main_arg12)) := by
  rw [o10, final4]
  show bnElu4 (T9 m c main_v66) (T9 m c main_v70) (T9 m c main_v74) (T9 m c main_v78) (T9 m c main_v82) = _
  rw [e4_0, e4_1, e4_2, e4_3, e4_4]

/-! ## Layer 3 -/

theorem kv5_0 : outs m 12 main_v100_0 c = f5_5 (segMean32 (F := Ideal) (kG m c) (kD m c) (kS m c) (undense32 (F := Ideal) (outs m 10 main_v83 c))) (undense32 (F := Ideal) (outs m 10 main_v83 c)) (V0 m c main_arg13) (V0 m c main_arg14) (row32 (F := Ideal) (V0 m c main_arg15)) := by
  rw [o12_0, final5_5]
  show f5_5 (T11 m c main_v98) (T11 m c main_v84) (T11 m c main_arg13) (T11 m c main_arg14) (T11 m c main_v99) = _
  rw [e5_0, e5_1, e5_2, e5_3, e5_4]
theorem kv5_1 : outs m 12 main_v100_1 c = f5_6 (segMean32 (F := Ideal) (kG m c) (kD m c) (kS m c) (undense32 (F := Ideal) (outs m 10 main_v83 c))) (undense32 (F := Ideal) (outs m 10 main_v83 c)) (V0 m c main_arg13) (V0 m c main_arg14) (row32 (F := Ideal) (V0 m c main_arg15)) := by
  rw [o12_1, final5_6]
  show f5_6 (T11 m c main_v98) (T11 m c main_v84) (T11 m c main_arg13) (T11 m c main_arg14) (T11 m c main_v99) = _
  rw [e5_0, e5_1, e5_2, e5_3, e5_4]
theorem kv5_2 : outs m 12 main_v100_2 c = f5_7 (segMean32 (F := Ideal) (kG m c) (kD m c) (kS m c) (undense32 (F := Ideal) (outs m 10 main_v83 c))) (undense32 (F := Ideal) (outs m 10 main_v83 c)) (V0 m c main_arg13) (V0 m c main_arg14) (row32 (F := Ideal) (V0 m c main_arg15)) := by
  rw [o12_2, final5_7]
  show f5_7 (T11 m c main_v98) (T11 m c main_v84) (T11 m c main_arg13) (T11 m c main_arg14) (T11 m c main_v99) = _
  rw [e5_0, e5_1, e5_2, e5_3, e5_4]

/-- Region 6 leaves layer 3's normalised, ELU'd rows, 128 lanes wide. -/
theorem kv6 : outs m 14 main_v128 c = bnElu6 (dense32 (F := Ideal) (outs m 12 main_v100_0 c)) (tile32 (F := Ideal) (meanOf32 (F := Ideal) (outs m 12 main_v100_1 c)))
    (tile32 (F := Ideal) (varOf32 (F := Ideal) (outs m 12 main_v100_1 c) (outs m 12 main_v100_2 c))) (tile32 (F := Ideal) (V0 m c main_arg16)) (tile32 (F := Ideal) (V0 m c main_arg17)) := by
  rw [o14, final6]
  show bnElu6 (T13 m c main_v111) (T13 m c main_v115) (T13 m c main_v119) (T13 m c main_v123) (T13 m c main_v127) = _
  rw [e6_0, e6_1, e6_2, e6_3, e6_4]

/-! ## Layer 4 -/

theorem kv7_0 : outs m 16 main_v145_0 c = f7_5 (segMean32 (F := Ideal) (kG m c) (kD m c) (kS m c) (undense32 (F := Ideal) (outs m 14 main_v128 c))) (undense32 (F := Ideal) (outs m 14 main_v128 c)) (V0 m c main_arg18) (V0 m c main_arg19) (row64 (F := Ideal) (V0 m c main_arg20)) := by
  rw [o16_0, final7_5]
  show f7_5 (T15 m c main_v143) (T15 m c main_v129) (T15 m c main_arg18) (T15 m c main_arg19) (T15 m c main_v144) = _
  rw [e7_0, e7_1, e7_2, e7_3, e7_4]
theorem kv7_1 : outs m 16 main_v145_1 c = f7_6 (segMean32 (F := Ideal) (kG m c) (kD m c) (kS m c) (undense32 (F := Ideal) (outs m 14 main_v128 c))) (undense32 (F := Ideal) (outs m 14 main_v128 c)) (V0 m c main_arg18) (V0 m c main_arg19) (row64 (F := Ideal) (V0 m c main_arg20)) := by
  rw [o16_1, final7_6]
  show f7_6 (T15 m c main_v143) (T15 m c main_v129) (T15 m c main_arg18) (T15 m c main_arg19) (T15 m c main_v144) = _
  rw [e7_0, e7_1, e7_2, e7_3, e7_4]
theorem kv7_2 : outs m 16 main_v145_2 c = f7_7 (segMean32 (F := Ideal) (kG m c) (kD m c) (kS m c) (undense32 (F := Ideal) (outs m 14 main_v128 c))) (undense32 (F := Ideal) (outs m 14 main_v128 c)) (V0 m c main_arg18) (V0 m c main_arg19) (row64 (F := Ideal) (V0 m c main_arg20)) := by
  rw [o16_2, final7_7]
  show f7_7 (T15 m c main_v143) (T15 m c main_v129) (T15 m c main_arg18) (T15 m c main_arg19) (T15 m c main_v144) = _
  rw [e7_0, e7_1, e7_2, e7_3, e7_4]

/-- Region 8 leaves layer 4's normalised, ELU'd rows, 128 lanes wide. -/
theorem kv8 : outs m 18 main_v173 c = bnElu8 (dense64 (F := Ideal) (outs m 16 main_v145_0 c)) (tile64 (F := Ideal) (meanOf64 (F := Ideal) (outs m 16 main_v145_1 c)))
    (tile64 (F := Ideal) (varOf64 (F := Ideal) (outs m 16 main_v145_1 c) (outs m 16 main_v145_2 c))) (tile64 (F := Ideal) (V0 m c main_arg21)) (tile64 (F := Ideal) (V0 m c main_arg22)) := by
  rw [o18, final8]
  show bnElu8 (T17 m c main_v156) (T17 m c main_v160) (T17 m c main_v164) (T17 m c main_v168) (T17 m c main_v172) = _
  rw [e8_0, e8_1, e8_2, e8_3, e8_4]

/-! ## The pooled rows through the perceptron -/

/-- The result: region 9's function of the pooled rows and the perceptron's parameters. -/
theorem kv9 : RES m c = f9_5 (poolMean (F := Ideal) (V0 m c main_arg2) (undense64 (F := Ideal) (outs m 18 main_v173 c))) (V0 m c main_arg23)
    (row64 (F := Ideal) (V0 m c main_arg24)) (V0 m c main_arg25) (row10 (F := Ideal) (V0 m c main_arg26)) := by
  unfold RES
  rw [final9_5 (T19 m) c, e9_0, e9_1, e9_2, e9_3, e9_4]

end Cert.KernelIdeal.Hand
end
-- ==== Proof.HostRead.lean ====
/- The kernel program's host glue read at an index: a vector as a one-row matrix, the column statistics from the column sums,
   the lane-dense layouts of an N×32 and an N×64 array and of their per-column parameters, and the round trip through them. -/
import proofs.«403053_j58033598104012_3_alg».proof.Proof.HostK
import proofs.«403053_j58033598104012_3_alg».proof.Proof.HostK2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic
open Idealize.ShloMosaic.ValueIdx

/-- A reshape of a matrix to a matrix, read at (r, l): the operand at the index (p, q) with the same row-major position. -/
theorem reshape2_apply {α : Type} {a b c d : ℕ} (x : (⟨2, ![a, b]⟩ : Shape).Idx → α)
    (h : (⟨2, ![a, b]⟩ : Shape).ShapeCasts ⟨2, ![c, d]⟩) (r : Fin c) (l : Fin d) (p : Fin a) (q : Fin b)
    (hpq : p.val * b + q.val = r.val * d + l.val) : shapeCast ⟨2, ![c, d]⟩ x h (ix2 r l) = x (ix2 p q) :=
  shapeCast_apply x h _ _ (by rw [Shape.rowMajor_val_two, Shape.rowMajor_val_two]; exact hpq)

/-! ## Rows and column statistics -/

/-- A vector of length 16 as a one-row matrix, read at (u, k). -/
theorem row16_apply (v : FVec Ideal S16 .f32) (k : Fin 16) : row16 v (ix2 (0 : Fin 1) k) = v (ix1 k) := by
  unfold row16
  exact shapeCast_a_1a_apply v _ 0 k

/-- A vector of length 32 as a one-row matrix, read at (u, k). -/
theorem row32_apply (v : FVec Ideal S32 .f32) (k : Fin 32) : row32 v (ix2 (0 : Fin 1) k) = v (ix1 k) := by
  unfold row32
  exact shapeCast_a_1a_apply v _ 0 k

/-- A vector of length 64 as a one-row matrix, read at (u, k). -/
theorem row64_apply (v : FVec Ideal S64 .f32) (k : Fin 64) : row64 v (ix2 (0 : Fin 1) k) = v (ix1 k) := by
  unfold row64
  exact shapeCast_a_1a_apply v _ 0 k

/-- A vector of length 10 as a one-row matrix, read at (u, k). -/
theorem row10_apply (v : FVec Ideal S10 .f32) (k : Fin 10) : row10 v (ix2 (0 : Fin 1) k) = v (ix1 k) := by
  unfold row10
  exact shapeCast_a_1a_apply v _ 0 k

/-- Column k's mean: the column sum over N = 100000. -/
theorem meanOf16_apply (s : FVec Ideal S1x16 .f32) (k : Fin 16) :
    meanOf16 s (ix1 k) = Ideal.div (s (ix2 (0 : Fin 1) k)) (Ideal.ofBits .f32 0x47C35000#32) := by
  unfold meanOf16
  rw [shapeCast_1a_a_apply]
  rfl

/-- Column k's biased variance, clamped below at zero. -/
theorem varOf16_apply (s q : FVec Ideal S1x16 .f32) (k : Fin 16) :
    varOf16 s q (ix1 k) = max (meanOf16 q (ix1 k) - meanOf16 s (ix1 k) * meanOf16 s (ix1 k)) 0 := by
  unfold varOf16
  rw [maximumf_apply, subf_apply, mulf_apply]
  show max _ (Ideal.ofBits .f32 0x00000000#32) = _
  rw [Ideal.ofBits_zero_f32]

/-- Column k's mean: the column sum over N = 100000. -/
theorem meanOf32_apply (s : FVec Ideal S1x32 .f32) (k : Fin 32) :
    meanOf32 s (ix1 k) = Ideal.div (s (ix2 (0 : Fin 1) k)) (Ideal.ofBits .f32 0x47C35000#32) := by
  unfold meanOf32
  rw [shapeCast_1a_a_apply]
  rfl

/-- Column k's biased variance, clamped below at zero. -/
theorem varOf32_apply (s q : FVec Ideal S1x32 .f32) (k : Fin 32) :
    varOf32 s q (ix1 k) = max (meanOf32 q (ix1 k) - meanOf32 s (ix1 k) * meanOf32 s (ix1 k)) 0 := by
  unfold varOf32
  rw [maximumf_apply, subf_apply, mulf_apply]
  show max _ (Ideal.ofBits .f32 0x00000000#32) = _
  rw [Ideal.ofBits_zero_f32]

/-- Column k's mean: the column sum over N = 100000. -/
theorem meanOf64_apply (s : FVec Ideal S1x64 .f32) (k : Fin 64) :
    meanOf64 s (ix1 k) = Ideal.div (s (ix2 (0 : Fin 1) k)) (Ideal.ofBits .f32 0x47C35000#32) := by
  unfold meanOf64
  rw [shapeCast_1a_a_apply]
  rfl

/-- Column k's biased variance, clamped below at zero. -/
theorem varOf64_apply (s q : FVec Ideal S1x64 .f32) (k : Fin 64) :
    varOf64 s q (ix1 k) = max (meanOf64 q (ix1 k) - meanOf64 s (ix1 k) * meanOf64 s (ix1 k)) 0 := by
  unfold varOf64
  rw [maximumf_apply, subf_apply, mulf_apply]
  show max _ (Ideal.ofBits .f32 0x00000000#32) = _
  rw [Ideal.ofBits_zero_f32]

/-! ## The lane-dense layouts -/

/-- The lane-dense form read at (r, l): the entry of the N×32 array at the same row-major position. -/
theorem dense32_apply (y : FVec Ideal S100000x32 .f32) (r : Fin 25000) (l : Fin 128) :
    dense32 y (ix2 r l) = y (ix2 (⟨(128 * r.val + l.val) / 32, by have := r.isLt; have := l.isLt; omega⟩ : Fin 100000)
      (⟨(128 * r.val + l.val) % 32, by omega⟩ : Fin 32)) := by
  unfold dense32
  exact reshape2_apply y _ r l _ _ (by show (128 * r.val + l.val) / 32 * 32 + (128 * r.val + l.val) % 32 = r.val * 128 + l.val; omega)

/-- The N×32 form of a lane-dense array read at (i, k): the entry at the same row-major position. -/
theorem undense32_apply (o : FVec Ideal S25000x128 .f32) (i : Fin 100000) (k : Fin 32) :
    undense32 o (ix2 i k) = o (ix2 (⟨(32 * i.val + k.val) / 128, by have := i.isLt; have := k.isLt; omega⟩ : Fin 25000)
      (⟨(32 * i.val + k.val) % 128, by omega⟩ : Fin 128)) := by
  unfold undense32
  exact reshape2_apply o _ i k _ _ (by show (32 * i.val + k.val) / 128 * 128 + (32 * i.val + k.val) % 128 = i.val * 32 + k.val; omega)

/-- A per-column parameter tiled along the 128 lanes: lane l holds entry l mod 32. -/
theorem tile32_apply (v : FVec Ideal S32 .f32) (l : Fin 128) :
    tile32 v (ix2 (0 : Fin 1) l) = v (ix1 (⟨l.val % 32, by omega⟩ : Fin 32)) := by
  unfold tile32
  have hl := l.isLt
  refine (shapeCast_apply _ shapeCasts_S1x1x4x32_S1x128 (ix2 (0 : Fin 1) l)
    (ix4 (0 : Fin 1) (0 : Fin 1) (⟨l.val / 32, by omega⟩ : Fin 4) (⟨l.val % 32, by omega⟩ : Fin 32)) ?_).trans ?_
  · rw [Shape.rowMajor_val_four, Shape.rowMajor_val_two]
    show ((0 * 1 + 0) * 4 + l.val / 32) * 32 + l.val % 32 = 0 * 128 + l.val
    omega
  refine (broadcastInDim_apply ![0, 1, 2, 3] bcast_S1x1x1x32_S1x1x4x32_0_1_2_3 _ _
    (ix4 (0 : Fin 1) (0 : Fin 1) (0 : Fin 1) (⟨l.val % 32, by omega⟩ : Fin 32)) fun a => ?_).trans ?_
  · match a with
    | ⟨0, _⟩ => rfl
    | ⟨1, _⟩ => rfl
    | ⟨2, _⟩ => rfl
    | ⟨3, _⟩ => rfl
  refine (shapeCast_apply _ shapeCasts_S1x32_S1x1x1x32 _ (ix2 (0 : Fin 1) (⟨l.val % 32, by omega⟩ : Fin 32)) ?_).trans ?_
  · rw [Shape.rowMajor_val_two, Shape.rowMajor_val_four]
    show 0 * 32 + l.val % 32 = ((0 * 1 + 0) * 1 + 0) * 32 + l.val % 32
    omega
  exact row32_apply v _

/-- THE ROUND TRIP through the lane-dense layout: an array that is, lane by lane, one function g of the dense form of y and
    of four tiled per-column parameters, read back as N×32, is g of y's entry and the parameters' entries at the column. -/
theorem undense32_pointwise (g : EReal → EReal → EReal → EReal → EReal → EReal) (y : FVec Ideal S100000x32 .f32)
    (p0 p1 p2 p3 : FVec Ideal S32 .f32) (out : FVec Ideal S25000x128 .f32)
    (hout : ∀ (r : Fin 25000) (l : Fin 128), out (ix2 r l) = g (dense32 y (ix2 r l)) (tile32 p0 (ix2 (0 : Fin 1) l))
      (tile32 p1 (ix2 (0 : Fin 1) l)) (tile32 p2 (ix2 (0 : Fin 1) l)) (tile32 p3 (ix2 (0 : Fin 1) l)))
    (i : Fin 100000) (k : Fin 32) :
    undense32 out (ix2 i k) = g (y (ix2 i k)) (p0 (ix1 k)) (p1 (ix1 k)) (p2 (ix1 k)) (p3 (ix1 k)) := by
  have hi := i.isLt
  have hk := k.isLt
  rw [undense32_apply, hout, dense32_apply, tile32_apply, tile32_apply, tile32_apply, tile32_apply]
  have e1 : (⟨(128 * ((32 * i.val + k.val) / 128) + (32 * i.val + k.val) % 128) / 32, by omega⟩ : Fin 100000) = i := Fin.ext (by
    show (128 * ((32 * i.val + k.val) / 128) + (32 * i.val + k.val) % 128) / 32 = i.val; omega)
  have e2 : (⟨(128 * ((32 * i.val + k.val) / 128) + (32 * i.val + k.val) % 128) % 32, by omega⟩ : Fin 32) = k := Fin.ext (by
    show (128 * ((32 * i.val + k.val) / 128) + (32 * i.val + k.val) % 128) % 32 = k.val; omega)
  have e3 : (⟨(32 * i.val + k.val) % 128 % 32, by omega⟩ : Fin 32) = k := Fin.ext (by
    show (32 * i.val + k.val) % 128 % 32 = k.val; omega)
  rw [e1, e2, e3]

/-- The lane-dense form read at (r, l): the entry of the N×64 array at the same row-major position. -/
theorem dense64_apply (y : FVec Ideal S100000x64 .f32) (r : Fin 50000) (l : Fin 128) :
    dense64 y (ix2 r l) = y (ix2 (⟨(128 * r.val + l.val) / 64, by have := r.isLt; have := l.isLt; omega⟩ : Fin 100000)
      (⟨(128 * r.val + l.val) % 64, by omega⟩ : Fin 64)) := by
  unfold dense64
  exact reshape2_apply y _ r l _ _ (by show (128 * r.val + l.val) / 64 * 64 + (128 * r.val + l.val) % 64 = r.val * 128 + l.val; omega)

/-- The N×64 form of a lane-dense array read at (i, k): the entry at the same row-major position. -/
theorem undense64_apply (o : FVec Ideal S50000x128 .f32) (i : Fin 100000) (k : Fin 64) :
    undense64 o (ix2 i k) = o (ix2 (⟨(64 * i.val + k.val) / 128, by have := i.isLt; have := k.isLt; omega⟩ : Fin 50000)
      (⟨(64 * i.val + k.val) % 128, by omega⟩ : Fin 128)) := by
  unfold undense64
  exact reshape2_apply o _ i k _ _ (by show (64 * i.val + k.val) / 128 * 128 + (64 * i.val + k.val) % 128 = i.val * 64 + k.val; omega)

/-- A per-column parameter tiled along the 128 lanes: lane l holds entry l mod 64. -/
theorem tile64_apply (v : FVec Ideal S64 .f32) (l : Fin 128) :
    tile64 v (ix2 (0 : Fin 1) l) = v (ix1 (⟨l.val % 64, by omega⟩ : Fin 64)) := by
  unfold tile64
  have hl := l.isLt
  refine (shapeCast_apply _ shapeCasts_S1x1x2x64_S1x128 (ix2 (0 : Fin 1) l)
    (ix4 (0 : Fin 1) (0 : Fin 1) (⟨l.val / 64, by omega⟩ : Fin 2) (⟨l.val % 64, by omega⟩ : Fin 64)) ?_).trans ?_
  · rw [Shape.rowMajor_val_four, Shape.rowMajor_val_two]
    show ((0 * 1 + 0) * 2 + l.val / 64) * 64 + l.val % 64 = 0 * 128 + l.val
    omega
  refine (broadcastInDim_apply ![0, 1, 2, 3] bcast_S1x1x1x64_S1x1x2x64_0_1_2_3 _ _
    (ix4 (0 : Fin 1) (0 : Fin 1) (0 : Fin 1) (⟨l.val % 64, by omega⟩ : Fin 64)) fun a => ?_).trans ?_
  · match a with
    | ⟨0, _⟩ => rfl
    | ⟨1, _⟩ => rfl
    | ⟨2, _⟩ => rfl
    | ⟨3, _⟩ => rfl
  refine (shapeCast_apply _ shapeCasts_S1x64_S1x1x1x64 _ (ix2 (0 : Fin 1) (⟨l.val % 64, by omega⟩ : Fin 64)) ?_).trans ?_
  · rw [Shape.rowMajor_val_two, Shape.rowMajor_val_four]
    show 0 * 64 + l.val % 64 = ((0 * 1 + 0) * 1 + 0) * 64 + l.val % 64
    omega
  exact row64_apply v _

/-- THE ROUND TRIP through the lane-dense layout: an array that is, lane by lane, one function g of the dense form of y and
    of four tiled per-column parameters, read back as N×64, is g of y's entry and the parameters' entries at the column. -/
theorem undense64_pointwise (g : EReal → EReal → EReal → EReal → EReal → EReal) (y : FVec Ideal S100000x64 .f32)
    (p0 p1 p2 p3 : FVec Ideal S64 .f32) (out : FVec Ideal S50000x128 .f32)
    (hout : ∀ (r : Fin 50000) (l : Fin 128), out (ix2 r l) = g (dense64 y (ix2 r l)) (tile64 p0 (ix2 (0 : Fin 1) l))
      (tile64 p1 (ix2 (0 : Fin 1) l)) (tile64 p2 (ix2 (0 : Fin 1) l)) (tile64 p3 (ix2 (0 : Fin 1) l)))
    (i : Fin 100000) (k : Fin 64) :
    undense64 out (ix2 i k) = g (y (ix2 i k)) (p0 (ix1 k)) (p1 (ix1 k)) (p2 (ix1 k)) (p3 (ix1 k)) := by
  have hi := i.isLt
  have hk := k.isLt
  rw [undense64_apply, hout, dense64_apply, tile64_apply, tile64_apply, tile64_apply, tile64_apply]
  have e1 : (⟨(128 * ((64 * i.val + k.val) / 128) + (64 * i.val + k.val) % 128) / 64, by omega⟩ : Fin 100000) = i := Fin.ext (by
    show (128 * ((64 * i.val + k.val) / 128) + (64 * i.val + k.val) % 128) / 64 = i.val; omega)
  have e2 : (⟨(128 * ((64 * i.val + k.val) / 128) + (64 * i.val + k.val) % 128) % 64, by omega⟩ : Fin 64) = k := Fin.ext (by
    show (128 * ((64 * i.val + k.val) / 128) + (64 * i.val + k.val) % 128) % 64 = k.val; omega)
  have e3 : (⟨(64 * i.val + k.val) % 128 % 64, by omega⟩ : Fin 64) = k := Fin.ext (by
    show (64 * i.val + k.val) % 128 % 64 = k.val; omega)
  rw [e1, e2, e3]

end Cert.KernelIdeal.Hand

end
-- ==== Proof.RefLayers.lean ====
/- The reference's arithmetic as named functions of arrays, layer by layer, each the composition of the host
   operations the program performs, in the program's order and with its constants: the edge list's rows, the wrapped
   source column and the target column, the in-degree, a graph convolution (mean of neighbours times the relation
   weights, plus the node's row times the root weights, plus the bias), batch statistics and normalisation, ELU,
   the mean pool over graphs, the two linear layers and the log-softmax. -/
import proofs.«403053_j58033598104012_3_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- An array of a shape and element type, over the float values `F`. -/
abbrev Arr (F : FTy → Type) (s : Shape) (e : EltTy) : Type := BufTy.Contents (Elt F) ⟨s, e⟩

/-- The edge list's row 0 (the edges' source nodes) as a vector. -/
def srcOf (ei : Arr F S2x3200000 .i32) : Arr F S3200000 .i32 :=
  shapeCast S3200000 (extractStridedSlice S1x3200000 ![0, 0] ei slices_S2x3200000_S1x3200000_0_0) shapeCasts_S1x3200000_S3200000

/-- The edge list's row 1 (the edges' target nodes) as a vector. -/
def dstOf (ei : Arr F S2x3200000 .i32) : Arr F S3200000 .i32 :=
  shapeCast S3200000 (extractStridedSlice S1x3200000 ![1, 0] ei slices_S2x3200000_S1x3200000_1_0) shapeCasts_S1x3200000_S3200000

/-- The source indices wrapped (a negative index plus the node count) as a one-column index array: what the gather reads. -/
def srcCol (s : Arr F S3200000 .i32) : Arr F S3200000x1 .i32 :=
  broadcastInDim S3200000x1 ![0] bcast_S3200000_S3200000x1_0 (select (cmpi .slt s (broadcastInDim S3200000 ![] bcast_S_S3200000 (constantI S_ 32 0#32))) (addi s (broadcastInDim S3200000 ![] bcast_S_S3200000 (constantI S_ 32 100000#32))) s)

/-- The target indices as a one-column index array: what the scatters read. -/
def dstCol (d : Arr F S3200000 .i32) : Arr F S3200000x1 .i32 :=
  broadcastInDim S3200000x1 ![0] bcast_S3200000_S3200000x1_0 d

/-- The in-degree of every node (ones scatter-added at the targets), clamped below at one. -/
def deg (dc : Arr F S3200000x1 .i32) : Arr F S100000x1 .f32 :=
  maximumf (Host.scatterAdd scatter_S100000x1_S3200000x1_S3200000x1_1_0_0_1 (broadcastInDim S100000x1 ![] bcast_S_S100000x1 (constant S_ .f32 0x00000000#32)) dc (broadcastInDim S3200000x1 ![] bcast_S_S3200000x1 (constant S_ .f32 0x3F800000#32))) (broadcastInDim S100000x1 ![] bcast_S_S100000x1 (constant S_ .f32 0x3F800000#32))

/-- The message sum at width 64: the rows gathered at the source column, scatter-added at the target column onto zeros. -/
def msgSum64 (x : Arr F S100000x64 .f32) (sc : Arr F S3200000x1 .i32) (dc : Arr F S3200000x1 .i32) : Arr F S100000x64 .f32 :=
  Host.scatterAdd scatter_S100000x64_S3200000x1_S3200000x64_1_0_0_1 (broadcastInDim S100000x64 ![] bcast_S_S100000x64 (constant S_ .f32 0x00000000#32)) dc (Host.gather gather_S100000x64_S3200000x1_S3200000x64_1_0_n_n_0_1_164 x sc)

/-- The mean over incoming edges at width 64: the message sum over the clamped in-degree. -/
def agg64 (x : Arr F S100000x64 .f32) (sc : Arr F S3200000x1 .i32) (dc : Arr F S3200000x1 .i32) : Arr F S100000x64 .f32 :=
  Host.divf (msgSum64 x sc dc) (broadcastInDim S100000x64 ![0, 1] bcast_S100000x1_S100000x64_0_1 (deg dc))

/-- The message sum at width 16: the rows gathered at the source column, scatter-added at the target column onto zeros. -/
def msgSum16 (x : Arr F S100000x16 .f32) (sc : Arr F S3200000x1 .i32) (dc : Arr F S3200000x1 .i32) : Arr F S100000x16 .f32 :=
  Host.scatterAdd scatter_S100000x16_S3200000x1_S3200000x16_1_0_0_1 (broadcastInDim S100000x16 ![] bcast_S_S100000x16 (constant S_ .f32 0x00000000#32)) dc (Host.gather gather_S100000x16_S3200000x1_S3200000x16_1_0_n_n_0_1_116 x sc)

/-- The mean over incoming edges at width 16: the message sum over the clamped in-degree. -/
def agg16 (x : Arr F S100000x16 .f32) (sc : Arr F S3200000x1 .i32) (dc : Arr F S3200000x1 .i32) : Arr F S100000x16 .f32 :=
  Host.divf (msgSum16 x sc dc) (broadcastInDim S100000x16 ![0, 1] bcast_S100000x1_S100000x16_0_1 (deg dc))

/-- The message sum at width 32: the rows gathered at the source column, scatter-added at the target column onto zeros. -/
def msgSum32 (x : Arr F S100000x32 .f32) (sc : Arr F S3200000x1 .i32) (dc : Arr F S3200000x1 .i32) : Arr F S100000x32 .f32 :=
  Host.scatterAdd scatter_S100000x32_S3200000x1_S3200000x32_1_0_0_1 (broadcastInDim S100000x32 ![] bcast_S_S100000x32 (constant S_ .f32 0x00000000#32)) dc (Host.gather gather_S100000x32_S3200000x1_S3200000x32_1_0_n_n_0_1_132 x sc)

/-- The mean over incoming edges at width 32: the message sum over the clamped in-degree. -/
def agg32 (x : Arr F S100000x32 .f32) (sc : Arr F S3200000x1 .i32) (dc : Arr F S3200000x1 .i32) : Arr F S100000x32 .f32 :=
  Host.divf (msgSum32 x sc dc) (broadcastInDim S100000x32 ![0, 1] bcast_S100000x1_S100000x32_0_1 (deg dc))

/-- Graph convolution 1 (width 64 to 16): the neighbour mean times the relation weights, plus the node rows times the root weights, plus the bias broadcast over nodes. -/
def conv1 (x : Arr F S100000x64 .f32) (s : Arr F S3200000 .i32) (d : Arr F S3200000 .i32) (wrel : Arr F S64x16 .f32) (wroot : Arr F S64x16 .f32) (b : Arr F S16 .f32) : Arr F S100000x16 .f32 :=
  addf (addf (Host.dotGeneral dot_S100000x64_S64x16_S100000x16_1_0_0_1_n_n none (agg64 x (srcCol s) (dstCol d)) wrel) (Host.dotGeneral dot_S100000x64_S64x16_S100000x16_1_0_0_1_n_n none x wroot)) (broadcastInDim S100000x16 ![0, 1] bcast_S1x16_S100000x16_0_1 (broadcastInDim S1x16 ![1] bcast_S16_S1x16_1 b))

/-- Graph convolution 2 (width 16 to 32): the neighbour mean times the relation weights, plus the node rows times the root weights, plus the bias broadcast over nodes. -/
def conv2 (x : Arr F S100000x16 .f32) (s : Arr F S3200000 .i32) (d : Arr F S3200000 .i32) (wrel : Arr F S16x32 .f32) (wroot : Arr F S16x32 .f32) (b : Arr F S32 .f32) : Arr F S100000x32 .f32 :=
  addf (addf (Host.dotGeneral dot_S100000x16_S16x32_S100000x32_1_0_0_1_n_n none (agg16 x (srcCol s) (dstCol d)) wrel) (Host.dotGeneral dot_S100000x16_S16x32_S100000x32_1_0_0_1_n_n none x wroot)) (broadcastInDim S100000x32 ![0, 1] bcast_S1x32_S100000x32_0_1 (broadcastInDim S1x32 ![1] bcast_S32_S1x32_1 b))

/-- Graph convolution 3 (width 32 to 32): the neighbour mean times the relation weights, plus the node rows times the root weights, plus the bias broadcast over nodes. -/
def conv3 (x : Arr F S100000x32 .f32) (s : Arr F S3200000 .i32) (d : Arr F S3200000 .i32) (wrel : Arr F S32x32 .f32) (wroot : Arr F S32x32 .f32) (b : Arr F S32 .f32) : Arr F S100000x32 .f32 :=
  addf (addf (Host.dotGeneral dot_S100000x32_S32x32_S100000x32_1_0_0_1_n_n none (agg32 x (srcCol s) (dstCol d)) wrel) (Host.dotGeneral dot_S100000x32_S32x32_S100000x32_1_0_0_1_n_n none x wroot)) (broadcastInDim S100000x32 ![0, 1] bcast_S1x32_S100000x32_0_1 (broadcastInDim S1x32 ![1] bcast_S32_S1x32_1 b))

/-- Graph convolution 4 (width 32 to 64): the neighbour mean times the relation weights, plus the node rows times the root weights, plus the bias broadcast over nodes. -/
def conv4 (x : Arr F S100000x32 .f32) (s : Arr F S3200000 .i32) (d : Arr F S3200000 .i32) (wrel : Arr F S32x64 .f32) (wroot : Arr F S32x64 .f32) (b : Arr F S64 .f32) : Arr F S100000x64 .f32 :=
  addf (addf (Host.dotGeneral dot_S100000x32_S32x64_S100000x64_1_0_0_1_n_n none (agg32 x (srcCol s) (dstCol d)) wrel) (Host.dotGeneral dot_S100000x32_S32x64_S100000x64_1_0_0_1_n_n none x wroot)) (broadcastInDim S100000x64 ![0, 1] bcast_S1x64_S100000x64_0_1 (broadcastInDim S1x64 ![1] bcast_S64_S1x64_1 b))

/-- The column means at width 16: the column sums over the node count. -/
def mean16 (y : Arr F S100000x16 .f32) : Arr F S16 .f32 :=
  Host.divf (Host.reduceAdd y (constant S_ .f32 0x00000000#32) reducesTo_S100000x16_S16_d0 h_S_) (broadcastInDim S16 ![] bcast_S_S16 (constant S_ .f32 0x47C35000#32))

/-- The column variances at width 16: the column sums of the squared deviations from the column means over the node count minus a zero correction, selected against NaN on that denominator being positive. -/
def var16 (y : Arr F S100000x16 .f32) : Arr F S16 .f32 :=
  select (broadcastInDim S16 ![] bcast_S_S16 (cmpf .ogt (subf (constant S_ .f32 0x47C35000#32) (sitofp .f32 (constantI S_ 32 0#32)) : Arr F S_ .f32) (constant S_ .f32 0x00000000#32))) (Host.divf (Host.reduceAdd (mulf (subf y (broadcastInDim S100000x16 ![0, 1] bcast_S1x16_S100000x16_0_1 (Host.divf (broadcastInDim S1x16 ![1] bcast_S16_S1x16_1 (Host.reduceAdd y (constant S_ .f32 0x00000000#32) reducesTo_S100000x16_S16_d0 h_S_)) (broadcastInDim S1x16 ![] bcast_S_S1x16 (constant S_ .f32 0x47C35000#32))))) (subf y (broadcastInDim S100000x16 ![0, 1] bcast_S1x16_S100000x16_0_1 (Host.divf (broadcastInDim S1x16 ![1] bcast_S16_S1x16_1 (Host.reduceAdd y (constant S_ .f32 0x00000000#32) reducesTo_S100000x16_S16_d0 h_S_)) (broadcastInDim S1x16 ![] bcast_S_S1x16 (constant S_ .f32 0x47C35000#32)))))) (constant S_ .f32 0x00000000#32) reducesTo_S100000x16_S16_d0 h_S_) (broadcastInDim S16 ![] bcast_S_S16 (subf (constant S_ .f32 0x47C35000#32) (sitofp .f32 (constantI S_ 32 0#32))))) (broadcastInDim S16 ![] bcast_S_S16 (constant S_ .f32 0x7FC00000#32))

/-- Batch normalisation at width 16: the deviations from the column means times the reciprocal square root of the variance plus epsilon, times the scale, plus the shift. -/
def bn16 (y : Arr F S100000x16 .f32) (g : Arr F S16 .f32) (be : Arr F S16 .f32) : Arr F S100000x16 .f32 :=
  addf (mulf (mulf (subf y (broadcastInDim S100000x16 ![0, 1] bcast_S1x16_S100000x16_0_1 (broadcastInDim S1x16 ![1] bcast_S16_S1x16_1 (mean16 y)))) (broadcastInDim S100000x16 ![0, 1] bcast_S1x16_S100000x16_0_1 (broadcastInDim S1x16 ![1] bcast_S16_S1x16_1 (Host.rsqrt (addf (var16 y) (broadcastInDim S16 ![] bcast_S_S16 (constant S_ .f32 0x3727C5AC#32))))))) (broadcastInDim S100000x16 ![0, 1] bcast_S1x16_S100000x16_0_1 (broadcastInDim S1x16 ![1] bcast_S16_S1x16_1 g))) (broadcastInDim S100000x16 ![0, 1] bcast_S1x16_S100000x16_0_1 (broadcastInDim S1x16 ![1] bcast_S16_S1x16_1 be))

/-- ELU at width 16: z where z is positive, else one times expm1 of z masked to zero where z is positive. -/
def elu16 (z : Arr F S100000x16 .f32) : Arr F S100000x16 .f32 :=
  select (cmpf .ogt z (broadcastInDim S100000x16 ![] bcast_S_S100000x16 (constant S_ .f32 0x00000000#32))) z (mulf (broadcastInDim S100000x16 ![] bcast_S_S100000x16 (constant S_ .f32 0x3F800000#32)) (Host.expm1 (select (cmpf .ogt z (broadcastInDim S100000x16 ![] bcast_S_S100000x16 (constant S_ .f32 0x00000000#32))) (broadcastInDim S100000x16 ![] bcast_S_S100000x16 (constant S_ .f32 0x00000000#32)) z)))

/-- The column means at width 32: the column sums over the node count. -/
def mean32 (y : Arr F S100000x32 .f32) : Arr F S32 .f32 :=
  Host.divf (Host.reduceAdd y (constant S_ .f32 0x00000000#32) reducesTo_S100000x32_S32_d0 h_S_) (broadcastInDim S32 ![] bcast_S_S32 (constant S_ .f32 0x47C35000#32))

/-- The column variances at width 32: the column sums of the squared deviations from the column means over the node count minus a zero correction, selected against NaN on that denominator being positive. -/
def var32 (y : Arr F S100000x32 .f32) : Arr F S32 .f32 :=
  select (broadcastInDim S32 ![] bcast_S_S32 (cmpf .ogt (subf (constant S_ .f32 0x47C35000#32) (sitofp .f32 (constantI S_ 32 0#32)) : Arr F S_ .f32) (constant S_ .f32 0x00000000#32))) (Host.divf (Host.reduceAdd (mulf (subf y (broadcastInDim S100000x32 ![0, 1] bcast_S1x32_S100000x32_0_1 (Host.divf (broadcastInDim S1x32 ![1] bcast_S32_S1x32_1 (Host.reduceAdd y (constant S_ .f32 0x00000000#32) reducesTo_S100000x32_S32_d0 h_S_)) (broadcastInDim S1x32 ![] bcast_S_S1x32 (constant S_ .f32 0x47C35000#32))))) (subf y (broadcastInDim S100000x32 ![0, 1] bcast_S1x32_S100000x32_0_1 (Host.divf (broadcastInDim S1x32 ![1] bcast_S32_S1x32_1 (Host.reduceAdd y (constant S_ .f32 0x00000000#32) reducesTo_S100000x32_S32_d0 h_S_)) (broadcastInDim S1x32 ![] bcast_S_S1x32 (constant S_ .f32 0x47C35000#32)))))) (constant S_ .f32 0x00000000#32) reducesTo_S100000x32_S32_d0 h_S_) (broadcastInDim S32 ![] bcast_S_S32 (subf (constant S_ .f32 0x47C35000#32) (sitofp .f32 (constantI S_ 32 0#32))))) (broadcastInDim S32 ![] bcast_S_S32 (constant S_ .f32 0x7FC00000#32))

/-- Batch normalisation at width 32: the deviations from the column means times the reciprocal square root of the variance plus epsilon, times the scale, plus the shift. -/
def bn32 (y : Arr F S100000x32 .f32) (g : Arr F S32 .f32) (be : Arr F S32 .f32) : Arr F S100000x32 .f32 :=
  addf (mulf (mulf (subf y (broadcastInDim S100000x32 ![0, 1] bcast_S1x32_S100000x32_0_1 (broadcastInDim S1x32 ![1] bcast_S32_S1x32_1 (mean32 y)))) (broadcastInDim S100000x32 ![0, 1] bcast_S1x32_S100000x32_0_1 (broadcastInDim S1x32 ![1] bcast_S32_S1x32_1 (Host.rsqrt (addf (var32 y) (broadcastInDim S32 ![] bcast_S_S32 (constant S_ .f32 0x3727C5AC#32))))))) (broadcastInDim S100000x32 ![0, 1] bcast_S1x32_S100000x32_0_1 (broadcastInDim S1x32 ![1] bcast_S32_S1x32_1 g))) (broadcastInDim S100000x32 ![0, 1] bcast_S1x32_S100000x32_0_1 (broadcastInDim S1x32 ![1] bcast_S32_S1x32_1 be))

/-- ELU at width 32: z where z is positive, else one times expm1 of z masked to zero where z is positive. -/
def elu32 (z : Arr F S100000x32 .f32) : Arr F S100000x32 .f32 :=
  select (cmpf .ogt z (broadcastInDim S100000x32 ![] bcast_S_S100000x32 (constant S_ .f32 0x00000000#32))) z (mulf (broadcastInDim S100000x32 ![] bcast_S_S100000x32 (constant S_ .f32 0x3F800000#32)) (Host.expm1 (select (cmpf .ogt z (broadcastInDim S100000x32 ![] bcast_S_S100000x32 (constant S_ .f32 0x00000000#32))) (broadcastInDim S100000x32 ![] bcast_S_S100000x32 (constant S_ .f32 0x00000000#32)) z)))

/-- The column means at width 64: the column sums over the node count. -/
def mean64 (y : Arr F S100000x64 .f32) : Arr F S64 .f32 :=
  Host.divf (Host.reduceAdd y (constant S_ .f32 0x00000000#32) reducesTo_S100000x64_S64_d0 h_S_) (broadcastInDim S64 ![] bcast_S_S64 (constant S_ .f32 0x47C35000#32))

/-- The column variances at width 64: the column sums of the squared deviations from the column means over the node count minus a zero correction, selected against NaN on that denominator being positive. -/
def var64 (y : Arr F S100000x64 .f32) : Arr F S64 .f32 :=
  select (broadcastInDim S64 ![] bcast_S_S64 (cmpf .ogt (subf (constant S_ .f32 0x47C35000#32) (sitofp .f32 (constantI S_ 32 0#32)) : Arr F S_ .f32) (constant S_ .f32 0x00000000#32))) (Host.divf (Host.reduceAdd (mulf (subf y (broadcastInDim S100000x64 ![0, 1] bcast_S1x64_S100000x64_0_1 (Host.divf (broadcastInDim S1x64 ![1] bcast_S64_S1x64_1 (Host.reduceAdd y (constant S_ .f32 0x00000000#32) reducesTo_S100000x64_S64_d0 h_S_)) (broadcastInDim S1x64 ![] bcast_S_S1x64 (constant S_ .f32 0x47C35000#32))))) (subf y (broadcastInDim S100000x64 ![0, 1] bcast_S1x64_S100000x64_0_1 (Host.divf (broadcastInDim S1x64 ![1] bcast_S64_S1x64_1 (Host.reduceAdd y (constant S_ .f32 0x00000000#32) reducesTo_S100000x64_S64_d0 h_S_)) (broadcastInDim S1x64 ![] bcast_S_S1x64 (constant S_ .f32 0x47C35000#32)))))) (constant S_ .f32 0x00000000#32) reducesTo_S100000x64_S64_d0 h_S_) (broadcastInDim S64 ![] bcast_S_S64 (subf (constant S_ .f32 0x47C35000#32) (sitofp .f32 (constantI S_ 32 0#32))))) (broadcastInDim S64 ![] bcast_S_S64 (constant S_ .f32 0x7FC00000#32))

/-- Batch normalisation at width 64: the deviations from the column means times the reciprocal square root of the variance plus epsilon, times the scale, plus the shift. -/
def bn64 (y : Arr F S100000x64 .f32) (g : Arr F S64 .f32) (be : Arr F S64 .f32) : Arr F S100000x64 .f32 :=
  addf (mulf (mulf (subf y (broadcastInDim S100000x64 ![0, 1] bcast_S1x64_S100000x64_0_1 (broadcastInDim S1x64 ![1] bcast_S64_S1x64_1 (mean64 y)))) (broadcastInDim S100000x64 ![0, 1] bcast_S1x64_S100000x64_0_1 (broadcastInDim S1x64 ![1] bcast_S64_S1x64_1 (Host.rsqrt (addf (var64 y) (broadcastInDim S64 ![] bcast_S_S64 (constant S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 be))

/-- ELU at width 64: z where z is positive, else one times expm1 of z masked to zero where z is positive. -/
def elu64 (z : Arr F S100000x64 .f32) : Arr F S100000x64 .f32 :=
  select (cmpf .ogt z (broadcastInDim S100000x64 ![] bcast_S_S100000x64 (constant S_ .f32 0x00000000#32))) z (mulf (broadcastInDim S100000x64 ![] bcast_S_S100000x64 (constant S_ .f32 0x3F800000#32)) (Host.expm1 (select (cmpf .ogt z (broadcastInDim S100000x64 ![] bcast_S_S100000x64 (constant S_ .f32 0x00000000#32))) (broadcastInDim S100000x64 ![] bcast_S_S100000x64 (constant S_ .f32 0x00000000#32)) z)))

/-- Layer 1: the convolution, batch-normalised, through ELU. -/
def h1 (x : Arr F S100000x64 .f32) (s : Arr F S3200000 .i32) (d : Arr F S3200000 .i32) (wrel : Arr F S64x16 .f32) (wroot : Arr F S64x16 .f32) (b : Arr F S16 .f32) (g : Arr F S16 .f32) (be : Arr F S16 .f32) : Arr F S100000x16 .f32 :=
  elu16 (bn16 (conv1 x s d wrel wroot b) g be)

/-- Layer 2: the convolution, batch-normalised, through ELU. -/
def h2 (x : Arr F S100000x16 .f32) (s : Arr F S3200000 .i32) (d : Arr F S3200000 .i32) (wrel : Arr F S16x32 .f32) (wroot : Arr F S16x32 .f32) (b : Arr F S32 .f32) (g : Arr F S32 .f32) (be : Arr F S32 .f32) : Arr F S100000x32 .f32 :=
  elu32 (bn32 (conv2 x s d wrel wroot b) g be)

/-- Layer 3: the convolution, batch-normalised, through ELU. -/
def h3 (x : Arr F S100000x32 .f32) (s : Arr F S3200000 .i32) (d : Arr F S3200000 .i32) (wrel : Arr F S32x32 .f32) (wroot : Arr F S32x32 .f32) (b : Arr F S32 .f32) (g : Arr F S32 .f32) (be : Arr F S32 .f32) : Arr F S100000x32 .f32 :=
  elu32 (bn32 (conv3 x s d wrel wroot b) g be)

/-- Layer 4: the convolution, batch-normalised, through ELU. -/
def h4 (x : Arr F S100000x32 .f32) (s : Arr F S3200000 .i32) (d : Arr F S3200000 .i32) (wrel : Arr F S32x64 .f32) (wroot : Arr F S32x64 .f32) (b : Arr F S64 .f32) (g : Arr F S64 .f32) (be : Arr F S64 .f32) : Arr F S100000x64 .f32 :=
  elu64 (bn64 (conv4 x s d wrel wroot b) g be)

/-- The per-graph sums of the node rows: scatter-added at the graph ids onto zeros. -/
def poolSum (h : Arr F S100000x64 .f32) (bt : Arr F S100000 .i32) : Arr F S256x64 .f32 :=
  Host.scatterAdd scatter_S256x64_S100000x1_S100000x64_1_0_0_1 (broadcastInDim S256x64 ![] bcast_S_S256x64 (constant S_ .f32 0x00000000#32)) (broadcastInDim S100000x1 ![0] bcast_S100000_S100000x1_0 bt) h

/-- The per-graph node counts (ones scatter-added at the graph ids), clamped below at one. -/
def poolCnt (bt : Arr F S100000 .i32) : Arr F S256x1 .f32 :=
  maximumf (Host.scatterAdd scatter_S256x1_S100000x1_S100000x1_1_0_0_1 (broadcastInDim S256x1 ![] bcast_S_S256x1 (constant S_ .f32 0x00000000#32)) (broadcastInDim S100000x1 ![0] bcast_S100000_S100000x1_0 bt) (broadcastInDim S100000x1 ![] bcast_S_S100000x1 (constant S_ .f32 0x3F800000#32))) (broadcastInDim S256x1 ![] bcast_S_S256x1 (constant S_ .f32 0x3F800000#32))

/-- The mean pool over graphs. -/
def pooled (h : Arr F S100000x64 .f32) (bt : Arr F S100000 .i32) : Arr F S256x64 .f32 :=
  Host.divf (poolSum h bt) (broadcastInDim S256x64 ![0, 1] bcast_S256x1_S256x64_0_1 (poolCnt bt))

/-- The first linear layer and its ReLU (the maximum with zero). -/
def mlp1 (p : Arr F S256x64 .f32) (w : Arr F S64x64 .f32) (b : Arr F S64 .f32) : Arr F S256x64 .f32 :=
  maximumf (addf (Host.dotGeneral dot_S256x64_S64x64_S256x64_1_0_0_1_n_n none p w) (broadcastInDim S256x64 ![0, 1] bcast_S1x64_S256x64_0_1 (broadcastInDim S1x64 ![1] bcast_S64_S1x64_1 b))) (broadcastInDim S256x64 ![] bcast_S_S256x64 (constant S_ .f32 0x00000000#32))

/-- The second linear layer. -/
def logits (z : Arr F S256x64 .f32) (w : Arr F S64x10 .f32) (b : Arr F S10 .f32) : Arr F S256x10 .f32 :=
  addf (Host.dotGeneral dot_S256x64_S64x10_S256x10_1_0_0_1_n_n none z w) (broadcastInDim S256x10 ![0, 1] bcast_S1x10_S256x10_0_1 (broadcastInDim S1x10 ![1] bcast_S10_S1x10_1 b))

/-- The log-softmax over the classes: the deviations from the row maximum (taken from minus infinity) minus the log of the row sums of their exponentials. -/
def logSoftmax (l : Arr F S256x10 .f32) : Arr F S256x10 .f32 :=
  subf (subf l (broadcastInDim S256x10 ![0, 1] bcast_S256x1_S256x10_0_1 (broadcastInDim S256x1 ![0] bcast_S256_S256x1_0 (maximumf (broadcastInDim S256 ![] bcast_S_S256 (constant S_ .f32 0xFF800000#32)) (Host.reduce FloatOps.maximumf l (constant S_ .f32 0xFF800000#32) reducesTo_S256x10_S256_d1 h_S_))))) (broadcastInDim S256x10 ![0, 1] bcast_S256x1_S256x10_0_1 (Host.log (broadcastInDim S256x1 ![0] bcast_S256_S256x1_0 (Host.reduceAdd (Host.exp (subf l (broadcastInDim S256x10 ![0, 1] bcast_S256x1_S256x10_0_1 (broadcastInDim S256x1 ![0] bcast_S256_S256x1_0 (maximumf (broadcastInDim S256 ![] bcast_S_S256 (constant S_ .f32 0xFF800000#32)) (Host.reduce FloatOps.maximumf l (constant S_ .f32 0xFF800000#32) reducesTo_S256x10_S256_d1 h_S_)))))) (constant S_ .f32 0x00000000#32) reducesTo_S256x10_S256_d1 h_S_))))

/-! ## The layers over a device's buffer contents

The same functions applied to the argument buffers of a valuation `V` (a device's contents at launch): the arrays the run's
intermediate buffers are shown to hold, by name. -/

/-- The source vector of the contents' edge list. -/
def sV (V : Valuation τ sig (Elt F)) : Arr F S3200000 .i32 :=
  srcOf (V (Proc.devRef .tc main_arg1))

/-- The target vector of the contents' edge list. -/
def dV (V : Valuation τ sig (Elt F)) : Arr F S3200000 .i32 :=
  dstOf (V (Proc.devRef .tc main_arg1))

/-- Convolution 1 of the contents, before its batch norm. -/
def pre1 (V : Valuation τ sig (Elt F)) : Arr F S100000x16 .f32 :=
  conv1 (V (Proc.devRef .tc main_arg0)) (sV V) (dV V) (V (Proc.devRef .tc main_arg3)) (V (Proc.devRef .tc main_arg4)) (V (Proc.devRef .tc main_arg5))

/-- Convolution 1 batch-normalised. -/
def bnv1 (V : Valuation τ sig (Elt F)) : Arr F S100000x16 .f32 :=
  bn16 (pre1 V) (V (Proc.devRef .tc main_arg6)) (V (Proc.devRef .tc main_arg7))

/-- Layer 1's output. -/
def hv1 (V : Valuation τ sig (Elt F)) : Arr F S100000x16 .f32 :=
  elu16 (bnv1 V)

/-- Convolution 2 of the contents, before its batch norm. -/
def pre2 (V : Valuation τ sig (Elt F)) : Arr F S100000x32 .f32 :=
  conv2 (hv1 V) (sV V) (dV V) (V (Proc.devRef .tc main_arg8)) (V (Proc.devRef .tc main_arg9)) (V (Proc.devRef .tc main_arg10))

/-- Convolution 2 batch-normalised. -/
def bnv2 (V : Valuation τ sig (Elt F)) : Arr F S100000x32 .f32 :=
  bn32 (pre2 V) (V (Proc.devRef .tc main_arg11)) (V (Proc.devRef .tc main_arg12))

/-- Layer 2's output. -/
def hv2 (V : Valuation τ sig (Elt F)) : Arr F S100000x32 .f32 :=
  elu32 (bnv2 V)

/-- Convolution 3 of the contents, before its batch norm. -/
def pre3 (V : Valuation τ sig (Elt F)) : Arr F S100000x32 .f32 :=
  conv3 (hv2 V) (sV V) (dV V) (V (Proc.devRef .tc main_arg13)) (V (Proc.devRef .tc main_arg14)) (V (Proc.devRef .tc main_arg15))

/-- Convolution 3 batch-normalised. -/
def bnv3 (V : Valuation τ sig (Elt F)) : Arr F S100000x32 .f32 :=
  bn32 (pre3 V) (V (Proc.devRef .tc main_arg16)) (V (Proc.devRef .tc main_arg17))

/-- Layer 3's output. -/
def hv3 (V : Valuation τ sig (Elt F)) : Arr F S100000x32 .f32 :=
  elu32 (bnv3 V)

/-- Convolution 4 of the contents, before its batch norm. -/
def pre4 (V : Valuation τ sig (Elt F)) : Arr F S100000x64 .f32 :=
  conv4 (hv3 V) (sV V) (dV V) (V (Proc.devRef .tc main_arg18)) (V (Proc.devRef .tc main_arg19)) (V (Proc.devRef .tc main_arg20))

/-- Convolution 4 batch-normalised. -/
def bnv4 (V : Valuation τ sig (Elt F)) : Arr F S100000x64 .f32 :=
  bn64 (pre4 V) (V (Proc.devRef .tc main_arg21)) (V (Proc.devRef .tc main_arg22))

/-- Layer 4's output. -/
def hv4 (V : Valuation τ sig (Elt F)) : Arr F S100000x64 .f32 :=
  elu64 (bnv4 V)

/-- The pooled features through the first linear layer and ReLU. -/
def zv (V : Valuation τ sig (Elt F)) : Arr F S256x64 .f32 :=
  mlp1 (pooled (hv4 V) (V (Proc.devRef .tc main_arg2))) (V (Proc.devRef .tc main_arg23)) (V (Proc.devRef .tc main_arg24))

/-- The result: the log-softmax of the logits. -/
def outv (V : Valuation τ sig (Elt F)) : Arr F S256x10 .f32 :=
  logSoftmax (logits (zv V) (V (Proc.devRef .tc main_arg25)) (V (Proc.devRef .tc main_arg26)))

/-- The reference's result on device `c` from the launch memory `m`. -/
def refOut (m : (ℓ : Loc nD τ sig) → Buf (Elt F) ℓ) (c : Dev nD) : Arr F S256x10 .f32 :=
  outv (launchContents m c)

/-- The result spelt out over the launch memory's argument buffers, layer inside layer. -/
theorem refOut_eq (m : (ℓ : Loc nD τ sig) → Buf (Elt F) ℓ) (c : Dev nD) :
    refOut m c =
      logSoftmax (logits (mlp1 (pooled
        (h4 (h3 (h2 (h1 (m ((c.tc : Thread nD τ).loc main_arg0)) (srcOf (m ((c.tc : Thread nD τ).loc main_arg1))) (dstOf (m ((c.tc : Thread nD τ).loc main_arg1))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
          (srcOf (m ((c.tc : Thread nD τ).loc main_arg1))) (dstOf (m ((c.tc : Thread nD τ).loc main_arg1))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
          (srcOf (m ((c.tc : Thread nD τ).loc main_arg1))) (dstOf (m ((c.tc : Thread nD τ).loc main_arg1))) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
          (srcOf (m ((c.tc : Thread nD τ).loc main_arg1))) (dstOf (m ((c.tc : Thread nD τ).loc main_arg1))) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
        (m ((c.tc : Thread nD τ).loc main_arg2))) (m ((c.tc : Thread nD τ).loc main_arg23)) (m ((c.tc : Thread nD τ).loc main_arg24))) (m ((c.tc : Thread nD τ).loc main_arg25)) (m ((c.tc : Thread nD τ).loc main_arg26))) := rfl

end Cert.ReferenceIdeal.Hand

end
-- ==== Proof.MathScatter.lean ====
/-
  Reading the host's row gather and row scatter-add at an index.

  `x[src]` for a table `x : [N, C]` and node numbers `src : [E]` is a gather of whole rows: result
  element `(e, k)` is `x` at row `src e` (read signed, clamped into `[0, N - 1]`) and column `k`.
  A segment sum `segment_sum(u, dst, N)` of rows `u : [E, C]` is a scatter-add of whole rows onto a
  table `[N, C]`: element `(i, k)` receives `u (e, k)` from every edge `e` whose node number `dst e`
  (read signed, NOT clamped) is `i`.
-/
import Idealize.ShloMosaic.PureOps.Ideal
import Idealize.ShloMosaic.Lib.ValueIdx
import Mathlib.Algebra.BigOperators.Group.Finset.Basic

noncomputable section

namespace Cert.Math

open Idealize.ShloMosaic Idealize.ShloMosaic.ValueIdx
open scoped BigOperators

/-! ## Coordinates of a rank-2 index -/

/-- The first coordinate of a rank-2 index, typed by the first extent. -/
def row2 {n0 n1 : Nat} (j : (⟨2, ![n0, n1]⟩ : Shape).Idx) : Fin n0 := ⟨(j 0).val, idx2_lt0 j⟩
/-- The second coordinate of a rank-2 index, typed by the second extent. -/
def col2 {n0 n1 : Nat} (j : (⟨2, ![n0, n1]⟩ : Shape).Idx) : Fin n1 := ⟨(j 1).val, idx2_lt1 j⟩

@[simp] theorem row2_ix2 {n0 n1 : Nat} (a : Fin n0) (b : Fin n1) : row2 (ix2 a b) = a := rfl
@[simp] theorem col2_ix2 {n0 n1 : Nat} (a : Fin n0) (b : Fin n1) : col2 (ix2 a b) = b := rfl
theorem ix2_row2_col2 {n0 n1 : Nat} (j : (⟨2, ![n0, n1]⟩ : Shape).Idx) : ix2 (row2 j) (col2 j) = j := by
  funext a; match a with | ⟨0, _⟩ => rfl | ⟨1, _⟩ => rfl

theorem fin2_cases (a : Fin 2) : a = 0 ∨ a = 1 := by
  revert a; decide

/-! ## The row gather -/

section Gather
variable {α : Type}

/-- The dimension numbers of a gather of whole rows: operand `[N, C]`, start indices `[E, 1]`, result
    `[E, C]`; the result's axis 1 is the offset axis, the operand's axis 0 is collapsed and is the one a
    start index names, the slice is one row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The node an edge names, as the gather reads it: signed, clamped into `[0, N - 1]`. -/
def nodeClamped {N E w : Nat} (hN : 0 < N) (idx : IVec ⟨2, ![E, 1]⟩ w) (e : Fin E) : Fin N :=
  ⟨min (idx (ix2 e ⟨0, Nat.one_pos⟩)).toInt.toNat (N - 1), by omega⟩

/-- THE GATHER READ AT `(e, k)`: the operand at the clamped row and column `k`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (nodeClamped hN idx (row2 j)) (col2 j)) := by
  unfold Host.gather
  congr 1
  funext a
  refine Fin.ext ?_
  show (rowGatherDims N E C wf).start j idx a + (rowGatherDims N E C wf).batchCoord j a +
    (rowGatherDims N E C wf).offCoord j a = _
  rw [GatherDims.batchCoord_eq_zero _ _ _ List.not_mem_nil, Nat.add_zero]
  rcases fin2_cases a with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N E C wf).startIndexMap from List.mem_singleton.mpr rfl)]
    have hsi : (rowGatherDims N E C wf).siIdx j ⟨List.idxOf (0 : Fin 2) (rowGatherDims N E C wf).startIndexMap,
        List.idxOf_lt_length_iff.2 (List.mem_singleton.mpr rfl)⟩ = ix2 (row2 j) ⟨0, Nat.one_pos⟩ := by
      funext b; refine Fin.ext ?_
      match b with
      | ⟨0, _⟩ => rfl
      | ⟨1, _⟩ => rfl
    rw [hsi]
    rfl
  · have h1 : (1 : Fin 2) ∉ (rowGatherDims N E C wf).startIndexMap := by
      show (1 : Fin 2) ∉ ([0] : List (Fin 2)); decide
    have hs : (rowGatherDims N E C wf).start j idx 1 = 0 := by unfold GatherDims.start; rw [dif_neg h1]
    rw [hs, Nat.zero_add]
    rfl

end Gather

/-! ## The row scatter-add -/

section Scatter

/-- The dimension numbers of a scatter of whole rows: operand `[N, C]`, scatter indices `[E, 1]`, updates
    `[E, C]`; the updates' axis 1 is the window axis, the operand's axis 0 is inserted and is the one a
    scatter index names. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The node an edge names, as the scatter reads it: signed, not clamped. -/
def nodeSigned {E w : Nat} (idx : IVec ⟨2, ![E, 1]⟩ w) (e : Fin E) : Int :=
  (idx (ix2 e ⟨0, Nat.one_pos⟩)).toInt

variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

theorem rowScatter_start0 : (rowScatterDims N E C wf).start j idx 0 = nodeSigned idx (row2 j) := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (row2 j) ⟨0, Nat.one_pos⟩ := by
    funext b; refine Fin.ext ?_
    match b with
    | ⟨0, _⟩ => rfl
    | ⟨1, _⟩ => rfl
  rw [hsi]; rfl

theorem rowScatter_start1 : (rowScatterDims N E C wf).start j idx 1 = 0 := by
  unfold ScatterDims.start
  rw [dif_neg (show (1 : Fin 2) ∉ (rowScatterDims N E C wf).scatterDimsToOperandDims by
    show (1 : Fin 2) ∉ ([0] : List (Fin 2)); decide)]

theorem rowScatter_window0 : (rowScatterDims N E C wf).window j 0 = 0 := by
  unfold ScatterDims.window
  rw [dif_neg (show (0 : Fin 2) ∉ (rowScatterDims N E C wf).sKept by
    show (0 : Fin 2) ∉ ([1] : List (Fin 2)); decide)]

theorem rowScatter_window1 : (rowScatterDims N E C wf).window j 1 = (col2 j).val := by
  unfold ScatterDims.window
  rw [dif_pos (show (1 : Fin 2) ∈ (rowScatterDims N E C wf).sKept by
    show (1 : Fin 2) ∈ ([1] : List (Fin 2)); decide)]
  rfl

/-- WHERE AN UPDATE LANDS: update `(e, k)` lands on operand element `(i, k')` exactly when edge `e`
    names node `i` and `k = k'`. -/
theorem rowScatter_resultIdx?_eq_some (i : (⟨2, ![N, C]⟩ : Shape).Idx) :
    (rowScatterDims N E C wf).resultIdx? j idx = some i ↔
      nodeSigned idx (row2 j) = ((row2 i).val : Int) ∧ col2 j = col2 i := by
  have hs0 := rowScatter_start0 wf idx j
  have hs1 := rowScatter_start1 wf idx j
  have hw0 := rowScatter_window0 (N := N) wf j
  have hw1 := rowScatter_window1 (N := N) wf j
  have hi0 : (row2 i).val < N := (row2 i).isLt
  have hi1 : (col2 i).val < C := (col2 i).isLt
  have hj1 : (col2 j).val < C := (col2 j).isLt
  rw [Fin.ext_iff (a := col2 j)]
  unfold ScatterDims.resultIdx?
  split
  · rename_i h
    rw [Option.some.injEq]
    constructor
    · intro he
      have e0 : ((rowScatterDims N E C wf).start j idx 0 + ((rowScatterDims N E C wf).window j 0 : Int)).toNat = (row2 i).val :=
        congrArg (fun f : (⟨2, ![N, C]⟩ : Shape).Idx => (f 0).val) he
      have e1 : ((rowScatterDims N E C wf).start j idx 1 + ((rowScatterDims N E C wf).window j 1 : Int)).toNat = (col2 i).val :=
        congrArg (fun f : (⟨2, ![N, C]⟩ : Shape).Idx => (f 1).val) he
      have h0 := (h 0).1
      rw [hs0, hw0] at h0 e0
      rw [hs1, hw1] at e1
      constructor <;> omega
    · rintro ⟨e0, e1⟩
      funext a; refine Fin.ext ?_
      rcases fin2_cases a with rfl | rfl
      · show ((rowScatterDims N E C wf).start j idx 0 + ((rowScatterDims N E C wf).window j 0 : Int)).toNat = (row2 i).val
        rw [hs0, hw0, e0]; omega
      · show ((rowScatterDims N E C wf).start j idx 1 + ((rowScatterDims N E C wf).window j 1 : Int)).toNat = (col2 i).val
        rw [hs1, hw1, e1]; omega
  · rename_i h
    constructor
    · intro he; exact absurd he (by simp)
    · rintro ⟨e0, e1⟩
      exfalso; apply h
      intro a
      rcases fin2_cases a with rfl | rfl
      · show 0 ≤ (rowScatterDims N E C wf).start j idx 0 + ((rowScatterDims N E C wf).window j 0 : Int) ∧
          (rowScatterDims N E C wf).start j idx 0 + ((rowScatterDims N E C wf).window j 0 : Int) < (N : Int)
        rw [hs0, hw0, e0]; constructor <;> omega
      · show 0 ≤ (rowScatterDims N E C wf).start j idx 1 + ((rowScatterDims N E C wf).window j 1 : Int) ∧
          (rowScatterDims N E C wf).start j idx 1 + ((rowScatterDims N E C wf).window j 1 : Int) < (C : Int)
        rw [hs1, hw1]; constructor <;> omega

/-- THE SCATTER-ADD READ AT `(i, k)`: the operand's element plus the sum, over the edges that name node `i`,
    of the updates' element `(e, k)`. -/
theorem hostScatterAdd_row_apply (x : (⟨2, ![N, C]⟩ : Shape).Idx → EReal) (upd : (⟨2, ![E, C]⟩ : Shape).Idx → EReal)
    (i : (⟨2, ![N, C]⟩ : Shape).Idx) :
    Ideal.hostScatterAdd (rowScatterDims N E C wf) x idx upd i =
      x i + ∑ e ∈ Finset.univ.filter (fun e : Fin E => nodeSigned idx e = ((row2 i).val : Int)), upd (ix2 e (col2 i)) := by
  unfold Ideal.hostScatterAdd
  congr 1
  refine Finset.sum_nbij' (fun j => row2 j) (fun e => ix2 e (col2 i)) ?_ ?_ ?_ ?_ ?_
  · intro a ha
    rw [Finset.mem_filter] at ha ⊢
    exact ⟨Finset.mem_univ _, ((rowScatter_resultIdx?_eq_some wf idx a i).1 ha.2).1⟩
  · intro e he
    rw [Finset.mem_filter] at he ⊢
    exact ⟨Finset.mem_univ _, (rowScatter_resultIdx?_eq_some wf idx (ix2 e (col2 i)) i).2 ⟨he.2, rfl⟩⟩
  · intro a ha
    rw [Finset.mem_filter] at ha
    have h := ((rowScatter_resultIdx?_eq_some wf idx a i).1 ha.2).2
    show ix2 (row2 a) (col2 i) = a
    rw [← h]; exact ix2_row2_col2 a
  · intro e _; rfl
  · intro a ha
    rw [Finset.mem_filter] at ha
    have h := ((rowScatter_resultIdx?_eq_some wf idx a i).1 ha.2).2
    show upd a = upd (ix2 (row2 a) (col2 i))
    rw [← h, ix2_row2_col2]

/-- The same onto a table of zeros: the segment sum. -/
theorem hostScatterAdd_row_zero (upd : (⟨2, ![E, C]⟩ : Shape).Idx → EReal) (i : (⟨2, ![N, C]⟩ : Shape).Idx) :
    Ideal.hostScatterAdd (rowScatterDims N E C wf) (fun _ => 0) idx upd i =
      ∑ e ∈ Finset.univ.filter (fun e : Fin E => nodeSigned idx e = ((row2 i).val : Int)), upd (ix2 e (col2 i)) := by
  rw [hostScatterAdd_row_apply, zero_add]

end Scatter

end Cert.Math

end
-- ==== Proof.MathMore.lean ====
/-
  Smaller facts the two programs' layers are joined with: a comparison-and-select read as an
  `if`, the ELU in the programs' own select form, the in-degree count as a real number at least
  zero, the reciprocal square root of a nonnegative real plus a positive one, and an accumulator
  that adds one block's sum per step.
-/
import proofs.«403053_j58033598104012_3_alg».proof.Proof.MathReal
import Idealize.ShloMosaic.PureOps.Float
import Mathlib.Algebra.BigOperators.Intervals

namespace Cert.Math

open Idealize.ShloMosaic
open scoped BigOperators

/-! ## Comparison and select -/

/-- `x > y` as a bit. -/
theorem cmp_ogt_eq_one_iff (x y : EReal) : Ideal.cmp .ogt x y = 1 ↔ y < x := by
  unfold Ideal.cmp
  by_cases h : y < x <;> simp [h]

/-- A select on `x > y` is an `if`. -/
theorem select_cmp_ogt {α : Type} (x y : EReal) (a b : α) :
    Scalar.select (Ideal.cmp .ogt x y) a b = if y < x then a else b := by
  unfold Scalar.select
  by_cases h : y < x
  · rw [if_pos ((cmp_ogt_eq_one_iff x y).2 h), if_pos h]
  · rw [if_neg (fun h' => h ((cmp_ogt_eq_one_iff x y).1 h')), if_neg h]

/-- THE ELU, in the select form of the two programs: where `x > 0` both are `x`; elsewhere the kernel's
    `e^(min x 0) - 1` is the reference's `1 · expm1 (x where not x > 0)`. For every extended real. -/
theorem elu_select (x : EReal) :
    Scalar.select (Ideal.cmp .ogt x 0) x (Ideal.exp (min x 0) - 1) =
      Scalar.select (Ideal.cmp .ogt x 0) x (1 * Ideal.expm1 (Scalar.select (Ideal.cmp .ogt x 0) 0 x)) := by
  rw [select_cmp_ogt, select_cmp_ogt, select_cmp_ogt]
  by_cases h : 0 < x
  · rw [if_pos h, if_pos h]
  · rw [if_neg h, if_neg h, if_neg h, one_mul, Ideal.expm1, min_eq_left (not_lt.1 h)]

/-- The ELU of a real is real. -/
theorem isReal_elu {x : EReal} (hx : IsReal x) :
    IsReal (Scalar.select (Ideal.cmp .ogt x 0) x (Ideal.exp (min x 0) - 1)) := by
  rw [select_cmp_ogt]
  exact IsReal.ite hx (IsReal.sub (IsReal.exp (IsReal.min hx IsReal.zero)) IsReal.one)

/-! ## The in-degree -/

/-- A sum of ones over a finite set is its cardinal. -/
theorem sum_one_eq_card {ι : Type*} (S : Finset ι) : ∑ _e ∈ S, (1 : EReal) = ((S.card : ℝ) : EReal) := by
  have : ∑ _e ∈ S, (1 : EReal) = ∑ _e ∈ S, (((1 : ℝ)) : EReal) := rfl
  rw [this, coe_sum, Finset.sum_const, nsmul_eq_mul, mul_one]

/-- The divisor `max (in-degree) 1`: a real at least one, so not zero. -/
theorem max_card_one {ι : Type*} (S : Finset ι) :
    max (((S.card : ℝ)) : EReal) 1 = ((max (S.card : ℝ) 1 : ℝ) : EReal) := by
  rw [← EReal.coe_one, max_coe]

theorem max_card_one_ne_zero {ι : Type*} (S : Finset ι) : max (S.card : ℝ) 1 ≠ 0 :=
  (lt_of_lt_of_le one_pos (le_max_right _ _)).ne'

/-! ## The normalisation's reciprocal square root -/

/-- `rsqrt (v + ε)` is real for a real `v ≥ 0` and a real `ε > 0`. -/
theorem isReal_rsqrt_add {v e : EReal} (hv : IsReal v) (h0 : 0 ≤ v) (he : IsReal e) (hpos : 0 < e) :
    IsReal (Ideal.rsqrt (v + e)) := by
  obtain ⟨a, rfl⟩ := hv; obtain ⟨b, rfl⟩ := he
  have ha : 0 ≤ a := EReal.coe_nonneg.1 h0
  have hb : 0 < b := EReal.coe_pos.1 hpos
  rw [← EReal.coe_add]
  exact ⟨_, rsqrt_coe_pos (add_pos_of_nonneg_of_pos ha hb)⟩

/-! ## An accumulator over the grid -/

/-- An accumulator that starts at zero and adds `g t` at step `t` holds, after `m` steps, the sum of the
    first `m` terms. -/
theorem acc_eq_sum {M : Type*} [AddCommMonoid M] (g acc : ℕ → M) (h0 : acc 0 = 0)
    (hs : ∀ t, acc (t + 1) = acc t + g t) (m : ℕ) : acc m = ∑ b ∈ Finset.range m, g b := by
  induction m with
  | zero => simpa using h0
  | succ m ih => rw [hs, ih, Finset.sum_range_succ]

end Cert.Math
-- ==== Proof.BridgeCore.lean ====
/-
  One layer's batch normalisation and ELU, the kernel's way and the reference's way, on real values.

  Both programs normalise a column of the convolution's output by its mean and variance over the
  nodes and pass the result through ELU. They differ in three places. The reference takes the
  variance as the mean of the squared deviations from the mean; the kernel takes the mean of the
  squares minus the square of the mean, clamped below at zero. The reference's ELU is
  `1 · expm1` of the argument masked to zero on the positive side; the kernel's is
  `exp (min · 0) - 1`. And the reference's sums start from an explicit zero. On real columns the
  two agree, and every value along the way is real: the variance is not negative, so the variance
  plus the positive epsilon has a real reciprocal square root.
-/
import proofs.«403053_j58033598104012_3_alg».proof.Proof.MathLayer
import Idealize.ShloMosaic.Lib.IdealHost
import Mathlib.Tactic.NormNum

noncomputable section

namespace Cert.Hand.Bridge

open Cert.Math Idealize.ShloMosaic
open scoped BigOperators

/-! ## The constants -/

/-- The node count as a float: the pattern `0x47C35000` is the real 100000. -/
theorem ofBits_nodes : Ideal.ofBits .f32 0x47C35000#32 = ((100000 : ℝ) : EReal) := by
  simp [Ideal.ofBits, Ideal.ieee, -EReal.coe_mul]; norm_num

/-- The batch norm's epsilon: the float nearest 1e-5. -/
def epsR : ℝ := 10995116 * (2 : ℝ) ^ (-40 : ℤ)

theorem epsR_pos : 0 < epsR := by unfold epsR; positivity

/-- The pattern `0x3727C5AC` is that real. -/
theorem ofBits_eps : Ideal.ofBits .f32 0x3727C5AC#32 = ((epsR : ℝ) : EReal) := by
  unfold epsR
  simp [Ideal.ofBits, Ideal.ieee, -EReal.coe_mul]

/-! ## A select on "greater than zero" -/

/-- A select on the comparison `z > 0` is the `if` on `0 < z`. -/
theorem select_ogt_zero {α : Type} (z : EReal) (a b : α) :
    Scalar.select (Ideal.cmp .ogt z 0) a b = if 0 < z then a else b := by
  by_cases h : 0 < z
  · rw [if_pos h]; simp [Ideal.cmp, h, Scalar.select]
  · rw [if_neg h]; simp [Ideal.cmp, h, Scalar.select]

/-! ## The two ELUs -/

/-- The kernel's ELU: `z` where positive, else `e^(min z 0) - 1`. -/
def eluK (z : EReal) : EReal := if 0 < z then z else Ideal.exp (min z 0) - 1

/-- The reference's ELU: `z` where positive, else `1 · expm1` of `z` masked to zero where positive. -/
def eluR (z : EReal) : EReal := if 0 < z then z else 1 * Ideal.expm1 (if 0 < z then 0 else z)

theorem eluK_eq_eluR (z : EReal) : eluK z = eluR z := elu_eq z

/-- The ELU of a real is real. -/
theorem isReal_eluK {z : EReal} (hz : IsReal z) : IsReal (eluK z) := by
  unfold eluK
  exact IsReal.ite hz (IsReal.sub (IsReal.exp (IsReal.min hz IsReal.zero)) IsReal.one)

/-! ## A column's statistics -/

section Stats
variable {N : ℕ}

/-- The mean of a real column is real. -/
theorem isReal_mean (y : Fin N → EReal) (hy : ∀ i, IsReal (y i)) (n : ℝ) (h0 : n ≠ 0) :
    IsReal (Ideal.div (∑ i, y i) (n : EReal)) :=
  IsReal.div (IsReal.sum _ fun i _ => hy i) (IsReal.coe n) (fun h => h0 (EReal.coe_eq_zero.1 h))

/-- The kernel's clamped one-pass variance of a real column is the reference's two-pass variance. -/
theorem var_bridge (y : Fin N → EReal) (hy : ∀ i, IsReal (y i)) (n : ℝ) (hn : n = (N : ℝ)) (h0 : 0 < n) :
    max (Ideal.div (∑ i, y i * y i) (n : EReal)
          - Ideal.div (∑ i, y i) (n : EReal) * Ideal.div (∑ i, y i) (n : EReal)) 0
      = Ideal.div (∑ i, (y i - Ideal.div (∑ i, y i) (n : EReal)) * (y i - Ideal.div (∑ i, y i) (n : EReal))) (n : EReal) := by
  choose r hr using hy
  obtain rfl : y = fun i => ((r i : ℝ) : EReal) := funext hr
  exact var_eq r n (by rw [hn, Fintype.card_fin]) h0

/-- The clamped variance of a real column is real and not negative. -/
theorem isReal_var (y : Fin N → EReal) (hy : ∀ i, IsReal (y i)) (n : ℝ) (h0 : n ≠ 0) :
    IsReal (max (Ideal.div (∑ i, y i * y i) (n : EReal)
          - Ideal.div (∑ i, y i) (n : EReal) * Ideal.div (∑ i, y i) (n : EReal)) 0) :=
  IsReal.max (IsReal.sub (IsReal.div (IsReal.sum _ fun i _ => IsReal.mul (hy i) (hy i)) (IsReal.coe n)
      (fun h => h0 (EReal.coe_eq_zero.1 h))) (IsReal.mul (isReal_mean y hy n h0) (isReal_mean y hy n h0))) IsReal.zero

end Stats

/-! ## The normalised value -/

/-- A real that is not negative plus the epsilon is positive. -/
theorem add_eps_pos {v : EReal} (hv : IsReal v) (h0 : 0 ≤ v) : 0 < v + (epsR : EReal) := by
  obtain ⟨r, rfl⟩ := hv
  rw [← EReal.coe_add]
  exact EReal.coe_pos.2 (add_pos_of_nonneg_of_pos (EReal.coe_nonneg.1 h0) epsR_pos)

/-- The normalised value `(y - m) · rsqrt (v + ε) · g + b` of reals, `v` not negative, is real. -/
theorem isReal_normed {y m v g b : EReal} (hy : IsReal y) (hm : IsReal m) (hv : IsReal v) (h0 : 0 ≤ v)
    (hg : IsReal g) (hb : IsReal b) :
    IsReal ((y - m) * Ideal.rsqrt (v + (epsR : EReal)) * g + b) :=
  IsReal.add (IsReal.mul (IsReal.mul (IsReal.sub hy hm)
    (IsReal.rsqrt (IsReal.add hv (IsReal.coe epsR)) (add_eps_pos hv h0))) hg) hb

/-! ## One element of the layer's output -/

/-- ONE ELEMENT: for a real output array `y` of the convolution (rows `Fin N`, columns `Fin C`), real scale and
    shift, the kernel's element (one-pass clamped variance, its ELU) is the reference's (two-pass variance, its
    ELU), and it is real. -/
theorem layer_elt {N C : ℕ} (n : ℝ) (hn : n = (N : ℝ)) (h0 : 0 < n)
    (y : Fin N → Fin C → EReal) (hy : ∀ i k, IsReal (y i k))
    (g be : Fin C → EReal) (hg : ∀ k, IsReal (g k)) (hbe : ∀ k, IsReal (be k)) (i : Fin N) (k : Fin C) :
    eluK ((y i k - Ideal.div (∑ i, y i k) (n : EReal))
          * Ideal.rsqrt (max (Ideal.div (∑ i, y i k * y i k) (n : EReal)
              - Ideal.div (∑ i, y i k) (n : EReal) * Ideal.div (∑ i, y i k) (n : EReal)) 0 + (epsR : EReal))
          * g k + be k)
      = eluR ((y i k - Ideal.div (∑ i, y i k) (n : EReal))
          * Ideal.rsqrt (Ideal.div (∑ i, (y i k - Ideal.div (∑ i, y i k) (n : EReal))
              * (y i k - Ideal.div (∑ i, y i k) (n : EReal))) (n : EReal) + (epsR : EReal))
          * g k + be k)
    ∧ IsReal (eluK ((y i k - Ideal.div (∑ i, y i k) (n : EReal))
          * Ideal.rsqrt (max (Ideal.div (∑ i, y i k * y i k) (n : EReal)
              - Ideal.div (∑ i, y i k) (n : EReal) * Ideal.div (∑ i, y i k) (n : EReal)) 0 + (epsR : EReal))
          * g k + be k)) := by
  refine ⟨?_, ?_⟩
  · rw [eluK_eq_eluR, var_bridge (fun i => y i k) (fun i => hy i k) n hn h0]
  · exact isReal_eluK (isReal_normed (hy i k) (isReal_mean _ (fun i => hy i k) n h0.ne')
      (isReal_var _ (fun i => hy i k) n h0.ne') (le_max_right _ _) (hg k) (hbe k))

end Cert.Hand.Bridge

end
-- ==== Proof.AggReal.lean ====
/-
  The reference's neighbour aggregation read at an index, at the real-valued reading.

  The mean over the incoming edges of a node is the segment sum of the rows gathered at the edges' sources, over
  the in-degree clamped below at one. Read at an index, the segment sum is the sum over the edges whose target is
  the node; the clamped in-degree is a real number at least one; so the mean of real rows is real. Also here: the
  reference's broadcasts, its matrix product and its column sum at width 16, read at an index.
-/
import proofs.«403053_j58033598104012_3_alg».proof.Proof.RefLayers
import proofs.«403053_j58033598104012_3_alg».proof.Proof.MathLayer
import proofs.«403053_j58033598104012_3_alg».proof.Proof.MathScatter
import proofs.«403053_j58033598104012_3_alg».proof.Proof.MathMore
import proofs.«403053_j58033598104012_3_alg».proof.Proof.BridgeCore
import Idealize.ShloMosaic.Lib.IdealHost
import Idealize.ShloMosaic.Lib.StackMember
import Idealize.ShloMosaic.Lib.Pipeline.Value
import Mathlib.Tactic.NormNum

noncomputable section
namespace Cert.Hand.Bridge
open Cert.ReferenceIdeal Cert.ReferenceIdeal.Hand Idealize.ShloMosaic Idealize.ShloMosaic.ValueIdx
open Cert.ReferenceIdeal.Facts₀ Cert.ReferenceIdeal.Facts
open Cert.Math
open scoped BigOperators

/-! ## The reference's operations at an index -/

theorem dot64x16_apply (a : FVec Ideal S100000x64 .f32) (w : FVec Ideal S64x16 .f32) (i : Fin 100000) (k : Fin 16) :
    Host.dotGeneral dot_S100000x64_S64x16_S100000x16_1_0_0_1_n_n none a w (ix2 i k) = ∑ j : Fin 64, a (ix2 i j) * w (ix2 j k) :=
  StackMember.dotGeneral_plain_apply (m := 100000) (n := 16) (k := 64) none a w i k

theorem bcastRow16_apply {α : Type} (v : S16.Idx → α) (i : Fin 100000) (k : Fin 16) :
    broadcastInDim S100000x16 ![0, 1] bcast_S1x16_S100000x16_0_1 (broadcastInDim S1x16 ![1] bcast_S16_S1x16_1 v) (ix2 i k) = v (ix1 k) := by
  rw [broadcastInDim_apply _ _ _ _ (ix2 (0 : Fin 1) k) (fun a => by match a with | ⟨0, _⟩ => rfl | ⟨1, _⟩ => rfl)]
  rw [broadcastInDim_apply _ _ _ _ (ix1 k) (fun a => by match a with | ⟨0, _⟩ => rfl)]

theorem bcastRow1x16_apply {α : Type} (v : S1x16.Idx → α) (i : Fin 100000) (k : Fin 16) :
    broadcastInDim S100000x16 ![0, 1] bcast_S1x16_S100000x16_0_1 v (ix2 i k) = v (ix2 (0 : Fin 1) k) := by
  rw [broadcastInDim_apply _ _ _ _ (ix2 (0 : Fin 1) k) (fun a => by match a with | ⟨0, _⟩ => rfl | ⟨1, _⟩ => rfl)]

theorem bcast16_1x16_apply {α : Type} (v : S16.Idx → α) (k : Fin 16) :
    broadcastInDim S1x16 ![1] bcast_S16_S1x16_1 v (ix2 (0 : Fin 1) k) = v (ix1 k) := by
  rw [broadcastInDim_apply _ _ _ _ (ix1 k) (fun a => by match a with | ⟨0, _⟩ => rfl)]

theorem bcastCol16_apply {α : Type} (v : S100000x1.Idx → α) (i : Fin 100000) (k : Fin 16) :
    broadcastInDim S100000x16 ![0, 1] bcast_S100000x1_S100000x16_0_1 v (ix2 i k) = v (ix2 i (⟨0, Nat.one_pos⟩ : Fin 1)) := by
  rw [broadcastInDim_apply _ _ _ _ (ix2 i (⟨0, Nat.one_pos⟩ : Fin 1)) (fun a => by match a with | ⟨0, _⟩ => rfl | ⟨1, _⟩ => rfl)]

theorem bcastCol32_apply {α : Type} (v : S100000x1.Idx → α) (i : Fin 100000) (k : Fin 32) :
    broadcastInDim S100000x32 ![0, 1] bcast_S100000x1_S100000x32_0_1 v (ix2 i k) = v (ix2 i (⟨0, Nat.one_pos⟩ : Fin 1)) := by
  rw [broadcastInDim_apply _ _ _ _ (ix2 i (⟨0, Nat.one_pos⟩ : Fin 1)) (fun a => by match a with | ⟨0, _⟩ => rfl | ⟨1, _⟩ => rfl)]

theorem bcastCol64_apply {α : Type} (v : S100000x1.Idx → α) (i : Fin 100000) (k : Fin 64) :
    broadcastInDim S100000x64 ![0, 1] bcast_S100000x1_S100000x64_0_1 v (ix2 i k) = v (ix2 i (⟨0, Nat.one_pos⟩ : Fin 1)) := by
  rw [broadcastInDim_apply _ _ _ _ (ix2 i (⟨0, Nat.one_pos⟩ : Fin 1)) (fun a => by match a with | ⟨0, _⟩ => rfl | ⟨1, _⟩ => rfl)]

theorem reduce16_apply (y : FVec Ideal S100000x16 .f32) (k : Fin 16) :
    Host.reduceAdd y (constant S_ .f32 0x00000000#32) reducesTo_S100000x16_S16_d0 h_S_ (ix1 k) = ∑ i : Fin 100000, y (ix2 i k) := by
  rw [hostReduceAdd_apply, Ideal.hostReduceAdd_single reducesTo_S100000x16_S16_d0 (by decide : S100000x16.Reduces [0] S16)]
  rw [constant_apply, Ideal.ofBits_zero_f32, zero_add]
  refine Finset.sum_congr rfl fun i _ => ?_
  congr 1
  funext c
  match c with
  | ⟨0, _⟩ => rfl
  | ⟨1, _⟩ => rfl

/-! ## The neighbour aggregation at an index -/

/-- The edges whose target is node `i`. -/
def inEdges (dc : IVec S3200000x1 32) (i : Fin 100000) : Finset (Fin 3200000) :=
  Finset.univ.filter (fun e : Fin 3200000 => nodeSigned dc e = ((i.val : ℕ) : Int))

/-- The source node of edge `e`. -/
def srcNode (sc : IVec S3200000x1 32) (e : Fin 3200000) : Fin 100000 :=
  nodeClamped (N := 100000) (Nat.succ_pos _) sc e

/-- The in-degree of node `i` clamped below at one. -/
def degv (dc : IVec S3200000x1 32) (i : Fin 100000) : EReal :=
  max (∑ _e ∈ inEdges dc i, (1 : EReal)) 1

/-- The clamped in-degree is a real number that is at least one. -/
theorem degv_real (dc : IVec S3200000x1 32) (i : Fin 100000) : ∃ c : ℝ, 1 ≤ c ∧ degv dc i = ((c : ℝ) : EReal) := by
  obtain ⟨r, hr⟩ := IsReal.sum (inEdges dc i) (f := fun _ => (1 : EReal)) (fun _ _ => IsReal.one)
  refine ⟨max r 1, le_max_right _ _, ?_⟩
  unfold degv
  rw [hr, ← EReal.coe_one, max_coe]

/-- A segment sum of gathered rows at `(i, k)`: the sum over the edges into `i` of the source rows' column `k`. -/
theorem segsum_apply {C : Nat}
    (wfs : ScatterDims.WF ⟨2, ![100000, C]⟩ ⟨2, ![3200000, 1]⟩ ⟨2, ![3200000, C]⟩ [1] [0] [0] 1)
    (wfg : GatherDims.WF ⟨2, ![100000, C]⟩ ⟨2, ![3200000, 1]⟩ ⟨2, ![3200000, C]⟩ [1] [0] [] [0] [] 1 ![1, C])
    (z x : (⟨2, ![100000, C]⟩ : Shape).Idx → EReal) (hz : ∀ i, z i = 0) (sc dc : IVec S3200000x1 32)
    (i : Fin 100000) (k : Fin C) :
    Ideal.hostScatterAdd (rowScatterDims 100000 3200000 C wfs) z dc (Host.gather (rowGatherDims 100000 3200000 C wfg) x sc) (ix2 i k) =
      ∑ e ∈ inEdges dc i, x (ix2 (srcNode sc e) k) := by
  rw [hostScatterAdd_row_apply, hz, zero_add, row2_ix2, col2_ix2]
  unfold inEdges srcNode
  refine Finset.sum_congr (Eq.refl _) fun e _ => ?_
  rw [gather_row_apply (N := 100000) (Nat.succ_pos _), row2_ix2, col2_ix2]

theorem zeros_apply {T : Shape} (h : (⟨0, ![]⟩ : Shape).BroadcastsInDim T ![]) (j : T.Idx) :
    broadcastInDim T ![] h (constant (F := Ideal) S_ .f32 0x00000000#32) j = 0 := by
  rw [broadcastInDim_scalar_apply, constant_apply, Ideal.ofBits_zero_f32]

theorem ones_apply {T : Shape} (h : (⟨0, ![]⟩ : Shape).BroadcastsInDim T ![]) (j : T.Idx) :
    broadcastInDim T ![] h (constant (F := Ideal) S_ .f32 0x3F800000#32) j = 1 := by
  rw [broadcastInDim_scalar_apply, constant_apply, Ideal.ofBits_one_f32]

theorem scatter64_eq : scatter_S100000x64_S3200000x1_S3200000x64_1_0_0_1 =
    rowScatterDims 100000 3200000 64 scatter_S100000x64_S3200000x1_S3200000x64_1_0_0_1_wf := rfl
theorem gather64_eq : gather_S100000x64_S3200000x1_S3200000x64_1_0_n_n_0_1_164 =
    rowGatherDims 100000 3200000 64 gather_S100000x64_S3200000x1_S3200000x64_1_0_n_n_0_1_164_wf := rfl
theorem scatter16_eq : scatter_S100000x16_S3200000x1_S3200000x16_1_0_0_1 =
    rowScatterDims 100000 3200000 16 scatter_S100000x16_S3200000x1_S3200000x16_1_0_0_1_wf := rfl
theorem gather16_eq : gather_S100000x16_S3200000x1_S3200000x16_1_0_n_n_0_1_116 =
    rowGatherDims 100000 3200000 16 gather_S100000x16_S3200000x1_S3200000x16_1_0_n_n_0_1_116_wf := rfl
theorem scatter1_eq : scatter_S100000x1_S3200000x1_S3200000x1_1_0_0_1 =
    rowScatterDims 100000 3200000 1 scatter_S100000x1_S3200000x1_S3200000x1_1_0_0_1_wf := rfl
theorem scatter32_eq : scatter_S100000x32_S3200000x1_S3200000x32_1_0_0_1 =
    rowScatterDims 100000 3200000 32 scatter_S100000x32_S3200000x1_S3200000x32_1_0_0_1_wf := rfl
theorem gather32_eq : gather_S100000x32_S3200000x1_S3200000x32_1_0_n_n_0_1_132 =
    rowGatherDims 100000 3200000 32 gather_S100000x32_S3200000x1_S3200000x32_1_0_n_n_0_1_132_wf := rfl

/-- The same for any dimension numbers that are the row scatter's and the row gather's, stated on the host's operations. -/
theorem segsum_host_apply {C : Nat}
    (wfs : ScatterDims.WF ⟨2, ![100000, C]⟩ ⟨2, ![3200000, 1]⟩ ⟨2, ![3200000, C]⟩ [1] [0] [0] 1)
    (wfg : GatherDims.WF ⟨2, ![100000, C]⟩ ⟨2, ![3200000, 1]⟩ ⟨2, ![3200000, C]⟩ [1] [0] [] [0] [] 1 ![1, C])
    (ds : ScatterDims ⟨2, ![100000, C]⟩ ⟨2, ![3200000, 1]⟩ ⟨2, ![3200000, C]⟩) (hds : ds = rowScatterDims 100000 3200000 C wfs)
    (dg : GatherDims ⟨2, ![100000, C]⟩ ⟨2, ![3200000, 1]⟩ ⟨2, ![3200000, C]⟩) (hdg : dg = rowGatherDims 100000 3200000 C wfg)
    (z x : FVec Ideal ⟨2, ![100000, C]⟩ .f32) (hz : ∀ i, z i = 0) (sc dc : IVec S3200000x1 32)
    (i : Fin 100000) (k : Fin C) :
    Host.scatterAdd (F := Ideal) ds z dc (Host.gather dg x sc) (ix2 i k) = ∑ e ∈ inEdges dc i, x (ix2 (srcNode sc e) k) := by
  subst hds; subst hdg
  exact segsum_apply wfs wfg z x hz sc dc i k

/-- The clamped in-degree on the host: ones scatter-added at the targets onto zeros, clamped below at one. -/
theorem count_host_apply {C : Nat} (hC : 0 < C)
    (wfs : ScatterDims.WF ⟨2, ![100000, C]⟩ ⟨2, ![3200000, 1]⟩ ⟨2, ![3200000, C]⟩ [1] [0] [0] 1)
    (ds : ScatterDims ⟨2, ![100000, C]⟩ ⟨2, ![3200000, 1]⟩ ⟨2, ![3200000, C]⟩) (hds : ds = rowScatterDims 100000 3200000 C wfs)
    (z o : FVec Ideal ⟨2, ![100000, C]⟩ .f32) (u : FVec Ideal ⟨2, ![3200000, C]⟩ .f32)
    (hz : ∀ i, z i = 0) (ho : ∀ i, o i = 1) (hu : ∀ i, u i = 1) (dc : IVec S3200000x1 32) (i : Fin 100000) :
    maximumf (Host.scatterAdd (F := Ideal) ds z dc u) o (ix2 i (⟨0, hC⟩ : Fin C)) = degv dc i := by
  subst hds
  rw [maximumf_apply, ho]
  unfold Host.scatterAdd
  rw [Ideal.hostScatterAdd_def, hostScatterAdd_row_apply, hz, zero_add, row2_ix2, col2_ix2]
  unfold degv inEdges
  simp only [hu]

theorem deg_apply (dc : IVec S3200000x1 32) (i : Fin 100000) :
    deg (F := Ideal) dc (ix2 i (⟨0, Nat.one_pos⟩ : Fin 1)) = degv dc i := by
  delta deg
  exact count_host_apply Nat.one_pos _ _ scatter1_eq _ _ _ (fun i => zeros_apply _ i) (fun i => ones_apply _ i) (fun i => ones_apply _ i) dc i

/-- The mean over the incoming edges on the host: the segment sum of the gathered rows over a divisor that reads the
    clamped in-degree. -/
theorem agg_host_apply {C : Nat}
    (wfs : ScatterDims.WF ⟨2, ![100000, C]⟩ ⟨2, ![3200000, 1]⟩ ⟨2, ![3200000, C]⟩ [1] [0] [0] 1)
    (wfg : GatherDims.WF ⟨2, ![100000, C]⟩ ⟨2, ![3200000, 1]⟩ ⟨2, ![3200000, C]⟩ [1] [0] [] [0] [] 1 ![1, C])
    (ds : ScatterDims ⟨2, ![100000, C]⟩ ⟨2, ![3200000, 1]⟩ ⟨2, ![3200000, C]⟩) (hds : ds = rowScatterDims 100000 3200000 C wfs)
    (dg : GatherDims ⟨2, ![100000, C]⟩ ⟨2, ![3200000, 1]⟩ ⟨2, ![3200000, C]⟩) (hdg : dg = rowGatherDims 100000 3200000 C wfg)
    (z x : FVec Ideal ⟨2, ![100000, C]⟩ .f32) (hz : ∀ i, z i = 0) (sc dc : IVec S3200000x1 32)
    (dv : FVec Ideal ⟨2, ![100000, C]⟩ .f32) (hdv : ∀ i k, dv (ix2 i k) = degv dc i)
    (i : Fin 100000) (k : Fin C) :
    Host.divf (Host.scatterAdd (F := Ideal) ds z dc (Host.gather dg x sc)) dv (ix2 i k) =
      Ideal.div (∑ e ∈ inEdges dc i, x (ix2 (srcNode sc e) k)) (degv dc i) := by
  rw [hostDivf_apply, segsum_host_apply wfs wfg ds hds dg hdg z x hz sc dc i k, hdv]

theorem degBcast16 (dc : IVec S3200000x1 32) (i : Fin 100000) (k : Fin 16) :
    broadcastInDim S100000x16 ![0, 1] bcast_S100000x1_S100000x16_0_1 (deg (F := Ideal) dc) (ix2 i k) = degv dc i :=
  (bcastCol16_apply _ i k).trans (deg_apply dc i)
theorem degBcast32 (dc : IVec S3200000x1 32) (i : Fin 100000) (k : Fin 32) :
    broadcastInDim S100000x32 ![0, 1] bcast_S100000x1_S100000x32_0_1 (deg (F := Ideal) dc) (ix2 i k) = degv dc i :=
  (bcastCol32_apply _ i k).trans (deg_apply dc i)
theorem degBcast64 (dc : IVec S3200000x1 32) (i : Fin 100000) (k : Fin 64) :
    broadcastInDim S100000x64 ![0, 1] bcast_S100000x1_S100000x64_0_1 (deg (F := Ideal) dc) (ix2 i k) = degv dc i :=
  (bcastCol64_apply _ i k).trans (deg_apply dc i)

theorem agg64_apply (x : FVec Ideal S100000x64 .f32) (sc dc : IVec S3200000x1 32) (i : Fin 100000) (j : Fin 64) :
    agg64 (F := Ideal) x sc dc (ix2 i j) = Ideal.div (∑ e ∈ inEdges dc i, x (ix2 (srcNode sc e) j)) (degv dc i) := by
  delta agg64 msgSum64
  exact agg_host_apply _ _ _ scatter64_eq _ gather64_eq _ x (fun i => zeros_apply _ i) sc dc _ (degBcast64 dc) i j

theorem agg32_apply (x : FVec Ideal S100000x32 .f32) (sc dc : IVec S3200000x1 32) (i : Fin 100000) (j : Fin 32) :
    agg32 (F := Ideal) x sc dc (ix2 i j) = Ideal.div (∑ e ∈ inEdges dc i, x (ix2 (srcNode sc e) j)) (degv dc i) := by
  delta agg32 msgSum32
  exact agg_host_apply _ _ _ scatter32_eq _ gather32_eq _ x (fun i => zeros_apply _ i) sc dc _ (degBcast32 dc) i j

theorem agg16_apply (x : FVec Ideal S100000x16 .f32) (sc dc : IVec S3200000x1 32) (i : Fin 100000) (k : Fin 16) :
    agg16 (F := Ideal) x sc dc (ix2 i k) = Ideal.div (∑ e ∈ inEdges dc i, x (ix2 (srcNode sc e) k)) (degv dc i) := by
  delta agg16 msgSum16
  exact agg_host_apply _ _ _ scatter16_eq _ gather16_eq _ x (fun i => zeros_apply _ i) sc dc _ (degBcast16 dc) i k

/-- A mean over the incoming edges of real values over the clamped in-degree is real. -/
theorem div_degv_real {ι : Type} (S : Finset ι) (f : ι → EReal) (hf : ∀ e, IsReal (f e)) (dc : IVec S3200000x1 32) (i : Fin 100000) :
    IsReal (Ideal.div (∑ e ∈ S, f e) (degv dc i)) := by
  obtain ⟨c, hc1, hc⟩ := degv_real dc i
  refine IsReal.div (IsReal.sum _ fun e _ => hf e) ⟨c, hc⟩ ?_
  rw [hc]; intro h
  have h0 : c = 0 := by exact_mod_cast h
  linarith

/-- The mean over the incoming edges of a real array is real (widths 16, 32, 64). -/
theorem isReal_agg16 (h : FVec Ideal S100000x16 .f32) (hh : ∀ j, IsReal (h j)) (sc dc : IVec S3200000x1 32)
    (j : (⟨2, ![100000, 16]⟩ : Shape).Idx) : IsReal (agg16 (F := Ideal) h sc dc j) := by
  rw [← ix2_row2_col2 j, agg16_apply]; exact div_degv_real _ _ (fun e => hh _) dc _
theorem isReal_agg32 (h : FVec Ideal S100000x32 .f32) (hh : ∀ j, IsReal (h j)) (sc dc : IVec S3200000x1 32)
    (j : (⟨2, ![100000, 32]⟩ : Shape).Idx) : IsReal (agg32 (F := Ideal) h sc dc j) := by
  rw [← ix2_row2_col2 j, agg32_apply]; exact div_degv_real _ _ (fun e => hh _) dc _
theorem isReal_agg64 (h : FVec Ideal S100000x64 .f32) (hh : ∀ j, IsReal (h j)) (sc dc : IVec S3200000x1 32)
    (j : (⟨2, ![100000, 64]⟩ : Shape).Idx) : IsReal (agg64 (F := Ideal) h sc dc j) := by
  rw [← ix2_row2_col2 j, agg64_apply]; exact div_degv_real _ _ (fun e => hh _) dc _

end Cert.Hand.Bridge
-- ==== Proof.Bridge1.lean ====
/-
  Layer 1 of the kernel program is layer 1 of the reference, for real-valued inputs.

  The reference averages the neighbours' feature rows (width 64) and multiplies the average by the relation weights;
  the kernel multiplies every row by the relation weights first (width 16) and averages the products. A finite sum and
  a division by a nonzero real commute with a matrix product, so the two convolutions agree entry by entry. The
  reference's batch statistics are the two-pass mean and variance; the kernel's are the column sums of the values and
  of their squares, the variance clamped at zero: equal on real columns. The two ELUs agree everywhere.
-/
import proofs.«403053_j58033598104012_3_alg».proof.Proof.AggReal

noncomputable section
namespace Cert.Hand.Bridge
open Cert.ReferenceIdeal Cert.ReferenceIdeal.Hand Idealize.ShloMosaic Idealize.ShloMosaic.ValueIdx
open Cert.ReferenceIdeal.Facts₀ Cert.ReferenceIdeal.Facts
open Cert.Math
open scoped BigOperators

/-! ## Linearity of the aggregation -/

/-- LINEARITY: the mean over the incoming edges of the projected rows is the projection of the mean of the rows. -/
theorem agg_linear (x : FVec Ideal S100000x64 .f32) (wrel : FVec Ideal S64x16 .f32)
    (hx : ∀ i, IsReal (x i)) (hw : ∀ i, IsReal (wrel i)) (p1 : FVec Ideal S100000x16 .f32)
    (hp : ∀ i k, p1 (ix2 i k) = ∑ j : Fin 64, x (ix2 i j) * wrel (ix2 j k))
    (sc dc : IVec S3200000x1 32) (i : Fin 100000) (k : Fin 16) :
    agg16 (F := Ideal) p1 sc dc (ix2 i k) = ∑ j : Fin 64, agg64 (F := Ideal) x sc dc (ix2 i j) * wrel (ix2 j k) := by
  choose xr hxr using hx
  choose wr hwr using hw
  obtain ⟨c, hc1, hc⟩ := degv_real dc i
  rw [agg16_apply, hc]
  simp only [agg64_apply, hc, hp, hxr, hwr]
  exact mean_matmul (inEdges dc i) (fun e j => xr (ix2 (srcNode sc e) j)) (fun j => wr (ix2 j k)) c (by linarith)

/-! ## Layer 1 of the reference at an index -/

/-- The convolution's three terms on the host, at `(i, k)`. -/
theorem conv_host_apply (a x : FVec Ideal S100000x64 .f32) (wrel wroot : FVec Ideal S64x16 .f32) (b : FVec Ideal S16 .f32)
    (i : Fin 100000) (k : Fin 16) :
    addf (addf (Host.dotGeneral dot_S100000x64_S64x16_S100000x16_1_0_0_1_n_n none a wrel)
        (Host.dotGeneral dot_S100000x64_S64x16_S100000x16_1_0_0_1_n_n none x wroot))
      (broadcastInDim S100000x16 ![0, 1] bcast_S1x16_S100000x16_0_1 (broadcastInDim S1x16 ![1] bcast_S16_S1x16_1 b)) (ix2 i k) =
      ((∑ j : Fin 64, a (ix2 i j) * wrel (ix2 j k)) + ∑ j : Fin 64, x (ix2 i j) * wroot (ix2 j k)) + b (ix1 k) := by
  rw [addf_apply, addf_apply, dot64x16_apply, dot64x16_apply, bcastRow16_apply]

theorem conv1_apply (x : FVec Ideal S100000x64 .f32) (s d : IVec S3200000 32) (wrel wroot : FVec Ideal S64x16 .f32)
    (b : FVec Ideal S16 .f32) (i : Fin 100000) (k : Fin 16) :
    conv1 (F := Ideal) x s d wrel wroot b (ix2 i k) =
      ((∑ j : Fin 64, agg64 (F := Ideal) x (srcCol s) (dstCol d) (ix2 i j) * wrel (ix2 j k)) +
        ∑ j : Fin 64, x (ix2 i j) * wroot (ix2 j k)) + b (ix1 k) := by
  delta conv1
  exact conv_host_apply _ x wrel wroot b i k

theorem mean16_apply (y : FVec Ideal S100000x16 .f32) (k : Fin 16) :
    mean16 (F := Ideal) y (ix1 k) = Ideal.div (∑ i : Fin 100000, y (ix2 i k)) ((100000 : ℝ) : EReal) := by
  delta mean16
  rw [hostDivf_apply, reduce16_apply, broadcastInDim_scalar_apply, constant_apply, ofBits_nodes]

/-- The variance's denominator: the node count minus a zero correction. -/
theorem den_eq : Ideal.ofBits .f32 0x47C35000#32 - FloatOps.sitofp (F := Ideal) .f32 (0#32 : BitVec 32) = ((100000 : ℝ) : EReal) := by
  rw [ofBits_nodes]
  show ((100000 : ℝ) : EReal) - (((0#32 : BitVec 32).toInt : ℝ) : EReal) = _
  rw [show (0#32 : BitVec 32).toInt = 0 from rfl, Int.cast_zero, EReal.coe_zero, sub_zero]

/-- The column mean broadcast over the rows, as the variance reads it. -/
theorem meanRow16_apply (y : FVec Ideal S100000x16 .f32) (i : Fin 100000) (k : Fin 16) :
    broadcastInDim S100000x16 ![0, 1] bcast_S1x16_S100000x16_0_1
      (Host.divf (broadcastInDim S1x16 ![1] bcast_S16_S1x16_1 (Host.reduceAdd y (constant S_ .f32 0x00000000#32) reducesTo_S100000x16_S16_d0 h_S_))
        (broadcastInDim S1x16 ![] bcast_S_S1x16 (constant S_ .f32 0x47C35000#32))) (ix2 i k) =
      Ideal.div (∑ i : Fin 100000, y (ix2 i k)) ((100000 : ℝ) : EReal) := by
  rw [bcastRow1x16_apply, hostDivf_apply, bcast16_1x16_apply, reduce16_apply, broadcastInDim_scalar_apply, constant_apply, ofBits_nodes]

theorem var16_apply (y : FVec Ideal S100000x16 .f32) (k : Fin 16) :
    var16 (F := Ideal) y (ix1 k) =
      Ideal.div (∑ i : Fin 100000,
        (y (ix2 i k) - Ideal.div (∑ i : Fin 100000, y (ix2 i k)) ((100000 : ℝ) : EReal)) *
        (y (ix2 i k) - Ideal.div (∑ i : Fin 100000, y (ix2 i k)) ((100000 : ℝ) : EReal))) ((100000 : ℝ) : EReal) := by
  delta var16
  rw [select_apply, broadcastInDim_scalar_apply, cmpf_apply, subf_apply, constant_apply, constant_apply, sitofp_apply,
    show constantI S_ 32 (0#32) ix0 = (0#32 : BitVec 32) from rfl, den_eq, Ideal.ofBits_zero_f32, Ideal.cmpf_def, select_cmp_ogt,
    if_pos (by exact_mod_cast (by norm_num : (0:ℝ) < 100000))]
  rw [hostDivf_apply, broadcastInDim_scalar_apply, subf_apply, constant_apply, sitofp_apply,
    show constantI S_ 32 (0#32) ix0 = (0#32 : BitVec 32) from rfl, den_eq, reduce16_apply]
  refine congrArg (fun t => Ideal.div t ((100000 : ℝ) : EReal)) (Finset.sum_congr rfl fun i _ => ?_)
  rw [mulf_apply, subf_apply, meanRow16_apply]

theorem hostRsqrt_at16 {s : Shape} (v : FVec Ideal s .f32) (i : s.Idx) : Host.rsqrt v i = Ideal.rsqrt (v i) := rfl
theorem hostExpm1_at16 {s : Shape} (v : FVec Ideal s .f32) (i : s.Idx) : Host.expm1 v i = Ideal.expm1 (v i) := rfl

theorem bn16_apply (y : FVec Ideal S100000x16 .f32) (g be : FVec Ideal S16 .f32) (i : Fin 100000) (k : Fin 16) :
    bn16 (F := Ideal) y g be (ix2 i k) =
      (y (ix2 i k) - mean16 (F := Ideal) y (ix1 k)) * Ideal.rsqrt (var16 (F := Ideal) y (ix1 k) + (epsR : EReal)) * g (ix1 k) + be (ix1 k) := by
  delta bn16
  rw [addf_apply, mulf_apply, mulf_apply, subf_apply, bcastRow16_apply, bcastRow16_apply, bcastRow16_apply, bcastRow16_apply,
    hostRsqrt_at16, addf_apply, broadcastInDim_scalar_apply, constant_apply, ofBits_eps]

theorem elu16_apply (z : FVec Ideal S100000x16 .f32) (i : Fin 100000) (k : Fin 16) :
    elu16 (F := Ideal) z (ix2 i k) = eluR (z (ix2 i k)) := by
  delta elu16
  rw [select_apply, cmpf_apply, zeros_apply, mulf_apply, ones_apply, hostExpm1_at16, select_apply, cmpf_apply, zeros_apply,
    Ideal.cmpf_def, select_cmp_ogt, select_cmp_ogt]
  rfl

/-- Batch normalisation then ELU of an array at `(i, k)`, the column statistics written out. -/
theorem bnelu16_apply (c : FVec Ideal S100000x16 .f32) (g be : FVec Ideal S16 .f32) (i : Fin 100000) (k : Fin 16) :
    elu16 (F := Ideal) (bn16 (F := Ideal) c g be) (ix2 i k) =
      eluR ((c (ix2 i k) - Ideal.div (∑ i : Fin 100000, c (ix2 i k)) ((100000 : ℝ) : EReal))
          * Ideal.rsqrt (Ideal.div (∑ i : Fin 100000,
              (c (ix2 i k) - Ideal.div (∑ i : Fin 100000, c (ix2 i k)) ((100000 : ℝ) : EReal))
              * (c (ix2 i k) - Ideal.div (∑ i : Fin 100000, c (ix2 i k)) ((100000 : ℝ) : EReal))) ((100000 : ℝ) : EReal) + (epsR : EReal))
          * g (ix1 k) + be (ix1 k)) := by
  rw [elu16_apply, bn16_apply, mean16_apply, var16_apply]

/-- LAYER 1. For real inputs: if `p1` is the projection of the rows by the relation weights, `y` the root product plus the
    mean over the incoming edges of `p1` plus the bias, `sS` and `qS` the column sums of `y` and of its squares, the mean
    and the clamped one-pass variance taken from them, and `hK` the normalised `y` through the kernel's ELU, then `hK` is
    the reference's layer 1, and every element of it is real. -/
theorem bridge1
    (x : FVec Ideal S100000x64 .f32) (s d : IVec S3200000 32) (wrel wroot : FVec Ideal S64x16 .f32) (b g be : FVec Ideal S16 .f32)
    (hx : ∀ i, IsReal (x i)) (hwrel : ∀ i, IsReal (wrel i)) (hwroot : ∀ i, IsReal (wroot i))
    (hb : ∀ i, IsReal (b i)) (hg : ∀ i, IsReal (g i)) (hbe : ∀ i, IsReal (be i))
    (p1 y hK : FVec Ideal S100000x16 .f32) (sS qS mK vK gK bK : Fin 16 → EReal)
    (hp : ∀ i k, p1 (ix2 i k) = ∑ j : Fin 64, x (ix2 i j) * wrel (ix2 j k))
    (hy : ∀ i k, y (ix2 i k) = ((∑ j : Fin 64, x (ix2 i j) * wroot (ix2 j k))
        + agg16 (F := Ideal) p1 (srcCol s) (dstCol d) (ix2 i k)) + b (ix1 k))
    (hs : ∀ k, sS k = ∑ i : Fin 100000, y (ix2 i k))
    (hq : ∀ k, qS k = ∑ i : Fin 100000, y (ix2 i k) * y (ix2 i k))
    (hm : ∀ k, mK k = Ideal.div (sS k) (Ideal.ofBits .f32 0x47C35000#32))
    (hv : ∀ k, vK k = max (Ideal.div (qS k) (Ideal.ofBits .f32 0x47C35000#32) - mK k * mK k) 0)
    (hgK : ∀ k, gK k = g (ix1 k)) (hbK : ∀ k, bK k = be (ix1 k))
    (hh : ∀ i k, hK (ix2 i k) =
      eluK ((y (ix2 i k) - mK k) * Ideal.rsqrt (vK k + Ideal.ofBits .f32 0x3727C5AC#32) * gK k + bK k)) :
    hK = h1 (F := Ideal) x s d wrel wroot b g be ∧ ∀ j, IsReal (hK j) := by
  have hyc : ∀ i k, y (ix2 i k) = conv1 (F := Ideal) x s d wrel wroot b (ix2 i k) := fun i k => by
    rw [hy, conv1_apply, agg_linear x wrel hx hwrel p1 hp, add_comm (∑ j : Fin 64, x (ix2 i j) * wroot (ix2 j k))]
  have hyr : ∀ i k, IsReal (y (ix2 i k)) := fun i k => by
    rw [hyc, conv1_apply]
    exact IsReal.add (IsReal.add (IsReal.sum _ fun j _ => IsReal.mul (isReal_agg64 x hx _ _ _) (hwrel _))
      (IsReal.sum _ fun j _ => IsReal.mul (hx _) (hwroot _))) (hb _)
  have hyeq : y = conv1 (F := Ideal) x s d wrel wroot b :=
    funext fun j => by rw [← ix2_row2_col2 j]; exact hyc _ _
  have hel : ∀ i k, hK (ix2 i k) = h1 (F := Ideal) x s d wrel wroot b g be (ix2 i k) ∧ IsReal (hK (ix2 i k)) := fun i k => by
    have hk := layer_elt (N := 100000) (C := 16) 100000 (by norm_num) (by norm_num) (fun i k => y (ix2 i k)) hyr
      (fun k => g (ix1 k)) (fun k => be (ix1 k)) (fun k => hg _) (fun k => hbe _) i k
    beta_reduce at hk
    rw [hh, hv, hm, hs, hq, hgK, hbK, ofBits_nodes, ofBits_eps]
    refine ⟨?_, hk.2⟩
    rw [hk.1]
    delta h1
    rw [← hyeq]
    exact (bnelu16_apply y g be i k).symm
  exact ⟨funext fun j => by rw [← ix2_row2_col2 j]; exact (hel _ _).1,
    fun j => by rw [← ix2_row2_col2 j]; exact (hel _ _).2⟩

end Cert.Hand.Bridge
-- ==== Proof.PreFinite.lean ====
import proofs.«403053_j58033598104012_3_alg».proof.Defs
import Idealize.ShloMosaic.Lib.ReduceAll
import Idealize.ShloMosaic.Lib.Affine
import Idealize.ShloMosaic.Lib.ValueIdx

/-!
  Finiteness of the float inputs.  The precondition is a conjunction, over the float arguments, of
  "every entry x has |x| < +∞" (an all-reduction by ∧ of the entrywise comparison).  In the extended
  reals |x| = max x (-x), and max x (-x) < ⊤ excludes both ⊤ and ⊥, so x is a real number.
-/

noncomputable section

namespace Cert.Hand.Pre

open Idealize.ShloMosaic Idealize.SL.Sem Cert.Pre_finite_inputs

/-- The rank-0 shape has exactly one index. -/
instance : Subsingleton S_.Idx := ⟨fun a b => funext fun d => d.elim0⟩

/-- An extended real whose absolute value max x (-x) is below ⊤ is a real: ⊤ and ⊥ both have
    absolute value ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 (sign 0, exponent all ones, fraction 0) denotes +∞. -/
theorem inf_bits : (Ideal.ofBits .f32 0x7F800000#32 : EReal) = ⊤ := by simp [Ideal.ofBits, Ideal.ieee]

/-- A one-bit word read off a boolean is 1 only when the boolean is true. -/
theorem ofBool_eq_one {b : Bool} (h : BitVec.ofBool b = 1#1) : b = true := by
  cases b with
  | true => rfl
  | false => exact absurd h (by decide)

/-- One conjunct: if the ∧-reduction over all of s of |x i| < +∞ is 1, every entry of x is a real. -/
theorem entry_real {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (e : Host.reduce IntOp.andi (cmpf .olt (Host.absf x) (broadcastInDim s ![] hb (constant S_ .f32 0x7F800000#32)))
      init hr hu j = 1#1)
    (i : s.Idx) : ∃ r : ℝ, x i = (r : EReal) := by
  have h : Ideal.cmp .olt (max (x i) (-(x i))) (Ideal.ofBits .f32 0x7F800000#32) = 1#1 :=
    Host.reduce_andi_all _ _ hr hu j e i
  rw [inf_bits] at h
  have h' : BitVec.ofBool (decide (max (x i) (-(x i)) < (⊤ : EReal))) = 1#1 := h
  exact real_of_abs_lt_top _ (of_decide_eq_true (ofBool_eq_one h'))

variable [Cert.Pre_finite_inputs.Facts]

/-- Every float argument's entries are reals, on one device. -/
structure AllReal (m : (ℓ : Loc Cert.KernelIdeal.nD Cert.KernelIdeal.τ Cert.KernelIdeal.sig) → Buf (Elt Ideal) ℓ) (c : Dev Cert.KernelIdeal.nD) : Prop where
  a0 : ∀ i, ∃ r : ℝ, m ((c.tc : Thread Cert.KernelIdeal.nD Cert.KernelIdeal.τ).loc Cert.KernelIdeal.main_arg0) i = (r : EReal)
  a3 : ∀ i, ∃ r : ℝ, m ((c.tc : Thread Cert.KernelIdeal.nD Cert.KernelIdeal.τ).loc Cert.KernelIdeal.main_arg3) i = (r : EReal)
  a4 : ∀ i, ∃ r : ℝ, m ((c.tc : Thread Cert.KernelIdeal.nD Cert.KernelIdeal.τ).loc Cert.KernelIdeal.main_arg4) i = (r : EReal)
  a5 : ∀ i, ∃ r : ℝ, m ((c.tc : Thread Cert.KernelIdeal.nD Cert.KernelIdeal.τ).loc Cert.KernelIdeal.main_arg5) i = (r : EReal)
  a6 : ∀ i, ∃ r : ℝ, m ((c.tc : Thread Cert.KernelIdeal.nD Cert.KernelIdeal.τ).loc Cert.KernelIdeal.main_arg6) i = (r : EReal)
  a7 : ∀ i, ∃ r : ℝ, m ((c.tc : Thread Cert.KernelIdeal.nD Cert.KernelIdeal.τ).loc Cert.KernelIdeal.main_arg7) i = (r : EReal)
  a8 : ∀ i, ∃ r : ℝ, m ((c.tc : Thread Cert.KernelIdeal.nD Cert.KernelIdeal.τ).loc Cert.KernelIdeal.main_arg8) i = (r : EReal)
  a9 : ∀ i, ∃ r : ℝ, m ((c.tc : Thread Cert.KernelIdeal.nD Cert.KernelIdeal.τ).loc Cert.KernelIdeal.main_arg9) i = (r : EReal)
  a10 : ∀ i, ∃ r : ℝ, m ((c.tc : Thread Cert.KernelIdeal.nD Cert.KernelIdeal.τ).loc Cert.KernelIdeal.main_arg10) i = (r : EReal)
  a11 : ∀ i, ∃ r : ℝ, m ((c.tc : Thread Cert.KernelIdeal.nD Cert.KernelIdeal.τ).loc Cert.KernelIdeal.main_arg11) i = (r : EReal)
  a12 : ∀ i, ∃ r : ℝ, m ((c.tc : Thread Cert.KernelIdeal.nD Cert.KernelIdeal.τ).loc Cert.KernelIdeal.main_arg12) i = (r : EReal)
  a13 : ∀ i, ∃ r : ℝ, m ((c.tc : Thread Cert.KernelIdeal.nD Cert.KernelIdeal.τ).loc Cert.KernelIdeal.main_arg13) i = (r : EReal)
  a14 : ∀ i, ∃ r : ℝ, m ((c.tc : Thread Cert.KernelIdeal.nD Cert.KernelIdeal.τ).loc Cert.KernelIdeal.main_arg14) i = (r : EReal)
  a15 : ∀ i, ∃ r : ℝ, m ((c.tc : Thread Cert.KernelIdeal.nD Cert.KernelIdeal.τ).loc Cert.KernelIdeal.main_arg15) i = (r : EReal)
  a16 : ∀ i, ∃ r : ℝ, m ((c.tc : Thread Cert.KernelIdeal.nD Cert.KernelIdeal.τ).loc Cert.KernelIdeal.main_arg16) i = (r : EReal)
  a17 : ∀ i, ∃ r : ℝ, m ((c.tc : Thread Cert.KernelIdeal.nD Cert.KernelIdeal.τ).loc Cert.KernelIdeal.main_arg17) i = (r : EReal)
  a18 : ∀ i, ∃ r : ℝ, m ((c.tc : Thread Cert.KernelIdeal.nD Cert.KernelIdeal.τ).loc Cert.KernelIdeal.main_arg18) i = (r : EReal)
  a19 : ∀ i, ∃ r : ℝ, m ((c.tc : Thread Cert.KernelIdeal.nD Cert.KernelIdeal.τ).loc Cert.KernelIdeal.main_arg19) i = (r : EReal)
  a20 : ∀ i, ∃ r : ℝ, m ((c.tc : Thread Cert.KernelIdeal.nD Cert.KernelIdeal.τ).loc Cert.KernelIdeal.main_arg20) i = (r : EReal)
  a21 : ∀ i, ∃ r : ℝ, m ((c.tc : Thread Cert.KernelIdeal.nD Cert.KernelIdeal.τ).loc Cert.KernelIdeal.main_arg21) i = (r : EReal)
  a22 : ∀ i, ∃ r : ℝ, m ((c.tc : Thread Cert.KernelIdeal.nD Cert.KernelIdeal.τ).loc Cert.KernelIdeal.main_arg22) i = (r : EReal)
  a23 : ∀ i, ∃ r : ℝ, m ((c.tc : Thread Cert.KernelIdeal.nD Cert.KernelIdeal.τ).loc Cert.KernelIdeal.main_arg23) i = (r : EReal)
  a24 : ∀ i, ∃ r : ℝ, m ((c.tc : Thread Cert.KernelIdeal.nD Cert.KernelIdeal.τ).loc Cert.KernelIdeal.main_arg24) i = (r : EReal)
  a25 : ∀ i, ∃ r : ℝ, m ((c.tc : Thread Cert.KernelIdeal.nD Cert.KernelIdeal.τ).loc Cert.KernelIdeal.main_arg25) i = (r : EReal)
  a26 : ∀ i, ∃ r : ℝ, m ((c.tc : Thread Cert.KernelIdeal.nD Cert.KernelIdeal.τ).loc Cert.KernelIdeal.main_arg26) i = (r : EReal)

/-- The precondition's 25-fold conjunction, peeled: one fact per float argument. -/
theorem allReal (m : (ℓ : Loc Cert.KernelIdeal.nD Cert.KernelIdeal.τ Cert.KernelIdeal.sig) → Buf (Elt Ideal) ℓ) (h : Cert.Pre_KernelIdeal m) (c : Dev Cert.KernelIdeal.nD) : AllReal m c := by
  have h0 := congrFun (h c) ValueIdx.ix0
  dsimp only [fn, fn_part1, fn_part2, fn_part3, fn_part4, fn_part5, fn_part6, fn_part7, Idealize.ShloMosaic.andi] at h0
  simp only [IntOp.andi_eq_one] at h0
  obtain ⟨⟨⟨⟨⟨⟨⟨⟨⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩, e26⟩ := h0
  exact ⟨entry_real _ _ _ _ _ _ e0, entry_real _ _ _ _ _ _ e3, entry_real _ _ _ _ _ _ e4, entry_real _ _ _ _ _ _ e5, entry_real _ _ _ _ _ _ e6, entry_real _ _ _ _ _ _ e7, entry_real _ _ _ _ _ _ e8, entry_real _ _ _ _ _ _ e9, entry_real _ _ _ _ _ _ e10, entry_real _ _ _ _ _ _ e11, entry_real _ _ _ _ _ _ e12, entry_real _ _ _ _ _ _ e13, entry_real _ _ _ _ _ _ e14, entry_real _ _ _ _ _ _ e15, entry_real _ _ _ _ _ _ e16, entry_real _ _ _ _ _ _ e17, entry_real _ _ _ _ _ _ e18, entry_real _ _ _ _ _ _ e19, entry_real _ _ _ _ _ _ e20, entry_real _ _ _ _ _ _ e21, entry_real _ _ _ _ _ _ e22, entry_real _ _ _ _ _ _ e23, entry_real _ _ _ _ _ _ e24, entry_real _ _ _ _ _ _ e25, entry_real _ _ _ _ _ _ e26⟩

theorem fin_arg0 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) := (allReal m h c).a0
theorem fin_arg3 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) := (allReal m h c).a3
theorem fin_arg4 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) := (allReal m h c).a4
theorem fin_arg5 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) := (allReal m h c).a5
theorem fin_arg6 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) := (allReal m h c).a6
theorem fin_arg7 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) := (allReal m h c).a7
theorem fin_arg8 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) := (allReal m h c).a8
theorem fin_arg9 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) := (allReal m h c).a9
theorem fin_arg10 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) := (allReal m h c).a10
theorem fin_arg11 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) := (allReal m h c).a11
theorem fin_arg12 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) := (allReal m h c).a12
theorem fin_arg13 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg13) i = (r : EReal) := (allReal m h c).a13
theorem fin_arg14 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg14) i = (r : EReal) := (allReal m h c).a14
theorem fin_arg15 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg15) i = (r : EReal) := (allReal m h c).a15
theorem fin_arg16 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg16) i = (r : EReal) := (allReal m h c).a16
theorem fin_arg17 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg17) i = (r : EReal) := (allReal m h c).a17
theorem fin_arg18 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg18) i = (r : EReal) := (allReal m h c).a18
theorem fin_arg19 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg19) i = (r : EReal) := (allReal m h c).a19
theorem fin_arg20 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg20) i = (r : EReal) := (allReal m h c).a20
theorem fin_arg21 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg21) i = (r : EReal) := (allReal m h c).a21
theorem fin_arg22 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg22) i = (r : EReal) := (allReal m h c).a22
theorem fin_arg23 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg23) i = (r : EReal) := (allReal m h c).a23
theorem fin_arg24 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg24) i = (r : EReal) := (allReal m h c).a24
theorem fin_arg25 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg25) i = (r : EReal) := (allReal m h c).a25
theorem fin_arg26 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg26) i = (r : EReal) := (allReal m h c).a26

end Cert.Hand.Pre
-- ==== Proof.KerLink1.lean ====
import proofs.«403053_j58033598104012_3_alg».proof.Proof.KerValue
import proofs.«403053_j58033598104012_3_alg».proof.Proof.HostRead
import proofs.«403053_j58033598104012_3_alg».proof.Proof.Bridge1
import proofs.«403053_j58033598104012_3_alg».proof.Proof.PreFinite

noncomputable section

namespace Cert.KernelIdeal.Hand

open Cert.KernelIdeal Cert.KernelIdeal.Gen
open Idealize.ShloMosaic Idealize.ShloMosaic.TcCoe
open Idealize.SL.Sem
open Idealize.ShloMosaic.ValueIdx
open Cert.Math
open scoped BigOperators

variable [Cert.Pre_finite_inputs.Facts]
variable (m : (ℓ : Loc nD τ sig) → Buf (Elt Ideal) ℓ)

/-! # Layer 1: what the kernel's regions 0, 1, 2 and the host glue between them leave is the reference's layer 1

Region 0 projects the node rows by the relation weights; the host takes the neighbour means of the projected rows;
region 1 adds the node rows times the root weights and the bias and sums the columns and their squares; the host
takes the mean and the clamped one-pass variance; region 2 normalises, scales, shifts and applies ELU. On real
arguments this is the reference's layer 1 (neighbour means first, then the two products), and every entry is real. -/

theorem link1 (hpre : Cert.Pre_KernelIdeal m) (c : Dev nD) :
    outs m 6 main_v39 c
      = Cert.ReferenceIdeal.Hand.h1 (F := Ideal) (V0 m c main_arg0) (Cert.ReferenceIdeal.Hand.srcOf (V0 m c main_arg1))
          (Cert.ReferenceIdeal.Hand.dstOf (V0 m c main_arg1)) (V0 m c main_arg3) (V0 m c main_arg4) (V0 m c main_arg5)
          (V0 m c main_arg6) (V0 m c main_arg7)
      ∧ ∀ i, IsReal (outs m 6 main_v39 c i) := by
  refine Cert.Hand.Bridge.bridge1 (V0 m c main_arg0) (Cert.ReferenceIdeal.Hand.srcOf (V0 m c main_arg1))
    (Cert.ReferenceIdeal.Hand.dstOf (V0 m c main_arg1)) (V0 m c main_arg3) (V0 m c main_arg4) (V0 m c main_arg5)
    (V0 m c main_arg6) (V0 m c main_arg7)
    (Cert.Hand.Pre.fin_arg0 m hpre c) (Cert.Hand.Pre.fin_arg3 m hpre c) (Cert.Hand.Pre.fin_arg4 m hpre c)
    (Cert.Hand.Pre.fin_arg5 m hpre c) (Cert.Hand.Pre.fin_arg6 m hpre c) (Cert.Hand.Pre.fin_arg7 m hpre c)
    (outs m 2 main_v8 c) (outs m 4 main_v24_0 c) (outs m 6 main_v39 c)
    (fun k => outs m 4 main_v24_1 c (ix2 (0 : Fin 1) k)) (fun k => outs m 4 main_v24_2 c (ix2 (0 : Fin 1) k))
    (fun k => meanOf16 (F := Ideal) (outs m 4 main_v24_1 c) (ix1 k))
    (fun k => varOf16 (F := Ideal) (outs m 4 main_v24_1 c) (outs m 4 main_v24_2 c) (ix1 k))
    (fun k => V0 m c main_arg6 (ix1 k)) (fun k => V0 m c main_arg7 (ix1 k))
    ?_ ?_ ?_ ?_ ?_ ?_ (fun _ => rfl) (fun _ => rfl) ?_
  · -- the projection
    intro i k
    rw [kv0]
    exact matProd0_apply _ _ i k
  · -- the linear map: root product, neighbour mean of the projection, bias
    intro i k
    rw [kv1_0, f1_4_apply, row16_apply]
    rfl
  · -- the column sums
    intro k
    show outs m 4 main_v24_1 c (ix2 (0 : Fin 1) k) = _
    rw [kv1_1, f1_5_apply, kv1_0]
  · -- the column sums of squares
    intro k
    show outs m 4 main_v24_2 c (ix2 (0 : Fin 1) k) = _
    rw [kv1_2, f1_6_apply, kv1_0]
  · -- the mean
    intro k
    exact meanOf16_apply _ k
  · -- the clamped one-pass variance
    intro k
    show varOf16 (F := Ideal) (outs m 4 main_v24_1 c) (outs m 4 main_v24_2 c) (ix1 k) = _
    rw [varOf16_apply, meanOf16_apply (outs m 4 main_v24_2 c)]
  · -- normalisation, scale, shift, ELU
    intro i k
    rw [kv2, bnElu2_apply, row16_apply, row16_apply, row16_apply, row16_apply]
    rfl

end Cert.KernelIdeal.Hand
-- ==== Proof.RefReadBase.lean ====
/-
  Width-independent readings of the reference's operations at an index: the variance's denominator, and the host's
  reciprocal square root and `expm1` at the extended reals.
-/
import proofs.«403053_j58033598104012_3_alg».proof.Proof.RefLayers
import proofs.«403053_j58033598104012_3_alg».proof.Proof.BridgeCore
import Idealize.ShloMosaic.Lib.StackMember
import Idealize.ShloMosaic.Lib.IdealHost
import Idealize.ShloMosaic.Lib.Pipeline.Value

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-- The variance's denominator, the node count minus a zero correction, is the real 100000. -/
theorem denom_apply :
    (subf (constant S_ .f32 0x47C35000#32) (sitofp .f32 (constantI S_ 32 0#32)) : FVec Ideal S_ .f32) ix0 = ((100000 : ℝ) : EReal) := by
  rw [subf_apply, constant_apply, ofBits_nodes]
  show ((100000 : ℝ) : EReal) - ((((0#32 : BitVec 32).toInt : ℤ) : ℝ) : EReal) = _
  simp

/-- The host's reciprocal square root at an index is the extended reals'. -/
theorem hostRsqrt_at {s : Shape} {φ : FTy} (x : FVec Ideal s φ) (j : s.Idx) : Host.rsqrt x j = Ideal.rsqrt (x j) := rfl

/-- The host's `expm1` at an index is the extended reals'. -/
theorem hostExpm1_at {s : Shape} {φ : FTy} (x : FVec Ideal s φ) (j : s.Idx) : Host.expm1 x j = Ideal.expm1 (x j) := rfl

end Cert.Hand.Bridge

end
-- ==== Proof.RefRead32.lean ====
/-
  The reference's batch statistics, normalisation and ELU at width 32 read at one element: the column means and
  variances as sums down a column over the node count, the batch normalisation and the ELU as real arithmetic on
  the element; and the broadcasts these go through (a scalar splat, a vector as a row, a row over the array).
-/
import proofs.«403053_j58033598104012_3_alg».proof.Proof.RefReadBase

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-! ## Broadcasts at an index -/

/-- A scalar splat over the [32] vector reads the scalar. -/
theorem splat32_apply {α : Type} (c : S_.Idx → α) (k : Fin 32) : broadcastInDim S32 ![] bcast_S_S32 c (ix1 k) = c ix0 :=
  broadcastInDim_scalar_apply _ _ _

/-- A scalar splat over the [1, 32] row reads the scalar. -/
theorem splat1x32_apply {α : Type} (c : S_.Idx → α) (k : Fin 32) :
    broadcastInDim S1x32 ![] bcast_S_S1x32 c (ix2 (0 : Fin 1) k) = c ix0 :=
  broadcastInDim_scalar_apply _ _ _

/-- A scalar splat over the [100000, 32] array reads the scalar. -/
theorem splat100000x32_apply {α : Type} (c : S_.Idx → α) (j : S100000x32.Idx) :
    broadcastInDim S100000x32 ![] bcast_S_S100000x32 c j = c ix0 :=
  broadcastInDim_scalar_apply _ _ _

/-- A [32] vector as a [1, 32] row reads the vector at the column. -/
theorem row32_apply {α : Type} (v : S32.Idx → α) (k : Fin 32) :
    broadcastInDim S1x32 ![1] bcast_S32_S1x32_1 v (ix2 (0 : Fin 1) k) = v (ix1 k) :=
  broadcastInDim_apply _ _ _ _ (ix1 k) (by intro a; match a with | ⟨0, _⟩ => rfl)

/-- A [1, 32] row over the [100000, 32] array reads the row at the column. -/
theorem rows32_apply {α : Type} (v : S1x32.Idx → α) (i : Fin 100000) (k : Fin 32) :
    broadcastInDim S100000x32 ![0, 1] bcast_S1x32_S100000x32_0_1 v (ix2 i k) = v (ix2 (0 : Fin 1) k) :=
  broadcastInDim_apply _ _ _ _ (ix2 (0 : Fin 1) k) (by intro a; match a with | ⟨0, _⟩ => rfl | ⟨1, _⟩ => rfl)

/-! ## The column sums, means and variances -/

/-- The column sums from an initial value: the initial value plus the sum down the column. -/
theorem colsum32_apply (y : FVec Ideal S100000x32 .f32) (c : FVec Ideal S_ .f32) (k : Fin 32) :
    Host.reduceAdd y c reducesTo_S100000x32_S32_d0 h_S_ (ix1 k) = c ix0 + ∑ i : Fin 100000, y (ix2 i k) := by
  have h : S100000x32.Reduces [0] S32 := by
    obtain ⟨e, hb⟩ := reducesTo_S100000x32_S32_d0
    exact ⟨e, Nat.one_pos, hb⟩
  rw [hostReduceAdd_apply, Ideal.hostReduceAdd_single reducesTo_S100000x32_S32_d0 h]
  show c (Shape.Idx.first h_S_) + ∑ i : Fin 100000, y (h.lift (ix1 k) i) = _
  have hl : ∀ i : Fin 100000, h.lift (ix1 k) i = ix2 i k := fun i => by
    funext a; match a with | ⟨0, _⟩ => rfl | ⟨1, _⟩ => rfl
  rw [Finset.sum_congr rfl fun i _ => congrArg y (hl i), show Shape.Idx.first h_S_ = ix0 from eq_ix0 _]

/-- The column mean: the column's sum (from zero) over the node count. -/
theorem mean32_apply (y : FVec Ideal S100000x32 .f32) (k : Fin 32) :
    mean32 (F := Ideal) y (ix1 k) = Ideal.div (0 + ∑ i : Fin 100000, y (ix2 i k)) ((100000 : ℝ) : EReal) := by
  unfold mean32
  rw [hostDivf_apply, colsum32_apply, splat32_apply, constant_apply, constant_apply, Ideal.ofBits_zero_f32, ofBits_nodes]

/-- The column variance: the sum down the column (from zero) of the squared deviations from the column's mean, over
    the node count; the guard on the denominator being positive holds. -/
theorem var32_apply (y : FVec Ideal S100000x32 .f32) (k : Fin 32) :
    var32 (F := Ideal) y (ix1 k)
      = Ideal.div (0 + ∑ i : Fin 100000,
          (y (ix2 i k) - Ideal.div (0 + ∑ i : Fin 100000, y (ix2 i k)) ((100000 : ℝ) : EReal))
            * (y (ix2 i k) - Ideal.div (0 + ∑ i : Fin 100000, y (ix2 i k)) ((100000 : ℝ) : EReal)))
          ((100000 : ℝ) : EReal) := by
  unfold var32
  rw [select_apply, splat32_apply, cmpf_apply, denom_apply, constant_apply, Ideal.ofBits_zero_f32]
  show Scalar.select (Ideal.cmp .ogt ((100000 : ℝ) : EReal) 0) _ _ = _
  rw [select_ogt_zero, if_pos (EReal.coe_pos.2 (by norm_num))]
  have hM : ∀ i : Fin 100000,
      (broadcastInDim S100000x32 ![0, 1] bcast_S1x32_S100000x32_0_1
        (Host.divf (broadcastInDim S1x32 ![1] bcast_S32_S1x32_1
            (Host.reduceAdd y (constant S_ .f32 0x00000000#32) reducesTo_S100000x32_S32_d0 h_S_))
          (broadcastInDim S1x32 ![] bcast_S_S1x32 (constant S_ .f32 0x47C35000#32))) : FVec Ideal S100000x32 .f32) (ix2 i k)
        = Ideal.div (0 + ∑ i : Fin 100000, y (ix2 i k)) ((100000 : ℝ) : EReal) := fun i => by
    rw [rows32_apply, hostDivf_apply, row32_apply, colsum32_apply, splat1x32_apply, constant_apply, constant_apply,
      Ideal.ofBits_zero_f32, ofBits_nodes]
  rw [hostDivf_apply, colsum32_apply, splat32_apply, denom_apply, constant_apply, Ideal.ofBits_zero_f32]
  simp only [mulf_apply, subf_apply, hM]

/-! ## Batch normalisation and ELU -/

/-- Batch normalisation at an element: the deviation from the column's mean times the reciprocal square root of the
    column's variance plus epsilon, times the scale, plus the shift. -/
theorem bn32_apply (y : FVec Ideal S100000x32 .f32) (g be : FVec Ideal S32 .f32) (i : Fin 100000) (k : Fin 32) :
    bn32 (F := Ideal) y g be (ix2 i k)
      = (y (ix2 i k) - mean32 (F := Ideal) y (ix1 k)) * Ideal.rsqrt (var32 (F := Ideal) y (ix1 k) + (epsR : EReal)) * g (ix1 k) + be (ix1 k) := by
  unfold bn32
  rw [addf_apply, mulf_apply, mulf_apply, subf_apply]
  rw [rows32_apply, rows32_apply, rows32_apply, rows32_apply, row32_apply, row32_apply, row32_apply, row32_apply]
  rw [hostRsqrt_at, addf_apply, splat32_apply, constant_apply, ofBits_eps]

/-- ELU at an element. -/
theorem elu32_apply (z : FVec Ideal S100000x32 .f32) (i : Fin 100000) (k : Fin 32) :
    elu32 (F := Ideal) z (ix2 i k) = eluR (z (ix2 i k)) := by
  unfold elu32 eluR
  rw [select_apply, cmpf_apply, splat100000x32_apply, constant_apply, Ideal.ofBits_zero_f32, mulf_apply,
    splat100000x32_apply, constant_apply, Ideal.ofBits_one_f32]
  show Scalar.select (Ideal.cmp .ogt (z (ix2 i k)) 0) _ (1 * Ideal.expm1 (select _ _ z (ix2 i k))) = _
  rw [select_ogt_zero, select_apply, cmpf_apply, splat100000x32_apply, constant_apply, Ideal.ofBits_zero_f32]
  show (if 0 < z (ix2 i k) then _ else 1 * Ideal.expm1 (Scalar.select (Ideal.cmp .ogt (z (ix2 i k)) 0) _ _)) = _
  rw [select_ogt_zero]

/-! ## The bias -/

/-- The bias, a [32] vector as a row over the [100000, 32] array, reads the vector at the column. -/
theorem bias32_apply {α : Type} (b : S32.Idx → α) (i : Fin 100000) (k : Fin 32) :
    broadcastInDim S100000x32 ![0, 1] bcast_S1x32_S100000x32_0_1 (broadcastInDim S1x32 ![1] bcast_S32_S1x32_1 b) (ix2 i k) = b (ix1 k) := by
  rw [rows32_apply, row32_apply]

end Cert.Hand.Bridge

end
-- ==== Proof.ConvRead2.lean ====
/-
  Convolution 2 (width 16 to 32) of the reference read at one element: the neighbour mean's row times the relation
  weights' column, plus the node's row times the root weights' column, plus the bias.
-/
import proofs.«403053_j58033598104012_3_alg».proof.Proof.RefRead32

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-- Convolution 2's product is the plain product of a [100000, 16] by a [16, 32] matrix. -/
theorem dot2_eq_plain : dot_S100000x16_S16x32_S100000x32_1_0_0_1_n_n = DotDims.plain 100000 16 32 := rfl

/-- Convolution 2 at an element: the neighbour mean's row times the relation weights' column, plus the node's row times
    the root weights' column, plus the bias. -/
theorem conv2_apply (x : FVec Ideal S100000x16 .f32) (s d : IVec S3200000 32) (wrel wroot : FVec Ideal S16x32 .f32)
    (b : FVec Ideal S32 .f32) (i : Fin 100000) (k : Fin 32) :
    conv2 (F := Ideal) x s d wrel wroot b (ix2 i k)
      = ((∑ j : Fin 16, agg16 (F := Ideal) x (srcCol s) (dstCol d) (ix2 i j) * wrel (ix2 j k))
          + ∑ j : Fin 16, x (ix2 i j) * wroot (ix2 j k)) + b (ix1 k) := by
  unfold conv2
  rw [addf_apply, addf_apply, dot2_eq_plain, dotGeneral_plain_apply, dotGeneral_plain_apply, bias32_apply]

end Cert.Hand.Bridge

end
-- ==== Proof.LaneView32.lean ====
/-
  The lane-dense view of a [100000, 32] array: the same elements in row-major order as [25000, 128], so that element
  `(i, k)` sits at row `(32 i + k) / 128`, lane `(32 i + k) % 128`; and a per-column vector tiled four times along
  the 128 lanes, so that lane `l` holds entry `l % 32`.
-/
import Idealize.ShloMosaic.Lib.ValueIdx

namespace Cert.Hand.Bridge

open Idealize.ShloMosaic Idealize.ShloMosaic.ValueIdx

/-- Reading the lane-dense view at the position of element `(i, k)` gives the element back. -/
theorem dense32_at {α : Type} (y : (⟨2, ![100000, 32]⟩ : Shape).Idx → α) (Yr : (⟨2, ![25000, 128]⟩ : Shape).Idx → α)
    (hYr : ∀ (r : Fin 25000) (l : Fin 128),
      Yr (ix2 r l) = y (ix2 ⟨(128 * r.val + l.val) / 32, by omega⟩ ⟨(128 * r.val + l.val) % 32, by omega⟩))
    (i : Fin 100000) (k : Fin 32) :
    Yr (ix2 ⟨(32 * i.val + k.val) / 128, by omega⟩ ⟨(32 * i.val + k.val) % 128, by omega⟩) = y (ix2 i k) := by
  have c : ∀ (a a' : Fin 100000) (b b' : Fin 32), a = a' → b = b' → y (ix2 a b) = y (ix2 a' b') := by
    rintro _ _ _ _ rfl rfl; rfl
  rw [hYr]
  refine c _ _ _ _ (Fin.ext ?_) (Fin.ext ?_)
  · show (128 * ((32 * i.val + k.val) / 128) + (32 * i.val + k.val) % 128) / 32 = i.val
    omega
  · show (128 * ((32 * i.val + k.val) / 128) + (32 * i.val + k.val) % 128) % 32 = k.val
    omega

/-- Reading a per-column vector tiled along the 128 lanes at the lane of element `(i, k)` gives the vector at `k`. -/
theorem tile32_at {α : Type} (v : (⟨1, ![32]⟩ : Shape).Idx → α) (Vt : (⟨2, ![1, 128]⟩ : Shape).Idx → α)
    (hVt : ∀ l : Fin 128, Vt (ix2 (0 : Fin 1) l) = v (ix1 ⟨l.val % 32, by omega⟩))
    (i : Fin 100000) (k : Fin 32) :
    Vt (ix2 (0 : Fin 1) ⟨(32 * i.val + k.val) % 128, by omega⟩) = v (ix1 k) := by
  rw [hVt]
  refine congrArg (fun a => v (ix1 a)) (Fin.ext ?_)
  show (32 * i.val + k.val) % 128 % 32 = k.val
  omega

end Cert.Hand.Bridge
-- ==== Proof.Bridge2.lean ====
/-
  Layer 2 of the network, the kernel's way and the reference's way.

  The reference's layer (graph convolution 16 to 32, batch normalisation, ELU) is read at one element
  as sums and real arithmetic; the kernel's layer is described by what its two kernels and the host
  glue between them leave at one element (the linear map with its column sums and sums of squares,
  the one-pass clamped variance, the lane-dense [25000, 128] view with the statistics tiled along the
  lanes, the normalisation and ELU there, the view undone). On real inputs the two give the same
  array and every element of it is real.
-/
import proofs.«403053_j58033598104012_3_alg».proof.Proof.ConvRead2
import proofs.«403053_j58033598104012_3_alg».proof.Proof.LaneView32
import Mathlib.Tactic.NormNum

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-- LAYER 2, the lane-dense view already undone. The kernel side is given by what it leaves at each element: `y` the linear
    map's output with its column sums `sS` and sums of squares `qS`, the mean and the clamped one-pass variance the host
    takes from them, and `hK` the normalisation and ELU of `y` with those. For real inputs (the previous layer's rows,
    their neighbour means, the weights, bias, scale and shift) `hK` is the reference's layer 2 and every element of it
    is real. -/
theorem layer2_bridge_flat
    (x : FVec Ideal S100000x16 .f32) (s d : IVec S3200000 32)
    (wrel wroot : FVec Ideal S16x32 .f32) (b g be : FVec Ideal S32 .f32)
    (hx : ∀ j, IsReal (x j)) (hagg : ∀ j, IsReal (agg16 (F := Ideal) x (srcCol s) (dstCol d) j))
    (hwrel : ∀ j, IsReal (wrel j)) (hwroot : ∀ j, IsReal (wroot j))
    (hb : ∀ j, IsReal (b j)) (hg : ∀ j, IsReal (g j)) (hbe : ∀ j, IsReal (be j))
    (y hK : FVec Ideal ⟨2, ![100000, 32]⟩ .f32) (sS qS : FVec Ideal ⟨2, ![1, 32]⟩ .f32)
    (mean var : FVec Ideal ⟨1, ![32]⟩ .f32)
    (hy : ∀ (i : Fin 100000) (k : Fin 32), y (ix2 i k)
      = ((∑ j : Fin 16, agg16 (F := Ideal) x (srcCol s) (dstCol d) (ix2 i j) * wrel (ix2 j k))
          + ∑ j : Fin 16, x (ix2 i j) * wroot (ix2 j k)) + b (ix1 k))
    (hs : ∀ k : Fin 32, sS (ix2 (0 : Fin 1) k) = ∑ i : Fin 100000, y (ix2 i k))
    (hq : ∀ k : Fin 32, qS (ix2 (0 : Fin 1) k) = ∑ i : Fin 100000, y (ix2 i k) * y (ix2 i k))
    (hmean : ∀ k : Fin 32, mean (ix1 k) = Ideal.div (sS (ix2 (0 : Fin 1) k)) ((100000 : ℝ) : EReal))
    (hvar : ∀ k : Fin 32, var (ix1 k)
      = max (Ideal.div (qS (ix2 (0 : Fin 1) k)) ((100000 : ℝ) : EReal) - mean (ix1 k) * mean (ix1 k)) 0)
    (hflat : ∀ (i : Fin 100000) (k : Fin 32), hK (ix2 i k)
      = eluK ((y (ix2 i k) - mean (ix1 k)) * Ideal.rsqrt (var (ix1 k) + (epsR : EReal)) * g (ix1 k) + be (ix1 k))) :
    hK = h2 (F := Ideal) x s d wrel wroot b g be ∧ ∀ j, IsReal (hK j) := by
  have hyR : ∀ (i : Fin 100000) (k : Fin 32), IsReal (y (ix2 i k)) := fun i k => by
    rw [hy]
    exact IsReal.add (IsReal.add (IsReal.sum _ fun j _ => IsReal.mul (hagg _) (hwrel _))
      (IsReal.sum _ fun j _ => IsReal.mul (hx _) (hwroot _))) (hb _)
  have hconv : ∀ (i : Fin 100000) (k : Fin 32), conv2 (F := Ideal) x s d wrel wroot b (ix2 i k) = y (ix2 i k) :=
    fun i k => by rw [conv2_apply, hy]
  have key : ∀ (i : Fin 100000) (k : Fin 32),
      hK (ix2 i k) = h2 (F := Ideal) x s d wrel wroot b g be (ix2 i k) ∧ IsReal (hK (ix2 i k)) := fun i k => by
    have E := layer_elt (N := 100000) (C := 32) 100000 (by norm_num) (by norm_num) (fun i k => y (ix2 i k)) hyR
      (fun k => g (ix1 k)) (fun k => be (ix1 k)) (fun k => hg _) (fun k => hbe _) i k
    have hkv : hK (ix2 i k)
        = eluK ((y (ix2 i k) - Ideal.div (∑ i : Fin 100000, y (ix2 i k)) ((100000 : ℝ) : EReal))
            * Ideal.rsqrt (max (Ideal.div (∑ i : Fin 100000, y (ix2 i k) * y (ix2 i k)) ((100000 : ℝ) : EReal)
                - Ideal.div (∑ i : Fin 100000, y (ix2 i k)) ((100000 : ℝ) : EReal)
                  * Ideal.div (∑ i : Fin 100000, y (ix2 i k)) ((100000 : ℝ) : EReal)) 0 + (epsR : EReal))
            * g (ix1 k) + be (ix1 k)) := by
      rw [hflat, hvar, hmean, hq, hs]
    have hrv : h2 (F := Ideal) x s d wrel wroot b g be (ix2 i k)
        = eluR ((y (ix2 i k) - Ideal.div (∑ i : Fin 100000, y (ix2 i k)) ((100000 : ℝ) : EReal))
            * Ideal.rsqrt (Ideal.div (∑ i : Fin 100000,
                (y (ix2 i k) - Ideal.div (∑ i : Fin 100000, y (ix2 i k)) ((100000 : ℝ) : EReal))
                  * (y (ix2 i k) - Ideal.div (∑ i : Fin 100000, y (ix2 i k)) ((100000 : ℝ) : EReal)))
                ((100000 : ℝ) : EReal) + (epsR : EReal))
            * g (ix1 k) + be (ix1 k)) := by
      show elu32 (F := Ideal) (bn32 (F := Ideal) (conv2 (F := Ideal) x s d wrel wroot b) g be) (ix2 i k) = _
      rw [elu32_apply, bn32_apply, mean32_apply, var32_apply]
      simp only [hconv, zero_add]
    exact ⟨hkv.trans (E.1.trans hrv.symm), by rw [hkv]; exact E.2⟩
  refine ⟨funext fun j => ?_, fun j => ?_⟩
  · rw [eq_ix2 j]; exact (key _ _).1
  · rw [eq_ix2 j]; exact (key _ _).2

/-- LAYER 2 through the lane-dense view. The kernel side is given by what it leaves at each element: `y` the linear map's output with its column
    sums `sS` and sums of squares `qS`, the mean and the clamped one-pass variance the host takes from them, the
    lane-dense views `Yr` of `y` and `Mt Vt Gt Bt` of the statistics, scale and shift, the second kernel's output
    `outR` there, and `hK` the view undone. For real inputs (the previous layer's rows, their neighbour means, the
    weights, bias, scale and shift) `hK` is the reference's layer 2 and every element of it is real. -/
theorem layer2_bridge
    (x : FVec Ideal S100000x16 .f32) (s d : IVec S3200000 32)
    (wrel wroot : FVec Ideal S16x32 .f32) (b g be : FVec Ideal S32 .f32)
    (hx : ∀ j, IsReal (x j)) (hagg : ∀ j, IsReal (agg16 (F := Ideal) x (srcCol s) (dstCol d) j))
    (hwrel : ∀ j, IsReal (wrel j)) (hwroot : ∀ j, IsReal (wroot j))
    (hb : ∀ j, IsReal (b j)) (hg : ∀ j, IsReal (g j)) (hbe : ∀ j, IsReal (be j))
    (y hK : FVec Ideal ⟨2, ![100000, 32]⟩ .f32) (sS qS : FVec Ideal ⟨2, ![1, 32]⟩ .f32)
    (mean var : FVec Ideal ⟨1, ![32]⟩ .f32)
    (Yr outR : FVec Ideal ⟨2, ![25000, 128]⟩ .f32) (Mt Vt Gt Bt : FVec Ideal ⟨2, ![1, 128]⟩ .f32)
    (hy : ∀ (i : Fin 100000) (k : Fin 32), y (ix2 i k)
      = ((∑ j : Fin 16, agg16 (F := Ideal) x (srcCol s) (dstCol d) (ix2 i j) * wrel (ix2 j k))
          + ∑ j : Fin 16, x (ix2 i j) * wroot (ix2 j k)) + b (ix1 k))
    (hs : ∀ k : Fin 32, sS (ix2 (0 : Fin 1) k) = ∑ i : Fin 100000, y (ix2 i k))
    (hq : ∀ k : Fin 32, qS (ix2 (0 : Fin 1) k) = ∑ i : Fin 100000, y (ix2 i k) * y (ix2 i k))
    (hmean : ∀ k : Fin 32, mean (ix1 k) = Ideal.div (sS (ix2 (0 : Fin 1) k)) ((100000 : ℝ) : EReal))
    (hvar : ∀ k : Fin 32, var (ix1 k)
      = max (Ideal.div (qS (ix2 (0 : Fin 1) k)) ((100000 : ℝ) : EReal) - mean (ix1 k) * mean (ix1 k)) 0)
    (hYr : ∀ (r : Fin 25000) (l : Fin 128),
      Yr (ix2 r l) = y (ix2 ⟨(128 * r.val + l.val) / 32, by omega⟩ ⟨(128 * r.val + l.val) % 32, by omega⟩))
    (hMt : ∀ l : Fin 128, Mt (ix2 (0 : Fin 1) l) = mean (ix1 ⟨l.val % 32, by omega⟩))
    (hVt : ∀ l : Fin 128, Vt (ix2 (0 : Fin 1) l) = var (ix1 ⟨l.val % 32, by omega⟩))
    (hGt : ∀ l : Fin 128, Gt (ix2 (0 : Fin 1) l) = g (ix1 ⟨l.val % 32, by omega⟩))
    (hBt : ∀ l : Fin 128, Bt (ix2 (0 : Fin 1) l) = be (ix1 ⟨l.val % 32, by omega⟩))
    (hout : ∀ (r : Fin 25000) (l : Fin 128), outR (ix2 r l)
      = eluK ((Yr (ix2 r l) - Mt (ix2 (0 : Fin 1) l)) * Ideal.rsqrt (Vt (ix2 (0 : Fin 1) l) + (epsR : EReal))
          * Gt (ix2 (0 : Fin 1) l) + Bt (ix2 (0 : Fin 1) l)))
    (hhK : ∀ (i : Fin 100000) (k : Fin 32),
      hK (ix2 i k) = outR (ix2 ⟨(32 * i.val + k.val) / 128, by omega⟩ ⟨(32 * i.val + k.val) % 128, by omega⟩)) :
    hK = h2 (F := Ideal) x s d wrel wroot b g be ∧ ∀ j, IsReal (hK j) :=
  layer2_bridge_flat x s d wrel wroot b g be hx hagg hwrel hwroot hb hg hbe y hK sS qS mean var hy hs hq hmean hvar
    fun i k => by
      rw [hhK, hout, dense32_at y Yr hYr, tile32_at mean Mt hMt, tile32_at var Vt hVt, tile32_at g Gt hGt,
        tile32_at be Bt hBt]

end Cert.Hand.Bridge

end
-- ==== Proof.ConvRead3.lean ====
/-
  Convolution 3 (width 32 to 32) of the reference read at one element: the neighbour mean's row times the relation
  weights' column, plus the node's row times the root weights' column, plus the bias.
-/
import proofs.«403053_j58033598104012_3_alg».proof.Proof.RefRead32

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-- Convolution 3's product is the plain product of a [100000, 32] by a [32, 32] matrix. -/
theorem dot3_eq_plain : dot_S100000x32_S32x32_S100000x32_1_0_0_1_n_n = DotDims.plain 100000 32 32 := rfl

/-- Convolution 3 at an element: the neighbour mean's row times the relation weights' column, plus the node's row times
    the root weights' column, plus the bias. -/
theorem conv3_apply (x : FVec Ideal S100000x32 .f32) (s d : IVec S3200000 32) (wrel wroot : FVec Ideal S32x32 .f32)
    (b : FVec Ideal S32 .f32) (i : Fin 100000) (k : Fin 32) :
    conv3 (F := Ideal) x s d wrel wroot b (ix2 i k)
      = ((∑ j : Fin 32, agg32 (F := Ideal) x (srcCol s) (dstCol d) (ix2 i j) * wrel (ix2 j k))
          + ∑ j : Fin 32, x (ix2 i j) * wroot (ix2 j k)) + b (ix1 k) := by
  unfold conv3
  rw [addf_apply, addf_apply, dot3_eq_plain, dotGeneral_plain_apply, dotGeneral_plain_apply, bias32_apply]

end Cert.Hand.Bridge

end
-- ==== Proof.Bridge3.lean ====
/-
  Layer 3 of the network, the kernel's way and the reference's way.

  The reference's layer (graph convolution 32 to 32, batch normalisation, ELU) is read at one element
  as sums and real arithmetic; the kernel's layer is described by what its two kernels and the host
  glue between them leave at one element (the linear map with its column sums and sums of squares,
  the one-pass clamped variance, the lane-dense [25000, 128] view with the statistics tiled along the
  lanes, the normalisation and ELU there, the view undone). On real inputs the two give the same
  array and every element of it is real.
-/
import proofs.«403053_j58033598104012_3_alg».proof.Proof.ConvRead3
import proofs.«403053_j58033598104012_3_alg».proof.Proof.LaneView32
import Mathlib.Tactic.NormNum

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-- LAYER 3, the lane-dense view already undone. The kernel side is given by what it leaves at each element: `y` the linear
    map's output with its column sums `sS` and sums of squares `qS`, the mean and the clamped one-pass variance the host
    takes from them, and `hK` the normalisation and ELU of `y` with those. For real inputs (the previous layer's rows,
    their neighbour means, the weights, bias, scale and shift) `hK` is the reference's layer 3 and every element of it
    is real. -/
theorem layer3_bridge_flat
    (x : FVec Ideal S100000x32 .f32) (s d : IVec S3200000 32)
    (wrel wroot : FVec Ideal S32x32 .f32) (b g be : FVec Ideal S32 .f32)
    (hx : ∀ j, IsReal (x j)) (hagg : ∀ j, IsReal (agg32 (F := Ideal) x (srcCol s) (dstCol d) j))
    (hwrel : ∀ j, IsReal (wrel j)) (hwroot : ∀ j, IsReal (wroot j))
    (hb : ∀ j, IsReal (b j)) (hg : ∀ j, IsReal (g j)) (hbe : ∀ j, IsReal (be j))
    (y hK : FVec Ideal ⟨2, ![100000, 32]⟩ .f32) (sS qS : FVec Ideal ⟨2, ![1, 32]⟩ .f32)
    (mean var : FVec Ideal ⟨1, ![32]⟩ .f32)
    (hy : ∀ (i : Fin 100000) (k : Fin 32), y (ix2 i k)
      = ((∑ j : Fin 32, agg32 (F := Ideal) x (srcCol s) (dstCol d) (ix2 i j) * wrel (ix2 j k))
          + ∑ j : Fin 32, x (ix2 i j) * wroot (ix2 j k)) + b (ix1 k))
    (hs : ∀ k : Fin 32, sS (ix2 (0 : Fin 1) k) = ∑ i : Fin 100000, y (ix2 i k))
    (hq : ∀ k : Fin 32, qS (ix2 (0 : Fin 1) k) = ∑ i : Fin 100000, y (ix2 i k) * y (ix2 i k))
    (hmean : ∀ k : Fin 32, mean (ix1 k) = Ideal.div (sS (ix2 (0 : Fin 1) k)) ((100000 : ℝ) : EReal))
    (hvar : ∀ k : Fin 32, var (ix1 k)
      = max (Ideal.div (qS (ix2 (0 : Fin 1) k)) ((100000 : ℝ) : EReal) - mean (ix1 k) * mean (ix1 k)) 0)
    (hflat : ∀ (i : Fin 100000) (k : Fin 32), hK (ix2 i k)
      = eluK ((y (ix2 i k) - mean (ix1 k)) * Ideal.rsqrt (var (ix1 k) + (epsR : EReal)) * g (ix1 k) + be (ix1 k))) :
    hK = h3 (F := Ideal) x s d wrel wroot b g be ∧ ∀ j, IsReal (hK j) := by
  have hyR : ∀ (i : Fin 100000) (k : Fin 32), IsReal (y (ix2 i k)) := fun i k => by
    rw [hy]
    exact IsReal.add (IsReal.add (IsReal.sum _ fun j _ => IsReal.mul (hagg _) (hwrel _))
      (IsReal.sum _ fun j _ => IsReal.mul (hx _) (hwroot _))) (hb _)
  have hconv : ∀ (i : Fin 100000) (k : Fin 32), conv3 (F := Ideal) x s d wrel wroot b (ix2 i k) = y (ix2 i k) :=
    fun i k => by rw [conv3_apply, hy]
  have key : ∀ (i : Fin 100000) (k : Fin 32),
      hK (ix2 i k) = h3 (F := Ideal) x s d wrel wroot b g be (ix2 i k) ∧ IsReal (hK (ix2 i k)) := fun i k => by
    have E := layer_elt (N := 100000) (C := 32) 100000 (by norm_num) (by norm_num) (fun i k => y (ix2 i k)) hyR
      (fun k => g (ix1 k)) (fun k => be (ix1 k)) (fun k => hg _) (fun k => hbe _) i k
    have hkv : hK (ix2 i k)
        = eluK ((y (ix2 i k) - Ideal.div (∑ i : Fin 100000, y (ix2 i k)) ((100000 : ℝ) : EReal))
            * Ideal.rsqrt (max (Ideal.div (∑ i : Fin 100000, y (ix2 i k) * y (ix2 i k)) ((100000 : ℝ) : EReal)
                - Ideal.div (∑ i : Fin 100000, y (ix2 i k)) ((100000 : ℝ) : EReal)
                  * Ideal.div (∑ i : Fin 100000, y (ix2 i k)) ((100000 : ℝ) : EReal)) 0 + (epsR : EReal))
            * g (ix1 k) + be (ix1 k)) := by
      rw [hflat, hvar, hmean, hq, hs]
    have hrv : h3 (F := Ideal) x s d wrel wroot b g be (ix2 i k)
        = eluR ((y (ix2 i k) - Ideal.div (∑ i : Fin 100000, y (ix2 i k)) ((100000 : ℝ) : EReal))
            * Ideal.rsqrt (Ideal.div (∑ i : Fin 100000,
                (y (ix2 i k) - Ideal.div (∑ i : Fin 100000, y (ix2 i k)) ((100000 : ℝ) : EReal))
                  * (y (ix2 i k) - Ideal.div (∑ i : Fin 100000, y (ix2 i k)) ((100000 : ℝ) : EReal)))
                ((100000 : ℝ) : EReal) + (epsR : EReal))
            * g (ix1 k) + be (ix1 k)) := by
      show elu32 (F := Ideal) (bn32 (F := Ideal) (conv3 (F := Ideal) x s d wrel wroot b) g be) (ix2 i k) = _
      rw [elu32_apply, bn32_apply, mean32_apply, var32_apply]
      simp only [hconv, zero_add]
    exact ⟨hkv.trans (E.1.trans hrv.symm), by rw [hkv]; exact E.2⟩
  refine ⟨funext fun j => ?_, fun j => ?_⟩
  · rw [eq_ix2 j]; exact (key _ _).1
  · rw [eq_ix2 j]; exact (key _ _).2

/-- LAYER 3 through the lane-dense view. The kernel side is given by what it leaves at each element: `y` the linear map's output with its column
    sums `sS` and sums of squares `qS`, the mean and the clamped one-pass variance the host takes from them, the
    lane-dense views `Yr` of `y` and `Mt Vt Gt Bt` of the statistics, scale and shift, the second kernel's output
    `outR` there, and `hK` the view undone. For real inputs (the previous layer's rows, their neighbour means, the
    weights, bias, scale and shift) `hK` is the reference's layer 3 and every element of it is real. -/
theorem layer3_bridge
    (x : FVec Ideal S100000x32 .f32) (s d : IVec S3200000 32)
    (wrel wroot : FVec Ideal S32x32 .f32) (b g be : FVec Ideal S32 .f32)
    (hx : ∀ j, IsReal (x j)) (hagg : ∀ j, IsReal (agg32 (F := Ideal) x (srcCol s) (dstCol d) j))
    (hwrel : ∀ j, IsReal (wrel j)) (hwroot : ∀ j, IsReal (wroot j))
    (hb : ∀ j, IsReal (b j)) (hg : ∀ j, IsReal (g j)) (hbe : ∀ j, IsReal (be j))
    (y hK : FVec Ideal ⟨2, ![100000, 32]⟩ .f32) (sS qS : FVec Ideal ⟨2, ![1, 32]⟩ .f32)
    (mean var : FVec Ideal ⟨1, ![32]⟩ .f32)
    (Yr outR : FVec Ideal ⟨2, ![25000, 128]⟩ .f32) (Mt Vt Gt Bt : FVec Ideal ⟨2, ![1, 128]⟩ .f32)
    (hy : ∀ (i : Fin 100000) (k : Fin 32), y (ix2 i k)
      = ((∑ j : Fin 32, agg32 (F := Ideal) x (srcCol s) (dstCol d) (ix2 i j) * wrel (ix2 j k))
          + ∑ j : Fin 32, x (ix2 i j) * wroot (ix2 j k)) + b (ix1 k))
    (hs : ∀ k : Fin 32, sS (ix2 (0 : Fin 1) k) = ∑ i : Fin 100000, y (ix2 i k))
    (hq : ∀ k : Fin 32, qS (ix2 (0 : Fin 1) k) = ∑ i : Fin 100000, y (ix2 i k) * y (ix2 i k))
    (hmean : ∀ k : Fin 32, mean (ix1 k) = Ideal.div (sS (ix2 (0 : Fin 1) k)) ((100000 : ℝ) : EReal))
    (hvar : ∀ k : Fin 32, var (ix1 k)
      = max (Ideal.div (qS (ix2 (0 : Fin 1) k)) ((100000 : ℝ) : EReal) - mean (ix1 k) * mean (ix1 k)) 0)
    (hYr : ∀ (r : Fin 25000) (l : Fin 128),
      Yr (ix2 r l) = y (ix2 ⟨(128 * r.val + l.val) / 32, by omega⟩ ⟨(128 * r.val + l.val) % 32, by omega⟩))
    (hMt : ∀ l : Fin 128, Mt (ix2 (0 : Fin 1) l) = mean (ix1 ⟨l.val % 32, by omega⟩))
    (hVt : ∀ l : Fin 128, Vt (ix2 (0 : Fin 1) l) = var (ix1 ⟨l.val % 32, by omega⟩))
    (hGt : ∀ l : Fin 128, Gt (ix2 (0 : Fin 1) l) = g (ix1 ⟨l.val % 32, by omega⟩))
    (hBt : ∀ l : Fin 128, Bt (ix2 (0 : Fin 1) l) = be (ix1 ⟨l.val % 32, by omega⟩))
    (hout : ∀ (r : Fin 25000) (l : Fin 128), outR (ix2 r l)
      = eluK ((Yr (ix2 r l) - Mt (ix2 (0 : Fin 1) l)) * Ideal.rsqrt (Vt (ix2 (0 : Fin 1) l) + (epsR : EReal))
          * Gt (ix2 (0 : Fin 1) l) + Bt (ix2 (0 : Fin 1) l)))
    (hhK : ∀ (i : Fin 100000) (k : Fin 32),
      hK (ix2 i k) = outR (ix2 ⟨(32 * i.val + k.val) / 128, by omega⟩ ⟨(32 * i.val + k.val) % 128, by omega⟩)) :
    hK = h3 (F := Ideal) x s d wrel wroot b g be ∧ ∀ j, IsReal (hK j) :=
  layer3_bridge_flat x s d wrel wroot b g be hx hagg hwrel hwroot hb hg hbe y hK sS qS mean var hy hs hq hmean hvar
    fun i k => by
      rw [hhK, hout, dense32_at y Yr hYr, tile32_at mean Mt hMt, tile32_at var Vt hVt, tile32_at g Gt hGt,
        tile32_at be Bt hBt]

end Cert.Hand.Bridge

end
-- ==== Proof.RefRead64.lean ====
/-
  The reference's batch statistics, normalisation and ELU at width 64 read at one element: the column means and
  variances as sums down a column over the node count, the batch normalisation and the ELU as real arithmetic on
  the element; and the broadcasts these go through (a scalar splat, a vector as a row, a row over the array).
-/
import proofs.«403053_j58033598104012_3_alg».proof.Proof.RefReadBase

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-! ## Broadcasts at an index -/

/-- A scalar splat over the [64] vector reads the scalar. -/
theorem splat64_apply {α : Type} (c : S_.Idx → α) (k : Fin 64) : broadcastInDim S64 ![] bcast_S_S64 c (ix1 k) = c ix0 :=
  broadcastInDim_scalar_apply _ _ _

/-- A scalar splat over the [1, 64] row reads the scalar. -/
theorem splat1x64_apply {α : Type} (c : S_.Idx → α) (k : Fin 64) :
    broadcastInDim S1x64 ![] bcast_S_S1x64 c (ix2 (0 : Fin 1) k) = c ix0 :=
  broadcastInDim_scalar_apply _ _ _

/-- A scalar splat over the [100000, 64] array reads the scalar. -/
theorem splat100000x64_apply {α : Type} (c : S_.Idx → α) (j : S100000x64.Idx) :
    broadcastInDim S100000x64 ![] bcast_S_S100000x64 c j = c ix0 :=
  broadcastInDim_scalar_apply _ _ _

/-- A [64] vector as a [1, 64] row reads the vector at the column. -/
theorem row64_apply {α : Type} (v : S64.Idx → α) (k : Fin 64) :
    broadcastInDim S1x64 ![1] bcast_S64_S1x64_1 v (ix2 (0 : Fin 1) k) = v (ix1 k) :=
  broadcastInDim_apply _ _ _ _ (ix1 k) (by intro a; match a with | ⟨0, _⟩ => rfl)

/-- A [1, 64] row over the [100000, 64] array reads the row at the column. -/
theorem rows64_apply {α : Type} (v : S1x64.Idx → α) (i : Fin 100000) (k : Fin 64) :
    broadcastInDim S100000x64 ![0, 1] bcast_S1x64_S100000x64_0_1 v (ix2 i k) = v (ix2 (0 : Fin 1) k) :=
  broadcastInDim_apply _ _ _ _ (ix2 (0 : Fin 1) k) (by intro a; match a with | ⟨0, _⟩ => rfl | ⟨1, _⟩ => rfl)

/-! ## The column sums, means and variances -/

/-- The column sums from an initial value: the initial value plus the sum down the column. -/
theorem colsum64_apply (y : FVec Ideal S100000x64 .f32) (c : FVec Ideal S_ .f32) (k : Fin 64) :
    Host.reduceAdd y c reducesTo_S100000x64_S64_d0 h_S_ (ix1 k) = c ix0 + ∑ i : Fin 100000, y (ix2 i k) := by
  have h : S100000x64.Reduces [0] S64 := by
    obtain ⟨e, hb⟩ := reducesTo_S100000x64_S64_d0
    exact ⟨e, Nat.one_pos, hb⟩
  rw [hostReduceAdd_apply, Ideal.hostReduceAdd_single reducesTo_S100000x64_S64_d0 h]
  show c (Shape.Idx.first h_S_) + ∑ i : Fin 100000, y (h.lift (ix1 k) i) = _
  have hl : ∀ i : Fin 100000, h.lift (ix1 k) i = ix2 i k := fun i => by
    funext a; match a with | ⟨0, _⟩ => rfl | ⟨1, _⟩ => rfl
  rw [Finset.sum_congr rfl fun i _ => congrArg y (hl i), show Shape.Idx.first h_S_ = ix0 from eq_ix0 _]

/-- The column mean: the column's sum (from zero) over the node count. -/
theorem mean64_apply (y : FVec Ideal S100000x64 .f32) (k : Fin 64) :
    mean64 (F := Ideal) y (ix1 k) = Ideal.div (0 + ∑ i : Fin 100000, y (ix2 i k)) ((100000 : ℝ) : EReal) := by
  unfold mean64
  rw [hostDivf_apply, colsum64_apply, splat64_apply, constant_apply, constant_apply, Ideal.ofBits_zero_f32, ofBits_nodes]

/-- The column variance: the sum down the column (from zero) of the squared deviations from the column's mean, over
    the node count; the guard on the denominator being positive holds. -/
theorem var64_apply (y : FVec Ideal S100000x64 .f32) (k : Fin 64) :
    var64 (F := Ideal) y (ix1 k)
      = Ideal.div (0 + ∑ i : Fin 100000,
          (y (ix2 i k) - Ideal.div (0 + ∑ i : Fin 100000, y (ix2 i k)) ((100000 : ℝ) : EReal))
            * (y (ix2 i k) - Ideal.div (0 + ∑ i : Fin 100000, y (ix2 i k)) ((100000 : ℝ) : EReal)))
          ((100000 : ℝ) : EReal) := by
  unfold var64
  rw [select_apply, splat64_apply, cmpf_apply, denom_apply, constant_apply, Ideal.ofBits_zero_f32]
  show Scalar.select (Ideal.cmp .ogt ((100000 : ℝ) : EReal) 0) _ _ = _
  rw [select_ogt_zero, if_pos (EReal.coe_pos.2 (by norm_num))]
  have hM : ∀ i : Fin 100000,
      (broadcastInDim S100000x64 ![0, 1] bcast_S1x64_S100000x64_0_1
        (Host.divf (broadcastInDim S1x64 ![1] bcast_S64_S1x64_1
            (Host.reduceAdd y (constant S_ .f32 0x00000000#32) reducesTo_S100000x64_S64_d0 h_S_))
          (broadcastInDim S1x64 ![] bcast_S_S1x64 (constant S_ .f32 0x47C35000#32))) : FVec Ideal S100000x64 .f32) (ix2 i k)
        = Ideal.div (0 + ∑ i : Fin 100000, y (ix2 i k)) ((100000 : ℝ) : EReal) := fun i => by
    rw [rows64_apply, hostDivf_apply, row64_apply, colsum64_apply, splat1x64_apply, constant_apply, constant_apply,
      Ideal.ofBits_zero_f32, ofBits_nodes]
  rw [hostDivf_apply, colsum64_apply, splat64_apply, denom_apply, constant_apply, Ideal.ofBits_zero_f32]
  simp only [mulf_apply, subf_apply, hM]

/-! ## Batch normalisation and ELU -/

/-- Batch normalisation at an element: the deviation from the column's mean times the reciprocal square root of the
    column's variance plus epsilon, times the scale, plus the shift. -/
theorem bn64_apply (y : FVec Ideal S100000x64 .f32) (g be : FVec Ideal S64 .f32) (i : Fin 100000) (k : Fin 64) :
    bn64 (F := Ideal) y g be (ix2 i k)
      = (y (ix2 i k) - mean64 (F := Ideal) y (ix1 k)) * Ideal.rsqrt (var64 (F := Ideal) y (ix1 k) + (epsR : EReal)) * g (ix1 k) + be (ix1 k) := by
  unfold bn64
  rw [addf_apply, mulf_apply, mulf_apply, subf_apply]
  rw [rows64_apply, rows64_apply, rows64_apply, rows64_apply, row64_apply, row64_apply, row64_apply, row64_apply]
  rw [hostRsqrt_at, addf_apply, splat64_apply, constant_apply, ofBits_eps]

/-- ELU at an element. -/
theorem elu64_apply (z : FVec Ideal S100000x64 .f32) (i : Fin 100000) (k : Fin 64) :
    elu64 (F := Ideal) z (ix2 i k) = eluR (z (ix2 i k)) := by
  unfold elu64 eluR
  rw [select_apply, cmpf_apply, splat100000x64_apply, constant_apply, Ideal.ofBits_zero_f32, mulf_apply,
    splat100000x64_apply, constant_apply, Ideal.ofBits_one_f32]
  show Scalar.select (Ideal.cmp .ogt (z (ix2 i k)) 0) _ (1 * Ideal.expm1 (select _ _ z (ix2 i k))) = _
  rw [select_ogt_zero, select_apply, cmpf_apply, splat100000x64_apply, constant_apply, Ideal.ofBits_zero_f32]
  show (if 0 < z (ix2 i k) then _ else 1 * Ideal.expm1 (Scalar.select (Ideal.cmp .ogt (z (ix2 i k)) 0) _ _)) = _
  rw [select_ogt_zero]

/-! ## The bias -/

/-- The bias, a [64] vector as a row over the [100000, 64] array, reads the vector at the column. -/
theorem bias64_apply {α : Type} (b : S64.Idx → α) (i : Fin 100000) (k : Fin 64) :
    broadcastInDim S100000x64 ![0, 1] bcast_S1x64_S100000x64_0_1 (broadcastInDim S1x64 ![1] bcast_S64_S1x64_1 b) (ix2 i k) = b (ix1 k) := by
  rw [rows64_apply, row64_apply]

end Cert.Hand.Bridge

end
-- ==== Proof.ConvRead4.lean ====
/-
  Convolution 4 (width 32 to 64) of the reference read at one element: the neighbour mean's row times the relation
  weights' column, plus the node's row times the root weights' column, plus the bias.
-/
import proofs.«403053_j58033598104012_3_alg».proof.Proof.RefRead64

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-- Convolution 4's product is the plain product of a [100000, 32] by a [32, 64] matrix. -/
theorem dot4_eq_plain : dot_S100000x32_S32x64_S100000x64_1_0_0_1_n_n = DotDims.plain 100000 32 64 := rfl

/-- Convolution 4 at an element: the neighbour mean's row times the relation weights' column, plus the node's row times
    the root weights' column, plus the bias. -/
theorem conv4_apply (x : FVec Ideal S100000x32 .f32) (s d : IVec S3200000 32) (wrel wroot : FVec Ideal S32x64 .f32)
    (b : FVec Ideal S64 .f32) (i : Fin 100000) (k : Fin 64) :
    conv4 (F := Ideal) x s d wrel wroot b (ix2 i k)
      = ((∑ j : Fin 32, agg32 (F := Ideal) x (srcCol s) (dstCol d) (ix2 i j) * wrel (ix2 j k))
          + ∑ j : Fin 32, x (ix2 i j) * wroot (ix2 j k)) + b (ix1 k) := by
  unfold conv4
  rw [addf_apply, addf_apply, dot4_eq_plain, dotGeneral_plain_apply, dotGeneral_plain_apply, bias64_apply]

end Cert.Hand.Bridge

end
-- ==== Proof.LaneView64.lean ====
/-
  The lane-dense view of a [100000, 64] array: the same elements in row-major order as [50000, 128], so that element
  `(i, k)` sits at row `(64 i + k) / 128`, lane `(64 i + k) % 128`; and a per-column vector tiled twice along
  the 128 lanes, so that lane `l` holds entry `l % 64`.
-/
import Idealize.ShloMosaic.Lib.ValueIdx

namespace Cert.Hand.Bridge

open Idealize.ShloMosaic Idealize.ShloMosaic.ValueIdx

/-- Reading the lane-dense view at the position of element `(i, k)` gives the element back. -/
theorem dense64_at {α : Type} (y : (⟨2, ![100000, 64]⟩ : Shape).Idx → α) (Yr : (⟨2, ![50000, 128]⟩ : Shape).Idx → α)
    (hYr : ∀ (r : Fin 50000) (l : Fin 128),
      Yr (ix2 r l) = y (ix2 ⟨(128 * r.val + l.val) / 64, by omega⟩ ⟨(128 * r.val + l.val) % 64, by omega⟩))
    (i : Fin 100000) (k : Fin 64) :
    Yr (ix2 ⟨(64 * i.val + k.val) / 128, by omega⟩ ⟨(64 * i.val + k.val) % 128, by omega⟩) = y (ix2 i k) := by
  have c : ∀ (a a' : Fin 100000) (b b' : Fin 64), a = a' → b = b' → y (ix2 a b) = y (ix2 a' b') := by
    rintro _ _ _ _ rfl rfl; rfl
  rw [hYr]
  refine c _ _ _ _ (Fin.ext ?_) (Fin.ext ?_)
  · show (128 * ((64 * i.val + k.val) / 128) + (64 * i.val + k.val) % 128) / 64 = i.val
    omega
  · show (128 * ((64 * i.val + k.val) / 128) + (64 * i.val + k.val) % 128) % 64 = k.val
    omega

/-- Reading a per-column vector tiled along the 128 lanes at the lane of element `(i, k)` gives the vector at `k`. -/
theorem tile64_at {α : Type} (v : (⟨1, ![64]⟩ : Shape).Idx → α) (Vt : (⟨2, ![1, 128]⟩ : Shape).Idx → α)
    (hVt : ∀ l : Fin 128, Vt (ix2 (0 : Fin 1) l) = v (ix1 ⟨l.val % 64, by omega⟩))
    (i : Fin 100000) (k : Fin 64) :
    Vt (ix2 (0 : Fin 1) ⟨(64 * i.val + k.val) % 128, by omega⟩) = v (ix1 k) := by
  rw [hVt]
  refine congrArg (fun a => v (ix1 a)) (Fin.ext ?_)
  show (64 * i.val + k.val) % 128 % 64 = k.val
  omega

end Cert.Hand.Bridge
-- ==== Proof.Bridge4.lean ====
/-
  Layer 4 of the network, the kernel's way and the reference's way.

  The reference's layer (graph convolution 32 to 64, batch normalisation, ELU) is read at one element
  as sums and real arithmetic; the kernel's layer is described by what its two kernels and the host
  glue between them leave at one element (the linear map with its column sums and sums of squares,
  the one-pass clamped variance, the lane-dense [50000, 128] view with the statistics tiled along the
  lanes, the normalisation and ELU there, the view undone). On real inputs the two give the same
  array and every element of it is real.
-/
import proofs.«403053_j58033598104012_3_alg».proof.Proof.ConvRead4
import proofs.«403053_j58033598104012_3_alg».proof.Proof.LaneView64
import Mathlib.Tactic.NormNum

noncomputable section

namespace Cert.Hand.Bridge

open Cert.Math Cert.ReferenceIdeal Cert.ReferenceIdeal.Hand Idealize.ShloMosaic Idealize.ShloMosaic.ValueIdx Idealize.ShloMosaic.StackMember
open Cert.ReferenceIdeal.Facts₀ Cert.ReferenceIdeal.Facts
open scoped BigOperators

/-- LAYER 4, the lane-dense view already undone. The kernel side is given by what it leaves at each element: `y` the linear
    map's output with its column sums `sS` and sums of squares `qS`, the mean and the clamped one-pass variance the host
    takes from them, and `hK` the normalisation and ELU of `y` with those. For real inputs (the previous layer's rows,
    their neighbour means, the weights, bias, scale and shift) `hK` is the reference's layer 4 and every element of it
    is real. -/
theorem layer4_bridge_flat
    (x : FVec Ideal S100000x32 .f32) (s d : IVec S3200000 32)
    (wrel wroot : FVec Ideal S32x64 .f32) (b g be : FVec Ideal S64 .f32)
    (hx : ∀ j, IsReal (x j)) (hagg : ∀ j, IsReal (agg32 (F := Ideal) x (srcCol s) (dstCol d) j))
    (hwrel : ∀ j, IsReal (wrel j)) (hwroot : ∀ j, IsReal (wroot j))
    (hb : ∀ j, IsReal (b j)) (hg : ∀ j, IsReal (g j)) (hbe : ∀ j, IsReal (be j))
    (y hK : FVec Ideal ⟨2, ![100000, 64]⟩ .f32) (sS qS : FVec Ideal ⟨2, ![1, 64]⟩ .f32)
    (mean var : FVec Ideal ⟨1, ![64]⟩ .f32)
    (hy : ∀ (i : Fin 100000) (k : Fin 64), y (ix2 i k)
      = ((∑ j : Fin 32, agg32 (F := Ideal) x (srcCol s) (dstCol d) (ix2 i j) * wrel (ix2 j k))
          + ∑ j : Fin 32, x (ix2 i j) * wroot (ix2 j k)) + b (ix1 k))
    (hs : ∀ k : Fin 64, sS (ix2 (0 : Fin 1) k) = ∑ i : Fin 100000, y (ix2 i k))
    (hq : ∀ k : Fin 64, qS (ix2 (0 : Fin 1) k) = ∑ i : Fin 100000, y (ix2 i k) * y (ix2 i k))
    (hmean : ∀ k : Fin 64, mean (ix1 k) = Ideal.div (sS (ix2 (0 : Fin 1) k)) ((100000 : ℝ) : EReal))
    (hvar : ∀ k : Fin 64, var (ix1 k)
      = max (Ideal.div (qS (ix2 (0 : Fin 1) k)) ((100000 : ℝ) : EReal) - mean (ix1 k) * mean (ix1 k)) 0)
    (hflat : ∀ (i : Fin 100000) (k : Fin 64), hK (ix2 i k)
      = eluK ((y (ix2 i k) - mean (ix1 k)) * Ideal.rsqrt (var (ix1 k) + (epsR : EReal)) * g (ix1 k) + be (ix1 k))) :
    hK = h4 (F := Ideal) x s d wrel wroot b g be ∧ ∀ j, IsReal (hK j) := by
  have hyR : ∀ (i : Fin 100000) (k : Fin 64), IsReal (y (ix2 i k)) := fun i k => by
    rw [hy]
    exact IsReal.add (IsReal.add (IsReal.sum _ fun j _ => IsReal.mul (hagg _) (hwrel _))
      (IsReal.sum _ fun j _ => IsReal.mul (hx _) (hwroot _))) (hb _)
  have hconv : ∀ (i : Fin 100000) (k : Fin 64), conv4 (F := Ideal) x s d wrel wroot b (ix2 i k) = y (ix2 i k) :=
    fun i k => by rw [conv4_apply, hy]
  have key : ∀ (i : Fin 100000) (k : Fin 64),
      hK (ix2 i k) = h4 (F := Ideal) x s d wrel wroot b g be (ix2 i k) ∧ IsReal (hK (ix2 i k)) := fun i k => by
    have E := layer_elt (N := 100000) (C := 64) 100000 (by norm_num) (by norm_num) (fun i k => y (ix2 i k)) hyR
      (fun k => g (ix1 k)) (fun k => be (ix1 k)) (fun k => hg _) (fun k => hbe _) i k
    have hkv : hK (ix2 i k)
        = eluK ((y (ix2 i k) - Ideal.div (∑ i : Fin 100000, y (ix2 i k)) ((100000 : ℝ) : EReal))
            * Ideal.rsqrt (max (Ideal.div (∑ i : Fin 100000, y (ix2 i k) * y (ix2 i k)) ((100000 : ℝ) : EReal)
                - Ideal.div (∑ i : Fin 100000, y (ix2 i k)) ((100000 : ℝ) : EReal)
                  * Ideal.div (∑ i : Fin 100000, y (ix2 i k)) ((100000 : ℝ) : EReal)) 0 + (epsR : EReal))
            * g (ix1 k) + be (ix1 k)) := by
      rw [hflat, hvar, hmean, hq, hs]
    have hrv : h4 (F := Ideal) x s d wrel wroot b g be (ix2 i k)
        = eluR ((y (ix2 i k) - Ideal.div (∑ i : Fin 100000, y (ix2 i k)) ((100000 : ℝ) : EReal))
            * Ideal.rsqrt (Ideal.div (∑ i : Fin 100000,
                (y (ix2 i k) - Ideal.div (∑ i : Fin 100000, y (ix2 i k)) ((100000 : ℝ) : EReal))
                  * (y (ix2 i k) - Ideal.div (∑ i : Fin 100000, y (ix2 i k)) ((100000 : ℝ) : EReal)))
                ((100000 : ℝ) : EReal) + (epsR : EReal))
            * g (ix1 k) + be (ix1 k)) := by
      show elu64 (F := Ideal) (bn64 (F := Ideal) (conv4 (F := Ideal) x s d wrel wroot b) g be) (ix2 i k) = _
      rw [elu64_apply, bn64_apply, mean64_apply, var64_apply]
      simp only [hconv, zero_add]
    exact ⟨hkv.trans (E.1.trans hrv.symm), by rw [hkv]; exact E.2⟩
  refine ⟨funext fun j => ?_, fun j => ?_⟩
  · rw [eq_ix2 j]; exact (key _ _).1
  · rw [eq_ix2 j]; exact (key _ _).2

/-- LAYER 4 through the lane-dense view. The kernel side is given by what it leaves at each element: `y` the linear map's output with its column
    sums `sS` and sums of squares `qS`, the mean and the clamped one-pass variance the host takes from them, the
    lane-dense views `Yr` of `y` and `Mt Vt Gt Bt` of the statistics, scale and shift, the second kernel's output
    `outR` there, and `hK` the view undone. For real inputs (the previous layer's rows, their neighbour means, the
    weights, bias, scale and shift) `hK` is the reference's layer 4 and every element of it is real. -/
theorem layer4_bridge
    (x : FVec Ideal S100000x32 .f32) (s d : IVec S3200000 32)
    (wrel wroot : FVec Ideal S32x64 .f32) (b g be : FVec Ideal S64 .f32)
    (hx : ∀ j, IsReal (x j)) (hagg : ∀ j, IsReal (agg32 (F := Ideal) x (srcCol s) (dstCol d) j))
    (hwrel : ∀ j, IsReal (wrel j)) (hwroot : ∀ j, IsReal (wroot j))
    (hb : ∀ j, IsReal (b j)) (hg : ∀ j, IsReal (g j)) (hbe : ∀ j, IsReal (be j))
    (y hK : FVec Ideal ⟨2, ![100000, 64]⟩ .f32) (sS qS : FVec Ideal ⟨2, ![1, 64]⟩ .f32)
    (mean var : FVec Ideal ⟨1, ![64]⟩ .f32)
    (Yr outR : FVec Ideal ⟨2, ![50000, 128]⟩ .f32) (Mt Vt Gt Bt : FVec Ideal ⟨2, ![1, 128]⟩ .f32)
    (hy : ∀ (i : Fin 100000) (k : Fin 64), y (ix2 i k)
      = ((∑ j : Fin 32, agg32 (F := Ideal) x (srcCol s) (dstCol d) (ix2 i j) * wrel (ix2 j k))
          + ∑ j : Fin 32, x (ix2 i j) * wroot (ix2 j k)) + b (ix1 k))
    (hs : ∀ k : Fin 64, sS (ix2 (0 : Fin 1) k) = ∑ i : Fin 100000, y (ix2 i k))
    (hq : ∀ k : Fin 64, qS (ix2 (0 : Fin 1) k) = ∑ i : Fin 100000, y (ix2 i k) * y (ix2 i k))
    (hmean : ∀ k : Fin 64, mean (ix1 k) = Ideal.div (sS (ix2 (0 : Fin 1) k)) ((100000 : ℝ) : EReal))
    (hvar : ∀ k : Fin 64, var (ix1 k)
      = max (Ideal.div (qS (ix2 (0 : Fin 1) k)) ((100000 : ℝ) : EReal) - mean (ix1 k) * mean (ix1 k)) 0)
    (hYr : ∀ (r : Fin 50000) (l : Fin 128),
      Yr (ix2 r l) = y (ix2 ⟨(128 * r.val + l.val) / 64, by omega⟩ ⟨(128 * r.val + l.val) % 64, by omega⟩))
    (hMt : ∀ l : Fin 128, Mt (ix2 (0 : Fin 1) l) = mean (ix1 ⟨l.val % 64, by omega⟩))
    (hVt : ∀ l : Fin 128, Vt (ix2 (0 : Fin 1) l) = var (ix1 ⟨l.val % 64, by omega⟩))
    (hGt : ∀ l : Fin 128, Gt (ix2 (0 : Fin 1) l) = g (ix1 ⟨l.val % 64, by omega⟩))
    (hBt : ∀ l : Fin 128, Bt (ix2 (0 : Fin 1) l) = be (ix1 ⟨l.val % 64, by omega⟩))
    (hout : ∀ (r : Fin 50000) (l : Fin 128), outR (ix2 r l)
      = eluK ((Yr (ix2 r l) - Mt (ix2 (0 : Fin 1) l)) * Ideal.rsqrt (Vt (ix2 (0 : Fin 1) l) + (epsR : EReal))
          * Gt (ix2 (0 : Fin 1) l) + Bt (ix2 (0 : Fin 1) l)))
    (hhK : ∀ (i : Fin 100000) (k : Fin 64),
      hK (ix2 i k) = outR (ix2 ⟨(64 * i.val + k.val) / 128, by omega⟩ ⟨(64 * i.val + k.val) % 128, by omega⟩)) :
    hK = h4 (F := Ideal) x s d wrel wroot b g be ∧ ∀ j, IsReal (hK j) :=
  layer4_bridge_flat x s d wrel wroot b g be hx hagg hwrel hwroot hb hg hbe y hK sS qS mean var hy hs hq hmean hvar
    fun i k => by
      rw [hhK, hout, dense64_at y Yr hYr, tile64_at mean Mt hMt, tile64_at var Vt hVt, tile64_at g Gt hGt,
        tile64_at be Bt hBt]

end Cert.Hand.Bridge

end
-- ==== Proof.Bridge5.lean ====
import proofs.«403053_j58033598104012_3_alg».proof.Proof.RefLayers
import proofs.«403053_j58033598104012_3_alg».proof.Proof.HostK
import proofs.«403053_j58033598104012_3_alg».proof.Proof.V9
import Idealize.ShloMosaic.Lib.KernelVsHost
import Idealize.ShloMosaic.Lib.Pipeline.Value
import Idealize.ShloMosaic.Lib.ValueIdx
import Idealize.ShloMosaic.PureOps.Ideal.Laws

/-!
  The tail of the network, kernel against reference, over the extended reals: the mean pooling to graphs, the
  two-layer perceptron and the row-wise log-softmax.  The pooling is the same composition of host operations on both
  sides.  In the perceptron the two programs differ in how a bias vector is laid along the rows (a cast to one row and
  a spread, against two broadcasts); in the log-softmax in how a row reduction is taken (a reduction from the neutral
  element cast to a column, against a fold from the initial value laid down a column) — each pair read at an index is
  the same entry, and a maximum taken from minus infinity absorbs one more join with minus infinity.
-/

set_option maxRecDepth 4096

noncomputable section

namespace Cert.Hand.Bridge

open Idealize.ShloMosaic Idealize.ShloMosaic.ValueIdx
open Cert.KernelIdeal Cert.KernelIdeal.Gen
open Cert.KernelIdeal.Hand (poolMean row64 row10 mlpHidden mlpLogits logSoftmaxRows f9_5)

/-! ## Reading broadcasts and casts at an index -/

section Index
variable {α : Type}

/-- A one-column matrix spread over n columns (the kernel's broadcast), at (r, t), is the column at (r, 0). -/
theorem bTo_col {m n : Nat} (y : (⟨2, ![m, 1]⟩ : Shape).Idx → α) (hb : (⟨2, ![m, 1]⟩ : Shape).Broadcasts ⟨2, ![m, n]⟩)
    (r : Fin m) (t : Fin n) : broadcastTo ⟨2, ![m, n]⟩ y hb (ix2 r t) = y (ix2 r (0 : Fin 1)) := by
  refine broadcastTo_apply y hb (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else _
    simp

/-- A vector of m entries cast to an m×1 column, at (r, 0), is the vector at r. -/
theorem sc_col {m : Nat} (v : (⟨1, ![m]⟩ : Shape).Idx → α) (h1 : (⟨1, ![m]⟩ : Shape).ShapeCasts ⟨2, ![m, 1]⟩) (r : Fin m) :
    shapeCast ⟨2, ![m, 1]⟩ v h1 (ix2 r (0 : Fin 1)) = v (ix1 r) := by
  refine shapeCast_apply v h1 (ix2 r (0 : Fin 1)) (ix1 r) ?_
  rw [Shape.rowMajor_val_two, Shape.rowMajor_val_one]
  show r.val = r.val * 1 + 0
  omega

/-- A one-column matrix spread over n columns (the host's broadcast along both axes), at (r, t), is the column at (r, 0). -/
theorem bIn_col {m n : Nat} (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) := by
  refine broadcastInDim_apply ![0, 1] hbc y (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else _
    simp

/-- A vector of m entries laid down an m×1 column (the host's broadcast along axis 0), at (r, 0), is the vector at r. -/
theorem bIn_col1 {m : Nat} (hd : (⟨1, ![m]⟩ : Shape).BroadcastsInDim ⟨2, ![m, 1]⟩ ![0])
    (v : (⟨1, ![m]⟩ : Shape).Idx → α) (r : Fin m) :
    broadcastInDim ⟨2, ![m, 1]⟩ ![0] hd v (ix2 r (0 : Fin 1)) = v (ix1 r) := by
  refine broadcastInDim_apply ![0] hd v (ix2 r (0 : Fin 1)) (ix1 r) ?_
  intro a
  match a with
  | ⟨0, _⟩ =>
    show r.val = if m = 1 then 0 else r.val
    split
    · have := r.isLt; omega
    · rfl

/-- A vector of n entries cast to a row and spread over m rows (the kernel's broadcast), at (r, t), is the vector at t. -/
theorem bTo_row {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd : (⟨1, ![n]⟩ : Shape).BroadcastsInDim ⟨2, ![m, n]⟩ ![1]) (r : Fin m) (t : Fin n) :
    broadcastTo ⟨2, ![m, n]⟩ (shapeCast ⟨2, ![1, n]⟩ x h1) hb (ix2 r t) = x (ix1 t) := by
  rw [broadcastTo_row_eq_broadcastInDim x h1 hb hd]
  refine broadcastInDim_apply ![1] hd x (ix2 r t) (ix1 t) ?_
  intro a
  match a with
  | ⟨0, _⟩ =>
    show t.val = if n = 1 then 0 else t.val
    split
    · have := t.isLt; omega
    · rfl

/-- A vector of n entries laid along a row, the row spread over m rows (the host's two broadcasts), at (r, t), is the
    vector at t. -/
theorem bIn_row {m n : Nat} (hbc : (⟨2, ![1, n]⟩ : Shape).BroadcastsInDim ⟨2, ![m, n]⟩ ![0, 1])
    (hd : (⟨1, ![n]⟩ : Shape).BroadcastsInDim ⟨2, ![1, n]⟩ ![1]) (x : (⟨1, ![n]⟩ : Shape).Idx → α) (r : Fin m) (t : Fin n) :
    broadcastInDim ⟨2, ![m, n]⟩ ![0, 1] hbc (broadcastInDim ⟨2, ![1, n]⟩ ![1] hd x) (ix2 r t) = x (ix1 t) := by
  rw [broadcastInDim_oneRow_apply hbc _ r t]
  refine broadcastInDim_apply ![1] hd x (ix2 (0 : Fin 1) t) (ix1 t) ?_
  intro a
  match a with
  | ⟨0, _⟩ =>
    show t.val = if n = 1 then 0 else t.val
    split
    · have := t.isLt; omega
    · rfl

end Index

/-! ## The pooling -/

theorem pool_eq {F : FTy → Type} [FloatOps F] (bt : IVec S100000 32) (h : FVec F S100000x64 .f32) :
    poolMean bt h = Cert.ReferenceIdeal.Hand.pooled h bt := rfl

/-! ## The two linear layers -/

/-- The bias of the hidden layer along every row: the kernel's spread of the bias row is the host's. -/
theorem bias64_eq (b1 : FVec Ideal S64 .f32) (hbc : S1x64.BroadcastsInDim S256x64 ![0, 1]) (hd : S64.BroadcastsInDim S1x64 ![1]) :
    broadcastTo S256x64 (row64 b1) broadcasts_S1x64_S256x64
      = broadcastInDim S256x64 ![0, 1] hbc (broadcastInDim S1x64 ![1] hd b1) := by
  funext i
  rw [eq_ix2 i]
  exact (bTo_row b1 _ _ (by decide) _ _).trans (bIn_row hbc hd b1 _ _).symm

/-- The bias of the output layer along every row, likewise. -/
theorem bias10_eq (b2 : FVec Ideal S10 .f32) (hbc : S1x10.BroadcastsInDim S256x10 ![0, 1]) (hd : S10.BroadcastsInDim S1x10 ![1]) :
    broadcastTo S256x10 (row10 b2) broadcasts_S1x10_S256x10
      = broadcastInDim S256x10 ![0, 1] hbc (broadcastInDim S1x10 ![1] hd b2) := by
  funext i
  rw [eq_ix2 i]
  exact (bTo_row b2 _ _ (by decide) _ _).trans (bIn_row hbc hd b2 _ _).symm

theorem hidden_eq (p : FVec Ideal S256x64 .f32) (w1 : FVec Ideal S64x64 .f32) (b1 : FVec Ideal S64 .f32) :
    mlpHidden p w1 (row64 b1) = Cert.ReferenceIdeal.Hand.mlp1 (F := Ideal) p w1 b1 := by
  unfold mlpHidden
  rw [bias64_eq b1 (by decide) (by decide)]
  rfl

theorem logits_eq (h : FVec Ideal S256x64 .f32) (w2 : FVec Ideal S64x10 .f32) (b2 : FVec Ideal S10 .f32) :
    mlpLogits h w2 (row10 b2) = Cert.ReferenceIdeal.Hand.logits (F := Ideal) h w2 b2 := by
  unfold mlpLogits
  rw [bias10_eq b2 (by decide) (by decide)]
  rfl

/-! ## The log-softmax -/

/-- The bit pattern of minus infinity denotes the bottom of the extended reals. -/
theorem ofBits_neg_inf : (Ideal.ofBits .f32 0xFF800000#32 : EReal) = ⊥ := by simp [Ideal.ofBits, Ideal.ieee]

/-- The bit pattern of zero denotes zero. -/
theorem ofBits_zero : (Ideal.ofBits .f32 0x00000000#32 : EReal) = 0 := by simp [Ideal.ofBits, Ideal.ieee]

/-- The row maxima spread over the columns: the kernel's reduction over axis 1 from minus infinity, cast to a column
    and spread, is the host's reduction from minus infinity, joined once more with minus infinity, laid down a column
    and spread. -/
theorem rowMax_bcast_eq {m n : Nat} (z : FVec Ideal ⟨2, ![m, n]⟩ .f32)
    (hR : (⟨2, ![m, n]⟩ : Shape).Reduces [1] ⟨1, ![m]⟩) (hφ : FKind.Formats .f32)
    (hacc : (0xFF800000#32 : BitVec FTy.f32.bits) = FKind.maximumf.neutral .f32 hφ)
    (hsc : (⟨1, ![m]⟩ : Shape).ShapeCasts ⟨2, ![m, 1]⟩) (hb : (⟨2, ![m, 1]⟩ : Shape).Broadcasts ⟨2, ![m, n]⟩)
    (hbc : (⟨2, ![m, 1]⟩ : Shape).BroadcastsInDim ⟨2, ![m, n]⟩ ![0, 1])
    (hd : (⟨1, ![m]⟩ : Shape).BroadcastsInDim ⟨2, ![m, 1]⟩ ![0])
    (hb0 : (⟨0, ![]⟩ : Shape).BroadcastsInDim ⟨1, ![m]⟩ (![] : Fin 0 → Fin 1))
    (hR' : (⟨2, ![m, n]⟩ : Shape).ReducesTo [1] ⟨1, ![m]⟩) (hu : 0 < (⟨0, ![]⟩ : Shape).numel) :
    broadcastTo ⟨2, ![m, n]⟩ (shapeCast ⟨2, ![m, 1]⟩ (multiReduction .maximumf [1] ⟨1, ![m]⟩ z 0xFF800000#32 hR hφ hacc) hsc) hb
      = broadcastInDim ⟨2, ![m, n]⟩ ![0, 1] hbc (broadcastInDim ⟨2, ![m, 1]⟩ ![0] hd
          (maximumf (broadcastInDim ⟨1, ![m]⟩ ![] hb0 (constant ⟨0, ![]⟩ .f32 0xFF800000#32))
            (Host.reduce FloatOps.maximumf z (constant ⟨0, ![]⟩ .f32 0xFF800000#32) hR' hu))) := by
  funext i
  obtain ⟨r, t, rfl⟩ : ∃ (r : Fin m) (t : Fin n), i = ix2 r t := ⟨i 0, i 1, eq_ix2 i⟩
  rw [bTo_col, sc_col, bIn_col, bIn_col1]
  show _ = max (Ideal.ofBits .f32 0xFF800000#32) (Host.reduce FloatOps.maximumf z (constant ⟨0, ![]⟩ .f32 0xFF800000#32) hR' hu (ix1 r))
  rw [Ideal.multiReduction_maximumf_single, Host.reduce_eq_fold_single FloatOps.maximumf z _ hR' hR hu]
  show Finset.fold max (Ideal.ofBits .f32 0xFF800000#32) _ _ = max (Ideal.ofBits .f32 0xFF800000#32) (Finset.fold max (Ideal.ofBits .f32 0xFF800000#32) _ _)
  rw [ofBits_neg_inf]
  exact (max_bot_left _).symm

/-- The logarithms of the row sums spread over the columns: the kernel's sum over axis 1, cast to a column, its
    logarithm spread, is the host's sum from zero laid down a column, its logarithm spread. -/
theorem rowLogSum_bcast_eq {m n : Nat} (s : FVec Ideal ⟨2, ![m, n]⟩ .f32)
    (hR : (⟨2, ![m, n]⟩ : Shape).Reduces [1] ⟨1, ![m]⟩) (hφ : FKind.Formats .f32)
    (hacc : (0x00000000#32 : BitVec FTy.f32.bits) = FKind.add.neutral .f32 hφ)
    (hsc : (⟨1, ![m]⟩ : Shape).ShapeCasts ⟨2, ![m, 1]⟩) (hb : (⟨2, ![m, 1]⟩ : Shape).Broadcasts ⟨2, ![m, n]⟩)
    (hbc : (⟨2, ![m, 1]⟩ : Shape).BroadcastsInDim ⟨2, ![m, n]⟩ ![0, 1])
    (hd : (⟨1, ![m]⟩ : Shape).BroadcastsInDim ⟨2, ![m, 1]⟩ ![0])
    (hR' : (⟨2, ![m, n]⟩ : Shape).ReducesTo [1] ⟨1, ![m]⟩) (hu : 0 < (⟨0, ![]⟩ : Shape).numel) :
    broadcastTo ⟨2, ![m, n]⟩ (log (shapeCast ⟨2, ![m, 1]⟩ (multiReduction .add [1] ⟨1, ![m]⟩ (exp s) 0x00000000#32 hR hφ hacc) hsc)) hb
      = broadcastInDim ⟨2, ![m, n]⟩ ![0, 1] hbc (Host.log (broadcastInDim ⟨2, ![m, 1]⟩ ![0] hd
          (Host.reduceAdd (Host.exp s) (constant ⟨0, ![]⟩ .f32 0x00000000#32) hR' hu))) := by
  rw [multiReduction_add_eq_hostReduceAdd (exp s) _ hR hφ hacc (constant ⟨0, ![]⟩ .f32 0x00000000#32) hR' hu ofBits_zero]
  funext i
  obtain ⟨r, t, rfl⟩ : ∃ (r : Fin m) (t : Fin n), i = ix2 r t := ⟨i 0, i 1, eq_ix2 i⟩
  rw [bTo_col, bIn_col]
  show FloatOps.log (shapeCast ⟨2, ![m, 1]⟩ (Host.reduceAdd (exp s) (constant ⟨0, ![]⟩ .f32 0x00000000#32) hR' hu) hsc (ix2 r (0 : Fin 1)))
    = FloatOps.log (broadcastInDim ⟨2, ![m, 1]⟩ ![0] hd (Host.reduceAdd (Host.exp s) (constant ⟨0, ![]⟩ .f32 0x00000000#32) hR' hu) (ix2 r (0 : Fin 1)))
  rw [sc_col, bIn_col1]
  rfl

/-- The kernel's row maxima, spread over the columns. -/
def kerRowMax (z : FVec Ideal S256x10 .f32) : FVec Ideal S256x10 .f32 :=
  broadcastTo S256x10
    (shapeCast S256x1 (multiReduction .maximumf [1] S256 z 0xFF800000#32 reduces_S256x10_S256 (.inl rfl) rfl) shapeCasts_S256_S256x1)
    broadcasts_S256x1_S256x10

/-- The kernel's logarithms of the row sums of exponentials, spread over the columns. -/
def kerRowLogSum (s : FVec Ideal S256x10 .f32) : FVec Ideal S256x10 .f32 :=
  broadcastTo S256x10
    (log (shapeCast S256x1 (multiReduction .add [1] S256 (exp s) 0x00000000#32 reduces_S256x10_S256 (.inl rfl) rfl) shapeCasts_S256_S256x1))
    broadcasts_S256x1_S256x10

/-- The shape facts of the host's side of the log-softmax. -/
theorem lsmF1 : S256x1.BroadcastsInDim S256x10 ![0, 1] := by decide
theorem lsmF2 : S256.BroadcastsInDim S256x1 ![0] := by decide
theorem lsmF3 : S_.BroadcastsInDim S256 (![] : Fin 0 → Fin S256.rank) := by decide
theorem lsmF4 : S256x10.ReducesTo [1] S256 := by decide
theorem lsmF5 : 0 < S_.numel := by decide

/-- The host's row maxima, spread over the columns. -/
def hostRowMax (z : FVec Ideal S256x10 .f32) : FVec Ideal S256x10 .f32 :=
  broadcastInDim S256x10 ![0, 1] lsmF1 (broadcastInDim S256x1 ![0] lsmF2
    (maximumf (broadcastInDim S256 ![] lsmF3 (constant S_ .f32 0xFF800000#32))
      (Host.reduce FloatOps.maximumf z (constant S_ .f32 0xFF800000#32) lsmF4 lsmF5)))

/-- The host's logarithms of the row sums of exponentials, spread over the columns. -/
def hostRowLogSum (s : FVec Ideal S256x10 .f32) : FVec Ideal S256x10 .f32 :=
  broadcastInDim S256x10 ![0, 1] lsmF1 (Host.log (broadcastInDim S256x1 ![0] lsmF2
    (Host.reduceAdd (Host.exp s) (constant S_ .f32 0x00000000#32) lsmF4 lsmF5)))

theorem kerRowMax_eq (z : FVec Ideal S256x10 .f32) : kerRowMax z = hostRowMax z := by
  unfold kerRowMax hostRowMax
  exact rowMax_bcast_eq z _ _ _ _ _ _ _ _ _ _

theorem kerRowLogSum_eq (s : FVec Ideal S256x10 .f32) : kerRowLogSum s = hostRowLogSum s := by
  unfold kerRowLogSum hostRowLogSum
  exact rowLogSum_bcast_eq s _ _ _ _ _ _ _ _ _

theorem lsm_ker (z : FVec Ideal S256x10 .f32) :
    logSoftmaxRows z = subf (subf z (kerRowMax z)) (kerRowLogSum (subf z (kerRowMax z))) := rfl

theorem lsm_host (z : FVec Ideal S256x10 .f32) :
    Cert.ReferenceIdeal.Hand.logSoftmax (F := Ideal) z = subf (subf z (hostRowMax z)) (hostRowLogSum (subf z (hostRowMax z))) := rfl

theorem lsm_eq (z : FVec Ideal S256x10 .f32) :
    logSoftmaxRows z = Cert.ReferenceIdeal.Hand.logSoftmax (F := Ideal) z := by
  rw [lsm_ker, lsm_host, kerRowMax_eq, kerRowLogSum_eq]

/-! ## The tail: pooling, the perceptron, the log-softmax -/

theorem bridge5 (h4 : FVec Ideal S100000x64 .f32) (bt : IVec S100000 32) (w1 : FVec Ideal S64x64 .f32) (b1 : FVec Ideal S64 .f32)
    (w2 : FVec Ideal S64x10 .f32) (b2 : FVec Ideal S10 .f32) :
    f9_5 (poolMean bt h4) w1 (row64 b1) w2 (row10 b2)
      = Cert.ReferenceIdeal.Hand.logSoftmax (F := Ideal)
          (Cert.ReferenceIdeal.Hand.logits (F := Ideal)
            (Cert.ReferenceIdeal.Hand.mlp1 (F := Ideal) (Cert.ReferenceIdeal.Hand.pooled (F := Ideal) h4 bt) w1 b1) w2 b2) := by
  unfold f9_5
  rw [pool_eq, hidden_eq, logits_eq, lsm_eq]

end Cert.Hand.Bridge
-- ==== Proof.KerLink2.lean ====
/- The kernel's layers 2, 3, 4 and its tail against the reference's: what each pair of regions and the host glue between them
   leave, read at an element, is what the layer bridges take; the chain of region values then gives each layer's output as
   the reference's layer of the previous one, every element real. -/
import proofs.«403053_j58033598104012_3_alg».proof.Proof.KerValue
import proofs.«403053_j58033598104012_3_alg».proof.Proof.HostRead
import proofs.«403053_j58033598104012_3_alg».proof.Proof.AggReal
import proofs.«403053_j58033598104012_3_alg».proof.Proof.Bridge2
import proofs.«403053_j58033598104012_3_alg».proof.Proof.Bridge3
import proofs.«403053_j58033598104012_3_alg».proof.Proof.Bridge4
import proofs.«403053_j58033598104012_3_alg».proof.Proof.Bridge5
import proofs.«403053_j58033598104012_3_alg».proof.Proof.PreFinite

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Math (IsReal)
open Cert.Hand.Bridge (ofBits_nodes ofBits_eps epsR)
open scoped BigOperators

/-! ## The host glue between a layer's two regions, in the bridges' words -/

/-- Column k's mean, the node count as a real. -/
theorem lane32_mean (sS : FVec Ideal S1x32 .f32) (k : Fin 32) :
    meanOf32 sS (ix1 k) = Ideal.div (sS (ix2 (0 : Fin 1) k)) ((100000 : ℝ) : EReal) := by
  rw [meanOf32_apply, ofBits_nodes]

/-- Column k's clamped one-pass variance, the node count as a real. -/
theorem lane32_var (sS qS : FVec Ideal S1x32 .f32) (k : Fin 32) :
    varOf32 sS qS (ix1 k)
      = max (Ideal.div (qS (ix2 (0 : Fin 1) k)) ((100000 : ℝ) : EReal) - meanOf32 sS (ix1 k) * meanOf32 sS (ix1 k)) 0 := by
  rw [varOf32_apply, meanOf32_apply qS, ofBits_nodes]

/-- The normalisation and ELU at a lane, the variance offset as a real. -/
theorem lane_out4 (Y : S25000x128.Idx → EReal) (M Vr G B : S1x128.Idx → EReal) (r : Fin 25000) (l : Fin 128) :
    bnElu4 Y M Vr G B (ix2 r l)
      = Cert.Hand.Bridge.eluK ((Y (ix2 r l) - M (ix2 (0 : Fin 1) l)) * Ideal.rsqrt (Vr (ix2 (0 : Fin 1) l) + (epsR : EReal))
          * G (ix2 (0 : Fin 1) l) + B (ix2 (0 : Fin 1) l)) := by
  rw [bnElu4_apply, ofBits_eps]
  rfl

/-- The normalisation and ELU at a lane, the variance offset as a real. -/
theorem lane_out6 (Y : S25000x128.Idx → EReal) (M Vr G B : S1x128.Idx → EReal) (r : Fin 25000) (l : Fin 128) :
    bnElu6 Y M Vr G B (ix2 r l)
      = Cert.Hand.Bridge.eluK ((Y (ix2 r l) - M (ix2 (0 : Fin 1) l)) * Ideal.rsqrt (Vr (ix2 (0 : Fin 1) l) + (epsR : EReal))
          * G (ix2 (0 : Fin 1) l) + B (ix2 (0 : Fin 1) l)) := by
  rw [bnElu6_apply, ofBits_eps]
  rfl

/-- Column k's mean, the node count as a real. -/
theorem lane64_mean (sS : FVec Ideal S1x64 .f32) (k : Fin 64) :
    meanOf64 sS (ix1 k) = Ideal.div (sS (ix2 (0 : Fin 1) k)) ((100000 : ℝ) : EReal) := by
  rw [meanOf64_apply, ofBits_nodes]

/-- Column k's clamped one-pass variance, the node count as a real. -/
theorem lane64_var (sS qS : FVec Ideal S1x64 .f32) (k : Fin 64) :
    varOf64 sS qS (ix1 k)
      = max (Ideal.div (qS (ix2 (0 : Fin 1) k)) ((100000 : ℝ) : EReal) - meanOf64 sS (ix1 k) * meanOf64 sS (ix1 k)) 0 := by
  rw [varOf64_apply, meanOf64_apply qS, ofBits_nodes]

/-- The normalisation and ELU at a lane, the variance offset as a real. -/
theorem lane_out8 (Y : S50000x128.Idx → EReal) (M Vr G B : S1x128.Idx → EReal) (r : Fin 50000) (l : Fin 128) :
    bnElu8 Y M Vr G B (ix2 r l)
      = Cert.Hand.Bridge.eluK ((Y (ix2 r l) - M (ix2 (0 : Fin 1) l)) * Ideal.rsqrt (Vr (ix2 (0 : Fin 1) l) + (epsR : EReal))
          * G (ix2 (0 : Fin 1) l) + B (ix2 (0 : Fin 1) l)) := by
  rw [bnElu8_apply, ofBits_eps]
  rfl

/-! ## A layer from its regions' outputs, given at an element -/

/-- LAYER 2 from its second region's output: the first region's output y with its column sums and sums of squares given at
    an element, the second region's output as the normalisation and ELU of the lane-dense views, the view undone is the
    reference's layer 2 of real inputs, and real. -/
theorem core2 (x : FVec Ideal S100000x16 .f32) (s d : IVec S3200000 32) (wrel wroot : FVec Ideal S16x32 .f32) (b g be : FVec Ideal S32 .f32)
    (hx : ∀ j, IsReal (x j)) (hagg : ∀ j, IsReal (Cert.ReferenceIdeal.Hand.agg16 (F := Ideal) x (Cert.ReferenceIdeal.Hand.srcCol s) (Cert.ReferenceIdeal.Hand.dstCol d) j))
    (hwrel : ∀ j, IsReal (wrel j)) (hwroot : ∀ j, IsReal (wroot j))
    (hb : ∀ j, IsReal (b j)) (hg : ∀ j, IsReal (g j)) (hbe : ∀ j, IsReal (be j))
    (y : FVec Ideal S100000x32 .f32) (sS qS : FVec Ideal S1x32 .f32) (out : FVec Ideal S25000x128 .f32)
    (hy : ∀ (i : Fin 100000) (k : Fin 32), y (ix2 i k)
      = ((∑ j : Fin 16, Cert.ReferenceIdeal.Hand.agg16 (F := Ideal) x (Cert.ReferenceIdeal.Hand.srcCol s) (Cert.ReferenceIdeal.Hand.dstCol d) (ix2 i j) * wrel (ix2 j k))
          + ∑ j : Fin 16, x (ix2 i j) * wroot (ix2 j k)) + b (ix1 k))
    (hs : ∀ k : Fin 32, sS (ix2 (0 : Fin 1) k) = ∑ i : Fin 100000, y (ix2 i k))
    (hq : ∀ k : Fin 32, qS (ix2 (0 : Fin 1) k) = ∑ i : Fin 100000, y (ix2 i k) * y (ix2 i k))
    (hout : out = bnElu4 (dense32 y) (tile32 (meanOf32 sS)) (tile32 (varOf32 sS qS)) (tile32 g) (tile32 be)) :
    undense32 out = Cert.ReferenceIdeal.Hand.h2 (F := Ideal) x s d wrel wroot b g be ∧ ∀ j, IsReal (undense32 out j) :=
  Cert.Hand.Bridge.layer2_bridge x s d wrel wroot b g be hx hagg hwrel hwroot hb hg hbe
    y (undense32 out) sS qS (meanOf32 sS) (varOf32 sS qS) (dense32 y) out
    (tile32 (meanOf32 sS)) (tile32 (varOf32 sS qS)) (tile32 g) (tile32 be)
    hy hs hq (lane32_mean sS) (lane32_var sS qS) (dense32_apply y)
    (tile32_apply _) (tile32_apply _) (tile32_apply _) (tile32_apply _)
    (fun r l => by rw [hout]; exact lane_out4 _ _ _ _ _ r l)
    (undense32_apply out)

/-- LAYER 3 from its second region's output: the first region's output y with its column sums and sums of squares given at
    an element, the second region's output as the normalisation and ELU of the lane-dense views, the view undone is the
    reference's layer 3 of real inputs, and real. -/
theorem core3 (x : FVec Ideal S100000x32 .f32) (s d : IVec S3200000 32) (wrel wroot : FVec Ideal S32x32 .f32) (b g be : FVec Ideal S32 .f32)
    (hx : ∀ j, IsReal (x j)) (hagg : ∀ j, IsReal (Cert.ReferenceIdeal.Hand.agg32 (F := Ideal) x (Cert.ReferenceIdeal.Hand.srcCol s) (Cert.ReferenceIdeal.Hand.dstCol d) j))
    (hwrel : ∀ j, IsReal (wrel j)) (hwroot : ∀ j, IsReal (wroot j))
    (hb : ∀ j, IsReal (b j)) (hg : ∀ j, IsReal (g j)) (hbe : ∀ j, IsReal (be j))
    (y : FVec Ideal S100000x32 .f32) (sS qS : FVec Ideal S1x32 .f32) (out : FVec Ideal S25000x128 .f32)
    (hy : ∀ (i : Fin 100000) (k : Fin 32), y (ix2 i k)
      = ((∑ j : Fin 32, Cert.ReferenceIdeal.Hand.agg32 (F := Ideal) x (Cert.ReferenceIdeal.Hand.srcCol s) (Cert.ReferenceIdeal.Hand.dstCol d) (ix2 i j) * wrel (ix2 j k))
          + ∑ j : Fin 32, x (ix2 i j) * wroot (ix2 j k)) + b (ix1 k))
    (hs : ∀ k : Fin 32, sS (ix2 (0 : Fin 1) k) = ∑ i : Fin 100000, y (ix2 i k))
    (hq : ∀ k : Fin 32, qS (ix2 (0 : Fin 1) k) = ∑ i : Fin 100000, y (ix2 i k) * y (ix2 i k))
    (hout : out = bnElu6 (dense32 y) (tile32 (meanOf32 sS)) (tile32 (varOf32 sS qS)) (tile32 g) (tile32 be)) :
    undense32 out = Cert.ReferenceIdeal.Hand.h3 (F := Ideal) x s d wrel wroot b g be ∧ ∀ j, IsReal (undense32 out j) :=
  Cert.Hand.Bridge.layer3_bridge x s d wrel wroot b g be hx hagg hwrel hwroot hb hg hbe
    y (undense32 out) sS qS (meanOf32 sS) (varOf32 sS qS) (dense32 y) out
    (tile32 (meanOf32 sS)) (tile32 (varOf32 sS qS)) (tile32 g) (tile32 be)
    hy hs hq (lane32_mean sS) (lane32_var sS qS) (dense32_apply y)
    (tile32_apply _) (tile32_apply _) (tile32_apply _) (tile32_apply _)
    (fun r l => by rw [hout]; exact lane_out6 _ _ _ _ _ r l)
    (undense32_apply out)

/-- LAYER 4 from its second region's output: the first region's output y with its column sums and sums of squares given at
    an element, the second region's output as the normalisation and ELU of the lane-dense views, the view undone is the
    reference's layer 4 of real inputs, and real. -/
theorem core4 (x : FVec Ideal S100000x32 .f32) (s d : IVec S3200000 32) (wrel wroot : FVec Ideal S32x64 .f32) (b g be : FVec Ideal S64 .f32)
    (hx : ∀ j, IsReal (x j)) (hagg : ∀ j, IsReal (Cert.ReferenceIdeal.Hand.agg32 (F := Ideal) x (Cert.ReferenceIdeal.Hand.srcCol s) (Cert.ReferenceIdeal.Hand.dstCol d) j))
    (hwrel : ∀ j, IsReal (wrel j)) (hwroot : ∀ j, IsReal (wroot j))
    (hb : ∀ j, IsReal (b j)) (hg : ∀ j, IsReal (g j)) (hbe : ∀ j, IsReal (be j))
    (y : FVec Ideal S100000x64 .f32) (sS qS : FVec Ideal S1x64 .f32) (out : FVec Ideal S50000x128 .f32)
    (hy : ∀ (i : Fin 100000) (k : Fin 64), y (ix2 i k)
      = ((∑ j : Fin 32, Cert.ReferenceIdeal.Hand.agg32 (F := Ideal) x (Cert.ReferenceIdeal.Hand.srcCol s) (Cert.ReferenceIdeal.Hand.dstCol d) (ix2 i j) * wrel (ix2 j k))
          + ∑ j : Fin 32, x (ix2 i j) * wroot (ix2 j k)) + b (ix1 k))
    (hs : ∀ k : Fin 64, sS (ix2 (0 : Fin 1) k) = ∑ i : Fin 100000, y (ix2 i k))
    (hq : ∀ k : Fin 64, qS (ix2 (0 : Fin 1) k) = ∑ i : Fin 100000, y (ix2 i k) * y (ix2 i k))
    (hout : out = bnElu8 (dense64 y) (tile64 (meanOf64 sS)) (tile64 (varOf64 sS qS)) (tile64 g) (tile64 be)) :
    undense64 out = Cert.ReferenceIdeal.Hand.h4 (F := Ideal) x s d wrel wroot b g be ∧ ∀ j, IsReal (undense64 out j) :=
  Cert.Hand.Bridge.layer4_bridge x s d wrel wroot b g be hx hagg hwrel hwroot hb hg hbe
    y (undense64 out) sS qS (meanOf64 sS) (varOf64 sS qS) (dense64 y) out
    (tile64 (meanOf64 sS)) (tile64 (varOf64 sS qS)) (tile64 g) (tile64 be)
    hy hs hq (lane64_mean sS) (lane64_var sS qS) (dense64_apply y)
    (tile64_apply _) (tile64_apply _) (tile64_apply _) (tile64_apply _)
    (fun r l => by rw [hout]; exact lane_out8 _ _ _ _ _ r l)
    (undense64_apply out)

/-! ## A layer from its regions' outputs, as functions of their operands -/

/-- LAYER 2 from its two regions' outputs as functions of their operands. -/
theorem mid2 (x : FVec Ideal S100000x16 .f32) (s d : IVec S3200000 32) (wrel wroot : FVec Ideal S16x32 .f32) (b g be : FVec Ideal S32 .f32)
    (hx : ∀ j, IsReal (x j)) (hagg : ∀ j, IsReal (Cert.ReferenceIdeal.Hand.agg16 (F := Ideal) x (Cert.ReferenceIdeal.Hand.srcCol s) (Cert.ReferenceIdeal.Hand.dstCol d) j))
    (hwrel : ∀ j, IsReal (wrel j)) (hwroot : ∀ j, IsReal (wroot j))
    (hb : ∀ j, IsReal (b j)) (hg : ∀ j, IsReal (g j)) (hbe : ∀ j, IsReal (be j))
    (y : FVec Ideal S100000x32 .f32) (sS qS : FVec Ideal S1x32 .f32) (out : FVec Ideal S25000x128 .f32)
    (hy : y = f3_5 (segMean16 (degOf d) d s x) x wrel wroot (row32 b))
    (hs : sS = f3_6 (segMean16 (degOf d) d s x) x wrel wroot (row32 b))
    (hq : qS = f3_7 (segMean16 (degOf d) d s x) x wrel wroot (row32 b))
    (hout : out = bnElu4 (dense32 y) (tile32 (meanOf32 sS)) (tile32 (varOf32 sS qS)) (tile32 g) (tile32 be)) :
    undense32 out = Cert.ReferenceIdeal.Hand.h2 (F := Ideal) x s d wrel wroot b g be ∧ ∀ j, IsReal (undense32 out j) := by
  have hA : segMean16 (F := Ideal) (degOf d) d s x = Cert.ReferenceIdeal.Hand.agg16 (F := Ideal) x (Cert.ReferenceIdeal.Hand.srcCol s) (Cert.ReferenceIdeal.Hand.dstCol d) := rfl
  rw [hA] at hy hs hq
  refine core2 x s d wrel wroot b g be hx hagg hwrel hwroot hb hg hbe y sS qS out (fun i k => ?_) (fun k => ?_) (fun k => ?_) hout
  · rw [hy, f3_5_apply, row32_apply]
  · rw [hs, hy, f3_6_apply]
  · rw [hq, hy, f3_7_apply]

/-- LAYER 3 from its two regions' outputs as functions of their operands. -/
theorem mid3 (x : FVec Ideal S100000x32 .f32) (s d : IVec S3200000 32) (wrel wroot : FVec Ideal S32x32 .f32) (b g be : FVec Ideal S32 .f32)
    (hx : ∀ j, IsReal (x j)) (hagg : ∀ j, IsReal (Cert.ReferenceIdeal.Hand.agg32 (F := Ideal) x (Cert.ReferenceIdeal.Hand.srcCol s) (Cert.ReferenceIdeal.Hand.dstCol d) j))
    (hwrel : ∀ j, IsReal (wrel j)) (hwroot : ∀ j, IsReal (wroot j))
    (hb : ∀ j, IsReal (b j)) (hg : ∀ j, IsReal (g j)) (hbe : ∀ j, IsReal (be j))
    (y : FVec Ideal S100000x32 .f32) (sS qS : FVec Ideal S1x32 .f32) (out : FVec Ideal S25000x128 .f32)
    (hy : y = f5_5 (segMean32 (degOf d) d s x) x wrel wroot (row32 b))
    (hs : sS = f5_6 (segMean32 (degOf d) d s x) x wrel wroot (row32 b))
    (hq : qS = f5_7 (segMean32 (degOf d) d s x) x wrel wroot (row32 b))
    (hout : out = bnElu6 (dense32 y) (tile32 (meanOf32 sS)) (tile32 (varOf32 sS qS)) (tile32 g) (tile32 be)) :
    undense32 out = Cert.ReferenceIdeal.Hand.h3 (F := Ideal) x s d wrel wroot b g be ∧ ∀ j, IsReal (undense32 out j) := by
  have hA : segMean32 (F := Ideal) (degOf d) d s x = Cert.ReferenceIdeal.Hand.agg32 (F := Ideal) x (Cert.ReferenceIdeal.Hand.srcCol s) (Cert.ReferenceIdeal.Hand.dstCol d) := rfl
  rw [hA] at hy hs hq
  refine core3 x s d wrel wroot b g be hx hagg hwrel hwroot hb hg hbe y sS qS out (fun i k => ?_) (fun k => ?_) (fun k => ?_) hout
  · rw [hy, f5_5_apply, row32_apply]
  · rw [hs, hy, f5_6_apply]
  · rw [hq, hy, f5_7_apply]

/-- LAYER 4 from its two regions' outputs as functions of their operands. -/
theorem mid4 (x : FVec Ideal S100000x32 .f32) (s d : IVec S3200000 32) (wrel wroot : FVec Ideal S32x64 .f32) (b g be : FVec Ideal S64 .f32)
    (hx : ∀ j, IsReal (x j)) (hagg : ∀ j, IsReal (Cert.ReferenceIdeal.Hand.agg32 (F := Ideal) x (Cert.ReferenceIdeal.Hand.srcCol s) (Cert.ReferenceIdeal.Hand.dstCol d) j))
    (hwrel : ∀ j, IsReal (wrel j)) (hwroot : ∀ j, IsReal (wroot j))
    (hb : ∀ j, IsReal (b j)) (hg : ∀ j, IsReal (g j)) (hbe : ∀ j, IsReal (be j))
    (y : FVec Ideal S100000x64 .f32) (sS qS : FVec Ideal S1x64 .f32) (out : FVec Ideal S50000x128 .f32)
    (hy : y = f7_5 (segMean32 (degOf d) d s x) x wrel wroot (row64 b))
    (hs : sS = f7_6 (segMean32 (degOf d) d s x) x wrel wroot (row64 b))
    (hq : qS = f7_7 (segMean32 (degOf d) d s x) x wrel wroot (row64 b))
    (hout : out = bnElu8 (dense64 y) (tile64 (meanOf64 sS)) (tile64 (varOf64 sS qS)) (tile64 g) (tile64 be)) :
    undense64 out = Cert.ReferenceIdeal.Hand.h4 (F := Ideal) x s d wrel wroot b g be ∧ ∀ j, IsReal (undense64 out j) := by
  have hA : segMean32 (F := Ideal) (degOf d) d s x = Cert.ReferenceIdeal.Hand.agg32 (F := Ideal) x (Cert.ReferenceIdeal.Hand.srcCol s) (Cert.ReferenceIdeal.Hand.dstCol d) := rfl
  rw [hA] at hy hs hq
  refine core4 x s d wrel wroot b g be hx hagg hwrel hwroot hb hg hbe y sS qS out (fun i k => ?_) (fun k => ?_) (fun k => ?_) hout
  · rw [hy, f7_5_apply, row64_apply]
  · rw [hs, hy, f7_6_apply]
  · rw [hq, hy, f7_7_apply]

/-! ## The run's layers -/

variable [Cert.Pre_finite_inputs.Facts]
variable (m : (ℓ : Loc nD τ sig) → Buf (Elt Ideal) ℓ)

/-- LAYER 2 of the run: from the previous layer's array as the run leaves it to this layer's, the reference's layer 2 of it. -/
theorem link2 (hpre : Cert.Pre_KernelIdeal m) (c : Dev nD) (H : S100000x16.Idx → EReal)
    (hH : outs m 6 main_v39 c = H) (hr : ∀ i, IsReal (H i)) :
    undense32 (F := Ideal) (outs m 10 main_v83 c)
        = Cert.ReferenceIdeal.Hand.h2 (F := Ideal) H (Cert.ReferenceIdeal.Hand.srcOf (V0 m c main_arg1)) (Cert.ReferenceIdeal.Hand.dstOf (V0 m c main_arg1)) (V0 m c main_arg8) (V0 m c main_arg9) (V0 m c main_arg10) (V0 m c main_arg11) (V0 m c main_arg12)
      ∧ ∀ i, IsReal (undense32 (F := Ideal) (outs m 10 main_v83 c) i) := by
  have k0 := kv3_0 m c
  have k1 := kv3_1 m c
  have k2 := kv3_2 m c
  rw [hH] at k0 k1 k2
  exact mid2 H (kS m c) (kD m c) (V0 m c main_arg8) (V0 m c main_arg9) (V0 m c main_arg10) (V0 m c main_arg11) (V0 m c main_arg12) hr
    (Cert.Hand.Bridge.isReal_agg16 H hr (Cert.ReferenceIdeal.Hand.srcCol (kS m c)) (Cert.ReferenceIdeal.Hand.dstCol (kD m c)))
    (Cert.Hand.Pre.fin_arg8 m hpre c) (Cert.Hand.Pre.fin_arg9 m hpre c) (Cert.Hand.Pre.fin_arg10 m hpre c)
    (Cert.Hand.Pre.fin_arg11 m hpre c) (Cert.Hand.Pre.fin_arg12 m hpre c) _ _ _ _ k0 k1 k2 (kv4 m c)

/-- LAYER 3 of the run: from the previous layer's array as the run leaves it to this layer's, the reference's layer 3 of it. -/
theorem link3 (hpre : Cert.Pre_KernelIdeal m) (c : Dev nD) (H : S100000x32.Idx → EReal)
    (hH : undense32 (F := Ideal) (outs m 10 main_v83 c) = H) (hr : ∀ i, IsReal (H i)) :
    undense32 (F := Ideal) (outs m 14 main_v128 c)
        = Cert.ReferenceIdeal.Hand.h3 (F := Ideal) H (Cert.ReferenceIdeal.Hand.srcOf (V0 m c main_arg1)) (Cert.ReferenceIdeal.Hand.dstOf (V0 m c main_arg1)) (V0 m c main_arg13) (V0 m c main_arg14) (V0 m c main_arg15) (V0 m c main_arg16) (V0 m c main_arg17)
      ∧ ∀ i, IsReal (undense32 (F := Ideal) (outs m 14 main_v128 c) i) := by
  have k0 := kv5_0 m c
  have k1 := kv5_1 m c
  have k2 := kv5_2 m c
  rw [hH] at k0 k1 k2
  exact mid3 H (kS m c) (kD m c) (V0 m c main_arg13) (V0 m c main_arg14) (V0 m c main_arg15) (V0 m c main_arg16) (V0 m c main_arg17) hr
    (Cert.Hand.Bridge.isReal_agg32 H hr (Cert.ReferenceIdeal.Hand.srcCol (kS m c)) (Cert.ReferenceIdeal.Hand.dstCol (kD m c)))
    (Cert.Hand.Pre.fin_arg13 m hpre c) (Cert.Hand.Pre.fin_arg14 m hpre c) (Cert.Hand.Pre.fin_arg15 m hpre c)
    (Cert.Hand.Pre.fin_arg16 m hpre c) (Cert.Hand.Pre.fin_arg17 m hpre c) _ _ _ _ k0 k1 k2 (kv6 m c)

/-- LAYER 4 of the run: from the previous layer's array as the run leaves it to this layer's, the reference's layer 4 of it. -/
theorem link4 (hpre : Cert.Pre_KernelIdeal m) (c : Dev nD) (H : S100000x32.Idx → EReal)
    (hH : undense32 (F := Ideal) (outs m 14 main_v128 c) = H) (hr : ∀ i, IsReal (H i)) :
    undense64 (F := Ideal) (outs m 18 main_v173 c)
        = Cert.ReferenceIdeal.Hand.h4 (F := Ideal) H (Cert.ReferenceIdeal.Hand.srcOf (V0 m c main_arg1)) (Cert.ReferenceIdeal.Hand.dstOf (V0 m c main_arg1)) (V0 m c main_arg18) (V0 m c main_arg19) (V0 m c main_arg20) (V0 m c main_arg21) (V0 m c main_arg22)
      ∧ ∀ i, IsReal (undense64 (F := Ideal) (outs m 18 main_v173 c) i) := by
  have k0 := kv7_0 m c
  have k1 := kv7_1 m c
  have k2 := kv7_2 m c
  rw [hH] at k0 k1 k2
  exact mid4 H (kS m c) (kD m c) (V0 m c main_arg18) (V0 m c main_arg19) (V0 m c main_arg20) (V0 m c main_arg21) (V0 m c main_arg22) hr
    (Cert.Hand.Bridge.isReal_agg32 H hr (Cert.ReferenceIdeal.Hand.srcCol (kS m c)) (Cert.ReferenceIdeal.Hand.dstCol (kD m c)))
    (Cert.Hand.Pre.fin_arg18 m hpre c) (Cert.Hand.Pre.fin_arg19 m hpre c) (Cert.Hand.Pre.fin_arg20 m hpre c)
    (Cert.Hand.Pre.fin_arg21 m hpre c) (Cert.Hand.Pre.fin_arg22 m hpre c) _ _ _ _ k0 k1 k2 (kv8 m c)

/-- THE TAIL of the run: from layer 4's array as the run leaves it to the result, the reference's pooling, perceptron and
    log-softmax of it. -/
theorem tail (c : Dev nD) (H : S100000x64.Idx → EReal) (hH : undense64 (F := Ideal) (outs m 18 main_v173 c) = H) :
    RES m c = Cert.ReferenceIdeal.Hand.logSoftmax (F := Ideal) (Cert.ReferenceIdeal.Hand.logits (F := Ideal)
      (Cert.ReferenceIdeal.Hand.mlp1 (F := Ideal) (Cert.ReferenceIdeal.Hand.pooled (F := Ideal) H (V0 m c main_arg2)) (V0 m c main_arg23) (V0 m c main_arg24)) (V0 m c main_arg25) (V0 m c main_arg26)) := by
  have k := kv9 m c
  rw [hH] at k
  exact k.trans (Cert.Hand.Bridge.bridge5 H (V0 m c main_arg2) (V0 m c main_arg23) (V0 m c main_arg24) (V0 m c main_arg25) (V0 m c main_arg26))

end Cert.KernelIdeal.Hand

end
-- ==== Proof.KerValueMain.lean ====
import proofs.«403053_j58033598104012_3_alg».proof.Proof.KerLink1
import proofs.«403053_j58033598104012_3_alg».proof.Proof.KerLink2

/-!
  The kernel program's result is the reference's function of the launch arguments: layer 1's buffer
  is the reference's first layer and real; each further layer's buffer is the reference's layer of
  the one before and real; the last region's output is the reference's pooled perceptron and
  log-softmax of the fourth.
-/

set_option maxRecDepth 1920

noncomputable section

namespace Cert.KernelIdeal.Hand

open Cert.KernelIdeal Cert.KernelIdeal.Gen
open Idealize.ShloMosaic Idealize.ShloMosaic.TcCoe
open Idealize.SL.Sem
open Cert.Math

variable [Cert.Pre_finite_inputs.Facts]
variable (m : (ℓ : Loc nD τ sig) → Buf (Elt Ideal) ℓ)

/-- THE KERNEL'S RESULT on finite inputs: the reference's layer functions of the kernel's own arguments. -/
theorem kernel_value (hpre : Cert.Pre_KernelIdeal m) (c : Dev nD) :
    RES (F := Ideal) m c =
      Cert.ReferenceIdeal.Hand.logSoftmax (F := Ideal) (Cert.ReferenceIdeal.Hand.logits (F := Ideal) (Cert.ReferenceIdeal.Hand.mlp1 (F := Ideal) (Cert.ReferenceIdeal.Hand.pooled (F := Ideal)
        (Cert.ReferenceIdeal.Hand.h4 (F := Ideal) (Cert.ReferenceIdeal.Hand.h3 (F := Ideal) (Cert.ReferenceIdeal.Hand.h2 (F := Ideal) (Cert.ReferenceIdeal.Hand.h1 (F := Ideal) (m ((c.tc : Thread nD τ).loc main_arg0)) (Cert.ReferenceIdeal.Hand.srcOf (m ((c.tc : Thread nD τ).loc main_arg1))) (Cert.ReferenceIdeal.Hand.dstOf (m ((c.tc : Thread nD τ).loc main_arg1))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
          (Cert.ReferenceIdeal.Hand.srcOf (m ((c.tc : Thread nD τ).loc main_arg1))) (Cert.ReferenceIdeal.Hand.dstOf (m ((c.tc : Thread nD τ).loc main_arg1))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
          (Cert.ReferenceIdeal.Hand.srcOf (m ((c.tc : Thread nD τ).loc main_arg1))) (Cert.ReferenceIdeal.Hand.dstOf (m ((c.tc : Thread nD τ).loc main_arg1))) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
          (Cert.ReferenceIdeal.Hand.srcOf (m ((c.tc : Thread nD τ).loc main_arg1))) (Cert.ReferenceIdeal.Hand.dstOf (m ((c.tc : Thread nD τ).loc main_arg1))) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
        (m ((c.tc : Thread nD τ).loc main_arg2))) (m ((c.tc : Thread nD τ).loc main_arg23)) (m ((c.tc : Thread nD τ).loc main_arg24))) (m ((c.tc : Thread nD τ).loc main_arg25)) (m ((c.tc : Thread nD τ).loc main_arg26))) := by
  obtain ⟨e1, r1⟩ := link1 m hpre c
  obtain ⟨e2, r2⟩ := link2 m hpre c _ e1 (fun i => by rw [← e1]; exact r1 i)
  obtain ⟨e3, r3⟩ := link3 m hpre c _ e2 (fun i => by rw [← e2]; exact r2 i)
  obtain ⟨e4, r4⟩ := link4 m hpre c _ e3 (fun i => by rw [← e3]; exact r3 i)
  exact tail m c _ e4

end Cert.KernelIdeal.Hand
end
-- ==== Proof.RefOps.lean ====
/- The reference program's @main as a straight line of host operations, cut into sixteen consecutive stretches
   (each inside one printed window of @main, each ending where a layer's named array is complete): the outlined
   functions (variance, ELU, their selects, ReLU, log-softmax) are listed at their call sites over the call's
   buffer records. `main_eq` says @main is that line; `run_main` that every weakly fair execution terminates with
   each buffer at the line's fold over the launch contents. -/
import proofs.«403053_j58033598104012_3_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 1 … 34 of 401. The edge list's two rows as index vectors (sources, targets), then the first graph convolution before its batch norm: the mean over incoming edges of the gathered source rows (a scatter-add of the gathered rows divided by the in-degree clamped below at one), times the relation weights, plus the nodes' own rows times the root weights, plus the bias. -/
abbrev w1 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v1 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v1 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.nullary main_cst_1 (constant S_ .f32 0x3F800000#32),
    StableHlo.unary main_cst_1 main_v14 (broadcastInDim S3200000x1 ![] bcast_S_S3200000x1 : (⟨S_, .f32⟩ : BufTy).Contents (Elt F) → (⟨S3200000x1, .f32⟩ : BufTy).Contents (Elt F)),
    StableHlo.nullary main_cst_2 (constant S_ .f32 0x00000000#32),
    StableHlo.unary main_cst_2 main_v15 (broadcastInDim S100000x1 ![] bcast_S_S100000x1 : (⟨S_, .f32⟩ : BufTy).Contents (Elt F) → (⟨S100000x1, .f32⟩ : BufTy).Contents (Elt F)),
    StableHlo.unary main_v3 main_v16 (broadcastInDim S3200000x1 ![0] bcast_S3200000_S3200000x1_0 : (⟨S3200000, .i32⟩ : BufTy).Contents (Elt F) → (⟨S3200000x1, .i32⟩ : BufTy).Contents (Elt F)),
    StableHlo.ternary main_v15 main_v16 main_v14 main_v17 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_3 (constant S_ .f32 0x3F800000#32),
    StableHlo.unary main_cst_3 main_v18 (broadcastInDim S100000x1 ![] bcast_S_S100000x1 : (⟨S_, .f32⟩ : BufTy).Contents (Elt F) → (⟨S100000x1, .f32⟩ : BufTy).Contents (Elt F)),
    StableHlo.binary main_v17 main_v18 main_v19 (maximumf : (⟨S100000x1, .f32⟩ : BufTy).Contents (Elt F) → (⟨S100000x1, .f32⟩ : BufTy).Contents (Elt F) → (⟨S100000x1, .f32⟩ : BufTy).Contents (Elt F)),
    StableHlo.unary main_v19 main_v20 (broadcastInDim S100000x64 ![0, 1] bcast_S100000x1_S100000x64_0_1 : (⟨S100000x1, .f32⟩ : BufTy).Contents (Elt F) → (⟨S100000x64, .f32⟩ : BufTy).Contents (Elt F)),
    StableHlo.binary main_v13 main_v20 main_v21 (Host.divf : (⟨S100000x64, .f32⟩ : BufTy).Contents (Elt F) → (⟨S100000x64, .f32⟩ : BufTy).Contents (Elt F) → (⟨S100000x64, .f32⟩ : BufTy).Contents (Elt F)),
    StableHlo.binary main_v21 main_arg3 main_v22 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    StableHlo.binary main_arg0 main_arg4 main_v23 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    StableHlo.binary main_v22 main_v23 main_v24 (addf : (⟨S100000x16, .f32⟩ : BufTy).Contents (Elt F) → (⟨S100000x16, .f32⟩ : BufTy).Contents (Elt F) → (⟨S100000x16, .f32⟩ : BufTy).Contents (Elt F)),
    StableHlo.unary main_arg5 main_v25 (broadcastInDim S1x16 ![1] bcast_S16_S1x16_1 : (⟨S16, .f32⟩ : BufTy).Contents (Elt F) → (⟨S1x16, .f32⟩ : BufTy).Contents (Elt F)),
    StableHlo.unary main_v25 main_v26 (broadcastInDim S100000x16 ![0, 1] bcast_S1x16_S100000x16_0_1 : (⟨S1x16, .f32⟩ : BufTy).Contents (Elt F) → (⟨S100000x16, .f32⟩ : BufTy).Contents (Elt F)),
    StableHlo.binary main_v24 main_v26 main_v27 (addf : (⟨S100000x16, .f32⟩ : BufTy).Contents (Elt F) → (⟨S100000x16, .f32⟩ : BufTy).Contents (Elt F) → (⟨S100000x16, .f32⟩ : BufTy).Contents (Elt F)) ]

/-- Operations 35 … 78 of 401. The first batch norm: the column means, the column variances (the outlined variance: the mean of the squared deviations, its denominator N minus a zero correction, guarded by a select on that denominator being positive), and the normalised, scaled and shifted array. -/
abbrev w2 : List (HloOp τ sig (Elt F)) :=
  [ StableHlo.nullary main_cst_4 (constant S_ .f32 0x00000000#32),
    StableHlo.binary main_v27 main_cst_4 main_v28 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    StableHlo.nullary main_cst_5 (constant S_ .f32 0x47C35000#32),
    StableHlo.unary main_cst_5 main_v29 (broadcastInDim S16 ![] bcast_S_S16 : (⟨S_, .f32⟩ : BufTy).Contents (Elt F) → (⟨S16, .f32⟩ : BufTy).Contents (Elt F)),
    StableHlo.binary main_v28 main_v29 main_v30 (Host.divf : (⟨S16, .f32⟩ : BufTy).Contents (Elt F) → (⟨S16, .f32⟩ : BufTy).Contents (Elt F) → (⟨S16, .f32⟩ : BufTy).Contents (Elt F)),
    StableHlo.nullary main_c_6 (constantI S_ 32 0#32),
    StableHlo.TRef.nullary main_call0.cst (constant S_ .f32 0x00000000#32),
    StableHlo.TRef.binary (.of main_v27 : StableHlo.TRef sig ⟨S100000x16, .f32⟩) main_call0.cst main_call0.v0 (fun x v => Host.reduceAdd x v reducesTo_S100000x16_S16_d0 h_S_),
    StableHlo.TRef.unary main_call0.v0 main_call0.v1 (broadcastInDim S1x16 ![1] bcast_S16_S1x16_1),
    StableHlo.TRef.nullary main_call0.cst_0 (constant S_ .f32 0x47C35000#32),
    StableHlo.TRef.unary main_call0.cst_0 main_call0.v2 (broadcastInDim S1x16 ![] bcast_S_S1x16),
    StableHlo.TRef.binary main_call0.v1 main_call0.v2 main_call0.v3 Host.divf,
    StableHlo.TRef.unary main_call0.v3 main_call0.v4 (broadcastInDim S100000x16 ![0, 1] bcast_S1x16_S100000x16_0_1),
    StableHlo.TRef.binary (.of main_v27 : StableHlo.TRef sig ⟨S100000x16, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x16_S16_d0 h_S_),
    StableHlo.TRef.unary main_call0.v8 main_call0.v10 (broadcastInDim S16 ![] bcast_S_S16),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16 ![] bcast_S_S16),
    StableHlo.TRef.ternary main_call0.v12 main_call0.v11 main_call0.call0.v1 main_call0.call0.v2 (fun p a b => select (broadcastInDim S16 ![] bcast_S_S16 p) a b),
    StableHlo.unary main_v30 main_v32 (broadcastInDim S1x16 ![1] bcast_S16_S1x16_1 : (⟨S16, .f32⟩ : BufTy).Contents (Elt F) → (⟨S1x16, .f32⟩ : BufTy).Contents (Elt F)),
    StableHlo.unary main_v32 main_v33 (broadcastInDim S100000x16 ![0, 1] bcast_S1x16_S100000x16_0_1 : (⟨S1x16, .f32⟩ : BufTy).Contents (Elt F) → (⟨S100000x16, .f32⟩ : BufTy).Contents (Elt F)),
    StableHlo.binary main_v27 main_v33 main_v34 (subf : (⟨S100000x16, .f32⟩ : BufTy).Contents (Elt F) → (⟨S100000x16, .f32⟩ : BufTy).Contents (Elt F) → (⟨S100000x16, .f32⟩ : BufTy).Contents (Elt F)),
    StableHlo.nullary main_cst_7 (constant S_ .f32 0x3727C5AC#32),
    StableHlo.unary main_cst_7 main_v35 (broadcastInDim S16 ![] bcast_S_S16 : (⟨S_, .f32⟩ : BufTy).Contents (Elt F) → (⟨S16, .f32⟩ : BufTy).Contents (Elt F)),
    StableHlo.binary main_v31 main_v35 main_v36 (addf : (⟨S16, .f32⟩ : BufTy).Contents (Elt F) → (⟨S16, .f32⟩ : BufTy).Contents (Elt F) → (⟨S16, .f32⟩ : BufTy).Contents (Elt F)),
    StableHlo.unary main_v36 main_v37 (Host.rsqrt : (⟨S16, .f32⟩ : BufTy).Contents (Elt F) → (⟨S16, .f32⟩ : BufTy).Contents (Elt F)),
    StableHlo.unary main_v37 main_v38 (broadcastInDim S1x16 ![1] bcast_S16_S1x16_1 : (⟨S16, .f32⟩ : BufTy).Contents (Elt F) → (⟨S1x16, .f32⟩ : BufTy).Contents (Elt F)),
    StableHlo.unary main_v38 main_v39 (broadcastInDim S100000x16 ![0, 1] bcast_S1x16_S100000x16_0_1 : (⟨S1x16, .f32⟩ : BufTy).Contents (Elt F) → (⟨S100000x16, .f32⟩ : BufTy).Contents (Elt F)),
    StableHlo.binary main_v34 main_v39 main_v40 (mulf : (⟨S100000x16, .f32⟩ : BufTy).Contents (Elt F) → (⟨S100000x16, .f32⟩ : BufTy).Contents (Elt F) → (⟨S100000x16, .f32⟩ : BufTy).Contents (Elt F)),
    StableHlo.unary main_arg6 main_v41 (broadcastInDim S1x16 ![1] bcast_S16_S1x16_1 : (⟨S16, .f32⟩ : BufTy).Contents (Elt F) → (⟨S1x16, .f32⟩ : BufTy).Contents (Elt F)),
    StableHlo.unary main_v41 main_v42 (broadcastInDim S100000x16 ![0, 1] bcast_S1x16_S100000x16_0_1 : (⟨S1x16, .f32⟩ : BufTy).Contents (Elt F) → (⟨S100000x16, .f32⟩ : BufTy).Contents (Elt F)),
    StableHlo.binary main_v40 main_v42 main_v43 (mulf : (⟨S100000x16, .f32⟩ : BufTy).Contents (Elt F) → (⟨S100000x16, .f32⟩ : BufTy).Contents (Elt F) → (⟨S100000x16, .f32⟩ : BufTy).Contents (Elt F)),
    StableHlo.unary main_arg7 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S100000x16 ![0, 1] bcast_S1x16_S100000x16_0_1 : (⟨S1x16, .f32⟩ : BufTy).Contents (Elt F) → (⟨S100000x16, .f32⟩ : BufTy).Contents (Elt F)),
    StableHlo.binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- Operations 79 … 95 of 401. The first ELU (x where x > 0, else expm1 of x masked to zero on the positive side), and the zero index vector the next layer's wrap compares against. -/
abbrev w3 : List (HloOp τ sig (Elt F)) :=
  [ StableHlo.TRef.nullary main_call1.cst (constant S_ .f32 0x00000000#32),
    StableHlo.TRef.unary main_call1.cst main_call1.v0 (broadcastInDim S100000x16 ![] bcast_S_S100000x16),
    StableHlo.TRef.binary (.of main_v46 : StableHlo.TRef sig ⟨S100000x16, .f32⟩) main_call1.v0 main_call1.v1 (cmpf .ogt),
    StableHlo.TRef.nullary main_call1.cst_0 (constant S_ .f32 0x00000000#32),
    StableHlo.TRef.unary main_call1.cst_0 main_call1.v2 (broadcastInDim S100000x16 ![] bcast_S_S100000x16),
    StableHlo.TRef.binary (.of main_v46 : StableHlo.TRef sig ⟨S100000x16, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x16 ![] bcast_S_S100000x16),
    StableHlo.TRef.ternary main_call1.v3 main_call1.call0.v1 (.of main_v46 : StableHlo.TRef sig ⟨S100000x16, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x16 ![] bcast_S_S100000x16),
    StableHlo.TRef.binary main_call1.v6 main_call1.v5 main_call1.v7 mulf,
    StableHlo.TRef.ternary main_call1.v1 (.of main_v46 : StableHlo.TRef sig ⟨S100000x16, .f32⟩) main_call1.v7 main_call1.call1.v0 select,
    StableHlo.nullary main_c_8 (constantI S_ 32 0#32),
    StableHlo.unary main_c_8 main_v48 (broadcastInDim S3200000 ![] bcast_S_S3200000 : (⟨S_, .i32⟩ : BufTy).Contents (Elt F) → (⟨S3200000, .i32⟩ : BufTy).Contents (Elt F)) ]

/-- Operations 96 … 123 of 401. The second graph convolution before its batch norm. -/
abbrev w4 : List (HloOp τ sig (Elt F)) :=
  [ StableHlo.binary main_v1 main_v48 main_v49 (cmpi .slt : (⟨S3200000, .i32⟩ : BufTy).Contents (Elt F) → (⟨S3200000, .i32⟩ : BufTy).Contents (Elt F) → (⟨S3200000, .i1⟩ : BufTy).Contents (Elt F)),
    StableHlo.nullary main_c_9 (constantI S_ 32 100000#32),
    StableHlo.unary main_c_9 main_v50 (broadcastInDim S3200000 ![] bcast_S_S3200000 : (⟨S_, .i32⟩ : BufTy).Contents (Elt F) → (⟨S3200000, .i32⟩ : BufTy).Contents (Elt F)),
    StableHlo.binary main_v1 main_v50 main_v51 (addi : (⟨S3200000, .i32⟩ : BufTy).Contents (Elt F) → (⟨S3200000, .i32⟩ : BufTy).Contents (Elt F) → (⟨S3200000, .i32⟩ : BufTy).Contents (Elt F)),
    StableHlo.ternary main_v49 main_v51 main_v1 main_v52 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v52 main_v53 (broadcastInDim S3200000x1 ![0] bcast_S3200000_S3200000x1_0 : (⟨S3200000, .i32⟩ : BufTy).Contents (Elt F) → (⟨S3200000x1, .i32⟩ : BufTy).Contents (Elt F)),
    StableHlo.binary main_v47 main_v53 main_v54 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_cst_10 (constant S_ .f32 0x00000000#32),
    StableHlo.unary main_cst_10 main_v55 (broadcastInDim S100000x16 ![] bcast_S_S100000x16 : (⟨S_, .f32⟩ : BufTy).Contents (Elt F) → (⟨S100000x16, .f32⟩ : BufTy).Contents (Elt F)),
    StableHlo.unary main_v3 main_v56 (broadcastInDim S3200000x1 ![0] bcast_S3200000_S3200000x1_0 : (⟨S3200000, .i32⟩ : BufTy).Contents (Elt F) → (⟨S3200000x1, .i32⟩ : BufTy).Contents (Elt F)),
    StableHlo.ternary main_v55 main_v56 main_v54 main_v57 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.nullary main_cst_11 (constant S_ .f32 0x3F800000#32),
    StableHlo.unary main_cst_11 main_v58 (broadcastInDim S3200000x1 ![] bcast_S_S3200000x1 : (⟨S_, .f32⟩ : BufTy).Contents (Elt F) → (⟨S3200000x1, .f32⟩ : BufTy).Contents (Elt F)),
    StableHlo.nullary main_cst_12 (constant S_ .f32 0x00000000#32),
    StableHlo.unary main_cst_12 main_v59 (broadcastInDim S100000x1 ![] bcast_S_S100000x1 : (⟨S_, .f32⟩ : BufTy).Contents (Elt F) → (⟨S100000x1, .f32⟩ : BufTy).Contents (Elt F)),
    StableHlo.unary main_v3 main_v60 (broadcastInDim S3200000x1 ![0] bcast_S3200000_S3200000x1_0 : (⟨S3200000, .i32⟩ : BufTy).Contents (Elt F) → (⟨S3200000x1, .i32⟩ : BufTy).Contents (Elt F)),
    StableHlo.ternary main_v59 main_v60 main_v58 main_v61 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_13 (constant S_ .f32 0x3F800000#32),
    StableHlo.unary main_cst_13 main_v62 (broadcastInDim S100000x1 ![] bcast_S_S100000x1 : (⟨S_, .f32⟩ : BufTy).Contents (Elt F) → (⟨S100000x1, .f32⟩ : BufTy).Contents (Elt F)),
    StableHlo.binary main_v61 main_v62 main_v63 (maximumf : (⟨S100000x1, .f32⟩ : BufTy).Contents (Elt F) → (⟨S100000x1, .f32⟩ : BufTy).Contents (Elt F) → (⟨S100000x1, .f32⟩ : BufTy).Contents (Elt F)),
    StableHlo.unary main_v63 main_v64 (broadcastInDim S100000x16 ![0, 1] bcast_S100000x1_S100000x16_0_1 : (⟨S100000x1, .f32⟩ : BufTy).Contents (Elt F) → (⟨S100000x16, .f32⟩ : BufTy).Contents (Elt F)),
    StableHlo.binary main_v57 main_v64 main_v65 (Host.divf : (⟨S100000x16, .f32⟩ : BufTy).Contents (Elt F) → (⟨S100000x16, .f32⟩ : BufTy).Contents (Elt F) → (⟨S100000x16, .f32⟩ : BufTy).Contents (Elt F)),
    StableHlo.binary main_v65 main_arg8 main_v66 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.binary main_v47 main_arg9 main_v67 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.binary main_v66 main_v67 main_v68 (addf : (⟨S100000x32, .f32⟩ : BufTy).Contents (Elt F) → (⟨S100000x32, .f32⟩ : BufTy).Contents (Elt F) → (⟨S100000x32, .f32⟩ : BufTy).Contents (Elt F)),
    StableHlo.unary main_arg10 main_v69 (broadcastInDim S1x32 ![1] bcast_S32_S1x32_1 : (⟨S32, .f32⟩ : BufTy).Contents (Elt F) → (⟨S1x32, .f32⟩ : BufTy).Contents (Elt F)),
    StableHlo.unary main_v69 main_v70 (broadcastInDim S100000x32 ![0, 1] bcast_S1x32_S100000x32_0_1 : (⟨S1x32, .f32⟩ : BufTy).Contents (Elt F) → (⟨S100000x32, .f32⟩ : BufTy).Contents (Elt F)),
    StableHlo.binary main_v68 main_v70 main_v71 (addf : (⟨S100000x32, .f32⟩ : BufTy).Contents (Elt F) → (⟨S100000x32, .f32⟩ : BufTy).Contents (Elt F) → (⟨S100000x32, .f32⟩ : BufTy).Contents (Elt F)) ]

/-- Operations 124 … 167 of 401. The second batch norm. -/
abbrev w5 : List (HloOp τ sig (Elt F)) :=
  [ StableHlo.nullary main_cst_14 (constant S_ .f32 0x00000000#32),
    StableHlo.binary main_v71 main_cst_14 main_v72 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_15 (constant S_ .f32 0x47C35000#32),
    StableHlo.unary main_cst_15 main_v73 (broadcastInDim S32 ![] bcast_S_S32 : (⟨S_, .f32⟩ : BufTy).Contents (Elt F) → (⟨S32, .f32⟩ : BufTy).Contents (Elt F)),
    StableHlo.binary main_v72 main_v73 main_v74 (Host.divf : (⟨S32, .f32⟩ : BufTy).Contents (Elt F) → (⟨S32, .f32⟩ : BufTy).Contents (Elt F) → (⟨S32, .f32⟩ : BufTy).Contents (Elt F)),
    StableHlo.nullary main_c_16 (constantI S_ 32 0#32),
    StableHlo.TRef.nullary main_call2.cst (constant S_ .f32 0x00000000#32),
    StableHlo.TRef.binary (.of main_v71 : StableHlo.TRef sig ⟨S100000x32, .f32⟩) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary (.of main_v71 : StableHlo.TRef sig ⟨S100000x32, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v74 main_v76 (broadcastInDim S1x32 ![1] bcast_S32_S1x32_1 : (⟨S32, .f32⟩ : BufTy).Contents (Elt F) → (⟨S1x32, .f32⟩ : BufTy).Contents (Elt F)),
    StableHlo.unary main_v76 main_v77 (broadcastInDim S100000x32 ![0, 1] bcast_S1x32_S100000x32_0_1 : (⟨S1x32, .f32⟩ : BufTy).Contents (Elt F) → (⟨S100000x32, .f32⟩ : BufTy).Contents (Elt F)),
    StableHlo.binary main_v71 main_v77 main_v78 (subf : (⟨S100000x32, .f32⟩ : BufTy).Contents (Elt F) → (⟨S100000x32, .f32⟩ : BufTy).Contents (Elt F) → (⟨S100000x32, .f32⟩ : BufTy).Contents (Elt F)),
    StableHlo.nullary main_cst_17 (constant S_ .f32 0x3727C5AC#32),
    StableHlo.unary main_cst_17 main_v79 (broadcastInDim S32 ![] bcast_S_S32 : (⟨S_, .f32⟩ : BufTy).Contents (Elt F) → (⟨S32, .f32⟩ : BufTy).Contents (Elt F)),
    StableHlo.binary main_v75 main_v79 main_v80 (addf : (⟨S32, .f32⟩ : BufTy).Contents (Elt F) → (⟨S32, .f32⟩ : BufTy).Contents (Elt F) → (⟨S32, .f32⟩ : BufTy).Contents (Elt F)),
    StableHlo.unary main_v80 main_v81 (Host.rsqrt : (⟨S32, .f32⟩ : BufTy).Contents (Elt F) → (⟨S32, .f32⟩ : BufTy).Contents (Elt F)),
    StableHlo.unary main_v81 main_v82 (broadcastInDim S1x32 ![1] bcast_S32_S1x32_1 : (⟨S32, .f32⟩ : BufTy).Contents (Elt F) → (⟨S1x32, .f32⟩ : BufTy).Contents (Elt F)),
    StableHlo.unary main_v82 main_v83 (broadcastInDim S100000x32 ![0, 1] bcast_S1x32_S100000x32_0_1 : (⟨S1x32, .f32⟩ : BufTy).Contents (Elt F) → (⟨S100000x32, .f32⟩ : BufTy).Contents (Elt F)),
    StableHlo.binary main_v78 main_v83 main_v84 (mulf : (⟨S100000x32, .f32⟩ : BufTy).Contents (Elt F) → (⟨S100000x32, .f32⟩ : BufTy).Contents (Elt F) → (⟨S100000x32, .f32⟩ : BufTy).Contents (Elt F)),
    StableHlo.unary main_arg11 main_v85 (broadcastInDim S1x32 ![1] bcast_S32_S1x32_1 : (⟨S32, .f32⟩ : BufTy).Contents (Elt F) → (⟨S1x32, .f32⟩ : BufTy).Contents (Elt F)),
    StableHlo.unary main_v85 main_v86 (broadcastInDim S100000x32 ![0, 1] bcast_S1x32_S100000x32_0_1 : (⟨S1x32, .f32⟩ : BufTy).Contents (Elt F) → (⟨S100000x32, .f32⟩ : BufTy).Contents (Elt F)),
    StableHlo.binary main_v84 main_v86 main_v87 (mulf : (⟨S100000x32, .f32⟩ : BufTy).Contents (Elt F) → (⟨S100000x32, .f32⟩ : BufTy).Contents (Elt F) → (⟨S100000x32, .f32⟩ : BufTy).Contents (Elt F)),
    StableHlo.unary main_arg12 main_v88 (broadcastInDim S1x32 ![1] bcast_S32_S1x32_1 : (⟨S32, .f32⟩ : BufTy).Contents (Elt F) → (⟨S1x32, .f32⟩ : BufTy).Contents (Elt F)),
    StableHlo.unary main_v88 main_v89 (broadcastInDim S100000x32 ![0, 1] bcast_S1x32_S100000x32_0_1 : (⟨S1x32, .f32⟩ : BufTy).Contents (Elt F) → (⟨S100000x32, .f32⟩ : BufTy).Contents (Elt F)),
    StableHlo.binary main_v87 main_v89 main_v90 (addf : (⟨S100000x32, .f32⟩ : BufTy).Contents (Elt F) → (⟨S100000x32, .f32⟩ : BufTy).Contents (Elt F) → (⟨S100000x32, .f32⟩ : BufTy).Contents (Elt F)) ]

/-- Operations 168 … 182 of 401. The second ELU. -/
abbrev w6 : List (HloOp τ sig (Elt F)) :=
  [ StableHlo.TRef.nullary main_call3.cst (constant S_ .f32 0x00000000#32),
    StableHlo.TRef.unary main_call3.cst main_call3.v0 (broadcastInDim S100000x32 ![] bcast_S_S100000x32),
    StableHlo.TRef.binary (.of main_v90 : StableHlo.TRef sig ⟨S100000x32, .f32⟩) main_call3.v0 main_call3.v1 (cmpf .ogt),
    StableHlo.TRef.nullary main_call3.cst_0 (constant S_ .f32 0x00000000#32),
    StableHlo.TRef.unary main_call3.cst_0 main_call3.v2 (broadcastInDim S100000x32 ![] bcast_S_S100000x32),
    StableHlo.TRef.binary (.of main_v90 : StableHlo.TRef sig ⟨S100000x32, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x32 ![] bcast_S_S100000x32),
    StableHlo.TRef.ternary main_call3.v3 main_call3.call0.v1 (.of main_v90 : StableHlo.TRef sig ⟨S100000x32, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x32 ![] bcast_S_S100000x32),
    StableHlo.TRef.binary main_call3.v6 main_call3.v5 main_call3.v7 mulf,
    StableHlo.TRef.ternary main_call3.v1 (.of main_v90 : StableHlo.TRef sig ⟨S100000x32, .f32⟩) main_call3.v7 main_call3.call1.v0 select ]

/-- Operations 183 … 190 of 401. The third layer's source column: the sources wrapped (a negative index plus N) as a one-column index array. -/
abbrev w7 : List (HloOp τ sig (Elt F)) :=
  [ StableHlo.nullary main_c_18 (constantI S_ 32 0#32),
    StableHlo.unary main_c_18 main_v92 (broadcastInDim S3200000 ![] bcast_S_S3200000 : (⟨S_, .i32⟩ : BufTy).Contents (Elt F) → (⟨S3200000, .i32⟩ : BufTy).Contents (Elt F)),
    StableHlo.binary main_v1 main_v92 main_v93 (cmpi .slt : (⟨S3200000, .i32⟩ : BufTy).Contents (Elt F) → (⟨S3200000, .i32⟩ : BufTy).Contents (Elt F) → (⟨S3200000, .i1⟩ : BufTy).Contents (Elt F)),
    StableHlo.nullary main_c_19 (constantI S_ 32 100000#32),
    StableHlo.unary main_c_19 main_v94 (broadcastInDim S3200000 ![] bcast_S_S3200000 : (⟨S_, .i32⟩ : BufTy).Contents (Elt F) → (⟨S3200000, .i32⟩ : BufTy).Contents (Elt F)),
    StableHlo.binary main_v1 main_v94 main_v95 (addi : (⟨S3200000, .i32⟩ : BufTy).Contents (Elt F) → (⟨S3200000, .i32⟩ : BufTy).Contents (Elt F) → (⟨S3200000, .i32⟩ : BufTy).Contents (Elt F)),
    StableHlo.ternary main_v93 main_v95 main_v1 main_v96 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v96 main_v97 (broadcastInDim S3200000x1 ![0] bcast_S3200000_S3200000x1_0 : (⟨S3200000, .i32⟩ : BufTy).Contents (Elt F) → (⟨S3200000x1, .i32⟩ : BufTy).Contents (Elt F)) ]

/-- Operations 191 … 212 of 401. The third graph convolution before its batch norm, from that source column. -/
abbrev w8 : List (HloOp τ sig (Elt F)) :=
  [ StableHlo.binary main_v91 main_v97 main_v98 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_20 (constant S_ .f32 0x00000000#32),
    StableHlo.unary main_cst_20 main_v99 (broadcastInDim S100000x32 ![] bcast_S_S100000x32 : (⟨S_, .f32⟩ : BufTy).Contents (Elt F) → (⟨S100000x32, .f32⟩ : BufTy).Contents (Elt F)),
    StableHlo.unary main_v3 main_v100 (broadcastInDim S3200000x1 ![0] bcast_S3200000_S3200000x1_0 : (⟨S3200000, .i32⟩ : BufTy).Contents (Elt F) → (⟨S3200000x1, .i32⟩ : BufTy).Contents (Elt F)),
    StableHlo.ternary main_v99 main_v100 main_v98 main_v101 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_21 (constant S_ .f32 0x3F800000#32),
    StableHlo.unary main_cst_21 main_v102 (broadcastInDim S3200000x1 ![] bcast_S_S3200000x1 : (⟨S_, .f32⟩ : BufTy).Contents (Elt F) → (⟨S3200000x1, .f32⟩ : BufTy).Contents (Elt F)),
    StableHlo.nullary main_cst_22 (constant S_ .f32 0x00000000#32),
    StableHlo.unary main_cst_22 main_v103 (broadcastInDim S100000x1 ![] bcast_S_S100000x1 : (⟨S_, .f32⟩ : BufTy).Contents (Elt F) → (⟨S100000x1, .f32⟩ : BufTy).Contents (Elt F)),
    StableHlo.unary main_v3 main_v104 (broadcastInDim S3200000x1 ![0] bcast_S3200000_S3200000x1_0 : (⟨S3200000, .i32⟩ : BufTy).Contents (Elt F) → (⟨S3200000x1, .i32⟩ : BufTy).Contents (Elt F)),
    StableHlo.ternary main_v103 main_v104 main_v102 main_v105 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_23 (constant S_ .f32 0x3F800000#32),
    StableHlo.unary main_cst_23 main_v106 (broadcastInDim S100000x1 ![] bcast_S_S100000x1 : (⟨S_, .f32⟩ : BufTy).Contents (Elt F) → (⟨S100000x1, .f32⟩ : BufTy).Contents (Elt F)),
    StableHlo.binary main_v105 main_v106 main_v107 (maximumf : (⟨S100000x1, .f32⟩ : BufTy).Contents (Elt F) → (⟨S100000x1, .f32⟩ : BufTy).Contents (Elt F) → (⟨S100000x1, .f32⟩ : BufTy).Contents (Elt F)),
    StableHlo.unary main_v107 main_v108 (broadcastInDim S100000x32 ![0, 1] bcast_S100000x1_S100000x32_0_1 : (⟨S100000x1, .f32⟩ : BufTy).Contents (Elt F) → (⟨S100000x32, .f32⟩ : BufTy).Contents (Elt F)),
    StableHlo.binary main_v101 main_v108 main_v109 (Host.divf : (⟨S100000x32, .f32⟩ : BufTy).Contents (Elt F) → (⟨S100000x32, .f32⟩ : BufTy).Contents (Elt F) → (⟨S100000x32, .f32⟩ : BufTy).Contents (Elt F)),
    StableHlo.binary main_v109 main_arg13 main_v110 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v91 main_arg14 main_v111 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v110 main_v111 main_v112 (addf : (⟨S100000x32, .f32⟩ : BufTy).Contents (Elt F) → (⟨S100000x32, .f32⟩ : BufTy).Contents (Elt F) → (⟨S100000x32, .f32⟩ : BufTy).Contents (Elt F)),
    StableHlo.unary main_arg15 main_v113 (broadcastInDim S1x32 ![1] bcast_S32_S1x32_1 : (⟨S32, .f32⟩ : BufTy).Contents (Elt F) → (⟨S1x32, .f32⟩ : BufTy).Contents (Elt F)),
    StableHlo.unary main_v113 main_v114 (broadcastInDim S100000x32 ![0, 1] bcast_S1x32_S100000x32_0_1 : (⟨S1x32, .f32⟩ : BufTy).Contents (Elt F) → (⟨S100000x32, .f32⟩ : BufTy).Contents (Elt F)),
    StableHlo.binary main_v112 main_v114 main_v115 (addf : (⟨S100000x32, .f32⟩ : BufTy).Contents (Elt F) → (⟨S100000x32, .f32⟩ : BufTy).Contents (Elt F) → (⟨S100000x32, .f32⟩ : BufTy).Contents (Elt F)) ]

/-- Operations 213 … 256 of 401. The third batch norm. -/
abbrev w9 : List (HloOp τ sig (Elt F)) :=
  [ StableHlo.nullary main_cst_24 (constant S_ .f32 0x00000000#32),
    StableHlo.binary main_v115 main_cst_24 main_v116 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_25 (constant S_ .f32 0x47C35000#32),
    StableHlo.unary main_cst_25 main_v117 (broadcastInDim S32 ![] bcast_S_S32 : (⟨S_, .f32⟩ : BufTy).Contents (Elt F) → (⟨S32, .f32⟩ : BufTy).Contents (Elt F)),
    StableHlo.binary main_v116 main_v117 main_v118 (Host.divf : (⟨S32, .f32⟩ : BufTy).Contents (Elt F) → (⟨S32, .f32⟩ : BufTy).Contents (Elt F) → (⟨S32, .f32⟩ : BufTy).Contents (Elt F)),
    StableHlo.nullary main_c_26 (constantI S_ 32 0#32),
    StableHlo.TRef.nullary main_call4.cst (constant S_ .f32 0x00000000#32),
    StableHlo.TRef.binary (.of main_v115 : StableHlo.TRef sig ⟨S100000x32, .f32⟩) main_call4.cst main_call4.v0 (fun x v => Host.reduceAdd x v reducesTo_S100000x32_S32_d0 h_S_),
    StableHlo.TRef.unary main_call4.v0 main_call4.v1 (broadcastInDim S1x32 ![1] bcast_S32_S1x32_1),
    StableHlo.TRef.nullary main_call4.cst_0 (constant S_ .f32 0x47C35000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S100000x32 ![0, 1] bcast_S1x32_S100000x32_0_1),
    StableHlo.TRef.binary (.of main_v115 : StableHlo.TRef sig ⟨S100000x32, .f32⟩) main_call4.v4 main_call4.v5 subf,
    StableHlo.TRef.binary main_call4.v5 main_call4.v5 main_call4.v6 mulf,
    StableHlo.TRef.unary (.of main_c_26 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v118 main_v120 (broadcastInDim S1x32 ![1] bcast_S32_S1x32_1 : (⟨S32, .f32⟩ : BufTy).Contents (Elt F) → (⟨S1x32, .f32⟩ : BufTy).Contents (Elt F)),
    StableHlo.unary main_v120 main_v121 (broadcastInDim S100000x32 ![0, 1] bcast_S1x32_S100000x32_0_1 : (⟨S1x32, .f32⟩ : BufTy).Contents (Elt F) → (⟨S100000x32, .f32⟩ : BufTy).Contents (Elt F)),
    StableHlo.binary main_v115 main_v121 main_v122 (subf : (⟨S100000x32, .f32⟩ : BufTy).Contents (Elt F) → (⟨S100000x32, .f32⟩ : BufTy).Contents (Elt F) → (⟨S100000x32, .f32⟩ : BufTy).Contents (Elt F)),
    StableHlo.nullary main_cst_27 (constant S_ .f32 0x3727C5AC#32),
    StableHlo.unary main_cst_27 main_v123 (broadcastInDim S32 ![] bcast_S_S32 : (⟨S_, .f32⟩ : BufTy).Contents (Elt F) → (⟨S32, .f32⟩ : BufTy).Contents (Elt F)),
    StableHlo.binary main_v119 main_v123 main_v124 (addf : (⟨S32, .f32⟩ : BufTy).Contents (Elt F) → (⟨S32, .f32⟩ : BufTy).Contents (Elt F) → (⟨S32, .f32⟩ : BufTy).Contents (Elt F)),
    StableHlo.unary main_v124 main_v125 (Host.rsqrt : (⟨S32, .f32⟩ : BufTy).Contents (Elt F) → (⟨S32, .f32⟩ : BufTy).Contents (Elt F)),
    StableHlo.unary main_v125 main_v126 (broadcastInDim S1x32 ![1] bcast_S32_S1x32_1 : (⟨S32, .f32⟩ : BufTy).Contents (Elt F) → (⟨S1x32, .f32⟩ : BufTy).Contents (Elt F)),
    StableHlo.unary main_v126 main_v127 (broadcastInDim S100000x32 ![0, 1] bcast_S1x32_S100000x32_0_1 : (⟨S1x32, .f32⟩ : BufTy).Contents (Elt F) → (⟨S100000x32, .f32⟩ : BufTy).Contents (Elt F)),
    StableHlo.binary main_v122 main_v127 main_v128 (mulf : (⟨S100000x32, .f32⟩ : BufTy).Contents (Elt F) → (⟨S100000x32, .f32⟩ : BufTy).Contents (Elt F) → (⟨S100000x32, .f32⟩ : BufTy).Contents (Elt F)),
    StableHlo.unary main_arg16 main_v129 (broadcastInDim S1x32 ![1] bcast_S32_S1x32_1 : (⟨S32, .f32⟩ : BufTy).Contents (Elt F) → (⟨S1x32, .f32⟩ : BufTy).Contents (Elt F)),
    StableHlo.unary main_v129 main_v130 (broadcastInDim S100000x32 ![0, 1] bcast_S1x32_S100000x32_0_1 : (⟨S1x32, .f32⟩ : BufTy).Contents (Elt F) → (⟨S100000x32, .f32⟩ : BufTy).Contents (Elt F)),
    StableHlo.binary main_v128 main_v130 main_v131 (mulf : (⟨S100000x32, .f32⟩ : BufTy).Contents (Elt F) → (⟨S100000x32, .f32⟩ : BufTy).Contents (Elt F) → (⟨S100000x32, .f32⟩ : BufTy).Contents (Elt F)),
    StableHlo.unary main_arg17 main_v132 (broadcastInDim S1x32 ![1] bcast_S32_S1x32_1 : (⟨S32, .f32⟩ : BufTy).Contents (Elt F) → (⟨S1x32, .f32⟩ : BufTy).Contents (Elt F)),
    StableHlo.unary main_v132 main_v133 (broadcastInDim S100000x32 ![0, 1] bcast_S1x32_S100000x32_0_1 : (⟨S1x32, .f32⟩ : BufTy).Contents (Elt F) → (⟨S100000x32, .f32⟩ : BufTy).Contents (Elt F)),
    StableHlo.binary main_v131 main_v133 main_v134 (addf : (⟨S100000x32, .f32⟩ : BufTy).Contents (Elt F) → (⟨S100000x32, .f32⟩ : BufTy).Contents (Elt F) → (⟨S100000x32, .f32⟩ : BufTy).Contents (Elt F)) ]

/-- Operations 257 … 271 of 401. The third ELU. -/
abbrev w10 : List (HloOp τ sig (Elt F)) :=
  [ StableHlo.TRef.nullary main_call5.cst (constant S_ .f32 0x00000000#32),
    StableHlo.TRef.unary main_call5.cst main_call5.v0 (broadcastInDim S100000x32 ![] bcast_S_S100000x32),
    StableHlo.TRef.binary (.of main_v134 : StableHlo.TRef sig ⟨S100000x32, .f32⟩) main_call5.v0 main_call5.v1 (cmpf .ogt),
    StableHlo.TRef.nullary main_call5.cst_0 (constant S_ .f32 0x00000000#32),
    StableHlo.TRef.unary main_call5.cst_0 main_call5.v2 (broadcastInDim S100000x32 ![] bcast_S_S100000x32),
    StableHlo.TRef.binary (.of main_v134 : StableHlo.TRef sig ⟨S100000x32, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x32 ![] bcast_S_S100000x32),
    StableHlo.TRef.ternary main_call5.v3 main_call5.call0.v1 (.of main_v134 : StableHlo.TRef sig ⟨S100000x32, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x32 ![] bcast_S_S100000x32),
    StableHlo.TRef.binary main_call5.v6 main_call5.v5 main_call5.v7 mulf,
    StableHlo.TRef.ternary main_call5.v1 (.of main_v134 : StableHlo.TRef sig ⟨S100000x32, .f32⟩) main_call5.v7 main_call5.call1.v0 select ]

/-- Operations 272 … 285 of 401. The fourth layer's message sum: the rows gathered at the wrapped sources, scatter-added at the targets; and the constant one of the degree count. -/
abbrev w11 : List (HloOp τ sig (Elt F)) :=
  [ StableHlo.nullary main_c_28 (constantI S_ 32 0#32),
    StableHlo.unary main_c_28 main_v136 (broadcastInDim S3200000 ![] bcast_S_S3200000 : (⟨S_, .i32⟩ : BufTy).Contents (Elt F) → (⟨S3200000, .i32⟩ : BufTy).Contents (Elt F)),
    StableHlo.binary main_v1 main_v136 main_v137 (cmpi .slt : (⟨S3200000, .i32⟩ : BufTy).Contents (Elt F) → (⟨S3200000, .i32⟩ : BufTy).Contents (Elt F) → (⟨S3200000, .i1⟩ : BufTy).Contents (Elt F)),
    StableHlo.nullary main_c_29 (constantI S_ 32 100000#32),
    StableHlo.unary main_c_29 main_v138 (broadcastInDim S3200000 ![] bcast_S_S3200000 : (⟨S_, .i32⟩ : BufTy).Contents (Elt F) → (⟨S3200000, .i32⟩ : BufTy).Contents (Elt F)),
    StableHlo.binary main_v1 main_v138 main_v139 (addi : (⟨S3200000, .i32⟩ : BufTy).Contents (Elt F) → (⟨S3200000, .i32⟩ : BufTy).Contents (Elt F) → (⟨S3200000, .i32⟩ : BufTy).Contents (Elt F)),
    StableHlo.ternary main_v137 main_v139 main_v1 main_v140 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v140 main_v141 (broadcastInDim S3200000x1 ![0] bcast_S3200000_S3200000x1_0 : (⟨S3200000, .i32⟩ : BufTy).Contents (Elt F) → (⟨S3200000x1, .i32⟩ : BufTy).Contents (Elt F)),
    StableHlo.binary main_v135 main_v141 main_v142 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_30 (constant S_ .f32 0x00000000#32),
    StableHlo.unary main_cst_30 main_v143 (broadcastInDim S100000x32 ![] bcast_S_S100000x32 : (⟨S_, .f32⟩ : BufTy).Contents (Elt F) → (⟨S100000x32, .f32⟩ : BufTy).Contents (Elt F)),
    StableHlo.unary main_v3 main_v144 (broadcastInDim S3200000x1 ![0] bcast_S3200000_S3200000x1_0 : (⟨S3200000, .i32⟩ : BufTy).Contents (Elt F) → (⟨S3200000x1, .i32⟩ : BufTy).Contents (Elt F)),
    StableHlo.ternary main_v143 main_v144 main_v142 main_v145 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_31 (constant S_ .f32 0x3F800000#32) ]

/-- Operations 286 … 301 of 401. The fourth graph convolution before its batch norm, from that message sum. -/
abbrev w12 : List (HloOp τ sig (Elt F)) :=
  [ StableHlo.unary main_cst_31 main_v146 (broadcastInDim S3200000x1 ![] bcast_S_S3200000x1 : (⟨S_, .f32⟩ : BufTy).Contents (Elt F) → (⟨S3200000x1, .f32⟩ : BufTy).Contents (Elt F)),
    StableHlo.nullary main_cst_32 (constant S_ .f32 0x00000000#32),
    StableHlo.unary main_cst_32 main_v147 (broadcastInDim S100000x1 ![] bcast_S_S100000x1 : (⟨S_, .f32⟩ : BufTy).Contents (Elt F) → (⟨S100000x1, .f32⟩ : BufTy).Contents (Elt F)),
    StableHlo.unary main_v3 main_v148 (broadcastInDim S3200000x1 ![0] bcast_S3200000_S3200000x1_0 : (⟨S3200000, .i32⟩ : BufTy).Contents (Elt F) → (⟨S3200000x1, .i32⟩ : BufTy).Contents (Elt F)),
    StableHlo.ternary main_v147 main_v148 main_v146 main_v149 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_33 (constant S_ .f32 0x3F800000#32),
    StableHlo.unary main_cst_33 main_v150 (broadcastInDim S100000x1 ![] bcast_S_S100000x1 : (⟨S_, .f32⟩ : BufTy).Contents (Elt F) → (⟨S100000x1, .f32⟩ : BufTy).Contents (Elt F)),
    StableHlo.binary main_v149 main_v150 main_v151 (maximumf : (⟨S100000x1, .f32⟩ : BufTy).Contents (Elt F) → (⟨S100000x1, .f32⟩ : BufTy).Contents (Elt F) → (⟨S100000x1, .f32⟩ : BufTy).Contents (Elt F)),
    StableHlo.unary main_v151 main_v152 (broadcastInDim S100000x32 ![0, 1] bcast_S100000x1_S100000x32_0_1 : (⟨S100000x1, .f32⟩ : BufTy).Contents (Elt F) → (⟨S100000x32, .f32⟩ : BufTy).Contents (Elt F)),
    StableHlo.binary main_v145 main_v152 main_v153 (Host.divf : (⟨S100000x32, .f32⟩ : BufTy).Contents (Elt F) → (⟨S100000x32, .f32⟩ : BufTy).Contents (Elt F) → (⟨S100000x32, .f32⟩ : BufTy).Contents (Elt F)),
    StableHlo.binary main_v153 main_arg18 main_v154 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v135 main_arg19 main_v155 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v154 main_v155 main_v156 (addf : (⟨S100000x64, .f32⟩ : BufTy).Contents (Elt F) → (⟨S100000x64, .f32⟩ : BufTy).Contents (Elt F) → (⟨S100000x64, .f32⟩ : BufTy).Contents (Elt F)),
    StableHlo.unary main_arg20 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S100000x64 ![0, 1] bcast_S1x64_S100000x64_0_1 : (⟨S1x64, .f32⟩ : BufTy).Contents (Elt F) → (⟨S100000x64, .f32⟩ : BufTy).Contents (Elt F)),
    StableHlo.binary main_v156 main_v158 main_v159 (addf : (⟨S100000x64, .f32⟩ : BufTy).Contents (Elt F) → (⟨S100000x64, .f32⟩ : BufTy).Contents (Elt F) → (⟨S100000x64, .f32⟩ : BufTy).Contents (Elt F)) ]

/-- Operations 302 … 345 of 401. The fourth batch norm. -/
abbrev w13 : List (HloOp τ sig (Elt F)) :=
  [ StableHlo.nullary main_cst_34 (constant S_ .f32 0x00000000#32),
    StableHlo.binary main_v159 main_cst_34 main_v160 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_35 (constant S_ .f32 0x47C35000#32),
    StableHlo.unary main_cst_35 main_v161 (broadcastInDim S64 ![] bcast_S_S64 : (⟨S_, .f32⟩ : BufTy).Contents (Elt F) → (⟨S64, .f32⟩ : BufTy).Contents (Elt F)),
    StableHlo.binary main_v160 main_v161 main_v162 (Host.divf : (⟨S64, .f32⟩ : BufTy).Contents (Elt F) → (⟨S64, .f32⟩ : BufTy).Contents (Elt F) → (⟨S64, .f32⟩ : BufTy).Contents (Elt F)),
    StableHlo.nullary main_c_36 (constantI S_ 32 0#32),
    StableHlo.TRef.nullary main_call6.cst (constant S_ .f32 0x00000000#32),
    StableHlo.TRef.binary (.of main_v159 : StableHlo.TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v159 : StableHlo.TRef sig ⟨S100000x64, .f32⟩) main_call6.v4 main_call6.v5 subf,
    StableHlo.TRef.binary main_call6.v5 main_call6.v5 main_call6.v6 mulf,
    StableHlo.TRef.unary (.of main_c_36 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v162 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S100000x64 ![0, 1] bcast_S1x64_S100000x64_0_1 : (⟨S1x64, .f32⟩ : BufTy).Contents (Elt F) → (⟨S100000x64, .f32⟩ : BufTy).Contents (Elt F)),
    StableHlo.binary main_v159 main_v165 main_v166 (subf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x3727C5AC#32),
    StableHlo.unary main_cst_37 main_v167 (broadcastInDim S64 ![] bcast_S_S64 : (⟨S_, .f32⟩ : BufTy).Contents (Elt F) → (⟨S64, .f32⟩ : BufTy).Contents (Elt F)),
    StableHlo.binary main_v163 main_v167 main_v168 (addf : (⟨S64, .f32⟩ : BufTy).Contents (Elt F) → (⟨S64, .f32⟩ : BufTy).Contents (Elt F) → (⟨S64, .f32⟩ : BufTy).Contents (Elt F)),
    StableHlo.unary main_v168 main_v169 (Host.rsqrt : (⟨S64, .f32⟩ : BufTy).Contents (Elt F) → (⟨S64, .f32⟩ : BufTy).Contents (Elt F)),
    StableHlo.unary main_v169 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S100000x64 ![0, 1] bcast_S1x64_S100000x64_0_1 : (⟨S1x64, .f32⟩ : BufTy).Contents (Elt F) → (⟨S100000x64, .f32⟩ : BufTy).Contents (Elt F)),
    StableHlo.binary main_v166 main_v171 main_v172 (mulf : (⟨S100000x64, .f32⟩ : BufTy).Contents (Elt F) → (⟨S100000x64, .f32⟩ : BufTy).Contents (Elt F) → (⟨S100000x64, .f32⟩ : BufTy).Contents (Elt F)),
    StableHlo.unary main_arg21 main_v173 (broadcastInDim S1x64 ![1] bcast_S64_S1x64_1 : (⟨S64, .f32⟩ : BufTy).Contents (Elt F) → (⟨S1x64, .f32⟩ : BufTy).Contents (Elt F)),
    StableHlo.unary main_v173 main_v174 (broadcastInDim S100000x64 ![0, 1] bcast_S1x64_S100000x64_0_1 : (⟨S1x64, .f32⟩ : BufTy).Contents (Elt F) → (⟨S100000x64, .f32⟩ : BufTy).Contents (Elt F)),
    StableHlo.binary main_v172 main_v174 main_v175 (mulf : (⟨S100000x64, .f32⟩ : BufTy).Contents (Elt F) → (⟨S100000x64, .f32⟩ : BufTy).Contents (Elt F) → (⟨S100000x64, .f32⟩ : BufTy).Contents (Elt F)),
    StableHlo.unary main_arg22 main_v176 (broadcastInDim S1x64 ![1] bcast_S64_S1x64_1 : (⟨S64, .f32⟩ : BufTy).Contents (Elt F) → (⟨S1x64, .f32⟩ : BufTy).Contents (Elt F)),
    StableHlo.unary main_v176 main_v177 (broadcastInDim S100000x64 ![0, 1] bcast_S1x64_S100000x64_0_1 : (⟨S1x64, .f32⟩ : BufTy).Contents (Elt F) → (⟨S100000x64, .f32⟩ : BufTy).Contents (Elt F)),
    StableHlo.binary main_v175 main_v177 main_v178 (addf : (⟨S100000x64, .f32⟩ : BufTy).Contents (Elt F) → (⟨S100000x64, .f32⟩ : BufTy).Contents (Elt F) → (⟨S100000x64, .f32⟩ : BufTy).Contents (Elt F)) ]

/-- Operations 346 … 360 of 401. The fourth ELU. -/
abbrev w14 : List (HloOp τ sig (Elt F)) :=
  [ StableHlo.TRef.nullary main_call7.cst (constant S_ .f32 0x00000000#32),
    StableHlo.TRef.unary main_call7.cst main_call7.v0 (broadcastInDim S100000x64 ![] bcast_S_S100000x64),
    StableHlo.TRef.binary (.of main_v178 : StableHlo.TRef sig ⟨S100000x64, .f32⟩) main_call7.v0 main_call7.v1 (cmpf .ogt),
    StableHlo.TRef.nullary main_call7.cst_0 (constant S_ .f32 0x00000000#32),
    StableHlo.TRef.unary main_call7.cst_0 main_call7.v2 (broadcastInDim S100000x64 ![] bcast_S_S100000x64),
    StableHlo.TRef.binary (.of main_v178 : StableHlo.TRef sig ⟨S100000x64, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x64 ![] bcast_S_S100000x64),
    StableHlo.TRef.ternary main_call7.v3 main_call7.call0.v1 (.of main_v178 : StableHlo.TRef sig ⟨S100000x64, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x64 ![] bcast_S_S100000x64),
    StableHlo.TRef.binary main_call7.v6 main_call7.v5 main_call7.v7 mulf,
    StableHlo.TRef.ternary main_call7.v1 (.of main_v178 : StableHlo.TRef sig ⟨S100000x64, .f32⟩) main_call7.v7 main_call7.call1.v0 select ]

/-- Operations 361 … 382 of 401. The mean pool over graphs (scatter-add by graph id over the clamped graph sizes), the first linear layer and its ReLU. -/
abbrev w15 : List (HloOp τ sig (Elt F)) :=
  [ StableHlo.nullary main_cst_38 (constant S_ .f32 0x00000000#32),
    StableHlo.unary main_cst_38 main_v180 (broadcastInDim S256x64 ![] bcast_S_S256x64 : (⟨S_, .f32⟩ : BufTy).Contents (Elt F) → (⟨S256x64, .f32⟩ : BufTy).Contents (Elt F)),
    StableHlo.unary main_arg2 main_v181 (broadcastInDim S100000x1 ![0] bcast_S100000_S100000x1_0 : (⟨S100000, .i32⟩ : BufTy).Contents (Elt F) → (⟨S100000x1, .i32⟩ : BufTy).Contents (Elt F)),
    StableHlo.ternary main_v180 main_v181 main_v179 main_v182 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    StableHlo.nullary main_cst_39 (constant S_ .f32 0x3F800000#32),
    StableHlo.unary main_cst_39 main_v183 (broadcastInDim S100000x1 ![] bcast_S_S100000x1 : (⟨S_, .f32⟩ : BufTy).Contents (Elt F) → (⟨S100000x1, .f32⟩ : BufTy).Contents (Elt F)),
    StableHlo.nullary main_cst_40 (constant S_ .f32 0x00000000#32),
    StableHlo.unary main_cst_40 main_v184 (broadcastInDim S256x1 ![] bcast_S_S256x1 : (⟨S_, .f32⟩ : BufTy).Contents (Elt F) → (⟨S256x1, .f32⟩ : BufTy).Contents (Elt F)),
    StableHlo.unary main_arg2 main_v185 (broadcastInDim S100000x1 ![0] bcast_S100000_S100000x1_0 : (⟨S100000, .i32⟩ : BufTy).Contents (Elt F) → (⟨S100000x1, .i32⟩ : BufTy).Contents (Elt F)),
    StableHlo.ternary main_v184 main_v185 main_v183 main_v186 ((fun x i u => Host.scatterAdd scatter_S256x1_S100000x1_S100000x1_1_0_0_1 x i u) : (⟨S256x1, .f32⟩ : BufTy).Contents (Elt F) → (⟨S100000x1, .i32⟩ : BufTy).Contents (Elt F) → (⟨S100000x1, .f32⟩ : BufTy).Contents (Elt F) → (⟨S256x1, .f32⟩ : BufTy).Contents (Elt F)),
    StableHlo.nullary main_cst_41 (constant S_ .f32 0x3F800000#32),
    StableHlo.unary main_cst_41 main_v187 (broadcastInDim S256x1 ![] bcast_S_S256x1 : (⟨S_, .f32⟩ : BufTy).Contents (Elt F) → (⟨S256x1, .f32⟩ : BufTy).Contents (Elt F)),
    StableHlo.binary main_v186 main_v187 main_v188 (maximumf : (⟨S256x1, .f32⟩ : BufTy).Contents (Elt F) → (⟨S256x1, .f32⟩ : BufTy).Contents (Elt F) → (⟨S256x1, .f32⟩ : BufTy).Contents (Elt F)),
    StableHlo.unary main_v188 main_v189 (broadcastInDim S256x64 ![0, 1] bcast_S256x1_S256x64_0_1 : (⟨S256x1, .f32⟩ : BufTy).Contents (Elt F) → (⟨S256x64, .f32⟩ : BufTy).Contents (Elt F)),
    StableHlo.binary main_v182 main_v189 main_v190 (Host.divf : (⟨S256x64, .f32⟩ : BufTy).Contents (Elt F) → (⟨S256x64, .f32⟩ : BufTy).Contents (Elt F) → (⟨S256x64, .f32⟩ : BufTy).Contents (Elt F)),
    StableHlo.binary main_v190 main_arg23 main_v191 ((fun l r => Host.dotGeneral dot_S256x64_S64x64_S256x64_1_0_0_1_n_n none l r) : (⟨S256x64, .f32⟩ : BufTy).Contents (Elt F) → (⟨S64x64, .f32⟩ : BufTy).Contents (Elt F) → (⟨S256x64, .f32⟩ : BufTy).Contents (Elt F)),
    StableHlo.unary main_arg24 main_v192 (broadcastInDim S1x64 ![1] bcast_S64_S1x64_1 : (⟨S64, .f32⟩ : BufTy).Contents (Elt F) → (⟨S1x64, .f32⟩ : BufTy).Contents (Elt F)),
    StableHlo.unary main_v192 main_v193 (broadcastInDim S256x64 ![0, 1] bcast_S1x64_S256x64_0_1 : (⟨S1x64, .f32⟩ : BufTy).Contents (Elt F) → (⟨S256x64, .f32⟩ : BufTy).Contents (Elt F)),
    StableHlo.binary main_v191 main_v193 main_v194 (addf : (⟨S256x64, .f32⟩ : BufTy).Contents (Elt F) → (⟨S256x64, .f32⟩ : BufTy).Contents (Elt F) → (⟨S256x64, .f32⟩ : BufTy).Contents (Elt F)),
    StableHlo.TRef.nullary main_call8.cst (constant S_ .f32 0x00000000#32),
    StableHlo.TRef.unary main_call8.cst main_call8.v0 (broadcastInDim S256x64 ![] bcast_S_S256x64),
    StableHlo.TRef.binary (.of main_v194 : StableHlo.TRef sig ⟨S256x64, .f32⟩) main_call8.v0 main_call8.v1 maximumf ]

/-- Operations 383 … 401 of 401. The second linear layer and the log-softmax over the ten classes. -/
abbrev w16 : List (HloOp τ sig (Elt F)) :=
  [ StableHlo.binary main_v195 main_arg25 main_v196 ((fun l r => Host.dotGeneral dot_S256x64_S64x10_S256x10_1_0_0_1_n_n none l r) : (⟨S256x64, .f32⟩ : BufTy).Contents (Elt F) → (⟨S64x10, .f32⟩ : BufTy).Contents (Elt F) → (⟨S256x10, .f32⟩ : BufTy).Contents (Elt F)),
    StableHlo.unary main_arg26 main_v197 (broadcastInDim S1x10 ![1] bcast_S10_S1x10_1 : (⟨S10, .f32⟩ : BufTy).Contents (Elt F) → (⟨S1x10, .f32⟩ : BufTy).Contents (Elt F)),
    StableHlo.unary main_v197 main_v198 (broadcastInDim S256x10 ![0, 1] bcast_S1x10_S256x10_0_1 : (⟨S1x10, .f32⟩ : BufTy).Contents (Elt F) → (⟨S256x10, .f32⟩ : BufTy).Contents (Elt F)),
    StableHlo.binary main_v196 main_v198 main_v199 (addf : (⟨S256x10, .f32⟩ : BufTy).Contents (Elt F) → (⟨S256x10, .f32⟩ : BufTy).Contents (Elt F) → (⟨S256x10, .f32⟩ : BufTy).Contents (Elt F)),
    StableHlo.TRef.nullary main_call9.cst (constant S_ .f32 0xFF800000#32),
    StableHlo.TRef.binary (.of main_v199 : StableHlo.TRef sig ⟨S256x10, .f32⟩) main_call9.cst main_call9.v0 (fun x v => Host.reduce FloatOps.maximumf x v reducesTo_S256x10_S256_d1 h_S_),
    StableHlo.TRef.nullary main_call9.cst_0 (constant S_ .f32 0xFF800000#32),
    StableHlo.TRef.unary main_call9.cst_0 main_call9.v1 (broadcastInDim S256 ![] bcast_S_S256),
    StableHlo.TRef.binary main_call9.v1 main_call9.v0 main_call9.v2 maximumf,
    StableHlo.TRef.unary main_call9.v2 main_call9.v3 (broadcastInDim S256x1 ![0] bcast_S256_S256x1_0),
    StableHlo.TRef.unary main_call9.v3 main_call9.v4 (broadcastInDim S256x10 ![0, 1] bcast_S256x1_S256x10_0_1),
    StableHlo.TRef.binary (.of main_v199 : StableHlo.TRef sig ⟨S256x10, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S256x10_S256_d1 h_S_),
    StableHlo.TRef.unary main_call9.v7 main_call9.v8 (broadcastInDim S256x1 ![0] bcast_S256_S256x1_0),
    StableHlo.TRef.unary main_call9.v8 main_call9.v9 Host.log,
    StableHlo.TRef.unary main_call9.v9 main_call9.v10 (broadcastInDim S256x10 ![0, 1] bcast_S256x1_S256x10_0_1),
    StableHlo.TRef.binary main_call9.v5 main_call9.v10 main_call9.v11 subf ]

/-- A property of every element of two lists holds of every element of their concatenation. -/
theorem forall_app {α : Type} {P : α → Prop} {l₁ l₂ : List α} (h₁ : l₁.Forall P) (h₂ : l₂.Forall P) : (l₁ ++ l₂).Forall P :=
  List.forall_iff_forall_mem.2 fun x hx => (List.mem_append.1 hx).elim (List.forall_iff_forall_mem.1 h₁ x) (List.forall_iff_forall_mem.1 h₂ x)

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The operations of @main's printed window 0. -/
def p0 : List (HloOp τ sig (Elt F)) := w1 ++ w2 ++ w3

/-- The operations of @main's printed window 1. -/
def p1 : List (HloOp τ sig (Elt F)) := w4 ++ w5 ++ w6 ++ w7

/-- The operations of @main's printed window 2. -/
def p2 : List (HloOp τ sig (Elt F)) := w8 ++ w9 ++ w10 ++ w11

/-- The operations of @main's printed window 3. -/
def p3 : List (HloOp τ sig (Elt F)) := w12 ++ w13 ++ w14 ++ w15

/-- The operations of @main's printed window 4. -/
def p4 : List (HloOp τ sig (Elt F)) := w16

/-- @main's 401 operations, in order. -/
def ops : List (HloOp τ sig (Elt F)) := p0 ++ (p1 ++ (p2 ++ (p3 ++ p4)))

set_option maxRecDepth 8192 in
set_option maxHeartbeats 4000000 in
/-- Window 0 of @main is its stretch of the line: the outlined functions unfolded at their calls, sequencing reassociated. -/
theorem part0_eq (c : Dev nD) : main_part0 (F := F) c = seq p0 := by
  simp only [p0, main_part0, fn_var.body, fn_where.body, fn_elu.body, fn_where_0.body, fn_where_1.body, seq_append, seq, bind_assoc, pure_bind]
  try rfl

set_option maxRecDepth 8192 in
set_option maxHeartbeats 4000000 in
/-- Window 1 of @main is its stretch of the line: the outlined functions unfolded at their calls, sequencing reassociated. -/
theorem part1_eq (c : Dev nD) : main_part1 (F := F) c = seq p1 := by
  simp only [p1, main_part1, fn_var_2.body, fn_where_3.body, fn_elu_4.body, fn_where_5.body, fn_where_6.body, seq_append, seq, bind_assoc, pure_bind]
  try rfl

set_option maxRecDepth 8192 in
set_option maxHeartbeats 4000000 in
/-- Window 2 of @main is its stretch of the line: the outlined functions unfolded at their calls, sequencing reassociated. -/
theorem part2_eq (c : Dev nD) : main_part2 (F := F) c = seq p2 := by
  simp only [p2, main_part2, fn_var_2.body, fn_where_3.body, fn_elu_4.body, fn_where_5.body, fn_where_6.body, seq_append, seq, bind_assoc, pure_bind]
  try rfl

set_option maxRecDepth 8192 in
set_option maxHeartbeats 4000000 in
/-- Window 3 of @main is its stretch of the line: the outlined functions unfolded at their calls, sequencing reassociated. -/
theorem part3_eq (c : Dev nD) : main_part3 (F := F) c = seq p3 := by
  simp only [p3, main_part3, fn_var_7.body, fn_where_8.body, fn_elu_9.body, fn_where_10.body, fn_where_11.body, fn_relu.body, seq_append, seq, bind_assoc, pure_bind]
  try rfl

set_option maxRecDepth 8192 in
set_option maxHeartbeats 4000000 in
/-- Window 4 of @main is its stretch of the line: the outlined functions unfolded at their calls, sequencing reassociated. -/
theorem part4_eq (c : Dev nD) : main_part4 (F := F) c = seq p4 := by
  simp only [p4, main_part4, fn_log_softmax.body, seq_append, seq, bind_assoc, pure_bind]
  try rfl

/-- @main is the line. -/
theorem main_eq (c : Dev nD) : main (F := F) c = seq ops := by
  show (main_part0 c >>= fun _ => main_part1 c >>= fun _ => main_part2 c >>= fun _ => main_part3 c >>= fun _ => main_part4 c) = _
  rw [part0_eq, part1_eq, part2_eq, part3_eq, part4_eq, ops, seq_append, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

theorem w1_sub : (w1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub ..⟩
theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem w2_sub : (w2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem w3_sub : (w3 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub ..⟩
theorem w3_fresh : (w3 : List (HloOp τ sig (Elt F))).Forall fun op => op.fresh = ∅ :=
  ⟨rfl, rfl, rfl, rfl, rfl, rfl, rfl, rfl, rfl, rfl, rfl, rfl, rfl, rfl, rfl, rfl, rfl⟩

theorem w4_sub : (w4 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub ..⟩
theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem w5_sub : (w5 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem w5_fresh : (w5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem w6_sub : (w6 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w6_fresh : (w6 : List (HloOp τ sig (Elt F))).Forall fun op => op.fresh = ∅ :=
  ⟨rfl, rfl, rfl, rfl, rfl, rfl, rfl, rfl, rfl, rfl, rfl, rfl, rfl, rfl, rfl⟩

theorem w7_sub : (w7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem w7_fresh : (w7 : List (HloOp τ sig (Elt F))).Forall fun op => op.fresh = ∅ :=
  ⟨rfl, rfl, rfl, rfl, rfl, rfl, rfl, rfl⟩

theorem w8_sub : (w8 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub ..⟩
theorem w8_fresh : (w8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem w9_sub : (w9 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem w9_fresh : (w9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem w10_sub : (w10 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w10_fresh : (w10 : List (HloOp τ sig (Elt F))).Forall fun op => op.fresh = ∅ :=
  ⟨rfl, rfl, rfl, rfl, rfl, rfl, rfl, rfl, rfl, rfl, rfl, rfl, rfl, rfl, rfl⟩

theorem w11_sub : (w11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub ..⟩
theorem w11_fresh : (w11 : List (HloOp τ sig (Elt F))).Forall fun op => op.fresh = ∅ :=
  ⟨rfl, rfl, rfl, rfl, rfl, rfl, rfl, rfl, rfl, rfl, rfl, rfl, rfl, rfl⟩

theorem w12_sub : (w12 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub ..⟩
theorem w12_fresh : (w12 : List (HloOp τ sig (Elt F))).Forall fun op => op.fresh = ∅ :=
  ⟨rfl, rfl, rfl, rfl, rfl, rfl, rfl, rfl, rfl, rfl, rfl, rfl, rfl, rfl, rfl, rfl⟩

theorem w13_sub : (w13 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem w13_fresh : (w13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem w14_sub : (w14 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w14_fresh : (w14 : List (HloOp τ sig (Elt F))).Forall fun op => op.fresh = ∅ :=
  ⟨rfl, rfl, rfl, rfl, rfl, rfl, rfl, rfl, rfl, rfl, rfl, rfl, rfl, rfl, rfl⟩

theorem w15_sub : (w15 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub ..⟩
theorem w15_fresh : (w15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem w16_sub : (w16 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem w16_fresh : (w16 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem p0_sub : (p0 : List (HloOp τ sig (Elt F))).Forall fun op => op.bufs ⊆ tcRefs τ sig := by
  unfold p0; exact forall_app (forall_app (w1_sub) w2_sub) w3_sub
theorem p0_fresh : (p0 : List (HloOp τ sig (Elt F))).Forall fun op => op.fresh = ∅ := by
  unfold p0; exact forall_app (forall_app (w1_fresh) w2_fresh) w3_fresh

theorem p1_sub : (p1 : List (HloOp τ sig (Elt F))).Forall fun op => op.bufs ⊆ tcRefs τ sig := by
  unfold p1; exact forall_app (forall_app (forall_app (w4_sub) w5_sub) w6_sub) w7_sub
theorem p1_fresh : (p1 : List (HloOp τ sig (Elt F))).Forall fun op => op.fresh = ∅ := by
  unfold p1; exact forall_app (forall_app (forall_app (w4_fresh) w5_fresh) w6_fresh) w7_fresh

theorem p2_sub : (p2 : List (HloOp τ sig (Elt F))).Forall fun op => op.bufs ⊆ tcRefs τ sig := by
  unfold p2; exact forall_app (forall_app (forall_app (w8_sub) w9_sub) w10_sub) w11_sub
theorem p2_fresh : (p2 : List (HloOp τ sig (Elt F))).Forall fun op => op.fresh = ∅ := by
  unfold p2; exact forall_app (forall_app (forall_app (w8_fresh) w9_fresh) w10_fresh) w11_fresh

theorem p3_sub : (p3 : List (HloOp τ sig (Elt F))).Forall fun op => op.bufs ⊆ tcRefs τ sig := by
  unfold p3; exact forall_app (forall_app (forall_app (w12_sub) w13_sub) w14_sub) w15_sub
theorem p3_fresh : (p3 : List (HloOp τ sig (Elt F))).Forall fun op => op.fresh = ∅ := by
  unfold p3; exact forall_app (forall_app (forall_app (w12_fresh) w13_fresh) w14_fresh) w15_fresh

theorem p4_sub : (p4 : List (HloOp τ sig (Elt F))).Forall fun op => op.bufs ⊆ tcRefs τ sig := by
  unfold p4; exact w16_sub
theorem p4_fresh : (p4 : List (HloOp τ sig (Elt F))).Forall fun op => op.fresh = ∅ := by
  unfold p4; exact w16_fresh

theorem ops_sub : (ops : List (HloOp τ sig (Elt F))).Forall fun op => op.bufs ⊆ tcRefs τ sig := by
  unfold ops; exact forall_app p0_sub (forall_app p1_sub (forall_app p2_sub (forall_app p3_sub p4_sub)))
theorem ops_fresh : (ops : List (HloOp τ sig (Elt F))).Forall fun op => op.fresh = ∅ := by
  unfold ops; exact forall_app p0_fresh (forall_app p1_fresh (forall_app p2_fresh (forall_app p3_fresh p4_fresh)))

/-- On every device, for any float values, from any memory with zero counters: every weakly fair execution of @main
    terminates, and every final state has each buffer at the fold of the 401 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

end Cert.ReferenceIdeal.Hand

end
-- ==== Proof.RefRun.lean ====
/- The reference's run read back: the line of operations is folded stretch by stretch from any contents `V` of a device's
   buffers (`val k V`: the contents after the first k stretches); each stretch's lemma shows the arrays still needed after
   it to be the named layer functions of the argument buffers (a buffer a stretch does not write keeps its contents:
   `valK_keep`), so the last shows the result buffer to hold `outv V`; with `run_main` that is `run`, and dropping the
   result from it is the frame claim. -/
import proofs.«403053_j58033598104012_3_alg».proof.Proof.RefOps
import proofs.«403053_j58033598104012_3_alg».proof.Proof.RefLayers

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- One operation's written buffer is in the stretch's list of written buffers. -/
local macro "writes_one" : tactic =>
  `(tactic| (simp only [nullary_writes, unary_writes, binary_writes, ternary_writes, reshape_writes, Finset.singleton_subset_iff, List.mem_toFinset]
             exact List.mem_map_of_mem (by decide)))

/-- The buffers stretch 1 writes. -/
abbrev w1_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27]
theorem w1_writes : (w1 : List (HloOp τ sig (Elt F))).Forall fun op => op.writes ⊆ (w1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- The contents after the first 1 stretch. -/
def val1 (V : Valuation τ sig (Elt F)) : Valuation τ sig (Elt F) := after w1 V
/-- A buffer stretch 1 does not write keeps its contents through it. -/
theorem val1_keep (V : Valuation τ sig (Elt F)) (r : Ref sig .tc) (h : r ∉ w1_W) :
    val1 V (no_index (Proc.devRef .tc r)) = V (Proc.devRef .tc r) :=
  after_of_writes_sub w1 _ w1_writes h

/-- The buffers stretch 2 writes. -/
abbrev w2_W : List (Ref sig .tc) := [main_cst_4, main_v28, main_cst_5, main_v29, main_v30, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v31, main_v32, main_v33, main_v34, main_cst_7, main_v35, main_v36, main_v37, main_v38, main_v39, main_v40, main_v41, main_v42, main_v43, main_v44, main_v45, main_v46]
theorem w2_writes : (w2 : List (HloOp τ sig (Elt F))).Forall fun op => op.writes ⊆ (w2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- The contents after the first 2 stretches. -/
def val2 (V : Valuation τ sig (Elt F)) : Valuation τ sig (Elt F) := after w2 (val1 V)
/-- A buffer stretch 2 does not write keeps its contents through it. -/
theorem val2_keep (V : Valuation τ sig (Elt F)) (r : Ref sig .tc) (h : r ∉ w2_W) :
    val2 V (no_index (Proc.devRef .tc r)) = (val1 V) (Proc.devRef .tc r) :=
  after_of_writes_sub w2 _ w2_writes h

/-- The buffers stretch 3 writes. -/
abbrev w3_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v47, main_c_8, main_v48]
theorem w3_writes : (w3 : List (HloOp τ sig (Elt F))).Forall fun op => op.writes ⊆ (w3_W.map (Proc.devRef (τ := τ) .tc)).toFinset := by
  simp only [List.Forall]
  refine ⟨?_, ?_, ?_, ?_, ?_, ?_, ?_, ?_, ?_, ?_, ?_, ?_, ?_, ?_, ?_, ?_, ?_⟩ <;> writes_one
/-- The contents after the first 3 stretches. -/
def val3 (V : Valuation τ sig (Elt F)) : Valuation τ sig (Elt F) := after w3 (val2 V)
/-- A buffer stretch 3 does not write keeps its contents through it. -/
theorem val3_keep (V : Valuation τ sig (Elt F)) (r : Ref sig .tc) (h : r ∉ w3_W) :
    val3 V (no_index (Proc.devRef .tc r)) = (val2 V) (Proc.devRef .tc r) :=
  after_of_writes_sub w3 _ w3_writes h

/-- The buffers stretch 4 writes. -/
abbrev w4_W : List (Ref sig .tc) := [main_v49, main_c_9, main_v50, main_v51, main_v52, main_v53, main_v54, main_cst_10, main_v55, main_v56, main_v57, main_cst_11, main_v58, main_cst_12, main_v59, main_v60, main_v61, main_cst_13, main_v62, main_v63, main_v64, main_v65, main_v66, main_v67, main_v68, main_v69, main_v70, main_v71]
theorem w4_writes : (w4 : List (HloOp τ sig (Elt F))).Forall fun op => op.writes ⊆ (w4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- The contents after the first 4 stretches. -/
def val4 (V : Valuation τ sig (Elt F)) : Valuation τ sig (Elt F) := after w4 (val3 V)
/-- A buffer stretch 4 does not write keeps its contents through it. -/
theorem val4_keep (V : Valuation τ sig (Elt F)) (r : Ref sig .tc) (h : r ∉ w4_W) :
    val4 V (no_index (Proc.devRef .tc r)) = (val3 V) (Proc.devRef .tc r) :=
  after_of_writes_sub w4 _ w4_writes h

/-- The buffers stretch 5 writes. -/
abbrev w5_W : List (Ref sig .tc) := [main_cst_14, main_v72, main_cst_15, main_v73, main_v74, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v75, main_v76, main_v77, main_v78, main_cst_17, main_v79, main_v80, main_v81, main_v82, main_v83, main_v84, main_v85, main_v86, main_v87, main_v88, main_v89, main_v90]
theorem w5_writes : (w5 : List (HloOp τ sig (Elt F))).Forall fun op => op.writes ⊆ (w5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- The contents after the first 5 stretches. -/
def val5 (V : Valuation τ sig (Elt F)) : Valuation τ sig (Elt F) := after w5 (val4 V)
/-- A buffer stretch 5 does not write keeps its contents through it. -/
theorem val5_keep (V : Valuation τ sig (Elt F)) (r : Ref sig .tc) (h : r ∉ w5_W) :
    val5 V (no_index (Proc.devRef .tc r)) = (val4 V) (Proc.devRef .tc r) :=
  after_of_writes_sub w5 _ w5_writes h

/-- The buffers stretch 6 writes. -/
abbrev w6_W : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v91]
theorem w6_writes : (w6 : List (HloOp τ sig (Elt F))).Forall fun op => op.writes ⊆ (w6_W.map (Proc.devRef (τ := τ) .tc)).toFinset := by
  simp only [List.Forall]
  refine ⟨?_, ?_, ?_, ?_, ?_, ?_, ?_, ?_, ?_, ?_, ?_, ?_, ?_, ?_, ?_⟩ <;> writes_one
/-- The contents after the first 6 stretches. -/
def val6 (V : Valuation τ sig (Elt F)) : Valuation τ sig (Elt F) := after w6 (val5 V)
/-- A buffer stretch 6 does not write keeps its contents through it. -/
theorem val6_keep (V : Valuation τ sig (Elt F)) (r : Ref sig .tc) (h : r ∉ w6_W) :
    val6 V (no_index (Proc.devRef .tc r)) = (val5 V) (Proc.devRef .tc r) :=
  after_of_writes_sub w6 _ w6_writes h

/-- The buffers stretch 7 writes. -/
abbrev w7_W : List (Ref sig .tc) := [main_c_18, main_v92, main_v93, main_c_19, main_v94, main_v95, main_v96, main_v97]
theorem w7_writes : (w7 : List (HloOp τ sig (Elt F))).Forall fun op => op.writes ⊆ (w7_W.map (Proc.devRef (τ := τ) .tc)).toFinset := by
  simp only [List.Forall]
  refine ⟨?_, ?_, ?_, ?_, ?_, ?_, ?_, ?_⟩ <;> writes_one
/-- The contents after the first 7 stretches. -/
def val7 (V : Valuation τ sig (Elt F)) : Valuation τ sig (Elt F) := after w7 (val6 V)
/-- A buffer stretch 7 does not write keeps its contents through it. -/
theorem val7_keep (V : Valuation τ sig (Elt F)) (r : Ref sig .tc) (h : r ∉ w7_W) :
    val7 V (no_index (Proc.devRef .tc r)) = (val6 V) (Proc.devRef .tc r) :=
  after_of_writes_sub w7 _ w7_writes h

/-- The buffers stretch 8 writes. -/
abbrev w8_W : List (Ref sig .tc) := [main_v98, main_cst_20, main_v99, main_v100, main_v101, main_cst_21, main_v102, main_cst_22, main_v103, main_v104, main_v105, main_cst_23, main_v106, main_v107, main_v108, main_v109, main_v110, main_v111, main_v112, main_v113, main_v114, main_v115]
theorem w8_writes : (w8 : List (HloOp τ sig (Elt F))).Forall fun op => op.writes ⊆ (w8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_one
/-- The contents after the first 8 stretches. -/
def val8 (V : Valuation τ sig (Elt F)) : Valuation τ sig (Elt F) := after w8 (val7 V)
/-- A buffer stretch 8 does not write keeps its contents through it. -/
theorem val8_keep (V : Valuation τ sig (Elt F)) (r : Ref sig .tc) (h : r ∉ w8_W) :
    val8 V (no_index (Proc.devRef .tc r)) = (val7 V) (Proc.devRef .tc r) :=
  after_of_writes_sub w8 _ w8_writes h

/-- The buffers stretch 9 writes. -/
abbrev w9_W : List (Ref sig .tc) := [main_cst_24, main_v116, main_cst_25, main_v117, main_v118, main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v119, main_v120, main_v121, main_v122, main_cst_27, main_v123, main_v124, main_v125, main_v126, main_v127, main_v128, main_v129, main_v130, main_v131, main_v132, main_v133, main_v134]
theorem w9_writes : (w9 : List (HloOp τ sig (Elt F))).Forall fun op => op.writes ⊆ (w9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- The contents after the first 9 stretches. -/
def val9 (V : Valuation τ sig (Elt F)) : Valuation τ sig (Elt F) := after w9 (val8 V)
/-- A buffer stretch 9 does not write keeps its contents through it. -/
theorem val9_keep (V : Valuation τ sig (Elt F)) (r : Ref sig .tc) (h : r ∉ w9_W) :
    val9 V (no_index (Proc.devRef .tc r)) = (val8 V) (Proc.devRef .tc r) :=
  after_of_writes_sub w9 _ w9_writes h

/-- The buffers stretch 10 writes. -/
abbrev w10_W : List (Ref sig .tc) := [main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v135]
theorem w10_writes : (w10 : List (HloOp τ sig (Elt F))).Forall fun op => op.writes ⊆ (w10_W.map (Proc.devRef (τ := τ) .tc)).toFinset := by
  simp only [List.Forall]
  refine ⟨?_, ?_, ?_, ?_, ?_, ?_, ?_, ?_, ?_, ?_, ?_, ?_, ?_, ?_, ?_⟩ <;> writes_one
/-- The contents after the first 10 stretches. -/
def val10 (V : Valuation τ sig (Elt F)) : Valuation τ sig (Elt F) := after w10 (val9 V)
/-- A buffer stretch 10 does not write keeps its contents through it. -/
theorem val10_keep (V : Valuation τ sig (Elt F)) (r : Ref sig .tc) (h : r ∉ w10_W) :
    val10 V (no_index (Proc.devRef .tc r)) = (val9 V) (Proc.devRef .tc r) :=
  after_of_writes_sub w10 _ w10_writes h

/-- The buffers stretch 11 writes. -/
abbrev w11_W : List (Ref sig .tc) := [main_c_28, main_v136, main_v137, main_c_29, main_v138, main_v139, main_v140, main_v141, main_v142, main_cst_30, main_v143, main_v144, main_v145, main_cst_31]
theorem w11_writes : (w11 : List (HloOp τ sig (Elt F))).Forall fun op => op.writes ⊆ (w11_W.map (Proc.devRef (τ := τ) .tc)).toFinset := by
  simp only [List.Forall]
  refine ⟨?_, ?_, ?_, ?_, ?_, ?_, ?_, ?_, ?_, ?_, ?_, ?_, ?_, ?_⟩ <;> writes_one
/-- The contents after the first 11 stretches. -/
def val11 (V : Valuation τ sig (Elt F)) : Valuation τ sig (Elt F) := after w11 (val10 V)
/-- A buffer stretch 11 does not write keeps its contents through it. -/
theorem val11_keep (V : Valuation τ sig (Elt F)) (r : Ref sig .tc) (h : r ∉ w11_W) :
    val11 V (no_index (Proc.devRef .tc r)) = (val10 V) (Proc.devRef .tc r) :=
  after_of_writes_sub w11 _ w11_writes h

/-- The buffers stretch 12 writes. -/
abbrev w12_W : List (Ref sig .tc) := [main_v146, main_cst_32, main_v147, main_v148, main_v149, main_cst_33, main_v150, main_v151, main_v152, main_v153, main_v154, main_v155, main_v156, main_v157, main_v158, main_v159]
theorem w12_writes : (w12 : List (HloOp τ sig (Elt F))).Forall fun op => op.writes ⊆ (w12_W.map (Proc.devRef (τ := τ) .tc)).toFinset := by
  simp only [List.Forall]
  refine ⟨?_, ?_, ?_, ?_, ?_, ?_, ?_, ?_, ?_, ?_, ?_, ?_, ?_, ?_, ?_, ?_⟩ <;> writes_one
/-- The contents after the first 12 stretches. -/
def val12 (V : Valuation τ sig (Elt F)) : Valuation τ sig (Elt F) := after w12 (val11 V)
/-- A buffer stretch 12 does not write keeps its contents through it. -/
theorem val12_keep (V : Valuation τ sig (Elt F)) (r : Ref sig .tc) (h : r ∉ w12_W) :
    val12 V (no_index (Proc.devRef .tc r)) = (val11 V) (Proc.devRef .tc r) :=
  after_of_writes_sub w12 _ w12_writes h

/-- The buffers stretch 13 writes. -/
abbrev w13_W : List (Ref sig .tc) := [main_cst_34, main_v160, main_cst_35, main_v161, main_v162, main_c_36, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v163, main_v164, main_v165, main_v166, main_cst_37, main_v167, main_v168, main_v169, main_v170, main_v171, main_v172, main_v173, main_v174, main_v175, main_v176, main_v177, main_v178]
theorem w13_writes : (w13 : List (HloOp τ sig (Elt F))).Forall fun op => op.writes ⊆ (w13_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- The contents after the first 13 stretches. -/
def val13 (V : Valuation τ sig (Elt F)) : Valuation τ sig (Elt F) := after w13 (val12 V)
/-- A buffer stretch 13 does not write keeps its contents through it. -/
theorem val13_keep (V : Valuation τ sig (Elt F)) (r : Ref sig .tc) (h : r ∉ w13_W) :
    val13 V (no_index (Proc.devRef .tc r)) = (val12 V) (Proc.devRef .tc r) :=
  after_of_writes_sub w13 _ w13_writes h

/-- The buffers stretch 14 writes. -/
abbrev w14_W : List (Ref sig .tc) := [main_call7_cst, main_call7_v0, main_call7_v1, main_call7_cst_0, main_call7_v2, main_call7_v3, main_call7_cst_1, main_call7_call0_v0, main_call7_call0_v1, main_call7_v4, main_call7_v5, main_call7_cst_2, main_call7_v6, main_call7_v7, main_v179]
theorem w14_writes : (w14 : List (HloOp τ sig (Elt F))).Forall fun op => op.writes ⊆ (w14_W.map (Proc.devRef (τ := τ) .tc)).toFinset := by
  simp only [List.Forall]
  refine ⟨?_, ?_, ?_, ?_, ?_, ?_, ?_, ?_, ?_, ?_, ?_, ?_, ?_, ?_, ?_⟩ <;> writes_one
/-- The contents after the first 14 stretches. -/
def val14 (V : Valuation τ sig (Elt F)) : Valuation τ sig (Elt F) := after w14 (val13 V)
/-- A buffer stretch 14 does not write keeps its contents through it. -/
theorem val14_keep (V : Valuation τ sig (Elt F)) (r : Ref sig .tc) (h : r ∉ w14_W) :
    val14 V (no_index (Proc.devRef .tc r)) = (val13 V) (Proc.devRef .tc r) :=
  after_of_writes_sub w14 _ w14_writes h

/-- The buffers stretch 15 writes. -/
abbrev w15_W : List (Ref sig .tc) := [main_cst_38, main_v180, main_v181, main_v182, main_cst_39, main_v183, main_cst_40, main_v184, main_v185, main_v186, main_cst_41, main_v187, main_v188, main_v189, main_v190, main_v191, main_v192, main_v193, main_v194, main_call8_cst, main_call8_v0, main_v195]
theorem w15_writes : (w15 : List (HloOp τ sig (Elt F))).Forall fun op => op.writes ⊆ (w15_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_one
/-- The contents after the first 15 stretches. -/
def val15 (V : Valuation τ sig (Elt F)) : Valuation τ sig (Elt F) := after w15 (val14 V)
/-- A buffer stretch 15 does not write keeps its contents through it. -/
theorem val15_keep (V : Valuation τ sig (Elt F)) (r : Ref sig .tc) (h : r ∉ w15_W) :
    val15 V (no_index (Proc.devRef .tc r)) = (val14 V) (Proc.devRef .tc r) :=
  after_of_writes_sub w15 _ w15_writes h

/-- The buffers stretch 16 writes. -/
abbrev w16_W : List (Ref sig .tc) := [main_v196, main_v197, main_v198, main_v199, main_call9_cst, main_call9_v0, main_call9_cst_0, main_call9_v1, main_call9_v2, main_call9_v3, main_call9_v4, main_call9_v5, main_call9_v6, main_call9_cst_1, main_call9_v7, main_call9_v8, main_call9_v9, main_call9_v10, main_v200]
theorem w16_writes : (w16 : List (HloOp τ sig (Elt F))).Forall fun op => op.writes ⊆ (w16_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one
/-- The contents after the first 16 stretches. -/
def val16 (V : Valuation τ sig (Elt F)) : Valuation τ sig (Elt F) := after w16 (val15 V)
/-- A buffer stretch 16 does not write keeps its contents through it. -/
theorem val16_keep (V : Valuation τ sig (Elt F)) (r : Ref sig .tc) (h : r ∉ w16_W) :
    val16 V (no_index (Proc.devRef .tc r)) = (val15 V) (Proc.devRef .tc r) :=
  after_of_writes_sub w16 _ w16_writes h

/-- The fold over the whole line is the last of the stretch-by-stretch contents. -/
theorem after_ops (V : Valuation τ sig (Elt F)) : after ops V = val16 V := by
  simp only [ops, p0, p1, p2, p3, p4, after_app, val16, val15, val14, val13, val12, val11, val10, val9, val8, val7, val6, val5, val4, val3, val2, val1]

/-! ## Each stretch's arrays, by name -/

theorem val1_v1 (V : Valuation τ sig (Elt F)) : val1 V (no_index (Proc.devRef .tc main_v1)) = sV V := by
  unfold val1
  simp only [w1]
  after_results_simp
  try rfl

theorem val1_v3 (V : Valuation τ sig (Elt F)) : val1 V (no_index (Proc.devRef .tc main_v3)) = dV V := by
  unfold val1
  simp only [w1]
  after_results_simp
  try rfl

theorem val1_v27 (V : Valuation τ sig (Elt F)) : val1 V (no_index (Proc.devRef .tc main_v27)) = pre1 V := by
  unfold val1
  simp only [w1]
  after_results_simp
  try rfl

theorem val2_v46 (V : Valuation τ sig (Elt F)) : val2 V (no_index (Proc.devRef .tc main_v46)) = bnv1 V := by
  unfold val2
  simp only [w2]
  after_results_simp
  simp (disch := decide) only [val1_keep, val1_v27]
  try rfl

theorem val3_v47 (V : Valuation τ sig (Elt F)) : val3 V (no_index (Proc.devRef .tc main_v47)) = hv1 V := by
  unfold val3
  simp only [w3]
  after_results_simp
  simp (disch := decide) only [val2_v46]
  try rfl

theorem val3_v48 (V : Valuation τ sig (Elt F)) : val3 V (no_index (Proc.devRef .tc main_v48)) = broadcastInDim S3200000 ![] bcast_S_S3200000 (constantI S_ 32 0#32) := by
  unfold val3
  simp only [w3]
  after_results_simp
  try rfl

theorem val4_v71 (V : Valuation τ sig (Elt F)) : val4 V (no_index (Proc.devRef .tc main_v71)) = pre2 V := by
  unfold val4
  simp only [w4]
  after_results_simp
  simp (disch := decide) only [val3_keep, val2_keep, val1_keep, val3_v47, val1_v3, val1_v1, val3_v48]
  try rfl

theorem val5_v90 (V : Valuation τ sig (Elt F)) : val5 V (no_index (Proc.devRef .tc main_v90)) = bnv2 V := by
  unfold val5
  simp only [w5]
  after_results_simp
  simp (disch := decide) only [val4_keep, val3_keep, val2_keep, val1_keep, val4_v71]
  try rfl

theorem val6_v91 (V : Valuation τ sig (Elt F)) : val6 V (no_index (Proc.devRef .tc main_v91)) = hv2 V := by
  unfold val6
  simp only [w6]
  after_results_simp
  simp (disch := decide) only [val5_v90]
  try rfl

theorem val7_v97 (V : Valuation τ sig (Elt F)) : val7 V (no_index (Proc.devRef .tc main_v97)) = srcCol (sV V) := by
  unfold val7
  simp only [w7]
  after_results_simp
  simp (disch := decide) only [val6_keep, val5_keep, val4_keep, val3_keep, val2_keep, val1_v1]
  try rfl

theorem val8_v115 (V : Valuation τ sig (Elt F)) : val8 V (no_index (Proc.devRef .tc main_v115)) = pre3 V := by
  unfold val8
  simp only [w8]
  after_results_simp
  simp (disch := decide) only [val7_keep, val6_keep, val5_keep, val4_keep, val3_keep, val2_keep, val1_keep, val6_v91, val1_v3, val7_v97]
  try rfl

theorem val9_v134 (V : Valuation τ sig (Elt F)) : val9 V (no_index (Proc.devRef .tc main_v134)) = bnv3 V := by
  unfold val9
  simp only [w9]
  after_results_simp
  simp (disch := decide) only [val8_keep, val7_keep, val6_keep, val5_keep, val4_keep, val3_keep, val2_keep, val1_keep, val8_v115]
  try rfl

theorem val10_v135 (V : Valuation τ sig (Elt F)) : val10 V (no_index (Proc.devRef .tc main_v135)) = hv3 V := by
  unfold val10
  simp only [w10]
  after_results_simp
  simp (disch := decide) only [val9_v134]
  try rfl

theorem val11_v145 (V : Valuation τ sig (Elt F)) : val11 V (no_index (Proc.devRef .tc main_v145)) = msgSum32 (hv3 V) (srcCol (sV V)) (dstCol (dV V)) := by
  unfold val11
  simp only [w11]
  after_results_simp
  simp (disch := decide) only [val10_keep, val9_keep, val8_keep, val7_keep, val6_keep, val5_keep, val4_keep, val3_keep, val2_keep, val1_v1, val10_v135, val1_v3]
  try rfl

theorem val11_cst_31 (V : Valuation τ sig (Elt F)) : val11 V (no_index (Proc.devRef .tc main_cst_31)) = constant S_ .f32 0x3F800000#32 := by
  unfold val11
  simp only [w11]
  after_results_simp
  try rfl

theorem val12_v159 (V : Valuation τ sig (Elt F)) : val12 V (no_index (Proc.devRef .tc main_v159)) = pre4 V := by
  unfold val12
  simp only [w12]
  after_results_simp
  simp (disch := decide) only [val11_keep, val10_keep, val9_keep, val8_keep, val7_keep, val6_keep, val5_keep, val4_keep, val3_keep, val2_keep, val1_keep, val10_v135, val11_cst_31, val1_v3, val11_v145]
  try rfl

theorem val13_v178 (V : Valuation τ sig (Elt F)) : val13 V (no_index (Proc.devRef .tc main_v178)) = bnv4 V := by
  unfold val13
  simp only [w13]
  after_results_simp
  simp (disch := decide) only [val12_keep, val11_keep, val10_keep, val9_keep, val8_keep, val7_keep, val6_keep, val5_keep, val4_keep, val3_keep, val2_keep, val1_keep, val12_v159]
  try rfl

theorem val14_v179 (V : Valuation τ sig (Elt F)) : val14 V (no_index (Proc.devRef .tc main_v179)) = hv4 V := by
  unfold val14
  simp only [w14]
  after_results_simp
  simp (disch := decide) only [val13_v178]
  try rfl

theorem val15_v195 (V : Valuation τ sig (Elt F)) : val15 V (no_index (Proc.devRef .tc main_v195)) = zv V := by
  unfold val15
  simp only [w15]
  after_results_simp
  simp (disch := decide) only [val14_keep, val13_keep, val12_keep, val11_keep, val10_keep, val9_keep, val8_keep, val7_keep, val6_keep, val5_keep, val4_keep, val3_keep, val2_keep, val1_keep, val14_v179]
  try rfl

theorem val16_v200 (V : Valuation τ sig (Elt F)) : val16 V (no_index (Proc.devRef .tc main_v200)) = outv V := by
  unfold val16
  simp only [w16]
  after_results_simp
  simp (disch := decide) only [val15_keep, val14_keep, val13_keep, val12_keep, val11_keep, val10_keep, val9_keep, val8_keep, val7_keep, val6_keep, val5_keep, val4_keep, val3_keep, val2_keep, val1_keep, val15_v195]
  try rfl

/-- An argument buffer, written by no stretch, holds its launch contents after the whole line. -/
local macro "arg_kept" : tactic =>
  `(tactic| (rw [after_ops]; simp (disch := decide) only [val16_keep, val15_keep, val14_keep, val13_keep, val12_keep, val11_keep, val10_keep, val9_keep, val8_keep, val7_keep, val6_keep, val5_keep, val4_keep, val3_keep, val2_keep, val1_keep]; try rfl))

/-- On every device, for any float values, from any memory with zero counters: every weakly fair execution of @main
    terminates with the result buffer at `refOut` of the launch memory and the twenty-seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v200) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨(h c main_v200).trans (by rw [after_ops]; exact val16_v200 _),
      (h c main_arg0).trans (by arg_kept),
      (h c main_arg1).trans (by arg_kept),
      (h c main_arg2).trans (by arg_kept),
      (h c main_arg3).trans (by arg_kept),
      (h c main_arg4).trans (by arg_kept),
      (h c main_arg5).trans (by arg_kept),
      (h c main_arg6).trans (by arg_kept),
      (h c main_arg7).trans (by arg_kept),
      (h c main_arg8).trans (by arg_kept),
      (h c main_arg9).trans (by arg_kept),
      (h c main_arg10).trans (by arg_kept),
      (h c main_arg11).trans (by arg_kept),
      (h c main_arg12).trans (by arg_kept),
      (h c main_arg13).trans (by arg_kept),
      (h c main_arg14).trans (by arg_kept),
      (h c main_arg15).trans (by arg_kept),
      (h c main_arg16).trans (by arg_kept),
      (h c main_arg17).trans (by arg_kept),
      (h c main_arg18).trans (by arg_kept),
      (h c main_arg19).trans (by arg_kept),
      (h c main_arg20).trans (by arg_kept),
      (h c main_arg21).trans (by arg_kept),
      (h c main_arg22).trans (by arg_kept),
      (h c main_arg23).trans (by arg_kept),
      (h c main_arg24).trans (by arg_kept),
      (h c main_arg25).trans (by arg_kept),
      (h c main_arg26).trans (by arg_kept)⟩)
    (run_main m ρ)

end Cert.ReferenceIdeal.Hand

end
-- ==== Proof.RefFrame.lean ====
/- The reference's frame claim: its run with the result dropped. -/
import proofs.«403053_j58033598104012_3_alg».proof.Defs
import proofs.«403053_j58033598104012_3_alg».proof.Proof.RefRun

noncomputable section

namespace Cert.ReferenceIdeal.Hand

open Cert.ReferenceIdeal Idealize.ShloMosaic Idealize.SL.Sem

/-- The reference runs to termination from any launch memory, and its argument buffers end unchanged. -/
theorem frame [hP : Cert.Pre_finite_inputs.Facts] : Cert.frame_ReferenceIdeal :=
  fun m g _ => (θ_run (defs (F := Ideal)) _ _).mono (fun _ h c => (h c).2) (run (F := Ideal) m g)

end Cert.ReferenceIdeal.Hand

end
-- ==== Proof.Claims.lean ====
/- The certificate's five claims from the three runs: the two kernels' frames and the reference's are their runs with the
   result dropped; the idealization changed nothing; and at the ideal values the reference's result, the layer functions
   of its arguments, is the kernel's, since the arguments agree and the kernel's result is the same layer functions of its
   own arguments. -/
import proofs.«403053_j58033598104012_3_alg».proof.Defs
import proofs.«403053_j58033598104012_3_alg».proof.Proof.Gen.Kernel
import proofs.«403053_j58033598104012_3_alg».proof.Proof.Gen.KernelIdeal
import proofs.«403053_j58033598104012_3_alg».proof.Proof.Gen.ReferenceIdeal
import proofs.«403053_j58033598104012_3_alg».proof.Proof.Gen.Pre_finite_inputs
import proofs.«403053_j58033598104012_3_alg».proof.Proof.RunMain
import proofs.«403053_j58033598104012_3_alg».proof.Proof.KRunMain
import proofs.«403053_j58033598104012_3_alg».proof.Proof.KerValueMain
import proofs.«403053_j58033598104012_3_alg».proof.Proof.RefRun
import proofs.«403053_j58033598104012_3_alg».proof.Proof.RefFrame

noncomputable section

namespace Cert.Hand.Claims

open Idealize.ShloMosaic Idealize.ShloMosaic.TcCoe Idealize.SL.Sem

/-- The kernel at the bit-exact values terminates on every weakly fair execution and leaves its arguments as launched:
    its run with the result dropped. -/
theorem frame_K : Cert.frame_Kernel := fun m g _ =>
  (θ_run (Cert.Kernel.defs (F := Bits)) _ _).mono (fun _ h c => (h c).2) (Cert.Kernel.Hand.run_named (F := Bits) m g)

/-- The same of the kernel at the ideal values. -/
theorem frame_KI : Cert.frame_KernelIdeal := fun m g _ =>
  (θ_run (Cert.KernelIdeal.defs (F := Ideal)) _ _).mono (fun _ h c => (h c).2) (Cert.KernelIdeal.Hand.run_named (F := Ideal) m g)

/-- The same of the reference. -/
theorem frame_RI : Cert.frame_ReferenceIdeal := Cert.ReferenceIdeal.Hand.frame

/-- The idealization rewrote no operation: nothing to preserve. -/
theorem preserves : Cert.preserves_Kernel_KernelIdeal := trivial

/-- From memories that agree on the twenty-seven arguments, the reference's result is the kernel's: the reference's result
    is the layer functions of its arguments, the arguments are the kernel's, and the kernel's result is those layer functions
    of its arguments (on finite inputs). -/
theorem ref_eq_kernel (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.Hand.refOut (F := Ideal) m' c = Cert.KernelIdeal.Hand.RES (F := Ideal) m c := by
  obtain ⟨h0, h1, h2, h3, h4, h5, h6, h7, h8, h9, h10, h11, h12, h13, h14, h15, h16, h17, h18, h19, h20, h21, h22, h23, h24, h25, h26⟩ := hagree
  rw [Cert.ReferenceIdeal.Hand.refOut_eq, h0, h1, h2, h3, h4, h5, h6, h7, h8, h9, h10, h11, h12, h13, h14, h15, h16, h17, h18, h19, h20, h21, h22, h23, h24, h25, h26]
  exact (Cert.KernelIdeal.Hand.kernel_value m hpre c).symm

/-- At the ideal values, from memories agreeing on the arguments, the kernel and the reference both run to termination,
    end with equal results and leave their arguments as launched. -/
theorem algebraic : Cert.algebraic_KernelIdeal_ReferenceIdeal := fun m g m' g' hpre hagree =>
  ⟨fun c => Cert.KernelIdeal.Hand.RES (F := Ideal) m c, Cert.KernelIdeal.Hand.run_named (F := Ideal) m g,
    (θ_run (Cert.ReferenceIdeal.defs (F := Ideal)) _ _).mono
      (fun _ h c => ⟨(h c).1.trans (ref_eq_kernel m m' hpre c (hagree c)), (h c).2⟩)
      (Cert.ReferenceIdeal.Hand.run (F := Ideal) m' g')⟩

end Cert.Hand.Claims

end
-- ==== Proof.lean ====
/- The certificate's claim: the frames of the kernel (at the bit-exact and at the ideal values) and of the reference, the
   idealization's preservation (it rewrote no operation), and the equality of the kernel's and the reference's results at
   the ideal values from memories agreeing on the arguments — each proved in Proof/Claims.lean, over the programs' facts. -/
import proofs.«403053_j58033598104012_3_alg».proof.Defs
import proofs.«403053_j58033598104012_3_alg».proof.Proof.Gen.Kernel
import proofs.«403053_j58033598104012_3_alg».proof.Proof.Gen.KernelIdeal
import proofs.«403053_j58033598104012_3_alg».proof.Proof.Gen.ReferenceIdeal
import proofs.«403053_j58033598104012_3_alg».proof.Proof.Gen.Pre_finite_inputs
import proofs.«403053_j58033598104012_3_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Hand.Claims.frame_K, Cert.Hand.Claims.frame_KI, Cert.Hand.Claims.frame_RI, Cert.Hand.Claims.preserves,
    Cert.Hand.Claims.algebraic⟩

end Cert.Proof

end
